-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v715)) (v1 : (c : Dev Cert.KernelIdeal.nD) → Buf (Elt Ideal) ((c.tc : Thread Cert.KernelIdeal.nD Cert.KernelIdeal.τ).loc Cert.KernelIdeal.main_v704)) (v2 : (c : Dev Cert.KernelIdeal.nD) → Buf (Elt Ideal) ((c.tc : Thread Cert.KernelIdeal.nD Cert.KernelIdeal.τ).loc Cert.KernelIdeal.main_v695)) (v3 : (c : Dev Cert.KernelIdeal.nD) → Buf (Elt Ideal) ((c.tc : Thread Cert.KernelIdeal.nD Cert.KernelIdeal.τ).loc Cert.KernelIdeal.main_v713)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v715) = v0 c
          ∧ r.2.mem ((c.tc : Thread Cert.KernelIdeal.nD Cert.KernelIdeal.τ).loc Cert.KernelIdeal.main_v704) = v1 c
          ∧ r.2.mem ((c.tc : Thread Cert.KernelIdeal.nD Cert.KernelIdeal.τ).loc Cert.KernelIdeal.main_v695) = v2 c
          ∧ r.2.mem ((c.tc : Thread Cert.KernelIdeal.nD Cert.KernelIdeal.τ).loc Cert.KernelIdeal.main_v713) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v799) = v0 c
          ∧ r.2.mem ((c.tc : Thread Cert.ReferenceIdeal.nD Cert.ReferenceIdeal.τ).loc Cert.ReferenceIdeal.main_v795) = v1 c
          ∧ r.2.mem ((c.tc : Thread Cert.ReferenceIdeal.nD Cert.ReferenceIdeal.τ).loc Cert.ReferenceIdeal.main_v796) = v2 c
          ∧ r.2.mem ((c.tc : Thread Cert.ReferenceIdeal.nD Cert.ReferenceIdeal.τ).loc Cert.ReferenceIdeal.main_v797) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S100000x128 : Shape := ⟨2, ![100000, 128]⟩
abbrev S20000x128 : Shape := ⟨2, ![20000, 128]⟩
abbrev S3x2x4x128x128 : Shape := ⟨5, ![3, 2, 4, 128, 128]⟩
abbrev S3x2x4x128 : Shape := ⟨4, ![3, 2, 4, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S500000 : Shape := ⟨1, ![500000]⟩
abbrev S800000 : Shape := ⟨1, ![800000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S20000x128 : S_.BroadcastsInDim S20000x128 (![] : Fin 0 → Fin S20000x128.rank)
  reducesTo_S20000x128_S_d0_1 : S20000x128.ReducesTo [0, 1] S_
  bcast_S_S3x2x4x128x128 : S_.BroadcastsInDim S3x2x4x128x128 (![] : Fin 0 → Fin S3x2x4x128x128.rank)
  reducesTo_S3x2x4x128x128_S_d0_1_2_3_4 : S3x2x4x128x128.ReducesTo [0, 1, 2, 3, 4] S_
  bcast_S_S3x2x4x128 : S_.BroadcastsInDim S3x2x4x128 (![] : Fin 0 → Fin S3x2x4x128.rank)
  reducesTo_S3x2x4x128_S_d0_1_2_3 : S3x2x4x128.ReducesTo [0, 1, 2, 3] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S64 .f32) (main_arg8 : FVec F S128x64 .f32) (main_arg9 : FVec F S64 .f32) (main_arg10 : FVec F S64x1 .f32) (main_arg11 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S3x2x4x128 .f32) (main_arg5 : FVec F S3x2x4x128x128 .f32) (main_arg6 : FVec F S128x64 .f32) (main_arg7 : FVec F S64 .f32) (main_arg8 : FVec F S128x64 .f32) (main_arg9 : FVec F S64 .f32) (main_arg10 : FVec F S64x1 .f32) (main_arg11 : FVec F S1 .f32) (main_v13 : IVec S_ 1) (main_v16 : IVec S3x2x4x128x128 1) : IVec S_ 1 :=
  let main_c_5 : IVec S_ 1 := constantI S_ 1 1#1
  let main_v17 : IVec S_ 1 := (fun x v => Host.reduce IntOp.andi x v reducesTo_S3x2x4x128x128_S_d0_1_2_3_4 h_S_) main_v16 main_c_5
  let main_v18 : IVec S_ 1 := andi main_v13 main_v17
  let main_v19 : FVec F S3x2x4x128 .f32 := Host.absf main_arg4
  let main_cst_6 : FVec F S_ .f32 := constant S_ .f32 0x7F800000#32
  let main_v20 : FVec F S3x2x4x128 .f32 := broadcastInDim S3x2x4x128 ![] bcast_S_S3x2x4x128 main_cst_6
  let main_v21 : IVec S3x2x4x128 1 := cmpf .olt main_v19 main_v20
  let main_c_7 : IVec S_ 1 := constantI S_ 1 1#1
  let main_v22 : IVec S_ 1 := (fun x v => Host.reduce IntOp.andi x v reducesTo_S3x2x4x128_S_d0_1_2_3 h_S_) main_v21 main_c_7
  let main_v23 : IVec S_ 1 := andi main_v18 main_v22
  let main_v24 : FVec F S3x2x4x128x128 .f32 := Host.absf main_arg5
  let main_cst_8 : FVec F S_ .f32 := constant S_ .f32 0x7F800000#32
  let main_v25 : FVec F S3x2x4x128x128 .f32 := broadcastInDim S3x2x4x128x128 ![] bcast_S_S3x2x4x128x128 main_cst_8
  let main_v26 : IVec S3x2x4x128x128 1 := cmpf .olt main_v24 main_v25
  let main_c_9 : IVec S_ 1 := constantI S_ 1 1#1
  let main_v27 : IVec S_ 1 := (fun x v => Host.reduce IntOp.andi x v reducesTo_S3x2x4x128x128_S_d0_1_2_3_4 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S40000x128 .f32) (main_arg1 : FVec F S100000x128 .f32) (main_arg2 : FVec F S20000x128 .f32) (main_arg3 : FVec F S3x2x4x128x128 .f32) (main_arg4 : FVec F S3x2x4x128 .f32) (main_arg5 : FVec F S3x2x4x128x128 .f32) (main_arg6 : FVec F S128x64 .f32) (main_arg7 : FVec F S64 .f32) (main_arg8 : FVec F S128x64 .f32) (main_arg9 : FVec F S64 .f32) (main_arg10 : FVec F S64x1 .f32) (main_arg11 : FVec F S1 .f32) (main_arg12 : IVec S500000 32) (main_arg13 : IVec S500000 32) (main_arg14 : IVec S500000 32) (main_arg15 : IVec S500000 32) (main_arg16 : IVec S800000 32) (main_arg17 : IVec S800000 32) (main_arg18 : IVec S800000 32) (main_arg19 : IVec S800000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S20000x128 .f32 := Host.absf main_arg2
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S3x2x4x128x128 .f32 := Host.absf main_arg3
  let main_cst_4 : FVec F S_ .f32 := constant S_ .f32 0x7F800000#32
  let main_v15 : FVec F S3x2x4x128x128 .f32 := broadcastInDim S3x2x4x128x128 ![] bcast_S_S3x2x4x128x128 main_cst_4
  let main_v16 : IVec S3x2x4x128x128 1 := cmpf .olt main_v14 main_v15
  fn_part1 (F := F) main_arg4 main_arg5 main_arg6 main_arg7 main_arg8 main_arg9 main_arg10 main_arg11 main_v13 main_v16
-- ==== Kernel.lean ====
abbrev S40000x128 : Shape := ⟨2, ![40000, 128]⟩
abbrev S100000x128 : Shape := ⟨2, ![100000, 128]⟩
abbrev S20000x128 : Shape := ⟨2, ![20000, 128]⟩
abbrev S3x2x4x128x128 : Shape := ⟨5, ![3, 2, 4, 128, 128]⟩
abbrev S3x2x4x128 : Shape := ⟨4, ![3, 2, 4, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S500000 : Shape := ⟨1, ![500000]⟩
abbrev S800000 : Shape := ⟨1, ![800000]⟩
abbrev S1x2x4x128x128 : Shape := ⟨5, ![1, 2, 4, 128, 128]⟩
abbrev S2x4x128x128 : Shape := ⟨4, ![2, 4, 128, 128]⟩
abbrev S1x2x4x128 : Shape := ⟨4, ![1, 2, 4, 128]⟩
abbrev S2x4x128 : Shape := ⟨3, ![2, 4, 128]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S800000x1 : Shape := ⟨2, ![800000, 1]⟩
abbrev S800000x128 : Shape := ⟨2, ![800000, 128]⟩
abbrev S40000 : Shape := ⟨1, ![40000]⟩
abbrev S40000x1 : Shape := ⟨2, ![40000, 1]⟩
abbrev S20000 : Shape := ⟨1, ![20000]⟩
abbrev S20000x1 : Shape := ⟨2, ![20000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x100000x128 : Shape := ⟨3, ![1, 100000, 128]⟩
abbrev S2x100000x128 : Shape := ⟨3, ![2, 100000, 128]⟩
abbrev S1x128x128 : Shape := ⟨3, ![1, 128, 128]⟩
abbrev S2x128x128 : Shape := ⟨3, ![2, 128, 128]⟩
abbrev S2x2000x128 : Shape := ⟨3, ![2, 2000, 128]⟩
abbrev S2000x128 : Shape := ⟨2, ![2000, 128]⟩
abbrev S1x2000x128 : Shape := ⟨3, ![1, 2000, 128]⟩
abbrev S1x128 : Shape := ⟨2, ![1, 128]⟩
abbrev S1x40000x128 : Shape := ⟨3, ![1, 40000, 128]⟩
abbrev S1x20000x128 : Shape := ⟨3, ![1, 20000, 128]⟩
abbrev S40000x64 : Shape := ⟨2, ![40000, 64]⟩
abbrev S2000x64 : Shape := ⟨2, ![2000, 64]⟩
abbrev S1x64 : Shape := ⟨2, ![1, 64]⟩
abbrev S1x1 : Shape := ⟨2, ![1, 1]⟩

abbrev nBuf : Space → Nat
  | .hbm => 880
  | .vmem => 174
  | .smem => 0
  | _ => 0

abbrev hbmTy0_0 (i : Nat) : BufTy := match i % 128 with
  | 0 => ⟨S40000x128, .f32⟩
  | 1 => ⟨S100000x128, .f32⟩
  | 2 => ⟨S20000x128, .f32⟩
  | 3 => ⟨S3x2x4x128x128, .f32⟩
  | 4 => ⟨S3x2x4x128, .f32⟩
  | 5 => ⟨S3x2x4x128x128, .f32⟩
  | 6 => ⟨S128x64, .f32⟩
  | 7 => ⟨S64, .f32⟩
  | 8 => ⟨S128x64, .f32⟩
  | 9 => ⟨S64, .f32⟩
  | 10 => ⟨S64x1, .f32⟩
  | 11 => ⟨S1, .f32⟩
  | 12 => ⟨S500000, .i32⟩
  | 13 => ⟨S500000, .i32⟩
  | 14 => ⟨S500000, .i32⟩
  | 15 => ⟨S500000, .i32⟩
  | 16 => ⟨S800000, .i32⟩
  | 17 => ⟨S800000, .i32⟩
  | 18 => ⟨S800000, .i32⟩
  | 19 => ⟨S800000, .i32⟩
  | 20 => ⟨S1x2x4x128x128, .f32⟩
  | 21 => ⟨S2x4x128x128, .f32⟩
  | 22 => ⟨S1x2x4x128, .f32⟩
  | 23 => ⟨S2x4x128, .f32⟩
  | 24 => ⟨S1x2x4x128x128, .f32⟩
  | 25 => ⟨S2x4x128x128, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x128, .f32⟩
  | 35 => ⟨S_, .f32⟩
  | 36 => ⟨S100000x128, .f32⟩
  | 37 => ⟨S500000x1, .i32⟩
  | 38 => ⟨S100000x128, .f32⟩
  | 39 => ⟨S_, .f32⟩
  | 40 => ⟨S500000, .f32⟩
  | 41 => ⟨S_, .f32⟩
  | 42 => ⟨S100000, .f32⟩
  | 43 => ⟨S500000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x128, .f32⟩
  | 50 => ⟨S100000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S100000x128, .f32⟩
  | 62 => ⟨S800000x1, .i32⟩
  | 63 => ⟨S100000x128, .f32⟩
  | 64 => ⟨S_, .f32⟩
  | 65 => ⟨S800000, .f32⟩
  | 66 => ⟨S_, .f32⟩
  | 67 => ⟨S100000, .f32⟩
  | 68 => ⟨S800000x1, .i32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x128, .f32⟩
  | 75 => ⟨S100000x128, .f32⟩
  | 76 => ⟨S_, .i32⟩
  | 77 => ⟨S500000, .i32⟩
  | 78 => ⟨S500000, .i1⟩
  | 79 => ⟨S_, .i32⟩
  | 80 => ⟨S500000, .i32⟩
  | 81 => ⟨S500000, .i32⟩
  | 82 => ⟨S500000, .i32⟩
  | 83 => ⟨S500000x1, .i32⟩
  | 84 => ⟨S500000x128, .f32⟩
  | 85 => ⟨S_, .f32⟩
  | 86 => ⟨S40000x128, .f32⟩
  | 87 => ⟨S500000x1, .i32⟩
  | 88 => ⟨S40000x128, .f32⟩
  | 89 => ⟨S_, .f32⟩
  | 90 => ⟨S500000, .f32⟩
  | 91 => ⟨S_, .f32⟩
  | 92 => ⟨S40000, .f32⟩
  | 93 => ⟨S500000x1, .i32⟩
  | 94 => ⟨S40000, .f32⟩
  | 95 => ⟨S_, .f32⟩
  | 96 => ⟨S40000, .f32⟩
  | 97 => ⟨S40000, .f32⟩
  | 98 => ⟨S40000x1, .f32⟩
  | 99 => ⟨S40000x128, .f32⟩
  | 100 => ⟨S40000x128, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x128, .f32⟩
  | 110 => ⟨S_, .f32⟩
  | 111 => ⟨S20000x128, .f32⟩
  | 112 => ⟨S800000x1, .i32⟩
  | 113 => ⟨S20000x128, .f32⟩
  | 114 => ⟨S_, .f32⟩
  | 115 => ⟨S800000, .f32⟩
  | 116 => ⟨S_, .f32⟩
  | 117 => ⟨S20000, .f32⟩
  | 118 => ⟨S800000x1, .i32⟩
  | 119 => ⟨S20000, .f32⟩
  | 120 => ⟨S_, .f32⟩
  | 121 => ⟨S20000, .f32⟩
  | 122 => ⟨S20000, .f32⟩
  | 123 => ⟨S20000x1, .f32⟩
  | 124 => ⟨S20000x128, .f32⟩
  | 125 => ⟨S20000x128, .f32⟩
  | 126 => ⟨S1x1x128x128, .f32⟩
  | 127 => ⟨S128x128, .f32⟩
  | _ => ⟨S40000x128, .f32⟩

abbrev hbmTy0_1 (i : Nat) : BufTy := match i % 128 with
  | 0 => ⟨S1x1x128x128, .f32⟩
  | 1 => ⟨S128x128, .f32⟩
  | 2 => ⟨S1x1x128x128, .f32⟩
  | 3 => ⟨S128x128, .f32⟩
  | 4 => ⟨S1x1x128x128, .f32⟩
  | 5 => ⟨S128x128, .f32⟩
  | 6 => ⟨S128x128, .f32⟩
  | 7 => ⟨S1x1x128, .f32⟩
  | 8 => ⟨S128, .f32⟩
  | 9 => ⟨S1x1x128, .f32⟩
  | 10 => ⟨S128, .f32⟩
  | 11 => ⟨S128, .f32⟩
  | 12 => ⟨S1x100000x128, .f32⟩
  | 13 => ⟨S1x100000x128, .f32⟩
  | 14 => ⟨S2x100000x128, .f32⟩
  | 15 => ⟨S1x128x128, .f32⟩
  | 16 => ⟨S1x128x128, .f32⟩
  | 17 => ⟨S2x128x128, .f32⟩
  | 18 => ⟨S100000x128, .f32⟩
  | 19 => ⟨S1x1x128x128, .f32⟩
  | 20 => ⟨S128x128, .f32⟩
  | 21 => ⟨S1x1x128x128, .f32⟩
  | 22 => ⟨S128x128, .f32⟩
  | 23 => ⟨S1x1x128, .f32⟩
  | 24 => ⟨S128, .f32⟩
  | 25 => ⟨S1x40000x128, .f32⟩
  | 26 => ⟨S1x128x128, .f32⟩
  | 27 => ⟨S40000x128, .f32⟩
  | 28 => ⟨S1x1x128x128, .f32⟩
  | 29 => ⟨S128x128, .f32⟩
  | 30 => ⟨S1x1x128x128, .f32⟩
  | 31 => ⟨S128x128, .f32⟩
  | 32 => ⟨S1x1x128, .f32⟩
  | 33 => ⟨S128, .f32⟩
  | 34 => ⟨S1x20000x128, .f32⟩
  | 35 => ⟨S1x128x128, .f32⟩
  | 36 => ⟨S20000x128, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x128, .f32⟩
  | 46 => ⟨S_, .f32⟩
  | 47 => ⟨S100000x128, .f32⟩
  | 48 => ⟨S500000x1, .i32⟩
  | 49 => ⟨S100000x128, .f32⟩
  | 50 => ⟨S_, .f32⟩
  | 51 => ⟨S500000, .f32⟩
  | 52 => ⟨S_, .f32⟩
  | 53 => ⟨S100000, .f32⟩
  | 54 => ⟨S500000x1, .i32⟩
  | 55 => ⟨S100000, .f32⟩
  | 56 => ⟨S_, .f32⟩
  | 57 => ⟨S100000, .f32⟩
  | 58 => ⟨S100000, .f32⟩
  | 59 => ⟨S100000x1, .f32⟩
  | 60 => ⟨S100000x128, .f32⟩
  | 61 => ⟨S100000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S100000x128, .f32⟩
  | 73 => ⟨S800000x1, .i32⟩
  | 74 => ⟨S100000x128, .f32⟩
  | 75 => ⟨S_, .f32⟩
  | 76 => ⟨S800000, .f32⟩
  | 77 => ⟨S_, .f32⟩
  | 78 => ⟨S100000, .f32⟩
  | 79 => ⟨S800000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x128, .f32⟩
  | 96 => ⟨S_, .f32⟩
  | 97 => ⟨S40000x128, .f32⟩
  | 98 => ⟨S500000x1, .i32⟩
  | 99 => ⟨S40000x128, .f32⟩
  | 100 => ⟨S_, .f32⟩
  | 101 => ⟨S500000, .f32⟩
  | 102 => ⟨S_, .f32⟩
  | 103 => ⟨S40000, .f32⟩
  | 104 => ⟨S500000x1, .i32⟩
  | 105 => ⟨S40000, .f32⟩
  | 106 => ⟨S_, .f32⟩
  | 107 => ⟨S40000, .f32⟩
  | 108 => ⟨S40000, .f32⟩
  | 109 => ⟨S40000x1, .f32⟩
  | 110 => ⟨S40000x128, .f32⟩
  | 111 => ⟨S40000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S_, .f32⟩
  | 122 => ⟨S20000x128, .f32⟩
  | 123 => ⟨S800000x1, .i32⟩
  | 124 => ⟨S20000x128, .f32⟩
  | 125 => ⟨S_, .f32⟩
  | 126 => ⟨S800000, .f32⟩
  | 127 => ⟨S_, .f32⟩
  | _ => ⟨S40000x128, .f32⟩

abbrev hbmTy0_2 (i : Nat) : BufTy := match i % 128 with
  | 0 => ⟨S20000, .f32⟩
  | 1 => ⟨S800000x1, .i32⟩
  | 2 => ⟨S20000, .f32⟩
  | 3 => ⟨S_, .f32⟩
  | 4 => ⟨S20000, .f32⟩
  | 5 => ⟨S20000, .f32⟩
  | 6 => ⟨S20000x1, .f32⟩
  | 7 => ⟨S20000x128, .f32⟩
  | 8 => ⟨S20000x128, .f32⟩
  | 9 => ⟨S1x1x128x128, .f32⟩
  | 10 => ⟨S128x128, .f32⟩
  | 11 => ⟨S1x1x128x128, .f32⟩
  | 12 => ⟨S128x128, .f32⟩
  | 13 => ⟨S1x1x128x128, .f32⟩
  | 14 => ⟨S128x128, .f32⟩
  | 15 => ⟨S1x1x128x128, .f32⟩
  | 16 => ⟨S128x128, .f32⟩
  | 17 => ⟨S128x128, .f32⟩
  | 18 => ⟨S1x1x128, .f32⟩
  | 19 => ⟨S128, .f32⟩
  | 20 => ⟨S1x1x128, .f32⟩
  | 21 => ⟨S128, .f32⟩
  | 22 => ⟨S128, .f32⟩
  | 23 => ⟨S1x100000x128, .f32⟩
  | 24 => ⟨S1x100000x128, .f32⟩
  | 25 => ⟨S2x100000x128, .f32⟩
  | 26 => ⟨S1x128x128, .f32⟩
  | 27 => ⟨S1x128x128, .f32⟩
  | 28 => ⟨S2x128x128, .f32⟩
  | 29 => ⟨S100000x128, .f32⟩
  | 30 => ⟨S1x1x128x128, .f32⟩
  | 31 => ⟨S128x128, .f32⟩
  | 32 => ⟨S1x1x128x128, .f32⟩
  | 33 => ⟨S128x128, .f32⟩
  | 34 => ⟨S1x1x128, .f32⟩
  | 35 => ⟨S128, .f32⟩
  | 36 => ⟨S1x40000x128, .f32⟩
  | 37 => ⟨S1x128x128, .f32⟩
  | 38 => ⟨S40000x128, .f32⟩
  | 39 => ⟨S1x1x128x128, .f32⟩
  | 40 => ⟨S128x128, .f32⟩
  | 41 => ⟨S1x1x128x128, .f32⟩
  | 42 => ⟨S128x128, .f32⟩
  | 43 => ⟨S1x1x128, .f32⟩
  | 44 => ⟨S128, .f32⟩
  | 45 => ⟨S1x20000x128, .f32⟩
  | 46 => ⟨S1x128x128, .f32⟩
  | 47 => ⟨S20000x128, .f32⟩
  | 48 => ⟨S40000x64, .f32⟩
  | 49 => ⟨S1x2x4x128x128, .f32⟩
  | 50 => ⟨S2x4x128x128, .f32⟩
  | 51 => ⟨S1x2x4x128, .f32⟩
  | 52 => ⟨S2x4x128, .f32⟩
  | 53 => ⟨S1x2x4x128x128, .f32⟩
  | 54 => ⟨S2x4x128x128, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x128, .f32⟩
  | 64 => ⟨S_, .f32⟩
  | 65 => ⟨S100000x128, .f32⟩
  | 66 => ⟨S500000x1, .i32⟩
  | 67 => ⟨S100000x128, .f32⟩
  | 68 => ⟨S_, .f32⟩
  | 69 => ⟨S500000, .f32⟩
  | 70 => ⟨S_, .f32⟩
  | 71 => ⟨S100000, .f32⟩
  | 72 => ⟨S500000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S_, .f32⟩
  | 90 => ⟨S100000x128, .f32⟩
  | 91 => ⟨S800000x1, .i32⟩
  | 92 => ⟨S100000x128, .f32⟩
  | 93 => ⟨S_, .f32⟩
  | 94 => ⟨S800000, .f32⟩
  | 95 => ⟨S_, .f32⟩
  | 96 => ⟨S100000, .f32⟩
  | 97 => ⟨S800000x1, .i32⟩
  | 98 => ⟨S100000, .f32⟩
  | 99 => ⟨S_, .f32⟩
  | 100 => ⟨S100000, .f32⟩
  | 101 => ⟨S100000, .f32⟩
  | 102 => ⟨S100000x1, .f32⟩
  | 103 => ⟨S100000x128, .f32⟩
  | 104 => ⟨S100000x128, .f32⟩
  | 105 => ⟨S_, .i32⟩
  | 106 => ⟨S500000, .i32⟩
  | 107 => ⟨S500000, .i1⟩
  | 108 => ⟨S_, .i32⟩
  | 109 => ⟨S500000, .i32⟩
  | 110 => ⟨S500000, .i32⟩
  | 111 => ⟨S500000, .i32⟩
  | 112 => ⟨S500000x1, .i32⟩
  | 113 => ⟨S500000x128, .f32⟩
  | 114 => ⟨S_, .f32⟩
  | 115 => ⟨S40000x128, .f32⟩
  | 116 => ⟨S500000x1, .i32⟩
  | 117 => ⟨S40000x128, .f32⟩
  | 118 => ⟨S_, .f32⟩
  | 119 => ⟨S500000, .f32⟩
  | 120 => ⟨S_, .f32⟩
  | 121 => ⟨S40000, .f32⟩
  | 122 => ⟨S500000x1, .i32⟩
  | 123 => ⟨S40000, .f32⟩
  | 124 => ⟨S_, .f32⟩
  | 125 => ⟨S40000, .f32⟩
  | 126 => ⟨S40000, .f32⟩
  | 127 => ⟨S40000x1, .f32⟩
  | _ => ⟨S40000x128, .f32⟩

abbrev hbmTy0_3 (i : Nat) : BufTy := match i % 128 with
  | 0 => ⟨S40000x128, .f32⟩
  | 1 => ⟨S40000x128, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S_, .f32⟩
  | 12 => ⟨S20000x128, .f32⟩
  | 13 => ⟨S800000x1, .i32⟩
  | 14 => ⟨S20000x128, .f32⟩
  | 15 => ⟨S_, .f32⟩
  | 16 => ⟨S800000, .f32⟩
  | 17 => ⟨S_, .f32⟩
  | 18 => ⟨S20000, .f32⟩
  | 19 => ⟨S800000x1, .i32⟩
  | 20 => ⟨S20000, .f32⟩
  | 21 => ⟨S_, .f32⟩
  | 22 => ⟨S20000, .f32⟩
  | 23 => ⟨S20000, .f32⟩
  | 24 => ⟨S20000x1, .f32⟩
  | 25 => ⟨S20000x128, .f32⟩
  | 26 => ⟨S20000x128, .f32⟩
  | 27 => ⟨S1x1x128x128, .f32⟩
  | 28 => ⟨S128x128, .f32⟩
  | 29 => ⟨S1x1x128x128, .f32⟩
  | 30 => ⟨S128x128, .f32⟩
  | 31 => ⟨S1x1x128x128, .f32⟩
  | 32 => ⟨S128x128, .f32⟩
  | 33 => ⟨S1x1x128x128, .f32⟩
  | 34 => ⟨S128x128, .f32⟩
  | 35 => ⟨S128x128, .f32⟩
  | 36 => ⟨S1x1x128, .f32⟩
  | 37 => ⟨S128, .f32⟩
  | 38 => ⟨S1x1x128, .f32⟩
  | 39 => ⟨S128, .f32⟩
  | 40 => ⟨S128, .f32⟩
  | 41 => ⟨S1x100000x128, .f32⟩
  | 42 => ⟨S1x100000x128, .f32⟩
  | 43 => ⟨S2x100000x128, .f32⟩
  | 44 => ⟨S1x128x128, .f32⟩
  | 45 => ⟨S1x128x128, .f32⟩
  | 46 => ⟨S2x128x128, .f32⟩
  | 47 => ⟨S100000x128, .f32⟩
  | 48 => ⟨S1x1x128x128, .f32⟩
  | 49 => ⟨S128x128, .f32⟩
  | 50 => ⟨S1x1x128x128, .f32⟩
  | 51 => ⟨S128x128, .f32⟩
  | 52 => ⟨S1x1x128, .f32⟩
  | 53 => ⟨S128, .f32⟩
  | 54 => ⟨S1x40000x128, .f32⟩
  | 55 => ⟨S1x128x128, .f32⟩
  | 56 => ⟨S40000x128, .f32⟩
  | 57 => ⟨S1x1x128x128, .f32⟩
  | 58 => ⟨S128x128, .f32⟩
  | 59 => ⟨S1x1x128x128, .f32⟩
  | 60 => ⟨S128x128, .f32⟩
  | 61 => ⟨S1x1x128, .f32⟩
  | 62 => ⟨S128, .f32⟩
  | 63 => ⟨S1x20000x128, .f32⟩
  | 64 => ⟨S1x128x128, .f32⟩
  | 65 => ⟨S20000x128, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x128, .f32⟩
  | 75 => ⟨S_, .f32⟩
  | 76 => ⟨S100000x128, .f32⟩
  | 77 => ⟨S500000x1, .i32⟩
  | 78 => ⟨S100000x128, .f32⟩
  | 79 => ⟨S_, .f32⟩
  | 80 => ⟨S500000, .f32⟩
  | 81 => ⟨S_, .f32⟩
  | 82 => ⟨S100000, .f32⟩
  | 83 => ⟨S500000x1, .i32⟩
  | 84 => ⟨S100000, .f32⟩
  | 85 => ⟨S_, .f32⟩
  | 86 => ⟨S100000, .f32⟩
  | 87 => ⟨S100000, .f32⟩
  | 88 => ⟨S100000x1, .f32⟩
  | 89 => ⟨S100000x128, .f32⟩
  | 90 => ⟨S100000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S100000x128, .f32⟩
  | 102 => ⟨S800000x1, .i32⟩
  | 103 => ⟨S100000x128, .f32⟩
  | 104 => ⟨S_, .f32⟩
  | 105 => ⟨S800000, .f32⟩
  | 106 => ⟨S_, .f32⟩
  | 107 => ⟨S100000, .f32⟩
  | 108 => ⟨S800000x1, .i32⟩
  | 109 => ⟨S100000, .f32⟩
  | 110 => ⟨S_, .f32⟩
  | 111 => ⟨S100000, .f32⟩
  | 112 => ⟨S100000, .f32⟩
  | 113 => ⟨S100000x1, .f32⟩
  | 114 => ⟨S100000x128, .f32⟩
  | 115 => ⟨S100000x128, .f32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000x128, .f32⟩
  | 125 => ⟨S_, .f32⟩
  | 126 => ⟨S40000x128, .f32⟩
  | 127 => ⟨S500000x1, .i32⟩
  | _ => ⟨S40000x128, .f32⟩

abbrev hbmTy0_4 (i : Nat) : BufTy := match i % 128 with
  | 0 => ⟨S40000x128, .f32⟩
  | 1 => ⟨S_, .f32⟩
  | 2 => ⟨S500000, .f32⟩
  | 3 => ⟨S_, .f32⟩
  | 4 => ⟨S40000, .f32⟩
  | 5 => ⟨S500000x1, .i32⟩
  | 6 => ⟨S40000, .f32⟩
  | 7 => ⟨S_, .f32⟩
  | 8 => ⟨S40000, .f32⟩
  | 9 => ⟨S40000, .f32⟩
  | 10 => ⟨S40000x1, .f32⟩
  | 11 => ⟨S40000x128, .f32⟩
  | 12 => ⟨S40000x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S20000x128, .f32⟩
  | 24 => ⟨S800000x1, .i32⟩
  | 25 => ⟨S20000x128, .f32⟩
  | 26 => ⟨S_, .f32⟩
  | 27 => ⟨S800000, .f32⟩
  | 28 => ⟨S_, .f32⟩
  | 29 => ⟨S20000, .f32⟩
  | 30 => ⟨S800000x1, .i32⟩
  | 31 => ⟨S20000, .f32⟩
  | 32 => ⟨S_, .f32⟩
  | 33 => ⟨S20000, .f32⟩
  | 34 => ⟨S20000, .f32⟩
  | 35 => ⟨S20000x1, .f32⟩
  | 36 => ⟨S20000x128, .f32⟩
  | 37 => ⟨S20000x128, .f32⟩
  | 38 => ⟨S1x1x128x128, .f32⟩
  | 39 => ⟨S128x128, .f32⟩
  | 40 => ⟨S1x1x128x128, .f32⟩
  | 41 => ⟨S128x128, .f32⟩
  | 42 => ⟨S1x1x128x128, .f32⟩
  | 43 => ⟨S128x128, .f32⟩
  | 44 => ⟨S1x1x128x128, .f32⟩
  | 45 => ⟨S128x128, .f32⟩
  | 46 => ⟨S128x128, .f32⟩
  | 47 => ⟨S1x1x128, .f32⟩
  | 48 => ⟨S128, .f32⟩
  | 49 => ⟨S1x1x128, .f32⟩
  | 50 => ⟨S128, .f32⟩
  | 51 => ⟨S128, .f32⟩
  | 52 => ⟨S1x100000x128, .f32⟩
  | 53 => ⟨S1x100000x128, .f32⟩
  | 54 => ⟨S2x100000x128, .f32⟩
  | 55 => ⟨S1x128x128, .f32⟩
  | 56 => ⟨S1x128x128, .f32⟩
  | 57 => ⟨S2x128x128, .f32⟩
  | 58 => ⟨S100000x128, .f32⟩
  | 59 => ⟨S1x1x128x128, .f32⟩
  | 60 => ⟨S128x128, .f32⟩
  | 61 => ⟨S1x1x128x128, .f32⟩
  | 62 => ⟨S128x128, .f32⟩
  | 63 => ⟨S1x1x128, .f32⟩
  | 64 => ⟨S128, .f32⟩
  | 65 => ⟨S1x40000x128, .f32⟩
  | 66 => ⟨S1x128x128, .f32⟩
  | 67 => ⟨S40000x128, .f32⟩
  | 68 => ⟨S1x1x128x128, .f32⟩
  | 69 => ⟨S128x128, .f32⟩
  | 70 => ⟨S1x1x128x128, .f32⟩
  | 71 => ⟨S128x128, .f32⟩
  | 72 => ⟨S1x1x128, .f32⟩
  | 73 => ⟨S128, .f32⟩
  | 74 => ⟨S1x20000x128, .f32⟩
  | 75 => ⟨S1x128x128, .f32⟩
  | 76 => ⟨S20000x128, .f32⟩
  | 77 => ⟨S40000x64, .f32⟩
  | 78 => ⟨S40000x1, .f32⟩
  | 79 => ⟨S1x1, .f32⟩
  | 80 => ⟨S40000x1, .f32⟩
  | 81 => ⟨S40000x1, .f32⟩
  | 82 => ⟨S1x2x4x128x128, .f32⟩
  | 83 => ⟨S2x4x128x128, .f32⟩
  | 84 => ⟨S1x2x4x128, .f32⟩
  | 85 => ⟨S2x4x128, .f32⟩
  | 86 => ⟨S1x2x4x128x128, .f32⟩
  | 87 => ⟨S2x4x128x128, .f32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S500000x128, .f32⟩
  | 97 => ⟨S_, .f32⟩
  | 98 => ⟨S100000x128, .f32⟩
  | 99 => ⟨S500000x1, .i32⟩
  | 100 => ⟨S100000x128, .f32⟩
  | 101 => ⟨S_, .f32⟩
  | 102 => ⟨S500000, .f32⟩
  | 103 => ⟨S_, .f32⟩
  | 104 => ⟨S100000, .f32⟩
  | 105 => ⟨S500000x1, .i32⟩
  | 106 => ⟨S100000, .f32⟩
  | 107 => ⟨S_, .f32⟩
  | 108 => ⟨S100000, .f32⟩
  | 109 => ⟨S100000, .f32⟩
  | 110 => ⟨S100000x1, .f32⟩
  | 111 => ⟨S100000x128, .f32⟩
  | 112 => ⟨S100000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S_, .f32⟩
  | 123 => ⟨S100000x128, .f32⟩
  | 124 => ⟨S800000x1, .i32⟩
  | 125 => ⟨S100000x128, .f32⟩
  | 126 => ⟨S_, .f32⟩
  | 127 => ⟨S800000, .f32⟩
  | _ => ⟨S40000x128, .f32⟩

abbrev hbmTy0_5 (i : Nat) : BufTy := match i % 128 with
  | 0 => ⟨S_, .f32⟩
  | 1 => ⟨S100000, .f32⟩
  | 2 => ⟨S800000x1, .i32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x128, .f32⟩
  | 9 => ⟨S100000x128, .f32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000x128, .f32⟩
  | 19 => ⟨S_, .f32⟩
  | 20 => ⟨S40000x128, .f32⟩
  | 21 => ⟨S500000x1, .i32⟩
  | 22 => ⟨S40000x128, .f32⟩
  | 23 => ⟨S_, .f32⟩
  | 24 => ⟨S500000, .f32⟩
  | 25 => ⟨S_, .f32⟩
  | 26 => ⟨S40000, .f32⟩
  | 27 => ⟨S500000x1, .i32⟩
  | 28 => ⟨S40000, .f32⟩
  | 29 => ⟨S_, .f32⟩
  | 30 => ⟨S40000, .f32⟩
  | 31 => ⟨S40000, .f32⟩
  | 32 => ⟨S40000x1, .f32⟩
  | 33 => ⟨S40000x128, .f32⟩
  | 34 => ⟨S40000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S_, .f32⟩
  | 45 => ⟨S20000x128, .f32⟩
  | 46 => ⟨S800000x1, .i32⟩
  | 47 => ⟨S20000x128, .f32⟩
  | 48 => ⟨S_, .f32⟩
  | 49 => ⟨S800000, .f32⟩
  | 50 => ⟨S_, .f32⟩
  | 51 => ⟨S20000, .f32⟩
  | 52 => ⟨S800000x1, .i32⟩
  | 53 => ⟨S20000, .f32⟩
  | 54 => ⟨S_, .f32⟩
  | 55 => ⟨S20000, .f32⟩
  | 56 => ⟨S20000, .f32⟩
  | 57 => ⟨S20000x1, .f32⟩
  | 58 => ⟨S20000x128, .f32⟩
  | 59 => ⟨S20000x128, .f32⟩
  | 60 => ⟨S1x1x128x128, .f32⟩
  | 61 => ⟨S128x128, .f32⟩
  | 62 => ⟨S1x1x128x128, .f32⟩
  | 63 => ⟨S128x128, .f32⟩
  | 64 => ⟨S1x1x128x128, .f32⟩
  | 65 => ⟨S128x128, .f32⟩
  | 66 => ⟨S1x1x128x128, .f32⟩
  | 67 => ⟨S128x128, .f32⟩
  | 68 => ⟨S128x128, .f32⟩
  | 69 => ⟨S1x1x128, .f32⟩
  | 70 => ⟨S128, .f32⟩
  | 71 => ⟨S1x1x128, .f32⟩
  | 72 => ⟨S128, .f32⟩
  | 73 => ⟨S128, .f32⟩
  | 74 => ⟨S1x100000x128, .f32⟩
  | 75 => ⟨S1x100000x128, .f32⟩
  | 76 => ⟨S2x100000x128, .f32⟩
  | 77 => ⟨S1x128x128, .f32⟩
  | 78 => ⟨S1x128x128, .f32⟩
  | 79 => ⟨S2x128x128, .f32⟩
  | 80 => ⟨S100000x128, .f32⟩
  | 81 => ⟨S1x1x128x128, .f32⟩
  | 82 => ⟨S128x128, .f32⟩
  | 83 => ⟨S1x1x128x128, .f32⟩
  | 84 => ⟨S128x128, .f32⟩
  | 85 => ⟨S1x1x128, .f32⟩
  | 86 => ⟨S128, .f32⟩
  | 87 => ⟨S1x40000x128, .f32⟩
  | 88 => ⟨S1x128x128, .f32⟩
  | 89 => ⟨S40000x128, .f32⟩
  | 90 => ⟨S1x1x128x128, .f32⟩
  | 91 => ⟨S128x128, .f32⟩
  | 92 => ⟨S1x1x128x128, .f32⟩
  | 93 => ⟨S128x128, .f32⟩
  | 94 => ⟨S1x1x128, .f32⟩
  | 95 => ⟨S128, .f32⟩
  | 96 => ⟨S1x20000x128, .f32⟩
  | 97 => ⟨S1x128x128, .f32⟩
  | 98 => ⟨S20000x128, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x128, .f32⟩
  | 108 => ⟨S_, .f32⟩
  | 109 => ⟨S100000x128, .f32⟩
  | 110 => ⟨S500000x1, .i32⟩
  | 111 => ⟨S100000x128, .f32⟩
  | 112 => ⟨S_, .f32⟩
  | 113 => ⟨S500000, .f32⟩
  | 114 => ⟨S_, .f32⟩
  | 115 => ⟨S100000, .f32⟩
  | 116 => ⟨S500000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x128, .f32⟩
  | 123 => ⟨S100000x128, .f32⟩
  | 124 => ⟨S_, .i32⟩
  | 125 => ⟨S800000, .i32⟩
  | 126 => ⟨S800000, .i1⟩
  | 127 => ⟨S_, .i32⟩
  | _ => ⟨S40000x128, .f32⟩

abbrev hbmTy0_6 (i : Nat) : BufTy := match i % 128 with
  | 0 => ⟨S800000, .i32⟩
  | 1 => ⟨S800000, .i32⟩
  | 2 => ⟨S800000, .i32⟩
  | 3 => ⟨S800000x1, .i32⟩
  | 4 => ⟨S800000x128, .f32⟩
  | 5 => ⟨S_, .f32⟩
  | 6 => ⟨S100000x128, .f32⟩
  | 7 => ⟨S800000x1, .i32⟩
  | 8 => ⟨S100000x128, .f32⟩
  | 9 => ⟨S_, .f32⟩
  | 10 => ⟨S800000, .f32⟩
  | 11 => ⟨S_, .f32⟩
  | 12 => ⟨S100000, .f32⟩
  | 13 => ⟨S800000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x128, .f32⟩
  | 20 => ⟨S100000x128, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x128, .f32⟩
  | 30 => ⟨S_, .f32⟩
  | 31 => ⟨S40000x128, .f32⟩
  | 32 => ⟨S500000x1, .i32⟩
  | 33 => ⟨S40000x128, .f32⟩
  | 34 => ⟨S_, .f32⟩
  | 35 => ⟨S500000, .f32⟩
  | 36 => ⟨S_, .f32⟩
  | 37 => ⟨S40000, .f32⟩
  | 38 => ⟨S500000x1, .i32⟩
  | 39 => ⟨S40000, .f32⟩
  | 40 => ⟨S_, .f32⟩
  | 41 => ⟨S40000, .f32⟩
  | 42 => ⟨S40000, .f32⟩
  | 43 => ⟨S40000x1, .f32⟩
  | 44 => ⟨S40000x128, .f32⟩
  | 45 => ⟨S40000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S20000x128, .f32⟩
  | 57 => ⟨S800000x1, .i32⟩
  | 58 => ⟨S20000x128, .f32⟩
  | 59 => ⟨S_, .f32⟩
  | 60 => ⟨S800000, .f32⟩
  | 61 => ⟨S_, .f32⟩
  | 62 => ⟨S20000, .f32⟩
  | 63 => ⟨S800000x1, .i32⟩
  | 64 => ⟨S20000, .f32⟩
  | 65 => ⟨S_, .f32⟩
  | 66 => ⟨S20000, .f32⟩
  | 67 => ⟨S20000, .f32⟩
  | 68 => ⟨S20000x1, .f32⟩
  | 69 => ⟨S20000x128, .f32⟩
  | 70 => ⟨S20000x128, .f32⟩
  | 71 => ⟨S1x1x128x128, .f32⟩
  | 72 => ⟨S128x128, .f32⟩
  | 73 => ⟨S1x1x128x128, .f32⟩
  | 74 => ⟨S128x128, .f32⟩
  | 75 => ⟨S1x1x128x128, .f32⟩
  | 76 => ⟨S128x128, .f32⟩
  | 77 => ⟨S1x1x128x128, .f32⟩
  | 78 => ⟨S128x128, .f32⟩
  | 79 => ⟨S128x128, .f32⟩
  | 80 => ⟨S1x1x128, .f32⟩
  | 81 => ⟨S128, .f32⟩
  | 82 => ⟨S1x1x128, .f32⟩
  | 83 => ⟨S128, .f32⟩
  | 84 => ⟨S128, .f32⟩
  | 85 => ⟨S1x100000x128, .f32⟩
  | 86 => ⟨S1x100000x128, .f32⟩
  | 87 => ⟨S2x100000x128, .f32⟩
  | 88 => ⟨S1x128x128, .f32⟩
  | 89 => ⟨S1x128x128, .f32⟩
  | 90 => ⟨S2x128x128, .f32⟩
  | 91 => ⟨S100000x128, .f32⟩
  | 92 => ⟨S1x1x128x128, .f32⟩
  | 93 => ⟨S128x128, .f32⟩
  | 94 => ⟨S1x1x128x128, .f32⟩
  | 95 => ⟨S128x128, .f32⟩
  | 96 => ⟨S1x1x128, .f32⟩
  | 97 => ⟨S128, .f32⟩
  | 98 => ⟨S1x40000x128, .f32⟩
  | 99 => ⟨S1x128x128, .f32⟩
  | 100 => ⟨S40000x128, .f32⟩
  | 101 => ⟨S1x1x128x128, .f32⟩
  | 102 => ⟨S128x128, .f32⟩
  | 103 => ⟨S1x1x128x128, .f32⟩
  | 104 => ⟨S128x128, .f32⟩
  | 105 => ⟨S1x1x128, .f32⟩
  | 106 => ⟨S128, .f32⟩
  | 107 => ⟨S1x20000x128, .f32⟩
  | 108 => ⟨S1x128x128, .f32⟩
  | 109 => ⟨S20000x128, .f32⟩
  | 110 => ⟨S40000x64, .f32⟩
  | 111 => ⟨S40000x64, .f32⟩
  | _ => ⟨S40000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S40000x128, .f32⟩

abbrev vmemTy0_0 (i : Nat) : BufTy := match i % 128 with
  | 0 => ⟨S2x2000x128, .f32⟩
  | 1 => ⟨S2x2000x128, .f32⟩
  | 2 => ⟨S2x128x128, .f32⟩
  | 3 => ⟨S2000x128, .f32⟩
  | 4 => ⟨S2000x128, .f32⟩
  | 5 => ⟨S128x128, .f32⟩
  | 6 => ⟨S128, .f32⟩
  | 7 => ⟨S2000x128, .f32⟩
  | 8 => ⟨S2000x128, .f32⟩
  | 9 => ⟨S1x2000x128, .f32⟩
  | 10 => ⟨S1x2000x128, .f32⟩
  | 11 => ⟨S1x128x128, .f32⟩
  | 12 => ⟨S2000x128, .f32⟩
  | 13 => ⟨S2000x128, .f32⟩
  | 14 => ⟨S128x128, .f32⟩
  | 15 => ⟨S128, .f32⟩
  | 16 => ⟨S2000x128, .f32⟩
  | 17 => ⟨S2000x128, .f32⟩
  | 18 => ⟨S1x2000x128, .f32⟩
  | 19 => ⟨S1x2000x128, .f32⟩
  | 20 => ⟨S1x128x128, .f32⟩
  | 21 => ⟨S2000x128, .f32⟩
  | 22 => ⟨S2000x128, .f32⟩
  | 23 => ⟨S128x128, .f32⟩
  | 24 => ⟨S128, .f32⟩
  | 25 => ⟨S2000x128, .f32⟩
  | 26 => ⟨S2000x128, .f32⟩
  | 27 => ⟨S2x2000x128, .f32⟩
  | 28 => ⟨S2x2000x128, .f32⟩
  | 29 => ⟨S2x128x128, .f32⟩
  | 30 => ⟨S2000x128, .f32⟩
  | 31 => ⟨S2000x128, .f32⟩
  | 32 => ⟨S128x128, .f32⟩
  | 33 => ⟨S128, .f32⟩
  | 34 => ⟨S2000x128, .f32⟩
  | 35 => ⟨S2000x128, .f32⟩
  | 36 => ⟨S1x2000x128, .f32⟩
  | 37 => ⟨S1x2000x128, .f32⟩
  | 38 => ⟨S1x128x128, .f32⟩
  | 39 => ⟨S2000x128, .f32⟩
  | 40 => ⟨S2000x128, .f32⟩
  | 41 => ⟨S128x128, .f32⟩
  | 42 => ⟨S128, .f32⟩
  | 43 => ⟨S2000x128, .f32⟩
  | 44 => ⟨S2000x128, .f32⟩
  | 45 => ⟨S1x2000x128, .f32⟩
  | 46 => ⟨S1x2000x128, .f32⟩
  | 47 => ⟨S1x128x128, .f32⟩
  | 48 => ⟨S2000x128, .f32⟩
  | 49 => ⟨S2000x128, .f32⟩
  | 50 => ⟨S128x128, .f32⟩
  | 51 => ⟨S128, .f32⟩
  | 52 => ⟨S2000x128, .f32⟩
  | 53 => ⟨S2000x128, .f32⟩
  | 54 => ⟨S2000x128, .f32⟩
  | 55 => ⟨S2000x128, .f32⟩
  | 56 => ⟨S128x64, .f32⟩
  | 57 => ⟨S64, .f32⟩
  | 58 => ⟨S2000x64, .f32⟩
  | 59 => ⟨S2000x64, .f32⟩
  | 60 => ⟨S2x2000x128, .f32⟩
  | 61 => ⟨S2x2000x128, .f32⟩
  | 62 => ⟨S2x128x128, .f32⟩
  | 63 => ⟨S2000x128, .f32⟩
  | 64 => ⟨S2000x128, .f32⟩
  | 65 => ⟨S128x128, .f32⟩
  | 66 => ⟨S128, .f32⟩
  | 67 => ⟨S2000x128, .f32⟩
  | 68 => ⟨S2000x128, .f32⟩
  | 69 => ⟨S1x2000x128, .f32⟩
  | 70 => ⟨S1x2000x128, .f32⟩
  | 71 => ⟨S1x128x128, .f32⟩
  | 72 => ⟨S2000x128, .f32⟩
  | 73 => ⟨S2000x128, .f32⟩
  | 74 => ⟨S128x128, .f32⟩
  | 75 => ⟨S128, .f32⟩
  | 76 => ⟨S2000x128, .f32⟩
  | 77 => ⟨S2000x128, .f32⟩
  | 78 => ⟨S1x2000x128, .f32⟩
  | 79 => ⟨S1x2000x128, .f32⟩
  | 80 => ⟨S1x128x128, .f32⟩
  | 81 => ⟨S2000x128, .f32⟩
  | 82 => ⟨S2000x128, .f32⟩
  | 83 => ⟨S128x128, .f32⟩
  | 84 => ⟨S128, .f32⟩
  | 85 => ⟨S2000x128, .f32⟩
  | 86 => ⟨S2000x128, .f32⟩
  | 87 => ⟨S2x2000x128, .f32⟩
  | 88 => ⟨S2x2000x128, .f32⟩
  | 89 => ⟨S2x128x128, .f32⟩
  | 90 => ⟨S2000x128, .f32⟩
  | 91 => ⟨S2000x128, .f32⟩
  | 92 => ⟨S128x128, .f32⟩
  | 93 => ⟨S128, .f32⟩
  | 94 => ⟨S2000x128, .f32⟩
  | 95 => ⟨S2000x128, .f32⟩
  | 96 => ⟨S1x2000x128, .f32⟩
  | 97 => ⟨S1x2000x128, .f32⟩
  | 98 => ⟨S1x128x128, .f32⟩
  | 99 => ⟨S2000x128, .f32⟩
  | 100 => ⟨S2000x128, .f32⟩
  | 101 => ⟨S128x128, .f32⟩
  | 102 => ⟨S128, .f32⟩
  | 103 => ⟨S2000x128, .f32⟩
  | 104 => ⟨S2000x128, .f32⟩
  | 105 => ⟨S1x2000x128, .f32⟩
  | 106 => ⟨S1x2000x128, .f32⟩
  | 107 => ⟨S1x128x128, .f32⟩
  | 108 => ⟨S2000x128, .f32⟩
  | 109 => ⟨S2000x128, .f32⟩
  | 110 => ⟨S128x128, .f32⟩
  | 111 => ⟨S128, .f32⟩
  | 112 => ⟨S2000x128, .f32⟩
  | 113 => ⟨S2000x128, .f32⟩
  | 114 => ⟨S2000x128, .f32⟩
  | 115 => ⟨S2000x128, .f32⟩
  | 116 => ⟨S128x64, .f32⟩
  | 117 => ⟨S64, .f32⟩
  | 118 => ⟨S2000x64, .f32⟩
  | 119 => ⟨S2000x64, .f32⟩
  | 120 => ⟨S2x2000x128, .f32⟩
  | 121 => ⟨S2x2000x128, .f32⟩
  | 122 => ⟨S2x128x128, .f32⟩
  | 123 => ⟨S2000x128, .f32⟩
  | 124 => ⟨S2000x128, .f32⟩
  | 125 => ⟨S128x128, .f32⟩
  | 126 => ⟨S128, .f32⟩
  | 127 => ⟨S2000x128, .f32⟩
  | _ => ⟨S40000x128, .f32⟩

abbrev vmemTy0_1 (i : Nat) : BufTy := match i % 128 with
  | 0 => ⟨S2000x128, .f32⟩
  | 1 => ⟨S1x2000x128, .f32⟩
  | 2 => ⟨S1x2000x128, .f32⟩
  | 3 => ⟨S1x128x128, .f32⟩
  | 4 => ⟨S2000x128, .f32⟩
  | 5 => ⟨S2000x128, .f32⟩
  | 6 => ⟨S128x128, .f32⟩
  | 7 => ⟨S128, .f32⟩
  | 8 => ⟨S2000x128, .f32⟩
  | 9 => ⟨S2000x128, .f32⟩
  | 10 => ⟨S1x2000x128, .f32⟩
  | 11 => ⟨S1x2000x128, .f32⟩
  | 12 => ⟨S1x128x128, .f32⟩
  | 13 => ⟨S2000x128, .f32⟩
  | 14 => ⟨S2000x128, .f32⟩
  | 15 => ⟨S128x128, .f32⟩
  | 16 => ⟨S128, .f32⟩
  | 17 => ⟨S2000x128, .f32⟩
  | 18 => ⟨S2000x128, .f32⟩
  | 19 => ⟨S2x2000x128, .f32⟩
  | 20 => ⟨S2x2000x128, .f32⟩
  | 21 => ⟨S2x128x128, .f32⟩
  | 22 => ⟨S2000x128, .f32⟩
  | 23 => ⟨S2000x128, .f32⟩
  | 24 => ⟨S128x128, .f32⟩
  | 25 => ⟨S128, .f32⟩
  | 26 => ⟨S2000x128, .f32⟩
  | 27 => ⟨S2000x128, .f32⟩
  | 28 => ⟨S1x2000x128, .f32⟩
  | 29 => ⟨S1x2000x128, .f32⟩
  | 30 => ⟨S1x128x128, .f32⟩
  | 31 => ⟨S2000x128, .f32⟩
  | 32 => ⟨S2000x128, .f32⟩
  | 33 => ⟨S128x128, .f32⟩
  | 34 => ⟨S128, .f32⟩
  | 35 => ⟨S2000x128, .f32⟩
  | 36 => ⟨S2000x128, .f32⟩
  | 37 => ⟨S1x2000x128, .f32⟩
  | 38 => ⟨S1x2000x128, .f32⟩
  | 39 => ⟨S1x128x128, .f32⟩
  | 40 => ⟨S2000x128, .f32⟩
  | 41 => ⟨S2000x128, .f32⟩
  | 42 => ⟨S128x128, .f32⟩
  | 43 => ⟨S128, .f32⟩
  | 44 => ⟨S2000x128, .f32⟩
  | 45 => ⟨S2000x128, .f32⟩
  | _ => ⟨S40000x128, .f32⟩

abbrev vmemTy (i : Nat) : BufTy := match i / 128 with
  | 0 => vmemTy0_0 i
  | 1 => vmemTy0_1 i
  | _ => ⟨S40000x128, .f32⟩

abbrev bufTy : (tb : Table) → Fin (tcTables nBuf tb) → BufTy
  | .hbm, ⟨i, _⟩ => hbmTy i
  | .local _ .vmem, ⟨i, _⟩ => vmemTy i
  | _, _ => ⟨S40000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 174 → Bool
  | ⟨i, _⟩ => dmaSemScopedAt i

abbrev sig : RefSig :=
  ofTc nBuf bufTy 0 174 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_cst_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_3 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_7 : Ref sig .tc := ⟨.hbm, 64, rfl⟩
abbrev main_v35 : Ref sig .tc := ⟨.hbm, 65, rfl⟩
abbrev main_cst_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_10 : Ref sig .tc := ⟨.hbm, 76, rfl⟩
abbrev main_v44 : Ref sig .tc := ⟨.hbm, 77, rfl⟩
abbrev main_v45 : Ref sig .tc := ⟨.hbm, 78, rfl⟩
abbrev main_c_11 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_12 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_13 : Ref sig .tc := ⟨.hbm, 89, rfl⟩
abbrev main_v54 : Ref sig .tc := ⟨.hbm, 90, rfl⟩
abbrev main_cst_14 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_15 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_16 : Ref sig .tc := ⟨.hbm, 101, rfl⟩
abbrev main_v63 : Ref sig .tc := ⟨.hbm, 102, rfl⟩
abbrev main_v64 : Ref sig .tc := ⟨.hbm, 103, rfl⟩
abbrev main_c_17 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_18 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_19 : Ref sig .tc := ⟨.hbm, 114, rfl⟩
abbrev main_v73 : Ref sig .tc := ⟨.hbm, 115, rfl⟩
abbrev main_cst_20 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_21 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_c_22 : Ref sig .tc := ⟨.hbm, 165, rfl⟩
abbrev main_v121 : Ref sig .tc := ⟨.hbm, 166, rfl⟩
abbrev main_v122 : Ref sig .tc := ⟨.hbm, 167, rfl⟩
abbrev main_c_23 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_24 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_25 : Ref sig .tc := ⟨.hbm, 178, rfl⟩
abbrev main_v131 : Ref sig .tc := ⟨.hbm, 179, rfl⟩
abbrev main_cst_26 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_27 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_c_28 : Ref sig .tc := ⟨.hbm, 190, rfl⟩
abbrev main_v140 : Ref sig .tc := ⟨.hbm, 191, rfl⟩
abbrev main_v141 : Ref sig .tc := ⟨.hbm, 192, rfl⟩
abbrev main_c_29 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_30 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_31 : Ref sig .tc := ⟨.hbm, 203, rfl⟩
abbrev main_v150 : Ref sig .tc := ⟨.hbm, 204, rfl⟩
abbrev main_cst_32 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_cst_33 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_c_34 : Ref sig .tc := ⟨.hbm, 215, rfl⟩
abbrev main_v159 : Ref sig .tc := ⟨.hbm, 216, rfl⟩
abbrev main_v160 : Ref sig .tc := ⟨.hbm, 217, rfl⟩
abbrev main_c_35 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_cst_36 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_cst_37 : Ref sig .tc := ⟨.hbm, 228, rfl⟩
abbrev main_v169 : Ref sig .tc := ⟨.hbm, 229, rfl⟩
abbrev main_cst_38 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_cst_39 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_c_40 : Ref sig .tc := ⟨.hbm, 240, rfl⟩
abbrev main_v178 : Ref sig .tc := ⟨.hbm, 241, rfl⟩
abbrev main_v179 : Ref sig .tc := ⟨.hbm, 242, rfl⟩
abbrev main_c_41 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_cst_42 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_cst_43 : Ref sig .tc := ⟨.hbm, 253, rfl⟩
abbrev main_v188 : Ref sig .tc := ⟨.hbm, 254, rfl⟩
abbrev main_cst_44 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_cst_45 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_c_46 : Ref sig .tc := ⟨.hbm, 311, rfl⟩
abbrev main_v243 : Ref sig .tc := ⟨.hbm, 312, rfl⟩
abbrev main_v244 : Ref sig .tc := ⟨.hbm, 313, rfl⟩
abbrev main_c_47 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_cst_48 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_cst_49 : Ref sig .tc := ⟨.hbm, 324, rfl⟩
abbrev main_v253 : Ref sig .tc := ⟨.hbm, 325, rfl⟩
abbrev main_cst_50 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_cst_51 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_c_52 : Ref sig .tc := ⟨.hbm, 336, rfl⟩
abbrev main_v262 : Ref sig .tc := ⟨.hbm, 337, rfl⟩
abbrev main_v263 : Ref sig .tc := ⟨.hbm, 338, rfl⟩
abbrev main_c_53 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_cst_54 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_cst_55 : Ref sig .tc := ⟨.hbm, 349, rfl⟩
abbrev main_v272 : Ref sig .tc := ⟨.hbm, 350, rfl⟩
abbrev main_cst_56 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_cst_57 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_c_58 : Ref sig .tc := ⟨.hbm, 361, rfl⟩
abbrev main_v281 : Ref sig .tc := ⟨.hbm, 362, rfl⟩
abbrev main_v282 : Ref sig .tc := ⟨.hbm, 363, rfl⟩
abbrev main_c_59 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_cst_60 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_cst_61 : Ref sig .tc := ⟨.hbm, 374, rfl⟩
abbrev main_v291 : Ref sig .tc := ⟨.hbm, 375, rfl⟩
abbrev main_cst_62 : Ref sig .tc := ⟨.hbm, 376, rfl⟩
abbrev main_v292 : Ref sig .tc := ⟨.hbm, 377, rfl⟩
abbrev main_v293 : Ref sig .tc := ⟨.hbm, 378, rfl⟩
abbrev main_v294 : Ref sig .tc := ⟨.hbm, 379, rfl⟩
abbrev main_cst_63 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_v298 : Ref sig .tc := ⟨.hbm, 384, rfl⟩
abbrev main_v299 : Ref sig .tc := ⟨.hbm, 385, rfl⟩
abbrev main_c_64 : Ref sig .tc := ⟨.hbm, 386, rfl⟩
abbrev main_v300 : Ref sig .tc := ⟨.hbm, 387, rfl⟩
abbrev main_v301 : Ref sig .tc := ⟨.hbm, 388, rfl⟩
abbrev main_c_65 : Ref sig .tc := ⟨.hbm, 389, rfl⟩
abbrev main_v302 : Ref sig .tc := ⟨.hbm, 390, rfl⟩
abbrev main_v303 : Ref sig .tc := ⟨.hbm, 391, rfl⟩
abbrev main_v304 : Ref sig .tc := ⟨.hbm, 392, rfl⟩
abbrev main_v305 : Ref sig .tc := ⟨.hbm, 393, rfl⟩
abbrev main_v306 : Ref sig .tc := ⟨.hbm, 394, rfl⟩
abbrev main_cst_66 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev main_cst_67 : Ref sig .tc := ⟨.hbm, 399, rfl⟩
abbrev main_v310 : Ref sig .tc := ⟨.hbm, 400, rfl⟩
abbrev main_cst_68 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_cst_69 : Ref sig .tc := ⟨.hbm, 405, rfl⟩
abbrev main_v314 : Ref sig .tc := ⟨.hbm, 406, rfl⟩
abbrev main_v315 : Ref sig .tc := ⟨.hbm, 407, rfl⟩
abbrev main_v316 : Ref sig .tc := ⟨.hbm, 408, rfl⟩
abbrev main_v317 : Ref sig .tc := ⟨.hbm, 409, rfl⟩
abbrev main_v318 : Ref sig .tc := ⟨.hbm, 410, rfl⟩
abbrev main_v319 : Ref sig .tc := ⟨.hbm, 411, rfl⟩
abbrev main_v320 : Ref sig .tc := ⟨.hbm, 412, rfl⟩
abbrev main_v321 : Ref sig .tc := ⟨.hbm, 413, rfl⟩
abbrev main_v322 : Ref sig .tc := ⟨.hbm, 414, rfl⟩
abbrev main_v323 : Ref sig .tc := ⟨.hbm, 415, rfl⟩
abbrev main_v324 : Ref sig .tc := ⟨.hbm, 416, rfl⟩
abbrev main_v325 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_v329 : Ref sig .tc := ⟨.hbm, 421, rfl⟩
abbrev main_v330 : Ref sig .tc := ⟨.hbm, 422, rfl⟩
abbrev main_v331 : Ref sig .tc := ⟨.hbm, 423, rfl⟩
abbrev main_v332 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_v345 : Ref sig .tc := ⟨.hbm, 437, rfl⟩
abbrev main_v346 : Ref sig .tc := ⟨.hbm, 438, rfl⟩
abbrev main_v347 : Ref sig .tc := ⟨.hbm, 439, rfl⟩
abbrev main_v348 : Ref sig .tc := ⟨.hbm, 440, rfl⟩
abbrev main_v349 : Ref sig .tc := ⟨.hbm, 441, rfl⟩
abbrev main_v350 : Ref sig .tc := ⟨.hbm, 442, rfl⟩
abbrev main_v351 : Ref sig .tc := ⟨.hbm, 443, rfl⟩
abbrev main_v352 : Ref sig .tc := ⟨.hbm, 444, rfl⟩
abbrev main_v353 : Ref sig .tc := ⟨.hbm, 445, rfl⟩
abbrev main_v354 : Ref sig .tc := ⟨.hbm, 446, rfl⟩
abbrev main_v355 : Ref sig .tc := ⟨.hbm, 447, rfl⟩
abbrev main_v356 : Ref sig .tc := ⟨.hbm, 448, rfl⟩
abbrev main_v357 : Ref sig .tc := ⟨.hbm, 449, rfl⟩
abbrev main_c_70 : Ref sig .tc := ⟨.hbm, 450, rfl⟩
abbrev main_v358 : Ref sig .tc := ⟨.hbm, 451, rfl⟩
abbrev main_v359 : Ref sig .tc := ⟨.hbm, 452, rfl⟩
abbrev main_c_71 : Ref sig .tc := ⟨.hbm, 453, rfl⟩
abbrev main_v360 : Ref sig .tc := ⟨.hbm, 454, rfl⟩
abbrev main_v361 : Ref sig .tc := ⟨.hbm, 455, rfl⟩
abbrev main_v362 : Ref sig .tc := ⟨.hbm, 456, rfl⟩
abbrev main_v363 : Ref sig .tc := ⟨.hbm, 457, rfl⟩
abbrev main_v364 : Ref sig .tc := ⟨.hbm, 458, rfl⟩
abbrev main_cst_72 : Ref sig .tc := ⟨.hbm, 459, rfl⟩
abbrev main_v365 : Ref sig .tc := ⟨.hbm, 460, rfl⟩
abbrev main_v366 : Ref sig .tc := ⟨.hbm, 461, rfl⟩
abbrev main_v367 : Ref sig .tc := ⟨.hbm, 462, rfl⟩
abbrev main_cst_73 : Ref sig .tc := ⟨.hbm, 463, rfl⟩
abbrev main_v368 : Ref sig .tc := ⟨.hbm, 464, rfl⟩
abbrev main_cst_74 : Ref sig .tc := ⟨.hbm, 465, rfl⟩
abbrev main_v369 : Ref sig .tc := ⟨.hbm, 466, rfl⟩
abbrev main_v370 : Ref sig .tc := ⟨.hbm, 467, rfl⟩
abbrev main_v371 : Ref sig .tc := ⟨.hbm, 468, rfl⟩
abbrev main_cst_75 : Ref sig .tc := ⟨.hbm, 469, rfl⟩
abbrev main_v372 : Ref sig .tc := ⟨.hbm, 470, rfl⟩
abbrev main_v373 : Ref sig .tc := ⟨.hbm, 471, rfl⟩
abbrev main_v374 : Ref sig .tc := ⟨.hbm, 472, rfl⟩
abbrev main_v375 : Ref sig .tc := ⟨.hbm, 473, rfl⟩
abbrev main_v376 : Ref sig .tc := ⟨.hbm, 474, rfl⟩
abbrev main_c_76 : Ref sig .tc := ⟨.hbm, 475, rfl⟩
abbrev main_v377 : Ref sig .tc := ⟨.hbm, 476, rfl⟩
abbrev main_v378 : Ref sig .tc := ⟨.hbm, 477, rfl⟩
abbrev main_c_77 : Ref sig .tc := ⟨.hbm, 478, rfl⟩
abbrev main_v379 : Ref sig .tc := ⟨.hbm, 479, rfl⟩
abbrev main_v380 : Ref sig .tc := ⟨.hbm, 480, rfl⟩
abbrev main_v381 : Ref sig .tc := ⟨.hbm, 481, rfl⟩
abbrev main_v382 : Ref sig .tc := ⟨.hbm, 482, rfl⟩
abbrev main_v383 : Ref sig .tc := ⟨.hbm, 483, rfl⟩
abbrev main_cst_78 : Ref sig .tc := ⟨.hbm, 484, rfl⟩
abbrev main_v384 : Ref sig .tc := ⟨.hbm, 485, rfl⟩
abbrev main_v385 : Ref sig .tc := ⟨.hbm, 486, rfl⟩
abbrev main_v386 : Ref sig .tc := ⟨.hbm, 487, rfl⟩
abbrev main_cst_79 : Ref sig .tc := ⟨.hbm, 488, rfl⟩
abbrev main_v387 : Ref sig .tc := ⟨.hbm, 489, rfl⟩
abbrev main_cst_80 : Ref sig .tc := ⟨.hbm, 490, rfl⟩
abbrev main_v388 : Ref sig .tc := ⟨.hbm, 491, rfl⟩
abbrev main_v389 : Ref sig .tc := ⟨.hbm, 492, rfl⟩
abbrev main_v390 : Ref sig .tc := ⟨.hbm, 493, rfl⟩
abbrev main_cst_81 : Ref sig .tc := ⟨.hbm, 494, rfl⟩
abbrev main_v391 : Ref sig .tc := ⟨.hbm, 495, rfl⟩
abbrev main_v392 : Ref sig .tc := ⟨.hbm, 496, rfl⟩
abbrev main_v393 : Ref sig .tc := ⟨.hbm, 497, rfl⟩
abbrev main_v394 : Ref sig .tc := ⟨.hbm, 498, rfl⟩
abbrev main_v395 : Ref sig .tc := ⟨.hbm, 499, rfl⟩
abbrev main_c_82 : Ref sig .tc := ⟨.hbm, 500, rfl⟩
abbrev main_v396 : Ref sig .tc := ⟨.hbm, 501, rfl⟩
abbrev main_v397 : Ref sig .tc := ⟨.hbm, 502, rfl⟩
abbrev main_c_83 : Ref sig .tc := ⟨.hbm, 503, rfl⟩
abbrev main_v398 : Ref sig .tc := ⟨.hbm, 504, rfl⟩
abbrev main_v399 : Ref sig .tc := ⟨.hbm, 505, rfl⟩
abbrev main_v400 : Ref sig .tc := ⟨.hbm, 506, rfl⟩
abbrev main_v401 : Ref sig .tc := ⟨.hbm, 507, rfl⟩
abbrev main_v402 : Ref sig .tc := ⟨.hbm, 508, rfl⟩
abbrev main_cst_84 : Ref sig .tc := ⟨.hbm, 509, rfl⟩
abbrev main_v403 : Ref sig .tc := ⟨.hbm, 510, rfl⟩
abbrev main_v404 : Ref sig .tc := ⟨.hbm, 511, rfl⟩
abbrev main_v405 : Ref sig .tc := ⟨.hbm, 512, rfl⟩
abbrev main_cst_85 : Ref sig .tc := ⟨.hbm, 513, rfl⟩
abbrev main_v406 : Ref sig .tc := ⟨.hbm, 514, rfl⟩
abbrev main_cst_86 : Ref sig .tc := ⟨.hbm, 515, rfl⟩
abbrev main_v407 : Ref sig .tc := ⟨.hbm, 516, rfl⟩
abbrev main_v408 : Ref sig .tc := ⟨.hbm, 517, rfl⟩
abbrev main_v409 : Ref sig .tc := ⟨.hbm, 518, rfl⟩
abbrev main_cst_87 : Ref sig .tc := ⟨.hbm, 519, rfl⟩
abbrev main_v410 : Ref sig .tc := ⟨.hbm, 520, rfl⟩
abbrev main_v411 : Ref sig .tc := ⟨.hbm, 521, rfl⟩
abbrev main_v412 : Ref sig .tc := ⟨.hbm, 522, rfl⟩
abbrev main_v413 : Ref sig .tc := ⟨.hbm, 523, rfl⟩
abbrev main_v414 : Ref sig .tc := ⟨.hbm, 524, rfl⟩
abbrev main_c_88 : Ref sig .tc := ⟨.hbm, 525, rfl⟩
abbrev main_v415 : Ref sig .tc := ⟨.hbm, 526, rfl⟩
abbrev main_v416 : Ref sig .tc := ⟨.hbm, 527, rfl⟩
abbrev main_c_89 : Ref sig .tc := ⟨.hbm, 528, rfl⟩
abbrev main_v417 : Ref sig .tc := ⟨.hbm, 529, rfl⟩
abbrev main_v418 : Ref sig .tc := ⟨.hbm, 530, rfl⟩
abbrev main_v419 : Ref sig .tc := ⟨.hbm, 531, rfl⟩
abbrev main_v420 : Ref sig .tc := ⟨.hbm, 532, rfl⟩
abbrev main_v421 : Ref sig .tc := ⟨.hbm, 533, rfl⟩
abbrev main_cst_90 : Ref sig .tc := ⟨.hbm, 534, rfl⟩
abbrev main_v422 : Ref sig .tc := ⟨.hbm, 535, rfl⟩
abbrev main_v423 : Ref sig .tc := ⟨.hbm, 536, rfl⟩
abbrev main_v424 : Ref sig .tc := ⟨.hbm, 537, rfl⟩
abbrev main_cst_91 : Ref sig .tc := ⟨.hbm, 538, rfl⟩
abbrev main_v425 : Ref sig .tc := ⟨.hbm, 539, rfl⟩
abbrev main_cst_92 : Ref sig .tc := ⟨.hbm, 540, rfl⟩
abbrev main_v426 : Ref sig .tc := ⟨.hbm, 541, rfl⟩
abbrev main_v427 : Ref sig .tc := ⟨.hbm, 542, rfl⟩
abbrev main_v428 : Ref sig .tc := ⟨.hbm, 543, rfl⟩
abbrev main_cst_93 : Ref sig .tc := ⟨.hbm, 544, rfl⟩
abbrev main_v429 : Ref sig .tc := ⟨.hbm, 545, rfl⟩
abbrev main_v430 : Ref sig .tc := ⟨.hbm, 546, rfl⟩
abbrev main_v431 : Ref sig .tc := ⟨.hbm, 547, rfl⟩
abbrev main_v432 : Ref sig .tc := ⟨.hbm, 548, rfl⟩
abbrev main_v433 : Ref sig .tc := ⟨.hbm, 549, rfl⟩
abbrev main_v434 : Ref sig .tc := ⟨.hbm, 550, rfl⟩
abbrev main_v435 : Ref sig .tc := ⟨.hbm, 551, rfl⟩
abbrev main_v436 : Ref sig .tc := ⟨.hbm, 552, rfl⟩
abbrev main_v437 : Ref sig .tc := ⟨.hbm, 553, rfl⟩
abbrev main_v438 : Ref sig .tc := ⟨.hbm, 554, rfl⟩
abbrev main_v439 : Ref sig .tc := ⟨.hbm, 555, rfl⟩
abbrev main_v440 : Ref sig .tc := ⟨.hbm, 556, rfl⟩
abbrev main_v441 : Ref sig .tc := ⟨.hbm, 557, rfl⟩
abbrev main_v442 : Ref sig .tc := ⟨.hbm, 558, rfl⟩
abbrev main_v443 : Ref sig .tc := ⟨.hbm, 559, rfl⟩
abbrev main_v444 : Ref sig .tc := ⟨.hbm, 560, rfl⟩
abbrev main_v445 : Ref sig .tc := ⟨.hbm, 561, rfl⟩
abbrev main_v446 : Ref sig .tc := ⟨.hbm, 562, rfl⟩
abbrev main_v447 : Ref sig .tc := ⟨.hbm, 563, rfl⟩
abbrev main_v448 : Ref sig .tc := ⟨.hbm, 564, rfl⟩
abbrev main_v449 : Ref sig .tc := ⟨.hbm, 565, rfl⟩
abbrev main_v450 : Ref sig .tc := ⟨.hbm, 566, rfl⟩
abbrev main_v451 : Ref sig .tc := ⟨.hbm, 567, rfl⟩
abbrev main_v452 : Ref sig .tc := ⟨.hbm, 568, rfl⟩
abbrev main_v453 : Ref sig .tc := ⟨.hbm, 569, rfl⟩
abbrev main_v454 : Ref sig .tc := ⟨.hbm, 570, rfl⟩
abbrev main_v455 : Ref sig .tc := ⟨.hbm, 571, rfl⟩
abbrev main_v456 : Ref sig .tc := ⟨.hbm, 572, rfl⟩
abbrev main_v457 : Ref sig .tc := ⟨.hbm, 573, rfl⟩
abbrev main_v458 : Ref sig .tc := ⟨.hbm, 574, rfl⟩
abbrev main_v459 : Ref sig .tc := ⟨.hbm, 575, rfl⟩
abbrev main_v460 : Ref sig .tc := ⟨.hbm, 576, rfl⟩
abbrev main_v461 : Ref sig .tc := ⟨.hbm, 577, rfl⟩
abbrev main_v462 : Ref sig .tc := ⟨.hbm, 578, rfl⟩
abbrev main_v463 : Ref sig .tc := ⟨.hbm, 579, rfl⟩
abbrev main_v464 : Ref sig .tc := ⟨.hbm, 580, rfl⟩
abbrev main_v465 : Ref sig .tc := ⟨.hbm, 581, rfl⟩
abbrev main_v466 : Ref sig .tc := ⟨.hbm, 582, rfl⟩
abbrev main_v467 : Ref sig .tc := ⟨.hbm, 583, rfl⟩
abbrev main_v468 : Ref sig .tc := ⟨.hbm, 584, rfl⟩
abbrev main_v469 : Ref sig .tc := ⟨.hbm, 585, rfl⟩
abbrev main_v470 : Ref sig .tc := ⟨.hbm, 586, rfl⟩
abbrev main_v471 : Ref sig .tc := ⟨.hbm, 587, rfl⟩
abbrev main_v472 : Ref sig .tc := ⟨.hbm, 588, rfl⟩
abbrev main_v473 : Ref sig .tc := ⟨.hbm, 589, rfl⟩
abbrev main_v474 : Ref sig .tc := ⟨.hbm, 590, rfl⟩
abbrev main_v475 : Ref sig .tc := ⟨.hbm, 591, rfl⟩
abbrev main_v476 : Ref sig .tc := ⟨.hbm, 592, rfl⟩
abbrev main_v477 : Ref sig .tc := ⟨.hbm, 593, rfl⟩
abbrev main_v478 : Ref sig .tc := ⟨.hbm, 594, rfl⟩
abbrev main_v479 : Ref sig .tc := ⟨.hbm, 595, rfl⟩
abbrev main_v480 : Ref sig .tc := ⟨.hbm, 596, rfl⟩
abbrev main_v481 : Ref sig .tc := ⟨.hbm, 597, rfl⟩
abbrev main_v482 : Ref sig .tc := ⟨.hbm, 598, rfl⟩
abbrev main_v483 : Ref sig .tc := ⟨.hbm, 599, rfl⟩
abbrev main_c_94 : Ref sig .tc := ⟨.hbm, 600, rfl⟩
abbrev main_v484 : Ref sig .tc := ⟨.hbm, 601, rfl⟩
abbrev main_v485 : Ref sig .tc := ⟨.hbm, 602, rfl⟩
abbrev main_c_95 : Ref sig .tc := ⟨.hbm, 603, rfl⟩
abbrev main_v486 : Ref sig .tc := ⟨.hbm, 604, rfl⟩
abbrev main_v487 : Ref sig .tc := ⟨.hbm, 605, rfl⟩
abbrev main_v488 : Ref sig .tc := ⟨.hbm, 606, rfl⟩
abbrev main_v489 : Ref sig .tc := ⟨.hbm, 607, rfl⟩
abbrev main_v490 : Ref sig .tc := ⟨.hbm, 608, rfl⟩
abbrev main_cst_96 : Ref sig .tc := ⟨.hbm, 609, rfl⟩
abbrev main_v491 : Ref sig .tc := ⟨.hbm, 610, rfl⟩
abbrev main_v492 : Ref sig .tc := ⟨.hbm, 611, rfl⟩
abbrev main_v493 : Ref sig .tc := ⟨.hbm, 612, rfl⟩
abbrev main_cst_97 : Ref sig .tc := ⟨.hbm, 613, rfl⟩
abbrev main_v494 : Ref sig .tc := ⟨.hbm, 614, rfl⟩
abbrev main_cst_98 : Ref sig .tc := ⟨.hbm, 615, rfl⟩
abbrev main_v495 : Ref sig .tc := ⟨.hbm, 616, rfl⟩
abbrev main_v496 : Ref sig .tc := ⟨.hbm, 617, rfl⟩
abbrev main_v497 : Ref sig .tc := ⟨.hbm, 618, rfl⟩
abbrev main_cst_99 : Ref sig .tc := ⟨.hbm, 619, rfl⟩
abbrev main_v498 : Ref sig .tc := ⟨.hbm, 620, rfl⟩
abbrev main_v499 : Ref sig .tc := ⟨.hbm, 621, rfl⟩
abbrev main_v500 : Ref sig .tc := ⟨.hbm, 622, rfl⟩
abbrev main_v501 : Ref sig .tc := ⟨.hbm, 623, rfl⟩
abbrev main_v502 : Ref sig .tc := ⟨.hbm, 624, rfl⟩
abbrev main_c_100 : Ref sig .tc := ⟨.hbm, 625, rfl⟩
abbrev main_v503 : Ref sig .tc := ⟨.hbm, 626, rfl⟩
abbrev main_v504 : Ref sig .tc := ⟨.hbm, 627, rfl⟩
abbrev main_c_101 : Ref sig .tc := ⟨.hbm, 628, rfl⟩
abbrev main_v505 : Ref sig .tc := ⟨.hbm, 629, rfl⟩
abbrev main_v506 : Ref sig .tc := ⟨.hbm, 630, rfl⟩
abbrev main_v507 : Ref sig .tc := ⟨.hbm, 631, rfl⟩
abbrev main_v508 : Ref sig .tc := ⟨.hbm, 632, rfl⟩
abbrev main_v509 : Ref sig .tc := ⟨.hbm, 633, rfl⟩
abbrev main_cst_102 : Ref sig .tc := ⟨.hbm, 634, rfl⟩
abbrev main_v510 : Ref sig .tc := ⟨.hbm, 635, rfl⟩
abbrev main_v511 : Ref sig .tc := ⟨.hbm, 636, rfl⟩
abbrev main_v512 : Ref sig .tc := ⟨.hbm, 637, rfl⟩
abbrev main_cst_103 : Ref sig .tc := ⟨.hbm, 638, rfl⟩
abbrev main_v513 : Ref sig .tc := ⟨.hbm, 639, rfl⟩
abbrev main_cst_104 : Ref sig .tc := ⟨.hbm, 640, rfl⟩
abbrev main_v514 : Ref sig .tc := ⟨.hbm, 641, rfl⟩
abbrev main_v515 : Ref sig .tc := ⟨.hbm, 642, rfl⟩
abbrev main_v516 : Ref sig .tc := ⟨.hbm, 643, rfl⟩
abbrev main_cst_105 : Ref sig .tc := ⟨.hbm, 644, rfl⟩
abbrev main_v517 : Ref sig .tc := ⟨.hbm, 645, rfl⟩
abbrev main_v518 : Ref sig .tc := ⟨.hbm, 646, rfl⟩
abbrev main_v519 : Ref sig .tc := ⟨.hbm, 647, rfl⟩
abbrev main_v520 : Ref sig .tc := ⟨.hbm, 648, rfl⟩
abbrev main_v521 : Ref sig .tc := ⟨.hbm, 649, rfl⟩
abbrev main_c_106 : Ref sig .tc := ⟨.hbm, 650, rfl⟩
abbrev main_v522 : Ref sig .tc := ⟨.hbm, 651, rfl⟩
abbrev main_v523 : Ref sig .tc := ⟨.hbm, 652, rfl⟩
abbrev main_c_107 : Ref sig .tc := ⟨.hbm, 653, rfl⟩
abbrev main_v524 : Ref sig .tc := ⟨.hbm, 654, rfl⟩
abbrev main_v525 : Ref sig .tc := ⟨.hbm, 655, rfl⟩
abbrev main_v526 : Ref sig .tc := ⟨.hbm, 656, rfl⟩
abbrev main_v527 : Ref sig .tc := ⟨.hbm, 657, rfl⟩
abbrev main_v528 : Ref sig .tc := ⟨.hbm, 658, rfl⟩
abbrev main_cst_108 : Ref sig .tc := ⟨.hbm, 659, rfl⟩
abbrev main_v529 : Ref sig .tc := ⟨.hbm, 660, rfl⟩
abbrev main_v530 : Ref sig .tc := ⟨.hbm, 661, rfl⟩
abbrev main_v531 : Ref sig .tc := ⟨.hbm, 662, rfl⟩
abbrev main_cst_109 : Ref sig .tc := ⟨.hbm, 663, rfl⟩
abbrev main_v532 : Ref sig .tc := ⟨.hbm, 664, rfl⟩
abbrev main_cst_110 : Ref sig .tc := ⟨.hbm, 665, rfl⟩
abbrev main_v533 : Ref sig .tc := ⟨.hbm, 666, rfl⟩
abbrev main_v534 : Ref sig .tc := ⟨.hbm, 667, rfl⟩
abbrev main_v535 : Ref sig .tc := ⟨.hbm, 668, rfl⟩
abbrev main_cst_111 : Ref sig .tc := ⟨.hbm, 669, rfl⟩
abbrev main_v536 : Ref sig .tc := ⟨.hbm, 670, rfl⟩
abbrev main_v537 : Ref sig .tc := ⟨.hbm, 671, rfl⟩
abbrev main_v538 : Ref sig .tc := ⟨.hbm, 672, rfl⟩
abbrev main_v539 : Ref sig .tc := ⟨.hbm, 673, rfl⟩
abbrev main_v540 : Ref sig .tc := ⟨.hbm, 674, rfl⟩
abbrev main_c_112 : Ref sig .tc := ⟨.hbm, 675, rfl⟩
abbrev main_v541 : Ref sig .tc := ⟨.hbm, 676, rfl⟩
abbrev main_v542 : Ref sig .tc := ⟨.hbm, 677, rfl⟩
abbrev main_c_113 : Ref sig .tc := ⟨.hbm, 678, rfl⟩
abbrev main_v543 : Ref sig .tc := ⟨.hbm, 679, rfl⟩
abbrev main_v544 : Ref sig .tc := ⟨.hbm, 680, rfl⟩
abbrev main_v545 : Ref sig .tc := ⟨.hbm, 681, rfl⟩
abbrev main_v546 : Ref sig .tc := ⟨.hbm, 682, rfl⟩
abbrev main_v547 : Ref sig .tc := ⟨.hbm, 683, rfl⟩
abbrev main_cst_114 : Ref sig .tc := ⟨.hbm, 684, rfl⟩
abbrev main_v548 : Ref sig .tc := ⟨.hbm, 685, rfl⟩
abbrev main_v549 : Ref sig .tc := ⟨.hbm, 686, rfl⟩
abbrev main_v550 : Ref sig .tc := ⟨.hbm, 687, rfl⟩
abbrev main_cst_115 : Ref sig .tc := ⟨.hbm, 688, rfl⟩
abbrev main_v551 : Ref sig .tc := ⟨.hbm, 689, rfl⟩
abbrev main_cst_116 : Ref sig .tc := ⟨.hbm, 690, rfl⟩
abbrev main_v552 : Ref sig .tc := ⟨.hbm, 691, rfl⟩
abbrev main_v553 : Ref sig .tc := ⟨.hbm, 692, rfl⟩
abbrev main_v554 : Ref sig .tc := ⟨.hbm, 693, rfl⟩
abbrev main_cst_117 : Ref sig .tc := ⟨.hbm, 694, rfl⟩
abbrev main_v555 : Ref sig .tc := ⟨.hbm, 695, rfl⟩
abbrev main_v556 : Ref sig .tc := ⟨.hbm, 696, rfl⟩
abbrev main_v557 : Ref sig .tc := ⟨.hbm, 697, rfl⟩
abbrev main_v558 : Ref sig .tc := ⟨.hbm, 698, rfl⟩
abbrev main_v559 : Ref sig .tc := ⟨.hbm, 699, rfl⟩
abbrev main_v560 : Ref sig .tc := ⟨.hbm, 700, rfl⟩
abbrev main_v561 : Ref sig .tc := ⟨.hbm, 701, rfl⟩
abbrev main_v562 : Ref sig .tc := ⟨.hbm, 702, rfl⟩
abbrev main_v563 : Ref sig .tc := ⟨.hbm, 703, rfl⟩
abbrev main_v564 : Ref sig .tc := ⟨.hbm, 704, rfl⟩
abbrev main_v565 : Ref sig .tc := ⟨.hbm, 705, rfl⟩
abbrev main_v566 : Ref sig .tc := ⟨.hbm, 706, rfl⟩
abbrev main_v567 : Ref sig .tc := ⟨.hbm, 707, rfl⟩
abbrev main_v568 : Ref sig .tc := ⟨.hbm, 708, rfl⟩
abbrev main_v569 : Ref sig .tc := ⟨.hbm, 709, rfl⟩
abbrev main_v570 : Ref sig .tc := ⟨.hbm, 710, rfl⟩
abbrev main_v571 : Ref sig .tc := ⟨.hbm, 711, rfl⟩
abbrev main_v572 : Ref sig .tc := ⟨.hbm, 712, rfl⟩
abbrev main_v573 : Ref sig .tc := ⟨.hbm, 713, rfl⟩
abbrev main_v574 : Ref sig .tc := ⟨.hbm, 714, rfl⟩
abbrev main_v575 : Ref sig .tc := ⟨.hbm, 715, rfl⟩
abbrev main_v576 : Ref sig .tc := ⟨.hbm, 716, rfl⟩
abbrev main_v577 : Ref sig .tc := ⟨.hbm, 717, rfl⟩
abbrev main_v578 : Ref sig .tc := ⟨.hbm, 718, rfl⟩
abbrev main_v579 : Ref sig .tc := ⟨.hbm, 719, rfl⟩
abbrev main_v580 : Ref sig .tc := ⟨.hbm, 720, rfl⟩
abbrev main_v581 : Ref sig .tc := ⟨.hbm, 721, rfl⟩
abbrev main_v582 : Ref sig .tc := ⟨.hbm, 722, rfl⟩
abbrev main_v583 : Ref sig .tc := ⟨.hbm, 723, rfl⟩
abbrev main_v584 : Ref sig .tc := ⟨.hbm, 724, rfl⟩
abbrev main_v585 : Ref sig .tc := ⟨.hbm, 725, rfl⟩
abbrev main_v586 : Ref sig .tc := ⟨.hbm, 726, rfl⟩
abbrev main_v587 : Ref sig .tc := ⟨.hbm, 727, rfl⟩
abbrev main_v588 : Ref sig .tc := ⟨.hbm, 728, rfl⟩
abbrev main_v589 : Ref sig .tc := ⟨.hbm, 729, rfl⟩
abbrev main_v590 : Ref sig .tc := ⟨.hbm, 730, rfl⟩
abbrev main_v591 : Ref sig .tc := ⟨.hbm, 731, rfl⟩
abbrev main_v592 : Ref sig .tc := ⟨.hbm, 732, rfl⟩
abbrev main_v593 : Ref sig .tc := ⟨.hbm, 733, rfl⟩
abbrev main_v594 : Ref sig .tc := ⟨.hbm, 734, rfl⟩
abbrev main_v595 : Ref sig .tc := ⟨.hbm, 735, rfl⟩
abbrev main_v596 : Ref sig .tc := ⟨.hbm, 736, rfl⟩
abbrev main_v597 : Ref sig .tc := ⟨.hbm, 737, rfl⟩
abbrev main_v598 : Ref sig .tc := ⟨.hbm, 738, rfl⟩
abbrev main_c_118 : Ref sig .tc := ⟨.hbm, 739, rfl⟩
abbrev main_v599 : Ref sig .tc := ⟨.hbm, 740, rfl⟩
abbrev main_v600 : Ref sig .tc := ⟨.hbm, 741, rfl⟩
abbrev main_c_119 : Ref sig .tc := ⟨.hbm, 742, rfl⟩
abbrev main_v601 : Ref sig .tc := ⟨.hbm, 743, rfl⟩
abbrev main_v602 : Ref sig .tc := ⟨.hbm, 744, rfl⟩
abbrev main_v603 : Ref sig .tc := ⟨.hbm, 745, rfl⟩
abbrev main_v604 : Ref sig .tc := ⟨.hbm, 746, rfl⟩
abbrev main_v605 : Ref sig .tc := ⟨.hbm, 747, rfl⟩
abbrev main_cst_120 : Ref sig .tc := ⟨.hbm, 748, rfl⟩
abbrev main_v606 : Ref sig .tc := ⟨.hbm, 749, rfl⟩
abbrev main_v607 : Ref sig .tc := ⟨.hbm, 750, rfl⟩
abbrev main_v608 : Ref sig .tc := ⟨.hbm, 751, rfl⟩
abbrev main_cst_121 : Ref sig .tc := ⟨.hbm, 752, rfl⟩
abbrev main_v609 : Ref sig .tc := ⟨.hbm, 753, rfl⟩
abbrev main_cst_122 : Ref sig .tc := ⟨.hbm, 754, rfl⟩
abbrev main_v610 : Ref sig .tc := ⟨.hbm, 755, rfl⟩
abbrev main_v611 : Ref sig .tc := ⟨.hbm, 756, rfl⟩
abbrev main_v612 : Ref sig .tc := ⟨.hbm, 757, rfl⟩
abbrev main_cst_123 : Ref sig .tc := ⟨.hbm, 758, rfl⟩
abbrev main_v613 : Ref sig .tc := ⟨.hbm, 759, rfl⟩
abbrev main_v614 : Ref sig .tc := ⟨.hbm, 760, rfl⟩
abbrev main_v615 : Ref sig .tc := ⟨.hbm, 761, rfl⟩
abbrev main_v616 : Ref sig .tc := ⟨.hbm, 762, rfl⟩
abbrev main_v617 : Ref sig .tc := ⟨.hbm, 763, rfl⟩
abbrev main_c_124 : Ref sig .tc := ⟨.hbm, 764, rfl⟩
abbrev main_v618 : Ref sig .tc := ⟨.hbm, 765, rfl⟩
abbrev main_v619 : Ref sig .tc := ⟨.hbm, 766, rfl⟩
abbrev main_c_125 : Ref sig .tc := ⟨.hbm, 767, rfl⟩
abbrev main_v620 : Ref sig .tc := ⟨.hbm, 768, rfl⟩
abbrev main_v621 : Ref sig .tc := ⟨.hbm, 769, rfl⟩
abbrev main_v622 : Ref sig .tc := ⟨.hbm, 770, rfl⟩
abbrev main_v623 : Ref sig .tc := ⟨.hbm, 771, rfl⟩
abbrev main_v624 : Ref sig .tc := ⟨.hbm, 772, rfl⟩
abbrev main_cst_126 : Ref sig .tc := ⟨.hbm, 773, rfl⟩
abbrev main_v625 : Ref sig .tc := ⟨.hbm, 774, rfl⟩
abbrev main_v626 : Ref sig .tc := ⟨.hbm, 775, rfl⟩
abbrev main_v627 : Ref sig .tc := ⟨.hbm, 776, rfl⟩
abbrev main_cst_127 : Ref sig .tc := ⟨.hbm, 777, rfl⟩
abbrev main_v628 : Ref sig .tc := ⟨.hbm, 778, rfl⟩
abbrev main_cst_128 : Ref sig .tc := ⟨.hbm, 779, rfl⟩
abbrev main_v629 : Ref sig .tc := ⟨.hbm, 780, rfl⟩
abbrev main_v630 : Ref sig .tc := ⟨.hbm, 781, rfl⟩
abbrev main_v631 : Ref sig .tc := ⟨.hbm, 782, rfl⟩
abbrev main_cst_129 : Ref sig .tc := ⟨.hbm, 783, rfl⟩
abbrev main_v632 : Ref sig .tc := ⟨.hbm, 784, rfl⟩
abbrev main_v633 : Ref sig .tc := ⟨.hbm, 785, rfl⟩
abbrev main_v634 : Ref sig .tc := ⟨.hbm, 786, rfl⟩
abbrev main_v635 : Ref sig .tc := ⟨.hbm, 787, rfl⟩
abbrev main_v636 : Ref sig .tc := ⟨.hbm, 788, rfl⟩
abbrev main_c_130 : Ref sig .tc := ⟨.hbm, 789, rfl⟩
abbrev main_v637 : Ref sig .tc := ⟨.hbm, 790, rfl⟩
abbrev main_v638 : Ref sig .tc := ⟨.hbm, 791, rfl⟩
abbrev main_c_131 : Ref sig .tc := ⟨.hbm, 792, rfl⟩
abbrev main_v639 : Ref sig .tc := ⟨.hbm, 793, rfl⟩
abbrev main_v640 : Ref sig .tc := ⟨.hbm, 794, rfl⟩
abbrev main_v641 : Ref sig .tc := ⟨.hbm, 795, rfl⟩
abbrev main_v642 : Ref sig .tc := ⟨.hbm, 796, rfl⟩
abbrev main_v643 : Ref sig .tc := ⟨.hbm, 797, rfl⟩
abbrev main_cst_132 : Ref sig .tc := ⟨.hbm, 798, rfl⟩
abbrev main_v644 : Ref sig .tc := ⟨.hbm, 799, rfl⟩
abbrev main_v645 : Ref sig .tc := ⟨.hbm, 800, rfl⟩
abbrev main_v646 : Ref sig .tc := ⟨.hbm, 801, rfl⟩
abbrev main_cst_133 : Ref sig .tc := ⟨.hbm, 802, rfl⟩
abbrev main_v647 : Ref sig .tc := ⟨.hbm, 803, rfl⟩
abbrev main_cst_134 : Ref sig .tc := ⟨.hbm, 804, rfl⟩
abbrev main_v648 : Ref sig .tc := ⟨.hbm, 805, rfl⟩
abbrev main_v649 : Ref sig .tc := ⟨.hbm, 806, rfl⟩
abbrev main_v650 : Ref sig .tc := ⟨.hbm, 807, rfl⟩
abbrev main_cst_135 : Ref sig .tc := ⟨.hbm, 808, rfl⟩
abbrev main_v651 : Ref sig .tc := ⟨.hbm, 809, rfl⟩
abbrev main_v652 : Ref sig .tc := ⟨.hbm, 810, rfl⟩
abbrev main_v653 : Ref sig .tc := ⟨.hbm, 811, rfl⟩
abbrev main_v654 : Ref sig .tc := ⟨.hbm, 812, rfl⟩
abbrev main_v655 : Ref sig .tc := ⟨.hbm, 813, rfl⟩
abbrev main_c_136 : Ref sig .tc := ⟨.hbm, 814, rfl⟩
abbrev main_v656 : Ref sig .tc := ⟨.hbm, 815, rfl⟩
abbrev main_v657 : Ref sig .tc := ⟨.hbm, 816, rfl⟩
abbrev main_c_137 : Ref sig .tc := ⟨.hbm, 817, rfl⟩
abbrev main_v658 : Ref sig .tc := ⟨.hbm, 818, rfl⟩
abbrev main_v659 : Ref sig .tc := ⟨.hbm, 819, rfl⟩
abbrev main_v660 : Ref sig .tc := ⟨.hbm, 820, rfl⟩
abbrev main_v661 : Ref sig .tc := ⟨.hbm, 821, rfl⟩
abbrev main_v662 : Ref sig .tc := ⟨.hbm, 822, rfl⟩
abbrev main_cst_138 : Ref sig .tc := ⟨.hbm, 823, rfl⟩
abbrev main_v663 : Ref sig .tc := ⟨.hbm, 824, rfl⟩
abbrev main_v664 : Ref sig .tc := ⟨.hbm, 825, rfl⟩
abbrev main_v665 : Ref sig .tc := ⟨.hbm, 826, rfl⟩
abbrev main_cst_139 : Ref sig .tc := ⟨.hbm, 827, rfl⟩
abbrev main_v666 : Ref sig .tc := ⟨.hbm, 828, rfl⟩
abbrev main_cst_140 : Ref sig .tc := ⟨.hbm, 829, rfl⟩
abbrev main_v667 : Ref sig .tc := ⟨.hbm, 830, rfl⟩
abbrev main_v668 : Ref sig .tc := ⟨.hbm, 831, rfl⟩
abbrev main_v669 : Ref sig .tc := ⟨.hbm, 832, rfl⟩
abbrev main_cst_141 : Ref sig .tc := ⟨.hbm, 833, rfl⟩
abbrev main_v670 : Ref sig .tc := ⟨.hbm, 834, rfl⟩
abbrev main_v671 : Ref sig .tc := ⟨.hbm, 835, rfl⟩
abbrev main_v672 : Ref sig .tc := ⟨.hbm, 836, rfl⟩
abbrev main_v673 : Ref sig .tc := ⟨.hbm, 837, rfl⟩
abbrev main_v674 : Ref sig .tc := ⟨.hbm, 838, rfl⟩
abbrev main_v675 : Ref sig .tc := ⟨.hbm, 839, rfl⟩
abbrev main_v676 : Ref sig .tc := ⟨.hbm, 840, rfl⟩
abbrev main_v677 : Ref sig .tc := ⟨.hbm, 841, rfl⟩
abbrev main_v678 : Ref sig .tc := ⟨.hbm, 842, rfl⟩
abbrev main_v679 : Ref sig .tc := ⟨.hbm, 843, rfl⟩
abbrev main_v680 : Ref sig .tc := ⟨.hbm, 844, rfl⟩
abbrev main_v681 : Ref sig .tc := ⟨.hbm, 845, rfl⟩
abbrev main_v682 : Ref sig .tc := ⟨.hbm, 846, rfl⟩
abbrev main_v683 : Ref sig .tc := ⟨.hbm, 847, rfl⟩
abbrev main_v684 : Ref sig .tc := ⟨.hbm, 848, rfl⟩
abbrev main_v685 : Ref sig .tc := ⟨.hbm, 849, rfl⟩
abbrev main_v686 : Ref sig .tc := ⟨.hbm, 850, rfl⟩
abbrev main_v687 : Ref sig .tc := ⟨.hbm, 851, rfl⟩
abbrev main_v688 : Ref sig .tc := ⟨.hbm, 852, rfl⟩
abbrev main_v689 : Ref sig .tc := ⟨.hbm, 853, rfl⟩
abbrev main_v690 : Ref sig .tc := ⟨.hbm, 854, rfl⟩
abbrev main_v691 : Ref sig .tc := ⟨.hbm, 855, rfl⟩
abbrev main_v692 : Ref sig .tc := ⟨.hbm, 856, rfl⟩
abbrev main_v693 : Ref sig .tc := ⟨.hbm, 857, rfl⟩
abbrev main_v694 : Ref sig .tc := ⟨.hbm, 858, rfl⟩
abbrev main_v695 : Ref sig .tc := ⟨.hbm, 859, rfl⟩
abbrev main_v696 : Ref sig .tc := ⟨.hbm, 860, rfl⟩
abbrev main_v697 : Ref sig .tc := ⟨.hbm, 861, rfl⟩
abbrev main_v698 : Ref sig .tc := ⟨.hbm, 862, rfl⟩
abbrev main_v699 : Ref sig .tc := ⟨.hbm, 863, rfl⟩
abbrev main_v700 : Ref sig .tc := ⟨.hbm, 864, rfl⟩
abbrev main_v701 : Ref sig .tc := ⟨.hbm, 865, rfl⟩
abbrev main_v702 : Ref sig .tc := ⟨.hbm, 866, rfl⟩
abbrev main_v703 : Ref sig .tc := ⟨.hbm, 867, rfl⟩
abbrev main_v704 : Ref sig .tc := ⟨.hbm, 868, rfl⟩
abbrev main_v705 : Ref sig .tc := ⟨.hbm, 869, rfl⟩
abbrev main_v706 : Ref sig .tc := ⟨.hbm, 870, rfl⟩
abbrev main_v707 : Ref sig .tc := ⟨.hbm, 871, rfl⟩
abbrev main_v708 : Ref sig .tc := ⟨.hbm, 872, rfl⟩
abbrev main_v709 : Ref sig .tc := ⟨.hbm, 873, rfl⟩
abbrev main_v710 : Ref sig .tc := ⟨.hbm, 874, rfl⟩
abbrev main_v711 : Ref sig .tc := ⟨.hbm, 875, rfl⟩
abbrev main_v712 : Ref sig .tc := ⟨.hbm, 876, rfl⟩
abbrev main_v713 : Ref sig .tc := ⟨.hbm, 877, rfl⟩
abbrev main_v714 : Ref sig .tc := ⟨.hbm, 878, rfl⟩
abbrev main_v715 : Ref sig .tc := ⟨.hbm, 879, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg2_1 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg5_0 : Ref sig .tc := ⟨.vmem, 67, rfl⟩
abbrev cc7_stg5_1 : Ref sig .tc := ⟨.vmem, 68, rfl⟩
abbrev cc8_stg0_0 : Ref sig .tc := ⟨.vmem, 69, rfl⟩
abbrev cc8_stg0_1 : Ref sig .tc := ⟨.vmem, 70, rfl⟩
abbrev cc8_stg1_0 : Ref sig .tc := ⟨.vmem, 71, rfl⟩
abbrev cc8_stg2_0 : Ref sig .tc := ⟨.vmem, 72, rfl⟩
abbrev cc8_stg2_1 : Ref sig .tc := ⟨.vmem, 73, rfl⟩
abbrev cc8_stg3_0 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg5_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg2_0 : Ref sig .tc := ⟨.vmem, 81, rfl⟩
abbrev cc9_stg2_1 : Ref sig .tc := ⟨.vmem, 82, rfl⟩
abbrev cc9_stg3_0 : Ref sig .tc := ⟨.vmem, 83, rfl⟩
abbrev cc9_stg4_0 : Ref sig .tc := ⟨.vmem, 84, rfl⟩
abbrev cc9_stg5_0 : Ref sig .tc := ⟨.vmem, 85, rfl⟩
abbrev cc9_stg5_1 : Ref sig .tc := ⟨.vmem, 86, rfl⟩
abbrev cc10_stg0_0 : Ref sig .tc := ⟨.vmem, 87, rfl⟩
abbrev cc10_stg0_1 : Ref sig .tc := ⟨.vmem, 88, rfl⟩
abbrev cc10_stg1_0 : Ref sig .tc := ⟨.vmem, 89, rfl⟩
abbrev cc10_stg2_0 : Ref sig .tc := ⟨.vmem, 90, rfl⟩
abbrev cc10_stg2_1 : Ref sig .tc := ⟨.vmem, 91, rfl⟩
abbrev cc10_stg3_0 : Ref sig .tc := ⟨.vmem, 92, rfl⟩
abbrev cc10_stg4_0 : Ref sig .tc := ⟨.vmem, 93, rfl⟩
abbrev cc10_stg5_0 : Ref sig .tc := ⟨.vmem, 94, rfl⟩
abbrev cc10_stg5_1 : Ref sig .tc := ⟨.vmem, 95, rfl⟩
abbrev cc11_stg0_0 : Ref sig .tc := ⟨.vmem, 96, rfl⟩
abbrev cc11_stg0_1 : Ref sig .tc := ⟨.vmem, 97, rfl⟩
abbrev cc11_stg1_0 : Ref sig .tc := ⟨.vmem, 98, rfl⟩
abbrev cc11_stg2_0 : Ref sig .tc := ⟨.vmem, 99, rfl⟩
abbrev cc11_stg2_1 : Ref sig .tc := ⟨.vmem, 100, rfl⟩
abbrev cc11_stg3_0 : Ref sig .tc := ⟨.vmem, 101, rfl⟩
abbrev cc11_stg4_0 : Ref sig .tc := ⟨.vmem, 102, rfl⟩
abbrev cc11_stg5_0 : Ref sig .tc := ⟨.vmem, 103, rfl⟩
abbrev cc11_stg5_1 : Ref sig .tc := ⟨.vmem, 104, rfl⟩
abbrev cc12_stg0_0 : Ref sig .tc := ⟨.vmem, 105, rfl⟩
abbrev cc12_stg0_1 : Ref sig .tc := ⟨.vmem, 106, rfl⟩
abbrev cc12_stg1_0 : Ref sig .tc := ⟨.vmem, 107, rfl⟩
abbrev cc12_stg2_0 : Ref sig .tc := ⟨.vmem, 108, rfl⟩
abbrev cc12_stg2_1 : Ref sig .tc := ⟨.vmem, 109, rfl⟩
abbrev cc12_stg3_0 : Ref sig .tc := ⟨.vmem, 110, rfl⟩
abbrev cc12_stg4_0 : Ref sig .tc := ⟨.vmem, 111, rfl⟩
abbrev cc12_stg5_0 : Ref sig .tc := ⟨.vmem, 112, rfl⟩
abbrev cc12_stg5_1 : Ref sig .tc := ⟨.vmem, 113, rfl⟩
abbrev cc13_stg0_0 : Ref sig .tc := ⟨.vmem, 114, rfl⟩
abbrev cc13_stg0_1 : Ref sig .tc := ⟨.vmem, 115, rfl⟩
abbrev cc13_stg1_0 : Ref sig .tc := ⟨.vmem, 116, rfl⟩
abbrev cc13_stg2_0 : Ref sig .tc := ⟨.vmem, 117, rfl⟩
abbrev cc13_stg3_0 : Ref sig .tc := ⟨.vmem, 118, rfl⟩
abbrev cc13_stg3_1 : Ref sig .tc := ⟨.vmem, 119, rfl⟩
abbrev cc14_stg0_0 : Ref sig .tc := ⟨.vmem, 120, rfl⟩
abbrev cc14_stg0_1 : Ref sig .tc := ⟨.vmem, 121, rfl⟩
abbrev cc14_stg1_0 : Ref sig .tc := ⟨.vmem, 122, rfl⟩
abbrev cc14_stg2_0 : Ref sig .tc := ⟨.vmem, 123, rfl⟩
abbrev cc14_stg2_1 : Ref sig .tc := ⟨.vmem, 124, rfl⟩
abbrev cc14_stg3_0 : Ref sig .tc := ⟨.vmem, 125, rfl⟩
abbrev cc14_stg4_0 : Ref sig .tc := ⟨.vmem, 126, rfl⟩
abbrev cc14_stg5_0 : Ref sig .tc := ⟨.vmem, 127, rfl⟩
abbrev cc14_stg5_1 : Ref sig .tc := ⟨.vmem, 128, rfl⟩
abbrev cc15_stg0_0 : Ref sig .tc := ⟨.vmem, 129, rfl⟩
abbrev cc15_stg0_1 : Ref sig .tc := ⟨.vmem, 130, rfl⟩
abbrev cc15_stg1_0 : Ref sig .tc := ⟨.vmem, 131, rfl⟩
abbrev cc15_stg2_0 : Ref sig .tc := ⟨.vmem, 132, rfl⟩
abbrev cc15_stg2_1 : Ref sig .tc := ⟨.vmem, 133, rfl⟩
abbrev cc15_stg3_0 : Ref sig .tc := ⟨.vmem, 134, rfl⟩
abbrev cc15_stg4_0 : Ref sig .tc := ⟨.vmem, 135, rfl⟩
abbrev cc15_stg5_0 : Ref sig .tc := ⟨.vmem, 136, rfl⟩
abbrev cc15_stg5_1 : Ref sig .tc := ⟨.vmem, 137, rfl⟩
abbrev cc16_stg0_0 : Ref sig .tc := ⟨.vmem, 138, rfl⟩
abbrev cc16_stg0_1 : Ref sig .tc := ⟨.vmem, 139, rfl⟩
abbrev cc16_stg1_0 : Ref sig .tc := ⟨.vmem, 140, rfl⟩
abbrev cc16_stg2_0 : Ref sig .tc := ⟨.vmem, 141, rfl⟩
abbrev cc16_stg2_1 : Ref sig .tc := ⟨.vmem, 142, rfl⟩
abbrev cc16_stg3_0 : Ref sig .tc := ⟨.vmem, 143, rfl⟩
abbrev cc16_stg4_0 : Ref sig .tc := ⟨.vmem, 144, rfl⟩
abbrev cc16_stg5_0 : Ref sig .tc := ⟨.vmem, 145, rfl⟩
abbrev cc16_stg5_1 : Ref sig .tc := ⟨.vmem, 146, rfl⟩
abbrev cc17_stg0_0 : Ref sig .tc := ⟨.vmem, 147, rfl⟩
abbrev cc17_stg0_1 : Ref sig .tc := ⟨.vmem, 148, rfl⟩
abbrev cc17_stg1_0 : Ref sig .tc := ⟨.vmem, 149, rfl⟩
abbrev cc17_stg2_0 : Ref sig .tc := ⟨.vmem, 150, rfl⟩
abbrev cc17_stg2_1 : Ref sig .tc := ⟨.vmem, 151, rfl⟩
abbrev cc17_stg3_0 : Ref sig .tc := ⟨.vmem, 152, rfl⟩
abbrev cc17_stg4_0 : Ref sig .tc := ⟨.vmem, 153, rfl⟩
abbrev cc17_stg5_0 : Ref sig .tc := ⟨.vmem, 154, rfl⟩
abbrev cc17_stg5_1 : Ref sig .tc := ⟨.vmem, 155, rfl⟩
abbrev cc18_stg0_0 : Ref sig .tc := ⟨.vmem, 156, rfl⟩
abbrev cc18_stg0_1 : Ref sig .tc := ⟨.vmem, 157, rfl⟩
abbrev cc18_stg1_0 : Ref sig .tc := ⟨.vmem, 158, rfl⟩
abbrev cc18_stg2_0 : Ref sig .tc := ⟨.vmem, 159, rfl⟩
abbrev cc18_stg2_1 : Ref sig .tc := ⟨.vmem, 160, rfl⟩
abbrev cc18_stg3_0 : Ref sig .tc := ⟨.vmem, 161, rfl⟩
abbrev cc18_stg4_0 : Ref sig .tc := ⟨.vmem, 162, rfl⟩
abbrev cc18_stg5_0 : Ref sig .tc := ⟨.vmem, 163, rfl⟩
abbrev cc18_stg5_1 : Ref sig .tc := ⟨.vmem, 164, rfl⟩
abbrev cc19_stg0_0 : Ref sig .tc := ⟨.vmem, 165, rfl⟩
abbrev cc19_stg0_1 : Ref sig .tc := ⟨.vmem, 166, rfl⟩
abbrev cc19_stg1_0 : Ref sig .tc := ⟨.vmem, 167, rfl⟩
abbrev cc19_stg2_0 : Ref sig .tc := ⟨.vmem, 168, rfl⟩
abbrev cc19_stg2_1 : Ref sig .tc := ⟨.vmem, 169, rfl⟩
abbrev cc19_stg3_0 : Ref sig .tc := ⟨.vmem, 170, rfl⟩
abbrev cc19_stg4_0 : Ref sig .tc := ⟨.vmem, 171, rfl⟩
abbrev cc19_stg5_0 : Ref sig .tc := ⟨.vmem, 172, rfl⟩
abbrev cc19_stg5_1 : Ref sig .tc := ⟨.vmem, 173, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem2_1 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem2_1 : DmaSem sig := 64
abbrev cc7_sem3_0 : DmaSem sig := 65
abbrev cc7_sem4_0 : DmaSem sig := 66
abbrev cc7_sem5_0 : DmaSem sig := 67
abbrev cc7_sem5_1 : DmaSem sig := 68
abbrev cc8_sem0_0 : DmaSem sig := 69
abbrev cc8_sem0_1 : DmaSem sig := 70
abbrev cc8_sem1_0 : DmaSem sig := 71
abbrev cc8_sem2_0 : DmaSem sig := 72
abbrev cc8_sem2_1 : DmaSem sig := 73
abbrev cc8_sem3_0 : DmaSem sig := 74
abbrev cc8_sem4_0 : DmaSem sig := 75
abbrev cc8_sem5_0 : DmaSem sig := 76
abbrev cc8_sem5_1 : DmaSem sig := 77
abbrev cc9_sem0_0 : DmaSem sig := 78
abbrev cc9_sem0_1 : DmaSem sig := 79
abbrev cc9_sem1_0 : DmaSem sig := 80
abbrev cc9_sem2_0 : DmaSem sig := 81
abbrev cc9_sem2_1 : DmaSem sig := 82
abbrev cc9_sem3_0 : DmaSem sig := 83
abbrev cc9_sem4_0 : DmaSem sig := 84
abbrev cc9_sem5_0 : DmaSem sig := 85
abbrev cc9_sem5_1 : DmaSem sig := 86
abbrev cc10_sem0_0 : DmaSem sig := 87
abbrev cc10_sem0_1 : DmaSem sig := 88
abbrev cc10_sem1_0 : DmaSem sig := 89
abbrev cc10_sem2_0 : DmaSem sig := 90
abbrev cc10_sem2_1 : DmaSem sig := 91
abbrev cc10_sem3_0 : DmaSem sig := 92
abbrev cc10_sem4_0 : DmaSem sig := 93
abbrev cc10_sem5_0 : DmaSem sig := 94
abbrev cc10_sem5_1 : DmaSem sig := 95
abbrev cc11_sem0_0 : DmaSem sig := 96
abbrev cc11_sem0_1 : DmaSem sig := 97
abbrev cc11_sem1_0 : DmaSem sig := 98
abbrev cc11_sem2_0 : DmaSem sig := 99
abbrev cc11_sem2_1 : DmaSem sig := 100
abbrev cc11_sem3_0 : DmaSem sig := 101
abbrev cc11_sem4_0 : DmaSem sig := 102
abbrev cc11_sem5_0 : DmaSem sig := 103
abbrev cc11_sem5_1 : DmaSem sig := 104
abbrev cc12_sem0_0 : DmaSem sig := 105
abbrev cc12_sem0_1 : DmaSem sig := 106
abbrev cc12_sem1_0 : DmaSem sig := 107
abbrev cc12_sem2_0 : DmaSem sig := 108
abbrev cc12_sem2_1 : DmaSem sig := 109
abbrev cc12_sem3_0 : DmaSem sig := 110
abbrev cc12_sem4_0 : DmaSem sig := 111
abbrev cc12_sem5_0 : DmaSem sig := 112
abbrev cc12_sem5_1 : DmaSem sig := 113
abbrev cc13_sem0_0 : DmaSem sig := 114
abbrev cc13_sem0_1 : DmaSem sig := 115
abbrev cc13_sem1_0 : DmaSem sig := 116
abbrev cc13_sem2_0 : DmaSem sig := 117
abbrev cc13_sem3_0 : DmaSem sig := 118
abbrev cc13_sem3_1 : DmaSem sig := 119
abbrev cc14_sem0_0 : DmaSem sig := 120
abbrev cc14_sem0_1 : DmaSem sig := 121
abbrev cc14_sem1_0 : DmaSem sig := 122
abbrev cc14_sem2_0 : DmaSem sig := 123
abbrev cc14_sem2_1 : DmaSem sig := 124
abbrev cc14_sem3_0 : DmaSem sig := 125
abbrev cc14_sem4_0 : DmaSem sig := 126
abbrev cc14_sem5_0 : DmaSem sig := 127
abbrev cc14_sem5_1 : DmaSem sig := 128
abbrev cc15_sem0_0 : DmaSem sig := 129
abbrev cc15_sem0_1 : DmaSem sig := 130
abbrev cc15_sem1_0 : DmaSem sig := 131
abbrev cc15_sem2_0 : DmaSem sig := 132
abbrev cc15_sem2_1 : DmaSem sig := 133
abbrev cc15_sem3_0 : DmaSem sig := 134
abbrev cc15_sem4_0 : DmaSem sig := 135
abbrev cc15_sem5_0 : DmaSem sig := 136
abbrev cc15_sem5_1 : DmaSem sig := 137
abbrev cc16_sem0_0 : DmaSem sig := 138
abbrev cc16_sem0_1 : DmaSem sig := 139
abbrev cc16_sem1_0 : DmaSem sig := 140
abbrev cc16_sem2_0 : DmaSem sig := 141
abbrev cc16_sem2_1 : DmaSem sig := 142
abbrev cc16_sem3_0 : DmaSem sig := 143
abbrev cc16_sem4_0 : DmaSem sig := 144
abbrev cc16_sem5_0 : DmaSem sig := 145
abbrev cc16_sem5_1 : DmaSem sig := 146
abbrev cc17_sem0_0 : DmaSem sig := 147
abbrev cc17_sem0_1 : DmaSem sig := 148
abbrev cc17_sem1_0 : DmaSem sig := 149
abbrev cc17_sem2_0 : DmaSem sig := 150
abbrev cc17_sem2_1 : DmaSem sig := 151
abbrev cc17_sem3_0 : DmaSem sig := 152
abbrev cc17_sem4_0 : DmaSem sig := 153
abbrev cc17_sem5_0 : DmaSem sig := 154
abbrev cc17_sem5_1 : DmaSem sig := 155
abbrev cc18_sem0_0 : DmaSem sig := 156
abbrev cc18_sem0_1 : DmaSem sig := 157
abbrev cc18_sem1_0 : DmaSem sig := 158
abbrev cc18_sem2_0 : DmaSem sig := 159
abbrev cc18_sem2_1 : DmaSem sig := 160
abbrev cc18_sem3_0 : DmaSem sig := 161
abbrev cc18_sem4_0 : DmaSem sig := 162
abbrev cc18_sem5_0 : DmaSem sig := 163
abbrev cc18_sem5_1 : DmaSem sig := 164
abbrev cc19_sem0_0 : DmaSem sig := 165
abbrev cc19_sem0_1 : DmaSem sig := 166
abbrev cc19_sem1_0 : DmaSem sig := 167
abbrev cc19_sem2_0 : DmaSem sig := 168
abbrev cc19_sem2_1 : DmaSem sig := 169
abbrev cc19_sem3_0 : DmaSem sig := 170
abbrev cc19_sem4_0 : DmaSem sig := 171
abbrev cc19_sem5_0 : DmaSem sig := 172
abbrev cc19_sem5_1 : DmaSem sig := 173

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2x2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1x2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1x2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![50], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2x2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2x128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1x2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1x2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![50], ![false]⟩

def cc10_transform_0 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2x2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S2x128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![20], ![false]⟩

def cc11_transform_0 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc11_transform_1 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1x2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S2000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc12_transform_1 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1x2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S2000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S128x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S2000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S2000x64 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![50], ![false]⟩

def cc14_transform_0 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc14_transform_1 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 1 → Nat :=
  let arg0 : BitVec 32 := BitVec.ofNat 32 (i 0).val
  let c0_i32 : BitVec 32 := 0#32
  let c0_i32_0 : BitVec 32 := 0#32
  ![c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2x2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S2x128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S2000x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 1 → Memref sig .tc .vmem S128x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S2000x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![20], ![false]⟩

def cc15_transform_0 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc15_transform_1 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 1 → Nat :=
  let arg0 : BitVec 32 := BitVec.ofNat 32 (i 0).val
  let c0_i32 : BitVec 32 := 0#32
  let c0_i32_0 : BitVec 32 := 0#32
  ![c0_i32.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S1x2000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S2000x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 1 → Memref sig .tc .vmem S128x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S2000x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![10], ![false]⟩

def cc16_transform_0 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc16_transform_1 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 1 → Nat :=
  let arg0 : BitVec 32 := BitVec.ofNat 32 (i 0).val
  let c0_i32 : BitVec 32 := 0#32
  let c0_i32_0 : BitVec 32 := 0#32
  ![c0_i32.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S1x2000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x128x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S2000x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 1 → Memref sig .tc .vmem S128x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S2000x128 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev grid17 : Pipeline.Grid := ⟨1, ![50], ![false]⟩

def cc17_transform_0 (i : grid17.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc17_transform_1 (i : grid17.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2x2000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S2x128x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S2000x128 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev stage17_3 : Fin 1 → Memref sig .tc .vmem S128x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S128 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 2 → Memref sig .tc .vmem S2000x128 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

abbrev grid18 : Pipeline.Grid := ⟨1, ![20], ![false]⟩

def cc18_transform_0 (i : grid18.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc18_transform_1 (i : grid18.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S1x2000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S1x128x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S2000x128 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 1 → Memref sig .tc .vmem S128x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 2 → Memref sig .tc .vmem S2000x128 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev grid19 : Pipeline.Grid := ⟨1, ![10], ![false]⟩

def cc19_transform_0 (i : grid19.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc19_transform_1 (i : grid19.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 1 → Nat :=
  let arg0 : BitVec 32 := BitVec.ofNat 32 (i 0).val
  let c0_i32 : BitVec 32 := 0#32
  let c0_i32_0 : BitVec 32 := 0#32
  ![c0_i32.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S1x2000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x128x128 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S2000x128 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev stage19_3 : Fin 1 → Memref sig .tc .vmem S128x128 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S128 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S2000x128 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

class Facts₀ : Prop where
  slices_S3x2x4x128x128_S1x2x4x128x128_0_0_0_0_0 : S3x2x4x128x128.Slices ![0, 0, 0, 0, 0] S1x2x4x128x128
  shapeCasts_S1x2x4x128x128_S2x4x128x128 : S1x2x4x128x128.ShapeCasts S2x4x128x128
  slices_S3x2x4x128_S1x2x4x128_0_0_0_0 : S3x2x4x128.Slices ![0, 0, 0, 0] S1x2x4x128
  shapeCasts_S1x2x4x128_S2x4x128 : S1x2x4x128.ShapeCasts S2x4x128
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  slices_S2x4x128x128_S1x1x128x128_0_0_0_0 : S2x4x128x128.Slices ![0, 0, 0, 0] S1x1x128x128
  shapeCasts_S1x1x128x128_S128x128 : S1x1x128x128.ShapeCasts S128x128
  slices_S2x4x128x128_S1x1x128x128_0_3_0_0 : S2x4x128x128.Slices ![0, 3, 0, 0] S1x1x128x128
  slices_S2x4x128_S1x1x128_0_0_0 : S2x4x128.Slices ![0, 0, 0] S1x1x128
  shapeCasts_S1x1x128_S128 : S1x1x128.ShapeCasts S128
  slices_S2x4x128_S1x1x128_0_3_0 : S2x4x128.Slices ![0, 3, 0] S1x1x128
  bcast_S100000x128_S1x100000x128_1_2 : S100000x128.BroadcastsInDim S1x100000x128 (![1, 2] : Fin 2 → Fin S1x100000x128.rank)
  concatenates_S1x100000x128_S1x100000x128_S2x100000x128_d0 : Shape.Concatenates [S1x100000x128, S1x100000x128] S2x100000x128 0
  bcast_S128x128_S1x128x128_1_2 : S128x128.BroadcastsInDim S1x128x128 (![1, 2] : Fin 2 → Fin S1x128x128.rank)
  concatenates_S1x128x128_S1x128x128_S2x128x128_d0 : Shape.Concatenates [S1x128x128, S1x128x128] S2x128x128 0
  inb_S2x2000x128_S1x2000x128_0_0_0 : ∀ a, (![0, 0, 0] : Fin 3 → Nat) a + S1x2000x128.size a ≤ S2x2000x128.size a
  h_S1x2000x128 : 0 < S1x2000x128.numel
  shapeCasts_S1x2000x128_S2000x128 : S1x2000x128.ShapeCasts S2000x128
  bitsLt_bf16_f32 : FTy.bits .bf16 < FTy.bits .f32
  inb_S2x2000x128_S1x2000x128_1_0_0 : ∀ a, (![1, 0, 0] : Fin 3 → Nat) a + S1x2000x128.size a ≤ S2x2000x128.size a
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2x128x128_S1x128x128_1_0_0 : ∀ a, (![1, 0, 0] : Fin 3 → Nat) a + S1x128x128.size a ≤ S2x128x128.size a
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  slices_S2x4x128x128_S1x1x128x128_0_1_0_0 : S2x4x128x128.Slices ![0, 1, 0, 0] S1x1x128x128
  slices_S2x4x128_S1x1x128_0_1_0 : S2x4x128.Slices ![0, 1, 0] S1x1x128
  bcast_S40000x128_S1x40000x128_1_2 : S40000x128.BroadcastsInDim S1x40000x128 (![1, 2] : Fin 2 → Fin S1x40000x128.rank)
  inb_S1x2000x128_S1x2000x128_0_0_0 : ∀ a, (![0, 0, 0] : Fin 3 → Nat) a + S1x2000x128.size a ≤ S1x2000x128.size a
  inb_S1x128x128_S1x128x128_0_0_0 : ∀ a, (![0, 0, 0] : Fin 3 → Nat) a + S1x128x128.size a ≤ S1x128x128.size a
  slices_S2x4x128x128_S1x1x128x128_0_2_0_0 : S2x4x128x128.Slices ![0, 2, 0, 0] S1x1x128x128
  slices_S2x4x128_S1x1x128_0_2_0 : S2x4x128.Slices ![0, 2, 0] S1x1x128
  bcast_S20000x128_S1x20000x128_1_2 : S20000x128.BroadcastsInDim S1x20000x128 (![1, 2] : Fin 2 → Fin S1x20000x128.rank)
  slices_S2x4x128x128_S1x1x128x128_1_0_0_0 : S2x4x128x128.Slices ![1, 0, 0, 0] S1x1x128x128
  slices_S2x4x128x128_S1x1x128x128_1_3_0_0 : S2x4x128x128.Slices ![1, 3, 0, 0] S1x1x128x128
  slices_S2x4x128_S1x1x128_1_0_0 : S2x4x128.Slices ![1, 0, 0] S1x1x128
  slices_S2x4x128_S1x1x128_1_3_0 : S2x4x128.Slices ![1, 3, 0] S1x1x128
  shapeCasts_S2000x128_S2000x128 : S2000x128.ShapeCasts S2000x128
  slices_S2x4x128x128_S1x1x128x128_1_1_0_0 : S2x4x128x128.Slices ![1, 1, 0, 0] S1x1x128x128
  slices_S2x4x128_S1x1x128_1_1_0 : S2x4x128.Slices ![1, 1, 0] S1x1x128
  slices_S2x4x128x128_S1x1x128x128_1_2_0_0 : S2x4x128x128.Slices ![1, 2, 0, 0] S1x1x128x128
  slices_S2x4x128_S1x1x128_1_2_0 : S2x4x128.Slices ![1, 2, 0] S1x1x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  slices_S3x2x4x128x128_S1x2x4x128x128_1_0_0_0_0 : S3x2x4x128x128.Slices ![1, 0, 0, 0, 0] S1x2x4x128x128
  slices_S3x2x4x128_S1x2x4x128_1_0_0_0 : S3x2x4x128.Slices ![1, 0, 0, 0] S1x2x4x128
  bcast_S1_S1x1_1 : S1.BroadcastsInDim S1x1 (![1] : Fin 1 → Fin S1x1.rank)
  bcast_S1x1_S40000x1_0_1 : S1x1.BroadcastsInDim S40000x1 (![0, 1] : Fin 2 → Fin S40000x1.rank)
  slices_S3x2x4x128x128_S1x2x4x128x128_2_0_0_0_0 : S3x2x4x128x128.Slices ![2, 0, 0, 0, 0] S1x2x4x128x128
  slices_S3x2x4x128_S1x2x4x128_2_0_0_0 : S3x2x4x128.Slices ![2, 0, 0, 0] S1x2x4x128
  bcast_S40000x1_S40000x64_0_1 : S40000x1.BroadcastsInDim S40000x64 (![0, 1] : Fin 2 → Fin S40000x64.rank)
  gather_S40000x128_S500000x1_S500000x128_1_0_n_n_0_1_1128_wf : GatherDims.WF S40000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  gather_S100000x128_S500000x1_S500000x128_1_0_n_n_0_1_1128_wf : GatherDims.WF S100000x128 S500000x1 S500000x128 [1] [0] [] [0] [] 1 ![1, 128]
  scatter_S40000x128_S500000x1_S500000x128_1_0_0_1_wf : ScatterDims.WF S40000x128 S500000x1 S500000x128 [1] [0] [0] 1
  scatter_S40000_S500000x1_S500000_n_0_0_1_wf : ScatterDims.WF S40000 S500000x1 S500000 [] [0] [0] 1
  gather_S100000x128_S800000x1_S800000x128_1_0_n_n_0_1_1128_wf : GatherDims.WF S100000x128 S800000x1 S800000x128 [1] [0] [] [0] [] 1 ![1, 128]
  scatter_S20000x128_S800000x1_S800000x128_1_0_0_1_wf : ScatterDims.WF S20000x128 S800000x1 S800000x128 [1] [0] [0] 1
  scatter_S20000_S800000x1_S800000_n_0_0_1_wf : ScatterDims.WF S20000 S800000x1 S800000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  dot_S40000x64_S64x1_S40000x1_1_0_0_1_n_n_wf : DotDims.WF S40000x64 S64x1 S40000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2000x128.size a ≤ S2x100000x128.size a
  hwx0_0 : ∀ i : grid0.Coords, EltTy.bits .f32 = 32 ∨ (Rect.block (s := S2x100000x128) S2x2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128x128.size a ≤ S2x128x128.size a
  hwx0_1 : ∀ i : grid0.Coords, EltTy.bits .f32 = 32 ∨ (Rect.block (s := S2x128x128) S2x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2000x128.size a ≤ S1x40000x128.size a
  hwx1_0 : ∀ i : grid1.Coords, EltTy.bits .f32 = 32 ∨ (Rect.block (s := S1x40000x128) S1x2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S1x128x128.size a
  hwx1_1 : ∀ i : grid1.Coords, EltTy.bits .f32 = 32 ∨ (Rect.block (s := S1x128x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S40000x128.size a
  hwx1_2 : ∀ i : grid1.Coords, EltTy.bits .f32 = 32 ∨ (Rect.block (s := S40000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S40000x128.size a
  hwx1_5 : ∀ i : grid1.Coords, EltTy.bits .f32 = 32 ∨ (Rect.block (s := S40000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2000x128.size a ≤ S1x20000x128.size a
  hwx2_0 : ∀ i : grid2.Coords, EltTy.bits .f32 = 32 ∨ (Rect.block (s := S1x20000x128) S1x2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128x128.size a ≤ S1x128x128.size a
  hwx2_1 : ∀ i : grid2.Coords, EltTy.bits .f32 = 32 ∨ (Rect.block (s := S1x128x128) S1x128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S20000x128.size a
  hwx2_2 : ∀ i : grid2.Coords, EltTy.bits .f32 = 32 ∨ (Rect.block (s := S20000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S20000x128.size a
  hwx2_5 : ∀ i : grid2.Coords, EltTy.bits .f32 = 32 ∨ (Rect.block (s := S20000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2x2000x128.size a ≤ S2x100000x128.size a
  hwx3_0 : ∀ i : grid3.Coords, EltTy.bits .f32 = 32 ∨ (Rect.block (s := S2x100000x128) S2x2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2x128x128.size a ≤ S2x128x128.size a
  hwx3_1 : ∀ i : grid3.Coords, EltTy.bits .f32 = 32 ∨ (Rect.block (s := S2x128x128) S2x128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2000x128.size a ≤ S1x40000x128.size a
  hwx4_0 : ∀ i : grid4.Coords, EltTy.bits .f32 = 32 ∨ (Rect.block (s := S1x40000x128) S1x2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128x128.size a ≤ S1x128x128.size a
  hwx4_1 : ∀ i : grid4.Coords, EltTy.bits .f32 = 32 ∨ (Rect.block (s := S1x128x128) S1x128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S40000x128.size a
  hwx4_2 : ∀ i : grid4.Coords, EltTy.bits .f32 = 32 ∨ (Rect.block (s := S40000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S40000x128.size a
  hwx4_5 : ∀ i : grid4.Coords, EltTy.bits .f32 = 32 ∨ (Rect.block (s := S40000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x2000x128.size a ≤ S1x20000x128.size a
  hwx5_0 : ∀ i : grid5.Coords, EltTy.bits .f32 = 32 ∨ (Rect.block (s := S1x20000x128) S1x2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128x128.size a ≤ S1x128x128.size a
  hwx5_1 : ∀ i : grid5.Coords, EltTy.bits .f32 = 32 ∨ (Rect.block (s := S1x128x128) S1x128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S20000x128.size a
  hwx5_2 : ∀ i : grid5.Coords, EltTy.bits .f32 = 32 ∨ (Rect.block (s := S20000x128) S2000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S20000x128.size a
  hwx5_5 : ∀ i : grid5.Coords, EltTy.bits .f32 = 32 ∨ (Rect.block (s := S20000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S40000x128.size a
  hwx6_0 : ∀ i : grid6.Coords, EltTy.bits .f32 = 32 ∨ (Rect.block (s := S40000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64.size a ≤ S64.size a
  hwx6_2 : ∀ i : grid6.Coords, EltTy.bits .f32 = 32 ∨ (Rect.block (s := S64) S64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S40000x64.size a
  hwx6_3 : ∀ i : grid6.Coords, EltTy.bits .f32 = 32 ∨ (Rect.block (s := S40000x64) S2000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2x2000x128.size a ≤ S2x100000x128.size a
  hwx7_0 : ∀ i : grid7.Coords, EltTy.bits .f32 = 32 ∨ (Rect.block (s := S2x100000x128) S2x2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2x128x128.size a ≤ S2x128x128.size a
  hwx7_1 : ∀ i : grid7.Coords, EltTy.bits .f32 = 32 ∨ (Rect.block (s := S2x128x128) S2x128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S100000x128.size a
  hwx7_2 : ∀ i : grid7.Coords, EltTy.bits .f32 = 32 ∨ (Rect.block (s := S100000x128) S2000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x128.size a ≤ S100000x128.size a
  hwx7_5 : ∀ i : grid7.Coords, EltTy.bits .f32 = 32 ∨ (Rect.block (s := S100000x128) S2000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x2000x128.size a ≤ S1x40000x128.size a
  hwx8_0 : ∀ i : grid8.Coords, EltTy.bits .f32 = 32 ∨ (Rect.block (s := S1x40000x128) S1x2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128x128.size a ≤ S1x128x128.size a
  hwx8_1 : ∀ i : grid8.Coords, EltTy.bits .f32 = 32 ∨ (Rect.block (s := S1x128x128) S1x128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S40000x128.size a
  hwx8_2 : ∀ i : grid8.Coords, EltTy.bits .f32 = 32 ∨ (Rect.block (s := S40000x128) S2000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128.size a ≤ S128.size a
  hwx8_4 : ∀ i : grid8.Coords, EltTy.bits .f32 = 32 ∨ (Rect.block (s := S128) S128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S40000x128.size a
  hwx8_5 : ∀ i : grid8.Coords, EltTy.bits .f32 = 32 ∨ (Rect.block (s := S40000x128) S2000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x2000x128.size a ≤ S1x20000x128.size a
  hwx9_0 : ∀ i : grid9.Coords, EltTy.bits .f32 = 32 ∨ (Rect.block (s := S1x20000x128) S1x2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128x128.size a ≤ S1x128x128.size a
  hwx9_1 : ∀ i : grid9.Coords, EltTy.bits .f32 = 32 ∨ (Rect.block (s := S1x128x128) S1x128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S20000x128.size a
  hwx9_2 : ∀ i : grid9.Coords, EltTy.bits .f32 = 32 ∨ (Rect.block (s := S20000x128) S2000x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128.size a ≤ S128.size a
  hwx9_4 : ∀ i : grid9.Coords, EltTy.bits .f32 = 32 ∨ (Rect.block (s := S128) S128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x128.size a ≤ S20000x128.size a
  hwx9_5 : ∀ i : grid9.Coords, EltTy.bits .f32 = 32 ∨ (Rect.block (s := S20000x128) S2000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2x2000x128.size a ≤ S2x100000x128.size a
  hwx10_0 : ∀ i : grid10.Coords, EltTy.bits .f32 = 32 ∨ (Rect.block (s := S2x100000x128) S2x2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S2x128x128.size a ≤ S2x128x128.size a
  hwx10_1 : ∀ i : grid10.Coords, EltTy.bits .f32 = 32 ∨ (Rect.block (s := S2x128x128) S2x128x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S100000x128.size a
  hwx10_2 : ∀ i : grid10.Coords, EltTy.bits .f32 = 32 ∨ (Rect.block (s := S100000x128) S2000x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S128.size a ≤ S128.size a
  hwx10_4 : ∀ i : grid10.Coords, EltTy.bits .f32 = 32 ∨ (Rect.block (s := S128) S128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x128.size a ≤ S100000x128.size a
  hwx10_5 : ∀ i : grid10.Coords, EltTy.bits .f32 = 32 ∨ (Rect.block (s := S100000x128) S2000x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1x2000x128.size a ≤ S1x40000x128.size a
  hwx11_0 : ∀ i : grid11.Coords, EltTy.bits .f32 = 32 ∨ (Rect.block (s := S1x40000x128) S1x2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128x128.size a ≤ S1x128x128.size a
  hwx11_1 : ∀ i : grid11.Coords, EltTy.bits .f32 = 32 ∨ (Rect.block (s := S1x128x128) S1x128x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x128.size a ≤ S40000x128.size a
  hwx11_2 : ∀ i : grid11.Coords, EltTy.bits .f32 = 32 ∨ (Rect.block (s := S40000x128) S2000x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .f32 = 32 ∨ (Rect.block (s := S128x128) S128x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S128.size a ≤ S128.size a
  hwx11_4 : ∀ i : grid11.Coords, EltTy.bits .f32 = 32 ∨ (Rect.block (s := S128) S128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x128.size a ≤ S40000x128.size a
  hwx11_5 : ∀ i : grid11.Coords, EltTy.bits .f32 = 32 ∨ (Rect.block (s := S40000x128) S2000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1x2000x128.size a ≤ S1x20000x128.size a
  hwx12_0 : ∀ i : grid12.Coords, EltTy.bits .f32 = 32 ∨ (Rect.block (s := S1x20000x128) S1x2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128x128.size a ≤ S1x128x128.size a
  hwx12_1 : ∀ i : grid12.Coords, EltTy.bits .f32 = 32 ∨ (Rect.block (s := S1x128x128) S1x128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x128.size a ≤ S20000x128.size a
  hwx12_2 : ∀ i : grid12.Coords, EltTy.bits .f32 = 32 ∨ (Rect.block (s := S20000x128) S2000x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x128.size a ≤ S128x128.size a
  hwx12_3 : ∀ i : grid12.Coords, EltTy.bits .f32 = 32 ∨ (Rect.block (s := S128x128) S128x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S128.size a ≤ S128.size a
  hwx12_4 : ∀ i : grid12.Coords, EltTy.bits .f32 = 32 ∨ (Rect.block (s := S128) S128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x128.size a ≤ S20000x128.size a
  hwx12_5 : ∀ i : grid12.Coords, EltTy.bits .f32 = 32 ∨ (Rect.block (s := S20000x128) S2000x128.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S40000x128.size a
  hwx13_0 : ∀ i : grid13.Coords, EltTy.bits .f32 = 32 ∨ (Rect.block (s := S40000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x64.size a ≤ S128x64.size a
  hwx13_1 : ∀ i : grid13.Coords, EltTy.bits .f32 = 32 ∨ (Rect.block (s := S128x64) S128x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S64.size a ≤ S64.size a
  hwx13_2 : ∀ i : grid13.Coords, EltTy.bits .f32 = 32 ∨ (Rect.block (s := S64) S64.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2000x64.size a ≤ S40000x64.size a
  hwx13_3 : ∀ i : grid13.Coords, EltTy.bits .f32 = 32 ∨ (Rect.block (s := S40000x64) S2000x64.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2x2000x128.size a ≤ S2x100000x128.size a
  hwx14_0 : ∀ i : grid14.Coords, EltTy.bits .f32 = 32 ∨ (Rect.block (s := S2x100000x128) S2x2000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S2x128x128.size a ≤ S2x128x128.size a
  hwx14_1 : ∀ i : grid14.Coords, EltTy.bits .f32 = 32 ∨ (Rect.block (s := S2x128x128) S2x128x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S2000x128.size a ≤ S100000x128.size a
  hwx14_2 : ∀ i : grid14.Coords, EltTy.bits .f32 = 32 ∨ (Rect.block (s := S100000x128) S2000x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S128x128.size a ≤ S128x128.size a
  hwx14_3 : ∀ i : grid14.Coords, EltTy.bits .f32 = 32 ∨ (Rect.block (s := S128x128) S128x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S128.size a ≤ S128.size a
  hwx14_4 : ∀ i : grid14.Coords, EltTy.bits .f32 = 32 ∨ (Rect.block (s := S128) S128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S2000x128.size a ≤ S100000x128.size a
  hwx14_5 : ∀ i : grid14.Coords, EltTy.bits .f32 = 32 ∨ (Rect.block (s := S100000x128) S2000x128.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1x2000x128.size a ≤ S1x40000x128.size a
  hwx15_0 : ∀ i : grid15.Coords, EltTy.bits .f32 = 32 ∨ (Rect.block (s := S1x40000x128) S1x2000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128x128.size a ≤ S1x128x128.size a
  hwx15_1 : ∀ i : grid15.Coords, EltTy.bits .f32 = 32 ∨ (Rect.block (s := S1x128x128) S1x128x128.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S2000x128.size a ≤ S40000x128.size a
  hwx15_2 : ∀ i : grid15.Coords, EltTy.bits .f32 = 32 ∨ (Rect.block (s := S40000x128) S2000x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S128x128.size a ≤ S128x128.size a
  hwx15_3 : ∀ i : grid15.Coords, EltTy.bits .f32 = 32 ∨ (Rect.block (s := S128x128) S128x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S128.size a ≤ S128.size a
  hwx15_4 : ∀ i : grid15.Coords, EltTy.bits .f32 = 32 ∨ (Rect.block (s := S128) S128.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S2000x128.size a ≤ S40000x128.size a
  hwx15_5 : ∀ i : grid15.Coords, EltTy.bits .f32 = 32 ∨ (Rect.block (s := S40000x128) S2000x128.size (cc15_transform_5 i) (hinb15_5 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S1x2000x128.size a ≤ S1x20000x128.size a
  hwx16_0 : ∀ i : grid16.Coords, EltTy.bits .f32 = 32 ∨ (Rect.block (s := S1x20000x128) S1x2000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x128x128.size a ≤ S1x128x128.size a
  hwx16_1 : ∀ i : grid16.Coords, EltTy.bits .f32 = 32 ∨ (Rect.block (s := S1x128x128) S1x128x128.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S2000x128.size a ≤ S20000x128.size a
  hwx16_2 : ∀ i : grid16.Coords, EltTy.bits .f32 = 32 ∨ (Rect.block (s := S20000x128) S2000x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S128x128.size a ≤ S128x128.size a
  hwx16_3 : ∀ i : grid16.Coords, EltTy.bits .f32 = 32 ∨ (Rect.block (s := S128x128) S128x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S128.size a ≤ S128.size a
  hwx16_4 : ∀ i : grid16.Coords, EltTy.bits .f32 = 32 ∨ (Rect.block (s := S128) S128.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S2000x128.size a ≤ S20000x128.size a
  hwx16_5 : ∀ i : grid16.Coords, EltTy.bits .f32 = 32 ∨ (Rect.block (s := S20000x128) S2000x128.size (cc16_transform_5 i) (hinb16_5 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2x2000x128.size a ≤ S2x100000x128.size a
  hwx17_0 : ∀ i : grid17.Coords, EltTy.bits .f32 = 32 ∨ (Rect.block (s := S2x100000x128) S2x2000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S2x128x128.size a ≤ S2x128x128.size a
  hwx17_1 : ∀ i : grid17.Coords, EltTy.bits .f32 = 32 ∨ (Rect.block (s := S2x128x128) S2x128x128.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S2000x128.size a ≤ S100000x128.size a
  hwx17_2 : ∀ i : grid17.Coords, EltTy.bits .f32 = 32 ∨ (Rect.block (s := S100000x128) S2000x128.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S128x128.size a ≤ S128x128.size a
  hwx17_3 : ∀ i : grid17.Coords, EltTy.bits .f32 = 32 ∨ (Rect.block (s := S128x128) S128x128.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S128.size a ≤ S128.size a
  hwx17_4 : ∀ i : grid17.Coords, EltTy.bits .f32 = 32 ∨ (Rect.block (s := S128) S128.size (cc17_transform_4 i) (hinb17_4 i)).WholeWords (EltTy.packing .f32)
  hstage17_5 : ∀ j, (stage17_5 j).IsWhole
  nbuf17_5 : grid17.bufCount reads17_5 false = 2
  hreads17_5 : ∀ i i' : grid17.Coords, (∀ a, reads17_5 a = true → i a = i' a) → cc17_transform_5 i = cc17_transform_5 i'
  hinb17_5 : ∀ (i : grid17.Coords) a, (cc17_transform_5 i a + 1) * S2000x128.size a ≤ S100000x128.size a
  hwx17_5 : ∀ i : grid17.Coords, EltTy.bits .f32 = 32 ∨ (Rect.block (s := S100000x128) S2000x128.size (cc17_transform_5 i) (hinb17_5 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S1x2000x128.size a ≤ S1x40000x128.size a
  hwx18_0 : ∀ i : grid18.Coords, EltTy.bits .f32 = 32 ∨ (Rect.block (s := S1x40000x128) S1x2000x128.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S1x128x128.size a ≤ S1x128x128.size a
  hwx18_1 : ∀ i : grid18.Coords, EltTy.bits .f32 = 32 ∨ (Rect.block (s := S1x128x128) S1x128x128.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S2000x128.size a ≤ S40000x128.size a
  hwx18_2 : ∀ i : grid18.Coords, EltTy.bits .f32 = 32 ∨ (Rect.block (s := S40000x128) S2000x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S128x128.size a ≤ S128x128.size a
  hwx18_3 : ∀ i : grid18.Coords, EltTy.bits .f32 = 32 ∨ (Rect.block (s := S128x128) S128x128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S128.size a ≤ S128.size a
  hwx18_4 : ∀ i : grid18.Coords, EltTy.bits .f32 = 32 ∨ (Rect.block (s := S128) S128.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S2000x128.size a ≤ S40000x128.size a
  hwx18_5 : ∀ i : grid18.Coords, EltTy.bits .f32 = 32 ∨ (Rect.block (s := S40000x128) S2000x128.size (cc18_transform_5 i) (hinb18_5 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S1x2000x128.size a ≤ S1x20000x128.size a
  hwx19_0 : ∀ i : grid19.Coords, EltTy.bits .f32 = 32 ∨ (Rect.block (s := S1x20000x128) S1x2000x128.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x128x128.size a ≤ S1x128x128.size a
  hwx19_1 : ∀ i : grid19.Coords, EltTy.bits .f32 = 32 ∨ (Rect.block (s := S1x128x128) S1x128x128.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S2000x128.size a ≤ S20000x128.size a
  hwx19_2 : ∀ i : grid19.Coords, EltTy.bits .f32 = 32 ∨ (Rect.block (s := S20000x128) S2000x128.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S128x128.size a ≤ S128x128.size a
  hwx19_3 : ∀ i : grid19.Coords, EltTy.bits .f32 = 32 ∨ (Rect.block (s := S128x128) S128x128.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S128.size a ≤ S128.size a
  hwx19_4 : ∀ i : grid19.Coords, EltTy.bits .f32 = 32 ∨ (Rect.block (s := S128) S128.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S2000x128.size a ≤ S20000x128.size a
  hwx19_5 : ∀ i : grid19.Coords, EltTy.bits .f32 = 32 ∨ (Rect.block (s := S20000x128) S2000x128.size (cc19_transform_5 i) (hinb19_5 i)).WholeWords (EltTy.packing .f32)

variable [Facts₀]

def gather_S40000x128_S500000x1_S500000x128_1_0_n_n_0_1_1128 : GatherDims S40000x128 S500000x1 S500000x128 where
  offsetDims := [1]
  collapsedSliceDims := [0]
  operandBatchingDims := []
  startIndicesBatchingDims := []
  startIndexMap := [0]
  indexVectorDim := 1
  sliceSizes := ![1, 128]
  wf := gather_S40000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S40000x128_S500000x1_S500000x128_1_0_0_1 : ScatterDims S40000x128 S500000x1 S500000x128 where
  updateWindowDims := [1]
  insertedWindowDims := [0]
  scatterDimsToOperandDims := [0]
  indexVectorDim := 1
  wf := scatter_S40000x128_S500000x1_S500000x128_1_0_0_1_wf
def scatter_S40000_S500000x1_S500000_n_0_0_1 : ScatterDims S40000 S500000x1 S500000 where
  updateWindowDims := []
  insertedWindowDims := [0]
  scatterDimsToOperandDims := [0]
  indexVectorDim := 1
  wf := scatter_S40000_S500000x1_S500000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S20000x128_S800000x1_S800000x128_1_0_0_1 : ScatterDims S20000x128 S800000x1 S800000x128 where
  updateWindowDims := [1]
  insertedWindowDims := [0]
  scatterDimsToOperandDims := [0]
  indexVectorDim := 1
  wf := scatter_S20000x128_S800000x1_S800000x128_1_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S40000x64_S64x1_S40000x1_1_0_0_1_n_n : DotDims S40000x64 S64x1 S40000x1 where
  lhsContracting := [1]
  rhsContracting := [0]
  lhsNonContracting := [0]
  rhsNonContracting := [1]
  lhsBatch := []
  rhsBatch := []
  wf := dot_S40000x64_S64x1_S40000x1_1_0_0_1_n_n_wf

abbrev win0_0 : Pipeline.Window sig grid0 :=
  Pipeline.Window.ofSpec (Memref.whole main_v98) S2x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v101) S2x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v90) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v95) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v102) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v109) S1x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v110) S1x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v106) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v108) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v111) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v118) S1x2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v119) S1x128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v115) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v117) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v120) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v213) S2x2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v216) S2x128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v102) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v205) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v210) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v217) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v224) S1x2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v225) S1x128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v111) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v221) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v223) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v226) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v233) S1x2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v234) S1x128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v120) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v230) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v232) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v235) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v226) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg7) S64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v236) S2000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v335) S2x2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v338) S2x128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v217) S2000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v327) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v332) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v339) S2000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v346) S1x2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v347) S1x128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v226) S2000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v343) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v345) S128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v348) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v355) S1x2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v356) S1x128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v235) S2000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v352) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v354) S128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v357) S2000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v450) S2x2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v453) S2x128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v339) S2000x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v442) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v447) S128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v454) S2000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v461) S1x2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v462) S1x128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v348) S2000x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v458) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v460) S128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v463) S2000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v470) S1x2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v471) S1x128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v357) S2000x128.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v467) S128x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v469) S128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v472) S2000x128.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v463) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg8) S128x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_arg9) S64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v473) S2000x64.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v576) S2x2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v579) S2x128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_arg1) S2000x128.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v568) S128x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v573) S128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v580) S2000x128.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v587) S1x2000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v588) S1x128x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_arg0) S2000x128.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v584) S128x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v586) S128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v589) S2000x128.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v596) S1x2000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v597) S1x128x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_arg2) S2000x128.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v593) S128x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v595) S128.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v598) S2000x128.size cc16_transform_5 reads16_5 true false 2 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v691) S2x2000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v694) S2x128x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v580) S2000x128.size cc17_transform_2 reads17_2 false false 2 stage17_2 sem17_2
    hrank17 hreads17_2 hinb17_2 nbuf17_2 (Memref.isWhole_whole _) hwx17_2 hstage17_2

abbrev win17_3 : Pipeline.Window sig grid17 :=
  Pipeline.Window.ofSpec (Memref.whole main_v683) S128x128.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v688) S128.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v695) S2000x128.size cc17_transform_5 reads17_5 true false 2 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

abbrev win18_0 : Pipeline.Window sig grid18 :=
  Pipeline.Window.ofSpec (Memref.whole main_v702) S1x2000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v703) S1x128x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v589) S2000x128.size cc18_transform_2 reads18_2 false false 2 stage18_2 sem18_2
    hrank18 hreads18_2 hinb18_2 nbuf18_2 (Memref.isWhole_whole _) hwx18_2 hstage18_2

abbrev win18_3 : Pipeline.Window sig grid18 :=
  Pipeline.Window.ofSpec (Memref.whole main_v699) S128x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v701) S128.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v704) S2000x128.size cc18_transform_5 reads18_5 true false 2 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

abbrev win19_0 : Pipeline.Window sig grid19 :=
  Pipeline.Window.ofSpec (Memref.whole main_v711) S1x2000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v712) S1x128x128.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v598) S2000x128.size cc19_transform_2 reads19_2 false false 2 stage19_2 sem19_2
    hrank19 hreads19_2 hinb19_2 nbuf19_2 (Memref.isWhole_whole _) hwx19_2 hstage19_2

abbrev win19_3 : Pipeline.Window sig grid19 :=
  Pipeline.Window.ofSpec (Memref.whole main_v708) S128x128.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v710) S128.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v713) S2000x128.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

class Facts : Prop extends Facts₀ where

variable [Facts]
-- ==== ReferenceIdeal.lean ====
abbrev S40000x128 : Shape := ⟨2, ![40000, 128]⟩
abbrev S100000x128 : Shape := ⟨2, ![100000, 128]⟩
abbrev S20000x128 : Shape := ⟨2, ![20000, 128]⟩
abbrev S3x2x4x128x128 : Shape := ⟨5, ![3, 2, 4, 128, 128]⟩
abbrev S3x2x4x128 : Shape := ⟨4, ![3, 2, 4, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S500000 : Shape := ⟨1, ![500000]⟩
abbrev S800000 : Shape := ⟨1, ![800000]⟩
abbrev S1x2x4x128x128 : Shape := ⟨5, ![1, 2, 4, 128, 128]⟩
abbrev S2x4x128x128 : Shape := ⟨4, ![2, 4, 128, 128]⟩
abbrev S1x2x4x128 : Shape := ⟨4, ![1, 2, 4, 128]⟩
abbrev S2x4x128 : Shape := ⟨3, ![2, 4, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩
abbrev S800000x1 : Shape := ⟨2, ![800000, 1]⟩
abbrev S800000x128 : Shape := ⟨2, ![800000, 128]⟩
abbrev S40000 : Shape := ⟨1, ![40000]⟩
abbrev S40000x1 : Shape := ⟨2, ![40000, 1]⟩
abbrev S20000 : Shape := ⟨1, ![20000]⟩
abbrev S20000x1 : Shape := ⟨2, ![20000, 1]⟩
abbrev S40000x64 : Shape := ⟨2, ![40000, 64]⟩
abbrev S1x64 : Shape := ⟨2, ![1, 64]⟩
abbrev S1x1 : Shape := ⟨2, ![1, 1]⟩

abbrev nBuf : Space → Nat
  | .hbm => 1000
  | .vmem => 0
  | .smem => 0
  | _ => 0

abbrev hbmTy0_0 (i : Nat) : BufTy := match i % 128 with
  | 0 => ⟨S40000x128, .f32⟩
  | 1 => ⟨S100000x128, .f32⟩
  | 2 => ⟨S20000x128, .f32⟩
  | 3 => ⟨S3x2x4x128x128, .f32⟩
  | 4 => ⟨S3x2x4x128, .f32⟩
  | 5 => ⟨S3x2x4x128x128, .f32⟩
  | 6 => ⟨S128x64, .f32⟩
  | 7 => ⟨S64, .f32⟩
  | 8 => ⟨S128x64, .f32⟩
  | 9 => ⟨S64, .f32⟩
  | 10 => ⟨S64x1, .f32⟩
  | 11 => ⟨S1, .f32⟩
  | 12 => ⟨S500000, .i32⟩
  | 13 => ⟨S500000, .i32⟩
  | 14 => ⟨S500000, .i32⟩
  | 15 => ⟨S500000, .i32⟩
  | 16 => ⟨S800000, .i32⟩
  | 17 => ⟨S800000, .i32⟩
  | 18 => ⟨S800000, .i32⟩
  | 19 => ⟨S800000, .i32⟩
  | 20 => ⟨S1x2x4x128x128, .f32⟩
  | 21 => ⟨S2x4x128x128, .f32⟩
  | 22 => ⟨S1x2x4x128, .f32⟩
  | 23 => ⟨S2x4x128, .f32⟩
  | 24 => ⟨S1x2x4x128x128, .f32⟩
  | 25 => ⟨S2x4x128x128, .f32⟩
  | 26 => ⟨S1x1x128x128, .f32⟩
  | 27 => ⟨S128x128, .f32⟩
  | 28 => ⟨S1x1x128, .f32⟩
  | 29 => ⟨S128, .f32⟩
  | 30 => ⟨S1x1x128x128, .f32⟩
  | 31 => ⟨S128x128, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x128, .f32⟩
  | 41 => ⟨S_, .f32⟩
  | 42 => ⟨S100000x128, .f32⟩
  | 43 => ⟨S500000x1, .i32⟩
  | 44 => ⟨S100000x128, .f32⟩
  | 45 => ⟨S_, .f32⟩
  | 46 => ⟨S500000, .f32⟩
  | 47 => ⟨S_, .f32⟩
  | 48 => ⟨S100000, .f32⟩
  | 49 => ⟨S500000x1, .i32⟩
  | 50 => ⟨S100000, .f32⟩
  | 51 => ⟨S_, .f32⟩
  | 52 => ⟨S100000, .f32⟩
  | 53 => ⟨S100000, .f32⟩
  | 54 => ⟨S100000x1, .f32⟩
  | 55 => ⟨S100000x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S100000x128, .f32⟩
  | 62 => ⟨S100000x128, .f32⟩
  | 63 => ⟨S1x1x128x128, .f32⟩
  | 64 => ⟨S128x128, .f32⟩
  | 65 => ⟨S1x1x128, .f32⟩
  | 66 => ⟨S128, .f32⟩
  | 67 => ⟨S1x1x128x128, .f32⟩
  | 68 => ⟨S128x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S_, .f32⟩
  | 79 => ⟨S100000x128, .f32⟩
  | 80 => ⟨S800000x1, .i32⟩
  | 81 => ⟨S100000x128, .f32⟩
  | 82 => ⟨S_, .f32⟩
  | 83 => ⟨S800000, .f32⟩
  | 84 => ⟨S_, .f32⟩
  | 85 => ⟨S100000, .f32⟩
  | 86 => ⟨S800000x1, .i32⟩
  | 87 => ⟨S100000, .f32⟩
  | 88 => ⟨S_, .f32⟩
  | 89 => ⟨S100000, .f32⟩
  | 90 => ⟨S100000, .f32⟩
  | 91 => ⟨S100000x1, .f32⟩
  | 92 => ⟨S100000x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S100000x128, .f32⟩
  | 99 => ⟨S100000x128, .f32⟩
  | 100 => ⟨S100000x128, .f32⟩
  | 101 => ⟨S1x1x128x128, .f32⟩
  | 102 => ⟨S128x128, .f32⟩
  | 103 => ⟨S1x1x128, .f32⟩
  | 104 => ⟨S128, .f32⟩
  | 105 => ⟨S1x1x128x128, .f32⟩
  | 106 => ⟨S128x128, .f32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S500000x128, .f32⟩
  | 116 => ⟨S_, .f32⟩
  | 117 => ⟨S40000x128, .f32⟩
  | 118 => ⟨S500000x1, .i32⟩
  | 119 => ⟨S40000x128, .f32⟩
  | 120 => ⟨S_, .f32⟩
  | 121 => ⟨S500000, .f32⟩
  | 122 => ⟨S_, .f32⟩
  | 123 => ⟨S40000, .f32⟩
  | 124 => ⟨S500000x1, .i32⟩
  | 125 => ⟨S40000, .f32⟩
  | 126 => ⟨S_, .f32⟩
  | 127 => ⟨S40000, .f32⟩
  | _ => ⟨S40000x128, .f32⟩

abbrev hbmTy0_1 (i : Nat) : BufTy := match i % 128 with
  | 0 => ⟨S40000, .f32⟩
  | 1 => ⟨S40000x1, .f32⟩
  | 2 => ⟨S40000x128, .f32⟩
  | 3 => ⟨S40000x128, .f32⟩
  | 4 => ⟨S40000x128, .f32⟩
  | 5 => ⟨S1x128, .f32⟩
  | 6 => ⟨S40000x128, .f32⟩
  | 7 => ⟨S40000x128, .f32⟩
  | 8 => ⟨S40000x128, .f32⟩
  | 9 => ⟨S40000x128, .f32⟩
  | 10 => ⟨S1x1x128x128, .f32⟩
  | 11 => ⟨S128x128, .f32⟩
  | 12 => ⟨S1x1x128, .f32⟩
  | 13 => ⟨S128, .f32⟩
  | 14 => ⟨S1x1x128x128, .f32⟩
  | 15 => ⟨S128x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S20000x128, .f32⟩
  | 27 => ⟨S800000x1, .i32⟩
  | 28 => ⟨S20000x128, .f32⟩
  | 29 => ⟨S_, .f32⟩
  | 30 => ⟨S800000, .f32⟩
  | 31 => ⟨S_, .f32⟩
  | 32 => ⟨S20000, .f32⟩
  | 33 => ⟨S800000x1, .i32⟩
  | 34 => ⟨S20000, .f32⟩
  | 35 => ⟨S_, .f32⟩
  | 36 => ⟨S20000, .f32⟩
  | 37 => ⟨S20000, .f32⟩
  | 38 => ⟨S20000x1, .f32⟩
  | 39 => ⟨S20000x128, .f32⟩
  | 40 => ⟨S20000x128, .f32⟩
  | 41 => ⟨S20000x128, .f32⟩
  | 42 => ⟨S1x128, .f32⟩
  | 43 => ⟨S20000x128, .f32⟩
  | 44 => ⟨S20000x128, .f32⟩
  | 45 => ⟨S20000x128, .f32⟩
  | 46 => ⟨S20000x128, .f32⟩
  | 47 => ⟨S_, .f32⟩
  | 48 => ⟨S40000x128, .f32⟩
  | 49 => ⟨S40000x128, .f32⟩
  | 50 => ⟨S_, .f32⟩
  | 51 => ⟨S100000x128, .f32⟩
  | 52 => ⟨S100000x128, .f32⟩
  | 53 => ⟨S_, .f32⟩
  | 54 => ⟨S20000x128, .f32⟩
  | 55 => ⟨S20000x128, .f32⟩
  | 56 => ⟨S1x1x128x128, .f32⟩
  | 57 => ⟨S128x128, .f32⟩
  | 58 => ⟨S1x1x128, .f32⟩
  | 59 => ⟨S128, .f32⟩
  | 60 => ⟨S1x1x128x128, .f32⟩
  | 61 => ⟨S128x128, .f32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x128, .f32⟩
  | 71 => ⟨S_, .f32⟩
  | 72 => ⟨S100000x128, .f32⟩
  | 73 => ⟨S500000x1, .i32⟩
  | 74 => ⟨S100000x128, .f32⟩
  | 75 => ⟨S_, .f32⟩
  | 76 => ⟨S500000, .f32⟩
  | 77 => ⟨S_, .f32⟩
  | 78 => ⟨S100000, .f32⟩
  | 79 => ⟨S500000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S100000x128, .f32⟩
  | 92 => ⟨S100000x128, .f32⟩
  | 93 => ⟨S1x1x128x128, .f32⟩
  | 94 => ⟨S128x128, .f32⟩
  | 95 => ⟨S1x1x128, .f32⟩
  | 96 => ⟨S128, .f32⟩
  | 97 => ⟨S1x1x128x128, .f32⟩
  | 98 => ⟨S128x128, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S_, .f32⟩
  | 109 => ⟨S100000x128, .f32⟩
  | 110 => ⟨S800000x1, .i32⟩
  | 111 => ⟨S100000x128, .f32⟩
  | 112 => ⟨S_, .f32⟩
  | 113 => ⟨S800000, .f32⟩
  | 114 => ⟨S_, .f32⟩
  | 115 => ⟨S100000, .f32⟩
  | 116 => ⟨S800000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S40000x128, .f32⟩

abbrev hbmTy0_2 (i : Nat) : BufTy := match i % 128 with
  | 0 => ⟨S100000x128, .f32⟩
  | 1 => ⟨S100000x128, .f32⟩
  | 2 => ⟨S100000x128, .f32⟩
  | 3 => ⟨S1x1x128x128, .f32⟩
  | 4 => ⟨S128x128, .f32⟩
  | 5 => ⟨S1x1x128, .f32⟩
  | 6 => ⟨S128, .f32⟩
  | 7 => ⟨S1x1x128x128, .f32⟩
  | 8 => ⟨S128x128, .f32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x128, .f32⟩
  | 18 => ⟨S_, .f32⟩
  | 19 => ⟨S40000x128, .f32⟩
  | 20 => ⟨S500000x1, .i32⟩
  | 21 => ⟨S40000x128, .f32⟩
  | 22 => ⟨S_, .f32⟩
  | 23 => ⟨S500000, .f32⟩
  | 24 => ⟨S_, .f32⟩
  | 25 => ⟨S40000, .f32⟩
  | 26 => ⟨S500000x1, .i32⟩
  | 27 => ⟨S40000, .f32⟩
  | 28 => ⟨S_, .f32⟩
  | 29 => ⟨S40000, .f32⟩
  | 30 => ⟨S40000, .f32⟩
  | 31 => ⟨S40000x1, .f32⟩
  | 32 => ⟨S40000x128, .f32⟩
  | 33 => ⟨S40000x128, .f32⟩
  | 34 => ⟨S40000x128, .f32⟩
  | 35 => ⟨S1x128, .f32⟩
  | 36 => ⟨S40000x128, .f32⟩
  | 37 => ⟨S40000x128, .f32⟩
  | 38 => ⟨S40000x128, .f32⟩
  | 39 => ⟨S40000x128, .f32⟩
  | 40 => ⟨S1x1x128x128, .f32⟩
  | 41 => ⟨S128x128, .f32⟩
  | 42 => ⟨S1x1x128, .f32⟩
  | 43 => ⟨S128, .f32⟩
  | 44 => ⟨S1x1x128x128, .f32⟩
  | 45 => ⟨S128x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S20000x128, .f32⟩
  | 57 => ⟨S800000x1, .i32⟩
  | 58 => ⟨S20000x128, .f32⟩
  | 59 => ⟨S_, .f32⟩
  | 60 => ⟨S800000, .f32⟩
  | 61 => ⟨S_, .f32⟩
  | 62 => ⟨S20000, .f32⟩
  | 63 => ⟨S800000x1, .i32⟩
  | 64 => ⟨S20000, .f32⟩
  | 65 => ⟨S_, .f32⟩
  | 66 => ⟨S20000, .f32⟩
  | 67 => ⟨S20000, .f32⟩
  | 68 => ⟨S20000x1, .f32⟩
  | 69 => ⟨S20000x128, .f32⟩
  | 70 => ⟨S20000x128, .f32⟩
  | 71 => ⟨S20000x128, .f32⟩
  | 72 => ⟨S1x128, .f32⟩
  | 73 => ⟨S20000x128, .f32⟩
  | 74 => ⟨S20000x128, .f32⟩
  | 75 => ⟨S20000x128, .f32⟩
  | 76 => ⟨S20000x128, .f32⟩
  | 77 => ⟨S_, .f32⟩
  | 78 => ⟨S40000x128, .f32⟩
  | 79 => ⟨S40000x128, .f32⟩
  | 80 => ⟨S_, .f32⟩
  | 81 => ⟨S100000x128, .f32⟩
  | 82 => ⟨S100000x128, .f32⟩
  | 83 => ⟨S_, .f32⟩
  | 84 => ⟨S20000x128, .f32⟩
  | 85 => ⟨S20000x128, .f32⟩
  | 86 => ⟨S40000x64, .f32⟩
  | 87 => ⟨S1x64, .f32⟩
  | 88 => ⟨S40000x64, .f32⟩
  | 89 => ⟨S40000x64, .f32⟩
  | 90 => ⟨S1x2x4x128x128, .f32⟩
  | 91 => ⟨S2x4x128x128, .f32⟩
  | 92 => ⟨S1x2x4x128, .f32⟩
  | 93 => ⟨S2x4x128, .f32⟩
  | 94 => ⟨S1x2x4x128x128, .f32⟩
  | 95 => ⟨S2x4x128x128, .f32⟩
  | 96 => ⟨S1x1x128x128, .f32⟩
  | 97 => ⟨S128x128, .f32⟩
  | 98 => ⟨S1x1x128, .f32⟩
  | 99 => ⟨S128, .f32⟩
  | 100 => ⟨S1x1x128x128, .f32⟩
  | 101 => ⟨S128x128, .f32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000x128, .f32⟩
  | 111 => ⟨S_, .f32⟩
  | 112 => ⟨S100000x128, .f32⟩
  | 113 => ⟨S500000x1, .i32⟩
  | 114 => ⟨S100000x128, .f32⟩
  | 115 => ⟨S_, .f32⟩
  | 116 => ⟨S500000, .f32⟩
  | 117 => ⟨S_, .f32⟩
  | 118 => ⟨S100000, .f32⟩
  | 119 => ⟨S500000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S100000x128, .f32⟩
  | _ => ⟨S40000x128, .f32⟩

abbrev hbmTy0_3 (i : Nat) : BufTy := match i % 128 with
  | 0 => ⟨S1x128, .f32⟩
  | 1 => ⟨S100000x128, .f32⟩
  | 2 => ⟨S100000x128, .f32⟩
  | 3 => ⟨S100000x128, .f32⟩
  | 4 => ⟨S100000x128, .f32⟩
  | 5 => ⟨S1x1x128x128, .f32⟩
  | 6 => ⟨S128x128, .f32⟩
  | 7 => ⟨S1x1x128, .f32⟩
  | 8 => ⟨S128, .f32⟩
  | 9 => ⟨S1x1x128x128, .f32⟩
  | 10 => ⟨S128x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S100000x128, .f32⟩
  | 22 => ⟨S800000x1, .i32⟩
  | 23 => ⟨S100000x128, .f32⟩
  | 24 => ⟨S_, .f32⟩
  | 25 => ⟨S800000, .f32⟩
  | 26 => ⟨S_, .f32⟩
  | 27 => ⟨S100000, .f32⟩
  | 28 => ⟨S800000x1, .i32⟩
  | 29 => ⟨S100000, .f32⟩
  | 30 => ⟨S_, .f32⟩
  | 31 => ⟨S100000, .f32⟩
  | 32 => ⟨S100000, .f32⟩
  | 33 => ⟨S100000x1, .f32⟩
  | 34 => ⟨S100000x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S100000x128, .f32⟩
  | 41 => ⟨S100000x128, .f32⟩
  | 42 => ⟨S100000x128, .f32⟩
  | 43 => ⟨S1x1x128x128, .f32⟩
  | 44 => ⟨S128x128, .f32⟩
  | 45 => ⟨S1x1x128, .f32⟩
  | 46 => ⟨S128, .f32⟩
  | 47 => ⟨S1x1x128x128, .f32⟩
  | 48 => ⟨S128x128, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S_, .f32⟩
  | 59 => ⟨S40000x128, .f32⟩
  | 60 => ⟨S500000x1, .i32⟩
  | 61 => ⟨S40000x128, .f32⟩
  | 62 => ⟨S_, .f32⟩
  | 63 => ⟨S500000, .f32⟩
  | 64 => ⟨S_, .f32⟩
  | 65 => ⟨S40000, .f32⟩
  | 66 => ⟨S500000x1, .i32⟩
  | 67 => ⟨S40000, .f32⟩
  | 68 => ⟨S_, .f32⟩
  | 69 => ⟨S40000, .f32⟩
  | 70 => ⟨S40000, .f32⟩
  | 71 => ⟨S40000x1, .f32⟩
  | 72 => ⟨S40000x128, .f32⟩
  | 73 => ⟨S40000x128, .f32⟩
  | 74 => ⟨S40000x128, .f32⟩
  | 75 => ⟨S1x128, .f32⟩
  | 76 => ⟨S40000x128, .f32⟩
  | 77 => ⟨S40000x128, .f32⟩
  | 78 => ⟨S40000x128, .f32⟩
  | 79 => ⟨S40000x128, .f32⟩
  | 80 => ⟨S1x1x128x128, .f32⟩
  | 81 => ⟨S128x128, .f32⟩
  | 82 => ⟨S1x1x128, .f32⟩
  | 83 => ⟨S128, .f32⟩
  | 84 => ⟨S1x1x128x128, .f32⟩
  | 85 => ⟨S128x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S20000x128, .f32⟩
  | 97 => ⟨S800000x1, .i32⟩
  | 98 => ⟨S20000x128, .f32⟩
  | 99 => ⟨S_, .f32⟩
  | 100 => ⟨S800000, .f32⟩
  | 101 => ⟨S_, .f32⟩
  | 102 => ⟨S20000, .f32⟩
  | 103 => ⟨S800000x1, .i32⟩
  | 104 => ⟨S20000, .f32⟩
  | 105 => ⟨S_, .f32⟩
  | 106 => ⟨S20000, .f32⟩
  | 107 => ⟨S20000, .f32⟩
  | 108 => ⟨S20000x1, .f32⟩
  | 109 => ⟨S20000x128, .f32⟩
  | 110 => ⟨S20000x128, .f32⟩
  | 111 => ⟨S20000x128, .f32⟩
  | 112 => ⟨S1x128, .f32⟩
  | 113 => ⟨S20000x128, .f32⟩
  | 114 => ⟨S20000x128, .f32⟩
  | 115 => ⟨S20000x128, .f32⟩
  | 116 => ⟨S20000x128, .f32⟩
  | 117 => ⟨S_, .f32⟩
  | 118 => ⟨S40000x128, .f32⟩
  | 119 => ⟨S40000x128, .f32⟩
  | 120 => ⟨S_, .f32⟩
  | 121 => ⟨S100000x128, .f32⟩
  | 122 => ⟨S100000x128, .f32⟩
  | 123 => ⟨S_, .f32⟩
  | 124 => ⟨S20000x128, .f32⟩
  | 125 => ⟨S20000x128, .f32⟩
  | 126 => ⟨S1x1x128x128, .f32⟩
  | 127 => ⟨S128x128, .f32⟩
  | _ => ⟨S40000x128, .f32⟩

abbrev hbmTy0_4 (i : Nat) : BufTy := match i % 128 with
  | 0 => ⟨S1x1x128, .f32⟩
  | 1 => ⟨S128, .f32⟩
  | 2 => ⟨S1x1x128x128, .f32⟩
  | 3 => ⟨S128x128, .f32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S500000x128, .f32⟩
  | 13 => ⟨S_, .f32⟩
  | 14 => ⟨S100000x128, .f32⟩
  | 15 => ⟨S500000x1, .i32⟩
  | 16 => ⟨S100000x128, .f32⟩
  | 17 => ⟨S_, .f32⟩
  | 18 => ⟨S500000, .f32⟩
  | 19 => ⟨S_, .f32⟩
  | 20 => ⟨S100000, .f32⟩
  | 21 => ⟨S500000x1, .i32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S100000x128, .f32⟩
  | 34 => ⟨S100000x128, .f32⟩
  | 35 => ⟨S1x1x128x128, .f32⟩
  | 36 => ⟨S128x128, .f32⟩
  | 37 => ⟨S1x1x128, .f32⟩
  | 38 => ⟨S128, .f32⟩
  | 39 => ⟨S1x1x128x128, .f32⟩
  | 40 => ⟨S128x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S_, .f32⟩
  | 51 => ⟨S100000x128, .f32⟩
  | 52 => ⟨S800000x1, .i32⟩
  | 53 => ⟨S100000x128, .f32⟩
  | 54 => ⟨S_, .f32⟩
  | 55 => ⟨S800000, .f32⟩
  | 56 => ⟨S_, .f32⟩
  | 57 => ⟨S100000, .f32⟩
  | 58 => ⟨S800000x1, .i32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S100000x128, .f32⟩
  | 71 => ⟨S100000x128, .f32⟩
  | 72 => ⟨S100000x128, .f32⟩
  | 73 => ⟨S1x1x128x128, .f32⟩
  | 74 => ⟨S128x128, .f32⟩
  | 75 => ⟨S1x1x128, .f32⟩
  | 76 => ⟨S128, .f32⟩
  | 77 => ⟨S1x1x128x128, .f32⟩
  | 78 => ⟨S128x128, .f32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000x128, .f32⟩
  | 88 => ⟨S_, .f32⟩
  | 89 => ⟨S40000x128, .f32⟩
  | 90 => ⟨S500000x1, .i32⟩
  | 91 => ⟨S40000x128, .f32⟩
  | 92 => ⟨S_, .f32⟩
  | 93 => ⟨S500000, .f32⟩
  | 94 => ⟨S_, .f32⟩
  | 95 => ⟨S40000, .f32⟩
  | 96 => ⟨S500000x1, .i32⟩
  | 97 => ⟨S40000, .f32⟩
  | 98 => ⟨S_, .f32⟩
  | 99 => ⟨S40000, .f32⟩
  | 100 => ⟨S40000, .f32⟩
  | 101 => ⟨S40000x1, .f32⟩
  | 102 => ⟨S40000x128, .f32⟩
  | 103 => ⟨S40000x128, .f32⟩
  | 104 => ⟨S40000x128, .f32⟩
  | 105 => ⟨S1x128, .f32⟩
  | 106 => ⟨S40000x128, .f32⟩
  | 107 => ⟨S40000x128, .f32⟩
  | 108 => ⟨S40000x128, .f32⟩
  | 109 => ⟨S40000x128, .f32⟩
  | 110 => ⟨S1x1x128x128, .f32⟩
  | 111 => ⟨S128x128, .f32⟩
  | 112 => ⟨S1x1x128, .f32⟩
  | 113 => ⟨S128, .f32⟩
  | 114 => ⟨S1x1x128x128, .f32⟩
  | 115 => ⟨S128x128, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x128, .f32⟩
  | 125 => ⟨S_, .f32⟩
  | 126 => ⟨S20000x128, .f32⟩
  | 127 => ⟨S800000x1, .i32⟩
  | _ => ⟨S40000x128, .f32⟩

abbrev hbmTy0_5 (i : Nat) : BufTy := match i % 128 with
  | 0 => ⟨S20000x128, .f32⟩
  | 1 => ⟨S_, .f32⟩
  | 2 => ⟨S800000, .f32⟩
  | 3 => ⟨S_, .f32⟩
  | 4 => ⟨S20000, .f32⟩
  | 5 => ⟨S800000x1, .i32⟩
  | 6 => ⟨S20000, .f32⟩
  | 7 => ⟨S_, .f32⟩
  | 8 => ⟨S20000, .f32⟩
  | 9 => ⟨S20000, .f32⟩
  | 10 => ⟨S20000x1, .f32⟩
  | 11 => ⟨S20000x128, .f32⟩
  | 12 => ⟨S20000x128, .f32⟩
  | 13 => ⟨S20000x128, .f32⟩
  | 14 => ⟨S1x128, .f32⟩
  | 15 => ⟨S20000x128, .f32⟩
  | 16 => ⟨S20000x128, .f32⟩
  | 17 => ⟨S20000x128, .f32⟩
  | 18 => ⟨S20000x128, .f32⟩
  | 19 => ⟨S_, .f32⟩
  | 20 => ⟨S40000x128, .f32⟩
  | 21 => ⟨S40000x128, .f32⟩
  | 22 => ⟨S_, .f32⟩
  | 23 => ⟨S100000x128, .f32⟩
  | 24 => ⟨S100000x128, .f32⟩
  | 25 => ⟨S_, .f32⟩
  | 26 => ⟨S20000x128, .f32⟩
  | 27 => ⟨S20000x128, .f32⟩
  | 28 => ⟨S40000x64, .f32⟩
  | 29 => ⟨S1x64, .f32⟩
  | 30 => ⟨S40000x64, .f32⟩
  | 31 => ⟨S40000x64, .f32⟩
  | 32 => ⟨S40000x1, .f32⟩
  | 33 => ⟨S1x1, .f32⟩
  | 34 => ⟨S40000x1, .f32⟩
  | 35 => ⟨S40000x1, .f32⟩
  | 36 => ⟨S1x2x4x128x128, .f32⟩
  | 37 => ⟨S2x4x128x128, .f32⟩
  | 38 => ⟨S1x2x4x128, .f32⟩
  | 39 => ⟨S2x4x128, .f32⟩
  | 40 => ⟨S1x2x4x128x128, .f32⟩
  | 41 => ⟨S2x4x128x128, .f32⟩
  | 42 => ⟨S1x1x128x128, .f32⟩
  | 43 => ⟨S128x128, .f32⟩
  | 44 => ⟨S1x1x128, .f32⟩
  | 45 => ⟨S128, .f32⟩
  | 46 => ⟨S1x1x128x128, .f32⟩
  | 47 => ⟨S128x128, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .f32⟩
  | 57 => ⟨S_, .f32⟩
  | 58 => ⟨S100000x128, .f32⟩
  | 59 => ⟨S500000x1, .i32⟩
  | 60 => ⟨S100000x128, .f32⟩
  | 61 => ⟨S_, .f32⟩
  | 62 => ⟨S500000, .f32⟩
  | 63 => ⟨S_, .f32⟩
  | 64 => ⟨S100000, .f32⟩
  | 65 => ⟨S500000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S100000x128, .f32⟩
  | 78 => ⟨S100000x128, .f32⟩
  | 79 => ⟨S1x1x128x128, .f32⟩
  | 80 => ⟨S128x128, .f32⟩
  | 81 => ⟨S1x1x128, .f32⟩
  | 82 => ⟨S128, .f32⟩
  | 83 => ⟨S1x1x128x128, .f32⟩
  | 84 => ⟨S128x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .f32⟩
  | 95 => ⟨S100000x128, .f32⟩
  | 96 => ⟨S800000x1, .i32⟩
  | 97 => ⟨S100000x128, .f32⟩
  | 98 => ⟨S_, .f32⟩
  | 99 => ⟨S800000, .f32⟩
  | 100 => ⟨S_, .f32⟩
  | 101 => ⟨S100000, .f32⟩
  | 102 => ⟨S800000x1, .i32⟩
  | 103 => ⟨S100000, .f32⟩
  | 104 => ⟨S_, .f32⟩
  | 105 => ⟨S100000, .f32⟩
  | 106 => ⟨S100000, .f32⟩
  | 107 => ⟨S100000x1, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S100000x128, .f32⟩
  | 115 => ⟨S100000x128, .f32⟩
  | 116 => ⟨S100000x128, .f32⟩
  | 117 => ⟨S1x1x128x128, .f32⟩
  | 118 => ⟨S128x128, .f32⟩
  | 119 => ⟨S1x1x128, .f32⟩
  | 120 => ⟨S128, .f32⟩
  | 121 => ⟨S1x1x128x128, .f32⟩
  | 122 => ⟨S128x128, .f32⟩
  | 123 => ⟨S_, .i32⟩
  | 124 => ⟨S500000, .i32⟩
  | 125 => ⟨S500000, .i1⟩
  | 126 => ⟨S_, .i32⟩
  | 127 => ⟨S500000, .i32⟩
  | _ => ⟨S40000x128, .f32⟩

abbrev hbmTy0_6 (i : Nat) : BufTy := match i % 128 with
  | 0 => ⟨S500000, .i32⟩
  | 1 => ⟨S500000, .i32⟩
  | 2 => ⟨S500000x1, .i32⟩
  | 3 => ⟨S500000x128, .f32⟩
  | 4 => ⟨S_, .f32⟩
  | 5 => ⟨S40000x128, .f32⟩
  | 6 => ⟨S500000x1, .i32⟩
  | 7 => ⟨S40000x128, .f32⟩
  | 8 => ⟨S_, .f32⟩
  | 9 => ⟨S500000, .f32⟩
  | 10 => ⟨S_, .f32⟩
  | 11 => ⟨S40000, .f32⟩
  | 12 => ⟨S500000x1, .i32⟩
  | 13 => ⟨S40000, .f32⟩
  | 14 => ⟨S_, .f32⟩
  | 15 => ⟨S40000, .f32⟩
  | 16 => ⟨S40000, .f32⟩
  | 17 => ⟨S40000x1, .f32⟩
  | 18 => ⟨S40000x128, .f32⟩
  | 19 => ⟨S40000x128, .f32⟩
  | 20 => ⟨S40000x128, .f32⟩
  | 21 => ⟨S1x128, .f32⟩
  | 22 => ⟨S40000x128, .f32⟩
  | 23 => ⟨S40000x128, .f32⟩
  | 24 => ⟨S40000x128, .f32⟩
  | 25 => ⟨S40000x128, .f32⟩
  | 26 => ⟨S1x1x128x128, .f32⟩
  | 27 => ⟨S128x128, .f32⟩
  | 28 => ⟨S1x1x128, .f32⟩
  | 29 => ⟨S128, .f32⟩
  | 30 => ⟨S1x1x128x128, .f32⟩
  | 31 => ⟨S128x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S20000x128, .f32⟩
  | 43 => ⟨S800000x1, .i32⟩
  | 44 => ⟨S20000x128, .f32⟩
  | 45 => ⟨S_, .f32⟩
  | 46 => ⟨S800000, .f32⟩
  | 47 => ⟨S_, .f32⟩
  | 48 => ⟨S20000, .f32⟩
  | 49 => ⟨S800000x1, .i32⟩
  | 50 => ⟨S20000, .f32⟩
  | 51 => ⟨S_, .f32⟩
  | 52 => ⟨S20000, .f32⟩
  | 53 => ⟨S20000, .f32⟩
  | 54 => ⟨S20000x1, .f32⟩
  | 55 => ⟨S20000x128, .f32⟩
  | 56 => ⟨S20000x128, .f32⟩
  | 57 => ⟨S20000x128, .f32⟩
  | 58 => ⟨S1x128, .f32⟩
  | 59 => ⟨S20000x128, .f32⟩
  | 60 => ⟨S20000x128, .f32⟩
  | 61 => ⟨S20000x128, .f32⟩
  | 62 => ⟨S20000x128, .f32⟩
  | 63 => ⟨S_, .f32⟩
  | 64 => ⟨S40000x128, .f32⟩
  | 65 => ⟨S40000x128, .f32⟩
  | 66 => ⟨S_, .f32⟩
  | 67 => ⟨S100000x128, .f32⟩
  | 68 => ⟨S100000x128, .f32⟩
  | 69 => ⟨S_, .f32⟩
  | 70 => ⟨S20000x128, .f32⟩
  | 71 => ⟨S20000x128, .f32⟩
  | 72 => ⟨S1x1x128x128, .f32⟩
  | 73 => ⟨S128x128, .f32⟩
  | 74 => ⟨S1x1x128, .f32⟩
  | 75 => ⟨S128, .f32⟩
  | 76 => ⟨S1x1x128x128, .f32⟩
  | 77 => ⟨S128x128, .f32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000x128, .f32⟩
  | 87 => ⟨S_, .f32⟩
  | 88 => ⟨S100000x128, .f32⟩
  | 89 => ⟨S500000x1, .i32⟩
  | 90 => ⟨S100000x128, .f32⟩
  | 91 => ⟨S_, .f32⟩
  | 92 => ⟨S500000, .f32⟩
  | 93 => ⟨S_, .f32⟩
  | 94 => ⟨S100000, .f32⟩
  | 95 => ⟨S500000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S100000x128, .f32⟩
  | 108 => ⟨S100000x128, .f32⟩
  | 109 => ⟨S1x1x128x128, .f32⟩
  | 110 => ⟨S128x128, .f32⟩
  | 111 => ⟨S1x1x128, .f32⟩
  | 112 => ⟨S128, .f32⟩
  | 113 => ⟨S1x1x128x128, .f32⟩
  | 114 => ⟨S128x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S_, .f32⟩
  | 125 => ⟨S100000x128, .f32⟩
  | 126 => ⟨S800000x1, .i32⟩
  | 127 => ⟨S100000x128, .f32⟩
  | _ => ⟨S40000x128, .f32⟩

abbrev hbmTy0_7 (i : Nat) : BufTy := match i % 128 with
  | 0 => ⟨S_, .f32⟩
  | 1 => ⟨S800000, .f32⟩
  | 2 => ⟨S_, .f32⟩
  | 3 => ⟨S100000, .f32⟩
  | 4 => ⟨S800000x1, .i32⟩
  | 5 => ⟨S100000, .f32⟩
  | 6 => ⟨S_, .f32⟩
  | 7 => ⟨S100000, .f32⟩
  | 8 => ⟨S100000, .f32⟩
  | 9 => ⟨S100000x1, .f32⟩
  | 10 => ⟨S100000x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S100000x128, .f32⟩
  | 17 => ⟨S100000x128, .f32⟩
  | 18 => ⟨S100000x128, .f32⟩
  | 19 => ⟨S1x1x128x128, .f32⟩
  | 20 => ⟨S128x128, .f32⟩
  | 21 => ⟨S1x1x128, .f32⟩
  | 22 => ⟨S128, .f32⟩
  | 23 => ⟨S1x1x128x128, .f32⟩
  | 24 => ⟨S128x128, .f32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x128, .f32⟩
  | 34 => ⟨S_, .f32⟩
  | 35 => ⟨S40000x128, .f32⟩
  | 36 => ⟨S500000x1, .i32⟩
  | 37 => ⟨S40000x128, .f32⟩
  | 38 => ⟨S_, .f32⟩
  | 39 => ⟨S500000, .f32⟩
  | 40 => ⟨S_, .f32⟩
  | 41 => ⟨S40000, .f32⟩
  | 42 => ⟨S500000x1, .i32⟩
  | 43 => ⟨S40000, .f32⟩
  | 44 => ⟨S_, .f32⟩
  | 45 => ⟨S40000, .f32⟩
  | 46 => ⟨S40000, .f32⟩
  | 47 => ⟨S40000x1, .f32⟩
  | 48 => ⟨S40000x128, .f32⟩
  | 49 => ⟨S40000x128, .f32⟩
  | 50 => ⟨S40000x128, .f32⟩
  | 51 => ⟨S1x128, .f32⟩
  | 52 => ⟨S40000x128, .f32⟩
  | 53 => ⟨S40000x128, .f32⟩
  | 54 => ⟨S40000x128, .f32⟩
  | 55 => ⟨S40000x128, .f32⟩
  | 56 => ⟨S1x1x128x128, .f32⟩
  | 57 => ⟨S128x128, .f32⟩
  | 58 => ⟨S1x1x128, .f32⟩
  | 59 => ⟨S128, .f32⟩
  | 60 => ⟨S1x1x128x128, .f32⟩
  | 61 => ⟨S128x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S20000x128, .f32⟩
  | 73 => ⟨S800000x1, .i32⟩
  | 74 => ⟨S20000x128, .f32⟩
  | 75 => ⟨S_, .f32⟩
  | 76 => ⟨S800000, .f32⟩
  | 77 => ⟨S_, .f32⟩
  | 78 => ⟨S20000, .f32⟩
  | 79 => ⟨S800000x1, .i32⟩
  | 80 => ⟨S20000, .f32⟩
  | 81 => ⟨S_, .f32⟩
  | 82 => ⟨S20000, .f32⟩
  | 83 => ⟨S20000, .f32⟩
  | 84 => ⟨S20000x1, .f32⟩
  | 85 => ⟨S20000x128, .f32⟩
  | 86 => ⟨S20000x128, .f32⟩
  | 87 => ⟨S20000x128, .f32⟩
  | 88 => ⟨S1x128, .f32⟩
  | 89 => ⟨S20000x128, .f32⟩
  | 90 => ⟨S20000x128, .f32⟩
  | 91 => ⟨S20000x128, .f32⟩
  | 92 => ⟨S20000x128, .f32⟩
  | 93 => ⟨S_, .f32⟩
  | 94 => ⟨S40000x128, .f32⟩
  | 95 => ⟨S40000x128, .f32⟩
  | 96 => ⟨S_, .f32⟩
  | 97 => ⟨S100000x128, .f32⟩
  | 98 => ⟨S100000x128, .f32⟩
  | 99 => ⟨S_, .f32⟩
  | 100 => ⟨S20000x128, .f32⟩
  | 101 => ⟨S20000x128, .f32⟩
  | 102 => ⟨S40000x64, .f32⟩
  | 103 => ⟨S40000x64, .f32⟩
  | _ => ⟨S40000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_4 : Ref sig .tc := ⟨.hbm, 69, rfl⟩
abbrev main_v43 : Ref sig .tc := ⟨.hbm, 70, rfl⟩
abbrev main_v44 : Ref sig .tc := ⟨.hbm, 71, rfl⟩
abbrev main_c_5 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_10 : Ref sig .tc := ⟨.hbm, 107, rfl⟩
abbrev main_v75 : Ref sig .tc := ⟨.hbm, 108, rfl⟩
abbrev main_v76 : Ref sig .tc := ⟨.hbm, 109, rfl⟩
abbrev main_c_11 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_12 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_13 : Ref sig .tc := ⟨.hbm, 120, rfl⟩
abbrev main_v85 : Ref sig .tc := ⟨.hbm, 121, rfl⟩
abbrev main_cst_14 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_15 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_16 : Ref sig .tc := ⟨.hbm, 144, rfl⟩
abbrev main_v106 : Ref sig .tc := ⟨.hbm, 145, rfl⟩
abbrev main_v107 : Ref sig .tc := ⟨.hbm, 146, rfl⟩
abbrev main_c_17 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_18 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_19 : Ref sig .tc := ⟨.hbm, 157, rfl⟩
abbrev main_v116 : Ref sig .tc := ⟨.hbm, 158, rfl⟩
abbrev main_cst_20 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_21 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_call0_cst : Ref sig .tc := ⟨.hbm, 175, rfl⟩
abbrev main_call0_v0 : Ref sig .tc := ⟨.hbm, 176, rfl⟩
abbrev main_v131 : Ref sig .tc := ⟨.hbm, 177, rfl⟩
abbrev main_call1_cst : Ref sig .tc := ⟨.hbm, 178, rfl⟩
abbrev main_call1_v0 : Ref sig .tc := ⟨.hbm, 179, rfl⟩
abbrev main_v132 : Ref sig .tc := ⟨.hbm, 180, rfl⟩
abbrev main_call2_cst : Ref sig .tc := ⟨.hbm, 181, rfl⟩
abbrev main_call2_v0 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_c_22 : Ref sig .tc := ⟨.hbm, 190, rfl⟩
abbrev main_v140 : Ref sig .tc := ⟨.hbm, 191, rfl⟩
abbrev main_v141 : Ref sig .tc := ⟨.hbm, 192, rfl⟩
abbrev main_c_23 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_24 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_25 : Ref sig .tc := ⟨.hbm, 203, rfl⟩
abbrev main_v150 : Ref sig .tc := ⟨.hbm, 204, rfl⟩
abbrev main_cst_26 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_cst_27 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_c_28 : Ref sig .tc := ⟨.hbm, 227, rfl⟩
abbrev main_v171 : Ref sig .tc := ⟨.hbm, 228, rfl⟩
abbrev main_v172 : Ref sig .tc := ⟨.hbm, 229, rfl⟩
abbrev main_c_29 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_cst_30 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_cst_31 : Ref sig .tc := ⟨.hbm, 240, rfl⟩
abbrev main_v181 : Ref sig .tc := ⟨.hbm, 241, rfl⟩
abbrev main_cst_32 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_cst_33 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_c_34 : Ref sig .tc := ⟨.hbm, 265, rfl⟩
abbrev main_v203 : Ref sig .tc := ⟨.hbm, 266, rfl⟩
abbrev main_v204 : Ref sig .tc := ⟨.hbm, 267, rfl⟩
abbrev main_c_35 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_cst_36 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_cst_37 : Ref sig .tc := ⟨.hbm, 278, rfl⟩
abbrev main_v213 : Ref sig .tc := ⟨.hbm, 279, rfl⟩
abbrev main_cst_38 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_cst_39 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_c_40 : Ref sig .tc := ⟨.hbm, 302, rfl⟩
abbrev main_v234 : Ref sig .tc := ⟨.hbm, 303, rfl⟩
abbrev main_v235 : Ref sig .tc := ⟨.hbm, 304, rfl⟩
abbrev main_c_41 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_cst_42 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_cst_43 : Ref sig .tc := ⟨.hbm, 315, rfl⟩
abbrev main_v244 : Ref sig .tc := ⟨.hbm, 316, rfl⟩
abbrev main_cst_44 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_cst_45 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_call3_cst : Ref sig .tc := ⟨.hbm, 333, rfl⟩
abbrev main_call3_v0 : Ref sig .tc := ⟨.hbm, 334, rfl⟩
abbrev main_v259 : Ref sig .tc := ⟨.hbm, 335, rfl⟩
abbrev main_call4_cst : Ref sig .tc := ⟨.hbm, 336, rfl⟩
abbrev main_call4_v0 : Ref sig .tc := ⟨.hbm, 337, rfl⟩
abbrev main_v260 : Ref sig .tc := ⟨.hbm, 338, rfl⟩
abbrev main_call5_cst : Ref sig .tc := ⟨.hbm, 339, rfl⟩
abbrev main_call5_v0 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_c_46 : Ref sig .tc := ⟨.hbm, 358, rfl⟩
abbrev main_v278 : Ref sig .tc := ⟨.hbm, 359, rfl⟩
abbrev main_v279 : Ref sig .tc := ⟨.hbm, 360, rfl⟩
abbrev main_c_47 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_v284 : Ref sig .tc := ⟨.hbm, 366, rfl⟩
abbrev main_cst_48 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_cst_49 : Ref sig .tc := ⟨.hbm, 371, rfl⟩
abbrev main_v288 : Ref sig .tc := ⟨.hbm, 372, rfl⟩
abbrev main_cst_50 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_cst_51 : Ref sig .tc := ⟨.hbm, 377, rfl⟩
abbrev main_v292 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_v298 : Ref sig .tc := ⟨.hbm, 384, rfl⟩
abbrev main_v299 : Ref sig .tc := ⟨.hbm, 385, rfl⟩
abbrev main_v300 : Ref sig .tc := ⟨.hbm, 386, rfl⟩
abbrev main_v301 : Ref sig .tc := ⟨.hbm, 387, rfl⟩
abbrev main_v302 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_v306 : Ref sig .tc := ⟨.hbm, 392, rfl⟩
abbrev main_v307 : Ref sig .tc := ⟨.hbm, 393, rfl⟩
abbrev main_v308 : Ref sig .tc := ⟨.hbm, 394, rfl⟩
abbrev main_c_52 : Ref sig .tc := ⟨.hbm, 395, rfl⟩
abbrev main_v309 : Ref sig .tc := ⟨.hbm, 396, rfl⟩
abbrev main_v310 : Ref sig .tc := ⟨.hbm, 397, rfl⟩
abbrev main_c_53 : Ref sig .tc := ⟨.hbm, 398, rfl⟩
abbrev main_v311 : Ref sig .tc := ⟨.hbm, 399, rfl⟩
abbrev main_v312 : Ref sig .tc := ⟨.hbm, 400, rfl⟩
abbrev main_v313 : Ref sig .tc := ⟨.hbm, 401, rfl⟩
abbrev main_v314 : Ref sig .tc := ⟨.hbm, 402, rfl⟩
abbrev main_v315 : Ref sig .tc := ⟨.hbm, 403, rfl⟩
abbrev main_cst_54 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_cst_55 : Ref sig .tc := ⟨.hbm, 408, rfl⟩
abbrev main_v319 : Ref sig .tc := ⟨.hbm, 409, rfl⟩
abbrev main_cst_56 : Ref sig .tc := ⟨.hbm, 410, rfl⟩
abbrev main_v320 : Ref sig .tc := ⟨.hbm, 411, rfl⟩
abbrev main_v321 : Ref sig .tc := ⟨.hbm, 412, rfl⟩
abbrev main_v322 : Ref sig .tc := ⟨.hbm, 413, rfl⟩
abbrev main_cst_57 : Ref sig .tc := ⟨.hbm, 414, rfl⟩
abbrev main_v323 : Ref sig .tc := ⟨.hbm, 415, rfl⟩
abbrev main_v324 : Ref sig .tc := ⟨.hbm, 416, rfl⟩
abbrev main_v325 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_v329 : Ref sig .tc := ⟨.hbm, 421, rfl⟩
abbrev main_v330 : Ref sig .tc := ⟨.hbm, 422, rfl⟩
abbrev main_v331 : Ref sig .tc := ⟨.hbm, 423, rfl⟩
abbrev main_v332 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_c_58 : Ref sig .tc := ⟨.hbm, 433, rfl⟩
abbrev main_v341 : Ref sig .tc := ⟨.hbm, 434, rfl⟩
abbrev main_v342 : Ref sig .tc := ⟨.hbm, 435, rfl⟩
abbrev main_c_59 : Ref sig .tc := ⟨.hbm, 436, rfl⟩
abbrev main_v343 : Ref sig .tc := ⟨.hbm, 437, rfl⟩
abbrev main_v344 : Ref sig .tc := ⟨.hbm, 438, rfl⟩
abbrev main_v345 : Ref sig .tc := ⟨.hbm, 439, rfl⟩
abbrev main_v346 : Ref sig .tc := ⟨.hbm, 440, rfl⟩
abbrev main_v347 : Ref sig .tc := ⟨.hbm, 441, rfl⟩
abbrev main_cst_60 : Ref sig .tc := ⟨.hbm, 442, rfl⟩
abbrev main_v348 : Ref sig .tc := ⟨.hbm, 443, rfl⟩
abbrev main_v349 : Ref sig .tc := ⟨.hbm, 444, rfl⟩
abbrev main_v350 : Ref sig .tc := ⟨.hbm, 445, rfl⟩
abbrev main_cst_61 : Ref sig .tc := ⟨.hbm, 446, rfl⟩
abbrev main_v351 : Ref sig .tc := ⟨.hbm, 447, rfl⟩
abbrev main_cst_62 : Ref sig .tc := ⟨.hbm, 448, rfl⟩
abbrev main_v352 : Ref sig .tc := ⟨.hbm, 449, rfl⟩
abbrev main_v353 : Ref sig .tc := ⟨.hbm, 450, rfl⟩
abbrev main_v354 : Ref sig .tc := ⟨.hbm, 451, rfl⟩
abbrev main_cst_63 : Ref sig .tc := ⟨.hbm, 452, rfl⟩
abbrev main_v355 : Ref sig .tc := ⟨.hbm, 453, rfl⟩
abbrev main_v356 : Ref sig .tc := ⟨.hbm, 454, rfl⟩
abbrev main_v357 : Ref sig .tc := ⟨.hbm, 455, rfl⟩
abbrev main_v358 : Ref sig .tc := ⟨.hbm, 456, rfl⟩
abbrev main_v359 : Ref sig .tc := ⟨.hbm, 457, rfl⟩
abbrev main_v360 : Ref sig .tc := ⟨.hbm, 458, rfl⟩
abbrev main_v361 : Ref sig .tc := ⟨.hbm, 459, rfl⟩
abbrev main_v362 : Ref sig .tc := ⟨.hbm, 460, rfl⟩
abbrev main_v363 : Ref sig .tc := ⟨.hbm, 461, rfl⟩
abbrev main_v364 : Ref sig .tc := ⟨.hbm, 462, rfl⟩
abbrev main_v365 : Ref sig .tc := ⟨.hbm, 463, rfl⟩
abbrev main_v366 : Ref sig .tc := ⟨.hbm, 464, rfl⟩
abbrev main_v367 : Ref sig .tc := ⟨.hbm, 465, rfl⟩
abbrev main_v368 : Ref sig .tc := ⟨.hbm, 466, rfl⟩
abbrev main_v369 : Ref sig .tc := ⟨.hbm, 467, rfl⟩
abbrev main_v370 : Ref sig .tc := ⟨.hbm, 468, rfl⟩
abbrev main_v371 : Ref sig .tc := ⟨.hbm, 469, rfl⟩
abbrev main_c_64 : Ref sig .tc := ⟨.hbm, 470, rfl⟩
abbrev main_v372 : Ref sig .tc := ⟨.hbm, 471, rfl⟩
abbrev main_v373 : Ref sig .tc := ⟨.hbm, 472, rfl⟩
abbrev main_c_65 : Ref sig .tc := ⟨.hbm, 473, rfl⟩
abbrev main_v374 : Ref sig .tc := ⟨.hbm, 474, rfl⟩
abbrev main_v375 : Ref sig .tc := ⟨.hbm, 475, rfl⟩
abbrev main_v376 : Ref sig .tc := ⟨.hbm, 476, rfl⟩
abbrev main_v377 : Ref sig .tc := ⟨.hbm, 477, rfl⟩
abbrev main_v378 : Ref sig .tc := ⟨.hbm, 478, rfl⟩
abbrev main_cst_66 : Ref sig .tc := ⟨.hbm, 479, rfl⟩
abbrev main_v379 : Ref sig .tc := ⟨.hbm, 480, rfl⟩
abbrev main_v380 : Ref sig .tc := ⟨.hbm, 481, rfl⟩
abbrev main_v381 : Ref sig .tc := ⟨.hbm, 482, rfl⟩
abbrev main_cst_67 : Ref sig .tc := ⟨.hbm, 483, rfl⟩
abbrev main_v382 : Ref sig .tc := ⟨.hbm, 484, rfl⟩
abbrev main_cst_68 : Ref sig .tc := ⟨.hbm, 485, rfl⟩
abbrev main_v383 : Ref sig .tc := ⟨.hbm, 486, rfl⟩
abbrev main_v384 : Ref sig .tc := ⟨.hbm, 487, rfl⟩
abbrev main_v385 : Ref sig .tc := ⟨.hbm, 488, rfl⟩
abbrev main_cst_69 : Ref sig .tc := ⟨.hbm, 489, rfl⟩
abbrev main_v386 : Ref sig .tc := ⟨.hbm, 490, rfl⟩
abbrev main_v387 : Ref sig .tc := ⟨.hbm, 491, rfl⟩
abbrev main_v388 : Ref sig .tc := ⟨.hbm, 492, rfl⟩
abbrev main_v389 : Ref sig .tc := ⟨.hbm, 493, rfl⟩
abbrev main_v390 : Ref sig .tc := ⟨.hbm, 494, rfl⟩
abbrev main_v391 : Ref sig .tc := ⟨.hbm, 495, rfl⟩
abbrev main_v392 : Ref sig .tc := ⟨.hbm, 496, rfl⟩
abbrev main_v393 : Ref sig .tc := ⟨.hbm, 497, rfl⟩
abbrev main_v394 : Ref sig .tc := ⟨.hbm, 498, rfl⟩
abbrev main_v395 : Ref sig .tc := ⟨.hbm, 499, rfl⟩
abbrev main_v396 : Ref sig .tc := ⟨.hbm, 500, rfl⟩
abbrev main_call6_cst : Ref sig .tc := ⟨.hbm, 501, rfl⟩
abbrev main_call6_v0 : Ref sig .tc := ⟨.hbm, 502, rfl⟩
abbrev main_v397 : Ref sig .tc := ⟨.hbm, 503, rfl⟩
abbrev main_call7_cst : Ref sig .tc := ⟨.hbm, 504, rfl⟩
abbrev main_call7_v0 : Ref sig .tc := ⟨.hbm, 505, rfl⟩
abbrev main_v398 : Ref sig .tc := ⟨.hbm, 506, rfl⟩
abbrev main_call8_cst : Ref sig .tc := ⟨.hbm, 507, rfl⟩
abbrev main_call8_v0 : Ref sig .tc := ⟨.hbm, 508, rfl⟩
abbrev main_v399 : Ref sig .tc := ⟨.hbm, 509, rfl⟩
abbrev main_v400 : Ref sig .tc := ⟨.hbm, 510, rfl⟩
abbrev main_v401 : Ref sig .tc := ⟨.hbm, 511, rfl⟩
abbrev main_v402 : Ref sig .tc := ⟨.hbm, 512, rfl⟩
abbrev main_v403 : Ref sig .tc := ⟨.hbm, 513, rfl⟩
abbrev main_v404 : Ref sig .tc := ⟨.hbm, 514, rfl⟩
abbrev main_v405 : Ref sig .tc := ⟨.hbm, 515, rfl⟩
abbrev main_c_70 : Ref sig .tc := ⟨.hbm, 516, rfl⟩
abbrev main_v406 : Ref sig .tc := ⟨.hbm, 517, rfl⟩
abbrev main_v407 : Ref sig .tc := ⟨.hbm, 518, rfl⟩
abbrev main_c_71 : Ref sig .tc := ⟨.hbm, 519, rfl⟩
abbrev main_v408 : Ref sig .tc := ⟨.hbm, 520, rfl⟩
abbrev main_v409 : Ref sig .tc := ⟨.hbm, 521, rfl⟩
abbrev main_v410 : Ref sig .tc := ⟨.hbm, 522, rfl⟩
abbrev main_v411 : Ref sig .tc := ⟨.hbm, 523, rfl⟩
abbrev main_v412 : Ref sig .tc := ⟨.hbm, 524, rfl⟩
abbrev main_cst_72 : Ref sig .tc := ⟨.hbm, 525, rfl⟩
abbrev main_v413 : Ref sig .tc := ⟨.hbm, 526, rfl⟩
abbrev main_v414 : Ref sig .tc := ⟨.hbm, 527, rfl⟩
abbrev main_v415 : Ref sig .tc := ⟨.hbm, 528, rfl⟩
abbrev main_cst_73 : Ref sig .tc := ⟨.hbm, 529, rfl⟩
abbrev main_v416 : Ref sig .tc := ⟨.hbm, 530, rfl⟩
abbrev main_cst_74 : Ref sig .tc := ⟨.hbm, 531, rfl⟩
abbrev main_v417 : Ref sig .tc := ⟨.hbm, 532, rfl⟩
abbrev main_v418 : Ref sig .tc := ⟨.hbm, 533, rfl⟩
abbrev main_v419 : Ref sig .tc := ⟨.hbm, 534, rfl⟩
abbrev main_cst_75 : Ref sig .tc := ⟨.hbm, 535, rfl⟩
abbrev main_v420 : Ref sig .tc := ⟨.hbm, 536, rfl⟩
abbrev main_v421 : Ref sig .tc := ⟨.hbm, 537, rfl⟩
abbrev main_v422 : Ref sig .tc := ⟨.hbm, 538, rfl⟩
abbrev main_v423 : Ref sig .tc := ⟨.hbm, 539, rfl⟩
abbrev main_v424 : Ref sig .tc := ⟨.hbm, 540, rfl⟩
abbrev main_v425 : Ref sig .tc := ⟨.hbm, 541, rfl⟩
abbrev main_v426 : Ref sig .tc := ⟨.hbm, 542, rfl⟩
abbrev main_v427 : Ref sig .tc := ⟨.hbm, 543, rfl⟩
abbrev main_v428 : Ref sig .tc := ⟨.hbm, 544, rfl⟩
abbrev main_v429 : Ref sig .tc := ⟨.hbm, 545, rfl⟩
abbrev main_v430 : Ref sig .tc := ⟨.hbm, 546, rfl⟩
abbrev main_v431 : Ref sig .tc := ⟨.hbm, 547, rfl⟩
abbrev main_v432 : Ref sig .tc := ⟨.hbm, 548, rfl⟩
abbrev main_v433 : Ref sig .tc := ⟨.hbm, 549, rfl⟩
abbrev main_v434 : Ref sig .tc := ⟨.hbm, 550, rfl⟩
abbrev main_v435 : Ref sig .tc := ⟨.hbm, 551, rfl⟩
abbrev main_v436 : Ref sig .tc := ⟨.hbm, 552, rfl⟩
abbrev main_c_76 : Ref sig .tc := ⟨.hbm, 553, rfl⟩
abbrev main_v437 : Ref sig .tc := ⟨.hbm, 554, rfl⟩
abbrev main_v438 : Ref sig .tc := ⟨.hbm, 555, rfl⟩
abbrev main_c_77 : Ref sig .tc := ⟨.hbm, 556, rfl⟩
abbrev main_v439 : Ref sig .tc := ⟨.hbm, 557, rfl⟩
abbrev main_v440 : Ref sig .tc := ⟨.hbm, 558, rfl⟩
abbrev main_v441 : Ref sig .tc := ⟨.hbm, 559, rfl⟩
abbrev main_v442 : Ref sig .tc := ⟨.hbm, 560, rfl⟩
abbrev main_v443 : Ref sig .tc := ⟨.hbm, 561, rfl⟩
abbrev main_cst_78 : Ref sig .tc := ⟨.hbm, 562, rfl⟩
abbrev main_v444 : Ref sig .tc := ⟨.hbm, 563, rfl⟩
abbrev main_v445 : Ref sig .tc := ⟨.hbm, 564, rfl⟩
abbrev main_v446 : Ref sig .tc := ⟨.hbm, 565, rfl⟩
abbrev main_cst_79 : Ref sig .tc := ⟨.hbm, 566, rfl⟩
abbrev main_v447 : Ref sig .tc := ⟨.hbm, 567, rfl⟩
abbrev main_cst_80 : Ref sig .tc := ⟨.hbm, 568, rfl⟩
abbrev main_v448 : Ref sig .tc := ⟨.hbm, 569, rfl⟩
abbrev main_v449 : Ref sig .tc := ⟨.hbm, 570, rfl⟩
abbrev main_v450 : Ref sig .tc := ⟨.hbm, 571, rfl⟩
abbrev main_cst_81 : Ref sig .tc := ⟨.hbm, 572, rfl⟩
abbrev main_v451 : Ref sig .tc := ⟨.hbm, 573, rfl⟩
abbrev main_v452 : Ref sig .tc := ⟨.hbm, 574, rfl⟩
abbrev main_v453 : Ref sig .tc := ⟨.hbm, 575, rfl⟩
abbrev main_v454 : Ref sig .tc := ⟨.hbm, 576, rfl⟩
abbrev main_v455 : Ref sig .tc := ⟨.hbm, 577, rfl⟩
abbrev main_v456 : Ref sig .tc := ⟨.hbm, 578, rfl⟩
abbrev main_v457 : Ref sig .tc := ⟨.hbm, 579, rfl⟩
abbrev main_v458 : Ref sig .tc := ⟨.hbm, 580, rfl⟩
abbrev main_v459 : Ref sig .tc := ⟨.hbm, 581, rfl⟩
abbrev main_v460 : Ref sig .tc := ⟨.hbm, 582, rfl⟩
abbrev main_v461 : Ref sig .tc := ⟨.hbm, 583, rfl⟩
abbrev main_v462 : Ref sig .tc := ⟨.hbm, 584, rfl⟩
abbrev main_v463 : Ref sig .tc := ⟨.hbm, 585, rfl⟩
abbrev main_v464 : Ref sig .tc := ⟨.hbm, 586, rfl⟩
abbrev main_v465 : Ref sig .tc := ⟨.hbm, 587, rfl⟩
abbrev main_v466 : Ref sig .tc := ⟨.hbm, 588, rfl⟩
abbrev main_v467 : Ref sig .tc := ⟨.hbm, 589, rfl⟩
abbrev main_v468 : Ref sig .tc := ⟨.hbm, 590, rfl⟩
abbrev main_c_82 : Ref sig .tc := ⟨.hbm, 591, rfl⟩
abbrev main_v469 : Ref sig .tc := ⟨.hbm, 592, rfl⟩
abbrev main_v470 : Ref sig .tc := ⟨.hbm, 593, rfl⟩
abbrev main_c_83 : Ref sig .tc := ⟨.hbm, 594, rfl⟩
abbrev main_v471 : Ref sig .tc := ⟨.hbm, 595, rfl⟩
abbrev main_v472 : Ref sig .tc := ⟨.hbm, 596, rfl⟩
abbrev main_v473 : Ref sig .tc := ⟨.hbm, 597, rfl⟩
abbrev main_v474 : Ref sig .tc := ⟨.hbm, 598, rfl⟩
abbrev main_v475 : Ref sig .tc := ⟨.hbm, 599, rfl⟩
abbrev main_cst_84 : Ref sig .tc := ⟨.hbm, 600, rfl⟩
abbrev main_v476 : Ref sig .tc := ⟨.hbm, 601, rfl⟩
abbrev main_v477 : Ref sig .tc := ⟨.hbm, 602, rfl⟩
abbrev main_v478 : Ref sig .tc := ⟨.hbm, 603, rfl⟩
abbrev main_cst_85 : Ref sig .tc := ⟨.hbm, 604, rfl⟩
abbrev main_v479 : Ref sig .tc := ⟨.hbm, 605, rfl⟩
abbrev main_cst_86 : Ref sig .tc := ⟨.hbm, 606, rfl⟩
abbrev main_v480 : Ref sig .tc := ⟨.hbm, 607, rfl⟩
abbrev main_v481 : Ref sig .tc := ⟨.hbm, 608, rfl⟩
abbrev main_v482 : Ref sig .tc := ⟨.hbm, 609, rfl⟩
abbrev main_cst_87 : Ref sig .tc := ⟨.hbm, 610, rfl⟩
abbrev main_v483 : Ref sig .tc := ⟨.hbm, 611, rfl⟩
abbrev main_v484 : Ref sig .tc := ⟨.hbm, 612, rfl⟩
abbrev main_v485 : Ref sig .tc := ⟨.hbm, 613, rfl⟩
abbrev main_v486 : Ref sig .tc := ⟨.hbm, 614, rfl⟩
abbrev main_v487 : Ref sig .tc := ⟨.hbm, 615, rfl⟩
abbrev main_v488 : Ref sig .tc := ⟨.hbm, 616, rfl⟩
abbrev main_v489 : Ref sig .tc := ⟨.hbm, 617, rfl⟩
abbrev main_v490 : Ref sig .tc := ⟨.hbm, 618, rfl⟩
abbrev main_v491 : Ref sig .tc := ⟨.hbm, 619, rfl⟩
abbrev main_v492 : Ref sig .tc := ⟨.hbm, 620, rfl⟩
abbrev main_v493 : Ref sig .tc := ⟨.hbm, 621, rfl⟩
abbrev main_v494 : Ref sig .tc := ⟨.hbm, 622, rfl⟩
abbrev main_v495 : Ref sig .tc := ⟨.hbm, 623, rfl⟩
abbrev main_v496 : Ref sig .tc := ⟨.hbm, 624, rfl⟩
abbrev main_v497 : Ref sig .tc := ⟨.hbm, 625, rfl⟩
abbrev main_v498 : Ref sig .tc := ⟨.hbm, 626, rfl⟩
abbrev main_v499 : Ref sig .tc := ⟨.hbm, 627, rfl⟩
abbrev main_c_88 : Ref sig .tc := ⟨.hbm, 628, rfl⟩
abbrev main_v500 : Ref sig .tc := ⟨.hbm, 629, rfl⟩
abbrev main_v501 : Ref sig .tc := ⟨.hbm, 630, rfl⟩
abbrev main_c_89 : Ref sig .tc := ⟨.hbm, 631, rfl⟩
abbrev main_v502 : Ref sig .tc := ⟨.hbm, 632, rfl⟩
abbrev main_v503 : Ref sig .tc := ⟨.hbm, 633, rfl⟩
abbrev main_v504 : Ref sig .tc := ⟨.hbm, 634, rfl⟩
abbrev main_v505 : Ref sig .tc := ⟨.hbm, 635, rfl⟩
abbrev main_v506 : Ref sig .tc := ⟨.hbm, 636, rfl⟩
abbrev main_cst_90 : Ref sig .tc := ⟨.hbm, 637, rfl⟩
abbrev main_v507 : Ref sig .tc := ⟨.hbm, 638, rfl⟩
abbrev main_v508 : Ref sig .tc := ⟨.hbm, 639, rfl⟩
abbrev main_v509 : Ref sig .tc := ⟨.hbm, 640, rfl⟩
abbrev main_cst_91 : Ref sig .tc := ⟨.hbm, 641, rfl⟩
abbrev main_v510 : Ref sig .tc := ⟨.hbm, 642, rfl⟩
abbrev main_cst_92 : Ref sig .tc := ⟨.hbm, 643, rfl⟩
abbrev main_v511 : Ref sig .tc := ⟨.hbm, 644, rfl⟩
abbrev main_v512 : Ref sig .tc := ⟨.hbm, 645, rfl⟩
abbrev main_v513 : Ref sig .tc := ⟨.hbm, 646, rfl⟩
abbrev main_cst_93 : Ref sig .tc := ⟨.hbm, 647, rfl⟩
abbrev main_v514 : Ref sig .tc := ⟨.hbm, 648, rfl⟩
abbrev main_v515 : Ref sig .tc := ⟨.hbm, 649, rfl⟩
abbrev main_v516 : Ref sig .tc := ⟨.hbm, 650, rfl⟩
abbrev main_v517 : Ref sig .tc := ⟨.hbm, 651, rfl⟩
abbrev main_v518 : Ref sig .tc := ⟨.hbm, 652, rfl⟩
abbrev main_v519 : Ref sig .tc := ⟨.hbm, 653, rfl⟩
abbrev main_v520 : Ref sig .tc := ⟨.hbm, 654, rfl⟩
abbrev main_v521 : Ref sig .tc := ⟨.hbm, 655, rfl⟩
abbrev main_v522 : Ref sig .tc := ⟨.hbm, 656, rfl⟩
abbrev main_v523 : Ref sig .tc := ⟨.hbm, 657, rfl⟩
abbrev main_v524 : Ref sig .tc := ⟨.hbm, 658, rfl⟩
abbrev main_call9_cst : Ref sig .tc := ⟨.hbm, 659, rfl⟩
abbrev main_call9_v0 : Ref sig .tc := ⟨.hbm, 660, rfl⟩
abbrev main_v525 : Ref sig .tc := ⟨.hbm, 661, rfl⟩
abbrev main_call10_cst : Ref sig .tc := ⟨.hbm, 662, rfl⟩
abbrev main_call10_v0 : Ref sig .tc := ⟨.hbm, 663, rfl⟩
abbrev main_v526 : Ref sig .tc := ⟨.hbm, 664, rfl⟩
abbrev main_call11_cst : Ref sig .tc := ⟨.hbm, 665, rfl⟩
abbrev main_call11_v0 : Ref sig .tc := ⟨.hbm, 666, rfl⟩
abbrev main_v527 : Ref sig .tc := ⟨.hbm, 667, rfl⟩
abbrev main_v528 : Ref sig .tc := ⟨.hbm, 668, rfl⟩
abbrev main_v529 : Ref sig .tc := ⟨.hbm, 669, rfl⟩
abbrev main_v530 : Ref sig .tc := ⟨.hbm, 670, rfl⟩
abbrev main_v531 : Ref sig .tc := ⟨.hbm, 671, rfl⟩
abbrev main_v532 : Ref sig .tc := ⟨.hbm, 672, rfl⟩
abbrev main_v533 : Ref sig .tc := ⟨.hbm, 673, rfl⟩
abbrev main_v534 : Ref sig .tc := ⟨.hbm, 674, rfl⟩
abbrev main_v535 : Ref sig .tc := ⟨.hbm, 675, rfl⟩
abbrev main_v536 : Ref sig .tc := ⟨.hbm, 676, rfl⟩
abbrev main_v537 : Ref sig .tc := ⟨.hbm, 677, rfl⟩
abbrev main_v538 : Ref sig .tc := ⟨.hbm, 678, rfl⟩
abbrev main_v539 : Ref sig .tc := ⟨.hbm, 679, rfl⟩
abbrev main_v540 : Ref sig .tc := ⟨.hbm, 680, rfl⟩
abbrev main_v541 : Ref sig .tc := ⟨.hbm, 681, rfl⟩
abbrev main_v542 : Ref sig .tc := ⟨.hbm, 682, rfl⟩
abbrev main_v543 : Ref sig .tc := ⟨.hbm, 683, rfl⟩
abbrev main_v544 : Ref sig .tc := ⟨.hbm, 684, rfl⟩
abbrev main_v545 : Ref sig .tc := ⟨.hbm, 685, rfl⟩
abbrev main_v546 : Ref sig .tc := ⟨.hbm, 686, rfl⟩
abbrev main_v547 : Ref sig .tc := ⟨.hbm, 687, rfl⟩
abbrev main_c_94 : Ref sig .tc := ⟨.hbm, 688, rfl⟩
abbrev main_v548 : Ref sig .tc := ⟨.hbm, 689, rfl⟩
abbrev main_v549 : Ref sig .tc := ⟨.hbm, 690, rfl⟩
abbrev main_c_95 : Ref sig .tc := ⟨.hbm, 691, rfl⟩
abbrev main_v550 : Ref sig .tc := ⟨.hbm, 692, rfl⟩
abbrev main_v551 : Ref sig .tc := ⟨.hbm, 693, rfl⟩
abbrev main_v552 : Ref sig .tc := ⟨.hbm, 694, rfl⟩
abbrev main_v553 : Ref sig .tc := ⟨.hbm, 695, rfl⟩
abbrev main_v554 : Ref sig .tc := ⟨.hbm, 696, rfl⟩
abbrev main_cst_96 : Ref sig .tc := ⟨.hbm, 697, rfl⟩
abbrev main_v555 : Ref sig .tc := ⟨.hbm, 698, rfl⟩
abbrev main_v556 : Ref sig .tc := ⟨.hbm, 699, rfl⟩
abbrev main_v557 : Ref sig .tc := ⟨.hbm, 700, rfl⟩
abbrev main_cst_97 : Ref sig .tc := ⟨.hbm, 701, rfl⟩
abbrev main_v558 : Ref sig .tc := ⟨.hbm, 702, rfl⟩
abbrev main_cst_98 : Ref sig .tc := ⟨.hbm, 703, rfl⟩
abbrev main_v559 : Ref sig .tc := ⟨.hbm, 704, rfl⟩
abbrev main_v560 : Ref sig .tc := ⟨.hbm, 705, rfl⟩
abbrev main_v561 : Ref sig .tc := ⟨.hbm, 706, rfl⟩
abbrev main_cst_99 : Ref sig .tc := ⟨.hbm, 707, rfl⟩
abbrev main_v562 : Ref sig .tc := ⟨.hbm, 708, rfl⟩
abbrev main_v563 : Ref sig .tc := ⟨.hbm, 709, rfl⟩
abbrev main_v564 : Ref sig .tc := ⟨.hbm, 710, rfl⟩
abbrev main_v565 : Ref sig .tc := ⟨.hbm, 711, rfl⟩
abbrev main_v566 : Ref sig .tc := ⟨.hbm, 712, rfl⟩
abbrev main_v567 : Ref sig .tc := ⟨.hbm, 713, rfl⟩
abbrev main_v568 : Ref sig .tc := ⟨.hbm, 714, rfl⟩
abbrev main_v569 : Ref sig .tc := ⟨.hbm, 715, rfl⟩
abbrev main_v570 : Ref sig .tc := ⟨.hbm, 716, rfl⟩
abbrev main_v571 : Ref sig .tc := ⟨.hbm, 717, rfl⟩
abbrev main_v572 : Ref sig .tc := ⟨.hbm, 718, rfl⟩
abbrev main_v573 : Ref sig .tc := ⟨.hbm, 719, rfl⟩
abbrev main_v574 : Ref sig .tc := ⟨.hbm, 720, rfl⟩
abbrev main_v575 : Ref sig .tc := ⟨.hbm, 721, rfl⟩
abbrev main_v576 : Ref sig .tc := ⟨.hbm, 722, rfl⟩
abbrev main_v577 : Ref sig .tc := ⟨.hbm, 723, rfl⟩
abbrev main_v578 : Ref sig .tc := ⟨.hbm, 724, rfl⟩
abbrev main_c_100 : Ref sig .tc := ⟨.hbm, 725, rfl⟩
abbrev main_v579 : Ref sig .tc := ⟨.hbm, 726, rfl⟩
abbrev main_v580 : Ref sig .tc := ⟨.hbm, 727, rfl⟩
abbrev main_c_101 : Ref sig .tc := ⟨.hbm, 728, rfl⟩
abbrev main_v581 : Ref sig .tc := ⟨.hbm, 729, rfl⟩
abbrev main_v582 : Ref sig .tc := ⟨.hbm, 730, rfl⟩
abbrev main_v583 : Ref sig .tc := ⟨.hbm, 731, rfl⟩
abbrev main_v584 : Ref sig .tc := ⟨.hbm, 732, rfl⟩
abbrev main_v585 : Ref sig .tc := ⟨.hbm, 733, rfl⟩
abbrev main_cst_102 : Ref sig .tc := ⟨.hbm, 734, rfl⟩
abbrev main_v586 : Ref sig .tc := ⟨.hbm, 735, rfl⟩
abbrev main_v587 : Ref sig .tc := ⟨.hbm, 736, rfl⟩
abbrev main_v588 : Ref sig .tc := ⟨.hbm, 737, rfl⟩
abbrev main_cst_103 : Ref sig .tc := ⟨.hbm, 738, rfl⟩
abbrev main_v589 : Ref sig .tc := ⟨.hbm, 739, rfl⟩
abbrev main_cst_104 : Ref sig .tc := ⟨.hbm, 740, rfl⟩
abbrev main_v590 : Ref sig .tc := ⟨.hbm, 741, rfl⟩
abbrev main_v591 : Ref sig .tc := ⟨.hbm, 742, rfl⟩
abbrev main_v592 : Ref sig .tc := ⟨.hbm, 743, rfl⟩
abbrev main_cst_105 : Ref sig .tc := ⟨.hbm, 744, rfl⟩
abbrev main_v593 : Ref sig .tc := ⟨.hbm, 745, rfl⟩
abbrev main_v594 : Ref sig .tc := ⟨.hbm, 746, rfl⟩
abbrev main_v595 : Ref sig .tc := ⟨.hbm, 747, rfl⟩
abbrev main_v596 : Ref sig .tc := ⟨.hbm, 748, rfl⟩
abbrev main_v597 : Ref sig .tc := ⟨.hbm, 749, rfl⟩
abbrev main_v598 : Ref sig .tc := ⟨.hbm, 750, rfl⟩
abbrev main_v599 : Ref sig .tc := ⟨.hbm, 751, rfl⟩
abbrev main_v600 : Ref sig .tc := ⟨.hbm, 752, rfl⟩
abbrev main_v601 : Ref sig .tc := ⟨.hbm, 753, rfl⟩
abbrev main_v602 : Ref sig .tc := ⟨.hbm, 754, rfl⟩
abbrev main_v603 : Ref sig .tc := ⟨.hbm, 755, rfl⟩
abbrev main_v604 : Ref sig .tc := ⟨.hbm, 756, rfl⟩
abbrev main_v605 : Ref sig .tc := ⟨.hbm, 757, rfl⟩
abbrev main_v606 : Ref sig .tc := ⟨.hbm, 758, rfl⟩
abbrev main_v607 : Ref sig .tc := ⟨.hbm, 759, rfl⟩
abbrev main_v608 : Ref sig .tc := ⟨.hbm, 760, rfl⟩
abbrev main_v609 : Ref sig .tc := ⟨.hbm, 761, rfl⟩
abbrev main_v610 : Ref sig .tc := ⟨.hbm, 762, rfl⟩
abbrev main_c_106 : Ref sig .tc := ⟨.hbm, 763, rfl⟩
abbrev main_v611 : Ref sig .tc := ⟨.hbm, 764, rfl⟩
abbrev main_v612 : Ref sig .tc := ⟨.hbm, 765, rfl⟩
abbrev main_c_107 : Ref sig .tc := ⟨.hbm, 766, rfl⟩
abbrev main_v613 : Ref sig .tc := ⟨.hbm, 767, rfl⟩
abbrev main_v614 : Ref sig .tc := ⟨.hbm, 768, rfl⟩
abbrev main_v615 : Ref sig .tc := ⟨.hbm, 769, rfl⟩
abbrev main_v616 : Ref sig .tc := ⟨.hbm, 770, rfl⟩
abbrev main_v617 : Ref sig .tc := ⟨.hbm, 771, rfl⟩
abbrev main_cst_108 : Ref sig .tc := ⟨.hbm, 772, rfl⟩
abbrev main_v618 : Ref sig .tc := ⟨.hbm, 773, rfl⟩
abbrev main_v619 : Ref sig .tc := ⟨.hbm, 774, rfl⟩
abbrev main_v620 : Ref sig .tc := ⟨.hbm, 775, rfl⟩
abbrev main_cst_109 : Ref sig .tc := ⟨.hbm, 776, rfl⟩
abbrev main_v621 : Ref sig .tc := ⟨.hbm, 777, rfl⟩
abbrev main_cst_110 : Ref sig .tc := ⟨.hbm, 778, rfl⟩
abbrev main_v622 : Ref sig .tc := ⟨.hbm, 779, rfl⟩
abbrev main_v623 : Ref sig .tc := ⟨.hbm, 780, rfl⟩
abbrev main_v624 : Ref sig .tc := ⟨.hbm, 781, rfl⟩
abbrev main_cst_111 : Ref sig .tc := ⟨.hbm, 782, rfl⟩
abbrev main_v625 : Ref sig .tc := ⟨.hbm, 783, rfl⟩
abbrev main_v626 : Ref sig .tc := ⟨.hbm, 784, rfl⟩
abbrev main_v627 : Ref sig .tc := ⟨.hbm, 785, rfl⟩
abbrev main_v628 : Ref sig .tc := ⟨.hbm, 786, rfl⟩
abbrev main_v629 : Ref sig .tc := ⟨.hbm, 787, rfl⟩
abbrev main_v630 : Ref sig .tc := ⟨.hbm, 788, rfl⟩
abbrev main_v631 : Ref sig .tc := ⟨.hbm, 789, rfl⟩
abbrev main_v632 : Ref sig .tc := ⟨.hbm, 790, rfl⟩
abbrev main_v633 : Ref sig .tc := ⟨.hbm, 791, rfl⟩
abbrev main_v634 : Ref sig .tc := ⟨.hbm, 792, rfl⟩
abbrev main_v635 : Ref sig .tc := ⟨.hbm, 793, rfl⟩
abbrev main_v636 : Ref sig .tc := ⟨.hbm, 794, rfl⟩
abbrev main_v637 : Ref sig .tc := ⟨.hbm, 795, rfl⟩
abbrev main_v638 : Ref sig .tc := ⟨.hbm, 796, rfl⟩
abbrev main_v639 : Ref sig .tc := ⟨.hbm, 797, rfl⟩
abbrev main_v640 : Ref sig .tc := ⟨.hbm, 798, rfl⟩
abbrev main_v641 : Ref sig .tc := ⟨.hbm, 799, rfl⟩
abbrev main_c_112 : Ref sig .tc := ⟨.hbm, 800, rfl⟩
abbrev main_v642 : Ref sig .tc := ⟨.hbm, 801, rfl⟩
abbrev main_v643 : Ref sig .tc := ⟨.hbm, 802, rfl⟩
abbrev main_c_113 : Ref sig .tc := ⟨.hbm, 803, rfl⟩
abbrev main_v644 : Ref sig .tc := ⟨.hbm, 804, rfl⟩
abbrev main_v645 : Ref sig .tc := ⟨.hbm, 805, rfl⟩
abbrev main_v646 : Ref sig .tc := ⟨.hbm, 806, rfl⟩
abbrev main_v647 : Ref sig .tc := ⟨.hbm, 807, rfl⟩
abbrev main_v648 : Ref sig .tc := ⟨.hbm, 808, rfl⟩
abbrev main_cst_114 : Ref sig .tc := ⟨.hbm, 809, rfl⟩
abbrev main_v649 : Ref sig .tc := ⟨.hbm, 810, rfl⟩
abbrev main_v650 : Ref sig .tc := ⟨.hbm, 811, rfl⟩
abbrev main_v651 : Ref sig .tc := ⟨.hbm, 812, rfl⟩
abbrev main_cst_115 : Ref sig .tc := ⟨.hbm, 813, rfl⟩
abbrev main_v652 : Ref sig .tc := ⟨.hbm, 814, rfl⟩
abbrev main_cst_116 : Ref sig .tc := ⟨.hbm, 815, rfl⟩
abbrev main_v653 : Ref sig .tc := ⟨.hbm, 816, rfl⟩
abbrev main_v654 : Ref sig .tc := ⟨.hbm, 817, rfl⟩
abbrev main_v655 : Ref sig .tc := ⟨.hbm, 818, rfl⟩
abbrev main_cst_117 : Ref sig .tc := ⟨.hbm, 819, rfl⟩
abbrev main_v656 : Ref sig .tc := ⟨.hbm, 820, rfl⟩
abbrev main_v657 : Ref sig .tc := ⟨.hbm, 821, rfl⟩
abbrev main_v658 : Ref sig .tc := ⟨.hbm, 822, rfl⟩
abbrev main_v659 : Ref sig .tc := ⟨.hbm, 823, rfl⟩
abbrev main_v660 : Ref sig .tc := ⟨.hbm, 824, rfl⟩
abbrev main_v661 : Ref sig .tc := ⟨.hbm, 825, rfl⟩
abbrev main_v662 : Ref sig .tc := ⟨.hbm, 826, rfl⟩
abbrev main_v663 : Ref sig .tc := ⟨.hbm, 827, rfl⟩
abbrev main_v664 : Ref sig .tc := ⟨.hbm, 828, rfl⟩
abbrev main_v665 : Ref sig .tc := ⟨.hbm, 829, rfl⟩
abbrev main_v666 : Ref sig .tc := ⟨.hbm, 830, rfl⟩
abbrev main_call12_cst : Ref sig .tc := ⟨.hbm, 831, rfl⟩
abbrev main_call12_v0 : Ref sig .tc := ⟨.hbm, 832, rfl⟩
abbrev main_v667 : Ref sig .tc := ⟨.hbm, 833, rfl⟩
abbrev main_call13_cst : Ref sig .tc := ⟨.hbm, 834, rfl⟩
abbrev main_call13_v0 : Ref sig .tc := ⟨.hbm, 835, rfl⟩
abbrev main_v668 : Ref sig .tc := ⟨.hbm, 836, rfl⟩
abbrev main_call14_cst : Ref sig .tc := ⟨.hbm, 837, rfl⟩
abbrev main_call14_v0 : Ref sig .tc := ⟨.hbm, 838, rfl⟩
abbrev main_v669 : Ref sig .tc := ⟨.hbm, 839, rfl⟩
abbrev main_v670 : Ref sig .tc := ⟨.hbm, 840, rfl⟩
abbrev main_v671 : Ref sig .tc := ⟨.hbm, 841, rfl⟩
abbrev main_v672 : Ref sig .tc := ⟨.hbm, 842, rfl⟩
abbrev main_v673 : Ref sig .tc := ⟨.hbm, 843, rfl⟩
abbrev main_v674 : Ref sig .tc := ⟨.hbm, 844, rfl⟩
abbrev main_v675 : Ref sig .tc := ⟨.hbm, 845, rfl⟩
abbrev main_c_118 : Ref sig .tc := ⟨.hbm, 846, rfl⟩
abbrev main_v676 : Ref sig .tc := ⟨.hbm, 847, rfl⟩
abbrev main_v677 : Ref sig .tc := ⟨.hbm, 848, rfl⟩
abbrev main_c_119 : Ref sig .tc := ⟨.hbm, 849, rfl⟩
abbrev main_v678 : Ref sig .tc := ⟨.hbm, 850, rfl⟩
abbrev main_v679 : Ref sig .tc := ⟨.hbm, 851, rfl⟩
abbrev main_v680 : Ref sig .tc := ⟨.hbm, 852, rfl⟩
abbrev main_v681 : Ref sig .tc := ⟨.hbm, 853, rfl⟩
abbrev main_v682 : Ref sig .tc := ⟨.hbm, 854, rfl⟩
abbrev main_cst_120 : Ref sig .tc := ⟨.hbm, 855, rfl⟩
abbrev main_v683 : Ref sig .tc := ⟨.hbm, 856, rfl⟩
abbrev main_v684 : Ref sig .tc := ⟨.hbm, 857, rfl⟩
abbrev main_v685 : Ref sig .tc := ⟨.hbm, 858, rfl⟩
abbrev main_cst_121 : Ref sig .tc := ⟨.hbm, 859, rfl⟩
abbrev main_v686 : Ref sig .tc := ⟨.hbm, 860, rfl⟩
abbrev main_cst_122 : Ref sig .tc := ⟨.hbm, 861, rfl⟩
abbrev main_v687 : Ref sig .tc := ⟨.hbm, 862, rfl⟩
abbrev main_v688 : Ref sig .tc := ⟨.hbm, 863, rfl⟩
abbrev main_v689 : Ref sig .tc := ⟨.hbm, 864, rfl⟩
abbrev main_cst_123 : Ref sig .tc := ⟨.hbm, 865, rfl⟩
abbrev main_v690 : Ref sig .tc := ⟨.hbm, 866, rfl⟩
abbrev main_v691 : Ref sig .tc := ⟨.hbm, 867, rfl⟩
abbrev main_v692 : Ref sig .tc := ⟨.hbm, 868, rfl⟩
abbrev main_v693 : Ref sig .tc := ⟨.hbm, 869, rfl⟩
abbrev main_v694 : Ref sig .tc := ⟨.hbm, 870, rfl⟩
abbrev main_v695 : Ref sig .tc := ⟨.hbm, 871, rfl⟩
abbrev main_v696 : Ref sig .tc := ⟨.hbm, 872, rfl⟩
abbrev main_v697 : Ref sig .tc := ⟨.hbm, 873, rfl⟩
abbrev main_v698 : Ref sig .tc := ⟨.hbm, 874, rfl⟩
abbrev main_v699 : Ref sig .tc := ⟨.hbm, 875, rfl⟩
abbrev main_v700 : Ref sig .tc := ⟨.hbm, 876, rfl⟩
abbrev main_v701 : Ref sig .tc := ⟨.hbm, 877, rfl⟩
abbrev main_v702 : Ref sig .tc := ⟨.hbm, 878, rfl⟩
abbrev main_v703 : Ref sig .tc := ⟨.hbm, 879, rfl⟩
abbrev main_v704 : Ref sig .tc := ⟨.hbm, 880, rfl⟩
abbrev main_v705 : Ref sig .tc := ⟨.hbm, 881, rfl⟩
abbrev main_v706 : Ref sig .tc := ⟨.hbm, 882, rfl⟩
abbrev main_c_124 : Ref sig .tc := ⟨.hbm, 883, rfl⟩
abbrev main_v707 : Ref sig .tc := ⟨.hbm, 884, rfl⟩
abbrev main_v708 : Ref sig .tc := ⟨.hbm, 885, rfl⟩
abbrev main_c_125 : Ref sig .tc := ⟨.hbm, 886, rfl⟩
abbrev main_v709 : Ref sig .tc := ⟨.hbm, 887, rfl⟩
abbrev main_v710 : Ref sig .tc := ⟨.hbm, 888, rfl⟩
abbrev main_v711 : Ref sig .tc := ⟨.hbm, 889, rfl⟩
abbrev main_v712 : Ref sig .tc := ⟨.hbm, 890, rfl⟩
abbrev main_v713 : Ref sig .tc := ⟨.hbm, 891, rfl⟩
abbrev main_cst_126 : Ref sig .tc := ⟨.hbm, 892, rfl⟩
abbrev main_v714 : Ref sig .tc := ⟨.hbm, 893, rfl⟩
abbrev main_v715 : Ref sig .tc := ⟨.hbm, 894, rfl⟩
abbrev main_v716 : Ref sig .tc := ⟨.hbm, 895, rfl⟩
abbrev main_cst_127 : Ref sig .tc := ⟨.hbm, 896, rfl⟩
abbrev main_v717 : Ref sig .tc := ⟨.hbm, 897, rfl⟩
abbrev main_cst_128 : Ref sig .tc := ⟨.hbm, 898, rfl⟩
abbrev main_v718 : Ref sig .tc := ⟨.hbm, 899, rfl⟩
abbrev main_v719 : Ref sig .tc := ⟨.hbm, 900, rfl⟩
abbrev main_v720 : Ref sig .tc := ⟨.hbm, 901, rfl⟩
abbrev main_cst_129 : Ref sig .tc := ⟨.hbm, 902, rfl⟩
abbrev main_v721 : Ref sig .tc := ⟨.hbm, 903, rfl⟩
abbrev main_v722 : Ref sig .tc := ⟨.hbm, 904, rfl⟩
abbrev main_v723 : Ref sig .tc := ⟨.hbm, 905, rfl⟩
abbrev main_v724 : Ref sig .tc := ⟨.hbm, 906, rfl⟩
abbrev main_v725 : Ref sig .tc := ⟨.hbm, 907, rfl⟩
abbrev main_v726 : Ref sig .tc := ⟨.hbm, 908, rfl⟩
abbrev main_v727 : Ref sig .tc := ⟨.hbm, 909, rfl⟩
abbrev main_v728 : Ref sig .tc := ⟨.hbm, 910, rfl⟩
abbrev main_v729 : Ref sig .tc := ⟨.hbm, 911, rfl⟩
abbrev main_v730 : Ref sig .tc := ⟨.hbm, 912, rfl⟩
abbrev main_v731 : Ref sig .tc := ⟨.hbm, 913, rfl⟩
abbrev main_v732 : Ref sig .tc := ⟨.hbm, 914, rfl⟩
abbrev main_v733 : Ref sig .tc := ⟨.hbm, 915, rfl⟩
abbrev main_v734 : Ref sig .tc := ⟨.hbm, 916, rfl⟩
abbrev main_v735 : Ref sig .tc := ⟨.hbm, 917, rfl⟩
abbrev main_v736 : Ref sig .tc := ⟨.hbm, 918, rfl⟩
abbrev main_v737 : Ref sig .tc := ⟨.hbm, 919, rfl⟩
abbrev main_v738 : Ref sig .tc := ⟨.hbm, 920, rfl⟩
abbrev main_c_130 : Ref sig .tc := ⟨.hbm, 921, rfl⟩
abbrev main_v739 : Ref sig .tc := ⟨.hbm, 922, rfl⟩
abbrev main_v740 : Ref sig .tc := ⟨.hbm, 923, rfl⟩
abbrev main_c_131 : Ref sig .tc := ⟨.hbm, 924, rfl⟩
abbrev main_v741 : Ref sig .tc := ⟨.hbm, 925, rfl⟩
abbrev main_v742 : Ref sig .tc := ⟨.hbm, 926, rfl⟩
abbrev main_v743 : Ref sig .tc := ⟨.hbm, 927, rfl⟩
abbrev main_v744 : Ref sig .tc := ⟨.hbm, 928, rfl⟩
abbrev main_v745 : Ref sig .tc := ⟨.hbm, 929, rfl⟩
abbrev main_cst_132 : Ref sig .tc := ⟨.hbm, 930, rfl⟩
abbrev main_v746 : Ref sig .tc := ⟨.hbm, 931, rfl⟩
abbrev main_v747 : Ref sig .tc := ⟨.hbm, 932, rfl⟩
abbrev main_v748 : Ref sig .tc := ⟨.hbm, 933, rfl⟩
abbrev main_cst_133 : Ref sig .tc := ⟨.hbm, 934, rfl⟩
abbrev main_v749 : Ref sig .tc := ⟨.hbm, 935, rfl⟩
abbrev main_cst_134 : Ref sig .tc := ⟨.hbm, 936, rfl⟩
abbrev main_v750 : Ref sig .tc := ⟨.hbm, 937, rfl⟩
abbrev main_v751 : Ref sig .tc := ⟨.hbm, 938, rfl⟩
abbrev main_v752 : Ref sig .tc := ⟨.hbm, 939, rfl⟩
abbrev main_cst_135 : Ref sig .tc := ⟨.hbm, 940, rfl⟩
abbrev main_v753 : Ref sig .tc := ⟨.hbm, 941, rfl⟩
abbrev main_v754 : Ref sig .tc := ⟨.hbm, 942, rfl⟩
abbrev main_v755 : Ref sig .tc := ⟨.hbm, 943, rfl⟩
abbrev main_v756 : Ref sig .tc := ⟨.hbm, 944, rfl⟩
abbrev main_v757 : Ref sig .tc := ⟨.hbm, 945, rfl⟩
abbrev main_v758 : Ref sig .tc := ⟨.hbm, 946, rfl⟩
abbrev main_v759 : Ref sig .tc := ⟨.hbm, 947, rfl⟩
abbrev main_v760 : Ref sig .tc := ⟨.hbm, 948, rfl⟩
abbrev main_v761 : Ref sig .tc := ⟨.hbm, 949, rfl⟩
abbrev main_v762 : Ref sig .tc := ⟨.hbm, 950, rfl⟩
abbrev main_v763 : Ref sig .tc := ⟨.hbm, 951, rfl⟩
abbrev main_v764 : Ref sig .tc := ⟨.hbm, 952, rfl⟩
abbrev main_v765 : Ref sig .tc := ⟨.hbm, 953, rfl⟩
abbrev main_v766 : Ref sig .tc := ⟨.hbm, 954, rfl⟩
abbrev main_v767 : Ref sig .tc := ⟨.hbm, 955, rfl⟩
abbrev main_v768 : Ref sig .tc := ⟨.hbm, 956, rfl⟩
abbrev main_v769 : Ref sig .tc := ⟨.hbm, 957, rfl⟩
abbrev main_c_136 : Ref sig .tc := ⟨.hbm, 958, rfl⟩
abbrev main_v770 : Ref sig .tc := ⟨.hbm, 959, rfl⟩
abbrev main_v771 : Ref sig .tc := ⟨.hbm, 960, rfl⟩
abbrev main_c_137 : Ref sig .tc := ⟨.hbm, 961, rfl⟩
abbrev main_v772 : Ref sig .tc := ⟨.hbm, 962, rfl⟩
abbrev main_v773 : Ref sig .tc := ⟨.hbm, 963, rfl⟩
abbrev main_v774 : Ref sig .tc := ⟨.hbm, 964, rfl⟩
abbrev main_v775 : Ref sig .tc := ⟨.hbm, 965, rfl⟩
abbrev main_v776 : Ref sig .tc := ⟨.hbm, 966, rfl⟩
abbrev main_cst_138 : Ref sig .tc := ⟨.hbm, 967, rfl⟩
abbrev main_v777 : Ref sig .tc := ⟨.hbm, 968, rfl⟩
abbrev main_v778 : Ref sig .tc := ⟨.hbm, 969, rfl⟩
abbrev main_v779 : Ref sig .tc := ⟨.hbm, 970, rfl⟩
abbrev main_cst_139 : Ref sig .tc := ⟨.hbm, 971, rfl⟩
abbrev main_v780 : Ref sig .tc := ⟨.hbm, 972, rfl⟩
abbrev main_cst_140 : Ref sig .tc := ⟨.hbm, 973, rfl⟩
abbrev main_v781 : Ref sig .tc := ⟨.hbm, 974, rfl⟩
abbrev main_v782 : Ref sig .tc := ⟨.hbm, 975, rfl⟩
abbrev main_v783 : Ref sig .tc := ⟨.hbm, 976, rfl⟩
abbrev main_cst_141 : Ref sig .tc := ⟨.hbm, 977, rfl⟩
abbrev main_v784 : Ref sig .tc := ⟨.hbm, 978, rfl⟩
abbrev main_v785 : Ref sig .tc := ⟨.hbm, 979, rfl⟩
abbrev main_v786 : Ref sig .tc := ⟨.hbm, 980, rfl⟩
abbrev main_v787 : Ref sig .tc := ⟨.hbm, 981, rfl⟩
abbrev main_v788 : Ref sig .tc := ⟨.hbm, 982, rfl⟩
abbrev main_v789 : Ref sig .tc := ⟨.hbm, 983, rfl⟩
abbrev main_v790 : Ref sig .tc := ⟨.hbm, 984, rfl⟩
abbrev main_v791 : Ref sig .tc := ⟨.hbm, 985, rfl⟩
abbrev main_v792 : Ref sig .tc := ⟨.hbm, 986, rfl⟩
abbrev main_v793 : Ref sig .tc := ⟨.hbm, 987, rfl⟩
abbrev main_v794 : Ref sig .tc := ⟨.hbm, 988, rfl⟩
abbrev main_call15_cst : Ref sig .tc := ⟨.hbm, 989, rfl⟩
abbrev main_call15_v0 : Ref sig .tc := ⟨.hbm, 990, rfl⟩
abbrev main_v795 : Ref sig .tc := ⟨.hbm, 991, rfl⟩
abbrev main_call16_cst : Ref sig .tc := ⟨.hbm, 992, rfl⟩
abbrev main_call16_v0 : Ref sig .tc := ⟨.hbm, 993, rfl⟩
abbrev main_v796 : Ref sig .tc := ⟨.hbm, 994, rfl⟩
abbrev main_call17_cst : Ref sig .tc := ⟨.hbm, 995, rfl⟩
abbrev main_call17_v0 : Ref sig .tc := ⟨.hbm, 996, rfl⟩
abbrev main_v797 : Ref sig .tc := ⟨.hbm, 997, rfl⟩
abbrev main_v798 : Ref sig .tc := ⟨.hbm, 998, rfl⟩
abbrev main_v799 : Ref sig .tc := ⟨.hbm, 999, rfl⟩

abbrev nD : Nat := 1
abbrev τ : Topo := Topo.v7x

variable {F : FTy → Type} [FloatOps F]

class Facts₀ : Prop where
  slices_S3x2x4x128x128_S1x2x4x128x128_0_0_0_0_0 : S3x2x4x128x128.Slices ![0, 0, 0, 0, 0] S1x2x4x128x128
  shapeCasts_S1x2x4x128x128_S2x4x128x128 : S1x2x4x128x128.ShapeCasts S2x4x128x128
  slices_S3x2x4x128_S1x2x4x128_0_0_0_0 : S3x2x4x128.Slices ![0, 0, 0, 0] S1x2x4x128
  shapeCasts_S1x2x4x128_S2x4x128 : S1x2x4x128.ShapeCasts S2x4x128
  slices_S2x4x128x128_S1x1x128x128_0_0_0_0 : S2x4x128x128.Slices ![0, 0, 0, 0] S1x1x128x128
  shapeCasts_S1x1x128x128_S128x128 : S1x1x128x128.ShapeCasts S128x128
  slices_S2x4x128_S1x1x128_0_0_0 : S2x4x128.Slices ![0, 0, 0] S1x1x128
  shapeCasts_S1x1x128_S128 : S1x1x128.ShapeCasts S128
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x4x128x128_S1x1x128x128_0_3_0_0 : S2x4x128x128.Slices ![0, 3, 0, 0] S1x1x128x128
  slices_S2x4x128_S1x1x128_0_3_0 : S2x4x128.Slices ![0, 3, 0] S1x1x128
  bcast_S_S800000 : S_.BroadcastsInDim S800000 (![] : Fin 0 → Fin S800000.rank)
  bcast_S800000_S800000x1_0 : S800000.BroadcastsInDim S800000x1 (![0] : Fin 1 → Fin S800000x1.rank)
  slices_S2x4x128x128_S1x1x128x128_0_1_0_0 : S2x4x128x128.Slices ![0, 1, 0, 0] S1x1x128x128
  slices_S2x4x128_S1x1x128_0_1_0 : S2x4x128.Slices ![0, 1, 0] S1x1x128
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S1x128_S40000x128_0_1 : S1x128.BroadcastsInDim S40000x128 (![0, 1] : Fin 2 → Fin S40000x128.rank)
  slices_S2x4x128x128_S1x1x128x128_0_2_0_0 : S2x4x128x128.Slices ![0, 2, 0, 0] S1x1x128x128
  slices_S2x4x128_S1x1x128_0_2_0 : S2x4x128.Slices ![0, 2, 0] S1x1x128
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  slices_S2x4x128x128_S1x1x128x128_1_0_0_0 : S2x4x128x128.Slices ![1, 0, 0, 0] S1x1x128x128
  slices_S2x4x128_S1x1x128_1_0_0 : S2x4x128.Slices ![1, 0, 0] S1x1x128
  slices_S2x4x128x128_S1x1x128x128_1_3_0_0 : S2x4x128x128.Slices ![1, 3, 0, 0] S1x1x128x128
  slices_S2x4x128_S1x1x128_1_3_0 : S2x4x128.Slices ![1, 3, 0] S1x1x128
  slices_S2x4x128x128_S1x1x128x128_1_1_0_0 : S2x4x128x128.Slices ![1, 1, 0, 0] S1x1x128x128
  slices_S2x4x128_S1x1x128_1_1_0 : S2x4x128.Slices ![1, 1, 0] S1x1x128
  slices_S2x4x128x128_S1x1x128x128_1_2_0_0 : S2x4x128x128.Slices ![1, 2, 0, 0] S1x1x128x128
  slices_S2x4x128_S1x1x128_1_2_0 : S2x4x128.Slices ![1, 2, 0] S1x1x128
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  slices_S3x2x4x128x128_S1x2x4x128x128_1_0_0_0_0 : S3x2x4x128x128.Slices ![1, 0, 0, 0, 0] S1x2x4x128x128
  slices_S3x2x4x128_S1x2x4x128_1_0_0_0 : S3x2x4x128.Slices ![1, 0, 0, 0] S1x2x4x128
  bcast_S1_S1x1_1 : S1.BroadcastsInDim S1x1 (![1] : Fin 1 → Fin S1x1.rank)
  bcast_S1x1_S40000x1_0_1 : S1x1.BroadcastsInDim S40000x1 (![0, 1] : Fin 2 → Fin S40000x1.rank)
  slices_S3x2x4x128x128_S1x2x4x128x128_2_0_0_0_0 : S3x2x4x128x128.Slices ![2, 0, 0, 0, 0] S1x2x4x128x128
  slices_S3x2x4x128_S1x2x4x128_2_0_0_0 : S3x2x4x128.Slices ![2, 0, 0, 0] S1x2x4x128
  bcast_S40000x1_S40000x64_0_1 : S40000x1.BroadcastsInDim S40000x64 (![0, 1] : Fin 2 → Fin S40000x64.rank)
  gather_S40000x128_S500000x1_S500000x128_1_0_n_n_0_1_1128_wf : GatherDims.WF S40000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  gather_S100000x128_S500000x1_S500000x128_1_0_n_n_0_1_1128_wf : GatherDims.WF S100000x128 S500000x1 S500000x128 [1] [0] [] [0] [] 1 ![1, 128]
  scatter_S40000x128_S500000x1_S500000x128_1_0_0_1_wf : ScatterDims.WF S40000x128 S500000x1 S500000x128 [1] [0] [0] 1
  scatter_S40000_S500000x1_S500000_n_0_0_1_wf : ScatterDims.WF S40000 S500000x1 S500000 [] [0] [0] 1
  dot_S40000x128_S128x128_S40000x128_1_0_0_1_n_n_wf : DotDims.WF S40000x128 S128x128 S40000x128 [1] [0] [0] [1] [] []
  gather_S100000x128_S800000x1_S800000x128_1_0_n_n_0_1_1128_wf : GatherDims.WF S100000x128 S800000x1 S800000x128 [1] [0] [] [0] [] 1 ![1, 128]
  scatter_S20000x128_S800000x1_S800000x128_1_0_0_1_wf : ScatterDims.WF S20000x128 S800000x1 S800000x128 [1] [0] [0] 1
  scatter_S20000_S800000x1_S800000_n_0_0_1_wf : ScatterDims.WF S20000 S800000x1 S800000 [] [0] [0] 1
  dot_S20000x128_S128x128_S20000x128_1_0_0_1_n_n_wf : DotDims.WF S20000x128 S128x128 S20000x128 [1] [0] [0] [1] [] []
  dot_S40000x128_S128x64_S40000x64_1_0_0_1_n_n_wf : DotDims.WF S40000x128 S128x64 S40000x64 [1] [0] [0] [1] [] []
  dot_S40000x64_S64x1_S40000x1_1_0_0_1_n_n_wf : DotDims.WF S40000x64 S64x1 S40000x1 [1] [0] [0] [1] [] []

variable [Facts₀]

def gather_S40000x128_S500000x1_S500000x128_1_0_n_n_0_1_1128 : GatherDims S40000x128 S500000x1 S500000x128 where
  offsetDims := [1]
  collapsedSliceDims := [0]
  operandBatchingDims := []
  startIndicesBatchingDims := []
  startIndexMap := [0]
  indexVectorDim := 1
  sliceSizes := ![1, 128]
  wf := gather_S40000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S40000x128_S500000x1_S500000x128_1_0_0_1 : ScatterDims S40000x128 S500000x1 S500000x128 where
  updateWindowDims := [1]
  insertedWindowDims := [0]
  scatterDimsToOperandDims := [0]
  indexVectorDim := 1
  wf := scatter_S40000x128_S500000x1_S500000x128_1_0_0_1_wf
def scatter_S40000_S500000x1_S500000_n_0_0_1 : ScatterDims S40000 S500000x1 S500000 where
  updateWindowDims := []
  insertedWindowDims := [0]
  scatterDimsToOperandDims := [0]
  indexVectorDim := 1
  wf := scatter_S40000_S500000x1_S500000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S20000x128_S800000x1_S800000x128_1_0_0_1 : ScatterDims S20000x128 S800000x1 S800000x128 where
  updateWindowDims := [1]
  insertedWindowDims := [0]
  scatterDimsToOperandDims := [0]
  indexVectorDim := 1
  wf := scatter_S20000x128_S800000x1_S800000x128_1_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def dot_S40000x64_S64x1_S40000x1_1_0_0_1_n_n : DotDims S40000x64 S64x1 S40000x1 where
  lhsContracting := [1]
  rhsContracting := [0]
  lhsNonContracting := [0]
  rhsNonContracting := [1]
  lhsBatch := []
  rhsBatch := []
  wf := dot_S40000x64_S64x1_S40000x1_1_0_0_1_n_n_wf

class Facts : Prop extends Facts₀ where

variable [Facts]
-- ==== Proof.IdxSpec.lean ====
/-
  What one grid-tiled dense update computes, entry by entry, on extended reals.

  A node type's update is a row-wise affine map followed by a clamp at zero: entry (r, q) of the result is
  max(Σ_k mean₀[r,k]·Wl₀[k,q] (+ Σ_k mean₁[r,k]·Wl₁[k,q]) + Σ_k x[r,k]·Wr[k,q] + b[q], 0), the neighbour means and
  their weight matrices stacked along a leading axis. The read-out heads are the affine map alone.
  Sums run over the 128 feature columns; nothing here depends on how rows are tiled.
-/
import Idealize.ShloMosaic.PureOps.Ideal
import Idealize.ShloMosaic.Lib.ValueIdx

noncomputable section

namespace Cert.IdxSpec

open Idealize.ShloMosaic Idealize.ShloMosaic.ValueIdx

/-- The update of a node type with TWO incoming relations, over `n` rows: the two stacked neighbour means against the two
    stacked left weights, the node's own features against the (already summed) right weight, the (already summed) bias,
    clamped at zero. -/
def sage2 (n : Nat) (means : (⟨3, ![2, n, 128]⟩ : Shape).Idx → EReal) (wls : (⟨3, ![2, 128, 128]⟩ : Shape).Idx → EReal)
    (xd : (⟨2, ![n, 128]⟩ : Shape).Idx → EReal) (wr : (⟨2, ![128, 128]⟩ : Shape).Idx → EReal)
    (b : (⟨1, ![128]⟩ : Shape).Idx → EReal) : (⟨2, ![n, 128]⟩ : Shape).Idx → EReal := fun j =>
  max ((((∑ k : Fin 128, means (ix3 (0 : Fin 2) (j 0) k) * wls (ix3 (0 : Fin 2) k (j 1)))
      + ∑ k : Fin 128, means (ix3 (1 : Fin 2) (j 0) k) * wls (ix3 (1 : Fin 2) k (j 1)))
      + ∑ k : Fin 128, xd (ix2 (j 0) k) * wr (ix2 k (j 1)))
      + b (ix1 (j 1))) 0

/-- The update of a node type with ONE incoming relation, over `n` rows. -/
def sage1 (n : Nat) (means : (⟨3, ![1, n, 128]⟩ : Shape).Idx → EReal) (wls : (⟨3, ![1, 128, 128]⟩ : Shape).Idx → EReal)
    (xd : (⟨2, ![n, 128]⟩ : Shape).Idx → EReal) (wr : (⟨2, ![128, 128]⟩ : Shape).Idx → EReal)
    (b : (⟨1, ![128]⟩ : Shape).Idx → EReal) : (⟨2, ![n, 128]⟩ : Shape).Idx → EReal := fun j =>
  max (((∑ k : Fin 128, means (ix3 (0 : Fin 1) (j 0) k) * wls (ix3 (0 : Fin 1) k (j 1)))
      + ∑ k : Fin 128, xd (ix2 (j 0) k) * wr (ix2 k (j 1)))
      + b (ix1 (j 1))) 0

/-- A read-out head over `n` rows: 128 features to 64 outputs, plus the bias; no clamp. -/
def lin (n : Nat) (x : (⟨2, ![n, 128]⟩ : Shape).Idx → EReal) (w : (⟨2, ![128, 64]⟩ : Shape).Idx → EReal)
    (b : (⟨1, ![64]⟩ : Shape).Idx → EReal) : (⟨2, ![n, 64]⟩ : Shape).Idx → EReal := fun j =>
  (∑ k : Fin 128, x (ix2 (j 0) k) * w (ix2 k (j 1))) + b (ix1 (j 1))

end Cert.IdxSpec

end
-- ==== Proof.Spec.lean ====
/-
  The network both programs compute, as functions of whole arrays, at exact arithmetic on extended reals.

  Three node types (40000 authors, 100000 papers, 20000 terms; 128 features each) and four relations
  (author→paper and paper→author over 500000 edges, paper→term and term→paper over 800000). One LAYER sends, along
  every relation, the MEAN of the source rows over each destination's incoming edges (a gather of source rows, a
  scatter-add at the destinations, divided by the in-degree clamped below at one), and updates each node type by
  mean·Wl + bl + x·Wr summed over its incoming relations, clamped at zero. A STACK is two layers. There are three
  stacks (the second runs on the first's result) and two 128→64 read-out heads; the first result is the first
  head's output divided, row by row, by a scalar made from the second head's output.

  The two programs differ only in how a layer's update is evaluated. The reference forms each relation's message
  separately (`sageR…`, `layerR_…`). The kernel program stacks the means and the left weights along a new leading
  axis, ADDS the two right weights and the two biases of the paper update first, and evaluates one fused update per
  node type, entry by entry (`Cert.IdxSpec.sage2` / `sage1` / `lin`; `layerK_…`, `headK`). The aggregation, the weight
  selection and the final division are the same operations in both.
-/
import proofs.«165177_j32074815766916_1_alg».proof.Proof.Gen.KernelIdeal
import proofs.«165177_j32074815766916_1_alg».proof.Proof.Gen.ReferenceIdeal
import proofs.«165177_j32074815766916_1_alg».proof.Proof.IdxSpec

noncomputable section

namespace Cert.Spec

open Idealize.ShloMosaic Cert.KernelIdeal Cert.KernelIdeal.Facts₀

section Generic
variable {F : FTy → Type} [FloatOps F]

/-! ## Mean aggregation along one relation (shared by both programs) -/

/-- Authors' rows averaged into papers: \`src\` indexes the 40000 authors (a negative index counts from the end), \`dst\` the 100000 papers. -/
def aggAP (x : FVec F S40000x128 .f32) (src dst : IVec S500000 32) : FVec F S100000x128 .f32 :=
  Host.divf
    (Host.scatterAdd scatter_S100000x128_S500000x1_S500000x128_1_0_0_1
      (broadcastInDim S100000x128 ![] bcast_S_S100000x128 (constant S_ .f32 0x00000000#32))
      (broadcastInDim S500000x1 ![0] bcast_S500000_S500000x1_0 dst)
      (Host.gather gather_S40000x128_S500000x1_S500000x128_1_0_n_n_0_1_1128 x
        (broadcastInDim S500000x1 ![0] bcast_S500000_S500000x1_0
          (select
            (cmpi .slt src (broadcastInDim S500000 ![] bcast_S_S500000 (constantI S_ 32 0#32)))
            (addi src (broadcastInDim S500000 ![] bcast_S_S500000 (constantI S_ 32 40000#32)))
            src))))
    (broadcastInDim S100000x128 ![0, 1] bcast_S100000x1_S100000x128_0_1
      (broadcastInDim S100000x1 ![0] bcast_S100000_S100000x1_0
        (maximumf
          (Host.scatterAdd scatter_S100000_S500000x1_S500000_n_0_0_1
            (broadcastInDim S100000 ![] bcast_S_S100000 (constant S_ .f32 0x00000000#32))
            (broadcastInDim S500000x1 ![0] bcast_S500000_S500000x1_0 dst)
            (broadcastInDim S500000 ![] bcast_S_S500000 (constant S_ .f32 0x3F800000#32)))
          (broadcastInDim S100000 ![] bcast_S_S100000 (constant S_ .f32 0x3F800000#32)))))

/-- Terms' rows averaged into papers. -/
def aggTP (x : FVec F S20000x128 .f32) (src dst : IVec S800000 32) : FVec F S100000x128 .f32 :=
  Host.divf
    (Host.scatterAdd scatter_S100000x128_S800000x1_S800000x128_1_0_0_1
      (broadcastInDim S100000x128 ![] bcast_S_S100000x128 (constant S_ .f32 0x00000000#32))
      (broadcastInDim S800000x1 ![0] bcast_S800000_S800000x1_0 dst)
      (Host.gather gather_S20000x128_S800000x1_S800000x128_1_0_n_n_0_1_1128 x
        (broadcastInDim S800000x1 ![0] bcast_S800000_S800000x1_0
          (select
            (cmpi .slt src (broadcastInDim S800000 ![] bcast_S_S800000 (constantI S_ 32 0#32)))
            (addi src (broadcastInDim S800000 ![] bcast_S_S800000 (constantI S_ 32 20000#32)))
            src))))
    (broadcastInDim S100000x128 ![0, 1] bcast_S100000x1_S100000x128_0_1
      (broadcastInDim S100000x1 ![0] bcast_S100000_S100000x1_0
        (maximumf
          (Host.scatterAdd scatter_S100000_S800000x1_S800000_n_0_0_1
            (broadcastInDim S100000 ![] bcast_S_S100000 (constant S_ .f32 0x00000000#32))
            (broadcastInDim S800000x1 ![0] bcast_S800000_S800000x1_0 dst)
            (broadcastInDim S800000 ![] bcast_S_S800000 (constant S_ .f32 0x3F800000#32)))
          (broadcastInDim S100000 ![] bcast_S_S100000 (constant S_ .f32 0x3F800000#32)))))

/-- Papers' rows averaged into authors. -/
def aggPA (x : FVec F S100000x128 .f32) (src dst : IVec S500000 32) : FVec F S40000x128 .f32 :=
  Host.divf
    (Host.scatterAdd scatter_S40000x128_S500000x1_S500000x128_1_0_0_1
      (broadcastInDim S40000x128 ![] bcast_S_S40000x128 (constant S_ .f32 0x00000000#32))
      (broadcastInDim S500000x1 ![0] bcast_S500000_S500000x1_0 dst)
      (Host.gather gather_S100000x128_S500000x1_S500000x128_1_0_n_n_0_1_1128 x
        (broadcastInDim S500000x1 ![0] bcast_S500000_S500000x1_0
          (select
            (cmpi .slt src (broadcastInDim S500000 ![] bcast_S_S500000 (constantI S_ 32 0#32)))
            (addi src (broadcastInDim S500000 ![] bcast_S_S500000 (constantI S_ 32 100000#32)))
            src))))
    (broadcastInDim S40000x128 ![0, 1] bcast_S40000x1_S40000x128_0_1
      (broadcastInDim S40000x1 ![0] bcast_S40000_S40000x1_0
        (maximumf
          (Host.scatterAdd scatter_S40000_S500000x1_S500000_n_0_0_1
            (broadcastInDim S40000 ![] bcast_S_S40000 (constant S_ .f32 0x00000000#32))
            (broadcastInDim S500000x1 ![0] bcast_S500000_S500000x1_0 dst)
            (broadcastInDim S500000 ![] bcast_S_S500000 (constant S_ .f32 0x3F800000#32)))
          (broadcastInDim S40000 ![] bcast_S_S40000 (constant S_ .f32 0x3F800000#32)))))

/-- Papers' rows averaged into terms. -/
def aggPT (x : FVec F S100000x128 .f32) (src dst : IVec S800000 32) : FVec F S20000x128 .f32 :=
  Host.divf
    (Host.scatterAdd scatter_S20000x128_S800000x1_S800000x128_1_0_0_1
      (broadcastInDim S20000x128 ![] bcast_S_S20000x128 (constant S_ .f32 0x00000000#32))
      (broadcastInDim S800000x1 ![0] bcast_S800000_S800000x1_0 dst)
      (Host.gather gather_S100000x128_S800000x1_S800000x128_1_0_n_n_0_1_1128 x
        (broadcastInDim S800000x1 ![0] bcast_S800000_S800000x1_0
          (select
            (cmpi .slt src (broadcastInDim S800000 ![] bcast_S_S800000 (constantI S_ 32 0#32)))
            (addi src (broadcastInDim S800000 ![] bcast_S_S800000 (constantI S_ 32 100000#32)))
            src))))
    (broadcastInDim S20000x128 ![0, 1] bcast_S20000x1_S20000x128_0_1
      (broadcastInDim S20000x1 ![0] bcast_S20000_S20000x1_0
        (maximumf
          (Host.scatterAdd scatter_S20000_S800000x1_S800000_n_0_0_1
            (broadcastInDim S20000 ![] bcast_S_S20000 (constant S_ .f32 0x00000000#32))
            (broadcastInDim S800000x1 ![0] bcast_S800000_S800000x1_0 dst)
            (broadcastInDim S800000 ![] bcast_S_S800000 (constant S_ .f32 0x3F800000#32)))
          (broadcastInDim S20000 ![] bcast_S_S20000 (constant S_ .f32 0x3F800000#32)))))

/-! ## Selecting a stack's and a relation's weights (shared by both programs) -/

/-- Stack `s`'s slab of a [3, 2, 4, 128, 128] weight array: [2 layers, 4 relations, 128, 128]. -/
def slab5 (s : Nat) (h : S3x2x4x128x128.Slices ![s, 0, 0, 0, 0] S1x2x4x128x128) (W : FVec F S3x2x4x128x128 .f32) : FVec F S2x4x128x128 .f32 :=
  shapeCast S2x4x128x128 (extractStridedSlice S1x2x4x128x128 ![s, 0, 0, 0, 0] W h) shapeCasts_S1x2x4x128x128_S2x4x128x128

/-- Stack `s`'s slab of the [3, 2, 4, 128] bias array: [2 layers, 4 relations, 128]. -/
def slab4 (s : Nat) (h : S3x2x4x128.Slices ![s, 0, 0, 0] S1x2x4x128) (B : FVec F S3x2x4x128 .f32) : FVec F S2x4x128 .f32 :=
  shapeCast S2x4x128 (extractStridedSlice S1x2x4x128 ![s, 0, 0, 0] B h) shapeCasts_S1x2x4x128_S2x4x128

/-- Layer `l`, relation `r`'s 128×128 matrix of a slab. -/
def wmat (l r : Nat) (h : S2x4x128x128.Slices ![l, r, 0, 0] S1x1x128x128) (S : FVec F S2x4x128x128 .f32) : FVec F S128x128 .f32 :=
  shapeCast S128x128 (extractStridedSlice S1x1x128x128 ![l, r, 0, 0] S h) shapeCasts_S1x1x128x128_S128x128

/-- Layer `l`, relation `r`'s bias row of a slab. -/
def wvec (l r : Nat) (h : S2x4x128.Slices ![l, r, 0] S1x1x128) (S : FVec F S2x4x128 .f32) : FVec F S128 .f32 :=
  shapeCast S128 (extractStridedSlice S1x1x128 ![l, r, 0] S h) shapeCasts_S1x1x128_S128

/-! ## The kernel program's stacking along a new leading axis -/

/-- Two paper-sized arrays stacked: [2, 100000, 128]. -/
def pack2P (a b : FVec F S100000x128 .f32) : FVec F S2x100000x128 .f32 :=
  concatenate S2x100000x128 0 [⟨S1x100000x128, broadcastInDim S1x100000x128 ![1, 2] bcast_S100000x128_S1x100000x128_1_2 a⟩,
    ⟨S1x100000x128, broadcastInDim S1x100000x128 ![1, 2] bcast_S100000x128_S1x100000x128_1_2 b⟩] concatenates_S1x100000x128_S1x100000x128_S2x100000x128_d0

/-- Two weight matrices stacked: [2, 128, 128]. -/
def pack2W (a b : FVec F S128x128 .f32) : FVec F S2x128x128 .f32 :=
  concatenate S2x128x128 0 [⟨S1x128x128, broadcastInDim S1x128x128 ![1, 2] bcast_S128x128_S1x128x128_1_2 a⟩,
    ⟨S1x128x128, broadcastInDim S1x128x128 ![1, 2] bcast_S128x128_S1x128x128_1_2 b⟩] concatenates_S1x128x128_S1x128x128_S2x128x128_d0

/-- One author-sized array under a leading axis of extent one. -/
def pack1A (a : FVec F S40000x128 .f32) : FVec F S1x40000x128 .f32 :=
  broadcastInDim S1x40000x128 ![1, 2] bcast_S40000x128_S1x40000x128_1_2 a

/-- One term-sized array under a leading axis of extent one. -/
def pack1T (a : FVec F S20000x128 .f32) : FVec F S1x20000x128 .f32 :=
  broadcastInDim S1x20000x128 ![1, 2] bcast_S20000x128_S1x20000x128_1_2 a

/-- One weight matrix under a leading axis of extent one. -/
def pack1W (a : FVec F S128x128 .f32) : FVec F S1x128x128 .f32 :=
  broadcastInDim S1x128x128 ![1, 2] bcast_S128x128_S1x128x128_1_2 a

/-! ## The reference's evaluation of one relation's message, and the clamp -/

/-- One relation's message into a node type of 100000 rows, the reference's way: the neighbour mean times the left
    weight, plus the bias row, plus the node's own features times the right weight. -/
def sageR100000 (mean xd : FVec F S100000x128 .f32) (Wl Wr : FVec F S128x128 .f32) (bl : FVec F S128 .f32) : FVec F S100000x128 .f32 :=
  addf
    (addf (Host.dotGeneral Cert.ReferenceIdeal.dot_S100000x128_S128x128_S100000x128_1_0_0_1_n_n none mean Wl)
      (broadcastInDim S100000x128 ![0, 1] Cert.ReferenceIdeal.Facts₀.bcast_S1x128_S100000x128_0_1 (broadcastInDim S1x128 ![1] Cert.ReferenceIdeal.Facts₀.bcast_S128_S1x128_1 bl)))
    (Host.dotGeneral Cert.ReferenceIdeal.dot_S100000x128_S128x128_S100000x128_1_0_0_1_n_n none xd Wr)

/-- The clamp at zero over 100000 rows. -/
def relu100000 (x : FVec F S100000x128 .f32) : FVec F S100000x128 .f32 :=
  maximumf x (broadcastInDim S100000x128 ![] Cert.ReferenceIdeal.Facts₀.bcast_S_S100000x128 (constant S_ .f32 0x00000000#32))

/-- One relation's message into a node type of 40000 rows, the reference's way: the neighbour mean times the left
    weight, plus the bias row, plus the node's own features times the right weight. -/
def sageR40000 (mean xd : FVec F S40000x128 .f32) (Wl Wr : FVec F S128x128 .f32) (bl : FVec F S128 .f32) : FVec F S40000x128 .f32 :=
  addf
    (addf (Host.dotGeneral Cert.ReferenceIdeal.dot_S40000x128_S128x128_S40000x128_1_0_0_1_n_n none mean Wl)
      (broadcastInDim S40000x128 ![0, 1] Cert.ReferenceIdeal.Facts₀.bcast_S1x128_S40000x128_0_1 (broadcastInDim S1x128 ![1] Cert.ReferenceIdeal.Facts₀.bcast_S128_S1x128_1 bl)))
    (Host.dotGeneral Cert.ReferenceIdeal.dot_S40000x128_S128x128_S40000x128_1_0_0_1_n_n none xd Wr)

/-- The clamp at zero over 40000 rows. -/
def relu40000 (x : FVec F S40000x128 .f32) : FVec F S40000x128 .f32 :=
  maximumf x (broadcastInDim S40000x128 ![] Cert.ReferenceIdeal.Facts₀.bcast_S_S40000x128 (constant S_ .f32 0x00000000#32))

/-- One relation's message into a node type of 20000 rows, the reference's way: the neighbour mean times the left
    weight, plus the bias row, plus the node's own features times the right weight. -/
def sageR20000 (mean xd : FVec F S20000x128 .f32) (Wl Wr : FVec F S128x128 .f32) (bl : FVec F S128 .f32) : FVec F S20000x128 .f32 :=
  addf
    (addf (Host.dotGeneral Cert.ReferenceIdeal.dot_S20000x128_S128x128_S20000x128_1_0_0_1_n_n none mean Wl)
      (broadcastInDim S20000x128 ![0, 1] Cert.ReferenceIdeal.Facts₀.bcast_S1x128_S20000x128_0_1 (broadcastInDim S1x128 ![1] Cert.ReferenceIdeal.Facts₀.bcast_S128_S1x128_1 bl)))
    (Host.dotGeneral Cert.ReferenceIdeal.dot_S20000x128_S128x128_S20000x128_1_0_0_1_n_n none xd Wr)

/-- The clamp at zero over 20000 rows. -/
def relu20000 (x : FVec F S20000x128 .f32) : FVec F S20000x128 .f32 :=
  maximumf x (broadcastInDim S20000x128 ![] Cert.ReferenceIdeal.Facts₀.bcast_S_S20000x128 (constant S_ .f32 0x00000000#32))

/-- A read-out head the reference's way: the product with the 128×64 weight plus the bias row. -/
def headR (x : FVec F S40000x128 .f32) (W : FVec F S128x64 .f32) (b : FVec F S64 .f32) : FVec F S40000x64 .f32 :=
  addf (Host.dotGeneral Cert.ReferenceIdeal.dot_S40000x128_S128x64_S40000x64_1_0_0_1_n_n none x W)
    (broadcastInDim S40000x64 ![0, 1] Cert.ReferenceIdeal.Facts₀.bcast_S1x64_S40000x64_0_1 (broadcastInDim S1x64 ![1] Cert.ReferenceIdeal.Facts₀.bcast_S64_S1x64_1 b))

/-- The per-row scalar (shared by both programs): the second head's rows against the 64×1 weight, plus the bias. -/
def temp (ll1 : FVec F S40000x64 .f32) (W : FVec F S64x1 .f32) (b : FVec F S1 .f32) : FVec F S40000x1 .f32 :=
  addf (Host.dotGeneral dot_S40000x64_S64x1_S40000x1_1_0_0_1_n_n none ll1 W)
    (broadcastInDim S40000x1 ![0, 1] bcast_S1x1_S40000x1_0_1 (broadcastInDim S1x1 ![1] bcast_S1_S1x1_1 b))

/-- The first result (shared by both programs): each row of `logits` divided by that row's scalar. -/
def quot (logits : FVec F S40000x64 .f32) (t : FVec F S40000x1 .f32) : FVec F S40000x64 .f32 :=
  Host.divf logits (broadcastInDim S40000x64 ![0, 1] bcast_S40000x1_S40000x64_0_1 t)

end Generic

/-- Every entry of an array of extended reals is a real number (neither infinity). -/
def IsReal {s : Shape} (x : s.Idx → EReal) : Prop := ∀ i, ∃ r : ℝ, x i = (r : EReal)

/-! ## One layer, each program's way, at exact arithmetic -/

abbrev X40 := FVec Ideal S40000x128 .f32
abbrev X100 := FVec Ideal S100000x128 .f32
abbrev X20 := FVec Ideal S20000x128 .f32
abbrev Mat := FVec Ideal S128x128 .f32
abbrev Row := FVec Ideal S128 .f32
abbrev E5 := IVec S500000 32
abbrev E8 := IVec S800000 32

/-- Papers, the kernel program's way: one fused update over the two stacked means. -/
def layerK_p (xa : X40) (xp : X100) (xt : X20) (Wl0 Wl3 Wr0 Wr3 : Mat) (b0 b3 : Row) (sap dap : E5) (stp dtp : E8) : X100 :=
  Cert.IdxSpec.sage2 100000 (pack2P (aggAP xa sap dap) (aggTP xt stp dtp)) (pack2W Wl0 Wl3) xp (addf Wr0 Wr3) (addf b0 b3)
/-- Authors, the kernel program's way. -/
def layerK_a (xa : X40) (xp : X100) (Wl1 Wr1 : Mat) (b1 : Row) (spa dpa : E5) : X40 :=
  Cert.IdxSpec.sage1 40000 (pack1A (aggPA xp spa dpa)) (pack1W Wl1) xa Wr1 b1
/-- Terms, the kernel program's way. -/
def layerK_t (xp : X100) (xt : X20) (Wl2 Wr2 : Mat) (b2 : Row) (spt dpt : E8) : X20 :=
  Cert.IdxSpec.sage1 20000 (pack1T (aggPT xp spt dpt)) (pack1W Wl2) xt Wr2 b2
/-- A read-out head, the kernel program's way. -/
def headK (x : X40) (W : FVec Ideal S128x64 .f32) (b : FVec Ideal S64 .f32) : FVec Ideal S40000x64 .f32 :=
  Cert.IdxSpec.lin 40000 x W b

/-- Papers, the reference's way: the two relations' messages added, then clamped. -/
def layerR_p (xa : X40) (xp : X100) (xt : X20) (Wl0 Wl3 Wr0 Wr3 : Mat) (b0 b3 : Row) (sap dap : E5) (stp dtp : E8) : X100 :=
  relu100000 (addf (sageR100000 (aggAP xa sap dap) xp Wl0 Wr0 b0) (sageR100000 (aggTP xt stp dtp) xp Wl3 Wr3 b3))
/-- Authors, the reference's way. -/
def layerR_a (xa : X40) (xp : X100) (Wl1 Wr1 : Mat) (b1 : Row) (spa dpa : E5) : X40 :=
  relu40000 (sageR40000 (aggPA xp spa dpa) xa Wl1 Wr1 b1)
/-- Terms, the reference's way. -/
def layerR_t (xp : X100) (xt : X20) (Wl2 Wr2 : Mat) (b2 : Row) (spt dpt : E8) : X20 :=
  relu20000 (sageR20000 (aggPT xp spt dpt) xt Wl2 Wr2 b2)

/-! ## The whole network over the twenty argument arrays -/

/-- The argument arrays, in the programs' order. -/
structure Args where
  xa : X40
  xp : X100
  xt : X20
  Wl : FVec Ideal S3x2x4x128x128 .f32
  bl : FVec Ideal S3x2x4x128 .f32
  Wr : FVec Ideal S3x2x4x128x128 .f32
  lmW : FVec Ideal S128x64 .f32
  lmb : FVec Ideal S64 .f32
  ltW : FVec Ideal S128x64 .f32
  ltb : FVec Ideal S64 .f32
  l2W : FVec Ideal S64x1 .f32
  l2b : FVec Ideal S1 .f32
  sap : E5
  dap : E5
  spa : E5
  dpa : E5
  spt : E8
  dpt : E8
  stp : E8
  dtp : E8

namespace K
/-- Stack 0, after its first layer: authors. -/
def ma1 (A : Args) : X40 := layerK_a A.xa A.xp (wmat 0 1 slices_S2x4x128x128_S1x1x128x128_0_1_0_0 (slab5 0 slices_S3x2x4x128x128_S1x2x4x128x128_0_0_0_0_0 A.Wl)) (wmat 0 1 slices_S2x4x128x128_S1x1x128x128_0_1_0_0 (slab5 0 slices_S3x2x4x128x128_S1x2x4x128x128_0_0_0_0_0 A.Wr)) (wvec 0 1 slices_S2x4x128_S1x1x128_0_1_0 (slab4 0 slices_S3x2x4x128_S1x2x4x128_0_0_0_0 A.bl)) A.spa A.dpa
/-- Stack 0, after its first layer: papers. -/
def mp1 (A : Args) : X100 := layerK_p A.xa A.xp A.xt (wmat 0 0 slices_S2x4x128x128_S1x1x128x128_0_0_0_0 (slab5 0 slices_S3x2x4x128x128_S1x2x4x128x128_0_0_0_0_0 A.Wl)) (wmat 0 3 slices_S2x4x128x128_S1x1x128x128_0_3_0_0 (slab5 0 slices_S3x2x4x128x128_S1x2x4x128x128_0_0_0_0_0 A.Wl)) (wmat 0 0 slices_S2x4x128x128_S1x1x128x128_0_0_0_0 (slab5 0 slices_S3x2x4x128x128_S1x2x4x128x128_0_0_0_0_0 A.Wr)) (wmat 0 3 slices_S2x4x128x128_S1x1x128x128_0_3_0_0 (slab5 0 slices_S3x2x4x128x128_S1x2x4x128x128_0_0_0_0_0 A.Wr)) (wvec 0 0 slices_S2x4x128_S1x1x128_0_0_0 (slab4 0 slices_S3x2x4x128_S1x2x4x128_0_0_0_0 A.bl)) (wvec 0 3 slices_S2x4x128_S1x1x128_0_3_0 (slab4 0 slices_S3x2x4x128_S1x2x4x128_0_0_0_0 A.bl)) A.sap A.dap A.stp A.dtp
/-- Stack 0, after its first layer: terms. -/
def mt1 (A : Args) : X20 := layerK_t A.xp A.xt (wmat 0 2 slices_S2x4x128x128_S1x1x128x128_0_2_0_0 (slab5 0 slices_S3x2x4x128x128_S1x2x4x128x128_0_0_0_0_0 A.Wl)) (wmat 0 2 slices_S2x4x128x128_S1x1x128x128_0_2_0_0 (slab5 0 slices_S3x2x4x128x128_S1x2x4x128x128_0_0_0_0_0 A.Wr)) (wvec 0 2 slices_S2x4x128_S1x1x128_0_2_0 (slab4 0 slices_S3x2x4x128_S1x2x4x128_0_0_0_0 A.bl)) A.spt A.dpt
/-- Stack 0, after its second layer: authors. -/
def ma2 (A : Args) : X40 := layerK_a (ma1 A) (mp1 A) (wmat 1 1 slices_S2x4x128x128_S1x1x128x128_1_1_0_0 (slab5 0 slices_S3x2x4x128x128_S1x2x4x128x128_0_0_0_0_0 A.Wl)) (wmat 1 1 slices_S2x4x128x128_S1x1x128x128_1_1_0_0 (slab5 0 slices_S3x2x4x128x128_S1x2x4x128x128_0_0_0_0_0 A.Wr)) (wvec 1 1 slices_S2x4x128_S1x1x128_1_1_0 (slab4 0 slices_S3x2x4x128_S1x2x4x128_0_0_0_0 A.bl)) A.spa A.dpa
/-- Stack 0, after its second layer: papers. -/
def mp2 (A : Args) : X100 := layerK_p (ma1 A) (mp1 A) (mt1 A) (wmat 1 0 slices_S2x4x128x128_S1x1x128x128_1_0_0_0 (slab5 0 slices_S3x2x4x128x128_S1x2x4x128x128_0_0_0_0_0 A.Wl)) (wmat 1 3 slices_S2x4x128x128_S1x1x128x128_1_3_0_0 (slab5 0 slices_S3x2x4x128x128_S1x2x4x128x128_0_0_0_0_0 A.Wl)) (wmat 1 0 slices_S2x4x128x128_S1x1x128x128_1_0_0_0 (slab5 0 slices_S3x2x4x128x128_S1x2x4x128x128_0_0_0_0_0 A.Wr)) (wmat 1 3 slices_S2x4x128x128_S1x1x128x128_1_3_0_0 (slab5 0 slices_S3x2x4x128x128_S1x2x4x128x128_0_0_0_0_0 A.Wr)) (wvec 1 0 slices_S2x4x128_S1x1x128_1_0_0 (slab4 0 slices_S3x2x4x128_S1x2x4x128_0_0_0_0 A.bl)) (wvec 1 3 slices_S2x4x128_S1x1x128_1_3_0 (slab4 0 slices_S3x2x4x128_S1x2x4x128_0_0_0_0 A.bl)) A.sap A.dap A.stp A.dtp
/-- Stack 0, after its second layer: terms. -/
def mt2 (A : Args) : X20 := layerK_t (mp1 A) (mt1 A) (wmat 1 2 slices_S2x4x128x128_S1x1x128x128_1_2_0_0 (slab5 0 slices_S3x2x4x128x128_S1x2x4x128x128_0_0_0_0_0 A.Wl)) (wmat 1 2 slices_S2x4x128x128_S1x1x128x128_1_2_0_0 (slab5 0 slices_S3x2x4x128x128_S1x2x4x128x128_0_0_0_0_0 A.Wr)) (wvec 1 2 slices_S2x4x128_S1x1x128_1_2_0 (slab4 0 slices_S3x2x4x128_S1x2x4x128_0_0_0_0 A.bl)) A.spt A.dpt
/-- Stack 1, after its first layer: authors. -/
def ga1 (A : Args) : X40 := layerK_a (ma2 A) (mp2 A) (wmat 0 1 slices_S2x4x128x128_S1x1x128x128_0_1_0_0 (slab5 1 slices_S3x2x4x128x128_S1x2x4x128x128_1_0_0_0_0 A.Wl)) (wmat 0 1 slices_S2x4x128x128_S1x1x128x128_0_1_0_0 (slab5 1 slices_S3x2x4x128x128_S1x2x4x128x128_1_0_0_0_0 A.Wr)) (wvec 0 1 slices_S2x4x128_S1x1x128_0_1_0 (slab4 1 slices_S3x2x4x128_S1x2x4x128_1_0_0_0 A.bl)) A.spa A.dpa
/-- Stack 1, after its first layer: papers. -/
def gp1 (A : Args) : X100 := layerK_p (ma2 A) (mp2 A) (mt2 A) (wmat 0 0 slices_S2x4x128x128_S1x1x128x128_0_0_0_0 (slab5 1 slices_S3x2x4x128x128_S1x2x4x128x128_1_0_0_0_0 A.Wl)) (wmat 0 3 slices_S2x4x128x128_S1x1x128x128_0_3_0_0 (slab5 1 slices_S3x2x4x128x128_S1x2x4x128x128_1_0_0_0_0 A.Wl)) (wmat 0 0 slices_S2x4x128x128_S1x1x128x128_0_0_0_0 (slab5 1 slices_S3x2x4x128x128_S1x2x4x128x128_1_0_0_0_0 A.Wr)) (wmat 0 3 slices_S2x4x128x128_S1x1x128x128_0_3_0_0 (slab5 1 slices_S3x2x4x128x128_S1x2x4x128x128_1_0_0_0_0 A.Wr)) (wvec 0 0 slices_S2x4x128_S1x1x128_0_0_0 (slab4 1 slices_S3x2x4x128_S1x2x4x128_1_0_0_0 A.bl)) (wvec 0 3 slices_S2x4x128_S1x1x128_0_3_0 (slab4 1 slices_S3x2x4x128_S1x2x4x128_1_0_0_0 A.bl)) A.sap A.dap A.stp A.dtp
/-- Stack 1, after its first layer: terms. -/
def gt1 (A : Args) : X20 := layerK_t (mp2 A) (mt2 A) (wmat 0 2 slices_S2x4x128x128_S1x1x128x128_0_2_0_0 (slab5 1 slices_S3x2x4x128x128_S1x2x4x128x128_1_0_0_0_0 A.Wl)) (wmat 0 2 slices_S2x4x128x128_S1x1x128x128_0_2_0_0 (slab5 1 slices_S3x2x4x128x128_S1x2x4x128x128_1_0_0_0_0 A.Wr)) (wvec 0 2 slices_S2x4x128_S1x1x128_0_2_0 (slab4 1 slices_S3x2x4x128_S1x2x4x128_1_0_0_0 A.bl)) A.spt A.dpt
/-- Stack 1, after its second layer: authors. -/
def ga2 (A : Args) : X40 := layerK_a (ga1 A) (gp1 A) (wmat 1 1 slices_S2x4x128x128_S1x1x128x128_1_1_0_0 (slab5 1 slices_S3x2x4x128x128_S1x2x4x128x128_1_0_0_0_0 A.Wl)) (wmat 1 1 slices_S2x4x128x128_S1x1x128x128_1_1_0_0 (slab5 1 slices_S3x2x4x128x128_S1x2x4x128x128_1_0_0_0_0 A.Wr)) (wvec 1 1 slices_S2x4x128_S1x1x128_1_1_0 (slab4 1 slices_S3x2x4x128_S1x2x4x128_1_0_0_0 A.bl)) A.spa A.dpa
/-- Stack 1, after its second layer: papers. -/
def gp2 (A : Args) : X100 := layerK_p (ga1 A) (gp1 A) (gt1 A) (wmat 1 0 slices_S2x4x128x128_S1x1x128x128_1_0_0_0 (slab5 1 slices_S3x2x4x128x128_S1x2x4x128x128_1_0_0_0_0 A.Wl)) (wmat 1 3 slices_S2x4x128x128_S1x1x128x128_1_3_0_0 (slab5 1 slices_S3x2x4x128x128_S1x2x4x128x128_1_0_0_0_0 A.Wl)) (wmat 1 0 slices_S2x4x128x128_S1x1x128x128_1_0_0_0 (slab5 1 slices_S3x2x4x128x128_S1x2x4x128x128_1_0_0_0_0 A.Wr)) (wmat 1 3 slices_S2x4x128x128_S1x1x128x128_1_3_0_0 (slab5 1 slices_S3x2x4x128x128_S1x2x4x128x128_1_0_0_0_0 A.Wr)) (wvec 1 0 slices_S2x4x128_S1x1x128_1_0_0 (slab4 1 slices_S3x2x4x128_S1x2x4x128_1_0_0_0 A.bl)) (wvec 1 3 slices_S2x4x128_S1x1x128_1_3_0 (slab4 1 slices_S3x2x4x128_S1x2x4x128_1_0_0_0 A.bl)) A.sap A.dap A.stp A.dtp
/-- Stack 1, after its second layer: terms. -/
def gt2 (A : Args) : X20 := layerK_t (gp1 A) (gt1 A) (wmat 1 2 slices_S2x4x128x128_S1x1x128x128_1_2_0_0 (slab5 1 slices_S3x2x4x128x128_S1x2x4x128x128_1_0_0_0_0 A.Wl)) (wmat 1 2 slices_S2x4x128x128_S1x1x128x128_1_2_0_0 (slab5 1 slices_S3x2x4x128x128_S1x2x4x128x128_1_0_0_0_0 A.Wr)) (wvec 1 2 slices_S2x4x128_S1x1x128_1_2_0 (slab4 1 slices_S3x2x4x128_S1x2x4x128_1_0_0_0 A.bl)) A.spt A.dpt
/-- Stack 2, after its first layer: authors. -/
def oa1 (A : Args) : X40 := layerK_a A.xa A.xp (wmat 0 1 slices_S2x4x128x128_S1x1x128x128_0_1_0_0 (slab5 2 slices_S3x2x4x128x128_S1x2x4x128x128_2_0_0_0_0 A.Wl)) (wmat 0 1 slices_S2x4x128x128_S1x1x128x128_0_1_0_0 (slab5 2 slices_S3x2x4x128x128_S1x2x4x128x128_2_0_0_0_0 A.Wr)) (wvec 0 1 slices_S2x4x128_S1x1x128_0_1_0 (slab4 2 slices_S3x2x4x128_S1x2x4x128_2_0_0_0 A.bl)) A.spa A.dpa
/-- Stack 2, after its first layer: papers. -/
def op1 (A : Args) : X100 := layerK_p A.xa A.xp A.xt (wmat 0 0 slices_S2x4x128x128_S1x1x128x128_0_0_0_0 (slab5 2 slices_S3x2x4x128x128_S1x2x4x128x128_2_0_0_0_0 A.Wl)) (wmat 0 3 slices_S2x4x128x128_S1x1x128x128_0_3_0_0 (slab5 2 slices_S3x2x4x128x128_S1x2x4x128x128_2_0_0_0_0 A.Wl)) (wmat 0 0 slices_S2x4x128x128_S1x1x128x128_0_0_0_0 (slab5 2 slices_S3x2x4x128x128_S1x2x4x128x128_2_0_0_0_0 A.Wr)) (wmat 0 3 slices_S2x4x128x128_S1x1x128x128_0_3_0_0 (slab5 2 slices_S3x2x4x128x128_S1x2x4x128x128_2_0_0_0_0 A.Wr)) (wvec 0 0 slices_S2x4x128_S1x1x128_0_0_0 (slab4 2 slices_S3x2x4x128_S1x2x4x128_2_0_0_0 A.bl)) (wvec 0 3 slices_S2x4x128_S1x1x128_0_3_0 (slab4 2 slices_S3x2x4x128_S1x2x4x128_2_0_0_0 A.bl)) A.sap A.dap A.stp A.dtp
/-- Stack 2, after its first layer: terms. -/
def ot1 (A : Args) : X20 := layerK_t A.xp A.xt (wmat 0 2 slices_S2x4x128x128_S1x1x128x128_0_2_0_0 (slab5 2 slices_S3x2x4x128x128_S1x2x4x128x128_2_0_0_0_0 A.Wl)) (wmat 0 2 slices_S2x4x128x128_S1x1x128x128_0_2_0_0 (slab5 2 slices_S3x2x4x128x128_S1x2x4x128x128_2_0_0_0_0 A.Wr)) (wvec 0 2 slices_S2x4x128_S1x1x128_0_2_0 (slab4 2 slices_S3x2x4x128_S1x2x4x128_2_0_0_0 A.bl)) A.spt A.dpt
/-- Stack 2, after its second layer: authors. -/
def oa2 (A : Args) : X40 := layerK_a (oa1 A) (op1 A) (wmat 1 1 slices_S2x4x128x128_S1x1x128x128_1_1_0_0 (slab5 2 slices_S3x2x4x128x128_S1x2x4x128x128_2_0_0_0_0 A.Wl)) (wmat 1 1 slices_S2x4x128x128_S1x1x128x128_1_1_0_0 (slab5 2 slices_S3x2x4x128x128_S1x2x4x128x128_2_0_0_0_0 A.Wr)) (wvec 1 1 slices_S2x4x128_S1x1x128_1_1_0 (slab4 2 slices_S3x2x4x128_S1x2x4x128_2_0_0_0 A.bl)) A.spa A.dpa
/-- Stack 2, after its second layer: papers. -/
def op2 (A : Args) : X100 := layerK_p (oa1 A) (op1 A) (ot1 A) (wmat 1 0 slices_S2x4x128x128_S1x1x128x128_1_0_0_0 (slab5 2 slices_S3x2x4x128x128_S1x2x4x128x128_2_0_0_0_0 A.Wl)) (wmat 1 3 slices_S2x4x128x128_S1x1x128x128_1_3_0_0 (slab5 2 slices_S3x2x4x128x128_S1x2x4x128x128_2_0_0_0_0 A.Wl)) (wmat 1 0 slices_S2x4x128x128_S1x1x128x128_1_0_0_0 (slab5 2 slices_S3x2x4x128x128_S1x2x4x128x128_2_0_0_0_0 A.Wr)) (wmat 1 3 slices_S2x4x128x128_S1x1x128x128_1_3_0_0 (slab5 2 slices_S3x2x4x128x128_S1x2x4x128x128_2_0_0_0_0 A.Wr)) (wvec 1 0 slices_S2x4x128_S1x1x128_1_0_0 (slab4 2 slices_S3x2x4x128_S1x2x4x128_2_0_0_0 A.bl)) (wvec 1 3 slices_S2x4x128_S1x1x128_1_3_0 (slab4 2 slices_S3x2x4x128_S1x2x4x128_2_0_0_0 A.bl)) A.sap A.dap A.stp A.dtp
/-- Stack 2, after its second layer: terms. -/
def ot2 (A : Args) : X20 := layerK_t (op1 A) (ot1 A) (wmat 1 2 slices_S2x4x128x128_S1x1x128x128_1_2_0_0 (slab5 2 slices_S3x2x4x128x128_S1x2x4x128x128_2_0_0_0_0 A.Wl)) (wmat 1 2 slices_S2x4x128x128_S1x1x128x128_1_2_0_0 (slab5 2 slices_S3x2x4x128x128_S1x2x4x128x128_2_0_0_0_0 A.Wr)) (wvec 1 2 slices_S2x4x128_S1x1x128_1_2_0 (slab4 2 slices_S3x2x4x128_S1x2x4x128_2_0_0_0 A.bl)) A.spt A.dpt
/-- The first read-out head, on the first stack's authors. -/
def logits (A : Args) : FVec Ideal S40000x64 .f32 := headK (ma2 A) A.lmW A.lmb
/-- The second read-out head, on the second stack's authors. -/
def ll1 (A : Args) : FVec Ideal S40000x64 .f32 := headK (ga2 A) A.ltW A.ltb
/-- The first result: the first head's rows divided by the per-row scalar. -/
def out0 (A : Args) : FVec Ideal S40000x64 .f32 := quot (logits A) (temp (ll1 A) A.l2W A.l2b)
end K

namespace R
/-- Stack 0, after its first layer: authors. -/
def ma1 (A : Args) : X40 := layerR_a A.xa A.xp (wmat 0 1 slices_S2x4x128x128_S1x1x128x128_0_1_0_0 (slab5 0 slices_S3x2x4x128x128_S1x2x4x128x128_0_0_0_0_0 A.Wl)) (wmat 0 1 slices_S2x4x128x128_S1x1x128x128_0_1_0_0 (slab5 0 slices_S3x2x4x128x128_S1x2x4x128x128_0_0_0_0_0 A.Wr)) (wvec 0 1 slices_S2x4x128_S1x1x128_0_1_0 (slab4 0 slices_S3x2x4x128_S1x2x4x128_0_0_0_0 A.bl)) A.spa A.dpa
/-- Stack 0, after its first layer: papers. -/
def mp1 (A : Args) : X100 := layerR_p A.xa A.xp A.xt (wmat 0 0 slices_S2x4x128x128_S1x1x128x128_0_0_0_0 (slab5 0 slices_S3x2x4x128x128_S1x2x4x128x128_0_0_0_0_0 A.Wl)) (wmat 0 3 slices_S2x4x128x128_S1x1x128x128_0_3_0_0 (slab5 0 slices_S3x2x4x128x128_S1x2x4x128x128_0_0_0_0_0 A.Wl)) (wmat 0 0 slices_S2x4x128x128_S1x1x128x128_0_0_0_0 (slab5 0 slices_S3x2x4x128x128_S1x2x4x128x128_0_0_0_0_0 A.Wr)) (wmat 0 3 slices_S2x4x128x128_S1x1x128x128_0_3_0_0 (slab5 0 slices_S3x2x4x128x128_S1x2x4x128x128_0_0_0_0_0 A.Wr)) (wvec 0 0 slices_S2x4x128_S1x1x128_0_0_0 (slab4 0 slices_S3x2x4x128_S1x2x4x128_0_0_0_0 A.bl)) (wvec 0 3 slices_S2x4x128_S1x1x128_0_3_0 (slab4 0 slices_S3x2x4x128_S1x2x4x128_0_0_0_0 A.bl)) A.sap A.dap A.stp A.dtp
/-- Stack 0, after its first layer: terms. -/
def mt1 (A : Args) : X20 := layerR_t A.xp A.xt (wmat 0 2 slices_S2x4x128x128_S1x1x128x128_0_2_0_0 (slab5 0 slices_S3x2x4x128x128_S1x2x4x128x128_0_0_0_0_0 A.Wl)) (wmat 0 2 slices_S2x4x128x128_S1x1x128x128_0_2_0_0 (slab5 0 slices_S3x2x4x128x128_S1x2x4x128x128_0_0_0_0_0 A.Wr)) (wvec 0 2 slices_S2x4x128_S1x1x128_0_2_0 (slab4 0 slices_S3x2x4x128_S1x2x4x128_0_0_0_0 A.bl)) A.spt A.dpt
/-- Stack 0, after its second layer: authors. -/
def ma2 (A : Args) : X40 := layerR_a (ma1 A) (mp1 A) (wmat 1 1 slices_S2x4x128x128_S1x1x128x128_1_1_0_0 (slab5 0 slices_S3x2x4x128x128_S1x2x4x128x128_0_0_0_0_0 A.Wl)) (wmat 1 1 slices_S2x4x128x128_S1x1x128x128_1_1_0_0 (slab5 0 slices_S3x2x4x128x128_S1x2x4x128x128_0_0_0_0_0 A.Wr)) (wvec 1 1 slices_S2x4x128_S1x1x128_1_1_0 (slab4 0 slices_S3x2x4x128_S1x2x4x128_0_0_0_0 A.bl)) A.spa A.dpa
/-- Stack 0, after its second layer: papers. -/
def mp2 (A : Args) : X100 := layerR_p (ma1 A) (mp1 A) (mt1 A) (wmat 1 0 slices_S2x4x128x128_S1x1x128x128_1_0_0_0 (slab5 0 slices_S3x2x4x128x128_S1x2x4x128x128_0_0_0_0_0 A.Wl)) (wmat 1 3 slices_S2x4x128x128_S1x1x128x128_1_3_0_0 (slab5 0 slices_S3x2x4x128x128_S1x2x4x128x128_0_0_0_0_0 A.Wl)) (wmat 1 0 slices_S2x4x128x128_S1x1x128x128_1_0_0_0 (slab5 0 slices_S3x2x4x128x128_S1x2x4x128x128_0_0_0_0_0 A.Wr)) (wmat 1 3 slices_S2x4x128x128_S1x1x128x128_1_3_0_0 (slab5 0 slices_S3x2x4x128x128_S1x2x4x128x128_0_0_0_0_0 A.Wr)) (wvec 1 0 slices_S2x4x128_S1x1x128_1_0_0 (slab4 0 slices_S3x2x4x128_S1x2x4x128_0_0_0_0 A.bl)) (wvec 1 3 slices_S2x4x128_S1x1x128_1_3_0 (slab4 0 slices_S3x2x4x128_S1x2x4x128_0_0_0_0 A.bl)) A.sap A.dap A.stp A.dtp
/-- Stack 0, after its second layer: terms. -/
def mt2 (A : Args) : X20 := layerR_t (mp1 A) (mt1 A) (wmat 1 2 slices_S2x4x128x128_S1x1x128x128_1_2_0_0 (slab5 0 slices_S3x2x4x128x128_S1x2x4x128x128_0_0_0_0_0 A.Wl)) (wmat 1 2 slices_S2x4x128x128_S1x1x128x128_1_2_0_0 (slab5 0 slices_S3x2x4x128x128_S1x2x4x128x128_0_0_0_0_0 A.Wr)) (wvec 1 2 slices_S2x4x128_S1x1x128_1_2_0 (slab4 0 slices_S3x2x4x128_S1x2x4x128_0_0_0_0 A.bl)) A.spt A.dpt
/-- Stack 1, after its first layer: authors. -/
def ga1 (A : Args) : X40 := layerR_a (ma2 A) (mp2 A) (wmat 0 1 slices_S2x4x128x128_S1x1x128x128_0_1_0_0 (slab5 1 slices_S3x2x4x128x128_S1x2x4x128x128_1_0_0_0_0 A.Wl)) (wmat 0 1 slices_S2x4x128x128_S1x1x128x128_0_1_0_0 (slab5 1 slices_S3x2x4x128x128_S1x2x4x128x128_1_0_0_0_0 A.Wr)) (wvec 0 1 slices_S2x4x128_S1x1x128_0_1_0 (slab4 1 slices_S3x2x4x128_S1x2x4x128_1_0_0_0 A.bl)) A.spa A.dpa
/-- Stack 1, after its first layer: papers. -/
def gp1 (A : Args) : X100 := layerR_p (ma2 A) (mp2 A) (mt2 A) (wmat 0 0 slices_S2x4x128x128_S1x1x128x128_0_0_0_0 (slab5 1 slices_S3x2x4x128x128_S1x2x4x128x128_1_0_0_0_0 A.Wl)) (wmat 0 3 slices_S2x4x128x128_S1x1x128x128_0_3_0_0 (slab5 1 slices_S3x2x4x128x128_S1x2x4x128x128_1_0_0_0_0 A.Wl)) (wmat 0 0 slices_S2x4x128x128_S1x1x128x128_0_0_0_0 (slab5 1 slices_S3x2x4x128x128_S1x2x4x128x128_1_0_0_0_0 A.Wr)) (wmat 0 3 slices_S2x4x128x128_S1x1x128x128_0_3_0_0 (slab5 1 slices_S3x2x4x128x128_S1x2x4x128x128_1_0_0_0_0 A.Wr)) (wvec 0 0 slices_S2x4x128_S1x1x128_0_0_0 (slab4 1 slices_S3x2x4x128_S1x2x4x128_1_0_0_0 A.bl)) (wvec 0 3 slices_S2x4x128_S1x1x128_0_3_0 (slab4 1 slices_S3x2x4x128_S1x2x4x128_1_0_0_0 A.bl)) A.sap A.dap A.stp A.dtp
/-- Stack 1, after its first layer: terms. -/
def gt1 (A : Args) : X20 := layerR_t (mp2 A) (mt2 A) (wmat 0 2 slices_S2x4x128x128_S1x1x128x128_0_2_0_0 (slab5 1 slices_S3x2x4x128x128_S1x2x4x128x128_1_0_0_0_0 A.Wl)) (wmat 0 2 slices_S2x4x128x128_S1x1x128x128_0_2_0_0 (slab5 1 slices_S3x2x4x128x128_S1x2x4x128x128_1_0_0_0_0 A.Wr)) (wvec 0 2 slices_S2x4x128_S1x1x128_0_2_0 (slab4 1 slices_S3x2x4x128_S1x2x4x128_1_0_0_0 A.bl)) A.spt A.dpt
/-- Stack 1, after its second layer: authors. -/
def ga2 (A : Args) : X40 := layerR_a (ga1 A) (gp1 A) (wmat 1 1 slices_S2x4x128x128_S1x1x128x128_1_1_0_0 (slab5 1 slices_S3x2x4x128x128_S1x2x4x128x128_1_0_0_0_0 A.Wl)) (wmat 1 1 slices_S2x4x128x128_S1x1x128x128_1_1_0_0 (slab5 1 slices_S3x2x4x128x128_S1x2x4x128x128_1_0_0_0_0 A.Wr)) (wvec 1 1 slices_S2x4x128_S1x1x128_1_1_0 (slab4 1 slices_S3x2x4x128_S1x2x4x128_1_0_0_0 A.bl)) A.spa A.dpa
/-- Stack 1, after its second layer: papers. -/
def gp2 (A : Args) : X100 := layerR_p (ga1 A) (gp1 A) (gt1 A) (wmat 1 0 slices_S2x4x128x128_S1x1x128x128_1_0_0_0 (slab5 1 slices_S3x2x4x128x128_S1x2x4x128x128_1_0_0_0_0 A.Wl)) (wmat 1 3 slices_S2x4x128x128_S1x1x128x128_1_3_0_0 (slab5 1 slices_S3x2x4x128x128_S1x2x4x128x128_1_0_0_0_0 A.Wl)) (wmat 1 0 slices_S2x4x128x128_S1x1x128x128_1_0_0_0 (slab5 1 slices_S3x2x4x128x128_S1x2x4x128x128_1_0_0_0_0 A.Wr)) (wmat 1 3 slices_S2x4x128x128_S1x1x128x128_1_3_0_0 (slab5 1 slices_S3x2x4x128x128_S1x2x4x128x128_1_0_0_0_0 A.Wr)) (wvec 1 0 slices_S2x4x128_S1x1x128_1_0_0 (slab4 1 slices_S3x2x4x128_S1x2x4x128_1_0_0_0 A.bl)) (wvec 1 3 slices_S2x4x128_S1x1x128_1_3_0 (slab4 1 slices_S3x2x4x128_S1x2x4x128_1_0_0_0 A.bl)) A.sap A.dap A.stp A.dtp
/-- Stack 1, after its second layer: terms. -/
def gt2 (A : Args) : X20 := layerR_t (gp1 A) (gt1 A) (wmat 1 2 slices_S2x4x128x128_S1x1x128x128_1_2_0_0 (slab5 1 slices_S3x2x4x128x128_S1x2x4x128x128_1_0_0_0_0 A.Wl)) (wmat 1 2 slices_S2x4x128x128_S1x1x128x128_1_2_0_0 (slab5 1 slices_S3x2x4x128x128_S1x2x4x128x128_1_0_0_0_0 A.Wr)) (wvec 1 2 slices_S2x4x128_S1x1x128_1_2_0 (slab4 1 slices_S3x2x4x128_S1x2x4x128_1_0_0_0 A.bl)) A.spt A.dpt
/-- Stack 2, after its first layer: authors. -/
def oa1 (A : Args) : X40 := layerR_a A.xa A.xp (wmat 0 1 slices_S2x4x128x128_S1x1x128x128_0_1_0_0 (slab5 2 slices_S3x2x4x128x128_S1x2x4x128x128_2_0_0_0_0 A.Wl)) (wmat 0 1 slices_S2x4x128x128_S1x1x128x128_0_1_0_0 (slab5 2 slices_S3x2x4x128x128_S1x2x4x128x128_2_0_0_0_0 A.Wr)) (wvec 0 1 slices_S2x4x128_S1x1x128_0_1_0 (slab4 2 slices_S3x2x4x128_S1x2x4x128_2_0_0_0 A.bl)) A.spa A.dpa
/-- Stack 2, after its first layer: papers. -/
def op1 (A : Args) : X100 := layerR_p A.xa A.xp A.xt (wmat 0 0 slices_S2x4x128x128_S1x1x128x128_0_0_0_0 (slab5 2 slices_S3x2x4x128x128_S1x2x4x128x128_2_0_0_0_0 A.Wl)) (wmat 0 3 slices_S2x4x128x128_S1x1x128x128_0_3_0_0 (slab5 2 slices_S3x2x4x128x128_S1x2x4x128x128_2_0_0_0_0 A.Wl)) (wmat 0 0 slices_S2x4x128x128_S1x1x128x128_0_0_0_0 (slab5 2 slices_S3x2x4x128x128_S1x2x4x128x128_2_0_0_0_0 A.Wr)) (wmat 0 3 slices_S2x4x128x128_S1x1x128x128_0_3_0_0 (slab5 2 slices_S3x2x4x128x128_S1x2x4x128x128_2_0_0_0_0 A.Wr)) (wvec 0 0 slices_S2x4x128_S1x1x128_0_0_0 (slab4 2 slices_S3x2x4x128_S1x2x4x128_2_0_0_0 A.bl)) (wvec 0 3 slices_S2x4x128_S1x1x128_0_3_0 (slab4 2 slices_S3x2x4x128_S1x2x4x128_2_0_0_0 A.bl)) A.sap A.dap A.stp A.dtp
/-- Stack 2, after its first layer: terms. -/
def ot1 (A : Args) : X20 := layerR_t A.xp A.xt (wmat 0 2 slices_S2x4x128x128_S1x1x128x128_0_2_0_0 (slab5 2 slices_S3x2x4x128x128_S1x2x4x128x128_2_0_0_0_0 A.Wl)) (wmat 0 2 slices_S2x4x128x128_S1x1x128x128_0_2_0_0 (slab5 2 slices_S3x2x4x128x128_S1x2x4x128x128_2_0_0_0_0 A.Wr)) (wvec 0 2 slices_S2x4x128_S1x1x128_0_2_0 (slab4 2 slices_S3x2x4x128_S1x2x4x128_2_0_0_0 A.bl)) A.spt A.dpt
/-- Stack 2, after its second layer: authors. -/
def oa2 (A : Args) : X40 := layerR_a (oa1 A) (op1 A) (wmat 1 1 slices_S2x4x128x128_S1x1x128x128_1_1_0_0 (slab5 2 slices_S3x2x4x128x128_S1x2x4x128x128_2_0_0_0_0 A.Wl)) (wmat 1 1 slices_S2x4x128x128_S1x1x128x128_1_1_0_0 (slab5 2 slices_S3x2x4x128x128_S1x2x4x128x128_2_0_0_0_0 A.Wr)) (wvec 1 1 slices_S2x4x128_S1x1x128_1_1_0 (slab4 2 slices_S3x2x4x128_S1x2x4x128_2_0_0_0 A.bl)) A.spa A.dpa
/-- Stack 2, after its second layer: papers. -/
def op2 (A : Args) : X100 := layerR_p (oa1 A) (op1 A) (ot1 A) (wmat 1 0 slices_S2x4x128x128_S1x1x128x128_1_0_0_0 (slab5 2 slices_S3x2x4x128x128_S1x2x4x128x128_2_0_0_0_0 A.Wl)) (wmat 1 3 slices_S2x4x128x128_S1x1x128x128_1_3_0_0 (slab5 2 slices_S3x2x4x128x128_S1x2x4x128x128_2_0_0_0_0 A.Wl)) (wmat 1 0 slices_S2x4x128x128_S1x1x128x128_1_0_0_0 (slab5 2 slices_S3x2x4x128x128_S1x2x4x128x128_2_0_0_0_0 A.Wr)) (wmat 1 3 slices_S2x4x128x128_S1x1x128x128_1_3_0_0 (slab5 2 slices_S3x2x4x128x128_S1x2x4x128x128_2_0_0_0_0 A.Wr)) (wvec 1 0 slices_S2x4x128_S1x1x128_1_0_0 (slab4 2 slices_S3x2x4x128_S1x2x4x128_2_0_0_0 A.bl)) (wvec 1 3 slices_S2x4x128_S1x1x128_1_3_0 (slab4 2 slices_S3x2x4x128_S1x2x4x128_2_0_0_0 A.bl)) A.sap A.dap A.stp A.dtp
/-- Stack 2, after its second layer: terms. -/
def ot2 (A : Args) : X20 := layerR_t (op1 A) (ot1 A) (wmat 1 2 slices_S2x4x128x128_S1x1x128x128_1_2_0_0 (slab5 2 slices_S3x2x4x128x128_S1x2x4x128x128_2_0_0_0_0 A.Wl)) (wmat 1 2 slices_S2x4x128x128_S1x1x128x128_1_2_0_0 (slab5 2 slices_S3x2x4x128x128_S1x2x4x128x128_2_0_0_0_0 A.Wr)) (wvec 1 2 slices_S2x4x128_S1x1x128_1_2_0 (slab4 2 slices_S3x2x4x128_S1x2x4x128_2_0_0_0 A.bl)) A.spt A.dpt
/-- The first read-out head, on the first stack's authors. -/
def logits (A : Args) : FVec Ideal S40000x64 .f32 := headR (ma2 A) A.lmW A.lmb
/-- The second read-out head, on the second stack's authors. -/
def ll1 (A : Args) : FVec Ideal S40000x64 .f32 := headR (ga2 A) A.ltW A.ltb
/-- The first result: the first head's rows divided by the per-row scalar. -/
def out0 (A : Args) : FVec Ideal S40000x64 .f32 := quot (logits A) (temp (ll1 A) A.l2W A.l2b)
end R

end Cert.Spec

end
-- ==== Proof.KArgs.lean ====
/-
  The argument arrays of the idealized kernel program, read off a launch memory, bundled in the programs' order; and
  the same for the idealized reference.
-/
import proofs.«165177_j32074815766916_1_alg».proof.Proof.Spec

noncomputable section

namespace Cert.Spec

open Idealize.ShloMosaic

/-- The kernel program's twenty argument arrays on device `c` of the launch memory `m`. -/
def argsK (m : (ℓ : Loc Cert.KernelIdeal.nD Cert.KernelIdeal.τ Cert.KernelIdeal.sig) → Buf (Elt Ideal) ℓ) (c : Dev Cert.KernelIdeal.nD) : Args where
  xa := m ((c.tc : Thread Cert.KernelIdeal.nD Cert.KernelIdeal.τ).loc Cert.KernelIdeal.main_arg0)
  xp := m ((c.tc : Thread Cert.KernelIdeal.nD Cert.KernelIdeal.τ).loc Cert.KernelIdeal.main_arg1)
  xt := m ((c.tc : Thread Cert.KernelIdeal.nD Cert.KernelIdeal.τ).loc Cert.KernelIdeal.main_arg2)
  Wl := m ((c.tc : Thread Cert.KernelIdeal.nD Cert.KernelIdeal.τ).loc Cert.KernelIdeal.main_arg3)
  bl := m ((c.tc : Thread Cert.KernelIdeal.nD Cert.KernelIdeal.τ).loc Cert.KernelIdeal.main_arg4)
  Wr := m ((c.tc : Thread Cert.KernelIdeal.nD Cert.KernelIdeal.τ).loc Cert.KernelIdeal.main_arg5)
  lmW := m ((c.tc : Thread Cert.KernelIdeal.nD Cert.KernelIdeal.τ).loc Cert.KernelIdeal.main_arg6)
  lmb := m ((c.tc : Thread Cert.KernelIdeal.nD Cert.KernelIdeal.τ).loc Cert.KernelIdeal.main_arg7)
  ltW := m ((c.tc : Thread Cert.KernelIdeal.nD Cert.KernelIdeal.τ).loc Cert.KernelIdeal.main_arg8)
  ltb := m ((c.tc : Thread Cert.KernelIdeal.nD Cert.KernelIdeal.τ).loc Cert.KernelIdeal.main_arg9)
  l2W := m ((c.tc : Thread Cert.KernelIdeal.nD Cert.KernelIdeal.τ).loc Cert.KernelIdeal.main_arg10)
  l2b := m ((c.tc : Thread Cert.KernelIdeal.nD Cert.KernelIdeal.τ).loc Cert.KernelIdeal.main_arg11)
  sap := m ((c.tc : Thread Cert.KernelIdeal.nD Cert.KernelIdeal.τ).loc Cert.KernelIdeal.main_arg12)
  dap := m ((c.tc : Thread Cert.KernelIdeal.nD Cert.KernelIdeal.τ).loc Cert.KernelIdeal.main_arg13)
  spa := m ((c.tc : Thread Cert.KernelIdeal.nD Cert.KernelIdeal.τ).loc Cert.KernelIdeal.main_arg14)
  dpa := m ((c.tc : Thread Cert.KernelIdeal.nD Cert.KernelIdeal.τ).loc Cert.KernelIdeal.main_arg15)
  spt := m ((c.tc : Thread Cert.KernelIdeal.nD Cert.KernelIdeal.τ).loc Cert.KernelIdeal.main_arg16)
  dpt := m ((c.tc : Thread Cert.KernelIdeal.nD Cert.KernelIdeal.τ).loc Cert.KernelIdeal.main_arg17)
  stp := m ((c.tc : Thread Cert.KernelIdeal.nD Cert.KernelIdeal.τ).loc Cert.KernelIdeal.main_arg18)
  dtp := m ((c.tc : Thread Cert.KernelIdeal.nD Cert.KernelIdeal.τ).loc Cert.KernelIdeal.main_arg19)

/-- The reference's twenty argument arrays on device `c` of the launch memory `m`. -/
def argsR (m : (ℓ : Loc Cert.ReferenceIdeal.nD Cert.ReferenceIdeal.τ Cert.ReferenceIdeal.sig) → Buf (Elt Ideal) ℓ) (c : Dev Cert.ReferenceIdeal.nD) : Args where
  xa := m ((c.tc : Thread Cert.ReferenceIdeal.nD Cert.ReferenceIdeal.τ).loc Cert.ReferenceIdeal.main_arg0)
  xp := m ((c.tc : Thread Cert.ReferenceIdeal.nD Cert.ReferenceIdeal.τ).loc Cert.ReferenceIdeal.main_arg1)
  xt := m ((c.tc : Thread Cert.ReferenceIdeal.nD Cert.ReferenceIdeal.τ).loc Cert.ReferenceIdeal.main_arg2)
  Wl := m ((c.tc : Thread Cert.ReferenceIdeal.nD Cert.ReferenceIdeal.τ).loc Cert.ReferenceIdeal.main_arg3)
  bl := m ((c.tc : Thread Cert.ReferenceIdeal.nD Cert.ReferenceIdeal.τ).loc Cert.ReferenceIdeal.main_arg4)
  Wr := m ((c.tc : Thread Cert.ReferenceIdeal.nD Cert.ReferenceIdeal.τ).loc Cert.ReferenceIdeal.main_arg5)
  lmW := m ((c.tc : Thread Cert.ReferenceIdeal.nD Cert.ReferenceIdeal.τ).loc Cert.ReferenceIdeal.main_arg6)
  lmb := m ((c.tc : Thread Cert.ReferenceIdeal.nD Cert.ReferenceIdeal.τ).loc Cert.ReferenceIdeal.main_arg7)
  ltW := m ((c.tc : Thread Cert.ReferenceIdeal.nD Cert.ReferenceIdeal.τ).loc Cert.ReferenceIdeal.main_arg8)
  ltb := m ((c.tc : Thread Cert.ReferenceIdeal.nD Cert.ReferenceIdeal.τ).loc Cert.ReferenceIdeal.main_arg9)
  l2W := m ((c.tc : Thread Cert.ReferenceIdeal.nD Cert.ReferenceIdeal.τ).loc Cert.ReferenceIdeal.main_arg10)
  l2b := m ((c.tc : Thread Cert.ReferenceIdeal.nD Cert.ReferenceIdeal.τ).loc Cert.ReferenceIdeal.main_arg11)
  sap := m ((c.tc : Thread Cert.ReferenceIdeal.nD Cert.ReferenceIdeal.τ).loc Cert.ReferenceIdeal.main_arg12)
  dap := m ((c.tc : Thread Cert.ReferenceIdeal.nD Cert.ReferenceIdeal.τ).loc Cert.ReferenceIdeal.main_arg13)
  spa := m ((c.tc : Thread Cert.ReferenceIdeal.nD Cert.ReferenceIdeal.τ).loc Cert.ReferenceIdeal.main_arg14)
  dpa := m ((c.tc : Thread Cert.ReferenceIdeal.nD Cert.ReferenceIdeal.τ).loc Cert.ReferenceIdeal.main_arg15)
  spt := m ((c.tc : Thread Cert.ReferenceIdeal.nD Cert.ReferenceIdeal.τ).loc Cert.ReferenceIdeal.main_arg16)
  dpt := m ((c.tc : Thread Cert.ReferenceIdeal.nD Cert.ReferenceIdeal.τ).loc Cert.ReferenceIdeal.main_arg17)
  stp := m ((c.tc : Thread Cert.ReferenceIdeal.nD Cert.ReferenceIdeal.τ).loc Cert.ReferenceIdeal.main_arg18)
  dtp := m ((c.tc : Thread Cert.ReferenceIdeal.nD Cert.ReferenceIdeal.τ).loc Cert.ReferenceIdeal.main_arg19)

end Cert.Spec

end
-- ==== Proof.KPack.lean ====
/-
  Two arrays stacked along a new leading axis, read off their two halves: if the first half is one array under a leading
  axis of extent one and the second half another, the whole is the stack of the two.
-/
import proofs.«165177_j32074815766916_1_alg».proof.Proof.Spec

noncomputable section

namespace Cert.Spec

open Idealize.ShloMosaic Cert.KernelIdeal Cert.KernelIdeal.Facts₀

variable {F : FTy → Type} [FloatOps F]

/-- Two paper-sized halves that are `a` and `b` under a unit axis make the stack of `a` and `b`. -/
theorem pack2P_of {X Y : FVec F S1x100000x128 .f32} {a b : FVec F S100000x128 .f32}
    (hX : X = broadcastInDim S1x100000x128 ![1, 2] bcast_S100000x128_S1x100000x128_1_2 a)
    (hY : Y = broadcastInDim S1x100000x128 ![1, 2] bcast_S100000x128_S1x100000x128_1_2 b)
    (h : Shape.Concatenates [S1x100000x128, S1x100000x128] S2x100000x128 0) :
    concatenate S2x100000x128 0 [⟨S1x100000x128, X⟩, ⟨S1x100000x128, Y⟩] h = pack2P a b := by
  subst hX hY
  rfl

/-- Two weight-sized halves that are `a` and `b` under a unit axis make the stack of `a` and `b`. -/
theorem pack2W_of {X Y : FVec F S1x128x128 .f32} {a b : FVec F S128x128 .f32}
    (hX : X = broadcastInDim S1x128x128 ![1, 2] bcast_S128x128_S1x128x128_1_2 a)
    (hY : Y = broadcastInDim S1x128x128 ![1, 2] bcast_S128x128_S1x128x128_1_2 b)
    (h : Shape.Concatenates [S1x128x128, S1x128x128] S2x128x128 0) :
    concatenate S2x128x128 0 [⟨S1x128x128, X⟩, ⟨S1x128x128, Y⟩] h = pack2W a b := by
  subst hX hY
  rfl

end Cert.Spec

end
-- ==== Proof.RegL6.lean ====
/-
  What a read-out region leaves in its output array: the read-out head of all 40000 rows, as one function of the arrays it reads.

  The region walks 20 blocks of 2000 rows. At block t its body sees rows 2000·t … 2000·t + 1999 of the features, the whole
  128 by 64 weight matrix and the whole bias, and stores, at entry (p, q) of its block, Σ_k x[p,k]·w[k,q] + b[q] (the matrix
  product into zeros, the format changes the identity on extended reals). That is entry (2000·t + p, q) of the whole-array
  function `Cert.IdxSpec.lin`; every row r lies in block r / 2000, so the blocks written back cover the array, which
  therefore ends holding that function.
-/
import proofs.«165177_j32074815766916_1_alg».proof.Proof.FIL6
import proofs.«165177_j32074815766916_1_alg».proof.Proof.IdxSpec
import Idealize.ShloMosaic.PureOps.Ideal.Laws
import Idealize.ShloMosaic.Lib.ValueIdx
import Idealize.ShloMosaic.Lib.Pipeline.Value

noncomputable section

namespace Cert.KernelIdeal.RegVal6

open Idealize.ShloMosaic Idealize.ShloMosaic.ValueIdx Idealize.ShloMosaic.TcCoe Cert.KernelIdeal Cert.KernelIdeal.Gen Cert.KernelIdeal.GenP
open Idealize.ShloMosaic.Pipeline (Dat)

/-! ## The matrix product's operand indices, axis by axis -/

/-- The left operand's row is the output's row. -/
theorem lhs6_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

/-- The left operand's column is the contraction's coordinate. -/
theorem lhs6_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q

/-- The right operand's row is the contraction's coordinate. -/
theorem rhs6_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q

/-- The right operand's column is the output's column. -/
theorem rhs6_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-! ## The product into zeros, and the bias along the rows, each at an entry -/

/-- The product of a block of rows with the weights, accumulated into zeros, at entry (p, q): the sum over the 128 features. -/
theorem prod6_apply (x : FVec Ideal S2000x128 .bf16) (w : FVec Ideal S128x64 .bf16) (p : Fin 2000) (q : Fin 64) :
    matmul dot_S2000x128_S128x64_S2000x64_1_0_0_1_n_n none x w (constant (F := Ideal) S2000x64 .f32 0x00000000#32) (ix2 p q)
      = ∑ k : Fin 128, x (ix2 p k) * w (ix2 k q) := by
  simp only [matmul]
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k := funext fun a => Fin.ext (by
    match a with
    | ⟨0, _⟩ => exact lhs6_0 _ _
    | ⟨1, _⟩ => exact (lhs6_1 _ _).trans hk)
  have er : dot_S2000x128_S128x64_S2000x64_1_0_0_1_n_n.rhsIdx (ix2 p q)
      ((contrEquiv1 dot_S2000x128_S128x64_S2000x64_1_0_0_1_n_n 128 rfl rfl).symm k) = ix2 k q := funext fun a => Fin.ext (by
    match a with
    | ⟨0, _⟩ => exact (rhs6_0 _ _).trans hk
    | ⟨1, _⟩ => exact rhs6_1 _ _)
  rw [el, er]

/-- The bias viewed as one row and laid along every row, at entry (p, q): the bias at q. -/
theorem bias6_apply {α : Type} (b : S64.Idx → α) (p : Fin 2000) (q : Fin 64) :
    broadcastTo S2000x64 (shapeCast S1x64 b shapeCasts_S64_S1x64) broadcasts_S1x64_S2000x64 (ix2 p q) = b (ix1 q) := by
  refine (broadcastTo_apply (shapeCast S1x64 b shapeCasts_S64_S1x64) broadcasts_S1x64_S2000x64 (ix2 p q) (ix2 (0 : Fin 1) q) ?_).trans ?_
  · intro a
    match a with
    | ⟨0, _⟩ => rfl
    | ⟨1, _⟩ => rfl
  · refine shapeCast_apply b shapeCasts_S64_S1x64 (ix2 (0 : Fin 1) q) (ix1 q) ?_
    rw [Shape.rowMajor_val_two, Shape.rowMajor_val_one]
    show q.val = 0 * 64 + q.val
    omega

/-! ## The payload at an entry -/

/-- Entry (p, q) of what the body stores: the row's features against the weights' column, plus the bias. -/
theorem pay6_apply (x : Vec Ideal S2000x128 .f32) (w : Vec Ideal S128x64 .f32) (b : Vec Ideal S64 .f32) (p : Fin 2000) (q : Fin 64) :
    k6_pay1 (F := Ideal) x w b (ix2 p q) = (∑ k : Fin 128, x (ix2 p k) * w (ix2 k q)) + b (ix1 q) := by
  unfold k6_pay1
  simp only [shapeCast_self]
  rw [addf_apply, prod6_apply, bias6_apply]
  rfl

/-! ## The arrays the region reads and the blocks its body sees, each at its literal type -/

variable (V : (c : Dev nD) → (b : Ref sig .tc) → Buf (Elt Ideal) ((c : Thread nD τ).loc b))

/-- The node features, 40000 rows of 128. -/
noncomputable abbrev feat6 (c : Dev nD) : S40000x128.Idx → EReal := V c main_v226
/-- The weights, 128 by 64. -/
noncomputable abbrev wts6 (c : Dev nD) : S128x64.Idx → EReal := V c main_arg6
/-- The bias, 64 entries. -/
noncomputable abbrev bias6 (c : Dev nD) : S64.Idx → EReal := V c main_arg7
/-- The 2000 rows of features the body sees at point `t`. -/
noncomputable abbrev xblk6 (c : Dev nD) (t : Fin cfg6.N) : Vec Ideal S2000x128 .f32 := iblk6 V c 0 t
/-- The weights as the body sees them at point `t`. -/
noncomputable abbrev wblk6 (c : Dev nD) (t : Fin cfg6.N) : Vec Ideal S128x64 .f32 := iblk6 V c 1 t
/-- The bias as the body sees it at point `t`. -/
noncomputable abbrev bblk6 (c : Dev nD) (t : Fin cfg6.N) : Vec Ideal S64 .f32 := iblk6 V c 2 t

/-- The whole-array function: every row's features against the weights, plus the bias. -/
noncomputable abbrev head6 (c : Dev nD) : S40000x64.Idx → EReal := Cert.IdxSpec.lin 40000 (feat6 V c) (wts6 V c) (bias6 V c)

theorem hz2 : (![0, 0] : Fin 2 → Nat) = fun _ => 0 := funext fun a => by fin_cases a <;> rfl
theorem hz1 : (![0] : Fin 1 → Nat) = fun _ => 0 := funext fun a => by fin_cases a; rfl

/-! ## Where each window's block sits -/

/-- The index maps over the grid: the features' and the output's block index is the point on the row axis and 0 on the
    column axis; the weights and the bias are taken whole at every point. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

/-- Row p of the features' block at point `t` is row 2000·t + p of the features. -/
theorem xblk6_apply (c : Dev nD) (t : Fin cfg6.N) (p : Fin 2000) (k : Fin 128) (r : Fin 40000)
    (hr : r.val = t.val * 2000 + p.val) : xblk6 V c t (ix2 p k) = feat6 V c (ix2 r k) := by
  obtain ⟨e0, e1, -⟩ := idx_facts6 t
  unfold xblk6 iblk6
  rw [View.read_apply]
  show V c main_v226 _ = V c main_v226 _
  congr 1
  funext a
  apply Fin.ext
  match a with
  | ⟨0, _⟩ => show win6_0.index t (0 : Fin 2) * 2000 + 1 * p.val = r.val; rw [e0, hr]; omega
  | ⟨1, _⟩ => show win6_0.index t (1 : Fin 2) * 128 + 1 * k.val = k.val; rw [e1]; omega

/-- The weights' block at any point is the whole weight matrix. -/
theorem wblk6_eq (c : Dev nD) (t : Fin cfg6.N) : wblk6 V c t = wts6 V c := by
  obtain ⟨-, -, e2, e3, -⟩ := idx_facts6 t
  funext y
  unfold wblk6 iblk6
  rw [View.read_apply]
  show V c main_arg6 _ = V c main_arg6 _
  congr 1
  funext a
  apply Fin.ext
  match a with
  | ⟨0, _⟩ => show win6_1.index t (0 : Fin 2) * 128 + 1 * (y 0).val = (y 0).val; rw [e2]; omega
  | ⟨1, _⟩ => show win6_1.index t (1 : Fin 2) * 64 + 1 * (y 1).val = (y 1).val; rw [e3]; omega

/-- The bias's block at any point is the whole bias. -/
theorem bblk6_eq (c : Dev nD) (t : Fin cfg6.N) : bblk6 V c t = bias6 V c := by
  obtain ⟨-, -, -, -, e4, -⟩ := idx_facts6 t
  funext y
  unfold bblk6 iblk6
  rw [View.read_apply]
  show V c main_arg7 _ = V c main_arg7 _
  congr 1
  funext a
  apply Fin.ext
  match a with
  | ⟨0, _⟩ => show win6_2.index t (0 : Fin 1) * 64 + 1 * (y 0).val = (y 0).val; rw [e4]; omega

/-! ## What one point stores is its block of the whole-array function -/

/-- The body's result at point `t`, at entry `y` of the block, is the whole-array function at the entry `i` of the array
    with row 2000·t + (y's row) and y's column. -/
theorem body6_apply (c : Dev nD) (t : Fin cfg6.N) (y : S2000x64.Idx) (i : S40000x64.Idx)
    (h0 : (i 0).val = t.val * 2000 + (y 0).val) (h1 : (i 1).val = (y 1).val) :
    k6_pay1 (F := Ideal) (xblk6 V c t) (wblk6 V c t) (bblk6 V c t) y = head6 V c i := by
  obtain ⟨p, q, rfl⟩ : ∃ (p : Fin 2000) (q : Fin 64), y = ix2 p q := ⟨y 0, y 1, eq_ix2 y⟩
  obtain ⟨r, s, rfl⟩ : ∃ (r : Fin 40000) (s : Fin 64), i = ix2 r s := ⟨i 0, i 1, eq_ix2 i⟩
  obtain rfl : s = q := Fin.ext h1
  refine (pay6_apply (xblk6 V c t) (wblk6 V c t) (bblk6 V c t) p s).trans ?_
  show _ = (∑ k : Fin 128, feat6 V c (ix2 r k) * wts6 V c (ix2 k s)) + bias6 V c (ix1 s)
  exact congrArg₂ (· + ·)
    (Finset.sum_congr rfl fun k _ => congrArg₂ (· * ·) (xblk6_apply V c t p k r h0) (congrFun (wblk6_eq V c t) (ix2 k s)))
    (congrFun (bblk6_eq V c t) (ix1 s))

/-- WHAT POINT `t` WRITES BACK is block `t` of the whole-array function of the arrays as the region finds them. -/
theorem flushed_eq6 (c : Dev nD) (t : Fin cfg6.N) :
    (dat6 (F := Ideal) V c).flushed 3 t = ((cfg6.win 3).blk t).view.read (Elt Ideal) (head6 V c) := by
  show (cfg6.win 3).cut (grid6.coords t) ((dat6 (F := Ideal) V c).after 3 t) = _
  rw [after6_3]
  unfold out6_3
  rw [View.canon_unit_zero hz2]
  simp only [View.ld_unit_zero (S := S2000x128) hz2, View.ld_unit_zero (S := S128x64) hz2, View.ld_unit_zero (S := S64) hz1]
  obtain ⟨-, -, -, -, -, e5, e6⟩ := idx_facts6 t
  funext j
  refine body6_apply V c t ((cfg6.win 3).xinj (grid6.coords t) j) (((cfg6.win 3).blk t).view.emb j) ?_ ?_
  · show win6_3.index t (0 : Fin 2) * 2000 + 1 * (j 0).val = t.val * 2000 + (j 0).val
    rw [e5]; omega
  · show win6_3.index t (1 : Fin 2) * 64 + 1 * (j 1).val = (j 1).val
    rw [e6]; omega

/-! ## The blocks cover the array -/

/-- An entry of the array is in point `t`'s block iff each coordinate is in the block's range on its axis. -/
theorem mem_blk6 (t : Fin cfg6.N) (i : S40000x64.Idx) :
    i ∈ ((cfg6.win 3).blk t).view.set ↔ ∀ a : Fin 2, win6_3.index t a * S2000x64.size a ≤ (i a).val
      ∧ (i a).val < win6_3.index t a * S2000x64.size a + S2000x64.size a := by
  show i ∈ ((View.whole main_v236).slice (win6_3.rect t)).set ↔ _
  rw [View.set_slice_whole, Rect.mem_set_unit]
  exact Iff.rfl

/-- Row r lies in the block of point r / 2000. -/
theorem cover6 (i : S40000x64.Idx) :
    ∃ t : Fin cfg6.N, (cfg6.win 3).flush t = true ∧ i ∈ ((cfg6.win 3).blk t).view.set := by
  have hi0 : (i 0).val < 40000 := (i 0).isLt
  have hi1 : (i 1).val < 64 := (i 1).isLt
  have hN : cfg6.N = 20 := N_6
  obtain ⟨t, ht⟩ : ∃ t : Fin cfg6.N, t.val = (i 0).val / 2000 := ⟨⟨(i 0).val / 2000, by rw [hN]; omega⟩, rfl⟩
  obtain ⟨-, -, -, -, -, e5, e6⟩ := idx_facts6 t
  refine ⟨t, flush6_3 t, ?_⟩
  rw [mem_blk6]
  intro a
  match a with
  | ⟨0, _⟩ =>
    show win6_3.index t (0 : Fin 2) * 2000 ≤ (i 0).val ∧ (i 0).val < win6_3.index t (0 : Fin 2) * 2000 + 2000
    rw [e5, ht]; omega
  | ⟨1, _⟩ =>
    show win6_3.index t (1 : Fin 2) * 64 ≤ (i 1).val ∧ (i 1).val < win6_3.index t (1 : Fin 2) * 64 + 64
    rw [e6]; omega

/-! ## The array after the run -/

/-- THE OUTPUT ARRAY after the region's grid has run: the read-out head of the features, the weights and the bias as the
    region finds them. -/
theorem arr (c : Dev nD) :
    (dat6 (F := Ideal) V c).arrAt 3 cfg6.N
      = Cert.IdxSpec.lin 40000 (V c main_v226) (V c main_arg6) (V c main_arg7) :=
  (dat6 (F := Ideal) V c).arrAt_eq_of_cover 3 (head6 V c) (fun t _ => flushed_eq6 V c t) cover6

end Cert.KernelIdeal.RegVal6

end
-- ==== Proof.Reg4Pay.lean ====
/-
  Region 1's arithmetic at one entry, on extended reals.

  The body stores one 2000 × 128 block. Its entry at row p and column q is
      max( Σ_k mean[0,p,k]·Wl[0,k,q] + Σ_k x[p,k]·Wr[k,q] + b[q], 0 ),
  where mean is the block of neighbour means (one relation, carried on a leading unit axis), Wl the stacked left weight,
  x the block of the node's own features, Wr the right weight and b the bias. The casts to the narrow format are the
  identity on exact values; each matrix product into a zero accumulator is the sum over its one contracted coordinate;
  dropping or adding a unit axis keeps the row-major position; the bias row is repeated down the rows.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal4

open Idealize.ShloMosaic Idealize.ShloMosaic.ValueIdx Cert.KernelIdeal Cert.KernelIdeal.Gen

/-! ## The matrix product's operand indices, axis by axis -/

/-- The left operand's row is the output's row. -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contracted coordinate. -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contracted coordinate. -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product at an entry -/

/-- A 2000 × 128 by 128 × 128 product into the zero accumulator, at entry (p, q): the sum over the 128 contracted
    coordinates of the products of the two operands' entries. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The stored block at an entry -/

/-- Entry (p, q) of the block the body stores: the two sums, the bias, the clamp at zero. -/
theorem pay_at (x0 : Vec Ideal S1x2000x128 .f32) (x1 : Vec Ideal S1x128x128 .f32) (x2 : Vec Ideal S2000x128 .f32)
    (x3 : Vec Ideal S128x128 .f32) (x4 : Vec Ideal S128 .f32) (p : Fin 2000) (q : Fin 128) :
    k4_pay1 (F := Ideal) x0 x1 x2 x3 x4 (ix2 p q)
      = max (((∑ k : Fin 128, x0 (ix3 (0 : Fin 1) p k) * x1 (ix3 (0 : Fin 1) k q))
          + ∑ k : Fin 128, x2 (ix2 p k) * x3 (ix2 k q))
          + x4 (ix1 q)) 0 := by
  unfold k4_pay1
  rw [maximumf_apply, broadcast_apply, addf_apply, addf_apply, matmul_at, matmul_at,
    broadcastTo_1b_ab_apply, shapeCast_a_1a_apply, shapeCast_self]
  simp only [truncf_apply, shapeCast_1ab_ab_apply, shapeCast_self]
  show max _ (Ideal.ofBits .f32 0x00000000#32) = _
  rw [Ideal.ofBits_zero_f32]

end Cert.KernelIdeal.RegVal4

end
-- ==== Proof.Reg4.lean ====
/-
  Region 1's value: what its output array holds after the grid has run, as one function of the arrays it reads, on
  extended reals.

  The region updates a node type with one incoming relation, 40000 rows in 20 blocks of 2000. Point t of the grid reads
  rows 2000·t … 2000·t + 1999 of the neighbour means and of the node's own features, the two weight matrices and the bias
  whole, and writes back rows 2000·t … 2000·t + 1999 of
      max( Σ_k mean[0,r,k]·Wl[0,k,q] + Σ_k x[r,k]·Wr[k,q] + b[q], 0 ).
  An entry of the written block depends only on its own row of the means and features, so each point writes exactly its
  block of that one whole-array function; the 20 blocks tile the rows (row r lies in block r / 2000), so the array ends
  holding the function everywhere.
-/
import proofs.«165177_j32074815766916_1_alg».proof.Proof.FIL4
import proofs.«165177_j32074815766916_1_alg».proof.Proof.IdxSpec
import proofs.«165177_j32074815766916_1_alg».proof.Proof.Reg4Pay
import Idealize.ShloMosaic.Lib.Pipeline.Value
import Idealize.ShloMosaic.Lib.ValueIdx

set_option maxRecDepth 16384

noncomputable section

namespace Cert.KernelIdeal.RegVal4

open Idealize.ShloMosaic Idealize.ShloMosaic.TcCoe Idealize.ShloMosaic.ValueIdx Cert.KernelIdeal Cert.KernelIdeal.Gen Cert.KernelIdeal.GenP
open Idealize.ShloMosaic.Pipeline (Dat)

/-! ## The arrays the region reads, by their literal types -/

variable (V : (c : Dev nD) → (b : Ref sig .tc) → Buf (Elt Ideal) ((c : Thread nD τ).loc b))

/-- The stacked neighbour means (one relation), 40000 rows. -/
noncomputable abbrev meansArr (c : Dev nD) : Vec Ideal S1x40000x128 .f32 := V c main_v224
/-- The stacked left weight. -/
noncomputable abbrev wlsArr (c : Dev nD) : Vec Ideal S1x128x128 .f32 := V c main_v225
/-- The node type's own features, 40000 rows. -/
noncomputable abbrev xdArr (c : Dev nD) : Vec Ideal S40000x128 .f32 := V c main_v111
/-- The right weight. -/
noncomputable abbrev wrArr (c : Dev nD) : Vec Ideal S128x128 .f32 := V c main_v221
/-- The bias. -/
noncomputable abbrev biasArr (c : Dev nD) : Vec Ideal S128 .f32 := V c main_v223

/-- What the region's output array ends holding: the one-relation update of all 40000 rows. -/
noncomputable abbrev updArr (c : Dev nD) : Vec Ideal S40000x128 .f32 :=
  Cert.IdxSpec.sage1 40000 (meansArr V c) (wlsArr V c) (xdArr V c) (wrArr V c) (biasArr V c)

/-- The update at row r, column q, with the coordinates named. -/
theorem updArr_at (c : Dev nD) (i : S40000x128.Idx) (r : Fin 40000) (q : Fin 128) (hi : i = ix2 r q) :
    updArr V c i
      = max (((∑ k : Fin 128, meansArr V c (ix3 (0 : Fin 1) r k) * wlsArr V c (ix3 (0 : Fin 1) k q))
          + ∑ k : Fin 128, xdArr V c (ix2 r k) * wrArr V c (ix2 k q))
          + biasArr V c (ix1 q)) 0 := by
  subst hi; rfl

/-! ## The index maps over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid's points: the means' and the features' blocks move down the rows with
    the output's block; the two weights and the bias are taken whole at every point; the output's block index is the
    point's number. -/
theorem idx_facts : ∀ t : Fin cfg4.N,
    win4_0.index t (0 : Fin 3) = 0 ∧ win4_0.index t (1 : Fin 3) = win4_5.index t (0 : Fin 2) ∧ win4_0.index t (2 : Fin 3) = 0
    ∧ win4_1.index t (0 : Fin 3) = 0 ∧ win4_1.index t (1 : Fin 3) = 0 ∧ win4_1.index t (2 : Fin 3) = 0
    ∧ win4_2.index t (0 : Fin 2) = win4_5.index t (0 : Fin 2) ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-! ## Each input window's block, read off its array -/

/-- The means' block at point t is rows 2000·b … 2000·b + 1999 of the means, b the output's block index at t. -/
theorem means_blk (c : Dev nD) (t : Fin cfg4.N) (y : S1x2000x128.Idx) (i : S1x40000x128.Idx)
    (h0 : (i 0).val = (y 0).val) (h1 : (i 1).val = win4_5.index t (0 : Fin 2) * 2000 + (y 1).val) (h2 : (i 2).val = (y 2).val) :
    (iblk4 V c 0 t : Vec Ideal S1x2000x128 .f32) y = meansArr V c i := by
  obtain ⟨e0, e1, e2, -⟩ := idx_facts t
  unfold iblk4
  rw [View.read_apply]
  show V c main_v224 _ = V c main_v224 _
  congr 1
  funext a
  apply Fin.ext
  match a with
  | ⟨0, _⟩ => show win4_0.index t (0 : Fin 3) * 1 + 1 * (y 0).val = (i 0).val; rw [e0, h0]; omega
  | ⟨1, _⟩ => show win4_0.index t (1 : Fin 3) * 2000 + 1 * (y 1).val = (i 1).val; rw [e1, h1]; omega
  | ⟨2, _⟩ => show win4_0.index t (2 : Fin 3) * 128 + 1 * (y 2).val = (i 2).val; rw [e2, h2]; omega

/-- The features' block at point t is the same rows of the features. -/
theorem xd_blk (c : Dev nD) (t : Fin cfg4.N) (y : S2000x128.Idx) (i : S40000x128.Idx)
    (h0 : (i 0).val = win4_5.index t (0 : Fin 2) * 2000 + (y 0).val) (h1 : (i 1).val = (y 1).val) :
    (iblk4 V c 2 t : Vec Ideal S2000x128 .f32) y = xdArr V c i := by
  obtain ⟨-, -, -, -, -, -, e0, e1, -⟩ := idx_facts t
  unfold iblk4
  rw [View.read_apply]
  show V c main_v111 _ = V c main_v111 _
  congr 1
  funext a
  apply Fin.ext
  match a with
  | ⟨0, _⟩ => show win4_2.index t (0 : Fin 2) * 2000 + 1 * (y 0).val = (i 0).val; rw [e0, h0]; omega
  | ⟨1, _⟩ => show win4_2.index t (1 : Fin 2) * 128 + 1 * (y 1).val = (i 1).val; rw [e1, h1]; omega

/-- The left weight's window takes the whole array at every point. -/
theorem wls_blk (c : Dev nD) (t : Fin cfg4.N) : (iblk4 V c 1 t : Vec Ideal S1x128x128 .f32) = wlsArr V c := by
  obtain ⟨-, -, -, e0, e1, e2, -⟩ := idx_facts t
  funext y
  unfold iblk4
  rw [View.read_apply]
  show V c main_v225 _ = V c main_v225 _
  congr 1
  funext a
  apply Fin.ext
  match a with
  | ⟨0, _⟩ => show win4_1.index t (0 : Fin 3) * 1 + 1 * (y 0).val = (y 0).val; rw [e0]; omega
  | ⟨1, _⟩ => show win4_1.index t (1 : Fin 3) * 128 + 1 * (y 1).val = (y 1).val; rw [e1]; omega
  | ⟨2, _⟩ => show win4_1.index t (2 : Fin 3) * 128 + 1 * (y 2).val = (y 2).val; rw [e2]; omega

/-- The right weight's window takes the whole array at every point. -/
theorem wr_blk (c : Dev nD) (t : Fin cfg4.N) : (iblk4 V c 3 t : Vec Ideal S128x128 .f32) = wrArr V c := by
  obtain ⟨-, -, -, -, -, -, -, -, e0, e1, -⟩ := idx_facts t
  funext y
  unfold iblk4
  rw [View.read_apply]
  show V c main_v221 _ = V c main_v221 _
  congr 1
  funext a
  apply Fin.ext
  match a with
  | ⟨0, _⟩ => show win4_3.index t (0 : Fin 2) * 128 + 1 * (y 0).val = (y 0).val; rw [e0]; omega
  | ⟨1, _⟩ => show win4_3.index t (1 : Fin 2) * 128 + 1 * (y 1).val = (y 1).val; rw [e1]; omega

/-- The bias's window takes the whole array at every point. -/
theorem bias_blk (c : Dev nD) (t : Fin cfg4.N) : (iblk4 V c 4 t : Vec Ideal S128 .f32) = biasArr V c := by
  obtain ⟨-, -, -, -, -, -, -, -, -, -, e0, -⟩ := idx_facts t
  funext y
  unfold iblk4
  rw [View.read_apply]
  show V c main_v223 _ = V c main_v223 _
  congr 1
  funext a
  apply Fin.ext
  match a with
  | ⟨0, _⟩ => show win4_4.index t (0 : Fin 1) * 128 + 1 * (y 0).val = (y 0).val; rw [e0]; omega

/-! ## What one point writes back -/

/-- The body's stored block from the five input blocks, without the load and store rectangles (each is the whole
    staging buffer). -/
theorem out_eq (x0 : Vec Ideal S1x2000x128 .f32) (x1 : Vec Ideal S1x128x128 .f32) (x2 : Vec Ideal S2000x128 .f32)
    (x3 : Vec Ideal S128x128 .f32) (x4 : Vec Ideal S128 .f32) :
    out4_5 (F := Ideal) x0 x1 x2 x3 x4 = k4_pay1 (F := Ideal) x0 x1 x2 x3 x4 := by
  unfold out4_5
  rw [View.canon_unit_zero hz2]
  simp only [View.ld_unit_zero (S := S1x2000x128) hz3, View.ld_unit_zero (S := S1x128x128) hz3,
    View.ld_unit_zero (S := S2000x128) hz2, View.ld_unit_zero (S := S128x128) hz2, View.ld_unit_zero (S := S128) hz1]

/-- The output block's entry (p, q) at point t sits at row 2000·b + p, column q of the array, b the block index. -/
theorem out_emb (t : Fin cfg4.N) (p : Fin 2000) (q : Fin 128) (r : Fin 40000)
    (hr : r.val = win4_5.index t (0 : Fin 2) * 2000 + p.val) :
    ((cfg4.win 5).blk t).view.emb (ix2 p q) = (ix2 r q : S40000x128.Idx) := by
  obtain ⟨-, -, -, -, -, -, -, -, -, -, -, -, e1⟩ := idx_facts t
  funext a
  apply Fin.ext
  match a with
  | ⟨0, _⟩ => show win4_5.index t (0 : Fin 2) * 2000 + 1 * p.val = r.val; rw [hr]; omega
  | ⟨1, _⟩ => show win4_5.index t (1 : Fin 2) * 128 + 1 * q.val = q.val; rw [e1]; omega

/-- What point t writes back is block t of the update of all rows: entry (p, q) of the stored block is the update at
    row 2000·b + p, column q, b the output's block index at t — each sum termwise, the means' and the features' blocks
    read at those rows. -/
theorem flushed_eq (c : Dev nD) (t : Fin cfg4.N) :
    (dat4 (F := Ideal) V c).flushed 5 t = ((cfg4.win 5).blk t).view.read (Elt Ideal) (updArr V c) := by
  show (cfg4.win 5).cut (grid4.coords t) ((dat4 V c).after 5 t) = _
  rw [after4_5, out_eq, wls_blk, wr_blk, bias_blk]
  funext j
  obtain ⟨p, q, rfl⟩ : ∃ (p : Fin 2000) (q : Fin 128), j = ix2 p q := ⟨j 0, j 1, eq_ix2 j⟩
  obtain ⟨-, -, -, -, -, -, -, -, -, -, -, e0, -⟩ := idx_facts t
  have hN : cfg4.N = 20 := N_4
  have ht : t.val < 20 := hN ▸ t.isLt
  obtain ⟨r, hr⟩ : ∃ r : Fin 40000, r.val = win4_5.index t (0 : Fin 2) * 2000 + p.val :=
    ⟨⟨win4_5.index t (0 : Fin 2) * 2000 + p.val, by rw [e0]; have := p.isLt; omega⟩, rfl⟩
  rw [View.read_apply]
  show k4_pay1 (F := Ideal) (iblk4 V c 0 t) (wlsArr V c) (iblk4 V c 2 t) (wrArr V c) (biasArr V c) (ix2 p q)
    = updArr V c (((cfg4.win 5).blk t).view.emb (ix2 p q))
  rw [out_emb t p q r hr, updArr_at V c _ r q rfl]
  refine (pay_at _ _ _ _ _ p q).trans ?_
  refine congrArg₂ max (congrArg₂ (· + ·) (congrArg₂ (· + ·) (Finset.sum_congr rfl fun k _ => ?_) (Finset.sum_congr rfl fun k _ => ?_)) rfl) rfl
  · exact congrArg (· * _) (means_blk V c t (ix3 (0 : Fin 1) p k) (ix3 (0 : Fin 1) r k) rfl hr rfl)
  · exact congrArg (· * _) (xd_blk V c t (ix2 p k) (ix2 r k) hr rfl)

/-! ## The blocks cover the array -/

/-- An index of the array is in point t's block iff each coordinate is in the block's range on its axis. -/
theorem mem_blk (t : Fin cfg4.N) (i : S40000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v226).slice (win4_5.rect t)).set ↔ _
  rw [View.set_slice_whole, Rect.mem_set_unit]
  exact Iff.rfl

/-- Row r of the array is written by the point numbered r / 2000 (and every point writes its block back). -/
theorem cover (i : S40000x128.Idx) :
    ∃ t : Fin cfg4.N, (cfg4.win 5).flush t = true ∧ i ∈ ((cfg4.win 5).blk t).view.set := by
  have hi0 : (i 0).val < 40000 := (i 0).isLt
  have hi1 : (i 1).val < 128 := (i 1).isLt
  have hN : cfg4.N = 20 := N_4
  obtain ⟨t, ht⟩ : ∃ t : Fin cfg4.N, t.val = (i 0).val / 2000 := ⟨⟨(i 0).val / 2000, by rw [hN]; omega⟩, rfl⟩
  obtain ⟨-, -, -, -, -, -, -, -, -, -, -, e0, e1⟩ := idx_facts t
  refine ⟨t, flush4_5 t, ?_⟩
  rw [mem_blk]
  intro a
  match a with
  | ⟨0, _⟩ =>
    show win4_5.index t (0 : Fin 2) * 2000 ≤ (i 0).val ∧ (i 0).val < win4_5.index t (0 : Fin 2) * 2000 + 2000
    rw [e0, ht]; omega
  | ⟨1, _⟩ =>
    show win4_5.index t (1 : Fin 2) * 128 ≤ (i 1).val ∧ (i 1).val < win4_5.index t (1 : Fin 2) * 128 + 128
    rw [e1]; omega

/-! ## The array after the run -/

/-- THE REGION'S VALUE: after the grid has run, the output array holds the one-relation update of all 40000 rows — every
    point writes its block of it, and the blocks cover the array. -/
theorem arr (c : Dev nD) :
    (dat4 (F := Ideal) V c).arrAt 5 cfg4.N
      = Cert.IdxSpec.sage1 40000 (V c main_v224) (V c main_v225) (V c main_v111) (V c main_v221) (V c main_v223) :=
  (dat4 V c).arrAt_eq_of_cover 5 (updArr V c) (fun t _ => flushed_eq V c t) cover

end Cert.KernelIdeal.RegVal4

end
-- ==== Proof.Reg3Pay.lean ====
/-
  One row block of a two-relation dense update, read entry by entry on extended reals.

  The block's result at (p, q) is max(Σ_k a₀[0,p,k]·w₀[0,k,q] + Σ_k a₁[0,p,k]·w₁[0,k,q] + Σ_k x[p,k]·r[k,q] + b[q], 0):
  the leading unit axes of the two neighbour-mean slabs and of the two left-weight slabs are dropped, the narrowing
  format changes are the identity on extended reals, each matrix product into a zero accumulator is its plain sum over
  the 128 feature columns (the contraction index re-indexed by its one coordinate), the bias row is copied down the
  rows, and the clamp is against the zero word.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegVal3

open Idealize.ShloMosaic Idealize.ShloMosaic.ValueIdx Cert.KernelIdeal Cert.KernelIdeal.Gen
open scoped BigOperators

/-! ## The product's operand indices: rows × contraction, contraction × columns -/

/-- The left operand's row is the output's row. -/
theorem lhs_mm0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contraction's one coordinate. -/
theorem lhs_mm0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contraction's one coordinate. -/
theorem rhs_mm0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product into a zero accumulator, at an entry -/

/-- A [2000,128] × [128,128] product into the zero splat reads, at (p, q), Σ_k x[p,k]·w[k,q]. -/
theorem mm0_apply {φ₁ φ₂ : FTy} (x : FVec Ideal S2000x128 φ₁) (w : FVec Ideal S128x128 φ₂) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm0_0 _ _
      | ⟨1, _⟩ => exact (lhs_mm0_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm0_0 _ _).trans hk
      | ⟨1, _⟩ => exact rhs_mm0_1 _ _)
  rw [el, er]

/-! ## The payload at an entry -/

/-- The block the body stores, at (p, q): the three sums over the feature columns, plus the bias entry, clamped at zero. -/
theorem pay0_apply (v0 v3 : Vec Ideal S1x2000x128 .f32) (v6 v9 : Vec Ideal S1x128x128 .f32) (v12 : Vec Ideal S2000x128 .f32)
    (v14 : Vec Ideal S128x128 .f32) (v22 : Vec Ideal S128 .f32) (p : Fin 2000) (q : Fin 128) :
    k3_pay1 (F := Ideal) v0 v3 v6 v9 v12 v14 v22 (ix2 p q)
      = max ((((∑ k : Fin 128, v0 (ix3 (0 : Fin 1) p k) * v6 (ix3 (0 : Fin 1) k q))
          + ∑ k : Fin 128, v3 (ix3 (0 : Fin 1) p k) * v9 (ix3 (0 : Fin 1) k q))
          + ∑ k : Fin 128, v12 (ix2 p k) * v14 (ix2 k q))
          + v22 (ix1 q)) 0 := by
  unfold k3_pay1
  simp only [maximumf_apply, addf_apply, broadcast_apply, mm0_apply, truncf_apply, shapeCast_1ab_ab_apply, shapeCast_self,
    broadcastTo_1b_ab_apply, shapeCast_a_1a_apply]
  exact congrArg (max _) Ideal.ofBits_zero_f32

end Cert.KernelIdeal.RegVal3

end
-- ==== Proof.Reg3.lean ====
/-
  What one grid-tiled two-relation dense update leaves in its output array, as one function of the arrays it reads.

  The grid has 50 points; point t handles rows 2000·t … 2000·t + 1999. At point t the two neighbour-mean slabs and the
  node's own features are read through blocks of 2000 rows starting at row 2000·t, while the two stacked left weights,
  the right weight and the bias are read whole at every point. The body's stored block at (p, q) is therefore the whole-array
  update at (2000·t + p, q): the same three sums over the 128 feature columns, the same bias entry, the same clamp at
  zero. Every row r lies in the block of point r / 2000, so the blocks written back tile the array and the array ends
  holding the update everywhere.
-/
import proofs.«165177_j32074815766916_1_alg».proof.Proof.FIL3
import proofs.«165177_j32074815766916_1_alg».proof.Proof.IdxSpec
import proofs.«165177_j32074815766916_1_alg».proof.Proof.Reg3Pay
import Idealize.ShloMosaic.Lib.ValueIdx
import Idealize.ShloMosaic.Lib.Pipeline.Value

set_option maxRecDepth 16384

noncomputable section

namespace Cert.KernelIdeal.RegVal3

open Idealize.ShloMosaic Idealize.ShloMosaic.ValueIdx Idealize.ShloMosaic.TcCoe Cert.KernelIdeal Cert.KernelIdeal.Gen Cert.KernelIdeal.GenP
open Idealize.ShloMosaic.Pipeline (Dat)
open scoped BigOperators

variable (V : (c : Dev nD) → (b : Ref sig .tc) → Buf (Elt Ideal) ((c : Thread nD τ).loc b))

/-! ## The arrays the region reads, each at its literal shape -/

/-- The two neighbour-mean slabs, stacked: [2, 100000, 128]. -/
abbrev meansArr0 (c : Dev nD) : S2x100000x128.Idx → EReal := V c main_v213
/-- The two left weights, stacked: [2, 128, 128]. -/
abbrev wlsArr0 (c : Dev nD) : S2x128x128.Idx → EReal := V c main_v216
/-- The node type's own features: [100000, 128]. -/
abbrev xdArr0 (c : Dev nD) : S100000x128.Idx → EReal := V c main_v102
/-- The right weight: [128, 128]. -/
abbrev wrArr0 (c : Dev nD) : S128x128.Idx → EReal := V c main_v205
/-- The bias: [128]. -/
abbrev bArr0 (c : Dev nD) : S128.Idx → EReal := V c main_v210

/-- The whole-array update of those arrays. -/
abbrev upd0 (c : Dev nD) : S100000x128.Idx → EReal :=
  Cert.IdxSpec.sage2 100000 (meansArr0 V c) (wlsArr0 V c) (xdArr0 V c) (wrArr0 V c) (bArr0 V c)

/-! ## The body's loads: a slab of a stacked block, or a whole block -/

theorem zero2 : (![0, 0] : Fin 2 → Nat) = fun _ => 0 := funext fun a => by fin_cases a <;> rfl
theorem zero1 : (![0] : Fin 1 → Nat) = fun _ => 0 := funext fun a => by fin_cases a; rfl

/-- Slab 0 of the stacked means' block, at (a, p, k), is the block at (0, p, k). -/
theorem ld_means0_0 (x : Vec Ideal S2x2000x128 .f32) (a : Fin 1) (p : Fin 2000) (k : Fin 128) :
    View.ld x r3_0 (ix3 a p k) = x (ix3 (0 : Fin 2) p k) := by
  show x _ = x _
  congr 1
  funext ax; apply Fin.ext
  match ax with
  | ⟨0, _⟩ => show 0 + 1 * a.val = 0; omega
  | ⟨1, _⟩ => show 0 + 1 * p.val = p.val; omega
  | ⟨2, _⟩ => show 0 + 1 * k.val = k.val; omega

/-- Slab 1 of the stacked means' block, at (a, p, k), is the block at (1, p, k). -/
theorem ld_means0_1 (x : Vec Ideal S2x2000x128 .f32) (a : Fin 1) (p : Fin 2000) (k : Fin 128) :
    View.ld x r3_1 (ix3 a p k) = x (ix3 (1 : Fin 2) p k) := by
  show x _ = x _
  congr 1
  funext ax; apply Fin.ext
  match ax with
  | ⟨0, _⟩ => show 1 + 1 * a.val = 1; omega
  | ⟨1, _⟩ => show 0 + 1 * p.val = p.val; omega
  | ⟨2, _⟩ => show 0 + 1 * k.val = k.val; omega

/-- Slab 0 of the stacked left weights, at (a, k, q), is the stack at (0, k, q). -/
theorem ld_wls0_0 (x : Vec Ideal S2x128x128 .f32) (a : Fin 1) (k : Fin 128) (q : Fin 128) :
    View.ld x r3_2 (ix3 a k q) = x (ix3 (0 : Fin 2) k q) := by
  show x _ = x _
  congr 1
  funext ax; apply Fin.ext
  match ax with
  | ⟨0, _⟩ => show 0 + 1 * a.val = 0; omega
  | ⟨1, _⟩ => show 0 + 1 * k.val = k.val; omega
  | ⟨2, _⟩ => show 0 + 1 * q.val = q.val; omega

/-- Slab 1 of the stacked left weights, at (a, k, q), is the stack at (1, k, q). -/
theorem ld_wls0_1 (x : Vec Ideal S2x128x128 .f32) (a : Fin 1) (k : Fin 128) (q : Fin 128) :
    View.ld x r3_3 (ix3 a k q) = x (ix3 (1 : Fin 2) k q) := by
  show x _ = x _
  congr 1
  funext ax; apply Fin.ext
  match ax with
  | ⟨0, _⟩ => show 1 + 1 * a.val = 1; omega
  | ⟨1, _⟩ => show 0 + 1 * k.val = k.val; omega
  | ⟨2, _⟩ => show 0 + 1 * q.val = q.val; omega

/-! ## The body's stored block at an entry -/

/-- What the body leaves in the output buffer, at (p, q), from the five input blocks: the update's formula on the blocks. -/
theorem out3_apply (x0 : Vec Ideal S2x2000x128 .f32) (x1 : Vec Ideal S2x128x128 .f32) (x2 : Vec Ideal S2000x128 .f32)
    (x3 : Vec Ideal S128x128 .f32) (x4 : Vec Ideal S128 .f32) (p : Fin 2000) (q : Fin 128) :
    out3_5 x0 x1 x2 x3 x4 (ix2 p q)
      = max ((((∑ k : Fin 128, x0 (ix3 (0 : Fin 2) p k) * x1 (ix3 (0 : Fin 2) k q))
          + ∑ k : Fin 128, x0 (ix3 (1 : Fin 2) p k) * x1 (ix3 (1 : Fin 2) k q))
          + ∑ k : Fin 128, x2 (ix2 p k) * x3 (ix2 k q))
          + x4 (ix1 q)) 0 := by
  unfold out3_5
  rw [View.canon_unit_zero zero2]
  rw [pay0_apply]
  refine congrArg (fun z => max z 0) ?_
  refine congrArg₂ (· + ·) (congrArg₂ (· + ·) (congrArg₂ (· + ·) ?_ ?_) ?_) ?_
  · exact Finset.sum_congr rfl fun k _ => congrArg₂ (· * ·) (ld_means0_0 x0 0 p k) (ld_wls0_0 x1 0 k q)
  · exact Finset.sum_congr rfl fun k _ => congrArg₂ (· * ·) (ld_means0_1 x0 0 p k) (ld_wls0_1 x1 0 k q)
  · exact Finset.sum_congr rfl fun k _ => congrArg₂ (· * ·)
      (congrFun (View.ld_unit_zero (S := S2000x128) zero2 _ x2) (ix2 p k))
      (congrFun (View.ld_unit_zero (S := S128x128) zero2 _ x3) (ix2 k q))
  · exact congrFun (View.ld_unit_zero (S := S128) zero1 _ x4) (ix1 q)

/-! ## The index maps over the grid -/

/-- Decided over the 50 points: the means' and the features' blocks move with the output's along the rows, every other
    block index is zero, and the output's row-block index is the point's number. -/
theorem idx_facts0 : ∀ t : Fin cfg3.N,
    win3_0.index t (0 : Fin 3) = 0 ∧ win3_0.index t (1 : Fin 3) = win3_5.index t (0 : Fin 2) ∧ win3_0.index t (2 : Fin 3) = 0
    ∧ win3_1.index t (0 : Fin 3) = 0 ∧ win3_1.index t (1 : Fin 3) = 0 ∧ win3_1.index t (2 : Fin 3) = 0
    ∧ win3_2.index t (0 : Fin 2) = win3_5.index t (0 : Fin 2) ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-! ## Each window's block read where the index maps say -/

/-- The means' block at point t, at (a, p, k), is the array at (a, r, k) for the row r the output's block puts p at. -/
theorem rd0_0 (c : Dev nD) (t : Fin cfg3.N) (a : Fin 2) (p : Fin 2000) (k : Fin 128) (r : Fin 100000)
    (hr : r.val = win3_5.index t (0 : Fin 2) * 2000 + p.val) :
    (iblk3 V c 0 t : Vec Ideal S2x2000x128 .f32) (ix3 a p k) = meansArr0 V c (ix3 a r k) := by
  show meansArr0 V c (((cfg3.win 0).blk t).view.emb (ix3 a p k)) = _
  refine congrArg (meansArr0 V c) ?_
  obtain ⟨e0, e1, e2, -⟩ := idx_facts0 t
  funext ax; apply Fin.ext
  match ax with
  | ⟨0, _⟩ => show win3_0.index t (0 : Fin 3) * 2 + 1 * a.val = a.val; omega
  | ⟨1, _⟩ => show win3_0.index t (1 : Fin 3) * 2000 + 1 * p.val = r.val; omega
  | ⟨2, _⟩ => show win3_0.index t (2 : Fin 3) * 128 + 1 * k.val = k.val; omega

/-- The left weights' block is the whole stack at every point. -/
theorem rd0_1 (c : Dev nD) (t : Fin cfg3.N) (a : Fin 2) (k : Fin 128) (q : Fin 128) :
    (iblk3 V c 1 t : Vec Ideal S2x128x128 .f32) (ix3 a k q) = wlsArr0 V c (ix3 a k q) := by
  show wlsArr0 V c (((cfg3.win 1).blk t).view.emb (ix3 a k q)) = _
  refine congrArg (wlsArr0 V c) ?_
  obtain ⟨-, -, -, e0, e1, e2, -⟩ := idx_facts0 t
  funext ax; apply Fin.ext
  match ax with
  | ⟨0, _⟩ => show win3_1.index t (0 : Fin 3) * 2 + 1 * a.val = a.val; omega
  | ⟨1, _⟩ => show win3_1.index t (1 : Fin 3) * 128 + 1 * k.val = k.val; omega
  | ⟨2, _⟩ => show win3_1.index t (2 : Fin 3) * 128 + 1 * q.val = q.val; omega

/-- The features' block at point t, at (p, k), is the array at (r, k). -/
theorem rd0_2 (c : Dev nD) (t : Fin cfg3.N) (p : Fin 2000) (k : Fin 128) (r : Fin 100000)
    (hr : r.val = win3_5.index t (0 : Fin 2) * 2000 + p.val) :
    (iblk3 V c 2 t : Vec Ideal S2000x128 .f32) (ix2 p k) = xdArr0 V c (ix2 r k) := by
  show xdArr0 V c (((cfg3.win 2).blk t).view.emb (ix2 p k)) = _
  refine congrArg (xdArr0 V c) ?_
  obtain ⟨-, -, -, -, -, -, e0, e1, -⟩ := idx_facts0 t
  funext ax; apply Fin.ext
  match ax with
  | ⟨0, _⟩ => show win3_2.index t (0 : Fin 2) * 2000 + 1 * p.val = r.val; omega
  | ⟨1, _⟩ => show win3_2.index t (1 : Fin 2) * 128 + 1 * k.val = k.val; omega

/-- The right weight's block is the whole matrix at every point. -/
theorem rd0_3 (c : Dev nD) (t : Fin cfg3.N) (k : Fin 128) (q : Fin 128) :
    (iblk3 V c 3 t : Vec Ideal S128x128 .f32) (ix2 k q) = wrArr0 V c (ix2 k q) := by
  show wrArr0 V c (((cfg3.win 3).blk t).view.emb (ix2 k q)) = _
  refine congrArg (wrArr0 V c) ?_
  obtain ⟨-, -, -, -, -, -, -, -, e0, e1, -⟩ := idx_facts0 t
  funext ax; apply Fin.ext
  match ax with
  | ⟨0, _⟩ => show win3_3.index t (0 : Fin 2) * 128 + 1 * k.val = k.val; omega
  | ⟨1, _⟩ => show win3_3.index t (1 : Fin 2) * 128 + 1 * q.val = q.val; omega

/-- The bias's block is the whole vector at every point. -/
theorem rd0_4 (c : Dev nD) (t : Fin cfg3.N) (q : Fin 128) :
    (iblk3 V c 4 t : Vec Ideal S128 .f32) (ix1 q) = bArr0 V c (ix1 q) := by
  show bArr0 V c (((cfg3.win 4).blk t).view.emb (ix1 q)) = _
  refine congrArg (bArr0 V c) ?_
  obtain ⟨-, -, -, -, -, -, -, -, -, -, e0, -⟩ := idx_facts0 t
  funext ax; apply Fin.ext
  match ax with
  | ⟨0, _⟩ => show win3_4.index t (0 : Fin 1) * 128 + 1 * q.val = q.val; omega

/-- A whole [100000,128] array read through the output's block at point t, at (p, q), is the array at (r, q). -/
theorem rd0_5 (G : S100000x128.Idx → EReal) (t : Fin cfg3.N) (p : Fin 2000) (q : Fin 128) (r : Fin 100000)
    (hr : r.val = win3_5.index t (0 : Fin 2) * 2000 + p.val) :
    (((cfg3.win 5).blk t).view.read (Elt Ideal) G : Vec Ideal S2000x128 .f32) (ix2 p q) = G (ix2 r q) := by
  show G (((cfg3.win 5).blk t).view.emb (ix2 p q)) = _
  refine congrArg G ?_
  obtain ⟨-, -, -, -, -, -, -, -, -, -, -, e0, e1⟩ := idx_facts0 t
  funext ax; apply Fin.ext
  match ax with
  | ⟨0, _⟩ => show win3_5.index t (0 : Fin 2) * 2000 + 1 * p.val = r.val; omega
  | ⟨1, _⟩ => show win3_5.index t (1 : Fin 2) * 128 + 1 * q.val = q.val; omega

/-! ## What a point writes back -/

/-- WHAT POINT t WRITES BACK is block t of the whole-array update. -/
theorem flushed0_eq (c : Dev nD) (t : Fin cfg3.N) :
    (dat3 (F := Ideal) V c).flushed 5 t = ((cfg3.win 5).blk t).view.read (Elt Ideal) (upd0 V c) := by
  show (cfg3.win 5).cut (grid3.coords t) ((dat3 (F := Ideal) V c).after 5 t) = _
  rw [after3_5]
  funext j
  obtain ⟨p, q, rfl⟩ : ∃ (p : Fin 2000) (q : Fin 128), j = ix2 p q := ⟨j 0, j 1, eq_ix2 j⟩
  have hlt : win3_5.index t (0 : Fin 2) * 2000 + p.val < 100000 := by
    have e := (idx_facts0 t).2.2.2.2.2.2.2.2.2.2.2.1
    have ht : t.val < 50 := Nat.lt_of_lt_of_eq t.isLt N_3
    omega
  refine (out3_apply (iblk3 V c 0 t) (iblk3 V c 1 t) (iblk3 V c 2 t) (iblk3 V c 3 t) (iblk3 V c 4 t) p q).trans ?_
  refine Eq.trans ?_ (rd0_5 (upd0 V c) t p q ⟨_, hlt⟩ rfl).symm
  show _ = max ((((∑ k : Fin 128, meansArr0 V c (ix3 (0 : Fin 2) ⟨_, hlt⟩ k) * wlsArr0 V c (ix3 (0 : Fin 2) k q))
      + ∑ k : Fin 128, meansArr0 V c (ix3 (1 : Fin 2) ⟨_, hlt⟩ k) * wlsArr0 V c (ix3 (1 : Fin 2) k q))
      + ∑ k : Fin 128, xdArr0 V c (ix2 ⟨_, hlt⟩ k) * wrArr0 V c (ix2 k q))
      + bArr0 V c (ix1 q)) 0
  simp only [rd0_0 V c t _ p _ ⟨_, hlt⟩ rfl, rd0_1 V c t, rd0_2 V c t p _ ⟨_, hlt⟩ rfl, rd0_3 V c t, rd0_4 V c t]

/-! ## The blocks written back tile the array -/

/-- An index of the array is in point t's block iff each coordinate is in the block's range on its axis. -/
theorem mem_blk0 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v217).slice (win3_5.rect t)).set ↔ _
  rw [View.set_slice_whole, Rect.mem_set_unit]
  exact Iff.rfl

/-- Row r is in the block of point r / 2000, which writes back. -/
theorem cover0 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hlt : (i 0).val / 2000 < cfg3.N := by rw [show cfg3.N = 50 from N_3]; omega
  refine ⟨⟨(i 0).val / 2000, hlt⟩, flush3_5 _, ?_⟩
  rw [mem_blk0]
  obtain ⟨-, -, -, -, -, -, -, -, -, -, -, e0, e1⟩ := idx_facts0 ⟨(i 0).val / 2000, hlt⟩
  have e0' : win3_5.index ⟨(i 0).val / 2000, hlt⟩ (0 : Fin 2) = (i 0).val / 2000 := e0
  intro a
  match a with
  | ⟨0, _⟩ => show win3_5.index ⟨(i 0).val / 2000, hlt⟩ (0 : Fin 2) * 2000 ≤ (i 0).val ∧ (i 0).val < win3_5.index ⟨(i 0).val / 2000, hlt⟩ (0 : Fin 2) * 2000 + 2000; omega
  | ⟨1, _⟩ => show win3_5.index ⟨(i 0).val / 2000, hlt⟩ (1 : Fin 2) * 128 ≤ (i 1).val ∧ (i 1).val < win3_5.index ⟨(i 0).val / 2000, hlt⟩ (1 : Fin 2) * 128 + 128; omega

/-! ## The array after the run -/

/-- THE OUTPUT ARRAY after the grid has run is the whole-array update of the arrays the region's windows read. -/
theorem arr (V : (c : Dev nD) → (b : Ref sig .tc) → Buf (Elt Ideal) ((c : Thread nD τ).loc b)) (c : Dev nD) :
    (dat3 (F := Ideal) V c).arrAt 5 cfg3.N
      = Cert.IdxSpec.sage2 100000 (V c main_v213) (V c main_v216) (V c main_v102) (V c main_v205) (V c main_v210) :=
  (dat3 (F := Ideal) V c).arrAt_eq_of_cover 5 (upd0 V c) (fun t _ => flushed0_eq V c t) cover0

end Cert.KernelIdeal.RegVal3

end
-- ==== Proof.KWArgs.lean ====
import proofs.«165177_j32074815766916_1_alg».proof.Proof.FIW
import proofs.«165177_j32074815766916_1_alg».proof.Proof.KArgs

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem kv_main_arg0 : W0 m ρ c (Proc.devRef .tc main_arg0) = (argsK m c).xa := rfl
theorem kv_main_arg1 : W0 m ρ c (Proc.devRef .tc main_arg1) = (argsK m c).xp := rfl
theorem kv_main_arg2 : W0 m ρ c (Proc.devRef .tc main_arg2) = (argsK m c).xt := rfl
theorem kv_main_arg3 : W0 m ρ c (Proc.devRef .tc main_arg3) = (argsK m c).Wl := rfl
theorem kv_main_arg4 : W0 m ρ c (Proc.devRef .tc main_arg4) = (argsK m c).bl := rfl
theorem kv_main_arg5 : W0 m ρ c (Proc.devRef .tc main_arg5) = (argsK m c).Wr := rfl
theorem kv_main_arg6 : W0 m ρ c (Proc.devRef .tc main_arg6) = (argsK m c).lmW := rfl
theorem kv_main_arg7 : W0 m ρ c (Proc.devRef .tc main_arg7) = (argsK m c).lmb := rfl
theorem kv_main_arg8 : W0 m ρ c (Proc.devRef .tc main_arg8) = (argsK m c).ltW := rfl
theorem kv_main_arg9 : W0 m ρ c (Proc.devRef .tc main_arg9) = (argsK m c).ltb := rfl
theorem kv_main_arg10 : W0 m ρ c (Proc.devRef .tc main_arg10) = (argsK m c).l2W := rfl
theorem kv_main_arg11 : W0 m ρ c (Proc.devRef .tc main_arg11) = (argsK m c).l2b := rfl
theorem kv_main_arg12 : W0 m ρ c (Proc.devRef .tc main_arg12) = (argsK m c).sap := rfl
theorem kv_main_arg13 : W0 m ρ c (Proc.devRef .tc main_arg13) = (argsK m c).dap := rfl
theorem kv_main_arg14 : W0 m ρ c (Proc.devRef .tc main_arg14) = (argsK m c).spa := rfl
theorem kv_main_arg15 : W0 m ρ c (Proc.devRef .tc main_arg15) = (argsK m c).dpa := rfl
theorem kv_main_arg16 : W0 m ρ c (Proc.devRef .tc main_arg16) = (argsK m c).spt := rfl
theorem kv_main_arg17 : W0 m ρ c (Proc.devRef .tc main_arg17) = (argsK m c).dpt := rfl
theorem kv_main_arg18 : W0 m ρ c (Proc.devRef .tc main_arg18) = (argsK m c).stp := rfl
theorem kv_main_arg19 : W0 m ρ c (Proc.devRef .tc main_arg19) = (argsK m c).dtp := rfl

end Cert.KernelIdeal.KW

end
-- ==== Proof.RegA1Pay.lean ====
/-
  Region 1's arithmetic at one entry, on extended reals.

  The body stores one 2000 × 128 block. Its entry at row p and column q is
      max( Σ_k mean[0,p,k]·Wl[0,k,q] + Σ_k x[p,k]·Wr[k,q] + b[q], 0 ),
  where mean is the block of neighbour means (one relation, carried on a leading unit axis), Wl the stacked left weight,
  x the block of the node's own features, Wr the right weight and b the bias. The casts to the narrow format are the
  identity on exact values; each matrix product into a zero accumulator is the sum over its one contracted coordinate;
  dropping or adding a unit axis keeps the row-major position; the bias row is repeated down the rows.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal1

open Idealize.ShloMosaic Idealize.ShloMosaic.ValueIdx Cert.KernelIdeal Cert.KernelIdeal.Gen

/-! ## The matrix product's operand indices, axis by axis -/

/-- The left operand's row is the output's row. -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contracted coordinate. -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contracted coordinate. -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product at an entry -/

/-- A 2000 × 128 by 128 × 128 product into the zero accumulator, at entry (p, q): the sum over the 128 contracted
    coordinates of the products of the two operands' entries. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The stored block at an entry -/

/-- Entry (p, q) of the block the body stores: the two sums, the bias, the clamp at zero. -/
theorem pay_at (x0 : Vec Ideal S1x2000x128 .f32) (x1 : Vec Ideal S1x128x128 .f32) (x2 : Vec Ideal S2000x128 .f32)
    (x3 : Vec Ideal S128x128 .f32) (x4 : Vec Ideal S128 .f32) (p : Fin 2000) (q : Fin 128) :
    k1_pay1 (F := Ideal) x0 x1 x2 x3 x4 (ix2 p q)
      = max (((∑ k : Fin 128, x0 (ix3 (0 : Fin 1) p k) * x1 (ix3 (0 : Fin 1) k q))
          + ∑ k : Fin 128, x2 (ix2 p k) * x3 (ix2 k q))
          + x4 (ix1 q)) 0 := by
  unfold k1_pay1
  rw [maximumf_apply, broadcast_apply, addf_apply, addf_apply, matmul_at, matmul_at,
    broadcastTo_1b_ab_apply, shapeCast_a_1a_apply, shapeCast_self]
  simp only [truncf_apply, shapeCast_1ab_ab_apply, shapeCast_self]
  show max _ (Ideal.ofBits .f32 0x00000000#32) = _
  rw [Ideal.ofBits_zero_f32]

end Cert.KernelIdeal.RegVal1

end
-- ==== Proof.RegA1.lean ====
/-
  Region 1's value: what its output array holds after the grid has run, as one function of the arrays it reads, on
  extended reals.

  The region updates a node type with one incoming relation, 40000 rows in 20 blocks of 2000. Point t of the grid reads
  rows 2000·t … 2000·t + 1999 of the neighbour means and of the node's own features, the two weight matrices and the bias
  whole, and writes back rows 2000·t … 2000·t + 1999 of
      max( Σ_k mean[0,r,k]·Wl[0,k,q] + Σ_k x[r,k]·Wr[k,q] + b[q], 0 ).
  An entry of the written block depends only on its own row of the means and features, so each point writes exactly its
  block of that one whole-array function; the 20 blocks tile the rows (row r lies in block r / 2000), so the array ends
  holding the function everywhere.
-/
import proofs.«165177_j32074815766916_1_alg».proof.Proof.FIL1
import proofs.«165177_j32074815766916_1_alg».proof.Proof.IdxSpec
import proofs.«165177_j32074815766916_1_alg».proof.Proof.RegA1Pay
import Idealize.ShloMosaic.Lib.Pipeline.Value
import Idealize.ShloMosaic.Lib.ValueIdx

set_option maxRecDepth 16384

noncomputable section

namespace Cert.KernelIdeal.RegVal1

open Idealize.ShloMosaic Idealize.ShloMosaic.TcCoe Idealize.ShloMosaic.ValueIdx Cert.KernelIdeal Cert.KernelIdeal.Gen Cert.KernelIdeal.GenP
open Idealize.ShloMosaic.Pipeline (Dat)

/-! ## The arrays the region reads, by their literal types -/

variable (V : (c : Dev nD) → (b : Ref sig .tc) → Buf (Elt Ideal) ((c : Thread nD τ).loc b))

/-- The stacked neighbour means (one relation), 40000 rows. -/
noncomputable abbrev meansArr (c : Dev nD) : Vec Ideal S1x40000x128 .f32 := V c main_v109
/-- The stacked left weight. -/
noncomputable abbrev wlsArr (c : Dev nD) : Vec Ideal S1x128x128 .f32 := V c main_v110
/-- The node type's own features, 40000 rows. -/
noncomputable abbrev xdArr (c : Dev nD) : Vec Ideal S40000x128 .f32 := V c main_arg0
/-- The right weight. -/
noncomputable abbrev wrArr (c : Dev nD) : Vec Ideal S128x128 .f32 := V c main_v106
/-- The bias. -/
noncomputable abbrev biasArr (c : Dev nD) : Vec Ideal S128 .f32 := V c main_v108

/-- What the region's output array ends holding: the one-relation update of all 40000 rows. -/
noncomputable abbrev updArr (c : Dev nD) : Vec Ideal S40000x128 .f32 :=
  Cert.IdxSpec.sage1 40000 (meansArr V c) (wlsArr V c) (xdArr V c) (wrArr V c) (biasArr V c)

/-- The update at row r, column q, with the coordinates named. -/
theorem updArr_at (c : Dev nD) (i : S40000x128.Idx) (r : Fin 40000) (q : Fin 128) (hi : i = ix2 r q) :
    updArr V c i
      = max (((∑ k : Fin 128, meansArr V c (ix3 (0 : Fin 1) r k) * wlsArr V c (ix3 (0 : Fin 1) k q))
          + ∑ k : Fin 128, xdArr V c (ix2 r k) * wrArr V c (ix2 k q))
          + biasArr V c (ix1 q)) 0 := by
  subst hi; rfl

/-! ## The index maps over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid's points: the means' and the features' blocks move down the rows with
    the output's block; the two weights and the bias are taken whole at every point; the output's block index is the
    point's number. -/
theorem idx_facts : ∀ t : Fin cfg1.N,
    win1_0.index t (0 : Fin 3) = 0 ∧ win1_0.index t (1 : Fin 3) = win1_5.index t (0 : Fin 2) ∧ win1_0.index t (2 : Fin 3) = 0
    ∧ win1_1.index t (0 : Fin 3) = 0 ∧ win1_1.index t (1 : Fin 3) = 0 ∧ win1_1.index t (2 : Fin 3) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-! ## Each input window's block, read off its array -/

/-- The means' block at point t is rows 2000·b … 2000·b + 1999 of the means, b the output's block index at t. -/
theorem means_blk (c : Dev nD) (t : Fin cfg1.N) (y : S1x2000x128.Idx) (i : S1x40000x128.Idx)
    (h0 : (i 0).val = (y 0).val) (h1 : (i 1).val = win1_5.index t (0 : Fin 2) * 2000 + (y 1).val) (h2 : (i 2).val = (y 2).val) :
    (iblk1 V c 0 t : Vec Ideal S1x2000x128 .f32) y = meansArr V c i := by
  obtain ⟨e0, e1, e2, -⟩ := idx_facts t
  unfold iblk1
  rw [View.read_apply]
  show V c main_v109 _ = V c main_v109 _
  congr 1
  funext a
  apply Fin.ext
  match a with
  | ⟨0, _⟩ => show win1_0.index t (0 : Fin 3) * 1 + 1 * (y 0).val = (i 0).val; rw [e0, h0]; omega
  | ⟨1, _⟩ => show win1_0.index t (1 : Fin 3) * 2000 + 1 * (y 1).val = (i 1).val; rw [e1, h1]; omega
  | ⟨2, _⟩ => show win1_0.index t (2 : Fin 3) * 128 + 1 * (y 2).val = (i 2).val; rw [e2, h2]; omega

/-- The features' block at point t is the same rows of the features. -/
theorem xd_blk (c : Dev nD) (t : Fin cfg1.N) (y : S2000x128.Idx) (i : S40000x128.Idx)
    (h0 : (i 0).val = win1_5.index t (0 : Fin 2) * 2000 + (y 0).val) (h1 : (i 1).val = (y 1).val) :
    (iblk1 V c 2 t : Vec Ideal S2000x128 .f32) y = xdArr V c i := by
  obtain ⟨-, -, -, -, -, -, e0, e1, -⟩ := idx_facts t
  unfold iblk1
  rw [View.read_apply]
  show V c main_arg0 _ = V c main_arg0 _
  congr 1
  funext a
  apply Fin.ext
  match a with
  | ⟨0, _⟩ => show win1_2.index t (0 : Fin 2) * 2000 + 1 * (y 0).val = (i 0).val; rw [e0, h0]; omega
  | ⟨1, _⟩ => show win1_2.index t (1 : Fin 2) * 128 + 1 * (y 1).val = (i 1).val; rw [e1, h1]; omega

/-- The left weight's window takes the whole array at every point. -/
theorem wls_blk (c : Dev nD) (t : Fin cfg1.N) : (iblk1 V c 1 t : Vec Ideal S1x128x128 .f32) = wlsArr V c := by
  obtain ⟨-, -, -, e0, e1, e2, -⟩ := idx_facts t
  funext y
  unfold iblk1
  rw [View.read_apply]
  show V c main_v110 _ = V c main_v110 _
  congr 1
  funext a
  apply Fin.ext
  match a with
  | ⟨0, _⟩ => show win1_1.index t (0 : Fin 3) * 1 + 1 * (y 0).val = (y 0).val; rw [e0]; omega
  | ⟨1, _⟩ => show win1_1.index t (1 : Fin 3) * 128 + 1 * (y 1).val = (y 1).val; rw [e1]; omega
  | ⟨2, _⟩ => show win1_1.index t (2 : Fin 3) * 128 + 1 * (y 2).val = (y 2).val; rw [e2]; omega

/-- The right weight's window takes the whole array at every point. -/
theorem wr_blk (c : Dev nD) (t : Fin cfg1.N) : (iblk1 V c 3 t : Vec Ideal S128x128 .f32) = wrArr V c := by
  obtain ⟨-, -, -, -, -, -, -, -, e0, e1, -⟩ := idx_facts t
  funext y
  unfold iblk1
  rw [View.read_apply]
  show V c main_v106 _ = V c main_v106 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias's window takes the whole array at every point. -/
theorem bias_blk (c : Dev nD) (t : Fin cfg1.N) : (iblk1 V c 4 t : Vec Ideal S128 .f32) = biasArr V c := by
  obtain ⟨-, -, -, -, -, -, -, -, -, -, e0, -⟩ := idx_facts t
  funext y
  unfold iblk1
  rw [View.read_apply]
  show V c main_v108 _ = V c main_v108 _
  congr 1
  funext a
  apply Fin.ext
  match a with
  | ⟨0, _⟩ => show win1_4.index t (0 : Fin 1) * 128 + 1 * (y 0).val = (y 0).val; rw [e0]; omega

/-! ## What one point writes back -/

/-- The body's stored block from the five input blocks, without the load and store rectangles (each is the whole
    staging buffer). -/
theorem out_eq (x0 : Vec Ideal S1x2000x128 .f32) (x1 : Vec Ideal S1x128x128 .f32) (x2 : Vec Ideal S2000x128 .f32)
    (x3 : Vec Ideal S128x128 .f32) (x4 : Vec Ideal S128 .f32) :
    out1_5 (F := Ideal) x0 x1 x2 x3 x4 = k1_pay1 (F := Ideal) x0 x1 x2 x3 x4 := by
  unfold out1_5
  rw [View.canon_unit_zero hz2]
  simp only [View.ld_unit_zero (S := S1x2000x128) hz3, View.ld_unit_zero (S := S1x128x128) hz3,
    View.ld_unit_zero (S := S2000x128) hz2, View.ld_unit_zero (S := S128x128) hz2, View.ld_unit_zero (S := S128) hz1]

/-- The output block's entry (p, q) at point t sits at row 2000·b + p, column q of the array, b the block index. -/
theorem out_emb (t : Fin cfg1.N) (p : Fin 2000) (q : Fin 128) (r : Fin 40000)
    (hr : r.val = win1_5.index t (0 : Fin 2) * 2000 + p.val) :
    ((cfg1.win 5).blk t).view.emb (ix2 p q) = (ix2 r q : S40000x128.Idx) := by
  obtain ⟨-, -, -, -, -, -, -, -, -, -, -, -, e1⟩ := idx_facts t
  funext a
  apply Fin.ext
  match a with
  | ⟨0, _⟩ => show win1_5.index t (0 : Fin 2) * 2000 + 1 * p.val = r.val; rw [hr]; omega
  | ⟨1, _⟩ => show win1_5.index t (1 : Fin 2) * 128 + 1 * q.val = q.val; rw [e1]; omega

/-- What point t writes back is block t of the update of all rows: entry (p, q) of the stored block is the update at
    row 2000·b + p, column q, b the output's block index at t — each sum termwise, the means' and the features' blocks
    read at those rows. -/
theorem flushed_eq (c : Dev nD) (t : Fin cfg1.N) :
    (dat1 (F := Ideal) V c).flushed 5 t = ((cfg1.win 5).blk t).view.read (Elt Ideal) (updArr V c) := by
  show (cfg1.win 5).cut (grid1.coords t) ((dat1 V c).after 5 t) = _
  rw [after1_5, out_eq, wls_blk, wr_blk, bias_blk]
  funext j
  obtain ⟨p, q, rfl⟩ : ∃ (p : Fin 2000) (q : Fin 128), j = ix2 p q := ⟨j 0, j 1, eq_ix2 j⟩
  obtain ⟨-, -, -, -, -, -, -, -, -, -, -, e0, -⟩ := idx_facts t
  have hN : cfg1.N = 20 := N_1
  have ht : t.val < 20 := hN ▸ t.isLt
  obtain ⟨r, hr⟩ : ∃ r : Fin 40000, r.val = win1_5.index t (0 : Fin 2) * 2000 + p.val :=
    ⟨⟨win1_5.index t (0 : Fin 2) * 2000 + p.val, by rw [e0]; have := p.isLt; omega⟩, rfl⟩
  rw [View.read_apply]
  show k1_pay1 (F := Ideal) (iblk1 V c 0 t) (wlsArr V c) (iblk1 V c 2 t) (wrArr V c) (biasArr V c) (ix2 p q)
    = updArr V c (((cfg1.win 5).blk t).view.emb (ix2 p q))
  rw [out_emb t p q r hr, updArr_at V c _ r q rfl]
  refine (pay_at _ _ _ _ _ p q).trans ?_
  refine congrArg₂ max (congrArg₂ (· + ·) (congrArg₂ (· + ·) (Finset.sum_congr rfl fun k _ => ?_) (Finset.sum_congr rfl fun k _ => ?_)) rfl) rfl
  · exact congrArg (· * _) (means_blk V c t (ix3 (0 : Fin 1) p k) (ix3 (0 : Fin 1) r k) rfl hr rfl)
  · exact congrArg (· * _) (xd_blk V c t (ix2 p k) (ix2 r k) hr rfl)

/-! ## The blocks cover the array -/

/-- An index of the array is in point t's block iff each coordinate is in the block's range on its axis. -/
theorem mem_blk (t : Fin cfg1.N) (i : S40000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v111).slice (win1_5.rect t)).set ↔ _
  rw [View.set_slice_whole, Rect.mem_set_unit]
  exact Iff.rfl

/-- Row r of the array is written by the point numbered r / 2000 (and every point writes its block back). -/
theorem cover (i : S40000x128.Idx) :
    ∃ t : Fin cfg1.N, (cfg1.win 5).flush t = true ∧ i ∈ ((cfg1.win 5).blk t).view.set := by
  have hi0 : (i 0).val < 40000 := (i 0).isLt
  have hi1 : (i 1).val < 128 := (i 1).isLt
  have hN : cfg1.N = 20 := N_1
  obtain ⟨t, ht⟩ : ∃ t : Fin cfg1.N, t.val = (i 0).val / 2000 := ⟨⟨(i 0).val / 2000, by rw [hN]; omega⟩, rfl⟩
  obtain ⟨-, -, -, -, -, -, -, -, -, -, -, e0, e1⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

/-! ## The array after the run -/

/-- THE REGION'S VALUE: after the grid has run, the output array holds the one-relation update of all 40000 rows — every
    point writes its block of it, and the blocks cover the array. -/
theorem arr (c : Dev nD) :
    (dat1 (F := Ideal) V c).arrAt 5 cfg1.N
      = Cert.IdxSpec.sage1 40000 (V c main_v109) (V c main_v110) (V c main_arg0) (V c main_v106) (V c main_v108) :=
  (dat1 V c).arrAt_eq_of_cover 5 (updArr V c) (fun t _ => flushed_eq V c t) cover

end Cert.KernelIdeal.RegVal1

end
-- ==== Proof.RegP0Pay.lean ====
/-
  One row block of a two-relation dense update, read entry by entry on extended reals.

  The block's result at (p, q) is max(Σ_k a₀[0,p,k]·w₀[0,k,q] + Σ_k a₁[0,p,k]·w₁[0,k,q] + Σ_k x[p,k]·r[k,q] + b[q], 0):
  the leading unit axes of the two neighbour-mean slabs and of the two left-weight slabs are dropped, the narrowing
  format changes are the identity on extended reals, each matrix product into a zero accumulator is its plain sum over
  the 128 feature columns (the contraction index re-indexed by its one coordinate), the bias row is copied down the
  rows, and the clamp is against the zero word.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegVal0

open Idealize.ShloMosaic Idealize.ShloMosaic.ValueIdx Cert.KernelIdeal Cert.KernelIdeal.Gen
open scoped BigOperators

/-! ## The product's operand indices: rows × contraction, contraction × columns -/

/-- The left operand's row is the output's row. -/
theorem lhs_mm0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contraction's one coordinate. -/
theorem lhs_mm0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contraction's one coordinate. -/
theorem rhs_mm0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product into a zero accumulator, at an entry -/

/-- A [2000,128] × [128,128] product into the zero splat reads, at (p, q), Σ_k x[p,k]·w[k,q]. -/
theorem mm0_apply {φ₁ φ₂ : FTy} (x : FVec Ideal S2000x128 φ₁) (w : FVec Ideal S128x128 φ₂) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm0_0 _ _
      | ⟨1, _⟩ => exact (lhs_mm0_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm0_0 _ _).trans hk
      | ⟨1, _⟩ => exact rhs_mm0_1 _ _)
  rw [el, er]

/-! ## The payload at an entry -/

/-- The block the body stores, at (p, q): the three sums over the feature columns, plus the bias entry, clamped at zero. -/
theorem pay0_apply (v0 v3 : Vec Ideal S1x2000x128 .f32) (v6 v9 : Vec Ideal S1x128x128 .f32) (v12 : Vec Ideal S2000x128 .f32)
    (v14 : Vec Ideal S128x128 .f32) (v22 : Vec Ideal S128 .f32) (p : Fin 2000) (q : Fin 128) :
    k0_pay1 (F := Ideal) v0 v3 v6 v9 v12 v14 v22 (ix2 p q)
      = max ((((∑ k : Fin 128, v0 (ix3 (0 : Fin 1) p k) * v6 (ix3 (0 : Fin 1) k q))
          + ∑ k : Fin 128, v3 (ix3 (0 : Fin 1) p k) * v9 (ix3 (0 : Fin 1) k q))
          + ∑ k : Fin 128, v12 (ix2 p k) * v14 (ix2 k q))
          + v22 (ix1 q)) 0 := by
  unfold k0_pay1
  simp only [maximumf_apply, addf_apply, broadcast_apply, mm0_apply, truncf_apply, shapeCast_1ab_ab_apply, shapeCast_self,
    broadcastTo_1b_ab_apply, shapeCast_a_1a_apply]
  exact congrArg (max _) Ideal.ofBits_zero_f32

end Cert.KernelIdeal.RegVal0

end
-- ==== Proof.RegP0.lean ====
/-
  What one grid-tiled two-relation dense update leaves in its output array, as one function of the arrays it reads.

  The grid has 50 points; point t handles rows 2000·t … 2000·t + 1999. At point t the two neighbour-mean slabs and the
  node's own features are read through blocks of 2000 rows starting at row 2000·t, while the two stacked left weights,
  the right weight and the bias are read whole at every point. The body's stored block at (p, q) is therefore the whole-array
  update at (2000·t + p, q): the same three sums over the 128 feature columns, the same bias entry, the same clamp at
  zero. Every row r lies in the block of point r / 2000, so the blocks written back tile the array and the array ends
  holding the update everywhere.
-/
import proofs.«165177_j32074815766916_1_alg».proof.Proof.FIL0
import proofs.«165177_j32074815766916_1_alg».proof.Proof.IdxSpec
import proofs.«165177_j32074815766916_1_alg».proof.Proof.RegP0Pay
import Idealize.ShloMosaic.Lib.ValueIdx
import Idealize.ShloMosaic.Lib.Pipeline.Value

set_option maxRecDepth 16384

noncomputable section

namespace Cert.KernelIdeal.RegVal0

open Idealize.ShloMosaic Idealize.ShloMosaic.ValueIdx Idealize.ShloMosaic.TcCoe Cert.KernelIdeal Cert.KernelIdeal.Gen Cert.KernelIdeal.GenP
open Idealize.ShloMosaic.Pipeline (Dat)
open scoped BigOperators

variable (V : (c : Dev nD) → (b : Ref sig .tc) → Buf (Elt Ideal) ((c : Thread nD τ).loc b))

/-! ## The arrays the region reads, each at its literal shape -/

/-- The two neighbour-mean slabs, stacked: [2, 100000, 128]. -/
abbrev meansArr0 (c : Dev nD) : S2x100000x128.Idx → EReal := V c main_v98
/-- The two left weights, stacked: [2, 128, 128]. -/
abbrev wlsArr0 (c : Dev nD) : S2x128x128.Idx → EReal := V c main_v101
/-- The node type's own features: [100000, 128]. -/
abbrev xdArr0 (c : Dev nD) : S100000x128.Idx → EReal := V c main_arg1
/-- The right weight: [128, 128]. -/
abbrev wrArr0 (c : Dev nD) : S128x128.Idx → EReal := V c main_v90
/-- The bias: [128]. -/
abbrev bArr0 (c : Dev nD) : S128.Idx → EReal := V c main_v95

/-- The whole-array update of those arrays. -/
abbrev upd0 (c : Dev nD) : S100000x128.Idx → EReal :=
  Cert.IdxSpec.sage2 100000 (meansArr0 V c) (wlsArr0 V c) (xdArr0 V c) (wrArr0 V c) (bArr0 V c)

/-! ## The body's loads: a slab of a stacked block, or a whole block -/

theorem zero2 : (![0, 0] : Fin 2 → Nat) = fun _ => 0 := funext fun a => by fin_cases a <;> rfl
theorem zero1 : (![0] : Fin 1 → Nat) = fun _ => 0 := funext fun a => by fin_cases a; rfl

/-- Slab 0 of the stacked means' block, at (a, p, k), is the block at (0, p, k). -/
theorem ld_means0_0 (x : Vec Ideal S2x2000x128 .f32) (a : Fin 1) (p : Fin 2000) (k : Fin 128) :
    View.ld x r0_0 (ix3 a p k) = x (ix3 (0 : Fin 2) p k) := by
  show x _ = x _
  congr 1
  funext ax; apply Fin.ext
  match ax with
  | ⟨0, _⟩ => show 0 + 1 * a.val = 0; omega
  | ⟨1, _⟩ => show 0 + 1 * p.val = p.val; omega
  | ⟨2, _⟩ => show 0 + 1 * k.val = k.val; omega

/-- Slab 1 of the stacked means' block, at (a, p, k), is the block at (1, p, k). -/
theorem ld_means0_1 (x : Vec Ideal S2x2000x128 .f32) (a : Fin 1) (p : Fin 2000) (k : Fin 128) :
    View.ld x r0_1 (ix3 a p k) = x (ix3 (1 : Fin 2) p k) := by
  show x _ = x _
  congr 1
  funext ax; apply Fin.ext
  match ax with
  | ⟨0, _⟩ => show 1 + 1 * a.val = 1; omega
  | ⟨1, _⟩ => show 0 + 1 * p.val = p.val; omega
  | ⟨2, _⟩ => show 0 + 1 * k.val = k.val; omega

/-- Slab 0 of the stacked left weights, at (a, k, q), is the stack at (0, k, q). -/
theorem ld_wls0_0 (x : Vec Ideal S2x128x128 .f32) (a : Fin 1) (k : Fin 128) (q : Fin 128) :
    View.ld x r0_2 (ix3 a k q) = x (ix3 (0 : Fin 2) k q) := by
  show x _ = x _
  congr 1
  funext ax; apply Fin.ext
  match ax with
  | ⟨0, _⟩ => show 0 + 1 * a.val = 0; omega
  | ⟨1, _⟩ => show 0 + 1 * k.val = k.val; omega
  | ⟨2, _⟩ => show 0 + 1 * q.val = q.val; omega

/-- Slab 1 of the stacked left weights, at (a, k, q), is the stack at (1, k, q). -/
theorem ld_wls0_1 (x : Vec Ideal S2x128x128 .f32) (a : Fin 1) (k : Fin 128) (q : Fin 128) :
    View.ld x r0_3 (ix3 a k q) = x (ix3 (1 : Fin 2) k q) := by
  show x _ = x _
  congr 1
  funext ax; apply Fin.ext
  match ax with
  | ⟨0, _⟩ => show 1 + 1 * a.val = 1; omega
  | ⟨1, _⟩ => show 0 + 1 * k.val = k.val; omega
  | ⟨2, _⟩ => show 0 + 1 * q.val = q.val; omega

/-! ## The body's stored block at an entry -/

/-- What the body leaves in the output buffer, at (p, q), from the five input blocks: the update's formula on the blocks. -/
theorem out0_apply (x0 : Vec Ideal S2x2000x128 .f32) (x1 : Vec Ideal S2x128x128 .f32) (x2 : Vec Ideal S2000x128 .f32)
    (x3 : Vec Ideal S128x128 .f32) (x4 : Vec Ideal S128 .f32) (p : Fin 2000) (q : Fin 128) :
    out0_5 x0 x1 x2 x3 x4 (ix2 p q)
      = max ((((∑ k : Fin 128, x0 (ix3 (0 : Fin 2) p k) * x1 (ix3 (0 : Fin 2) k q))
          + ∑ k : Fin 128, x0 (ix3 (1 : Fin 2) p k) * x1 (ix3 (1 : Fin 2) k q))
          + ∑ k : Fin 128, x2 (ix2 p k) * x3 (ix2 k q))
          + x4 (ix1 q)) 0 := by
  unfold out0_5
  rw [View.canon_unit_zero zero2]
  rw [pay0_apply]
  refine congrArg (fun z => max z 0) ?_
  refine congrArg₂ (· + ·) (congrArg₂ (· + ·) (congrArg₂ (· + ·) ?_ ?_) ?_) ?_
  · exact Finset.sum_congr rfl fun k _ => congrArg₂ (· * ·) (ld_means0_0 x0 0 p k) (ld_wls0_0 x1 0 k q)
  · exact Finset.sum_congr rfl fun k _ => congrArg₂ (· * ·) (ld_means0_1 x0 0 p k) (ld_wls0_1 x1 0 k q)
  · exact Finset.sum_congr rfl fun k _ => congrArg₂ (· * ·)
      (congrFun (View.ld_unit_zero (S := S2000x128) zero2 _ x2) (ix2 p k))
      (congrFun (View.ld_unit_zero (S := S128x128) zero2 _ x3) (ix2 k q))
  · exact congrFun (View.ld_unit_zero (S := S128) zero1 _ x4) (ix1 q)

/-! ## The index maps over the grid -/

/-- Decided over the 50 points: the means' and the features' blocks move with the output's along the rows, every other
    block index is zero, and the output's row-block index is the point's number. -/
theorem idx_facts0 : ∀ t : Fin cfg0.N,
    win0_0.index t (0 : Fin 3) = 0 ∧ win0_0.index t (1 : Fin 3) = win0_5.index t (0 : Fin 2) ∧ win0_0.index t (2 : Fin 3) = 0
    ∧ win0_1.index t (0 : Fin 3) = 0 ∧ win0_1.index t (1 : Fin 3) = 0 ∧ win0_1.index t (2 : Fin 3) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## Each window's block read where the index maps say -/

/-- The means' block at point t, at (a, p, k), is the array at (a, r, k) for the row r the output's block puts p at. -/
theorem rd0_0 (c : Dev nD) (t : Fin cfg0.N) (a : Fin 2) (p : Fin 2000) (k : Fin 128) (r : Fin 100000)
    (hr : r.val = win0_5.index t (0 : Fin 2) * 2000 + p.val) :
    (iblk0 V c 0 t : Vec Ideal S2x2000x128 .f32) (ix3 a p k) = meansArr0 V c (ix3 a r k) := by
  show meansArr0 V c (((cfg0.win 0).blk t).view.emb (ix3 a p k)) = _
  refine congrArg (meansArr0 V c) ?_
  obtain ⟨e0, e1, e2, -⟩ := idx_facts0 t
  funext ax; apply Fin.ext
  match ax with
  | ⟨0, _⟩ => show win0_0.index t (0 : Fin 3) * 2 + 1 * a.val = a.val; omega
  | ⟨1, _⟩ => show win0_0.index t (1 : Fin 3) * 2000 + 1 * p.val = r.val; omega
  | ⟨2, _⟩ => show win0_0.index t (2 : Fin 3) * 128 + 1 * k.val = k.val; omega

/-- The left weights' block is the whole stack at every point. -/
theorem rd0_1 (c : Dev nD) (t : Fin cfg0.N) (a : Fin 2) (k : Fin 128) (q : Fin 128) :
    (iblk0 V c 1 t : Vec Ideal S2x128x128 .f32) (ix3 a k q) = wlsArr0 V c (ix3 a k q) := by
  show wlsArr0 V c (((cfg0.win 1).blk t).view.emb (ix3 a k q)) = _
  refine congrArg (wlsArr0 V c) ?_
  obtain ⟨-, -, -, e0, e1, e2, -⟩ := idx_facts0 t
  funext ax; apply Fin.ext
  match ax with
  | ⟨0, _⟩ => show win0_1.index t (0 : Fin 3) * 2 + 1 * a.val = a.val; omega
  | ⟨1, _⟩ => show win0_1.index t (1 : Fin 3) * 128 + 1 * k.val = k.val; omega
  | ⟨2, _⟩ => show win0_1.index t (2 : Fin 3) * 128 + 1 * q.val = q.val; omega

/-- The features' block at point t, at (p, k), is the array at (r, k). -/
theorem rd0_2 (c : Dev nD) (t : Fin cfg0.N) (p : Fin 2000) (k : Fin 128) (r : Fin 100000)
    (hr : r.val = win0_5.index t (0 : Fin 2) * 2000 + p.val) :
    (iblk0 V c 2 t : Vec Ideal S2000x128 .f32) (ix2 p k) = xdArr0 V c (ix2 r k) := by
  show xdArr0 V c (((cfg0.win 2).blk t).view.emb (ix2 p k)) = _
  refine congrArg (xdArr0 V c) ?_
  obtain ⟨-, -, -, -, -, -, e0, e1, -⟩ := idx_facts0 t
  funext ax; apply Fin.ext
  match ax with
  | ⟨0, _⟩ => show win0_2.index t (0 : Fin 2) * 2000 + 1 * p.val = r.val; omega
  | ⟨1, _⟩ => show win0_2.index t (1 : Fin 2) * 128 + 1 * k.val = k.val; omega

/-- The right weight's block is the whole matrix at every point. -/
theorem rd0_3 (c : Dev nD) (t : Fin cfg0.N) (k : Fin 128) (q : Fin 128) :
    (iblk0 V c 3 t : Vec Ideal S128x128 .f32) (ix2 k q) = wrArr0 V c (ix2 k q) := by
  show wrArr0 V c (((cfg0.win 3).blk t).view.emb (ix2 k q)) = _
  refine congrArg (wrArr0 V c) ?_
  obtain ⟨-, -, -, -, -, -, -, -, e0, e1, -⟩ := idx_facts0 t
  funext ax; apply Fin.ext
  match ax with
  | ⟨0, _⟩ => show win0_3.index t (0 : Fin 2) * 128 + 1 * k.val = k.val; omega
  | ⟨1, _⟩ => show win0_3.index t (1 : Fin 2) * 128 + 1 * q.val = q.val; omega

/-- The bias's block is the whole vector at every point. -/
theorem rd0_4 (c : Dev nD) (t : Fin cfg0.N) (q : Fin 128) :
    (iblk0 V c 4 t : Vec Ideal S128 .f32) (ix1 q) = bArr0 V c (ix1 q) := by
  show bArr0 V c (((cfg0.win 4).blk t).view.emb (ix1 q)) = _
  refine congrArg (bArr0 V c) ?_
  obtain ⟨-, -, -, -, -, -, -, -, -, -, e0, -⟩ := idx_facts0 t
  funext ax; apply Fin.ext
  match ax with
  | ⟨0, _⟩ => show win0_4.index t (0 : Fin 1) * 128 + 1 * q.val = q.val; omega

/-- A whole [100000,128] array read through the output's block at point t, at (p, q), is the array at (r, q). -/
theorem rd0_5 (G : S100000x128.Idx → EReal) (t : Fin cfg0.N) (p : Fin 2000) (q : Fin 128) (r : Fin 100000)
    (hr : r.val = win0_5.index t (0 : Fin 2) * 2000 + p.val) :
    (((cfg0.win 5).blk t).view.read (Elt Ideal) G : Vec Ideal S2000x128 .f32) (ix2 p q) = G (ix2 r q) := by
  show G (((cfg0.win 5).blk t).view.emb (ix2 p q)) = _
  refine congrArg G ?_
  obtain ⟨-, -, -, -, -, -, -, -, -, -, -, e0, e1⟩ := idx_facts0 t
  funext ax; apply Fin.ext
  match ax with
  | ⟨0, _⟩ => show win0_5.index t (0 : Fin 2) * 2000 + 1 * p.val = r.val; omega
  | ⟨1, _⟩ => show win0_5.index t (1 : Fin 2) * 128 + 1 * q.val = q.val; omega

/-! ## What a point writes back -/

/-- WHAT POINT t WRITES BACK is block t of the whole-array update. -/
theorem flushed0_eq (c : Dev nD) (t : Fin cfg0.N) :
    (dat0 (F := Ideal) V c).flushed 5 t = ((cfg0.win 5).blk t).view.read (Elt Ideal) (upd0 V c) := by
  show (cfg0.win 5).cut (grid0.coords t) ((dat0 (F := Ideal) V c).after 5 t) = _
  rw [after0_5]
  funext j
  obtain ⟨p, q, rfl⟩ : ∃ (p : Fin 2000) (q : Fin 128), j = ix2 p q := ⟨j 0, j 1, eq_ix2 j⟩
  have hlt : win0_5.index t (0 : Fin 2) * 2000 + p.val < 100000 := by
    have e := (idx_facts0 t).2.2.2.2.2.2.2.2.2.2.2.1
    have ht : t.val < 50 := Nat.lt_of_lt_of_eq t.isLt N_0
    omega
  refine (out0_apply (iblk0 V c 0 t) (iblk0 V c 1 t) (iblk0 V c 2 t) (iblk0 V c 3 t) (iblk0 V c 4 t) p q).trans ?_
  refine Eq.trans ?_ (rd0_5 (upd0 V c) t p q ⟨_, hlt⟩ rfl).symm
  show _ = max ((((∑ k : Fin 128, meansArr0 V c (ix3 (0 : Fin 2) ⟨_, hlt⟩ k) * wlsArr0 V c (ix3 (0 : Fin 2) k q))
      + ∑ k : Fin 128, meansArr0 V c (ix3 (1 : Fin 2) ⟨_, hlt⟩ k) * wlsArr0 V c (ix3 (1 : Fin 2) k q))
      + ∑ k : Fin 128, xdArr0 V c (ix2 ⟨_, hlt⟩ k) * wrArr0 V c (ix2 k q))
      + bArr0 V c (ix1 q)) 0
  simp only [rd0_0 V c t _ p _ ⟨_, hlt⟩ rfl, rd0_1 V c t, rd0_2 V c t p _ ⟨_, hlt⟩ rfl, rd0_3 V c t, rd0_4 V c t]

/-! ## The blocks written back tile the array -/

/-- An index of the array is in point t's block iff each coordinate is in the block's range on its axis. -/
theorem mem_blk0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v102).slice (win0_5.rect t)).set ↔ _
  rw [View.set_slice_whole, Rect.mem_set_unit]
  exact Iff.rfl

/-- Row r is in the block of point r / 2000, which writes back. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 2000 < cfg0.N := by rw [show cfg0.N = 50 from N_0]; omega
  refine ⟨⟨(i 0).val / 2000, hlt⟩, flush0_5 _, ?_⟩
  rw [mem_blk0]
  obtain ⟨-, -, -, -, -, -, -, -, -, -, -, e0, e1⟩ := idx_facts0 ⟨(i 0).val / 2000, hlt⟩
  have e0' : win0_5.index ⟨(i 0).val / 2000, hlt⟩ (0 : Fin 2) = (i 0).val / 2000 := e0
  intro a
  match a with
  | ⟨0, _⟩ => show win0_5.index ⟨(i 0).val / 2000, hlt⟩ (0 : Fin 2) * 2000 ≤ (i 0).val ∧ (i 0).val < win0_5.index ⟨(i 0).val / 2000, hlt⟩ (0 : Fin 2) * 2000 + 2000; omega
  | ⟨1, _⟩ => show win0_5.index ⟨(i 0).val / 2000, hlt⟩ (1 : Fin 2) * 128 ≤ (i 1).val ∧ (i 1).val < win0_5.index ⟨(i 0).val / 2000, hlt⟩ (1 : Fin 2) * 128 + 128; omega

/-! ## The array after the run -/

/-- THE OUTPUT ARRAY after the grid has run is the whole-array update of the arrays the region's windows read. -/
theorem arr (V : (c : Dev nD) → (b : Ref sig .tc) → Buf (Elt Ideal) ((c : Thread nD τ).loc b)) (c : Dev nD) :
    (dat0 (F := Ideal) V c).arrAt 5 cfg0.N
      = Cert.IdxSpec.sage2 100000 (V c main_v98) (V c main_v101) (V c main_arg1) (V c main_v90) (V c main_v95) :=
  (dat0 (F := Ideal) V c).arrAt_eq_of_cover 5 (upd0 V c) (fun t _ => flushed0_eq V c t) cover0

end Cert.KernelIdeal.RegVal0

end
-- ==== Proof.KStab0.lean ====
import proofs.«165177_j32074815766916_1_alg».proof.Proof.FIW

import Idealize.ShloMosaic.PureOps.Ideal
set_option maxRecDepth 16384

noncomputable section

namespace Cert.KernelIdeal.KW

open Idealize.ShloMosaic Idealize.ShloMosaic.TcCoe Cert.KernelIdeal Cert.KernelIdeal.Gen Cert.KernelIdeal.GenP

variable (m : (ℓ : Loc nD τ sig) → Buf (Elt Ideal) ℓ) (ρ : Dev nD → PrngReg) (c : Dev nD)

set_option maxHeartbeats 4000000 in
theorem st_main_arg1_1 : W1 m ρ c (Proc.devRef .tc main_arg1) = W0 m ρ c (Proc.devRef .tc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg1_26 : W26 m ρ c (Proc.devRef .tc main_arg1) = W0 m ρ c (Proc.devRef .tc main_arg1) :=
  calc W26 m ρ c (Proc.devRef .tc main_arg1)
    _ = W25 m ρ c (Proc.devRef .tc main_arg1) := W26_of_ne m ρ c main_arg1 (by decide)
    _ = W24 m ρ c (Proc.devRef .tc main_arg1) := W25_of_ne m ρ c main_arg1 (by decide)
    _ = W23 m ρ c (Proc.devRef .tc main_arg1) := StableHlo.after_of_forall_not_mem (b := Proc.devRef .tc main_arg1) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg1) := W23_of_ne m ρ c main_arg1 (by decide)
    _ = W21 m ρ c (Proc.devRef .tc main_arg1) := StableHlo.after_of_forall_not_mem (b := Proc.devRef .tc main_arg1) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg1) := W21_of_ne m ρ c main_arg1 (by decide)
    _ = W19 m ρ c (Proc.devRef .tc main_arg1) := StableHlo.after_of_forall_not_mem (b := Proc.devRef .tc main_arg1) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W18 m ρ c (Proc.devRef .tc main_arg1) := W19_of_ne m ρ c main_arg1 (by decide)
    _ = W17 m ρ c (Proc.devRef .tc main_arg1) := StableHlo.after_of_forall_not_mem (b := Proc.devRef .tc main_arg1) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg1) := W17_of_ne m ρ c main_arg1 (by decide)
    _ = W15 m ρ c (Proc.devRef .tc main_arg1) := StableHlo.after_of_forall_not_mem (b := Proc.devRef .tc main_arg1) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg1) := W15_of_ne m ρ c main_arg1 (by decide)
    _ = W13 m ρ c (Proc.devRef .tc main_arg1) := StableHlo.after_of_forall_not_mem (b := Proc.devRef .tc main_arg1) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W12 m ρ c (Proc.devRef .tc main_arg1) := W13_of_ne m ρ c main_arg1 (by decide)
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := st_main_arg1_1 m ρ c

set_option maxHeartbeats 4000000 in
theorem st_main_arg1_27 : W27 m ρ c (Proc.devRef .tc main_arg1) = W0 m ρ c (Proc.devRef .tc main_arg1) :=
  calc W27 m ρ c (Proc.devRef .tc main_arg1)
    _ = W26 m ρ c (Proc.devRef .tc main_arg1) := StableHlo.after_of_forall_not_mem (b := Proc.devRef .tc main_arg1) _ _ (List.forall_iff_forall_mem.mp (by
      simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := st_main_arg1_26 m ρ c

set_option maxHeartbeats 4000000 in
theorem st_main_arg13_6 : W6 m ρ c (Proc.devRef .tc main_arg13) = W0 m ρ c (Proc.devRef .tc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg13_13 : W13 m ρ c (Proc.devRef .tc main_arg13) = W0 m ρ c (Proc.devRef .tc main_arg13) :=
  calc W13 m ρ c (Proc.devRef .tc main_arg13)
    _ = W12 m ρ c (Proc.devRef .tc main_arg13) := W13_of_ne m ρ c main_arg13 (by decide)
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg13) := st_main_arg13_6 m ρ c

set_option maxHeartbeats 4000000 in
theorem st_main_arg13_19 : W19 m ρ c (Proc.devRef .tc main_arg13) = W0 m ρ c (Proc.devRef .tc main_arg13) :=
  calc W19 m ρ c (Proc.devRef .tc main_arg13)
    _ = W18 m ρ c (Proc.devRef .tc main_arg13) := W19_of_ne m ρ c main_arg13 (by decide)
    _ = W17 m ρ c (Proc.devRef .tc main_arg13) := StableHlo.after_of_forall_not_mem (b := Proc.devRef .tc main_arg13) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg13) := W17_of_ne m ρ c main_arg13 (by decide)
    _ = W15 m ρ c (Proc.devRef .tc main_arg13) := StableHlo.after_of_forall_not_mem (b := Proc.devRef .tc main_arg13) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg13) := W15_of_ne m ρ c main_arg13 (by decide)
    _ = W13 m ρ c (Proc.devRef .tc main_arg13) := StableHlo.after_of_forall_not_mem (b := Proc.devRef .tc main_arg13) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg13) := st_main_arg13_13 m ρ c

set_option maxHeartbeats 4000000 in
theorem st_main_arg13_26 : W26 m ρ c (Proc.devRef .tc main_arg13) = W0 m ρ c (Proc.devRef .tc main_arg13) :=
  calc W26 m ρ c (Proc.devRef .tc main_arg13)
    _ = W25 m ρ c (Proc.devRef .tc main_arg13) := W26_of_ne m ρ c main_arg13 (by decide)
    _ = W24 m ρ c (Proc.devRef .tc main_arg13) := W25_of_ne m ρ c main_arg13 (by decide)
    _ = W23 m ρ c (Proc.devRef .tc main_arg13) := StableHlo.after_of_forall_not_mem (b := Proc.devRef .tc main_arg13) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg13) := W23_of_ne m ρ c main_arg13 (by decide)
    _ = W21 m ρ c (Proc.devRef .tc main_arg13) := StableHlo.after_of_forall_not_mem (b := Proc.devRef .tc main_arg13) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg13) := W21_of_ne m ρ c main_arg13 (by decide)
    _ = W19 m ρ c (Proc.devRef .tc main_arg13) := StableHlo.after_of_forall_not_mem (b := Proc.devRef .tc main_arg13) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg13) := st_main_arg13_19 m ρ c

set_option maxHeartbeats 4000000 in
theorem st_main_arg13_32 : W32 m ρ c (Proc.devRef .tc main_arg13) = W0 m ρ c (Proc.devRef .tc main_arg13) :=
  calc W32 m ρ c (Proc.devRef .tc main_arg13)
    _ = W31 m ρ c (Proc.devRef .tc main_arg13) := W32_of_ne m ρ c main_arg13 (by decide)
    _ = W30 m ρ c (Proc.devRef .tc main_arg13) := StableHlo.after_of_forall_not_mem (b := Proc.devRef .tc main_arg13) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_arg13) := W30_of_ne m ρ c main_arg13 (by decide)
    _ = W28 m ρ c (Proc.devRef .tc main_arg13) := StableHlo.after_of_forall_not_mem (b := Proc.devRef .tc main_arg13) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_arg13) := W28_of_ne m ρ c main_arg13 (by decide)
    _ = W26 m ρ c (Proc.devRef .tc main_arg13) := StableHlo.after_of_forall_not_mem (b := Proc.devRef .tc main_arg13) _ _ (List.forall_iff_forall_mem.mp (by
      simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg13) := st_main_arg13_26 m ρ c

set_option maxHeartbeats 4000000 in
theorem st_main_arg17_6 : W6 m ρ c (Proc.devRef .tc main_arg17) = W0 m ρ c (Proc.devRef .tc main_arg17) :=
  calc W6 m ρ c (Proc.devRef .tc main_arg17)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg17_13 : W13 m ρ c (Proc.devRef .tc main_arg17) = W0 m ρ c (Proc.devRef .tc main_arg17) :=
  calc W13 m ρ c (Proc.devRef .tc main_arg17)
    _ = W12 m ρ c (Proc.devRef .tc main_arg17) := W13_of_ne m ρ c main_arg17 (by decide)
    _ = W11 m ρ c (Proc.devRef .tc main_arg17) := W12_of_ne m ρ c main_arg17 (by decide)
    _ = W10 m ρ c (Proc.devRef .tc main_arg17) := StableHlo.after_of_forall_not_mem (b := Proc.devRef .tc main_arg17) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg17) := W10_of_ne m ρ c main_arg17 (by decide)
    _ = W8 m ρ c (Proc.devRef .tc main_arg17) := StableHlo.after_of_forall_not_mem (b := Proc.devRef .tc main_arg17) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg17) := st_main_arg17_6 m ρ c

set_option maxHeartbeats 4000000 in
theorem st_main_arg17_19 : W19 m ρ c (Proc.devRef .tc main_arg17) = W0 m ρ c (Proc.devRef .tc main_arg17) :=
  calc W19 m ρ c (Proc.devRef .tc main_arg17)
    _ = W18 m ρ c (Proc.devRef .tc main_arg17) := W19_of_ne m ρ c main_arg17 (by decide)
    _ = W17 m ρ c (Proc.devRef .tc main_arg17) := StableHlo.after_of_forall_not_mem (b := Proc.devRef .tc main_arg17) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg17) := W17_of_ne m ρ c main_arg17 (by decide)
    _ = W15 m ρ c (Proc.devRef .tc main_arg17) := StableHlo.after_of_forall_not_mem (b := Proc.devRef .tc main_arg17) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg17) := W15_of_ne m ρ c main_arg17 (by decide)
    _ = W13 m ρ c (Proc.devRef .tc main_arg17) := StableHlo.after_of_forall_not_mem (b := Proc.devRef .tc main_arg17) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg17) := st_main_arg17_13 m ρ c

set_option maxHeartbeats 4000000 in
theorem st_main_arg17_26 : W26 m ρ c (Proc.devRef .tc main_arg17) = W0 m ρ c (Proc.devRef .tc main_arg17) :=
  calc W26 m ρ c (Proc.devRef .tc main_arg17)
    _ = W25 m ρ c (Proc.devRef .tc main_arg17) := W26_of_ne m ρ c main_arg17 (by decide)
    _ = W24 m ρ c (Proc.devRef .tc main_arg17) := W25_of_ne m ρ c main_arg17 (by decide)
    _ = W23 m ρ c (Proc.devRef .tc main_arg17) := StableHlo.after_of_forall_not_mem (b := Proc.devRef .tc main_arg17) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg17) := W23_of_ne m ρ c main_arg17 (by decide)
    _ = W21 m ρ c (Proc.devRef .tc main_arg17) := StableHlo.after_of_forall_not_mem (b := Proc.devRef .tc main_arg17) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg17) := W21_of_ne m ρ c main_arg17 (by decide)
    _ = W19 m ρ c (Proc.devRef .tc main_arg17) := StableHlo.after_of_forall_not_mem (b := Proc.devRef .tc main_arg17) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg17) := st_main_arg17_19 m ρ c

set_option maxHeartbeats 4000000 in
theorem st_main_arg17_32 : W32 m ρ c (Proc.devRef .tc main_arg17) = W0 m ρ c (Proc.devRef .tc main_arg17) :=
  calc W32 m ρ c (Proc.devRef .tc main_arg17)
    _ = W31 m ρ c (Proc.devRef .tc main_arg17) := W32_of_ne m ρ c main_arg17 (by decide)
    _ = W30 m ρ c (Proc.devRef .tc main_arg17) := StableHlo.after_of_forall_not_mem (b := Proc.devRef .tc main_arg17) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_arg17) := W30_of_ne m ρ c main_arg17 (by decide)
    _ = W28 m ρ c (Proc.devRef .tc main_arg17) := StableHlo.after_of_forall_not_mem (b := Proc.devRef .tc main_arg17) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_arg17) := W28_of_ne m ρ c main_arg17 (by decide)
    _ = W26 m ρ c (Proc.devRef .tc main_arg17) := StableHlo.after_of_forall_not_mem (b := Proc.devRef .tc main_arg17) _ _ (List.forall_iff_forall_mem.mp (by
      simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg17) := st_main_arg17_26 m ρ c

set_option maxHeartbeats 4000000 in
theorem st_main_v235_13 : W13 m ρ c (Proc.devRef .tc main_v235) = W12 m ρ c (Proc.devRef .tc main_v235) :=
  calc W13 m ρ c (Proc.devRef .tc main_v235)
    _ = W12 m ρ c (Proc.devRef .tc main_v235) := W13_of_ne m ρ c main_v235 (by decide)

set_option maxHeartbeats 4000000 in
theorem st_main_v235_18 : W18 m ρ c (Proc.devRef .tc main_v235) = W12 m ρ c (Proc.devRef .tc main_v235) :=
  calc W18 m ρ c (Proc.devRef .tc main_v235)
    _ = W17 m ρ c (Proc.devRef .tc main_v235) := StableHlo.after_of_forall_not_mem (b := Proc.devRef .tc main_v235) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_v235) := W17_of_ne m ρ c main_v235 (by decide)
    _ = W15 m ρ c (Proc.devRef .tc main_v235) := StableHlo.after_of_forall_not_mem (b := Proc.devRef .tc main_v235) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v235) := W15_of_ne m ρ c main_v235 (by decide)
    _ = W13 m ρ c (Proc.devRef .tc main_v235) := StableHlo.after_of_forall_not_mem (b := Proc.devRef .tc main_v235) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W12 m ρ c (Proc.devRef .tc main_v235) := st_main_v235_13 m ρ c

set_option maxHeartbeats 4000000 in
theorem st_main_v240_15 : W15 m ρ c (Proc.devRef .tc main_v240) = W14 m ρ c (Proc.devRef .tc main_v240) :=
  calc W15 m ρ c (Proc.devRef .tc main_v240)
    _ = W14 m ρ c (Proc.devRef .tc main_v240) := W15_of_ne m ρ c main_v240 (by decide)

set_option maxHeartbeats 4000000 in
theorem st_main_v240_17 : W17 m ρ c (Proc.devRef .tc main_v240) = W14 m ρ c (Proc.devRef .tc main_v240) :=
  calc W17 m ρ c (Proc.devRef .tc main_v240)
    _ = W16 m ρ c (Proc.devRef .tc main_v240) := W17_of_ne m ρ c main_v240 (by decide)
    _ = W15 m ρ c (Proc.devRef .tc main_v240) := StableHlo.after_of_forall_not_mem (b := Proc.devRef .tc main_v240) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v240) := st_main_v240_15 m ρ c

set_option maxHeartbeats 4000000 in
theorem st_main_v240_19 : W19 m ρ c (Proc.devRef .tc main_v240) = W14 m ρ c (Proc.devRef .tc main_v240) :=
  calc W19 m ρ c (Proc.devRef .tc main_v240)
    _ = W18 m ρ c (Proc.devRef .tc main_v240) := W19_of_ne m ρ c main_v240 (by decide)
    _ = W17 m ρ c (Proc.devRef .tc main_v240) := StableHlo.after_of_forall_not_mem (b := Proc.devRef .tc main_v240) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v240) := st_main_v240_17 m ρ c

set_option maxHeartbeats 4000000 in
theorem st_main_v240_21 : W21 m ρ c (Proc.devRef .tc main_v240) = W14 m ρ c (Proc.devRef .tc main_v240) :=
  calc W21 m ρ c (Proc.devRef .tc main_v240)
    _ = W20 m ρ c (Proc.devRef .tc main_v240) := W21_of_ne m ρ c main_v240 (by decide)
    _ = W19 m ρ c (Proc.devRef .tc main_v240) := StableHlo.after_of_forall_not_mem (b := Proc.devRef .tc main_v240) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v240) := st_main_v240_19 m ρ c

set_option maxHeartbeats 4000000 in
theorem st_main_v240_23 : W23 m ρ c (Proc.devRef .tc main_v240) = W14 m ρ c (Proc.devRef .tc main_v240) :=
  calc W23 m ρ c (Proc.devRef .tc main_v240)
    _ = W22 m ρ c (Proc.devRef .tc main_v240) := W23_of_ne m ρ c main_v240 (by decide)
    _ = W21 m ρ c (Proc.devRef .tc main_v240) := StableHlo.after_of_forall_not_mem (b := Proc.devRef .tc main_v240) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v240) := st_main_v240_21 m ρ c

set_option maxHeartbeats 4000000 in
theorem st_main_arg8_25 : W25 m ρ c (Proc.devRef .tc main_arg8) = W0 m ρ c (Proc.devRef .tc main_arg8) :=
  calc W25 m ρ c (Proc.devRef .tc main_arg8)
    _ = W24 m ρ c (Proc.devRef .tc main_arg8) := W25_of_ne m ρ c main_arg8 (by decide)
    _ = W23 m ρ c (Proc.devRef .tc main_arg8) := StableHlo.after_of_forall_not_mem (b := Proc.devRef .tc main_arg8) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg8) := W23_of_ne m ρ c main_arg8 (by decide)
    _ = W21 m ρ c (Proc.devRef .tc main_arg8) := StableHlo.after_of_forall_not_mem (b := Proc.devRef .tc main_arg8) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg8) := W21_of_ne m ρ c main_arg8 (by decide)
    _ = W19 m ρ c (Proc.devRef .tc main_arg8) := StableHlo.after_of_forall_not_mem (b := Proc.devRef .tc main_arg8) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W18 m ρ c (Proc.devRef .tc main_arg8) := W19_of_ne m ρ c main_arg8 (by decide)
    _ = W17 m ρ c (Proc.devRef .tc main_arg8) := StableHlo.after_of_forall_not_mem (b := Proc.devRef .tc main_arg8) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg8) := W17_of_ne m ρ c main_arg8 (by decide)
    _ = W15 m ρ c (Proc.devRef .tc main_arg8) := StableHlo.after_of_forall_not_mem (b := Proc.devRef .tc main_arg8) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg8) := W15_of_ne m ρ c main_arg8 (by decide)
    _ = W13 m ρ c (Proc.devRef .tc main_arg8) := StableHlo.after_of_forall_not_mem (b := Proc.devRef .tc main_arg8) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W12 m ρ c (Proc.devRef .tc main_arg8) := W13_of_ne m ρ c main_arg8 (by decide)
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v559_30 : W30 m ρ c (Proc.devRef .tc main_v559) = W27 m ρ c (Proc.devRef .tc main_v559) :=
  calc W30 m ρ c (Proc.devRef .tc main_v559)
    _ = W29 m ρ c (Proc.devRef .tc main_v559) := W30_of_ne m ρ c main_v559 (by decide)
    _ = W28 m ρ c (Proc.devRef .tc main_v559) := StableHlo.after_of_forall_not_mem (b := Proc.devRef .tc main_v559) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v559) := W28_of_ne m ρ c main_v559 (by decide)

set_option maxHeartbeats 4000000 in
theorem st_main_v704_39 : W39 m ρ c (Proc.devRef .tc main_v704) = W36 m ρ c (Proc.devRef .tc main_v704) :=
  calc W39 m ρ c (Proc.devRef .tc main_v704)
    _ = W38 m ρ c (Proc.devRef .tc main_v704) := StableHlo.after_of_forall_not_mem (b := Proc.devRef .tc main_v704) _ _ (List.forall_iff_forall_mem.mp (by
      simp only [hostOps20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W37 m ρ c (Proc.devRef .tc main_v704) := W38_of_ne m ρ c main_v704 (by decide)
    _ = W36 m ρ c (Proc.devRef .tc main_v704) := StableHlo.after_of_forall_not_mem (b := Proc.devRef .tc main_v704) _ _ (List.forall_iff_forall_mem.mp (by
      simp only [hostOps19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.KW

end
-- ==== Proof.KW0.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.RegP0
import proofs.«165177_j32074815766916_1_alg».proof.Proof.KWArgs
import proofs.«165177_j32074815766916_1_alg».proof.Proof.KStab0
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem kv_main_v1 : W1 m ρ c (Proc.devRef .tc main_v1) = slab5 0 Facts₀.slices_S3x2x4x128x128_S1x2x4x128x128_0_0_0_0_0 (argsK m c).Wl := by
  have h0 := (kv_main_arg3 m ρ c)
  show StableHlo.after hostOps0 (W0 m ρ c) (Proc.devRef .tc main_v1) = _
  generalize W0 m ρ c = Wx at *
  unfold hostOps0
  after_results_simp
  simp only [h0]
  try rfl

theorem kv_main_v3 : W1 m ρ c (Proc.devRef .tc main_v3) = slab4 0 Facts₀.slices_S3x2x4x128_S1x2x4x128_0_0_0_0 (argsK m c).bl := by
  have h0 := (kv_main_arg4 m ρ c)
  show StableHlo.after hostOps0 (W0 m ρ c) (Proc.devRef .tc main_v3) = _
  generalize W0 m ρ c = Wx at *
  unfold hostOps0
  after_results_simp
  simp only [h0]
  try rfl

theorem kv_main_v5 : W1 m ρ c (Proc.devRef .tc main_v5) = slab5 0 Facts₀.slices_S3x2x4x128x128_S1x2x4x128x128_0_0_0_0_0 (argsK m c).Wr := by
  have h0 := (kv_main_arg5 m ρ c)
  show StableHlo.after hostOps0 (W0 m ρ c) (Proc.devRef .tc main_v5) = _
  generalize W0 m ρ c = Wx at *
  unfold hostOps0
  after_results_simp
  simp only [h0]
  try rfl

theorem kv_main_v62 : W1 m ρ c (Proc.devRef .tc main_v62) = aggPA ((argsK m c).xp) (argsK m c).spa (argsK m c).dpa := by
  have h0 := (kv_main_arg15 m ρ c)
  have h1 := (kv_main_arg1 m ρ c)
  have h2 := (kv_main_arg14 m ρ c)
  show StableHlo.after hostOps0 (W0 m ρ c) (Proc.devRef .tc main_v62) = _
  generalize W0 m ρ c = Wx at *
  unfold hostOps0
  after_results_simp
  simp only [h0, h1, h2]
  try rfl

theorem kv_main_v81 : W1 m ρ c (Proc.devRef .tc main_v81) = aggPT ((argsK m c).xp) (argsK m c).spt (argsK m c).dpt := by
  have h0 := (kv_main_arg17 m ρ c)
  have h1 := (kv_main_arg1 m ρ c)
  have h2 := (kv_main_arg16 m ρ c)
  show StableHlo.after hostOps0 (W0 m ρ c) (Proc.devRef .tc main_v81) = _
  generalize W0 m ρ c = Wx at *
  unfold hostOps0
  after_results_simp
  simp only [h0, h1, h2]
  try rfl

theorem win0_0 : W1 m ρ c (Proc.devRef .tc main_v98) = pack2P (aggAP ((argsK m c).xa) (argsK m c).sap (argsK m c).dap) (aggTP ((argsK m c).xt) (argsK m c).stp (argsK m c).dtp) := by
  have h0 := (kv_main_arg13 m ρ c)
  have h1 := (kv_main_arg0 m ρ c)
  have h2 := (kv_main_arg12 m ρ c)
  have h3 := (kv_main_arg19 m ρ c)
  have h4 := (kv_main_arg2 m ρ c)
  have h5 := (kv_main_arg18 m ρ c)
  show StableHlo.after hostOps0 (W0 m ρ c) (Proc.devRef .tc main_v98) = _
  generalize W0 m ρ c = Wx at *
  unfold hostOps0
  after_results_simp
  refine pack2P_of (F := Ideal) ?_ ?_ _
  all_goals after_results_simp
  all_goals (simp only [h0, h1, h2, h3, h4, h5]; try rfl)

theorem win0_1 : W1 m ρ c (Proc.devRef .tc main_v101) = pack2W (wmat 0 0 Facts₀.slices_S2x4x128x128_S1x1x128x128_0_0_0_0 (slab5 0 Facts₀.slices_S3x2x4x128x128_S1x2x4x128x128_0_0_0_0_0 (argsK m c).Wl)) (wmat 0 3 Facts₀.slices_S2x4x128x128_S1x1x128x128_0_3_0_0 (slab5 0 Facts₀.slices_S3x2x4x128x128_S1x2x4x128x128_0_0_0_0_0 (argsK m c).Wl)) := by
  have h0 := (kv_main_arg3 m ρ c)
  show StableHlo.after hostOps0 (W0 m ρ c) (Proc.devRef .tc main_v101) = _
  generalize W0 m ρ c = Wx at *
  unfold hostOps0
  after_results_simp
  refine pack2W_of (F := Ideal) ?_ ?_ _
  all_goals after_results_simp
  all_goals (simp only [h0]; try rfl)

theorem win0_2 : W1 m ρ c (Proc.devRef .tc main_arg1) = (argsK m c).xp := ((st_main_arg1_1 m ρ c).trans (kv_main_arg1 m ρ c))

theorem win0_3 : W1 m ρ c (Proc.devRef .tc main_v90) = addf (wmat 0 0 Facts₀.slices_S2x4x128x128_S1x1x128x128_0_0_0_0 (slab5 0 Facts₀.slices_S3x2x4x128x128_S1x2x4x128x128_0_0_0_0_0 (argsK m c).Wr)) (wmat 0 3 Facts₀.slices_S2x4x128x128_S1x1x128x128_0_3_0_0 (slab5 0 Facts₀.slices_S3x2x4x128x128_S1x2x4x128x128_0_0_0_0_0 (argsK m c).Wr)) := by
  have h0 := (kv_main_arg5 m ρ c)
  show StableHlo.after hostOps0 (W0 m ρ c) (Proc.devRef .tc main_v90) = _
  generalize W0 m ρ c = Wx at *
  unfold hostOps0
  after_results_simp
  simp only [h0]
  try rfl

theorem win0_4 : W1 m ρ c (Proc.devRef .tc main_v95) = addf (wvec 0 0 Facts₀.slices_S2x4x128_S1x1x128_0_0_0 (slab4 0 Facts₀.slices_S3x2x4x128_S1x2x4x128_0_0_0_0 (argsK m c).bl)) (wvec 0 3 Facts₀.slices_S2x4x128_S1x1x128_0_3_0 (slab4 0 Facts₀.slices_S3x2x4x128_S1x2x4x128_0_0_0_0 (argsK m c).bl)) := by
  have h0 := (kv_main_arg4 m ρ c)
  show StableHlo.after hostOps0 (W0 m ρ c) (Proc.devRef .tc main_v95) = _
  generalize W0 m ρ c = Wx at *
  unfold hostOps0
  after_results_simp
  simp only [h0]
  try rfl

theorem kv_main_v102 : W2 m ρ c (Proc.devRef .tc main_v102) = K.mp1 (argsK m c) := by
  refine (W2_arr m ρ c 5).trans ?_
  refine (Cert.KernelIdeal.RegVal0.arr (V1 m ρ) c).trans ?_
  show Cert.IdxSpec.sage2 100000 (W1 m ρ c (Proc.devRef .tc main_v98)) (W1 m ρ c (Proc.devRef .tc main_v101)) (W1 m ρ c (Proc.devRef .tc main_arg1)) (W1 m ρ c (Proc.devRef .tc main_v90)) (W1 m ρ c (Proc.devRef .tc main_v95)) = _
  rw [win0_0 m ρ c, win0_1 m ρ c, win0_2 m ρ c, win0_3 m ρ c, win0_4 m ρ c]
  rfl

end Cert.KernelIdeal.KW

end
-- ==== Proof.KStab1.lean ====
import proofs.«165177_j32074815766916_1_alg».proof.Proof.FIW

import Idealize.ShloMosaic.PureOps.Ideal
set_option maxRecDepth 16384

noncomputable section

namespace Cert.KernelIdeal.KW

open Idealize.ShloMosaic Idealize.ShloMosaic.TcCoe Cert.KernelIdeal Cert.KernelIdeal.Gen Cert.KernelIdeal.GenP

variable (m : (ℓ : Loc nD τ sig) → Buf (Elt Ideal) ℓ) (ρ : Dev nD → PrngReg) (c : Dev nD)

set_option maxHeartbeats 4000000 in
theorem st_main_v62_2 : W2 m ρ c (Proc.devRef .tc main_v62) = W1 m ρ c (Proc.devRef .tc main_v62) :=
  calc W2 m ρ c (Proc.devRef .tc main_v62)
    _ = W1 m ρ c (Proc.devRef .tc main_v62) := W2_of_ne m ρ c main_v62 (by decide)

set_option maxHeartbeats 4000000 in
theorem st_main_v111_6 : W6 m ρ c (Proc.devRef .tc main_v111) = W4 m ρ c (Proc.devRef .tc main_v111) :=
  calc W6 m ρ c (Proc.devRef .tc main_v111)
    _ = W5 m ρ c (Proc.devRef .tc main_v111) := W6_of_ne m ρ c main_v111 (by decide)
    _ = W4 m ρ c (Proc.devRef .tc main_v111) := StableHlo.after_of_forall_not_mem (b := Proc.devRef .tc main_v111) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v111_9 : W9 m ρ c (Proc.devRef .tc main_v111) = W4 m ρ c (Proc.devRef .tc main_v111) :=
  calc W9 m ρ c (Proc.devRef .tc main_v111)
    _ = W8 m ρ c (Proc.devRef .tc main_v111) := StableHlo.after_of_forall_not_mem (b := Proc.devRef .tc main_v111) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v111) := W8_of_ne m ρ c main_v111 (by decide)
    _ = W6 m ρ c (Proc.devRef .tc main_v111) := StableHlo.after_of_forall_not_mem (b := Proc.devRef .tc main_v111) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_v111) := st_main_v111_6 m ρ c

set_option maxHeartbeats 4000000 in
theorem st_main_arg16_6 : W6 m ρ c (Proc.devRef .tc main_arg16) = W0 m ρ c (Proc.devRef .tc main_arg16) :=
  calc W6 m ρ c (Proc.devRef .tc main_arg16)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg16_13 : W13 m ρ c (Proc.devRef .tc main_arg16) = W0 m ρ c (Proc.devRef .tc main_arg16) :=
  calc W13 m ρ c (Proc.devRef .tc main_arg16)
    _ = W12 m ρ c (Proc.devRef .tc main_arg16) := W13_of_ne m ρ c main_arg16 (by decide)
    _ = W11 m ρ c (Proc.devRef .tc main_arg16) := W12_of_ne m ρ c main_arg16 (by decide)
    _ = W10 m ρ c (Proc.devRef .tc main_arg16) := StableHlo.after_of_forall_not_mem (b := Proc.devRef .tc main_arg16) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg16) := st_main_arg16_6 m ρ c

set_option maxHeartbeats 4000000 in
theorem st_main_arg16_19 : W19 m ρ c (Proc.devRef .tc main_arg16) = W0 m ρ c (Proc.devRef .tc main_arg16) :=
  calc W19 m ρ c (Proc.devRef .tc main_arg16)
    _ = W18 m ρ c (Proc.devRef .tc main_arg16) := W19_of_ne m ρ c main_arg16 (by decide)
    _ = W17 m ρ c (Proc.devRef .tc main_arg16) := StableHlo.after_of_forall_not_mem (b := Proc.devRef .tc main_arg16) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg16) := W17_of_ne m ρ c main_arg16 (by decide)
    _ = W15 m ρ c (Proc.devRef .tc main_arg16) := StableHlo.after_of_forall_not_mem (b := Proc.devRef .tc main_arg16) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg16) := W15_of_ne m ρ c main_arg16 (by decide)
    _ = W13 m ρ c (Proc.devRef .tc main_arg16) := StableHlo.after_of_forall_not_mem (b := Proc.devRef .tc main_arg16) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg16) := st_main_arg16_13 m ρ c

set_option maxHeartbeats 4000000 in
theorem st_main_arg16_26 : W26 m ρ c (Proc.devRef .tc main_arg16) = W0 m ρ c (Proc.devRef .tc main_arg16) :=
  calc W26 m ρ c (Proc.devRef .tc main_arg16)
    _ = W25 m ρ c (Proc.devRef .tc main_arg16) := W26_of_ne m ρ c main_arg16 (by decide)
    _ = W24 m ρ c (Proc.devRef .tc main_arg16) := W25_of_ne m ρ c main_arg16 (by decide)
    _ = W23 m ρ c (Proc.devRef .tc main_arg16) := StableHlo.after_of_forall_not_mem (b := Proc.devRef .tc main_arg16) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg16) := W23_of_ne m ρ c main_arg16 (by decide)
    _ = W21 m ρ c (Proc.devRef .tc main_arg16) := StableHlo.after_of_forall_not_mem (b := Proc.devRef .tc main_arg16) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg16) := W21_of_ne m ρ c main_arg16 (by decide)
    _ = W19 m ρ c (Proc.devRef .tc main_arg16) := StableHlo.after_of_forall_not_mem (b := Proc.devRef .tc main_arg16) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg16) := st_main_arg16_19 m ρ c

set_option maxHeartbeats 4000000 in
theorem st_main_arg16_32 : W32 m ρ c (Proc.devRef .tc main_arg16) = W0 m ρ c (Proc.devRef .tc main_arg16) :=
  calc W32 m ρ c (Proc.devRef .tc main_arg16)
    _ = W31 m ρ c (Proc.devRef .tc main_arg16) := W32_of_ne m ρ c main_arg16 (by decide)
    _ = W30 m ρ c (Proc.devRef .tc main_arg16) := StableHlo.after_of_forall_not_mem (b := Proc.devRef .tc main_arg16) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_arg16) := W30_of_ne m ρ c main_arg16 (by decide)
    _ = W28 m ρ c (Proc.devRef .tc main_arg16) := StableHlo.after_of_forall_not_mem (b := Proc.devRef .tc main_arg16) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_arg16) := W28_of_ne m ρ c main_arg16 (by decide)
    _ = W26 m ρ c (Proc.devRef .tc main_arg16) := StableHlo.after_of_forall_not_mem (b := Proc.devRef .tc main_arg16) _ _ (List.forall_iff_forall_mem.mp (by
      simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg16) := st_main_arg16_26 m ρ c

set_option maxHeartbeats 4000000 in
theorem st_main_arg3_13 : W13 m ρ c (Proc.devRef .tc main_arg3) = W0 m ρ c (Proc.devRef .tc main_arg3) :=
  calc W13 m ρ c (Proc.devRef .tc main_arg3)
    _ = W12 m ρ c (Proc.devRef .tc main_arg3) := W13_of_ne m ρ c main_arg3 (by decide)
    _ = W11 m ρ c (Proc.devRef .tc main_arg3) := W12_of_ne m ρ c main_arg3 (by decide)
    _ = W10 m ρ c (Proc.devRef .tc main_arg3) := StableHlo.after_of_forall_not_mem (b := Proc.devRef .tc main_arg3) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg3_26 : W26 m ρ c (Proc.devRef .tc main_arg3) = W0 m ρ c (Proc.devRef .tc main_arg3) :=
  calc W26 m ρ c (Proc.devRef .tc main_arg3)
    _ = W25 m ρ c (Proc.devRef .tc main_arg3) := W26_of_ne m ρ c main_arg3 (by decide)
    _ = W24 m ρ c (Proc.devRef .tc main_arg3) := W25_of_ne m ρ c main_arg3 (by decide)
    _ = W23 m ρ c (Proc.devRef .tc main_arg3) := StableHlo.after_of_forall_not_mem (b := Proc.devRef .tc main_arg3) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg3) := W23_of_ne m ρ c main_arg3 (by decide)
    _ = W21 m ρ c (Proc.devRef .tc main_arg3) := StableHlo.after_of_forall_not_mem (b := Proc.devRef .tc main_arg3) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg3) := W21_of_ne m ρ c main_arg3 (by decide)
    _ = W19 m ρ c (Proc.devRef .tc main_arg3) := StableHlo.after_of_forall_not_mem (b := Proc.devRef .tc main_arg3) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W18 m ρ c (Proc.devRef .tc main_arg3) := W19_of_ne m ρ c main_arg3 (by decide)
    _ = W17 m ρ c (Proc.devRef .tc main_arg3) := StableHlo.after_of_forall_not_mem (b := Proc.devRef .tc main_arg3) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg3) := W17_of_ne m ρ c main_arg3 (by decide)
    _ = W15 m ρ c (Proc.devRef .tc main_arg3) := StableHlo.after_of_forall_not_mem (b := Proc.devRef .tc main_arg3) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg3) := W15_of_ne m ρ c main_arg3 (by decide)
    _ = W13 m ρ c (Proc.devRef .tc main_arg3) := StableHlo.after_of_forall_not_mem (b := Proc.devRef .tc main_arg3) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := st_main_arg3_13 m ρ c

set_option maxHeartbeats 4000000 in
theorem st_main_v318_17 : W17 m ρ c (Proc.devRef .tc main_v318) = W14 m ρ c (Proc.devRef .tc main_v318) :=
  calc W17 m ρ c (Proc.devRef .tc main_v318)
    _ = W16 m ρ c (Proc.devRef .tc main_v318) := W17_of_ne m ρ c main_v318 (by decide)
    _ = W15 m ρ c (Proc.devRef .tc main_v318) := StableHlo.after_of_forall_not_mem (b := Proc.devRef .tc main_v318) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v318) := W15_of_ne m ρ c main_v318 (by decide)

set_option maxHeartbeats 4000000 in
theorem st_main_arg9_25 : W25 m ρ c (Proc.devRef .tc main_arg9) = W0 m ρ c (Proc.devRef .tc main_arg9) :=
  calc W25 m ρ c (Proc.devRef .tc main_arg9)
    _ = W24 m ρ c (Proc.devRef .tc main_arg9) := W25_of_ne m ρ c main_arg9 (by decide)
    _ = W23 m ρ c (Proc.devRef .tc main_arg9) := StableHlo.after_of_forall_not_mem (b := Proc.devRef .tc main_arg9) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg9) := W23_of_ne m ρ c main_arg9 (by decide)
    _ = W21 m ρ c (Proc.devRef .tc main_arg9) := StableHlo.after_of_forall_not_mem (b := Proc.devRef .tc main_arg9) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg9) := W21_of_ne m ρ c main_arg9 (by decide)
    _ = W19 m ρ c (Proc.devRef .tc main_arg9) := StableHlo.after_of_forall_not_mem (b := Proc.devRef .tc main_arg9) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W18 m ρ c (Proc.devRef .tc main_arg9) := W19_of_ne m ρ c main_arg9 (by decide)
    _ = W17 m ρ c (Proc.devRef .tc main_arg9) := StableHlo.after_of_forall_not_mem (b := Proc.devRef .tc main_arg9) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg9) := W17_of_ne m ρ c main_arg9 (by decide)
    _ = W15 m ρ c (Proc.devRef .tc main_arg9) := StableHlo.after_of_forall_not_mem (b := Proc.devRef .tc main_arg9) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg9) := W15_of_ne m ρ c main_arg9 (by decide)
    _ = W13 m ρ c (Proc.devRef .tc main_arg9) := StableHlo.after_of_forall_not_mem (b := Proc.devRef .tc main_arg9) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W12 m ρ c (Proc.devRef .tc main_arg9) := W13_of_ne m ρ c main_arg9 (by decide)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v589_32 : W32 m ρ c (Proc.devRef .tc main_v589) = W30 m ρ c (Proc.devRef .tc main_v589) :=
  calc W32 m ρ c (Proc.devRef .tc main_v589)
    _ = W31 m ρ c (Proc.devRef .tc main_v589) := W32_of_ne m ρ c main_v589 (by decide)
    _ = W30 m ρ c (Proc.devRef .tc main_v589) := StableHlo.after_of_forall_not_mem (b := Proc.devRef .tc main_v589) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v589_35 : W35 m ρ c (Proc.devRef .tc main_v589) = W30 m ρ c (Proc.devRef .tc main_v589) :=
  calc W35 m ρ c (Proc.devRef .tc main_v589)
    _ = W34 m ρ c (Proc.devRef .tc main_v589) := StableHlo.after_of_forall_not_mem (b := Proc.devRef .tc main_v589) _ _ (List.forall_iff_forall_mem.mp (by
      simp only [hostOps18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W33 m ρ c (Proc.devRef .tc main_v589) := W34_of_ne m ρ c main_v589 (by decide)
    _ = W32 m ρ c (Proc.devRef .tc main_v589) := StableHlo.after_of_forall_not_mem (b := Proc.devRef .tc main_v589) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W30 m ρ c (Proc.devRef .tc main_v589) := st_main_v589_32 m ρ c

set_option maxHeartbeats 4000000 in
theorem st_main_v695_39 : W39 m ρ c (Proc.devRef .tc main_v695) = W34 m ρ c (Proc.devRef .tc main_v695) :=
  calc W39 m ρ c (Proc.devRef .tc main_v695)
    _ = W38 m ρ c (Proc.devRef .tc main_v695) := StableHlo.after_of_forall_not_mem (b := Proc.devRef .tc main_v695) _ _ (List.forall_iff_forall_mem.mp (by
      simp only [hostOps20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W37 m ρ c (Proc.devRef .tc main_v695) := W38_of_ne m ρ c main_v695 (by decide)
    _ = W36 m ρ c (Proc.devRef .tc main_v695) := StableHlo.after_of_forall_not_mem (b := Proc.devRef .tc main_v695) _ _ (List.forall_iff_forall_mem.mp (by
      simp only [hostOps19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W35 m ρ c (Proc.devRef .tc main_v695) := W36_of_ne m ρ c main_v695 (by decide)
    _ = W34 m ρ c (Proc.devRef .tc main_v695) := StableHlo.after_of_forall_not_mem (b := Proc.devRef .tc main_v695) _ _ (List.forall_iff_forall_mem.mp (by
      simp only [hostOps18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.KW

end
-- ==== Proof.KStab2.lean ====
import proofs.«165177_j32074815766916_1_alg».proof.Proof.FIW

import Idealize.ShloMosaic.PureOps.Ideal
set_option maxRecDepth 16384

noncomputable section

namespace Cert.KernelIdeal.KW

open Idealize.ShloMosaic Idealize.ShloMosaic.TcCoe Cert.KernelIdeal Cert.KernelIdeal.Gen Cert.KernelIdeal.GenP

variable (m : (ℓ : Loc nD τ sig) → Buf (Elt Ideal) ℓ) (ρ : Dev nD → PrngReg) (c : Dev nD)

set_option maxHeartbeats 4000000 in
theorem st_main_v1_2 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

set_option maxHeartbeats 4000000 in
theorem st_main_v1_4 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v1) := st_main_v1_2 m ρ c

set_option maxHeartbeats 4000000 in
theorem st_main_v1_6 : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v1) := st_main_v1_4 m ρ c

set_option maxHeartbeats 4000000 in
theorem st_main_v1_8 : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v1) := st_main_v1_6 m ρ c

set_option maxHeartbeats 4000000 in
theorem st_main_v1_10 : W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := StableHlo.after_of_forall_not_mem (b := Proc.devRef .tc main_v1) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v1) := st_main_v1_8 m ρ c

set_option maxHeartbeats 4000000 in
theorem st_main_arg12_6 : W6 m ρ c (Proc.devRef .tc main_arg12) = W0 m ρ c (Proc.devRef .tc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg12_13 : W13 m ρ c (Proc.devRef .tc main_arg12) = W0 m ρ c (Proc.devRef .tc main_arg12) :=
  calc W13 m ρ c (Proc.devRef .tc main_arg12)
    _ = W12 m ρ c (Proc.devRef .tc main_arg12) := W13_of_ne m ρ c main_arg12 (by decide)
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg12) := st_main_arg12_6 m ρ c

set_option maxHeartbeats 4000000 in
theorem st_main_arg12_19 : W19 m ρ c (Proc.devRef .tc main_arg12) = W0 m ρ c (Proc.devRef .tc main_arg12) :=
  calc W19 m ρ c (Proc.devRef .tc main_arg12)
    _ = W18 m ρ c (Proc.devRef .tc main_arg12) := W19_of_ne m ρ c main_arg12 (by decide)
    _ = W17 m ρ c (Proc.devRef .tc main_arg12) := StableHlo.after_of_forall_not_mem (b := Proc.devRef .tc main_arg12) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg12) := W17_of_ne m ρ c main_arg12 (by decide)
    _ = W15 m ρ c (Proc.devRef .tc main_arg12) := StableHlo.after_of_forall_not_mem (b := Proc.devRef .tc main_arg12) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg12) := W15_of_ne m ρ c main_arg12 (by decide)
    _ = W13 m ρ c (Proc.devRef .tc main_arg12) := StableHlo.after_of_forall_not_mem (b := Proc.devRef .tc main_arg12) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg12) := st_main_arg12_13 m ρ c

set_option maxHeartbeats 4000000 in
theorem st_main_arg12_26 : W26 m ρ c (Proc.devRef .tc main_arg12) = W0 m ρ c (Proc.devRef .tc main_arg12) :=
  calc W26 m ρ c (Proc.devRef .tc main_arg12)
    _ = W25 m ρ c (Proc.devRef .tc main_arg12) := W26_of_ne m ρ c main_arg12 (by decide)
    _ = W24 m ρ c (Proc.devRef .tc main_arg12) := W25_of_ne m ρ c main_arg12 (by decide)
    _ = W23 m ρ c (Proc.devRef .tc main_arg12) := StableHlo.after_of_forall_not_mem (b := Proc.devRef .tc main_arg12) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg12) := W23_of_ne m ρ c main_arg12 (by decide)
    _ = W21 m ρ c (Proc.devRef .tc main_arg12) := StableHlo.after_of_forall_not_mem (b := Proc.devRef .tc main_arg12) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg12) := W21_of_ne m ρ c main_arg12 (by decide)
    _ = W19 m ρ c (Proc.devRef .tc main_arg12) := StableHlo.after_of_forall_not_mem (b := Proc.devRef .tc main_arg12) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg12) := st_main_arg12_19 m ρ c

set_option maxHeartbeats 4000000 in
theorem st_main_arg12_32 : W32 m ρ c (Proc.devRef .tc main_arg12) = W0 m ρ c (Proc.devRef .tc main_arg12) :=
  calc W32 m ρ c (Proc.devRef .tc main_arg12)
    _ = W31 m ρ c (Proc.devRef .tc main_arg12) := W32_of_ne m ρ c main_arg12 (by decide)
    _ = W30 m ρ c (Proc.devRef .tc main_arg12) := StableHlo.after_of_forall_not_mem (b := Proc.devRef .tc main_arg12) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_arg12) := W30_of_ne m ρ c main_arg12 (by decide)
    _ = W28 m ρ c (Proc.devRef .tc main_arg12) := StableHlo.after_of_forall_not_mem (b := Proc.devRef .tc main_arg12) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_arg12) := W28_of_ne m ρ c main_arg12 (by decide)
    _ = W26 m ρ c (Proc.devRef .tc main_arg12) := StableHlo.after_of_forall_not_mem (b := Proc.devRef .tc main_arg12) _ _ (List.forall_iff_forall_mem.mp (by
      simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg12) := st_main_arg12_26 m ρ c

set_option maxHeartbeats 4000000 in
theorem st_main_v177_8 : W8 m ρ c (Proc.devRef .tc main_v177) = W7 m ρ c (Proc.devRef .tc main_v177) :=
  calc W8 m ρ c (Proc.devRef .tc main_v177)
    _ = W7 m ρ c (Proc.devRef .tc main_v177) := W8_of_ne m ρ c main_v177 (by decide)

set_option maxHeartbeats 4000000 in
theorem st_main_v217_13 : W13 m ρ c (Proc.devRef .tc main_v217) = W8 m ρ c (Proc.devRef .tc main_v217) :=
  calc W13 m ρ c (Proc.devRef .tc main_v217)
    _ = W12 m ρ c (Proc.devRef .tc main_v217) := W13_of_ne m ρ c main_v217 (by decide)
    _ = W11 m ρ c (Proc.devRef .tc main_v217) := W12_of_ne m ρ c main_v217 (by decide)
    _ = W10 m ρ c (Proc.devRef .tc main_v217) := StableHlo.after_of_forall_not_mem (b := Proc.devRef .tc main_v217) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_v217) := W10_of_ne m ρ c main_v217 (by decide)
    _ = W8 m ρ c (Proc.devRef .tc main_v217) := StableHlo.after_of_forall_not_mem (b := Proc.devRef .tc main_v217) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v217_14 : W14 m ρ c (Proc.devRef .tc main_v217) = W8 m ρ c (Proc.devRef .tc main_v217) :=
  calc W14 m ρ c (Proc.devRef .tc main_v217)
    _ = W13 m ρ c (Proc.devRef .tc main_v217) := StableHlo.after_of_forall_not_mem (b := Proc.devRef .tc main_v217) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W8 m ρ c (Proc.devRef .tc main_v217) := st_main_v217_13 m ρ c

set_option maxHeartbeats 4000000 in
theorem st_main_v348_19 : W19 m ρ c (Proc.devRef .tc main_v348) = W17 m ρ c (Proc.devRef .tc main_v348) :=
  calc W19 m ρ c (Proc.devRef .tc main_v348)
    _ = W18 m ρ c (Proc.devRef .tc main_v348) := W19_of_ne m ρ c main_v348 (by decide)
    _ = W17 m ρ c (Proc.devRef .tc main_v348) := StableHlo.after_of_forall_not_mem (b := Proc.devRef .tc main_v348) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v348_22 : W22 m ρ c (Proc.devRef .tc main_v348) = W17 m ρ c (Proc.devRef .tc main_v348) :=
  calc W22 m ρ c (Proc.devRef .tc main_v348)
    _ = W21 m ρ c (Proc.devRef .tc main_v348) := StableHlo.after_of_forall_not_mem (b := Proc.devRef .tc main_v348) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_v348) := W21_of_ne m ρ c main_v348 (by decide)
    _ = W19 m ρ c (Proc.devRef .tc main_v348) := StableHlo.after_of_forall_not_mem (b := Proc.devRef .tc main_v348) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W17 m ρ c (Proc.devRef .tc main_v348) := st_main_v348_19 m ρ c

set_option maxHeartbeats 4000000 in
theorem st_main_arg10_26 : W26 m ρ c (Proc.devRef .tc main_arg10) = W0 m ρ c (Proc.devRef .tc main_arg10) :=
  calc W26 m ρ c (Proc.devRef .tc main_arg10)
    _ = W25 m ρ c (Proc.devRef .tc main_arg10) := W26_of_ne m ρ c main_arg10 (by decide)
    _ = W24 m ρ c (Proc.devRef .tc main_arg10) := W25_of_ne m ρ c main_arg10 (by decide)
    _ = W23 m ρ c (Proc.devRef .tc main_arg10) := StableHlo.after_of_forall_not_mem (b := Proc.devRef .tc main_arg10) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg10) := W23_of_ne m ρ c main_arg10 (by decide)
    _ = W21 m ρ c (Proc.devRef .tc main_arg10) := StableHlo.after_of_forall_not_mem (b := Proc.devRef .tc main_arg10) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg10) := W21_of_ne m ρ c main_arg10 (by decide)
    _ = W19 m ρ c (Proc.devRef .tc main_arg10) := StableHlo.after_of_forall_not_mem (b := Proc.devRef .tc main_arg10) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W18 m ρ c (Proc.devRef .tc main_arg10) := W19_of_ne m ρ c main_arg10 (by decide)
    _ = W17 m ρ c (Proc.devRef .tc main_arg10) := StableHlo.after_of_forall_not_mem (b := Proc.devRef .tc main_arg10) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg10) := W17_of_ne m ρ c main_arg10 (by decide)
    _ = W15 m ρ c (Proc.devRef .tc main_arg10) := StableHlo.after_of_forall_not_mem (b := Proc.devRef .tc main_arg10) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg10) := W15_of_ne m ρ c main_arg10 (by decide)
    _ = W13 m ρ c (Proc.devRef .tc main_arg10) := StableHlo.after_of_forall_not_mem (b := Proc.devRef .tc main_arg10) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W12 m ρ c (Proc.devRef .tc main_arg10) := W13_of_ne m ρ c main_arg10 (by decide)
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v580_32 : W32 m ρ c (Proc.devRef .tc main_v580) = W28 m ρ c (Proc.devRef .tc main_v580) :=
  calc W32 m ρ c (Proc.devRef .tc main_v580)
    _ = W31 m ρ c (Proc.devRef .tc main_v580) := W32_of_ne m ρ c main_v580 (by decide)
    _ = W30 m ρ c (Proc.devRef .tc main_v580) := StableHlo.after_of_forall_not_mem (b := Proc.devRef .tc main_v580) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_v580) := W30_of_ne m ρ c main_v580 (by decide)
    _ = W28 m ρ c (Proc.devRef .tc main_v580) := StableHlo.after_of_forall_not_mem (b := Proc.devRef .tc main_v580) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v580_33 : W33 m ρ c (Proc.devRef .tc main_v580) = W28 m ρ c (Proc.devRef .tc main_v580) :=
  calc W33 m ρ c (Proc.devRef .tc main_v580)
    _ = W32 m ρ c (Proc.devRef .tc main_v580) := StableHlo.after_of_forall_not_mem (b := Proc.devRef .tc main_v580) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W28 m ρ c (Proc.devRef .tc main_v580) := st_main_v580_32 m ρ c

set_option maxHeartbeats 4000000 in
theorem st_main_v713_39 : W39 m ρ c (Proc.devRef .tc main_v713) = W38 m ρ c (Proc.devRef .tc main_v713) :=
  calc W39 m ρ c (Proc.devRef .tc main_v713)
    _ = W38 m ρ c (Proc.devRef .tc main_v713) := StableHlo.after_of_forall_not_mem (b := Proc.devRef .tc main_v713) _ _ (List.forall_iff_forall_mem.mp (by
      simp only [hostOps20, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.KW

end
-- ==== Proof.KStab3.lean ====
import proofs.«165177_j32074815766916_1_alg».proof.Proof.FIW

import Idealize.ShloMosaic.PureOps.Ideal
set_option maxRecDepth 16384

noncomputable section

namespace Cert.KernelIdeal.KW

open Idealize.ShloMosaic Idealize.ShloMosaic.TcCoe Cert.KernelIdeal Cert.KernelIdeal.Gen Cert.KernelIdeal.GenP

variable (m : (ℓ : Loc nD τ sig) → Buf (Elt Ideal) ℓ) (ρ : Dev nD → PrngReg) (c : Dev nD)

set_option maxHeartbeats 4000000 in
theorem st_main_arg0_3 : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg0_26 : W26 m ρ c (Proc.devRef .tc main_arg0) = W0 m ρ c (Proc.devRef .tc main_arg0) :=
  calc W26 m ρ c (Proc.devRef .tc main_arg0)
    _ = W25 m ρ c (Proc.devRef .tc main_arg0) := W26_of_ne m ρ c main_arg0 (by decide)
    _ = W24 m ρ c (Proc.devRef .tc main_arg0) := W25_of_ne m ρ c main_arg0 (by decide)
    _ = W23 m ρ c (Proc.devRef .tc main_arg0) := StableHlo.after_of_forall_not_mem (b := Proc.devRef .tc main_arg0) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg0) := W23_of_ne m ρ c main_arg0 (by decide)
    _ = W21 m ρ c (Proc.devRef .tc main_arg0) := StableHlo.after_of_forall_not_mem (b := Proc.devRef .tc main_arg0) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg0) := W21_of_ne m ρ c main_arg0 (by decide)
    _ = W19 m ρ c (Proc.devRef .tc main_arg0) := StableHlo.after_of_forall_not_mem (b := Proc.devRef .tc main_arg0) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W18 m ρ c (Proc.devRef .tc main_arg0) := W19_of_ne m ρ c main_arg0 (by decide)
    _ = W17 m ρ c (Proc.devRef .tc main_arg0) := StableHlo.after_of_forall_not_mem (b := Proc.devRef .tc main_arg0) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg0) := W17_of_ne m ρ c main_arg0 (by decide)
    _ = W15 m ρ c (Proc.devRef .tc main_arg0) := StableHlo.after_of_forall_not_mem (b := Proc.devRef .tc main_arg0) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg0) := W15_of_ne m ρ c main_arg0 (by decide)
    _ = W13 m ρ c (Proc.devRef .tc main_arg0) := StableHlo.after_of_forall_not_mem (b := Proc.devRef .tc main_arg0) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W12 m ρ c (Proc.devRef .tc main_arg0) := W13_of_ne m ρ c main_arg0 (by decide)
    _ = W11 m ρ c (Proc.devRef .tc main_arg0) := W12_of_ne m ρ c main_arg0 (by decide)
    _ = W10 m ρ c (Proc.devRef .tc main_arg0) := StableHlo.after_of_forall_not_mem (b := Proc.devRef .tc main_arg0) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg0) := W10_of_ne m ρ c main_arg0 (by decide)
    _ = W8 m ρ c (Proc.devRef .tc main_arg0) := StableHlo.after_of_forall_not_mem (b := Proc.devRef .tc main_arg0) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg0) := (W4_arr m ρ c 2).trans (((dat1 (V3 m ρ) c).arrAt_in 2 rfl _).trans (A_eq1 (V3 m ρ) c 2))
    _ = W0 m ρ c (Proc.devRef .tc main_arg0) := st_main_arg0_3 m ρ c

set_option maxHeartbeats 4000000 in
theorem st_main_arg0_29 : W29 m ρ c (Proc.devRef .tc main_arg0) = W0 m ρ c (Proc.devRef .tc main_arg0) :=
  calc W29 m ρ c (Proc.devRef .tc main_arg0)
    _ = W28 m ρ c (Proc.devRef .tc main_arg0) := StableHlo.after_of_forall_not_mem (b := Proc.devRef .tc main_arg0) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_arg0) := W28_of_ne m ρ c main_arg0 (by decide)
    _ = W26 m ρ c (Proc.devRef .tc main_arg0) := StableHlo.after_of_forall_not_mem (b := Proc.devRef .tc main_arg0) _ _ (List.forall_iff_forall_mem.mp (by
      simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := st_main_arg0_26 m ρ c

set_option maxHeartbeats 4000000 in
theorem st_main_arg19_6 : W6 m ρ c (Proc.devRef .tc main_arg19) = W0 m ρ c (Proc.devRef .tc main_arg19) :=
  calc W6 m ρ c (Proc.devRef .tc main_arg19)
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg19_13 : W13 m ρ c (Proc.devRef .tc main_arg19) = W0 m ρ c (Proc.devRef .tc main_arg19) :=
  calc W13 m ρ c (Proc.devRef .tc main_arg19)
    _ = W12 m ρ c (Proc.devRef .tc main_arg19) := W13_of_ne m ρ c main_arg19 (by decide)
    _ = W11 m ρ c (Proc.devRef .tc main_arg19) := W12_of_ne m ρ c main_arg19 (by decide)
    _ = W10 m ρ c (Proc.devRef .tc main_arg19) := StableHlo.after_of_forall_not_mem (b := Proc.devRef .tc main_arg19) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg19) := W10_of_ne m ρ c main_arg19 (by decide)
    _ = W8 m ρ c (Proc.devRef .tc main_arg19) := StableHlo.after_of_forall_not_mem (b := Proc.devRef .tc main_arg19) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg19) := st_main_arg19_6 m ρ c

set_option maxHeartbeats 4000000 in
theorem st_main_arg19_19 : W19 m ρ c (Proc.devRef .tc main_arg19) = W0 m ρ c (Proc.devRef .tc main_arg19) :=
  calc W19 m ρ c (Proc.devRef .tc main_arg19)
    _ = W18 m ρ c (Proc.devRef .tc main_arg19) := W19_of_ne m ρ c main_arg19 (by decide)
    _ = W17 m ρ c (Proc.devRef .tc main_arg19) := StableHlo.after_of_forall_not_mem (b := Proc.devRef .tc main_arg19) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg19) := W17_of_ne m ρ c main_arg19 (by decide)
    _ = W15 m ρ c (Proc.devRef .tc main_arg19) := StableHlo.after_of_forall_not_mem (b := Proc.devRef .tc main_arg19) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg19) := W15_of_ne m ρ c main_arg19 (by decide)
    _ = W13 m ρ c (Proc.devRef .tc main_arg19) := StableHlo.after_of_forall_not_mem (b := Proc.devRef .tc main_arg19) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg19) := st_main_arg19_13 m ρ c

set_option maxHeartbeats 4000000 in
theorem st_main_arg19_26 : W26 m ρ c (Proc.devRef .tc main_arg19) = W0 m ρ c (Proc.devRef .tc main_arg19) :=
  calc W26 m ρ c (Proc.devRef .tc main_arg19)
    _ = W25 m ρ c (Proc.devRef .tc main_arg19) := W26_of_ne m ρ c main_arg19 (by decide)
    _ = W24 m ρ c (Proc.devRef .tc main_arg19) := W25_of_ne m ρ c main_arg19 (by decide)
    _ = W23 m ρ c (Proc.devRef .tc main_arg19) := StableHlo.after_of_forall_not_mem (b := Proc.devRef .tc main_arg19) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg19) := W23_of_ne m ρ c main_arg19 (by decide)
    _ = W21 m ρ c (Proc.devRef .tc main_arg19) := StableHlo.after_of_forall_not_mem (b := Proc.devRef .tc main_arg19) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg19) := W21_of_ne m ρ c main_arg19 (by decide)
    _ = W19 m ρ c (Proc.devRef .tc main_arg19) := StableHlo.after_of_forall_not_mem (b := Proc.devRef .tc main_arg19) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg19) := st_main_arg19_19 m ρ c

set_option maxHeartbeats 4000000 in
theorem st_main_arg19_32 : W32 m ρ c (Proc.devRef .tc main_arg19) = W0 m ρ c (Proc.devRef .tc main_arg19) :=
  calc W32 m ρ c (Proc.devRef .tc main_arg19)
    _ = W31 m ρ c (Proc.devRef .tc main_arg19) := W32_of_ne m ρ c main_arg19 (by decide)
    _ = W30 m ρ c (Proc.devRef .tc main_arg19) := StableHlo.after_of_forall_not_mem (b := Proc.devRef .tc main_arg19) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_arg19) := W30_of_ne m ρ c main_arg19 (by decide)
    _ = W28 m ρ c (Proc.devRef .tc main_arg19) := StableHlo.after_of_forall_not_mem (b := Proc.devRef .tc main_arg19) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_arg19) := W28_of_ne m ρ c main_arg19 (by decide)
    _ = W26 m ρ c (Proc.devRef .tc main_arg19) := StableHlo.after_of_forall_not_mem (b := Proc.devRef .tc main_arg19) _ _ (List.forall_iff_forall_mem.mp (by
      simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg19) := st_main_arg19_26 m ρ c

set_option maxHeartbeats 4000000 in
theorem st_main_v196_10 : W10 m ρ c (Proc.devRef .tc main_v196) = W7 m ρ c (Proc.devRef .tc main_v196) :=
  calc W10 m ρ c (Proc.devRef .tc main_v196)
    _ = W9 m ρ c (Proc.devRef .tc main_v196) := W10_of_ne m ρ c main_v196 (by decide)
    _ = W8 m ρ c (Proc.devRef .tc main_v196) := StableHlo.after_of_forall_not_mem (b := Proc.devRef .tc main_v196) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v196) := W8_of_ne m ρ c main_v196 (by decide)

set_option maxHeartbeats 4000000 in
theorem st_main_arg5_13 : W13 m ρ c (Proc.devRef .tc main_arg5) = W0 m ρ c (Proc.devRef .tc main_arg5) :=
  calc W13 m ρ c (Proc.devRef .tc main_arg5)
    _ = W12 m ρ c (Proc.devRef .tc main_arg5) := W13_of_ne m ρ c main_arg5 (by decide)
    _ = W11 m ρ c (Proc.devRef .tc main_arg5) := W12_of_ne m ρ c main_arg5 (by decide)
    _ = W10 m ρ c (Proc.devRef .tc main_arg5) := StableHlo.after_of_forall_not_mem (b := Proc.devRef .tc main_arg5) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg5_26 : W26 m ρ c (Proc.devRef .tc main_arg5) = W0 m ρ c (Proc.devRef .tc main_arg5) :=
  calc W26 m ρ c (Proc.devRef .tc main_arg5)
    _ = W25 m ρ c (Proc.devRef .tc main_arg5) := W26_of_ne m ρ c main_arg5 (by decide)
    _ = W24 m ρ c (Proc.devRef .tc main_arg5) := W25_of_ne m ρ c main_arg5 (by decide)
    _ = W23 m ρ c (Proc.devRef .tc main_arg5) := StableHlo.after_of_forall_not_mem (b := Proc.devRef .tc main_arg5) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg5) := W23_of_ne m ρ c main_arg5 (by decide)
    _ = W21 m ρ c (Proc.devRef .tc main_arg5) := StableHlo.after_of_forall_not_mem (b := Proc.devRef .tc main_arg5) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg5) := W21_of_ne m ρ c main_arg5 (by decide)
    _ = W19 m ρ c (Proc.devRef .tc main_arg5) := StableHlo.after_of_forall_not_mem (b := Proc.devRef .tc main_arg5) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W18 m ρ c (Proc.devRef .tc main_arg5) := W19_of_ne m ρ c main_arg5 (by decide)
    _ = W17 m ρ c (Proc.devRef .tc main_arg5) := StableHlo.after_of_forall_not_mem (b := Proc.devRef .tc main_arg5) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg5) := W17_of_ne m ρ c main_arg5 (by decide)
    _ = W15 m ρ c (Proc.devRef .tc main_arg5) := StableHlo.after_of_forall_not_mem (b := Proc.devRef .tc main_arg5) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg5) := W15_of_ne m ρ c main_arg5 (by decide)
    _ = W13 m ρ c (Proc.devRef .tc main_arg5) := StableHlo.after_of_forall_not_mem (b := Proc.devRef .tc main_arg5) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := st_main_arg5_13 m ρ c

set_option maxHeartbeats 4000000 in
theorem st_main_v339_19 : W19 m ρ c (Proc.devRef .tc main_v339) = W15 m ρ c (Proc.devRef .tc main_v339) :=
  calc W19 m ρ c (Proc.devRef .tc main_v339)
    _ = W18 m ρ c (Proc.devRef .tc main_v339) := W19_of_ne m ρ c main_v339 (by decide)
    _ = W17 m ρ c (Proc.devRef .tc main_v339) := StableHlo.after_of_forall_not_mem (b := Proc.devRef .tc main_v339) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_v339) := W17_of_ne m ρ c main_v339 (by decide)
    _ = W15 m ρ c (Proc.devRef .tc main_v339) := StableHlo.after_of_forall_not_mem (b := Proc.devRef .tc main_v339) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v339_20 : W20 m ρ c (Proc.devRef .tc main_v339) = W15 m ρ c (Proc.devRef .tc main_v339) :=
  calc W20 m ρ c (Proc.devRef .tc main_v339)
    _ = W19 m ρ c (Proc.devRef .tc main_v339) := StableHlo.after_of_forall_not_mem (b := Proc.devRef .tc main_v339) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W15 m ρ c (Proc.devRef .tc main_v339) := st_main_v339_19 m ρ c

set_option maxHeartbeats 4000000 in
theorem st_main_arg11_26 : W26 m ρ c (Proc.devRef .tc main_arg11) = W0 m ρ c (Proc.devRef .tc main_arg11) :=
  calc W26 m ρ c (Proc.devRef .tc main_arg11)
    _ = W25 m ρ c (Proc.devRef .tc main_arg11) := W26_of_ne m ρ c main_arg11 (by decide)
    _ = W24 m ρ c (Proc.devRef .tc main_arg11) := W25_of_ne m ρ c main_arg11 (by decide)
    _ = W23 m ρ c (Proc.devRef .tc main_arg11) := StableHlo.after_of_forall_not_mem (b := Proc.devRef .tc main_arg11) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg11) := W23_of_ne m ρ c main_arg11 (by decide)
    _ = W21 m ρ c (Proc.devRef .tc main_arg11) := StableHlo.after_of_forall_not_mem (b := Proc.devRef .tc main_arg11) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg11) := W21_of_ne m ρ c main_arg11 (by decide)
    _ = W19 m ρ c (Proc.devRef .tc main_arg11) := StableHlo.after_of_forall_not_mem (b := Proc.devRef .tc main_arg11) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W18 m ρ c (Proc.devRef .tc main_arg11) := W19_of_ne m ρ c main_arg11 (by decide)
    _ = W17 m ρ c (Proc.devRef .tc main_arg11) := StableHlo.after_of_forall_not_mem (b := Proc.devRef .tc main_arg11) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg11) := W17_of_ne m ρ c main_arg11 (by decide)
    _ = W15 m ρ c (Proc.devRef .tc main_arg11) := StableHlo.after_of_forall_not_mem (b := Proc.devRef .tc main_arg11) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg11) := W15_of_ne m ρ c main_arg11 (by decide)
    _ = W13 m ρ c (Proc.devRef .tc main_arg11) := StableHlo.after_of_forall_not_mem (b := Proc.devRef .tc main_arg11) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W12 m ρ c (Proc.devRef .tc main_arg11) := W13_of_ne m ρ c main_arg11 (by decide)
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v655_34 : W34 m ρ c (Proc.devRef .tc main_v655) = W33 m ρ c (Proc.devRef .tc main_v655) :=
  calc W34 m ρ c (Proc.devRef .tc main_v655)
    _ = W33 m ρ c (Proc.devRef .tc main_v655) := W34_of_ne m ρ c main_v655 (by decide)

end Cert.KernelIdeal.KW

end
-- ==== Proof.KStab4.lean ====
import proofs.«165177_j32074815766916_1_alg».proof.Proof.FIW

import Idealize.ShloMosaic.PureOps.Ideal
set_option maxRecDepth 16384

noncomputable section

namespace Cert.KernelIdeal.KW

open Idealize.ShloMosaic Idealize.ShloMosaic.TcCoe Cert.KernelIdeal Cert.KernelIdeal.Gen Cert.KernelIdeal.GenP

variable (m : (ℓ : Loc nD τ sig) → Buf (Elt Ideal) ℓ) (ρ : Dev nD → PrngReg) (c : Dev nD)

set_option maxHeartbeats 4000000 in
theorem st_main_v5_2 : W2 m ρ c (Proc.devRef .tc main_v5) = W1 m ρ c (Proc.devRef .tc main_v5) :=
  calc W2 m ρ c (Proc.devRef .tc main_v5)
    _ = W1 m ρ c (Proc.devRef .tc main_v5) := W2_of_ne m ρ c main_v5 (by decide)

set_option maxHeartbeats 4000000 in
theorem st_main_v5_4 : W4 m ρ c (Proc.devRef .tc main_v5) = W1 m ρ c (Proc.devRef .tc main_v5) :=
  calc W4 m ρ c (Proc.devRef .tc main_v5)
    _ = W3 m ρ c (Proc.devRef .tc main_v5) := W4_of_ne m ρ c main_v5 (by decide)
    _ = W2 m ρ c (Proc.devRef .tc main_v5) := StableHlo.after_of_forall_not_mem (b := Proc.devRef .tc main_v5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v5) := st_main_v5_2 m ρ c

set_option maxHeartbeats 4000000 in
theorem st_main_v5_6 : W6 m ρ c (Proc.devRef .tc main_v5) = W1 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v5) := st_main_v5_4 m ρ c

set_option maxHeartbeats 4000000 in
theorem st_main_v5_8 : W8 m ρ c (Proc.devRef .tc main_v5) = W1 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := StableHlo.after_of_forall_not_mem (b := Proc.devRef .tc main_v5) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v5) := st_main_v5_6 m ρ c

set_option maxHeartbeats 4000000 in
theorem st_main_v5_10 : W10 m ρ c (Proc.devRef .tc main_v5) = W1 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := StableHlo.after_of_forall_not_mem (b := Proc.devRef .tc main_v5) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v5) := st_main_v5_8 m ρ c

set_option maxHeartbeats 4000000 in
theorem st_main_arg18_6 : W6 m ρ c (Proc.devRef .tc main_arg18) = W0 m ρ c (Proc.devRef .tc main_arg18) :=
  calc W6 m ρ c (Proc.devRef .tc main_arg18)
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg18_13 : W13 m ρ c (Proc.devRef .tc main_arg18) = W0 m ρ c (Proc.devRef .tc main_arg18) :=
  calc W13 m ρ c (Proc.devRef .tc main_arg18)
    _ = W12 m ρ c (Proc.devRef .tc main_arg18) := W13_of_ne m ρ c main_arg18 (by decide)
    _ = W11 m ρ c (Proc.devRef .tc main_arg18) := W12_of_ne m ρ c main_arg18 (by decide)
    _ = W10 m ρ c (Proc.devRef .tc main_arg18) := StableHlo.after_of_forall_not_mem (b := Proc.devRef .tc main_arg18) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg18) := W10_of_ne m ρ c main_arg18 (by decide)
    _ = W8 m ρ c (Proc.devRef .tc main_arg18) := StableHlo.after_of_forall_not_mem (b := Proc.devRef .tc main_arg18) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg18) := st_main_arg18_6 m ρ c

set_option maxHeartbeats 4000000 in
theorem st_main_arg18_19 : W19 m ρ c (Proc.devRef .tc main_arg18) = W0 m ρ c (Proc.devRef .tc main_arg18) :=
  calc W19 m ρ c (Proc.devRef .tc main_arg18)
    _ = W18 m ρ c (Proc.devRef .tc main_arg18) := W19_of_ne m ρ c main_arg18 (by decide)
    _ = W17 m ρ c (Proc.devRef .tc main_arg18) := StableHlo.after_of_forall_not_mem (b := Proc.devRef .tc main_arg18) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg18) := W17_of_ne m ρ c main_arg18 (by decide)
    _ = W15 m ρ c (Proc.devRef .tc main_arg18) := StableHlo.after_of_forall_not_mem (b := Proc.devRef .tc main_arg18) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg18) := W15_of_ne m ρ c main_arg18 (by decide)
    _ = W13 m ρ c (Proc.devRef .tc main_arg18) := StableHlo.after_of_forall_not_mem (b := Proc.devRef .tc main_arg18) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg18) := st_main_arg18_13 m ρ c

set_option maxHeartbeats 4000000 in
theorem st_main_arg18_26 : W26 m ρ c (Proc.devRef .tc main_arg18) = W0 m ρ c (Proc.devRef .tc main_arg18) :=
  calc W26 m ρ c (Proc.devRef .tc main_arg18)
    _ = W25 m ρ c (Proc.devRef .tc main_arg18) := W26_of_ne m ρ c main_arg18 (by decide)
    _ = W24 m ρ c (Proc.devRef .tc main_arg18) := W25_of_ne m ρ c main_arg18 (by decide)
    _ = W23 m ρ c (Proc.devRef .tc main_arg18) := StableHlo.after_of_forall_not_mem (b := Proc.devRef .tc main_arg18) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg18) := W23_of_ne m ρ c main_arg18 (by decide)
    _ = W21 m ρ c (Proc.devRef .tc main_arg18) := StableHlo.after_of_forall_not_mem (b := Proc.devRef .tc main_arg18) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg18) := W21_of_ne m ρ c main_arg18 (by decide)
    _ = W19 m ρ c (Proc.devRef .tc main_arg18) := StableHlo.after_of_forall_not_mem (b := Proc.devRef .tc main_arg18) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg18) := st_main_arg18_19 m ρ c

set_option maxHeartbeats 4000000 in
theorem st_main_arg18_32 : W32 m ρ c (Proc.devRef .tc main_arg18) = W0 m ρ c (Proc.devRef .tc main_arg18) :=
  calc W32 m ρ c (Proc.devRef .tc main_arg18)
    _ = W31 m ρ c (Proc.devRef .tc main_arg18) := W32_of_ne m ρ c main_arg18 (by decide)
    _ = W30 m ρ c (Proc.devRef .tc main_arg18) := StableHlo.after_of_forall_not_mem (b := Proc.devRef .tc main_arg18) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_arg18) := W30_of_ne m ρ c main_arg18 (by decide)
    _ = W28 m ρ c (Proc.devRef .tc main_arg18) := StableHlo.after_of_forall_not_mem (b := Proc.devRef .tc main_arg18) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_arg18) := W28_of_ne m ρ c main_arg18 (by decide)
    _ = W26 m ρ c (Proc.devRef .tc main_arg18) := StableHlo.after_of_forall_not_mem (b := Proc.devRef .tc main_arg18) _ _ (List.forall_iff_forall_mem.mp (by
      simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg18) := st_main_arg18_26 m ρ c

set_option maxHeartbeats 4000000 in
theorem st_main_v120_11 : W11 m ρ c (Proc.devRef .tc main_v120) = W6 m ρ c (Proc.devRef .tc main_v120) :=
  calc W11 m ρ c (Proc.devRef .tc main_v120)
    _ = W10 m ρ c (Proc.devRef .tc main_v120) := StableHlo.after_of_forall_not_mem (b := Proc.devRef .tc main_v120) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_v120) := W10_of_ne m ρ c main_v120 (by decide)
    _ = W8 m ρ c (Proc.devRef .tc main_v120) := StableHlo.after_of_forall_not_mem (b := Proc.devRef .tc main_v120) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v120) := W8_of_ne m ρ c main_v120 (by decide)
    _ = W6 m ρ c (Proc.devRef .tc main_v120) := StableHlo.after_of_forall_not_mem (b := Proc.devRef .tc main_v120) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg4_13 : W13 m ρ c (Proc.devRef .tc main_arg4) = W0 m ρ c (Proc.devRef .tc main_arg4) :=
  calc W13 m ρ c (Proc.devRef .tc main_arg4)
    _ = W12 m ρ c (Proc.devRef .tc main_arg4) := W13_of_ne m ρ c main_arg4 (by decide)
    _ = W11 m ρ c (Proc.devRef .tc main_arg4) := W12_of_ne m ρ c main_arg4 (by decide)
    _ = W10 m ρ c (Proc.devRef .tc main_arg4) := StableHlo.after_of_forall_not_mem (b := Proc.devRef .tc main_arg4) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg4_26 : W26 m ρ c (Proc.devRef .tc main_arg4) = W0 m ρ c (Proc.devRef .tc main_arg4) :=
  calc W26 m ρ c (Proc.devRef .tc main_arg4)
    _ = W25 m ρ c (Proc.devRef .tc main_arg4) := W26_of_ne m ρ c main_arg4 (by decide)
    _ = W24 m ρ c (Proc.devRef .tc main_arg4) := W25_of_ne m ρ c main_arg4 (by decide)
    _ = W23 m ρ c (Proc.devRef .tc main_arg4) := StableHlo.after_of_forall_not_mem (b := Proc.devRef .tc main_arg4) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg4) := W23_of_ne m ρ c main_arg4 (by decide)
    _ = W21 m ρ c (Proc.devRef .tc main_arg4) := StableHlo.after_of_forall_not_mem (b := Proc.devRef .tc main_arg4) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg4) := W21_of_ne m ρ c main_arg4 (by decide)
    _ = W19 m ρ c (Proc.devRef .tc main_arg4) := StableHlo.after_of_forall_not_mem (b := Proc.devRef .tc main_arg4) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W18 m ρ c (Proc.devRef .tc main_arg4) := W19_of_ne m ρ c main_arg4 (by decide)
    _ = W17 m ρ c (Proc.devRef .tc main_arg4) := StableHlo.after_of_forall_not_mem (b := Proc.devRef .tc main_arg4) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg4) := W17_of_ne m ρ c main_arg4 (by decide)
    _ = W15 m ρ c (Proc.devRef .tc main_arg4) := StableHlo.after_of_forall_not_mem (b := Proc.devRef .tc main_arg4) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg4) := W15_of_ne m ρ c main_arg4 (by decide)
    _ = W13 m ρ c (Proc.devRef .tc main_arg4) := StableHlo.after_of_forall_not_mem (b := Proc.devRef .tc main_arg4) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := st_main_arg4_13 m ρ c

set_option maxHeartbeats 4000000 in
theorem st_main_v414_21 : W21 m ρ c (Proc.devRef .tc main_v414) = W20 m ρ c (Proc.devRef .tc main_v414) :=
  calc W21 m ρ c (Proc.devRef .tc main_v414)
    _ = W20 m ρ c (Proc.devRef .tc main_v414) := W21_of_ne m ρ c main_v414 (by decide)

set_option maxHeartbeats 4000000 in
theorem st_main_v540_28 : W28 m ρ c (Proc.devRef .tc main_v540) = W27 m ρ c (Proc.devRef .tc main_v540) :=
  calc W28 m ρ c (Proc.devRef .tc main_v540)
    _ = W27 m ρ c (Proc.devRef .tc main_v540) := W28_of_ne m ρ c main_v540 (by decide)

set_option maxHeartbeats 4000000 in
theorem st_main_v674_36 : W36 m ρ c (Proc.devRef .tc main_v674) = W33 m ρ c (Proc.devRef .tc main_v674) :=
  calc W36 m ρ c (Proc.devRef .tc main_v674)
    _ = W35 m ρ c (Proc.devRef .tc main_v674) := W36_of_ne m ρ c main_v674 (by decide)
    _ = W34 m ρ c (Proc.devRef .tc main_v674) := StableHlo.after_of_forall_not_mem (b := Proc.devRef .tc main_v674) _ _ (List.forall_iff_forall_mem.mp (by
      simp only [hostOps18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W33 m ρ c (Proc.devRef .tc main_v674) := W34_of_ne m ρ c main_v674 (by decide)

end Cert.KernelIdeal.KW

end
-- ==== Proof.KStab5.lean ====
import proofs.«165177_j32074815766916_1_alg».proof.Proof.FIW

import Idealize.ShloMosaic.PureOps.Ideal
set_option maxRecDepth 16384

noncomputable section

namespace Cert.KernelIdeal.KW

open Idealize.ShloMosaic Idealize.ShloMosaic.TcCoe Cert.KernelIdeal Cert.KernelIdeal.Gen Cert.KernelIdeal.GenP

variable (m : (ℓ : Loc nD τ sig) → Buf (Elt Ideal) ℓ) (ρ : Dev nD → PrngReg) (c : Dev nD)

set_option maxHeartbeats 4000000 in
theorem st_main_v3_2 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

set_option maxHeartbeats 4000000 in
theorem st_main_v3_4 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v3) := st_main_v3_2 m ρ c

set_option maxHeartbeats 4000000 in
theorem st_main_v3_6 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v3) := st_main_v3_4 m ρ c

set_option maxHeartbeats 4000000 in
theorem st_main_v3_8 : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v3) := st_main_v3_6 m ρ c

set_option maxHeartbeats 4000000 in
theorem st_main_v3_10 : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v3) := st_main_v3_8 m ρ c

set_option maxHeartbeats 4000000 in
theorem st_main_v102_6 : W6 m ρ c (Proc.devRef .tc main_v102) = W2 m ρ c (Proc.devRef .tc main_v102) :=
  calc W6 m ρ c (Proc.devRef .tc main_v102)
    _ = W5 m ρ c (Proc.devRef .tc main_v102) := W6_of_ne m ρ c main_v102 (by decide)
    _ = W4 m ρ c (Proc.devRef .tc main_v102) := StableHlo.after_of_forall_not_mem (b := Proc.devRef .tc main_v102) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v102) := W4_of_ne m ρ c main_v102 (by decide)
    _ = W2 m ρ c (Proc.devRef .tc main_v102) := StableHlo.after_of_forall_not_mem (b := Proc.devRef .tc main_v102) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v102_7 : W7 m ρ c (Proc.devRef .tc main_v102) = W2 m ρ c (Proc.devRef .tc main_v102) :=
  calc W7 m ρ c (Proc.devRef .tc main_v102)
    _ = W6 m ρ c (Proc.devRef .tc main_v102) := StableHlo.after_of_forall_not_mem (b := Proc.devRef .tc main_v102) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_v102) := st_main_v102_6 m ρ c

set_option maxHeartbeats 4000000 in
theorem st_main_v226_12 : W12 m ρ c (Proc.devRef .tc main_v226) = W10 m ρ c (Proc.devRef .tc main_v226) :=
  calc W12 m ρ c (Proc.devRef .tc main_v226)
    _ = W11 m ρ c (Proc.devRef .tc main_v226) := W12_of_ne m ρ c main_v226 (by decide)
    _ = W10 m ρ c (Proc.devRef .tc main_v226) := StableHlo.after_of_forall_not_mem (b := Proc.devRef .tc main_v226) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v226_13 : W13 m ρ c (Proc.devRef .tc main_v226) = W10 m ρ c (Proc.devRef .tc main_v226) :=
  calc W13 m ρ c (Proc.devRef .tc main_v226)
    _ = W12 m ρ c (Proc.devRef .tc main_v226) := (W13_arr m ρ c 0).trans (((dat6 (V12 m ρ) c).arrAt_in 0 rfl _).trans (A_eq6 (V12 m ρ) c 0))
    _ = W10 m ρ c (Proc.devRef .tc main_v226) := st_main_v226_12 m ρ c

set_option maxHeartbeats 4000000 in
theorem st_main_v226_16 : W16 m ρ c (Proc.devRef .tc main_v226) = W10 m ρ c (Proc.devRef .tc main_v226) :=
  calc W16 m ρ c (Proc.devRef .tc main_v226)
    _ = W15 m ρ c (Proc.devRef .tc main_v226) := StableHlo.after_of_forall_not_mem (b := Proc.devRef .tc main_v226) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v226) := W15_of_ne m ρ c main_v226 (by decide)
    _ = W13 m ρ c (Proc.devRef .tc main_v226) := StableHlo.after_of_forall_not_mem (b := Proc.devRef .tc main_v226) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W10 m ρ c (Proc.devRef .tc main_v226) := st_main_v226_13 m ρ c

set_option maxHeartbeats 4000000 in
theorem st_main_v299_15 : W15 m ρ c (Proc.devRef .tc main_v299) = W14 m ρ c (Proc.devRef .tc main_v299) :=
  calc W15 m ρ c (Proc.devRef .tc main_v299)
    _ = W14 m ρ c (Proc.devRef .tc main_v299) := W15_of_ne m ρ c main_v299 (by decide)

set_option maxHeartbeats 4000000 in
theorem st_main_v433_23 : W23 m ρ c (Proc.devRef .tc main_v433) = W20 m ρ c (Proc.devRef .tc main_v433) :=
  calc W23 m ρ c (Proc.devRef .tc main_v433)
    _ = W22 m ρ c (Proc.devRef .tc main_v433) := W23_of_ne m ρ c main_v433 (by decide)
    _ = W21 m ρ c (Proc.devRef .tc main_v433) := StableHlo.after_of_forall_not_mem (b := Proc.devRef .tc main_v433) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_v433) := W21_of_ne m ρ c main_v433 (by decide)

set_option maxHeartbeats 4000000 in
theorem st_main_v479_28 : W28 m ρ c (Proc.devRef .tc main_v479) = W27 m ρ c (Proc.devRef .tc main_v479) :=
  calc W28 m ρ c (Proc.devRef .tc main_v479)
    _ = W27 m ρ c (Proc.devRef .tc main_v479) := W28_of_ne m ρ c main_v479 (by decide)

set_option maxHeartbeats 4000000 in
theorem st_main_v479_30 : W30 m ρ c (Proc.devRef .tc main_v479) = W27 m ρ c (Proc.devRef .tc main_v479) :=
  calc W30 m ρ c (Proc.devRef .tc main_v479)
    _ = W29 m ρ c (Proc.devRef .tc main_v479) := W30_of_ne m ρ c main_v479 (by decide)
    _ = W28 m ρ c (Proc.devRef .tc main_v479) := StableHlo.after_of_forall_not_mem (b := Proc.devRef .tc main_v479) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v479) := st_main_v479_28 m ρ c

set_option maxHeartbeats 4000000 in
theorem st_main_v479_32 : W32 m ρ c (Proc.devRef .tc main_v479) = W27 m ρ c (Proc.devRef .tc main_v479) :=
  calc W32 m ρ c (Proc.devRef .tc main_v479)
    _ = W31 m ρ c (Proc.devRef .tc main_v479) := W32_of_ne m ρ c main_v479 (by decide)
    _ = W30 m ρ c (Proc.devRef .tc main_v479) := StableHlo.after_of_forall_not_mem (b := Proc.devRef .tc main_v479) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v479) := st_main_v479_30 m ρ c

set_option maxHeartbeats 4000000 in
theorem st_main_v479_34 : W34 m ρ c (Proc.devRef .tc main_v479) = W27 m ρ c (Proc.devRef .tc main_v479) :=
  calc W34 m ρ c (Proc.devRef .tc main_v479)
    _ = W33 m ρ c (Proc.devRef .tc main_v479) := W34_of_ne m ρ c main_v479 (by decide)
    _ = W32 m ρ c (Proc.devRef .tc main_v479) := StableHlo.after_of_forall_not_mem (b := Proc.devRef .tc main_v479) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v479) := st_main_v479_32 m ρ c

set_option maxHeartbeats 4000000 in
theorem st_main_v479_36 : W36 m ρ c (Proc.devRef .tc main_v479) = W27 m ρ c (Proc.devRef .tc main_v479) :=
  calc W36 m ρ c (Proc.devRef .tc main_v479)
    _ = W35 m ρ c (Proc.devRef .tc main_v479) := W36_of_ne m ρ c main_v479 (by decide)
    _ = W34 m ρ c (Proc.devRef .tc main_v479) := StableHlo.after_of_forall_not_mem (b := Proc.devRef .tc main_v479) _ _ (List.forall_iff_forall_mem.mp (by
      simp only [hostOps18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v479) := st_main_v479_34 m ρ c

set_option maxHeartbeats 4000000 in
theorem st_main_v598_37 : W37 m ρ c (Proc.devRef .tc main_v598) = W32 m ρ c (Proc.devRef .tc main_v598) :=
  calc W37 m ρ c (Proc.devRef .tc main_v598)
    _ = W36 m ρ c (Proc.devRef .tc main_v598) := StableHlo.after_of_forall_not_mem (b := Proc.devRef .tc main_v598) _ _ (List.forall_iff_forall_mem.mp (by
      simp only [hostOps19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W35 m ρ c (Proc.devRef .tc main_v598) := W36_of_ne m ρ c main_v598 (by decide)
    _ = W34 m ρ c (Proc.devRef .tc main_v598) := StableHlo.after_of_forall_not_mem (b := Proc.devRef .tc main_v598) _ _ (List.forall_iff_forall_mem.mp (by
      simp only [hostOps18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W33 m ρ c (Proc.devRef .tc main_v598) := W34_of_ne m ρ c main_v598 (by decide)
    _ = W32 m ρ c (Proc.devRef .tc main_v598) := StableHlo.after_of_forall_not_mem (b := Proc.devRef .tc main_v598) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.KW

end
-- ==== Proof.KW1.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.RegA1
import proofs.«165177_j32074815766916_1_alg».proof.Proof.KW0
import proofs.«165177_j32074815766916_1_alg».proof.Proof.KWArgs
import proofs.«165177_j32074815766916_1_alg».proof.Proof.KStab1
import proofs.«165177_j32074815766916_1_alg».proof.Proof.KStab2
import proofs.«165177_j32074815766916_1_alg».proof.Proof.KStab3
import proofs.«165177_j32074815766916_1_alg».proof.Proof.KStab4
import proofs.«165177_j32074815766916_1_alg».proof.Proof.KStab5
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem win1_0 : W3 m ρ c (Proc.devRef .tc main_v109) = pack1A (aggPA ((argsK m c).xp) (argsK m c).spa (argsK m c).dpa) := by
  have h0 := ((st_main_v62_2 m ρ c).trans (kv_main_v62 m ρ c))
  show StableHlo.after hostOps1 (W2 m ρ c) (Proc.devRef .tc main_v109) = _
  generalize W2 m ρ c = Wx at *
  unfold hostOps1
  after_results_simp
  simp only [h0]
  try rfl

theorem win1_1 : W3 m ρ c (Proc.devRef .tc main_v110) = pack1W (wmat 0 1 Facts₀.slices_S2x4x128x128_S1x1x128x128_0_1_0_0 (slab5 0 Facts₀.slices_S3x2x4x128x128_S1x2x4x128x128_0_0_0_0_0 (argsK m c).Wl)) := by
  have h0 := ((st_main_v1_2 m ρ c).trans (kv_main_v1 m ρ c))
  show StableHlo.after hostOps1 (W2 m ρ c) (Proc.devRef .tc main_v110) = _
  generalize W2 m ρ c = Wx at *
  unfold hostOps1
  after_results_simp
  simp only [h0]
  try rfl

theorem win1_2 : W3 m ρ c (Proc.devRef .tc main_arg0) = (argsK m c).xa := ((st_main_arg0_3 m ρ c).trans (kv_main_arg0 m ρ c))

theorem win1_3 : W3 m ρ c (Proc.devRef .tc main_v106) = wmat 0 1 Facts₀.slices_S2x4x128x128_S1x1x128x128_0_1_0_0 (slab5 0 Facts₀.slices_S3x2x4x128x128_S1x2x4x128x128_0_0_0_0_0 (argsK m c).Wr) := by
  have h0 := ((st_main_v5_2 m ρ c).trans (kv_main_v5 m ρ c))
  show StableHlo.after hostOps1 (W2 m ρ c) (Proc.devRef .tc main_v106) = _
  generalize W2 m ρ c = Wx at *
  unfold hostOps1
  after_results_simp
  simp only [h0]
  try rfl

theorem win1_4 : W3 m ρ c (Proc.devRef .tc main_v108) = wvec 0 1 Facts₀.slices_S2x4x128_S1x1x128_0_1_0 (slab4 0 Facts₀.slices_S3x2x4x128_S1x2x4x128_0_0_0_0 (argsK m c).bl) := by
  have h0 := ((st_main_v3_2 m ρ c).trans (kv_main_v3 m ρ c))
  show StableHlo.after hostOps1 (W2 m ρ c) (Proc.devRef .tc main_v108) = _
  generalize W2 m ρ c = Wx at *
  unfold hostOps1
  after_results_simp
  simp only [h0]
  try rfl

theorem kv_main_v111 : W4 m ρ c (Proc.devRef .tc main_v111) = K.ma1 (argsK m c) := by
  refine (W4_arr m ρ c 5).trans ?_
  refine (Cert.KernelIdeal.RegVal1.arr (V3 m ρ) c).trans ?_
  show Cert.IdxSpec.sage1 40000 (W3 m ρ c (Proc.devRef .tc main_v109)) (W3 m ρ c (Proc.devRef .tc main_v110)) (W3 m ρ c (Proc.devRef .tc main_arg0)) (W3 m ρ c (Proc.devRef .tc main_v106)) (W3 m ρ c (Proc.devRef .tc main_v108)) = _
  rw [win1_0 m ρ c, win1_1 m ρ c, win1_2 m ρ c, win1_3 m ρ c, win1_4 m ρ c]
  rfl

end Cert.KernelIdeal.KW

end
-- ==== Proof.Reg2Pay.lean ====
/-
  Region 1's arithmetic at one entry, on extended reals.

  The body stores one 2000 × 128 block. Its entry at row p and column q is
      max( Σ_k mean[0,p,k]·Wl[0,k,q] + Σ_k x[p,k]·Wr[k,q] + b[q], 0 ),
  where mean is the block of neighbour means (one relation, carried on a leading unit axis), Wl the stacked left weight,
  x the block of the node's own features, Wr the right weight and b the bias. The casts to the narrow format are the
  identity on exact values; each matrix product into a zero accumulator is the sum over its one contracted coordinate;
  dropping or adding a unit axis keeps the row-major position; the bias row is repeated down the rows.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal2

open Idealize.ShloMosaic Idealize.ShloMosaic.ValueIdx Cert.KernelIdeal Cert.KernelIdeal.Gen

/-! ## The matrix product's operand indices, axis by axis -/

/-- The left operand's row is the output's row. -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contracted coordinate. -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contracted coordinate. -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product at an entry -/

/-- A 2000 × 128 by 128 × 128 product into the zero accumulator, at entry (p, q): the sum over the 128 contracted
    coordinates of the products of the two operands' entries. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The stored block at an entry -/

/-- Entry (p, q) of the block the body stores: the two sums, the bias, the clamp at zero. -/
theorem pay_at (x0 : Vec Ideal S1x2000x128 .f32) (x1 : Vec Ideal S1x128x128 .f32) (x2 : Vec Ideal S2000x128 .f32)
    (x3 : Vec Ideal S128x128 .f32) (x4 : Vec Ideal S128 .f32) (p : Fin 2000) (q : Fin 128) :
    k2_pay1 (F := Ideal) x0 x1 x2 x3 x4 (ix2 p q)
      = max (((∑ k : Fin 128, x0 (ix3 (0 : Fin 1) p k) * x1 (ix3 (0 : Fin 1) k q))
          + ∑ k : Fin 128, x2 (ix2 p k) * x3 (ix2 k q))
          + x4 (ix1 q)) 0 := by
  unfold k2_pay1
  rw [maximumf_apply, broadcast_apply, addf_apply, addf_apply, matmul_at, matmul_at,
    broadcastTo_1b_ab_apply, shapeCast_a_1a_apply, shapeCast_self]
  simp only [truncf_apply, shapeCast_1ab_ab_apply, shapeCast_self]
  show max _ (Ideal.ofBits .f32 0x00000000#32) = _
  rw [Ideal.ofBits_zero_f32]

end Cert.KernelIdeal.RegVal2

end
-- ==== Proof.Reg2.lean ====
/-
  Region 1's value: what its output array holds after the grid has run, as one function of the arrays it reads, on
  extended reals.

  The region updates a node type with one incoming relation, 20000 rows in 10 blocks of 2000. Point t of the grid reads
  rows 2000·t … 2000·t + 1999 of the neighbour means and of the node's own features, the two weight matrices and the bias
  whole, and writes back rows 2000·t … 2000·t + 1999 of
      max( Σ_k mean[0,r,k]·Wl[0,k,q] + Σ_k x[r,k]·Wr[k,q] + b[q], 0 ).
  An entry of the written block depends only on its own row of the means and features, so each point writes exactly its
  block of that one whole-array function; the 10 blocks tile the rows (row r lies in block r / 2000), so the array ends
  holding the function everywhere.
-/
import proofs.«165177_j32074815766916_1_alg».proof.Proof.FIL2
import proofs.«165177_j32074815766916_1_alg».proof.Proof.IdxSpec
import proofs.«165177_j32074815766916_1_alg».proof.Proof.Reg2Pay
import Idealize.ShloMosaic.Lib.Pipeline.Value
import Idealize.ShloMosaic.Lib.ValueIdx

set_option maxRecDepth 16384

noncomputable section

namespace Cert.KernelIdeal.RegVal2

open Idealize.ShloMosaic Idealize.ShloMosaic.TcCoe Idealize.ShloMosaic.ValueIdx Cert.KernelIdeal Cert.KernelIdeal.Gen Cert.KernelIdeal.GenP
open Idealize.ShloMosaic.Pipeline (Dat)

/-! ## The arrays the region reads, by their literal types -/

variable (V : (c : Dev nD) → (b : Ref sig .tc) → Buf (Elt Ideal) ((c : Thread nD τ).loc b))

/-- The stacked neighbour means (one relation), 20000 rows. -/
noncomputable abbrev meansArr (c : Dev nD) : Vec Ideal S1x20000x128 .f32 := V c main_v118
/-- The stacked left weight. -/
noncomputable abbrev wlsArr (c : Dev nD) : Vec Ideal S1x128x128 .f32 := V c main_v119
/-- The node type's own features, 20000 rows. -/
noncomputable abbrev xdArr (c : Dev nD) : Vec Ideal S20000x128 .f32 := V c main_arg2
/-- The right weight. -/
noncomputable abbrev wrArr (c : Dev nD) : Vec Ideal S128x128 .f32 := V c main_v115
/-- The bias. -/
noncomputable abbrev biasArr (c : Dev nD) : Vec Ideal S128 .f32 := V c main_v117

/-- What the region's output array ends holding: the one-relation update of all 20000 rows. -/
noncomputable abbrev updArr (c : Dev nD) : Vec Ideal S20000x128 .f32 :=
  Cert.IdxSpec.sage1 20000 (meansArr V c) (wlsArr V c) (xdArr V c) (wrArr V c) (biasArr V c)

/-- The update at row r, column q, with the coordinates named. -/
theorem updArr_at (c : Dev nD) (i : S20000x128.Idx) (r : Fin 20000) (q : Fin 128) (hi : i = ix2 r q) :
    updArr V c i
      = max (((∑ k : Fin 128, meansArr V c (ix3 (0 : Fin 1) r k) * wlsArr V c (ix3 (0 : Fin 1) k q))
          + ∑ k : Fin 128, xdArr V c (ix2 r k) * wrArr V c (ix2 k q))
          + biasArr V c (ix1 q)) 0 := by
  subst hi; rfl

/-! ## The index maps over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid's points: the means' and the features' blocks move down the rows with
    the output's block; the two weights and the bias are taken whole at every point; the output's block index is the
    point's number. -/
theorem idx_facts : ∀ t : Fin cfg2.N,
    win2_0.index t (0 : Fin 3) = 0 ∧ win2_0.index t (1 : Fin 3) = win2_5.index t (0 : Fin 2) ∧ win2_0.index t (2 : Fin 3) = 0
    ∧ win2_1.index t (0 : Fin 3) = 0 ∧ win2_1.index t (1 : Fin 3) = 0 ∧ win2_1.index t (2 : Fin 3) = 0
    ∧ win2_2.index t (0 : Fin 2) = win2_5.index t (0 : Fin 2) ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-! ## Each input window's block, read off its array -/

/-- The means' block at point t is rows 2000·b … 2000·b + 1999 of the means, b the output's block index at t. -/
theorem means_blk (c : Dev nD) (t : Fin cfg2.N) (y : S1x2000x128.Idx) (i : S1x20000x128.Idx)
    (h0 : (i 0).val = (y 0).val) (h1 : (i 1).val = win2_5.index t (0 : Fin 2) * 2000 + (y 1).val) (h2 : (i 2).val = (y 2).val) :
    (iblk2 V c 0 t : Vec Ideal S1x2000x128 .f32) y = meansArr V c i := by
  obtain ⟨e0, e1, e2, -⟩ := idx_facts t
  unfold iblk2
  rw [View.read_apply]
  show V c main_v118 _ = V c main_v118 _
  congr 1
  funext a
  apply Fin.ext
  match a with
  | ⟨0, _⟩ => show win2_0.index t (0 : Fin 3) * 1 + 1 * (y 0).val = (i 0).val; rw [e0, h0]; omega
  | ⟨1, _⟩ => show win2_0.index t (1 : Fin 3) * 2000 + 1 * (y 1).val = (i 1).val; rw [e1, h1]; omega
  | ⟨2, _⟩ => show win2_0.index t (2 : Fin 3) * 128 + 1 * (y 2).val = (i 2).val; rw [e2, h2]; omega

/-- The features' block at point t is the same rows of the features. -/
theorem xd_blk (c : Dev nD) (t : Fin cfg2.N) (y : S2000x128.Idx) (i : S20000x128.Idx)
    (h0 : (i 0).val = win2_5.index t (0 : Fin 2) * 2000 + (y 0).val) (h1 : (i 1).val = (y 1).val) :
    (iblk2 V c 2 t : Vec Ideal S2000x128 .f32) y = xdArr V c i := by
  obtain ⟨-, -, -, -, -, -, e0, e1, -⟩ := idx_facts t
  unfold iblk2
  rw [View.read_apply]
  show V c main_arg2 _ = V c main_arg2 _
  congr 1
  funext a
  apply Fin.ext
  match a with
  | ⟨0, _⟩ => show win2_2.index t (0 : Fin 2) * 2000 + 1 * (y 0).val = (i 0).val; rw [e0, h0]; omega
  | ⟨1, _⟩ => show win2_2.index t (1 : Fin 2) * 128 + 1 * (y 1).val = (i 1).val; rw [e1, h1]; omega

/-- The left weight's window takes the whole array at every point. -/
theorem wls_blk (c : Dev nD) (t : Fin cfg2.N) : (iblk2 V c 1 t : Vec Ideal S1x128x128 .f32) = wlsArr V c := by
  obtain ⟨-, -, -, e0, e1, e2, -⟩ := idx_facts t
  funext y
  unfold iblk2
  rw [View.read_apply]
  show V c main_v119 _ = V c main_v119 _
  congr 1
  funext a
  apply Fin.ext
  match a with
  | ⟨0, _⟩ => show win2_1.index t (0 : Fin 3) * 1 + 1 * (y 0).val = (y 0).val; rw [e0]; omega
  | ⟨1, _⟩ => show win2_1.index t (1 : Fin 3) * 128 + 1 * (y 1).val = (y 1).val; rw [e1]; omega
  | ⟨2, _⟩ => show win2_1.index t (2 : Fin 3) * 128 + 1 * (y 2).val = (y 2).val; rw [e2]; omega

/-- The right weight's window takes the whole array at every point. -/
theorem wr_blk (c : Dev nD) (t : Fin cfg2.N) : (iblk2 V c 3 t : Vec Ideal S128x128 .f32) = wrArr V c := by
  obtain ⟨-, -, -, -, -, -, -, -, e0, e1, -⟩ := idx_facts t
  funext y
  unfold iblk2
  rw [View.read_apply]
  show V c main_v115 _ = V c main_v115 _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The bias's window takes the whole array at every point. -/
theorem bias_blk (c : Dev nD) (t : Fin cfg2.N) : (iblk2 V c 4 t : Vec Ideal S128 .f32) = biasArr V c := by
  obtain ⟨-, -, -, -, -, -, -, -, -, -, e0, -⟩ := idx_facts t
  funext y
  unfold iblk2
  rw [View.read_apply]
  show V c main_v117 _ = V c main_v117 _
  congr 1
  funext a
  apply Fin.ext
  match a with
  | ⟨0, _⟩ => show win2_4.index t (0 : Fin 1) * 128 + 1 * (y 0).val = (y 0).val; rw [e0]; omega

/-! ## What one point writes back -/

/-- The body's stored block from the five input blocks, without the load and store rectangles (each is the whole
    staging buffer). -/
theorem out_eq (x0 : Vec Ideal S1x2000x128 .f32) (x1 : Vec Ideal S1x128x128 .f32) (x2 : Vec Ideal S2000x128 .f32)
    (x3 : Vec Ideal S128x128 .f32) (x4 : Vec Ideal S128 .f32) :
    out2_5 (F := Ideal) x0 x1 x2 x3 x4 = k2_pay1 (F := Ideal) x0 x1 x2 x3 x4 := by
  unfold out2_5
  rw [View.canon_unit_zero hz2]
  simp only [View.ld_unit_zero (S := S1x2000x128) hz3, View.ld_unit_zero (S := S1x128x128) hz3,
    View.ld_unit_zero (S := S2000x128) hz2, View.ld_unit_zero (S := S128x128) hz2, View.ld_unit_zero (S := S128) hz1]

/-- The output block's entry (p, q) at point t sits at row 2000·b + p, column q of the array, b the block index. -/
theorem out_emb (t : Fin cfg2.N) (p : Fin 2000) (q : Fin 128) (r : Fin 20000)
    (hr : r.val = win2_5.index t (0 : Fin 2) * 2000 + p.val) :
    ((cfg2.win 5).blk t).view.emb (ix2 p q) = (ix2 r q : S20000x128.Idx) := by
  obtain ⟨-, -, -, -, -, -, -, -, -, -, -, -, e1⟩ := idx_facts t
  funext a
  apply Fin.ext
  match a with
  | ⟨0, _⟩ => show win2_5.index t (0 : Fin 2) * 2000 + 1 * p.val = r.val; rw [hr]; omega
  | ⟨1, _⟩ => show win2_5.index t (1 : Fin 2) * 128 + 1 * q.val = q.val; rw [e1]; omega

/-- What point t writes back is block t of the update of all rows: entry (p, q) of the stored block is the update at
    row 2000·b + p, column q, b the output's block index at t — each sum termwise, the means' and the features' blocks
    read at those rows. -/
theorem flushed_eq (c : Dev nD) (t : Fin cfg2.N) :
    (dat2 (F := Ideal) V c).flushed 5 t = ((cfg2.win 5).blk t).view.read (Elt Ideal) (updArr V c) := by
  show (cfg2.win 5).cut (grid2.coords t) ((dat2 V c).after 5 t) = _
  rw [after2_5, out_eq, wls_blk, wr_blk, bias_blk]
  funext j
  obtain ⟨p, q, rfl⟩ : ∃ (p : Fin 2000) (q : Fin 128), j = ix2 p q := ⟨j 0, j 1, eq_ix2 j⟩
  obtain ⟨-, -, -, -, -, -, -, -, -, -, -, e0, -⟩ := idx_facts t
  have hN : cfg2.N = 10 := N_2
  have ht : t.val < 10 := hN ▸ t.isLt
  obtain ⟨r, hr⟩ : ∃ r : Fin 20000, r.val = win2_5.index t (0 : Fin 2) * 2000 + p.val :=
    ⟨⟨win2_5.index t (0 : Fin 2) * 2000 + p.val, by rw [e0]; have := p.isLt; omega⟩, rfl⟩
  rw [View.read_apply]
  show k2_pay1 (F := Ideal) (iblk2 V c 0 t) (wlsArr V c) (iblk2 V c 2 t) (wrArr V c) (biasArr V c) (ix2 p q)
    = updArr V c (((cfg2.win 5).blk t).view.emb (ix2 p q))
  rw [out_emb t p q r hr, updArr_at V c _ r q rfl]
  refine (pay_at _ _ _ _ _ p q).trans ?_
  refine congrArg₂ max (congrArg₂ (· + ·) (congrArg₂ (· + ·) (Finset.sum_congr rfl fun k _ => ?_) (Finset.sum_congr rfl fun k _ => ?_)) rfl) rfl
  · exact congrArg (· * _) (means_blk V c t (ix3 (0 : Fin 1) p k) (ix3 (0 : Fin 1) r k) rfl hr rfl)
  · exact congrArg (· * _) (xd_blk V c t (ix2 p k) (ix2 r k) hr rfl)

/-! ## The blocks cover the array -/

/-- An index of the array is in point t's block iff each coordinate is in the block's range on its axis. -/
theorem mem_blk (t : Fin cfg2.N) (i : S20000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v120).slice (win2_5.rect t)).set ↔ _
  rw [View.set_slice_whole, Rect.mem_set_unit]
  exact Iff.rfl

/-- Row r of the array is written by the point numbered r / 2000 (and every point writes its block back). -/
theorem cover (i : S20000x128.Idx) :
    ∃ t : Fin cfg2.N, (cfg2.win 5).flush t = true ∧ i ∈ ((cfg2.win 5).blk t).view.set := by
  have hi0 : (i 0).val < 20000 := (i 0).isLt
  have hi1 : (i 1).val < 128 := (i 1).isLt
  have hN : cfg2.N = 10 := N_2
  obtain ⟨t, ht⟩ : ∃ t : Fin cfg2.N, t.val = (i 0).val / 2000 := ⟨⟨(i 0).val / 2000, by rw [hN]; omega⟩, rfl⟩
  obtain ⟨-, -, -, -, -, -, -, -, -, -, -, e0, e1⟩ := idx_facts t
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 128 ≤ (i 1).val ∧ (i 1).val < win2_5.index t (1 : Fin 2) * 128 + 128
    rw [e1]; omega

/-! ## The array after the run -/

/-- THE REGION'S VALUE: after the grid has run, the output array holds the one-relation update of all 20000 rows — every
    point writes its block of it, and the blocks cover the array. -/
theorem arr (c : Dev nD) :
    (dat2 (F := Ideal) V c).arrAt 5 cfg2.N
      = Cert.IdxSpec.sage1 20000 (V c main_v118) (V c main_v119) (V c main_arg2) (V c main_v115) (V c main_v117) :=
  (dat2 V c).arrAt_eq_of_cover 5 (updArr V c) (fun t _ => flushed_eq V c t) cover

end Cert.KernelIdeal.RegVal2

end
-- ==== Proof.KStab6.lean ====
import proofs.«165177_j32074815766916_1_alg».proof.Proof.FIW

import Idealize.ShloMosaic.PureOps.Ideal
set_option maxRecDepth 16384

noncomputable section

namespace Cert.KernelIdeal.KW

open Idealize.ShloMosaic Idealize.ShloMosaic.TcCoe Cert.KernelIdeal Cert.KernelIdeal.Gen Cert.KernelIdeal.GenP

variable (m : (ℓ : Loc nD τ sig) → Buf (Elt Ideal) ℓ) (ρ : Dev nD → PrngReg) (c : Dev nD)

set_option maxHeartbeats 4000000 in
theorem st_main_v81_4 : W4 m ρ c (Proc.devRef .tc main_v81) = W1 m ρ c (Proc.devRef .tc main_v81) :=
  calc W4 m ρ c (Proc.devRef .tc main_v81)
    _ = W3 m ρ c (Proc.devRef .tc main_v81) := W4_of_ne m ρ c main_v81 (by decide)
    _ = W2 m ρ c (Proc.devRef .tc main_v81) := StableHlo.after_of_forall_not_mem (b := Proc.devRef .tc main_v81) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v81) := W2_of_ne m ρ c main_v81 (by decide)

set_option maxHeartbeats 4000000 in
theorem st_main_arg15_6 : W6 m ρ c (Proc.devRef .tc main_arg15) = W0 m ρ c (Proc.devRef .tc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg15_13 : W13 m ρ c (Proc.devRef .tc main_arg15) = W0 m ρ c (Proc.devRef .tc main_arg15) :=
  calc W13 m ρ c (Proc.devRef .tc main_arg15)
    _ = W12 m ρ c (Proc.devRef .tc main_arg15) := W13_of_ne m ρ c main_arg15 (by decide)
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg15) := st_main_arg15_6 m ρ c

set_option maxHeartbeats 4000000 in
theorem st_main_arg15_19 : W19 m ρ c (Proc.devRef .tc main_arg15) = W0 m ρ c (Proc.devRef .tc main_arg15) :=
  calc W19 m ρ c (Proc.devRef .tc main_arg15)
    _ = W18 m ρ c (Proc.devRef .tc main_arg15) := W19_of_ne m ρ c main_arg15 (by decide)
    _ = W17 m ρ c (Proc.devRef .tc main_arg15) := StableHlo.after_of_forall_not_mem (b := Proc.devRef .tc main_arg15) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg15) := W17_of_ne m ρ c main_arg15 (by decide)
    _ = W15 m ρ c (Proc.devRef .tc main_arg15) := StableHlo.after_of_forall_not_mem (b := Proc.devRef .tc main_arg15) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg15) := W15_of_ne m ρ c main_arg15 (by decide)
    _ = W13 m ρ c (Proc.devRef .tc main_arg15) := StableHlo.after_of_forall_not_mem (b := Proc.devRef .tc main_arg15) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg15) := st_main_arg15_13 m ρ c

set_option maxHeartbeats 4000000 in
theorem st_main_arg15_26 : W26 m ρ c (Proc.devRef .tc main_arg15) = W0 m ρ c (Proc.devRef .tc main_arg15) :=
  calc W26 m ρ c (Proc.devRef .tc main_arg15)
    _ = W25 m ρ c (Proc.devRef .tc main_arg15) := W26_of_ne m ρ c main_arg15 (by decide)
    _ = W24 m ρ c (Proc.devRef .tc main_arg15) := W25_of_ne m ρ c main_arg15 (by decide)
    _ = W23 m ρ c (Proc.devRef .tc main_arg15) := StableHlo.after_of_forall_not_mem (b := Proc.devRef .tc main_arg15) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg15) := W23_of_ne m ρ c main_arg15 (by decide)
    _ = W21 m ρ c (Proc.devRef .tc main_arg15) := StableHlo.after_of_forall_not_mem (b := Proc.devRef .tc main_arg15) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg15) := W21_of_ne m ρ c main_arg15 (by decide)
    _ = W19 m ρ c (Proc.devRef .tc main_arg15) := StableHlo.after_of_forall_not_mem (b := Proc.devRef .tc main_arg15) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg15) := st_main_arg15_19 m ρ c

set_option maxHeartbeats 4000000 in
theorem st_main_arg15_32 : W32 m ρ c (Proc.devRef .tc main_arg15) = W0 m ρ c (Proc.devRef .tc main_arg15) :=
  calc W32 m ρ c (Proc.devRef .tc main_arg15)
    _ = W31 m ρ c (Proc.devRef .tc main_arg15) := W32_of_ne m ρ c main_arg15 (by decide)
    _ = W30 m ρ c (Proc.devRef .tc main_arg15) := StableHlo.after_of_forall_not_mem (b := Proc.devRef .tc main_arg15) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_arg15) := W30_of_ne m ρ c main_arg15 (by decide)
    _ = W28 m ρ c (Proc.devRef .tc main_arg15) := StableHlo.after_of_forall_not_mem (b := Proc.devRef .tc main_arg15) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_arg15) := W28_of_ne m ρ c main_arg15 (by decide)
    _ = W26 m ρ c (Proc.devRef .tc main_arg15) := StableHlo.after_of_forall_not_mem (b := Proc.devRef .tc main_arg15) _ _ (List.forall_iff_forall_mem.mp (by
      simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg15) := st_main_arg15_26 m ρ c

set_option maxHeartbeats 4000000 in
theorem st_main_arg6_12 : W12 m ρ c (Proc.devRef .tc main_arg6) = W0 m ρ c (Proc.devRef .tc main_arg6) :=
  calc W12 m ρ c (Proc.devRef .tc main_arg6)
    _ = W11 m ρ c (Proc.devRef .tc main_arg6) := W12_of_ne m ρ c main_arg6 (by decide)
    _ = W10 m ρ c (Proc.devRef .tc main_arg6) := StableHlo.after_of_forall_not_mem (b := Proc.devRef .tc main_arg6) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v238_15 : W15 m ρ c (Proc.devRef .tc main_v238) = W14 m ρ c (Proc.devRef .tc main_v238) :=
  calc W15 m ρ c (Proc.devRef .tc main_v238)
    _ = W14 m ρ c (Proc.devRef .tc main_v238) := W15_of_ne m ρ c main_v238 (by decide)

set_option maxHeartbeats 4000000 in
theorem st_main_v238_17 : W17 m ρ c (Proc.devRef .tc main_v238) = W14 m ρ c (Proc.devRef .tc main_v238) :=
  calc W17 m ρ c (Proc.devRef .tc main_v238)
    _ = W16 m ρ c (Proc.devRef .tc main_v238) := W17_of_ne m ρ c main_v238 (by decide)
    _ = W15 m ρ c (Proc.devRef .tc main_v238) := StableHlo.after_of_forall_not_mem (b := Proc.devRef .tc main_v238) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v238) := st_main_v238_15 m ρ c

set_option maxHeartbeats 4000000 in
theorem st_main_v238_19 : W19 m ρ c (Proc.devRef .tc main_v238) = W14 m ρ c (Proc.devRef .tc main_v238) :=
  calc W19 m ρ c (Proc.devRef .tc main_v238)
    _ = W18 m ρ c (Proc.devRef .tc main_v238) := W19_of_ne m ρ c main_v238 (by decide)
    _ = W17 m ρ c (Proc.devRef .tc main_v238) := StableHlo.after_of_forall_not_mem (b := Proc.devRef .tc main_v238) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v238) := st_main_v238_17 m ρ c

set_option maxHeartbeats 4000000 in
theorem st_main_v238_21 : W21 m ρ c (Proc.devRef .tc main_v238) = W14 m ρ c (Proc.devRef .tc main_v238) :=
  calc W21 m ρ c (Proc.devRef .tc main_v238)
    _ = W20 m ρ c (Proc.devRef .tc main_v238) := W21_of_ne m ρ c main_v238 (by decide)
    _ = W19 m ρ c (Proc.devRef .tc main_v238) := StableHlo.after_of_forall_not_mem (b := Proc.devRef .tc main_v238) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v238) := st_main_v238_19 m ρ c

set_option maxHeartbeats 4000000 in
theorem st_main_v238_23 : W23 m ρ c (Proc.devRef .tc main_v238) = W14 m ρ c (Proc.devRef .tc main_v238) :=
  calc W23 m ρ c (Proc.devRef .tc main_v238)
    _ = W22 m ρ c (Proc.devRef .tc main_v238) := W23_of_ne m ρ c main_v238 (by decide)
    _ = W21 m ρ c (Proc.devRef .tc main_v238) := StableHlo.after_of_forall_not_mem (b := Proc.devRef .tc main_v238) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v238) := st_main_v238_21 m ρ c

set_option maxHeartbeats 4000000 in
theorem st_main_v357_24 : W24 m ρ c (Proc.devRef .tc main_v357) = W19 m ρ c (Proc.devRef .tc main_v357) :=
  calc W24 m ρ c (Proc.devRef .tc main_v357)
    _ = W23 m ρ c (Proc.devRef .tc main_v357) := StableHlo.after_of_forall_not_mem (b := Proc.devRef .tc main_v357) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_v357) := W23_of_ne m ρ c main_v357 (by decide)
    _ = W21 m ρ c (Proc.devRef .tc main_v357) := StableHlo.after_of_forall_not_mem (b := Proc.devRef .tc main_v357) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_v357) := W21_of_ne m ρ c main_v357 (by decide)
    _ = W19 m ρ c (Proc.devRef .tc main_v357) := StableHlo.after_of_forall_not_mem (b := Proc.devRef .tc main_v357) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v483_28 : W28 m ρ c (Proc.devRef .tc main_v483) = W27 m ρ c (Proc.devRef .tc main_v483) :=
  calc W28 m ρ c (Proc.devRef .tc main_v483)
    _ = W27 m ρ c (Proc.devRef .tc main_v483) := W28_of_ne m ρ c main_v483 (by decide)

set_option maxHeartbeats 4000000 in
theorem st_main_v483_30 : W30 m ρ c (Proc.devRef .tc main_v483) = W27 m ρ c (Proc.devRef .tc main_v483) :=
  calc W30 m ρ c (Proc.devRef .tc main_v483)
    _ = W29 m ρ c (Proc.devRef .tc main_v483) := W30_of_ne m ρ c main_v483 (by decide)
    _ = W28 m ρ c (Proc.devRef .tc main_v483) := StableHlo.after_of_forall_not_mem (b := Proc.devRef .tc main_v483) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v483) := st_main_v483_28 m ρ c

set_option maxHeartbeats 4000000 in
theorem st_main_v483_32 : W32 m ρ c (Proc.devRef .tc main_v483) = W27 m ρ c (Proc.devRef .tc main_v483) :=
  calc W32 m ρ c (Proc.devRef .tc main_v483)
    _ = W31 m ρ c (Proc.devRef .tc main_v483) := W32_of_ne m ρ c main_v483 (by decide)
    _ = W30 m ρ c (Proc.devRef .tc main_v483) := StableHlo.after_of_forall_not_mem (b := Proc.devRef .tc main_v483) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v483) := st_main_v483_30 m ρ c

set_option maxHeartbeats 4000000 in
theorem st_main_v483_34 : W34 m ρ c (Proc.devRef .tc main_v483) = W27 m ρ c (Proc.devRef .tc main_v483) :=
  calc W34 m ρ c (Proc.devRef .tc main_v483)
    _ = W33 m ρ c (Proc.devRef .tc main_v483) := W34_of_ne m ρ c main_v483 (by decide)
    _ = W32 m ρ c (Proc.devRef .tc main_v483) := StableHlo.after_of_forall_not_mem (b := Proc.devRef .tc main_v483) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v483) := st_main_v483_32 m ρ c

set_option maxHeartbeats 4000000 in
theorem st_main_v483_36 : W36 m ρ c (Proc.devRef .tc main_v483) = W27 m ρ c (Proc.devRef .tc main_v483) :=
  calc W36 m ρ c (Proc.devRef .tc main_v483)
    _ = W35 m ρ c (Proc.devRef .tc main_v483) := W36_of_ne m ρ c main_v483 (by decide)
    _ = W34 m ρ c (Proc.devRef .tc main_v483) := StableHlo.after_of_forall_not_mem (b := Proc.devRef .tc main_v483) _ _ (List.forall_iff_forall_mem.mp (by
      simp only [hostOps18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v483) := st_main_v483_34 m ρ c

set_option maxHeartbeats 4000000 in
theorem st_main_v236_38 : W38 m ρ c (Proc.devRef .tc main_v236) = W13 m ρ c (Proc.devRef .tc main_v236) :=
  calc W38 m ρ c (Proc.devRef .tc main_v236)
    _ = W37 m ρ c (Proc.devRef .tc main_v236) := W38_of_ne m ρ c main_v236 (by decide)
    _ = W36 m ρ c (Proc.devRef .tc main_v236) := StableHlo.after_of_forall_not_mem (b := Proc.devRef .tc main_v236) _ _ (List.forall_iff_forall_mem.mp (by
      simp only [hostOps19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W35 m ρ c (Proc.devRef .tc main_v236) := W36_of_ne m ρ c main_v236 (by decide)
    _ = W34 m ρ c (Proc.devRef .tc main_v236) := StableHlo.after_of_forall_not_mem (b := Proc.devRef .tc main_v236) _ _ (List.forall_iff_forall_mem.mp (by
      simp only [hostOps18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W33 m ρ c (Proc.devRef .tc main_v236) := W34_of_ne m ρ c main_v236 (by decide)
    _ = W32 m ρ c (Proc.devRef .tc main_v236) := StableHlo.after_of_forall_not_mem (b := Proc.devRef .tc main_v236) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W31 m ρ c (Proc.devRef .tc main_v236) := W32_of_ne m ρ c main_v236 (by decide)
    _ = W30 m ρ c (Proc.devRef .tc main_v236) := StableHlo.after_of_forall_not_mem (b := Proc.devRef .tc main_v236) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_v236) := W30_of_ne m ρ c main_v236 (by decide)
    _ = W28 m ρ c (Proc.devRef .tc main_v236) := StableHlo.after_of_forall_not_mem (b := Proc.devRef .tc main_v236) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v236) := W28_of_ne m ρ c main_v236 (by decide)
    _ = W26 m ρ c (Proc.devRef .tc main_v236) := StableHlo.after_of_forall_not_mem (b := Proc.devRef .tc main_v236) _ _ (List.forall_iff_forall_mem.mp (by
      simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W25 m ρ c (Proc.devRef .tc main_v236) := W26_of_ne m ρ c main_v236 (by decide)
    _ = W24 m ρ c (Proc.devRef .tc main_v236) := W25_of_ne m ρ c main_v236 (by decide)
    _ = W23 m ρ c (Proc.devRef .tc main_v236) := StableHlo.after_of_forall_not_mem (b := Proc.devRef .tc main_v236) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_v236) := W23_of_ne m ρ c main_v236 (by decide)
    _ = W21 m ρ c (Proc.devRef .tc main_v236) := StableHlo.after_of_forall_not_mem (b := Proc.devRef .tc main_v236) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_v236) := W21_of_ne m ρ c main_v236 (by decide)
    _ = W19 m ρ c (Proc.devRef .tc main_v236) := StableHlo.after_of_forall_not_mem (b := Proc.devRef .tc main_v236) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W18 m ρ c (Proc.devRef .tc main_v236) := W19_of_ne m ρ c main_v236 (by decide)
    _ = W17 m ρ c (Proc.devRef .tc main_v236) := StableHlo.after_of_forall_not_mem (b := Proc.devRef .tc main_v236) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_v236) := W17_of_ne m ρ c main_v236 (by decide)
    _ = W15 m ρ c (Proc.devRef .tc main_v236) := StableHlo.after_of_forall_not_mem (b := Proc.devRef .tc main_v236) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v236) := W15_of_ne m ρ c main_v236 (by decide)
    _ = W13 m ρ c (Proc.devRef .tc main_v236) := StableHlo.after_of_forall_not_mem (b := Proc.devRef .tc main_v236) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.KW

end
-- ==== Proof.KStab7.lean ====
import proofs.«165177_j32074815766916_1_alg».proof.Proof.FIW

import Idealize.ShloMosaic.PureOps.Ideal
set_option maxRecDepth 16384

noncomputable section

namespace Cert.KernelIdeal.KW

open Idealize.ShloMosaic Idealize.ShloMosaic.TcCoe Cert.KernelIdeal Cert.KernelIdeal.Gen Cert.KernelIdeal.GenP

variable (m : (ℓ : Loc nD τ sig) → Buf (Elt Ideal) ℓ) (ρ : Dev nD → PrngReg) (c : Dev nD)

set_option maxHeartbeats 4000000 in
theorem st_main_arg2_5 : W5 m ρ c (Proc.devRef .tc main_arg2) = W0 m ρ c (Proc.devRef .tc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg2_26 : W26 m ρ c (Proc.devRef .tc main_arg2) = W0 m ρ c (Proc.devRef .tc main_arg2) :=
  calc W26 m ρ c (Proc.devRef .tc main_arg2)
    _ = W25 m ρ c (Proc.devRef .tc main_arg2) := W26_of_ne m ρ c main_arg2 (by decide)
    _ = W24 m ρ c (Proc.devRef .tc main_arg2) := W25_of_ne m ρ c main_arg2 (by decide)
    _ = W23 m ρ c (Proc.devRef .tc main_arg2) := StableHlo.after_of_forall_not_mem (b := Proc.devRef .tc main_arg2) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg2) := W23_of_ne m ρ c main_arg2 (by decide)
    _ = W21 m ρ c (Proc.devRef .tc main_arg2) := StableHlo.after_of_forall_not_mem (b := Proc.devRef .tc main_arg2) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg2) := W21_of_ne m ρ c main_arg2 (by decide)
    _ = W19 m ρ c (Proc.devRef .tc main_arg2) := StableHlo.after_of_forall_not_mem (b := Proc.devRef .tc main_arg2) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W18 m ρ c (Proc.devRef .tc main_arg2) := W19_of_ne m ρ c main_arg2 (by decide)
    _ = W17 m ρ c (Proc.devRef .tc main_arg2) := StableHlo.after_of_forall_not_mem (b := Proc.devRef .tc main_arg2) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg2) := W17_of_ne m ρ c main_arg2 (by decide)
    _ = W15 m ρ c (Proc.devRef .tc main_arg2) := StableHlo.after_of_forall_not_mem (b := Proc.devRef .tc main_arg2) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg2) := W15_of_ne m ρ c main_arg2 (by decide)
    _ = W13 m ρ c (Proc.devRef .tc main_arg2) := StableHlo.after_of_forall_not_mem (b := Proc.devRef .tc main_arg2) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W12 m ρ c (Proc.devRef .tc main_arg2) := W13_of_ne m ρ c main_arg2 (by decide)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg2) := (W6_arr m ρ c 2).trans (((dat2 (V5 m ρ) c).arrAt_in 2 rfl _).trans (A_eq2 (V5 m ρ) c 2))
    _ = W0 m ρ c (Proc.devRef .tc main_arg2) := st_main_arg2_5 m ρ c

set_option maxHeartbeats 4000000 in
theorem st_main_arg2_31 : W31 m ρ c (Proc.devRef .tc main_arg2) = W0 m ρ c (Proc.devRef .tc main_arg2) :=
  calc W31 m ρ c (Proc.devRef .tc main_arg2)
    _ = W30 m ρ c (Proc.devRef .tc main_arg2) := StableHlo.after_of_forall_not_mem (b := Proc.devRef .tc main_arg2) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_arg2) := W30_of_ne m ρ c main_arg2 (by decide)
    _ = W28 m ρ c (Proc.devRef .tc main_arg2) := StableHlo.after_of_forall_not_mem (b := Proc.devRef .tc main_arg2) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_arg2) := W28_of_ne m ρ c main_arg2 (by decide)
    _ = W26 m ρ c (Proc.devRef .tc main_arg2) := StableHlo.after_of_forall_not_mem (b := Proc.devRef .tc main_arg2) _ _ (List.forall_iff_forall_mem.mp (by
      simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg2) := st_main_arg2_26 m ρ c

set_option maxHeartbeats 4000000 in
theorem st_main_arg14_6 : W6 m ρ c (Proc.devRef .tc main_arg14) = W0 m ρ c (Proc.devRef .tc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_arg14_13 : W13 m ρ c (Proc.devRef .tc main_arg14) = W0 m ρ c (Proc.devRef .tc main_arg14) :=
  calc W13 m ρ c (Proc.devRef .tc main_arg14)
    _ = W12 m ρ c (Proc.devRef .tc main_arg14) := W13_of_ne m ρ c main_arg14 (by decide)
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg14) := st_main_arg14_6 m ρ c

set_option maxHeartbeats 4000000 in
theorem st_main_arg14_19 : W19 m ρ c (Proc.devRef .tc main_arg14) = W0 m ρ c (Proc.devRef .tc main_arg14) :=
  calc W19 m ρ c (Proc.devRef .tc main_arg14)
    _ = W18 m ρ c (Proc.devRef .tc main_arg14) := W19_of_ne m ρ c main_arg14 (by decide)
    _ = W17 m ρ c (Proc.devRef .tc main_arg14) := StableHlo.after_of_forall_not_mem (b := Proc.devRef .tc main_arg14) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W16 m ρ c (Proc.devRef .tc main_arg14) := W17_of_ne m ρ c main_arg14 (by decide)
    _ = W15 m ρ c (Proc.devRef .tc main_arg14) := StableHlo.after_of_forall_not_mem (b := Proc.devRef .tc main_arg14) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_arg14) := W15_of_ne m ρ c main_arg14 (by decide)
    _ = W13 m ρ c (Proc.devRef .tc main_arg14) := StableHlo.after_of_forall_not_mem (b := Proc.devRef .tc main_arg14) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg14) := st_main_arg14_13 m ρ c

set_option maxHeartbeats 4000000 in
theorem st_main_arg14_26 : W26 m ρ c (Proc.devRef .tc main_arg14) = W0 m ρ c (Proc.devRef .tc main_arg14) :=
  calc W26 m ρ c (Proc.devRef .tc main_arg14)
    _ = W25 m ρ c (Proc.devRef .tc main_arg14) := W26_of_ne m ρ c main_arg14 (by decide)
    _ = W24 m ρ c (Proc.devRef .tc main_arg14) := W25_of_ne m ρ c main_arg14 (by decide)
    _ = W23 m ρ c (Proc.devRef .tc main_arg14) := StableHlo.after_of_forall_not_mem (b := Proc.devRef .tc main_arg14) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W22 m ρ c (Proc.devRef .tc main_arg14) := W23_of_ne m ρ c main_arg14 (by decide)
    _ = W21 m ρ c (Proc.devRef .tc main_arg14) := StableHlo.after_of_forall_not_mem (b := Proc.devRef .tc main_arg14) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W20 m ρ c (Proc.devRef .tc main_arg14) := W21_of_ne m ρ c main_arg14 (by decide)
    _ = W19 m ρ c (Proc.devRef .tc main_arg14) := StableHlo.after_of_forall_not_mem (b := Proc.devRef .tc main_arg14) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg14) := st_main_arg14_19 m ρ c

set_option maxHeartbeats 4000000 in
theorem st_main_arg14_32 : W32 m ρ c (Proc.devRef .tc main_arg14) = W0 m ρ c (Proc.devRef .tc main_arg14) :=
  calc W32 m ρ c (Proc.devRef .tc main_arg14)
    _ = W31 m ρ c (Proc.devRef .tc main_arg14) := W32_of_ne m ρ c main_arg14 (by decide)
    _ = W30 m ρ c (Proc.devRef .tc main_arg14) := StableHlo.after_of_forall_not_mem (b := Proc.devRef .tc main_arg14) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_arg14) := W30_of_ne m ρ c main_arg14 (by decide)
    _ = W28 m ρ c (Proc.devRef .tc main_arg14) := StableHlo.after_of_forall_not_mem (b := Proc.devRef .tc main_arg14) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_arg14) := W28_of_ne m ρ c main_arg14 (by decide)
    _ = W26 m ρ c (Proc.devRef .tc main_arg14) := StableHlo.after_of_forall_not_mem (b := Proc.devRef .tc main_arg14) _ _ (List.forall_iff_forall_mem.mp (by
      simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg14) := st_main_arg14_26 m ρ c

set_option maxHeartbeats 4000000 in
theorem st_main_arg7_12 : W12 m ρ c (Proc.devRef .tc main_arg7) = W0 m ρ c (Proc.devRef .tc main_arg7) :=
  calc W12 m ρ c (Proc.devRef .tc main_arg7)
    _ = W11 m ρ c (Proc.devRef .tc main_arg7) := W12_of_ne m ρ c main_arg7 (by decide)
    _ = W10 m ρ c (Proc.devRef .tc main_arg7) := StableHlo.after_of_forall_not_mem (b := Proc.devRef .tc main_arg7) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v242_15 : W15 m ρ c (Proc.devRef .tc main_v242) = W14 m ρ c (Proc.devRef .tc main_v242) :=
  calc W15 m ρ c (Proc.devRef .tc main_v242)
    _ = W14 m ρ c (Proc.devRef .tc main_v242) := W15_of_ne m ρ c main_v242 (by decide)

set_option maxHeartbeats 4000000 in
theorem st_main_v242_17 : W17 m ρ c (Proc.devRef .tc main_v242) = W14 m ρ c (Proc.devRef .tc main_v242) :=
  calc W17 m ρ c (Proc.devRef .tc main_v242)
    _ = W16 m ρ c (Proc.devRef .tc main_v242) := W17_of_ne m ρ c main_v242 (by decide)
    _ = W15 m ρ c (Proc.devRef .tc main_v242) := StableHlo.after_of_forall_not_mem (b := Proc.devRef .tc main_v242) _ _ (List.forall_iff_forall_mem.mp (by
      simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v242) := st_main_v242_15 m ρ c

set_option maxHeartbeats 4000000 in
theorem st_main_v242_19 : W19 m ρ c (Proc.devRef .tc main_v242) = W14 m ρ c (Proc.devRef .tc main_v242) :=
  calc W19 m ρ c (Proc.devRef .tc main_v242)
    _ = W18 m ρ c (Proc.devRef .tc main_v242) := W19_of_ne m ρ c main_v242 (by decide)
    _ = W17 m ρ c (Proc.devRef .tc main_v242) := StableHlo.after_of_forall_not_mem (b := Proc.devRef .tc main_v242) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v242) := st_main_v242_17 m ρ c

set_option maxHeartbeats 4000000 in
theorem st_main_v242_21 : W21 m ρ c (Proc.devRef .tc main_v242) = W14 m ρ c (Proc.devRef .tc main_v242) :=
  calc W21 m ρ c (Proc.devRef .tc main_v242)
    _ = W20 m ρ c (Proc.devRef .tc main_v242) := W21_of_ne m ρ c main_v242 (by decide)
    _ = W19 m ρ c (Proc.devRef .tc main_v242) := StableHlo.after_of_forall_not_mem (b := Proc.devRef .tc main_v242) _ _ (List.forall_iff_forall_mem.mp (by
      simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v242) := st_main_v242_19 m ρ c

set_option maxHeartbeats 4000000 in
theorem st_main_v242_23 : W23 m ρ c (Proc.devRef .tc main_v242) = W14 m ρ c (Proc.devRef .tc main_v242) :=
  calc W23 m ρ c (Proc.devRef .tc main_v242)
    _ = W22 m ρ c (Proc.devRef .tc main_v242) := W23_of_ne m ρ c main_v242 (by decide)
    _ = W21 m ρ c (Proc.devRef .tc main_v242) := StableHlo.after_of_forall_not_mem (b := Proc.devRef .tc main_v242) _ _ (List.forall_iff_forall_mem.mp (by
      simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W14 m ρ c (Proc.devRef .tc main_v242) := st_main_v242_21 m ρ c

set_option maxHeartbeats 4000000 in
theorem st_main_v463_25 : W25 m ρ c (Proc.devRef .tc main_v463) = W23 m ρ c (Proc.devRef .tc main_v463) :=
  calc W25 m ρ c (Proc.devRef .tc main_v463)
    _ = W24 m ρ c (Proc.devRef .tc main_v463) := W25_of_ne m ρ c main_v463 (by decide)
    _ = W23 m ρ c (Proc.devRef .tc main_v463) := StableHlo.after_of_forall_not_mem (b := Proc.devRef .tc main_v463) _ _ (List.forall_iff_forall_mem.mp (by
      simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 4000000 in
theorem st_main_v481_28 : W28 m ρ c (Proc.devRef .tc main_v481) = W27 m ρ c (Proc.devRef .tc main_v481) :=
  calc W28 m ρ c (Proc.devRef .tc main_v481)
    _ = W27 m ρ c (Proc.devRef .tc main_v481) := W28_of_ne m ρ c main_v481 (by decide)

set_option maxHeartbeats 4000000 in
theorem st_main_v481_30 : W30 m ρ c (Proc.devRef .tc main_v481) = W27 m ρ c (Proc.devRef .tc main_v481) :=
  calc W30 m ρ c (Proc.devRef .tc main_v481)
    _ = W29 m ρ c (Proc.devRef .tc main_v481) := W30_of_ne m ρ c main_v481 (by decide)
    _ = W28 m ρ c (Proc.devRef .tc main_v481) := StableHlo.after_of_forall_not_mem (b := Proc.devRef .tc main_v481) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v481) := st_main_v481_28 m ρ c

set_option maxHeartbeats 4000000 in
theorem st_main_v481_32 : W32 m ρ c (Proc.devRef .tc main_v481) = W27 m ρ c (Proc.devRef .tc main_v481) :=
  calc W32 m ρ c (Proc.devRef .tc main_v481)
    _ = W31 m ρ c (Proc.devRef .tc main_v481) := W32_of_ne m ρ c main_v481 (by decide)
    _ = W30 m ρ c (Proc.devRef .tc main_v481) := StableHlo.after_of_forall_not_mem (b := Proc.devRef .tc main_v481) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v481) := st_main_v481_30 m ρ c

set_option maxHeartbeats 4000000 in
theorem st_main_v481_34 : W34 m ρ c (Proc.devRef .tc main_v481) = W27 m ρ c (Proc.devRef .tc main_v481) :=
  calc W34 m ρ c (Proc.devRef .tc main_v481)
    _ = W33 m ρ c (Proc.devRef .tc main_v481) := W34_of_ne m ρ c main_v481 (by decide)
    _ = W32 m ρ c (Proc.devRef .tc main_v481) := StableHlo.after_of_forall_not_mem (b := Proc.devRef .tc main_v481) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v481) := st_main_v481_32 m ρ c

set_option maxHeartbeats 4000000 in
theorem st_main_v481_36 : W36 m ρ c (Proc.devRef .tc main_v481) = W27 m ρ c (Proc.devRef .tc main_v481) :=
  calc W36 m ρ c (Proc.devRef .tc main_v481)
    _ = W35 m ρ c (Proc.devRef .tc main_v481) := W36_of_ne m ρ c main_v481 (by decide)
    _ = W34 m ρ c (Proc.devRef .tc main_v481) := StableHlo.after_of_forall_not_mem (b := Proc.devRef .tc main_v481) _ _ (List.forall_iff_forall_mem.mp (by
      simp only [hostOps18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v481) := st_main_v481_34 m ρ c

set_option maxHeartbeats 4000000 in
theorem st_main_v477_38 : W38 m ρ c (Proc.devRef .tc main_v477) = W27 m ρ c (Proc.devRef .tc main_v477) :=
  calc W38 m ρ c (Proc.devRef .tc main_v477)
    _ = W37 m ρ c (Proc.devRef .tc main_v477) := W38_of_ne m ρ c main_v477 (by decide)
    _ = W36 m ρ c (Proc.devRef .tc main_v477) := StableHlo.after_of_forall_not_mem (b := Proc.devRef .tc main_v477) _ _ (List.forall_iff_forall_mem.mp (by
      simp only [hostOps19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W35 m ρ c (Proc.devRef .tc main_v477) := W36_of_ne m ρ c main_v477 (by decide)
    _ = W34 m ρ c (Proc.devRef .tc main_v477) := StableHlo.after_of_forall_not_mem (b := Proc.devRef .tc main_v477) _ _ (List.forall_iff_forall_mem.mp (by
      simp only [hostOps18, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W33 m ρ c (Proc.devRef .tc main_v477) := W34_of_ne m ρ c main_v477 (by decide)
    _ = W32 m ρ c (Proc.devRef .tc main_v477) := StableHlo.after_of_forall_not_mem (b := Proc.devRef .tc main_v477) _ _ (List.forall_iff_forall_mem.mp (by
      simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W31 m ρ c (Proc.devRef .tc main_v477) := W32_of_ne m ρ c main_v477 (by decide)
    _ = W30 m ρ c (Proc.devRef .tc main_v477) := StableHlo.after_of_forall_not_mem (b := Proc.devRef .tc main_v477) _ _ (List.forall_iff_forall_mem.mp (by
      simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W29 m ρ c (Proc.devRef .tc main_v477) := W30_of_ne m ρ c main_v477 (by decide)
    _ = W28 m ρ c (Proc.devRef .tc main_v477) := StableHlo.after_of_forall_not_mem (b := Proc.devRef .tc main_v477) _ _ (List.forall_iff_forall_mem.mp (by
      simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W27 m ρ c (Proc.devRef .tc main_v477) := W28_of_ne m ρ c main_v477 (by decide)

end Cert.KernelIdeal.KW

end
-- ==== Proof.KW2.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg2
import proofs.«165177_j32074815766916_1_alg».proof.Proof.KW0
import proofs.«165177_j32074815766916_1_alg».proof.Proof.KWArgs
import proofs.«165177_j32074815766916_1_alg».proof.Proof.KStab6
import proofs.«165177_j32074815766916_1_alg».proof.Proof.KStab2
import proofs.«165177_j32074815766916_1_alg».proof.Proof.KStab7
import proofs.«165177_j32074815766916_1_alg».proof.Proof.KStab4
import proofs.«165177_j32074815766916_1_alg».proof.Proof.KStab5
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem win2_0 : W5 m ρ c (Proc.devRef .tc main_v118) = pack1T (aggPT ((argsK m c).xp) (argsK m c).spt (argsK m c).dpt) := by
  have h0 := ((st_main_v81_4 m ρ c).trans (kv_main_v81 m ρ c))
  show StableHlo.after hostOps2 (W4 m ρ c) (Proc.devRef .tc main_v118) = _
  generalize W4 m ρ c = Wx at *
  unfold hostOps2
  after_results_simp
  simp only [h0]
  try rfl

theorem win2_1 : W5 m ρ c (Proc.devRef .tc main_v119) = pack1W (wmat 0 2 Facts₀.slices_S2x4x128x128_S1x1x128x128_0_2_0_0 (slab5 0 Facts₀.slices_S3x2x4x128x128_S1x2x4x128x128_0_0_0_0_0 (argsK m c).Wl)) := by
  have h0 := ((st_main_v1_4 m ρ c).trans (kv_main_v1 m ρ c))
  show StableHlo.after hostOps2 (W4 m ρ c) (Proc.devRef .tc main_v119) = _
  generalize W4 m ρ c = Wx at *
  unfold hostOps2
  after_results_simp
  simp only [h0]
  try rfl

theorem win2_2 : W5 m ρ c (Proc.devRef .tc main_arg2) = (argsK m c).xt := ((st_main_arg2_5 m ρ c).trans (kv_main_arg2 m ρ c))

theorem win2_3 : W5 m ρ c (Proc.devRef .tc main_v115) = wmat 0 2 Facts₀.slices_S2x4x128x128_S1x1x128x128_0_2_0_0 (slab5 0 Facts₀.slices_S3x2x4x128x128_S1x2x4x128x128_0_0_0_0_0 (argsK m c).Wr) := by
  have h0 := ((st_main_v5_4 m ρ c).trans (kv_main_v5 m ρ c))
  show StableHlo.after hostOps2 (W4 m ρ c) (Proc.devRef .tc main_v115) = _
  generalize W4 m ρ c = Wx at *
  unfold hostOps2
  after_results_simp
  simp only [h0]
  try rfl

theorem win2_4 : W5 m ρ c (Proc.devRef .tc main_v117) = wvec 0 2 Facts₀.slices_S2x4x128_S1x1x128_0_2_0 (slab4 0 Facts₀.slices_S3x2x4x128_S1x2x4x128_0_0_0_0 (argsK m c).bl) := by
  have h0 := ((st_main_v3_4 m ρ c).trans (kv_main_v3 m ρ c))
  show StableHlo.after hostOps2 (W4 m ρ c) (Proc.devRef .tc main_v117) = _
  generalize W4 m ρ c = Wx at *
  unfold hostOps2
  after_results_simp
  simp only [h0]
  try rfl

theorem kv_main_v120 : W6 m ρ c (Proc.devRef .tc main_v120) = K.mt1 (argsK m c) := by
  refine (W6_arr m ρ c 5).trans ?_
  refine (Cert.KernelIdeal.RegVal2.arr (V5 m ρ) c).trans ?_
  show Cert.IdxSpec.sage1 20000 (W5 m ρ c (Proc.devRef .tc main_v118)) (W5 m ρ c (Proc.devRef .tc main_v119)) (W5 m ρ c (Proc.devRef .tc main_arg2)) (W5 m ρ c (Proc.devRef .tc main_v115)) (W5 m ρ c (Proc.devRef .tc main_v117)) = _
  rw [win2_0 m ρ c, win2_1 m ρ c, win2_2 m ρ c, win2_3 m ρ c, win2_4 m ρ c]
  rfl

end Cert.KernelIdeal.KW

end
-- ==== Proof.KW3.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg3
import proofs.«165177_j32074815766916_1_alg».proof.Proof.KWArgs
import proofs.«165177_j32074815766916_1_alg».proof.Proof.KW1
import proofs.«165177_j32074815766916_1_alg».proof.Proof.KW2
import proofs.«165177_j32074815766916_1_alg».proof.Proof.KW0
import proofs.«165177_j32074815766916_1_alg».proof.Proof.KStab0
import proofs.«165177_j32074815766916_1_alg».proof.Proof.KStab1
import proofs.«165177_j32074815766916_1_alg».proof.Proof.KStab2
import proofs.«165177_j32074815766916_1_alg».proof.Proof.KStab3
import proofs.«165177_j32074815766916_1_alg».proof.Proof.KStab4
import proofs.«165177_j32074815766916_1_alg».proof.Proof.KStab5
import proofs.«165177_j32074815766916_1_alg».proof.Proof.KStab6
import proofs.«165177_j32074815766916_1_alg».proof.Proof.KStab7
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem kv_main_v177 : W7 m ρ c (Proc.devRef .tc main_v177) = aggPA (K.mp1 (argsK m c)) (argsK m c).spa (argsK m c).dpa := by
  have h0 := ((st_main_arg15_6 m ρ c).trans (kv_main_arg15 m ρ c))
  have h1 := ((st_main_v102_6 m ρ c).trans (kv_main_v102 m ρ c))
  have h2 := ((st_main_arg14_6 m ρ c).trans (kv_main_arg14 m ρ c))
  show StableHlo.after hostOps3 (W6 m ρ c) (Proc.devRef .tc main_v177) = _
  generalize W6 m ρ c = Wx at *
  unfold hostOps3
  after_results_simp
  simp only [h0, h1, h2]
  try rfl

theorem kv_main_v196 : W7 m ρ c (Proc.devRef .tc main_v196) = aggPT (K.mp1 (argsK m c)) (argsK m c).spt (argsK m c).dpt := by
  have h0 := ((st_main_arg17_6 m ρ c).trans (kv_main_arg17 m ρ c))
  have h1 := ((st_main_v102_6 m ρ c).trans (kv_main_v102 m ρ c))
  have h2 := ((st_main_arg16_6 m ρ c).trans (kv_main_arg16 m ρ c))
  show StableHlo.after hostOps3 (W6 m ρ c) (Proc.devRef .tc main_v196) = _
  generalize W6 m ρ c = Wx at *
  unfold hostOps3
  after_results_simp
  simp only [h0, h1, h2]
  try rfl

theorem win3_0 : W7 m ρ c (Proc.devRef .tc main_v213) = pack2P (aggAP (K.ma1 (argsK m c)) (argsK m c).sap (argsK m c).dap) (aggTP (K.mt1 (argsK m c)) (argsK m c).stp (argsK m c).dtp) := by
  have h0 := ((st_main_arg13_6 m ρ c).trans (kv_main_arg13 m ρ c))
  have h1 := ((st_main_v111_6 m ρ c).trans (kv_main_v111 m ρ c))
  have h2 := ((st_main_arg12_6 m ρ c).trans (kv_main_arg12 m ρ c))
  have h3 := ((st_main_arg19_6 m ρ c).trans (kv_main_arg19 m ρ c))
  have h4 := (kv_main_v120 m ρ c)
  have h5 := ((st_main_arg18_6 m ρ c).trans (kv_main_arg18 m ρ c))
  show StableHlo.after hostOps3 (W6 m ρ c) (Proc.devRef .tc main_v213) = _
  generalize W6 m ρ c = Wx at *
  unfold hostOps3
  after_results_simp
  refine pack2P_of (F := Ideal) ?_ ?_ _
  all_goals after_results_simp
  all_goals (simp only [h0, h1, h2, h3, h4, h5]; try rfl)

theorem win3_1 : W7 m ρ c (Proc.devRef .tc main_v216) = pack2W (wmat 1 0 Facts₀.slices_S2x4x128x128_S1x1x128x128_1_0_0_0 (slab5 0 Facts₀.slices_S3x2x4x128x128_S1x2x4x128x128_0_0_0_0_0 (argsK m c).Wl)) (wmat 1 3 Facts₀.slices_S2x4x128x128_S1x1x128x128_1_3_0_0 (slab5 0 Facts₀.slices_S3x2x4x128x128_S1x2x4x128x128_0_0_0_0_0 (argsK m c).Wl)) := by
  have h0 := ((st_main_v1_6 m ρ c).trans (kv_main_v1 m ρ c))
  show StableHlo.after hostOps3 (W6 m ρ c) (Proc.devRef .tc main_v216) = _
  generalize W6 m ρ c = Wx at *
  unfold hostOps3
  after_results_simp
  refine pack2W_of (F := Ideal) ?_ ?_ _
  all_goals after_results_simp
  all_goals (simp only [h0]; try rfl)

theorem win3_2 : W7 m ρ c (Proc.devRef .tc main_v102) = K.mp1 (argsK m c) := ((st_main_v102_7 m ρ c).trans (kv_main_v102 m ρ c))

theorem win3_3 : W7 m ρ c (Proc.devRef .tc main_v205) = addf (wmat 1 0 Facts₀.slices_S2x4x128x128_S1x1x128x128_1_0_0_0 (slab5 0 Facts₀.slices_S3x2x4x128x128_S1x2x4x128x128_0_0_0_0_0 (argsK m c).Wr)) (wmat 1 3 Facts₀.slices_S2x4x128x128_S1x1x128x128_1_3_0_0 (slab5 0 Facts₀.slices_S3x2x4x128x128_S1x2x4x128x128_0_0_0_0_0 (argsK m c).Wr)) := by
  have h0 := ((st_main_v5_6 m ρ c).trans (kv_main_v5 m ρ c))
  show StableHlo.after hostOps3 (W6 m ρ c) (Proc.devRef .tc main_v205) = _
  generalize W6 m ρ c = Wx at *
  unfold hostOps3
  after_results_simp
  simp only [h0]
  try rfl

theorem win3_4 : W7 m ρ c (Proc.devRef .tc main_v210) = addf (wvec 1 0 Facts₀.slices_S2x4x128_S1x1x128_1_0_0 (slab4 0 Facts₀.slices_S3x2x4x128_S1x2x4x128_0_0_0_0 (argsK m c).bl)) (wvec 1 3 Facts₀.slices_S2x4x128_S1x1x128_1_3_0 (slab4 0 Facts₀.slices_S3x2x4x128_S1x2x4x128_0_0_0_0 (argsK m c).bl)) := by
  have h0 := ((st_main_v3_6 m ρ c).trans (kv_main_v3 m ρ c))
  show StableHlo.after hostOps3 (W6 m ρ c) (Proc.devRef .tc main_v210) = _
  generalize W6 m ρ c = Wx at *
  unfold hostOps3
  after_results_simp
  simp only [h0]
  try rfl

theorem kv_main_v217 : W8 m ρ c (Proc.devRef .tc main_v217) = K.mp2 (argsK m c) := by
  refine (W8_arr m ρ c 5).trans ?_
  refine (Cert.KernelIdeal.RegVal3.arr (V7 m ρ) c).trans ?_
  show Cert.IdxSpec.sage2 100000 (W7 m ρ c (Proc.devRef .tc main_v213)) (W7 m ρ c (Proc.devRef .tc main_v216)) (W7 m ρ c (Proc.devRef .tc main_v102)) (W7 m ρ c (Proc.devRef .tc main_v205)) (W7 m ρ c (Proc.devRef .tc main_v210)) = _
  rw [win3_0 m ρ c, win3_1 m ρ c, win3_2 m ρ c, win3_3 m ρ c, win3_4 m ρ c]
  rfl

end Cert.KernelIdeal.KW

end
-- ==== Proof.KW4.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg4
import proofs.«165177_j32074815766916_1_alg».proof.Proof.KW3
import proofs.«165177_j32074815766916_1_alg».proof.Proof.KW0
import proofs.«165177_j32074815766916_1_alg».proof.Proof.KW1
import proofs.«165177_j32074815766916_1_alg».proof.Proof.KStab2
import proofs.«165177_j32074815766916_1_alg».proof.Proof.KStab1
import proofs.«165177_j32074815766916_1_alg».proof.Proof.KStab4
import proofs.«165177_j32074815766916_1_alg».proof.Proof.KStab5
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem win4_0 : W9 m ρ c (Proc.devRef .tc main_v224) = pack1A (aggPA (K.mp1 (argsK m c)) (argsK m c).spa (argsK m c).dpa) := by
  have h0 := ((st_main_v177_8 m ρ c).trans (kv_main_v177 m ρ c))
  show StableHlo.after hostOps4 (W8 m ρ c) (Proc.devRef .tc main_v224) = _
  generalize W8 m ρ c = Wx at *
  unfold hostOps4
  after_results_simp
  simp only [h0]
  try rfl

theorem win4_1 : W9 m ρ c (Proc.devRef .tc main_v225) = pack1W (wmat 1 1 Facts₀.slices_S2x4x128x128_S1x1x128x128_1_1_0_0 (slab5 0 Facts₀.slices_S3x2x4x128x128_S1x2x4x128x128_0_0_0_0_0 (argsK m c).Wl)) := by
  have h0 := ((st_main_v1_8 m ρ c).trans (kv_main_v1 m ρ c))
  show StableHlo.after hostOps4 (W8 m ρ c) (Proc.devRef .tc main_v225) = _
  generalize W8 m ρ c = Wx at *
  unfold hostOps4
  after_results_simp
  simp only [h0]
  try rfl

theorem win4_2 : W9 m ρ c (Proc.devRef .tc main_v111) = K.ma1 (argsK m c) := ((st_main_v111_9 m ρ c).trans (kv_main_v111 m ρ c))

theorem win4_3 : W9 m ρ c (Proc.devRef .tc main_v221) = wmat 1 1 Facts₀.slices_S2x4x128x128_S1x1x128x128_1_1_0_0 (slab5 0 Facts₀.slices_S3x2x4x128x128_S1x2x4x128x128_0_0_0_0_0 (argsK m c).Wr) := by
  have h0 := ((st_main_v5_8 m ρ c).trans (kv_main_v5 m ρ c))
  show StableHlo.after hostOps4 (W8 m ρ c) (Proc.devRef .tc main_v221) = _
  generalize W8 m ρ c = Wx at *
  unfold hostOps4
  after_results_simp
  simp only [h0]
  try rfl

theorem win4_4 : W9 m ρ c (Proc.devRef .tc main_v223) = wvec 1 1 Facts₀.slices_S2x4x128_S1x1x128_1_1_0 (slab4 0 Facts₀.slices_S3x2x4x128_S1x2x4x128_0_0_0_0 (argsK m c).bl) := by
  have h0 := ((st_main_v3_8 m ρ c).trans (kv_main_v3 m ρ c))
  show StableHlo.after hostOps4 (W8 m ρ c) (Proc.devRef .tc main_v223) = _
  generalize W8 m ρ c = Wx at *
  unfold hostOps4
  after_results_simp
  simp only [h0]
  try rfl

theorem kv_main_v226 : W10 m ρ c (Proc.devRef .tc main_v226) = K.ma2 (argsK m c) := by
  refine (W10_arr m ρ c 5).trans ?_
  refine (Cert.KernelIdeal.RegVal4.arr (V9 m ρ) c).trans ?_
  show Cert.IdxSpec.sage1 40000 (W9 m ρ c (Proc.devRef .tc main_v224)) (W9 m ρ c (Proc.devRef .tc main_v225)) (W9 m ρ c (Proc.devRef .tc main_v111)) (W9 m ρ c (Proc.devRef .tc main_v221)) (W9 m ρ c (Proc.devRef .tc main_v223)) = _
  rw [win4_0 m ρ c, win4_1 m ρ c, win4_2 m ρ c, win4_3 m ρ c, win4_4 m ρ c]
  rfl

end Cert.KernelIdeal.KW

end
-- ==== Proof.KW6.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.RegL6
import proofs.«165177_j32074815766916_1_alg».proof.Proof.KW4
import proofs.«165177_j32074815766916_1_alg».proof.Proof.KWArgs
import proofs.«165177_j32074815766916_1_alg».proof.Proof.KStab5
import proofs.«165177_j32074815766916_1_alg».proof.Proof.KStab6
import proofs.«165177_j32074815766916_1_alg».proof.Proof.KStab7
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem win6_0 : W12 m ρ c (Proc.devRef .tc main_v226) = K.ma2 (argsK m c) := ((st_main_v226_12 m ρ c).trans (kv_main_v226 m ρ c))

theorem win6_1 : W12 m ρ c (Proc.devRef .tc main_arg6) = (argsK m c).lmW := ((st_main_arg6_12 m ρ c).trans (kv_main_arg6 m ρ c))

theorem win6_2 : W12 m ρ c (Proc.devRef .tc main_arg7) = (argsK m c).lmb := ((st_main_arg7_12 m ρ c).trans (kv_main_arg7 m ρ c))

theorem kv_main_v236 : W13 m ρ c (Proc.devRef .tc main_v236) = K.logits (argsK m c) := by
  refine (W13_arr m ρ c 3).trans ?_
  refine (Cert.KernelIdeal.RegVal6.arr (V12 m ρ) c).trans ?_
  show Cert.IdxSpec.lin 40000 (W12 m ρ c (Proc.devRef .tc main_v226)) (W12 m ρ c (Proc.devRef .tc main_arg6)) (W12 m ρ c (Proc.devRef .tc main_arg7)) = _
  rw [win6_0 m ρ c, win6_1 m ρ c, win6_2 m ρ c]
  rfl

end Cert.KernelIdeal.KW

end
-- ==== Proof.Reg14Pay.lean ====
/-
  One row block of a two-relation dense update, read entry by entry on extended reals.

  The block's result at (p, q) is max(Σ_k a₀[0,p,k]·w₀[0,k,q] + Σ_k a₁[0,p,k]·w₁[0,k,q] + Σ_k x[p,k]·r[k,q] + b[q], 0):
  the leading unit axes of the two neighbour-mean slabs and of the two left-weight slabs are dropped, the narrowing
  format changes are the identity on extended reals, each matrix product into a zero accumulator is its plain sum over
  the 128 feature columns (the contraction index re-indexed by its one coordinate), the bias row is copied down the
  rows, and the clamp is against the zero word.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegVal14

open Idealize.ShloMosaic Idealize.ShloMosaic.ValueIdx Cert.KernelIdeal Cert.KernelIdeal.Gen
open scoped BigOperators

/-! ## The product's operand indices: rows × contraction, contraction × columns -/

/-- The left operand's row is the output's row. -/
theorem lhs_mm0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contraction's one coordinate. -/
theorem lhs_mm0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contraction's one coordinate. -/
theorem rhs_mm0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product into a zero accumulator, at an entry -/

/-- A [2000,128] × [128,128] product into the zero splat reads, at (p, q), Σ_k x[p,k]·w[k,q]. -/
theorem mm0_apply {φ₁ φ₂ : FTy} (x : FVec Ideal S2000x128 φ₁) (w : FVec Ideal S128x128 φ₂) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm0_0 _ _
      | ⟨1, _⟩ => exact (lhs_mm0_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm0_0 _ _).trans hk
      | ⟨1, _⟩ => exact rhs_mm0_1 _ _)
  rw [el, er]

/-! ## The payload at an entry -/

/-- The block the body stores, at (p, q): the three sums over the feature columns, plus the bias entry, clamped at zero. -/
theorem pay0_apply (v0 v3 : Vec Ideal S1x2000x128 .f32) (v6 v9 : Vec Ideal S1x128x128 .f32) (v12 : Vec Ideal S2000x128 .f32)
    (v14 : Vec Ideal S128x128 .f32) (v22 : Vec Ideal S128 .f32) (p : Fin 2000) (q : Fin 128) :
    k14_pay1 (F := Ideal) v0 v3 v6 v9 v12 v14 v22 (ix2 p q)
      = max ((((∑ k : Fin 128, v0 (ix3 (0 : Fin 1) p k) * v6 (ix3 (0 : Fin 1) k q))
          + ∑ k : Fin 128, v3 (ix3 (0 : Fin 1) p k) * v9 (ix3 (0 : Fin 1) k q))
          + ∑ k : Fin 128, v12 (ix2 p k) * v14 (ix2 k q))
          + v22 (ix1 q)) 0 := by
  unfold k14_pay1
  simp only [maximumf_apply, addf_apply, broadcast_apply, mm0_apply, truncf_apply, shapeCast_1ab_ab_apply, shapeCast_self,
    broadcastTo_1b_ab_apply, shapeCast_a_1a_apply]
  exact congrArg (max _) Ideal.ofBits_zero_f32

end Cert.KernelIdeal.RegVal14

end
-- ==== Proof.Reg14.lean ====
/-
  What one grid-tiled two-relation dense update leaves in its output array, as one function of the arrays it reads.

  The grid has 50 points; point t handles rows 2000·t … 2000·t + 1999. At point t the two neighbour-mean slabs and the
  node's own features are read through blocks of 2000 rows starting at row 2000·t, while the two stacked left weights,
  the right weight and the bias are read whole at every point. The body's stored block at (p, q) is therefore the whole-array
  update at (2000·t + p, q): the same three sums over the 128 feature columns, the same bias entry, the same clamp at
  zero. Every row r lies in the block of point r / 2000, so the blocks written back tile the array and the array ends
  holding the update everywhere.
-/
import proofs.«165177_j32074815766916_1_alg».proof.Proof.FIL14
import proofs.«165177_j32074815766916_1_alg».proof.Proof.IdxSpec
import proofs.«165177_j32074815766916_1_alg».proof.Proof.Reg14Pay
import Idealize.ShloMosaic.Lib.ValueIdx
import Idealize.ShloMosaic.Lib.Pipeline.Value

set_option maxRecDepth 16384

noncomputable section

namespace Cert.KernelIdeal.RegVal14

open Idealize.ShloMosaic Idealize.ShloMosaic.ValueIdx Idealize.ShloMosaic.TcCoe Cert.KernelIdeal Cert.KernelIdeal.Gen Cert.KernelIdeal.GenP
open Idealize.ShloMosaic.Pipeline (Dat)
open scoped BigOperators

variable (V : (c : Dev nD) → (b : Ref sig .tc) → Buf (Elt Ideal) ((c : Thread nD τ).loc b))

/-! ## The arrays the region reads, each at its literal shape -/

/-- The two neighbour-mean slabs, stacked: [2, 100000, 128]. -/
abbrev meansArr0 (c : Dev nD) : S2x100000x128.Idx → EReal := V c main_v576
/-- The two left weights, stacked: [2, 128, 128]. -/
abbrev wlsArr0 (c : Dev nD) : S2x128x128.Idx → EReal := V c main_v579
/-- The node type's own features: [100000, 128]. -/
abbrev xdArr0 (c : Dev nD) : S100000x128.Idx → EReal := V c main_arg1
/-- The right weight: [128, 128]. -/
abbrev wrArr0 (c : Dev nD) : S128x128.Idx → EReal := V c main_v568
/-- The bias: [128]. -/
abbrev bArr0 (c : Dev nD) : S128.Idx → EReal := V c main_v573

/-- The whole-array update of those arrays. -/
abbrev upd0 (c : Dev nD) : S100000x128.Idx → EReal :=
  Cert.IdxSpec.sage2 100000 (meansArr0 V c) (wlsArr0 V c) (xdArr0 V c) (wrArr0 V c) (bArr0 V c)

/-! ## The body's loads: a slab of a stacked block, or a whole block -/

theorem zero2 : (![0, 0] : Fin 2 → Nat) = fun _ => 0 := funext fun a => by fin_cases a <;> rfl
theorem zero1 : (![0] : Fin 1 → Nat) = fun _ => 0 := funext fun a => by fin_cases a; rfl

/-- Slab 0 of the stacked means' block, at (a, p, k), is the block at (0, p, k). -/
theorem ld_means0_0 (x : Vec Ideal S2x2000x128 .f32) (a : Fin 1) (p : Fin 2000) (k : Fin 128) :
    View.ld x r14_0 (ix3 a p k) = x (ix3 (0 : Fin 2) p k) := by
  show x _ = x _
  congr 1
  funext ax; apply Fin.ext
  match ax with
  | ⟨0, _⟩ => show 0 + 1 * a.val = 0; omega
  | ⟨1, _⟩ => show 0 + 1 * p.val = p.val; omega
  | ⟨2, _⟩ => show 0 + 1 * k.val = k.val; omega

/-- Slab 1 of the stacked means' block, at (a, p, k), is the block at (1, p, k). -/
theorem ld_means0_1 (x : Vec Ideal S2x2000x128 .f32) (a : Fin 1) (p : Fin 2000) (k : Fin 128) :
    View.ld x r14_1 (ix3 a p k) = x (ix3 (1 : Fin 2) p k) := by
  show x _ = x _
  congr 1
  funext ax; apply Fin.ext
  match ax with
  | ⟨0, _⟩ => show 1 + 1 * a.val = 1; omega
  | ⟨1, _⟩ => show 0 + 1 * p.val = p.val; omega
  | ⟨2, _⟩ => show 0 + 1 * k.val = k.val; omega

/-- Slab 0 of the stacked left weights, at (a, k, q), is the stack at (0, k, q). -/
theorem ld_wls0_0 (x : Vec Ideal S2x128x128 .f32) (a : Fin 1) (k : Fin 128) (q : Fin 128) :
    View.ld x r14_2 (ix3 a k q) = x (ix3 (0 : Fin 2) k q) := by
  show x _ = x _
  congr 1
  funext ax; apply Fin.ext
  match ax with
  | ⟨0, _⟩ => show 0 + 1 * a.val = 0; omega
  | ⟨1, _⟩ => show 0 + 1 * k.val = k.val; omega
  | ⟨2, _⟩ => show 0 + 1 * q.val = q.val; omega

/-- Slab 1 of the stacked left weights, at (a, k, q), is the stack at (1, k, q). -/
theorem ld_wls0_1 (x : Vec Ideal S2x128x128 .f32) (a : Fin 1) (k : Fin 128) (q : Fin 128) :
    View.ld x r14_3 (ix3 a k q) = x (ix3 (1 : Fin 2) k q) := by
  show x _ = x _
  congr 1
  funext ax; apply Fin.ext
  match ax with
  | ⟨0, _⟩ => show 1 + 1 * a.val = 1; omega
  | ⟨1, _⟩ => show 0 + 1 * k.val = k.val; omega
  | ⟨2, _⟩ => show 0 + 1 * q.val = q.val; omega

/-! ## The body's stored block at an entry -/

/-- What the body leaves in the output buffer, at (p, q), from the five input blocks: the update's formula on the blocks. -/
theorem out14_apply (x0 : Vec Ideal S2x2000x128 .f32) (x1 : Vec Ideal S2x128x128 .f32) (x2 : Vec Ideal S2000x128 .f32)
    (x3 : Vec Ideal S128x128 .f32) (x4 : Vec Ideal S128 .f32) (p : Fin 2000) (q : Fin 128) :
    out14_5 x0 x1 x2 x3 x4 (ix2 p q)
      = max ((((∑ k : Fin 128, x0 (ix3 (0 : Fin 2) p k) * x1 (ix3 (0 : Fin 2) k q))
          + ∑ k : Fin 128, x0 (ix3 (1 : Fin 2) p k) * x1 (ix3 (1 : Fin 2) k q))
          + ∑ k : Fin 128, x2 (ix2 p k) * x3 (ix2 k q))
          + x4 (ix1 q)) 0 := by
  unfold out14_5
  rw [View.canon_unit_zero zero2]
  rw [pay0_apply]
  refine congrArg (fun z => max z 0) ?_
  refine congrArg₂ (· + ·) (congrArg₂ (· + ·) (congrArg₂ (· + ·) ?_ ?_) ?_) ?_
  · exact Finset.sum_congr rfl fun k _ => congrArg₂ (· * ·) (ld_means0_0 x0 0 p k) (ld_wls0_0 x1 0 k q)
  · exact Finset.sum_congr rfl fun k _ => congrArg₂ (· * ·) (ld_means0_1 x0 0 p k) (ld_wls0_1 x1 0 k q)
  · exact Finset.sum_congr rfl fun k _ => congrArg₂ (· * ·)
      (congrFun (View.ld_unit_zero (S := S2000x128) zero2 _ x2) (ix2 p k))
      (congrFun (View.ld_unit_zero (S := S128x128) zero2 _ x3) (ix2 k q))
  · exact congrFun (View.ld_unit_zero (S := S128) zero1 _ x4) (ix1 q)

/-! ## The index maps over the grid -/

/-- Decided over the 50 points: the means' and the features' blocks move with the output's along the rows, every other
    block index is zero, and the output's row-block index is the point's number. -/
theorem idx_facts0 : ∀ t : Fin cfg14.N,
    win14_0.index t (0 : Fin 3) = 0 ∧ win14_0.index t (1 : Fin 3) = win14_5.index t (0 : Fin 2) ∧ win14_0.index t (2 : Fin 3) = 0
    ∧ win14_1.index t (0 : Fin 3) = 0 ∧ win14_1.index t (1 : Fin 3) = 0 ∧ win14_1.index t (2 : Fin 3) = 0
    ∧ win14_2.index t (0 : Fin 2) = win14_5.index t (0 : Fin 2) ∧ win14_2.index t (1 : Fin 2) = 0
    ∧ win14_3.index t (0 : Fin 2) = 0 ∧ win14_3.index t (1 : Fin 2) = 0
    ∧ win14_4.index t (0 : Fin 1) = 0
    ∧ win14_5.index t (0 : Fin 2) = t.val ∧ win14_5.index t (1 : Fin 2) = 0 :=
  (by decide +kernel : ∀ t : Fin grid14.N, _)

/-! ## Each window's block read where the index maps say -/

/-- The means' block at point t, at (a, p, k), is the array at (a, r, k) for the row r the output's block puts p at. -/
theorem rd0_0 (c : Dev nD) (t : Fin cfg14.N) (a : Fin 2) (p : Fin 2000) (k : Fin 128) (r : Fin 100000)
    (hr : r.val = win14_5.index t (0 : Fin 2) * 2000 + p.val) :
    (iblk14 V c 0 t : Vec Ideal S2x2000x128 .f32) (ix3 a p k) = meansArr0 V c (ix3 a r k) := by
  show meansArr0 V c (((cfg14.win 0).blk t).view.emb (ix3 a p k)) = _
  refine congrArg (meansArr0 V c) ?_
  obtain ⟨e0, e1, e2, -⟩ := idx_facts0 t
  funext ax; apply Fin.ext
  match ax with
  | ⟨0, _⟩ => show win14_0.index t (0 : Fin 3) * 2 + 1 * a.val = a.val; omega
  | ⟨1, _⟩ => show win14_0.index t (1 : Fin 3) * 2000 + 1 * p.val = r.val; omega
  | ⟨2, _⟩ => show win14_0.index t (2 : Fin 3) * 128 + 1 * k.val = k.val; omega

/-- The left weights' block is the whole stack at every point. -/
theorem rd0_1 (c : Dev nD) (t : Fin cfg14.N) (a : Fin 2) (k : Fin 128) (q : Fin 128) :
    (iblk14 V c 1 t : Vec Ideal S2x128x128 .f32) (ix3 a k q) = wlsArr0 V c (ix3 a k q) := by
  show wlsArr0 V c (((cfg14.win 1).blk t).view.emb (ix3 a k q)) = _
  refine congrArg (wlsArr0 V c) ?_
  obtain ⟨-, -, -, e0, e1, e2, -⟩ := idx_facts0 t
  funext ax; apply Fin.ext
  match ax with
  | ⟨0, _⟩ => show win14_1.index t (0 : Fin 3) * 2 + 1 * a.val = a.val; omega
  | ⟨1, _⟩ => show win14_1.index t (1 : Fin 3) * 128 + 1 * k.val = k.val; omega
  | ⟨2, _⟩ => show win14_1.index t (2 : Fin 3) * 128 + 1 * q.val = q.val; omega

/-- The features' block at point t, at (p, k), is the array at (r, k). -/
theorem rd0_2 (c : Dev nD) (t : Fin cfg14.N) (p : Fin 2000) (k : Fin 128) (r : Fin 100000)
    (hr : r.val = win14_5.index t (0 : Fin 2) * 2000 + p.val) :
    (iblk14 V c 2 t : Vec Ideal S2000x128 .f32) (ix2 p k) = xdArr0 V c (ix2 r k) := by
  show xdArr0 V c (((cfg14.win 2).blk t).view.emb (ix2 p k)) = _
  refine congrArg (xdArr0 V c) ?_
  obtain ⟨-, -, -, -, -, -, e0, e1, -⟩ := idx_facts0 t
  funext ax; apply Fin.ext
  match ax with
  | ⟨0, _⟩ => show win14_2.index t (0 : Fin 2) * 2000 + 1 * p.val = r.val; omega
  | ⟨1, _⟩ => show win14_2.index t (1 : Fin 2) * 128 + 1 * k.val = k.val; omega

/-- The right weight's block is the whole matrix at every point. -/
theorem rd0_3 (c : Dev nD) (t : Fin cfg14.N) (k : Fin 128) (q : Fin 128) :
    (iblk14 V c 3 t : Vec Ideal S128x128 .f32) (ix2 k q) = wrArr0 V c (ix2 k q) := by
  show wrArr0 V c (((cfg14.win 3).blk t).view.emb (ix2 k q)) = _
  refine congrArg (wrArr0 V c) ?_
  obtain ⟨-, -, -, -, -, -, -, -, e0, e1, -⟩ := idx_facts0 t
  funext ax; apply Fin.ext
  match ax with
  | ⟨0, _⟩ => show win14_3.index t (0 : Fin 2) * 128 + 1 * k.val = k.val; omega
  | ⟨1, _⟩ => show win14_3.index t (1 : Fin 2) * 128 + 1 * q.val = q.val; omega

/-- The bias's block is the whole vector at every point. -/
theorem rd0_4 (c : Dev nD) (t : Fin cfg14.N) (q : Fin 128) :
    (iblk14 V c 4 t : Vec Ideal S128 .f32) (ix1 q) = bArr0 V c (ix1 q) := by
  show bArr0 V c (((cfg14.win 4).blk t).view.emb (ix1 q)) = _
  refine congrArg (bArr0 V c) ?_
  obtain ⟨-, -, -, -, -, -, -, -, -, -, e0, -⟩ := idx_facts0 t
  funext ax; apply Fin.ext
  match ax with
  | ⟨0, _⟩ => show win14_4.index t (0 : Fin 1) * 128 + 1 * q.val = q.val; omega

/-- A whole [100000,128] array read through the output's block at point t, at (p, q), is the array at (r, q). -/
theorem rd0_5 (G : S100000x128.Idx → EReal) (t : Fin cfg14.N) (p : Fin 2000) (q : Fin 128) (r : Fin 100000)
    (hr : r.val = win14_5.index t (0 : Fin 2) * 2000 + p.val) :
    (((cfg14.win 5).blk t).view.read (Elt Ideal) G : Vec Ideal S2000x128 .f32) (ix2 p q) = G (ix2 r q) := by
  show G (((cfg14.win 5).blk t).view.emb (ix2 p q)) = _
  refine congrArg G ?_
  obtain ⟨-, -, -, -, -, -, -, -, -, -, -, e0, e1⟩ := idx_facts0 t
  funext ax; apply Fin.ext
  match ax with
  | ⟨0, _⟩ => show win14_5.index t (0 : Fin 2) * 2000 + 1 * p.val = r.val; omega
  | ⟨1, _⟩ => show win14_5.index t (1 : Fin 2) * 128 + 1 * q.val = q.val; omega

/-! ## What a point writes back -/

/-- WHAT POINT t WRITES BACK is block t of the whole-array update. -/
theorem flushed0_eq (c : Dev nD) (t : Fin cfg14.N) :
    (dat14 (F := Ideal) V c).flushed 5 t = ((cfg14.win 5).blk t).view.read (Elt Ideal) (upd0 V c) := by
  show (cfg14.win 5).cut (grid14.coords t) ((dat14 (F := Ideal) V c).after 5 t) = _
  rw [after14_5]
  funext j
  obtain ⟨p, q, rfl⟩ : ∃ (p : Fin 2000) (q : Fin 128), j = ix2 p q := ⟨j 0, j 1, eq_ix2 j⟩
  have hlt : win14_5.index t (0 : Fin 2) * 2000 + p.val < 100000 := by
    have e := (idx_facts0 t).2.2.2.2.2.2.2.2.2.2.2.1
    have ht : t.val < 50 := Nat.lt_of_lt_of_eq t.isLt N_14
    omega
  refine (out14_apply (iblk14 V c 0 t) (iblk14 V c 1 t) (iblk14 V c 2 t) (iblk14 V c 3 t) (iblk14 V c 4 t) p q).trans ?_
  refine Eq.trans ?_ (rd0_5 (upd0 V c) t p q ⟨_, hlt⟩ rfl).symm
  show _ = max ((((∑ k : Fin 128, meansArr0 V c (ix3 (0 : Fin 2) ⟨_, hlt⟩ k) * wlsArr0 V c (ix3 (0 : Fin 2) k q))
      + ∑ k : Fin 128, meansArr0 V c (ix3 (1 : Fin 2) ⟨_, hlt⟩ k) * wlsArr0 V c (ix3 (1 : Fin 2) k q))
      + ∑ k : Fin 128, xdArr0 V c (ix2 ⟨_, hlt⟩ k) * wrArr0 V c (ix2 k q))
      + bArr0 V c (ix1 q)) 0
  simp only [rd0_0 V c t _ p _ ⟨_, hlt⟩ rfl, rd0_1 V c t, rd0_2 V c t p _ ⟨_, hlt⟩ rfl, rd0_3 V c t, rd0_4 V c t]

/-! ## The blocks written back tile the array -/

/-- An index of the array is in point t's block iff each coordinate is in the block's range on its axis. -/
theorem mem_blk0 (t : Fin cfg14.N) (i : S100000x128.Idx) :
    i ∈ ((cfg14.win 5).blk t).view.set ↔ ∀ a : Fin 2, win14_5.index t a * S2000x128.size a ≤ (i a).val ∧ (i a).val < win14_5.index t a * S2000x128.size a + S2000x128.size a := by
  show i ∈ ((View.whole main_v580).slice (win14_5.rect t)).set ↔ _
  rw [View.set_slice_whole, Rect.mem_set_unit]
  exact Iff.rfl

/-- Row r is in the block of point r / 2000, which writes back. -/
theorem cover0 (i : S100000x128.Idx) : ∃ t : Fin cfg14.N, (cfg14.win 5).flush t = true ∧ i ∈ ((cfg14.win 5).blk t).view.set := by
  have hi0 : (i 0).val < 100000 := (i 0).isLt
  have hi1 : (i 1).val < 128 := (i 1).isLt
  have hlt : (i 0).val / 2000 < cfg14.N := by rw [show cfg14.N = 50 from N_14]; omega
  refine ⟨⟨(i 0).val / 2000, hlt⟩, flush14_5 _, ?_⟩
  rw [mem_blk0]
  obtain ⟨-, -, -, -, -, -, -, -, -, -, -, e0, e1⟩ := idx_facts0 ⟨(i 0).val / 2000, hlt⟩
  have e0' : win14_5.index ⟨(i 0).val / 2000, hlt⟩ (0 : Fin 2) = (i 0).val / 2000 := e0
  intro a
  match a with
  | ⟨0, _⟩ => show win14_5.index ⟨(i 0).val / 2000, hlt⟩ (0 : Fin 2) * 2000 ≤ (i 0).val ∧ (i 0).val < win14_5.index ⟨(i 0).val / 2000, hlt⟩ (0 : Fin 2) * 2000 + 2000; omega
  | ⟨1, _⟩ => show win14_5.index ⟨(i 0).val / 2000, hlt⟩ (1 : Fin 2) * 128 ≤ (i 1).val ∧ (i 1).val < win14_5.index ⟨(i 0).val / 2000, hlt⟩ (1 : Fin 2) * 128 + 128; omega

/-! ## The array after the run -/

/-- THE OUTPUT ARRAY after the grid has run is the whole-array update of the arrays the region's windows read. -/
theorem arr (V : (c : Dev nD) → (b : Ref sig .tc) → Buf (Elt Ideal) ((c : Thread nD τ).loc b)) (c : Dev nD) :
    (dat14 (F := Ideal) V c).arrAt 5 cfg14.N
      = Cert.IdxSpec.sage2 100000 (V c main_v576) (V c main_v579) (V c main_arg1) (V c main_v568) (V c main_v573) :=
  (dat14 (F := Ideal) V c).arrAt_eq_of_cover 5 (upd0 V c) (fun t _ => flushed0_eq V c t) cover0

end Cert.KernelIdeal.RegVal14

end
-- ==== Proof.Reg13.lean ====
/-
  What a read-out region leaves in its output array: the read-out head of all 40000 rows, as one function of the arrays it reads.

  The region walks 20 blocks of 2000 rows. At block t its body sees rows 2000·t … 2000·t + 1999 of the features, the whole
  128 by 64 weight matrix and the whole bias, and stores, at entry (p, q) of its block, Σ_k x[p,k]·w[k,q] + b[q] (the matrix
  product into zeros, the format changes the identity on extended reals). That is entry (2000·t + p, q) of the whole-array
  function `Cert.IdxSpec.lin`; every row r lies in block r / 2000, so the blocks written back cover the array, which
  therefore ends holding that function.
-/
import proofs.«165177_j32074815766916_1_alg».proof.Proof.FIL13
import proofs.«165177_j32074815766916_1_alg».proof.Proof.IdxSpec
import Idealize.ShloMosaic.PureOps.Ideal.Laws
import Idealize.ShloMosaic.Lib.ValueIdx
import Idealize.ShloMosaic.Lib.Pipeline.Value

noncomputable section

namespace Cert.KernelIdeal.RegVal13

open Idealize.ShloMosaic Idealize.ShloMosaic.ValueIdx Idealize.ShloMosaic.TcCoe Cert.KernelIdeal Cert.KernelIdeal.Gen Cert.KernelIdeal.GenP
open Idealize.ShloMosaic.Pipeline (Dat)

/-! ## The matrix product's operand indices, axis by axis -/

/-- The left operand's row is the output's row. -/
theorem lhs6_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

/-- The left operand's column is the contraction's coordinate. -/
theorem lhs6_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q

/-- The right operand's row is the contraction's coordinate. -/
theorem rhs6_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q

/-- The right operand's column is the output's column. -/
theorem rhs6_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-! ## The product into zeros, and the bias along the rows, each at an entry -/

/-- The product of a block of rows with the weights, accumulated into zeros, at entry (p, q): the sum over the 128 features. -/
theorem prod6_apply (x : FVec Ideal S2000x128 .bf16) (w : FVec Ideal S128x64 .bf16) (p : Fin 2000) (q : Fin 64) :
    matmul dot_S2000x128_S128x64_S2000x64_1_0_0_1_n_n none x w (constant (F := Ideal) S2000x64 .f32 0x00000000#32) (ix2 p q)
      = ∑ k : Fin 128, x (ix2 p k) * w (ix2 k q) := by
  simp only [matmul]
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k := funext fun a => Fin.ext (by
    match a with
    | ⟨0, _⟩ => exact lhs6_0 _ _
    | ⟨1, _⟩ => exact (lhs6_1 _ _).trans hk)
  have er : dot_S2000x128_S128x64_S2000x64_1_0_0_1_n_n.rhsIdx (ix2 p q)
      ((contrEquiv1 dot_S2000x128_S128x64_S2000x64_1_0_0_1_n_n 128 rfl rfl).symm k) = ix2 k q := funext fun a => Fin.ext (by
    match a with
    | ⟨0, _⟩ => exact (rhs6_0 _ _).trans hk
    | ⟨1, _⟩ => exact rhs6_1 _ _)
  rw [el, er]

/-- The bias viewed as one row and laid along every row, at entry (p, q): the bias at q. -/
theorem bias6_apply {α : Type} (b : S64.Idx → α) (p : Fin 2000) (q : Fin 64) :
    broadcastTo S2000x64 (shapeCast S1x64 b shapeCasts_S64_S1x64) broadcasts_S1x64_S2000x64 (ix2 p q) = b (ix1 q) := by
  refine (broadcastTo_apply (shapeCast S1x64 b shapeCasts_S64_S1x64) broadcasts_S1x64_S2000x64 (ix2 p q) (ix2 (0 : Fin 1) q) ?_).trans ?_
  · intro a
    match a with
    | ⟨0, _⟩ => rfl
    | ⟨1, _⟩ => rfl
  · refine shapeCast_apply b shapeCasts_S64_S1x64 (ix2 (0 : Fin 1) q) (ix1 q) ?_
    rw [Shape.rowMajor_val_two, Shape.rowMajor_val_one]
    show q.val = 0 * 64 + q.val
    omega

/-! ## The payload at an entry -/

/-- Entry (p, q) of what the body stores: the row's features against the weights' column, plus the bias. -/
theorem pay6_apply (x : Vec Ideal S2000x128 .f32) (w : Vec Ideal S128x64 .f32) (b : Vec Ideal S64 .f32) (p : Fin 2000) (q : Fin 64) :
    k13_pay1 (F := Ideal) x w b (ix2 p q) = (∑ k : Fin 128, x (ix2 p k) * w (ix2 k q)) + b (ix1 q) := by
  unfold k13_pay1
  simp only [shapeCast_self]
  rw [addf_apply, prod6_apply, bias6_apply]
  rfl

/-! ## The arrays the region reads and the blocks its body sees, each at its literal type -/

variable (V : (c : Dev nD) → (b : Ref sig .tc) → Buf (Elt Ideal) ((c : Thread nD τ).loc b))

/-- The node features, 40000 rows of 128. -/
noncomputable abbrev feat6 (c : Dev nD) : S40000x128.Idx → EReal := V c main_v463
/-- The weights, 128 by 64. -/
noncomputable abbrev wts6 (c : Dev nD) : S128x64.Idx → EReal := V c main_arg8
/-- The bias, 64 entries. -/
noncomputable abbrev bias6 (c : Dev nD) : S64.Idx → EReal := V c main_arg9
/-- The 2000 rows of features the body sees at point `t`. -/
noncomputable abbrev xblk6 (c : Dev nD) (t : Fin cfg13.N) : Vec Ideal S2000x128 .f32 := iblk13 V c 0 t
/-- The weights as the body sees them at point `t`. -/
noncomputable abbrev wblk6 (c : Dev nD) (t : Fin cfg13.N) : Vec Ideal S128x64 .f32 := iblk13 V c 1 t
/-- The bias as the body sees it at point `t`. -/
noncomputable abbrev bblk6 (c : Dev nD) (t : Fin cfg13.N) : Vec Ideal S64 .f32 := iblk13 V c 2 t

/-- The whole-array function: every row's features against the weights, plus the bias. -/
noncomputable abbrev head6 (c : Dev nD) : S40000x64.Idx → EReal := Cert.IdxSpec.lin 40000 (feat6 V c) (wts6 V c) (bias6 V c)

theorem hz2 : (![0, 0] : Fin 2 → Nat) = fun _ => 0 := funext fun a => by fin_cases a <;> rfl
theorem hz1 : (![0] : Fin 1 → Nat) = fun _ => 0 := funext fun a => by fin_cases a; rfl

/-! ## Where each window's block sits -/

/-- The index maps over the grid: the features' and the output's block index is the point on the row axis and 0 on the
    column axis; the weights and the bias are taken whole at every point. -/
theorem idx_facts6 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 1) = 0
    ∧ win13_3.index t (0 : Fin 2) = t.val ∧ win13_3.index t (1 : Fin 2) = 0 :=
  (by decide +kernel : ∀ t : Fin grid13.N, _)

/-- Row p of the features' block at point `t` is row 2000·t + p of the features. -/
theorem xblk6_apply (c : Dev nD) (t : Fin cfg13.N) (p : Fin 2000) (k : Fin 128) (r : Fin 40000)
    (hr : r.val = t.val * 2000 + p.val) : xblk6 V c t (ix2 p k) = feat6 V c (ix2 r k) := by
  obtain ⟨e0, e1, -⟩ := idx_facts6 t
  unfold xblk6 iblk13
  rw [View.read_apply]
  show V c main_v463 _ = V c main_v463 _
  congr 1
  funext a
  apply Fin.ext
  match a with
  | ⟨0, _⟩ => show win13_0.index t (0 : Fin 2) * 2000 + 1 * p.val = r.val; rw [e0, hr]; omega
  | ⟨1, _⟩ => show win13_0.index t (1 : Fin 2) * 128 + 1 * k.val = k.val; rw [e1]; omega

/-- The weights' block at any point is the whole weight matrix. -/
theorem wblk6_eq (c : Dev nD) (t : Fin cfg13.N) : wblk6 V c t = wts6 V c := by
  obtain ⟨-, -, e2, e3, -⟩ := idx_facts6 t
  funext y
  unfold wblk6 iblk13
  rw [View.read_apply]
  show V c main_arg8 _ = V c main_arg8 _
  congr 1
  funext a
  apply Fin.ext
  match a with
  | ⟨0, _⟩ => show win13_1.index t (0 : Fin 2) * 128 + 1 * (y 0).val = (y 0).val; rw [e2]; omega
  | ⟨1, _⟩ => show win13_1.index t (1 : Fin 2) * 64 + 1 * (y 1).val = (y 1).val; rw [e3]; omega

/-- The bias's block at any point is the whole bias. -/
theorem bblk6_eq (c : Dev nD) (t : Fin cfg13.N) : bblk6 V c t = bias6 V c := by
  obtain ⟨-, -, -, -, e4, -⟩ := idx_facts6 t
  funext y
  unfold bblk6 iblk13
  rw [View.read_apply]
  show V c main_arg9 _ = V c main_arg9 _
  congr 1
  funext a
  apply Fin.ext
  match a with
  | ⟨0, _⟩ => show win13_2.index t (0 : Fin 1) * 64 + 1 * (y 0).val = (y 0).val; rw [e4]; omega

/-! ## What one point stores is its block of the whole-array function -/

/-- The body's result at point `t`, at entry `y` of the block, is the whole-array function at the entry `i` of the array
    with row 2000·t + (y's row) and y's column. -/
theorem body6_apply (c : Dev nD) (t : Fin cfg13.N) (y : S2000x64.Idx) (i : S40000x64.Idx)
    (h0 : (i 0).val = t.val * 2000 + (y 0).val) (h1 : (i 1).val = (y 1).val) :
    k13_pay1 (F := Ideal) (xblk6 V c t) (wblk6 V c t) (bblk6 V c t) y = head6 V c i := by
  obtain ⟨p, q, rfl⟩ : ∃ (p : Fin 2000) (q : Fin 64), y = ix2 p q := ⟨y 0, y 1, eq_ix2 y⟩
  obtain ⟨r, s, rfl⟩ : ∃ (r : Fin 40000) (s : Fin 64), i = ix2 r s := ⟨i 0, i 1, eq_ix2 i⟩
  obtain rfl : s = q := Fin.ext h1
  refine (pay6_apply (xblk6 V c t) (wblk6 V c t) (bblk6 V c t) p s).trans ?_
  show _ = (∑ k : Fin 128, feat6 V c (ix2 r k) * wts6 V c (ix2 k s)) + bias6 V c (ix1 s)
  exact congrArg₂ (· + ·)
    (Finset.sum_congr rfl fun k _ => congrArg₂ (· * ·) (xblk6_apply V c t p k r h0) (congrFun (wblk6_eq V c t) (ix2 k s)))
    (congrFun (bblk6_eq V c t) (ix1 s))

/-- WHAT POINT `t` WRITES BACK is block `t` of the whole-array function of the arrays as the region finds them. -/
theorem flushed_eq6 (c : Dev nD) (t : Fin cfg13.N) :
    (dat13 (F := Ideal) V c).flushed 3 t = ((cfg13.win 3).blk t).view.read (Elt Ideal) (head6 V c) := by
  show (cfg13.win 3).cut (grid13.coords t) ((dat13 (F := Ideal) V c).after 3 t) = _
  rw [after13_3]
  unfold out13_3
  rw [View.canon_unit_zero hz2]
  simp only [View.ld_unit_zero (S := S2000x128) hz2, View.ld_unit_zero (S := S128x64) hz2, View.ld_unit_zero (S := S64) hz1]
  obtain ⟨-, -, -, -, -, e5, e6⟩ := idx_facts6 t
  funext j
  refine body6_apply V c t ((cfg13.win 3).xinj (grid13.coords t) j) (((cfg13.win 3).blk t).view.emb j) ?_ ?_
  · show win13_3.index t (0 : Fin 2) * 2000 + 1 * (j 0).val = t.val * 2000 + (j 0).val
    rw [e5]; omega
  · show win13_3.index t (1 : Fin 2) * 64 + 1 * (j 1).val = (j 1).val
    rw [e6]; omega

/-! ## The blocks cover the array -/

/-- An entry of the array is in point `t`'s block iff each coordinate is in the block's range on its axis. -/
theorem mem_blk6 (t : Fin cfg13.N) (i : S40000x64.Idx) :
    i ∈ ((cfg13.win 3).blk t).view.set ↔ ∀ a : Fin 2, win13_3.index t a * S2000x64.size a ≤ (i a).val
      ∧ (i a).val < win13_3.index t a * S2000x64.size a + S2000x64.size a := by
  show i ∈ ((View.whole main_v473).slice (win13_3.rect t)).set ↔ _
  rw [View.set_slice_whole, Rect.mem_set_unit]
  exact Iff.rfl

/-- Row r lies in the block of point r / 2000. -/
theorem cover6 (i : S40000x64.Idx) :
    ∃ t : Fin cfg13.N, (cfg13.win 3).flush t = true ∧ i ∈ ((cfg13.win 3).blk t).view.set := by
  have hi0 : (i 0).val < 40000 := (i 0).isLt
  have hi1 : (i 1).val < 64 := (i 1).isLt
  have hN : cfg13.N = 20 := N_13
  obtain ⟨t, ht⟩ : ∃ t : Fin cfg13.N, t.val = (i 0).val / 2000 := ⟨⟨(i 0).val / 2000, by rw [hN]; omega⟩, rfl⟩
  obtain ⟨-, -, -, -, -, e5, e6⟩ := idx_facts6 t
  refine ⟨t, flush13_3 t, ?_⟩
  rw [mem_blk6]
  intro a
  match a with
  | ⟨0, _⟩ =>
    show win13_3.index t (0 : Fin 2) * 2000 ≤ (i 0).val ∧ (i 0).val < win13_3.index t (0 : Fin 2) * 2000 + 2000
    rw [e5, ht]; omega
  | ⟨1, _⟩ =>
    show win13_3.index t (1 : Fin 2) * 64 ≤ (i 1).val ∧ (i 1).val < win13_3.index t (1 : Fin 2) * 64 + 64
    rw [e6]; omega

/-! ## The array after the run -/

/-- THE OUTPUT ARRAY after the region's grid has run: the read-out head of the features, the weights and the bias as the
    region finds them. -/
theorem arr (c : Dev nD) :
    (dat13 (F := Ideal) V c).arrAt 3 cfg13.N
      = Cert.IdxSpec.lin 40000 (V c main_v463) (V c main_arg8) (V c main_arg9) :=
  (dat13 (F := Ideal) V c).arrAt_eq_of_cover 3 (head6 V c) (fun t _ => flushed_eq6 V c t) cover6

end Cert.KernelIdeal.RegVal13

end
-- ==== Proof.Reg11Pay.lean ====
/-
  Region 1's arithmetic at one entry, on extended reals.

  The body stores one 2000 × 128 block. Its entry at row p and column q is
      max( Σ_k mean[0,p,k]·Wl[0,k,q] + Σ_k x[p,k]·Wr[k,q] + b[q], 0 ),
  where mean is the block of neighbour means (one relation, carried on a leading unit axis), Wl the stacked left weight,
  x the block of the node's own features, Wr the right weight and b the bias. The casts to the narrow format are the
  identity on exact values; each matrix product into a zero accumulator is the sum over its one contracted coordinate;
  dropping or adding a unit axis keeps the row-major position; the bias row is repeated down the rows.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal11

open Idealize.ShloMosaic Idealize.ShloMosaic.ValueIdx Cert.KernelIdeal Cert.KernelIdeal.Gen

/-! ## The matrix product's operand indices, axis by axis -/

/-- The left operand's row is the output's row. -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contracted coordinate. -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contracted coordinate. -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product at an entry -/

/-- A 2000 × 128 by 128 × 128 product into the zero accumulator, at entry (p, q): the sum over the 128 contracted
    coordinates of the products of the two operands' entries. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The stored block at an entry -/

/-- Entry (p, q) of the block the body stores: the two sums, the bias, the clamp at zero. -/
theorem pay_at (x0 : Vec Ideal S1x2000x128 .f32) (x1 : Vec Ideal S1x128x128 .f32) (x2 : Vec Ideal S2000x128 .f32)
    (x3 : Vec Ideal S128x128 .f32) (x4 : Vec Ideal S128 .f32) (p : Fin 2000) (q : Fin 128) :
    k11_pay1 (F := Ideal) x0 x1 x2 x3 x4 (ix2 p q)
      = max (((∑ k : Fin 128, x0 (ix3 (0 : Fin 1) p k) * x1 (ix3 (0 : Fin 1) k q))
          + ∑ k : Fin 128, x2 (ix2 p k) * x3 (ix2 k q))
          + x4 (ix1 q)) 0 := by
  unfold k11_pay1
  rw [maximumf_apply, broadcast_apply, addf_apply, addf_apply, matmul_at, matmul_at,
    broadcastTo_1b_ab_apply, shapeCast_a_1a_apply, shapeCast_self]
  simp only [truncf_apply, shapeCast_1ab_ab_apply, shapeCast_self]
  show max _ (Ideal.ofBits .f32 0x00000000#32) = _
  rw [Ideal.ofBits_zero_f32]

end Cert.KernelIdeal.RegVal11

end
-- ==== Proof.Reg11.lean ====
/-
  Region 1's value: what its output array holds after the grid has run, as one function of the arrays it reads, on
  extended reals.

  The region updates a node type with one incoming relation, 40000 rows in 20 blocks of 2000. Point t of the grid reads
  rows 2000·t … 2000·t + 1999 of the neighbour means and of the node's own features, the two weight matrices and the bias
  whole, and writes back rows 2000·t … 2000·t + 1999 of
      max( Σ_k mean[0,r,k]·Wl[0,k,q] + Σ_k x[r,k]·Wr[k,q] + b[q], 0 ).
  An entry of the written block depends only on its own row of the means and features, so each point writes exactly its
  block of that one whole-array function; the 20 blocks tile the rows (row r lies in block r / 2000), so the array ends
  holding the function everywhere.
-/
import proofs.«165177_j32074815766916_1_alg».proof.Proof.FIL11
import proofs.«165177_j32074815766916_1_alg».proof.Proof.IdxSpec
import proofs.«165177_j32074815766916_1_alg».proof.Proof.Reg11Pay
import Idealize.ShloMosaic.Lib.Pipeline.Value
import Idealize.ShloMosaic.Lib.ValueIdx

set_option maxRecDepth 16384

noncomputable section

namespace Cert.KernelIdeal.RegVal11

open Idealize.ShloMosaic Idealize.ShloMosaic.TcCoe Idealize.ShloMosaic.ValueIdx Cert.KernelIdeal Cert.KernelIdeal.Gen Cert.KernelIdeal.GenP
open Idealize.ShloMosaic.Pipeline (Dat)

/-! ## The arrays the region reads, by their literal types -/

variable (V : (c : Dev nD) → (b : Ref sig .tc) → Buf (Elt Ideal) ((c : Thread nD τ).loc b))

/-- The stacked neighbour means (one relation), 40000 rows. -/
noncomputable abbrev meansArr (c : Dev nD) : Vec Ideal S1x40000x128 .f32 := V c main_v461
/-- The stacked left weight. -/
noncomputable abbrev wlsArr (c : Dev nD) : Vec Ideal S1x128x128 .f32 := V c main_v462
/-- The node type's own features, 40000 rows. -/
noncomputable abbrev xdArr (c : Dev nD) : Vec Ideal S40000x128 .f32 := V c main_v348
/-- The right weight. -/
noncomputable abbrev wrArr (c : Dev nD) : Vec Ideal S128x128 .f32 := V c main_v458
/-- The bias. -/
noncomputable abbrev biasArr (c : Dev nD) : Vec Ideal S128 .f32 := V c main_v460

/-- What the region's output array ends holding: the one-relation update of all 40000 rows. -/
noncomputable abbrev updArr (c : Dev nD) : Vec Ideal S40000x128 .f32 :=
  Cert.IdxSpec.sage1 40000 (meansArr V c) (wlsArr V c) (xdArr V c) (wrArr V c) (biasArr V c)

/-- The update at row r, column q, with the coordinates named. -/
theorem updArr_at (c : Dev nD) (i : S40000x128.Idx) (r : Fin 40000) (q : Fin 128) (hi : i = ix2 r q) :
    updArr V c i
      = max (((∑ k : Fin 128, meansArr V c (ix3 (0 : Fin 1) r k) * wlsArr V c (ix3 (0 : Fin 1) k q))
          + ∑ k : Fin 128, xdArr V c (ix2 r k) * wrArr V c (ix2 k q))
          + biasArr V c (ix1 q)) 0 := by
  subst hi; rfl

/-! ## The index maps over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid's points: the means' and the features' blocks move down the rows with
    the output's block; the two weights and the bias are taken whole at every point; the output's block index is the
    point's number. -/
theorem idx_facts : ∀ t : Fin cfg11.N,
    win11_0.index t (0 : Fin 3) = 0 ∧ win11_0.index t (1 : Fin 3) = win11_5.index t (0 : Fin 2) ∧ win11_0.index t (2 : Fin 3) = 0
    ∧ win11_1.index t (0 : Fin 3) = 0 ∧ win11_1.index t (1 : Fin 3) = 0 ∧ win11_1.index t (2 : Fin 3) = 0
    ∧ win11_2.index t (0 : Fin 2) = win11_5.index t (0 : Fin 2) ∧ win11_2.index t (1 : Fin 2) = 0
    ∧ win11_3.index t (0 : Fin 2) = 0 ∧ win11_3.index t (1 : Fin 2) = 0
    ∧ win11_4.index t (0 : Fin 1) = 0
    ∧ win11_5.index t (0 : Fin 2) = t.val ∧ win11_5.index t (1 : Fin 2) = 0 :=
  (by decide +kernel : ∀ t : Fin grid11.N, _)

/-! ## Each input window's block, read off its array -/

/-- The means' block at point t is rows 2000·b … 2000·b + 1999 of the means, b the output's block index at t. -/
theorem means_blk (c : Dev nD) (t : Fin cfg11.N) (y : S1x2000x128.Idx) (i : S1x40000x128.Idx)
    (h0 : (i 0).val = (y 0).val) (h1 : (i 1).val = win11_5.index t (0 : Fin 2) * 2000 + (y 1).val) (h2 : (i 2).val = (y 2).val) :
    (iblk11 V c 0 t : Vec Ideal S1x2000x128 .f32) y = meansArr V c i := by
  obtain ⟨e0, e1, e2, -⟩ := idx_facts t
  unfold iblk11
  rw [View.read_apply]
  show V c main_v461 _ = V c main_v461 _
  congr 1
  funext a
  apply Fin.ext
  match a with
  | ⟨0, _⟩ => show win11_0.index t (0 : Fin 3) * 1 + 1 * (y 0).val = (i 0).val; rw [e0, h0]; omega
  | ⟨1, _⟩ => show win11_0.index t (1 : Fin 3) * 2000 + 1 * (y 1).val = (i 1).val; rw [e1, h1]; omega
  | ⟨2, _⟩ => show win11_0.index t (2 : Fin 3) * 128 + 1 * (y 2).val = (i 2).val; rw [e2, h2]; omega

/-- The features' block at point t is the same rows of the features. -/
theorem xd_blk (c : Dev nD) (t : Fin cfg11.N) (y : S2000x128.Idx) (i : S40000x128.Idx)
    (h0 : (i 0).val = win11_5.index t (0 : Fin 2) * 2000 + (y 0).val) (h1 : (i 1).val = (y 1).val) :
    (iblk11 V c 2 t : Vec Ideal S2000x128 .f32) y = xdArr V c i := by
  obtain ⟨-, -, -, -, -, -, e0, e1, -⟩ := idx_facts t
  unfold iblk11
  rw [View.read_apply]
  show V c main_v348 _ = V c main_v348 _
  congr 1
  funext a
  apply Fin.ext
  match a with
  | ⟨0, _⟩ => show win11_2.index t (0 : Fin 2) * 2000 + 1 * (y 0).val = (i 0).val; rw [e0, h0]; omega
  | ⟨1, _⟩ => show win11_2.index t (1 : Fin 2) * 128 + 1 * (y 1).val = (i 1).val; rw [e1, h1]; omega

/-- The left weight's window takes the whole array at every point. -/
theorem wls_blk (c : Dev nD) (t : Fin cfg11.N) : (iblk11 V c 1 t : Vec Ideal S1x128x128 .f32) = wlsArr V c := by
  obtain ⟨-, -, -, e0, e1, e2, -⟩ := idx_facts t
  funext y
  unfold iblk11
  rw [View.read_apply]
  show V c main_v462 _ = V c main_v462 _
  congr 1
  funext a
  apply Fin.ext
  match a with
  | ⟨0, _⟩ => show win11_1.index t (0 : Fin 3) * 1 + 1 * (y 0).val = (y 0).val; rw [e0]; omega
  | ⟨1, _⟩ => show win11_1.index t (1 : Fin 3) * 128 + 1 * (y 1).val = (y 1).val; rw [e1]; omega
  | ⟨2, _⟩ => show win11_1.index t (2 : Fin 3) * 128 + 1 * (y 2).val = (y 2).val; rw [e2]; omega

/-- The right weight's window takes the whole array at every point. -/
theorem wr_blk (c : Dev nD) (t : Fin cfg11.N) : (iblk11 V c 3 t : Vec Ideal S128x128 .f32) = wrArr V c := by
  obtain ⟨-, -, -, -, -, -, -, -, e0, e1, -⟩ := idx_facts t
  funext y
  unfold iblk11
  rw [View.read_apply]
  show V c main_v458 _ = V c main_v458 _
  congr 1
  funext a
  apply Fin.ext
  match a with
  | ⟨0, _⟩ => show win11_3.index t (0 : Fin 2) * 128 + 1 * (y 0).val = (y 0).val; rw [e0]; omega
  | ⟨1, _⟩ => show win11_3.index t (1 : Fin 2) * 128 + 1 * (y 1).val = (y 1).val; rw [e1]; omega

/-- The bias's window takes the whole array at every point. -/
theorem bias_blk (c : Dev nD) (t : Fin cfg11.N) : (iblk11 V c 4 t : Vec Ideal S128 .f32) = biasArr V c := by
  obtain ⟨-, -, -, -, -, -, -, -, -, -, e0, -⟩ := idx_facts t
  funext y
  unfold iblk11
  rw [View.read_apply]
  show V c main_v460 _ = V c main_v460 _
  congr 1
  funext a
  apply Fin.ext
  match a with
  | ⟨0, _⟩ => show win11_4.index t (0 : Fin 1) * 128 + 1 * (y 0).val = (y 0).val; rw [e0]; omega

/-! ## What one point writes back -/

/-- The body's stored block from the five input blocks, without the load and store rectangles (each is the whole
    staging buffer). -/
theorem out_eq (x0 : Vec Ideal S1x2000x128 .f32) (x1 : Vec Ideal S1x128x128 .f32) (x2 : Vec Ideal S2000x128 .f32)
    (x3 : Vec Ideal S128x128 .f32) (x4 : Vec Ideal S128 .f32) :
    out11_5 (F := Ideal) x0 x1 x2 x3 x4 = k11_pay1 (F := Ideal) x0 x1 x2 x3 x4 := by
  unfold out11_5
  rw [View.canon_unit_zero hz2]
  simp only [View.ld_unit_zero (S := S1x2000x128) hz3, View.ld_unit_zero (S := S1x128x128) hz3,
    View.ld_unit_zero (S := S2000x128) hz2, View.ld_unit_zero (S := S128x128) hz2, View.ld_unit_zero (S := S128) hz1]

/-- The output block's entry (p, q) at point t sits at row 2000·b + p, column q of the array, b the block index. -/
theorem out_emb (t : Fin cfg11.N) (p : Fin 2000) (q : Fin 128) (r : Fin 40000)
    (hr : r.val = win11_5.index t (0 : Fin 2) * 2000 + p.val) :
    ((cfg11.win 5).blk t).view.emb (ix2 p q) = (ix2 r q : S40000x128.Idx) := by
  obtain ⟨-, -, -, -, -, -, -, -, -, -, -, -, e1⟩ := idx_facts t
  funext a
  apply Fin.ext
  match a with
  | ⟨0, _⟩ => show win11_5.index t (0 : Fin 2) * 2000 + 1 * p.val = r.val; rw [hr]; omega
  | ⟨1, _⟩ => show win11_5.index t (1 : Fin 2) * 128 + 1 * q.val = q.val; rw [e1]; omega

/-- What point t writes back is block t of the update of all rows: entry (p, q) of the stored block is the update at
    row 2000·b + p, column q, b the output's block index at t — each sum termwise, the means' and the features' blocks
    read at those rows. -/
theorem flushed_eq (c : Dev nD) (t : Fin cfg11.N) :
    (dat11 (F := Ideal) V c).flushed 5 t = ((cfg11.win 5).blk t).view.read (Elt Ideal) (updArr V c) := by
  show (cfg11.win 5).cut (grid11.coords t) ((dat11 V c).after 5 t) = _
  rw [after11_5, out_eq, wls_blk, wr_blk, bias_blk]
  funext j
  obtain ⟨p, q, rfl⟩ : ∃ (p : Fin 2000) (q : Fin 128), j = ix2 p q := ⟨j 0, j 1, eq_ix2 j⟩
  obtain ⟨-, -, -, -, -, -, -, -, -, -, -, e0, -⟩ := idx_facts t
  have hN : cfg11.N = 20 := N_11
  have ht : t.val < 20 := hN ▸ t.isLt
  obtain ⟨r, hr⟩ : ∃ r : Fin 40000, r.val = win11_5.index t (0 : Fin 2) * 2000 + p.val :=
    ⟨⟨win11_5.index t (0 : Fin 2) * 2000 + p.val, by rw [e0]; have := p.isLt; omega⟩, rfl⟩
  rw [View.read_apply]
  show k11_pay1 (F := Ideal) (iblk11 V c 0 t) (wlsArr V c) (iblk11 V c 2 t) (wrArr V c) (biasArr V c) (ix2 p q)
    = updArr V c (((cfg11.win 5).blk t).view.emb (ix2 p q))
  rw [out_emb t p q r hr, updArr_at V c _ r q rfl]
  refine (pay_at _ _ _ _ _ p q).trans ?_
  refine congrArg₂ max (congrArg₂ (· + ·) (congrArg₂ (· + ·) (Finset.sum_congr rfl fun k _ => ?_) (Finset.sum_congr rfl fun k _ => ?_)) rfl) rfl
  · exact congrArg (· * _) (means_blk V c t (ix3 (0 : Fin 1) p k) (ix3 (0 : Fin 1) r k) rfl hr rfl)
  · exact congrArg (· * _) (xd_blk V c t (ix2 p k) (ix2 r k) hr rfl)

/-! ## The blocks cover the array -/

/-- An index of the array is in point t's block iff each coordinate is in the block's range on its axis. -/
theorem mem_blk (t : Fin cfg11.N) (i : S40000x128.Idx) :
    i ∈ ((cfg11.win 5).blk t).view.set ↔ ∀ a : Fin 2, win11_5.index t a * S2000x128.size a ≤ (i a).val ∧ (i a).val < win11_5.index t a * S2000x128.size a + S2000x128.size a := by
  show i ∈ ((View.whole main_v463).slice (win11_5.rect t)).set ↔ _
  rw [View.set_slice_whole, Rect.mem_set_unit]
  exact Iff.rfl

/-- Row r of the array is written by the point numbered r / 2000 (and every point writes its block back). -/
theorem cover (i : S40000x128.Idx) :
    ∃ t : Fin cfg11.N, (cfg11.win 5).flush t = true ∧ i ∈ ((cfg11.win 5).blk t).view.set := by
  have hi0 : (i 0).val < 40000 := (i 0).isLt
  have hi1 : (i 1).val < 128 := (i 1).isLt
  have hN : cfg11.N = 20 := N_11
  obtain ⟨t, ht⟩ : ∃ t : Fin cfg11.N, t.val = (i 0).val / 2000 := ⟨⟨(i 0).val / 2000, by rw [hN]; omega⟩, rfl⟩
  obtain ⟨-, -, -, -, -, -, -, -, -, -, -, e0, e1⟩ := idx_facts t
  refine ⟨t, flush11_5 t, ?_⟩
  rw [mem_blk]
  intro a
  match a with
  | ⟨0, _⟩ =>
    show win11_5.index t (0 : Fin 2) * 2000 ≤ (i 0).val ∧ (i 0).val < win11_5.index t (0 : Fin 2) * 2000 + 2000
    rw [e0, ht]; omega
  | ⟨1, _⟩ =>
    show win11_5.index t (1 : Fin 2) * 128 ≤ (i 1).val ∧ (i 1).val < win11_5.index t (1 : Fin 2) * 128 + 128
    rw [e1]; omega

/-! ## The array after the run -/

/-- THE REGION'S VALUE: after the grid has run, the output array holds the one-relation update of all 40000 rows — every
    point writes its block of it, and the blocks cover the array. -/
theorem arr (c : Dev nD) :
    (dat11 (F := Ideal) V c).arrAt 5 cfg11.N
      = Cert.IdxSpec.sage1 40000 (V c main_v461) (V c main_v462) (V c main_v348) (V c main_v458) (V c main_v460) :=
  (dat11 V c).arrAt_eq_of_cover 5 (updArr V c) (fun t _ => flushed_eq V c t) cover

end Cert.KernelIdeal.RegVal11

end
-- ==== Proof.Reg10Pay.lean ====
/-
  One row block of a two-relation dense update, read entry by entry on extended reals.

  The block's result at (p, q) is max(Σ_k a₀[0,p,k]·w₀[0,k,q] + Σ_k a₁[0,p,k]·w₁[0,k,q] + Σ_k x[p,k]·r[k,q] + b[q], 0):
  the leading unit axes of the two neighbour-mean slabs and of the two left-weight slabs are dropped, the narrowing
  format changes are the identity on extended reals, each matrix product into a zero accumulator is its plain sum over
  the 128 feature columns (the contraction index re-indexed by its one coordinate), the bias row is copied down the
  rows, and the clamp is against the zero word.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegVal10

open Idealize.ShloMosaic Idealize.ShloMosaic.ValueIdx Cert.KernelIdeal Cert.KernelIdeal.Gen
open scoped BigOperators

/-! ## The product's operand indices: rows × contraction, contraction × columns -/

/-- The left operand's row is the output's row. -/
theorem lhs_mm0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contraction's one coordinate. -/
theorem lhs_mm0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contraction's one coordinate. -/
theorem rhs_mm0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product into a zero accumulator, at an entry -/

/-- A [2000,128] × [128,128] product into the zero splat reads, at (p, q), Σ_k x[p,k]·w[k,q]. -/
theorem mm0_apply {φ₁ φ₂ : FTy} (x : FVec Ideal S2000x128 φ₁) (w : FVec Ideal S128x128 φ₂) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm0_0 _ _
      | ⟨1, _⟩ => exact (lhs_mm0_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm0_0 _ _).trans hk
      | ⟨1, _⟩ => exact rhs_mm0_1 _ _)
  rw [el, er]

/-! ## The payload at an entry -/

/-- The block the body stores, at (p, q): the three sums over the feature columns, plus the bias entry, clamped at zero. -/
theorem pay0_apply (v0 v3 : Vec Ideal S1x2000x128 .f32) (v6 v9 : Vec Ideal S1x128x128 .f32) (v12 : Vec Ideal S2000x128 .f32)
    (v14 : Vec Ideal S128x128 .f32) (v22 : Vec Ideal S128 .f32) (p : Fin 2000) (q : Fin 128) :
    k10_pay1 (F := Ideal) v0 v3 v6 v9 v12 v14 v22 (ix2 p q)
      = max ((((∑ k : Fin 128, v0 (ix3 (0 : Fin 1) p k) * v6 (ix3 (0 : Fin 1) k q))
          + ∑ k : Fin 128, v3 (ix3 (0 : Fin 1) p k) * v9 (ix3 (0 : Fin 1) k q))
          + ∑ k : Fin 128, v12 (ix2 p k) * v14 (ix2 k q))
          + v22 (ix1 q)) 0 := by
  unfold k10_pay1
  simp only [maximumf_apply, addf_apply, broadcast_apply, mm0_apply, truncf_apply, shapeCast_1ab_ab_apply, shapeCast_self,
    broadcastTo_1b_ab_apply, shapeCast_a_1a_apply]
  exact congrArg (max _) Ideal.ofBits_zero_f32

end Cert.KernelIdeal.RegVal10

end
-- ==== Proof.Reg10.lean ====
/-
  What one grid-tiled two-relation dense update leaves in its output array, as one function of the arrays it reads.

  The grid has 50 points; point t handles rows 2000·t … 2000·t + 1999. At point t the two neighbour-mean slabs and the
  node's own features are read through blocks of 2000 rows starting at row 2000·t, while the two stacked left weights,
  the right weight and the bias are read whole at every point. The body's stored block at (p, q) is therefore the whole-array
  update at (2000·t + p, q): the same three sums over the 128 feature columns, the same bias entry, the same clamp at
  zero. Every row r lies in the block of point r / 2000, so the blocks written back tile the array and the array ends
  holding the update everywhere.
-/
import proofs.«165177_j32074815766916_1_alg».proof.Proof.FIL10
import proofs.«165177_j32074815766916_1_alg».proof.Proof.IdxSpec
import proofs.«165177_j32074815766916_1_alg».proof.Proof.Reg10Pay
import Idealize.ShloMosaic.Lib.ValueIdx
import Idealize.ShloMosaic.Lib.Pipeline.Value

set_option maxRecDepth 16384

noncomputable section

namespace Cert.KernelIdeal.RegVal10

open Idealize.ShloMosaic Idealize.ShloMosaic.ValueIdx Idealize.ShloMosaic.TcCoe Cert.KernelIdeal Cert.KernelIdeal.Gen Cert.KernelIdeal.GenP
open Idealize.ShloMosaic.Pipeline (Dat)
open scoped BigOperators

variable (V : (c : Dev nD) → (b : Ref sig .tc) → Buf (Elt Ideal) ((c : Thread nD τ).loc b))

/-! ## The arrays the region reads, each at its literal shape -/

/-- The two neighbour-mean slabs, stacked: [2, 100000, 128]. -/
abbrev meansArr0 (c : Dev nD) : S2x100000x128.Idx → EReal := V c main_v450
/-- The two left weights, stacked: [2, 128, 128]. -/
abbrev wlsArr0 (c : Dev nD) : S2x128x128.Idx → EReal := V c main_v453
/-- The node type's own features: [100000, 128]. -/
abbrev xdArr0 (c : Dev nD) : S100000x128.Idx → EReal := V c main_v339
/-- The right weight: [128, 128]. -/
abbrev wrArr0 (c : Dev nD) : S128x128.Idx → EReal := V c main_v442
/-- The bias: [128]. -/
abbrev bArr0 (c : Dev nD) : S128.Idx → EReal := V c main_v447

/-- The whole-array update of those arrays. -/
abbrev upd0 (c : Dev nD) : S100000x128.Idx → EReal :=
  Cert.IdxSpec.sage2 100000 (meansArr0 V c) (wlsArr0 V c) (xdArr0 V c) (wrArr0 V c) (bArr0 V c)

/-! ## The body's loads: a slab of a stacked block, or a whole block -/

theorem zero2 : (![0, 0] : Fin 2 → Nat) = fun _ => 0 := funext fun a => by fin_cases a <;> rfl
theorem zero1 : (![0] : Fin 1 → Nat) = fun _ => 0 := funext fun a => by fin_cases a; rfl

/-- Slab 0 of the stacked means' block, at (a, p, k), is the block at (0, p, k). -/
theorem ld_means0_0 (x : Vec Ideal S2x2000x128 .f32) (a : Fin 1) (p : Fin 2000) (k : Fin 128) :
    View.ld x r10_0 (ix3 a p k) = x (ix3 (0 : Fin 2) p k) := by
  show x _ = x _
  congr 1
  funext ax; apply Fin.ext
  match ax with
  | ⟨0, _⟩ => show 0 + 1 * a.val = 0; omega
  | ⟨1, _⟩ => show 0 + 1 * p.val = p.val; omega
  | ⟨2, _⟩ => show 0 + 1 * k.val = k.val; omega

/-- Slab 1 of the stacked means' block, at (a, p, k), is the block at (1, p, k). -/
theorem ld_means0_1 (x : Vec Ideal S2x2000x128 .f32) (a : Fin 1) (p : Fin 2000) (k : Fin 128) :
    View.ld x r10_1 (ix3 a p k) = x (ix3 (1 : Fin 2) p k) := by
  show x _ = x _
  congr 1
  funext ax; apply Fin.ext
  match ax with
  | ⟨0, _⟩ => show 1 + 1 * a.val = 1; omega
  | ⟨1, _⟩ => show 0 + 1 * p.val = p.val; omega
  | ⟨2, _⟩ => show 0 + 1 * k.val = k.val; omega

/-- Slab 0 of the stacked left weights, at (a, k, q), is the stack at (0, k, q). -/
theorem ld_wls0_0 (x : Vec Ideal S2x128x128 .f32) (a : Fin 1) (k : Fin 128) (q : Fin 128) :
    View.ld x r10_2 (ix3 a k q) = x (ix3 (0 : Fin 2) k q) := by
  show x _ = x _
  congr 1
  funext ax; apply Fin.ext
  match ax with
  | ⟨0, _⟩ => show 0 + 1 * a.val = 0; omega
  | ⟨1, _⟩ => show 0 + 1 * k.val = k.val; omega
  | ⟨2, _⟩ => show 0 + 1 * q.val = q.val; omega

/-- Slab 1 of the stacked left weights, at (a, k, q), is the stack at (1, k, q). -/
theorem ld_wls0_1 (x : Vec Ideal S2x128x128 .f32) (a : Fin 1) (k : Fin 128) (q : Fin 128) :
    View.ld x r10_3 (ix3 a k q) = x (ix3 (1 : Fin 2) k q) := by
  show x _ = x _
  congr 1
  funext ax; apply Fin.ext
  match ax with
  | ⟨0, _⟩ => show 1 + 1 * a.val = 1; omega
  | ⟨1, _⟩ => show 0 + 1 * k.val = k.val; omega
  | ⟨2, _⟩ => show 0 + 1 * q.val = q.val; omega

/-! ## The body's stored block at an entry -/

/-- What the body leaves in the output buffer, at (p, q), from the five input blocks: the update's formula on the blocks. -/
theorem out10_apply (x0 : Vec Ideal S2x2000x128 .f32) (x1 : Vec Ideal S2x128x128 .f32) (x2 : Vec Ideal S2000x128 .f32)
    (x3 : Vec Ideal S128x128 .f32) (x4 : Vec Ideal S128 .f32) (p : Fin 2000) (q : Fin 128) :
    out10_5 x0 x1 x2 x3 x4 (ix2 p q)
      = max ((((∑ k : Fin 128, x0 (ix3 (0 : Fin 2) p k) * x1 (ix3 (0 : Fin 2) k q))
          + ∑ k : Fin 128, x0 (ix3 (1 : Fin 2) p k) * x1 (ix3 (1 : Fin 2) k q))
          + ∑ k : Fin 128, x2 (ix2 p k) * x3 (ix2 k q))
          + x4 (ix1 q)) 0 := by
  unfold out10_5
  rw [View.canon_unit_zero zero2]
  rw [pay0_apply]
  refine congrArg (fun z => max z 0) ?_
  refine congrArg₂ (· + ·) (congrArg₂ (· + ·) (congrArg₂ (· + ·) ?_ ?_) ?_) ?_
  · exact Finset.sum_congr rfl fun k _ => congrArg₂ (· * ·) (ld_means0_0 x0 0 p k) (ld_wls0_0 x1 0 k q)
  · exact Finset.sum_congr rfl fun k _ => congrArg₂ (· * ·) (ld_means0_1 x0 0 p k) (ld_wls0_1 x1 0 k q)
  · exact Finset.sum_congr rfl fun k _ => congrArg₂ (· * ·)
      (congrFun (View.ld_unit_zero (S := S2000x128) zero2 _ x2) (ix2 p k))
      (congrFun (View.ld_unit_zero (S := S128x128) zero2 _ x3) (ix2 k q))
  · exact congrFun (View.ld_unit_zero (S := S128) zero1 _ x4) (ix1 q)

/-! ## The index maps over the grid -/

/-- Decided over the 50 points: the means' and the features' blocks move with the output's along the rows, every other
    block index is zero, and the output's row-block index is the point's number. -/
theorem idx_facts0 : ∀ t : Fin cfg10.N,
    win10_0.index t (0 : Fin 3) = 0 ∧ win10_0.index t (1 : Fin 3) = win10_5.index t (0 : Fin 2) ∧ win10_0.index t (2 : Fin 3) = 0
    ∧ win10_1.index t (0 : Fin 3) = 0 ∧ win10_1.index t (1 : Fin 3) = 0 ∧ win10_1.index t (2 : Fin 3) = 0
    ∧ win10_2.index t (0 : Fin 2) = win10_5.index t (0 : Fin 2) ∧ win10_2.index t (1 : Fin 2) = 0
    ∧ win10_3.index t (0 : Fin 2) = 0 ∧ win10_3.index t (1 : Fin 2) = 0
    ∧ win10_4.index t (0 : Fin 1) = 0
    ∧ win10_5.index t (0 : Fin 2) = t.val ∧ win10_5.index t (1 : Fin 2) = 0 :=
  (by decide +kernel : ∀ t : Fin grid10.N, _)

/-! ## Each window's block read where the index maps say -/

/-- The means' block at point t, at (a, p, k), is the array at (a, r, k) for the row r the output's block puts p at. -/
theorem rd0_0 (c : Dev nD) (t : Fin cfg10.N) (a : Fin 2) (p : Fin 2000) (k : Fin 128) (r : Fin 100000)
    (hr : r.val = win10_5.index t (0 : Fin 2) * 2000 + p.val) :
    (iblk10 V c 0 t : Vec Ideal S2x2000x128 .f32) (ix3 a p k) = meansArr0 V c (ix3 a r k) := by
  show meansArr0 V c (((cfg10.win 0).blk t).view.emb (ix3 a p k)) = _
  refine congrArg (meansArr0 V c) ?_
  obtain ⟨e0, e1, e2, -⟩ := idx_facts0 t
  funext ax; apply Fin.ext
  match ax with
  | ⟨0, _⟩ => show win10_0.index t (0 : Fin 3) * 2 + 1 * a.val = a.val; omega
  | ⟨1, _⟩ => show win10_0.index t (1 : Fin 3) * 2000 + 1 * p.val = r.val; omega
  | ⟨2, _⟩ => show win10_0.index t (2 : Fin 3) * 128 + 1 * k.val = k.val; omega

/-- The left weights' block is the whole stack at every point. -/
theorem rd0_1 (c : Dev nD) (t : Fin cfg10.N) (a : Fin 2) (k : Fin 128) (q : Fin 128) :
    (iblk10 V c 1 t : Vec Ideal S2x128x128 .f32) (ix3 a k q) = wlsArr0 V c (ix3 a k q) := by
  show wlsArr0 V c (((cfg10.win 1).blk t).view.emb (ix3 a k q)) = _
  refine congrArg (wlsArr0 V c) ?_
  obtain ⟨-, -, -, e0, e1, e2, -⟩ := idx_facts0 t
  funext ax; apply Fin.ext
  match ax with
  | ⟨0, _⟩ => show win10_1.index t (0 : Fin 3) * 2 + 1 * a.val = a.val; omega
  | ⟨1, _⟩ => show win10_1.index t (1 : Fin 3) * 128 + 1 * k.val = k.val; omega
  | ⟨2, _⟩ => show win10_1.index t (2 : Fin 3) * 128 + 1 * q.val = q.val; omega

/-- The features' block at point t, at (p, k), is the array at (r, k). -/
theorem rd0_2 (c : Dev nD) (t : Fin cfg10.N) (p : Fin 2000) (k : Fin 128) (r : Fin 100000)
    (hr : r.val = win10_5.index t (0 : Fin 2) * 2000 + p.val) :
    (iblk10 V c 2 t : Vec Ideal S2000x128 .f32) (ix2 p k) = xdArr0 V c (ix2 r k) := by
  show xdArr0 V c (((cfg10.win 2).blk t).view.emb (ix2 p k)) = _
  refine congrArg (xdArr0 V c) ?_
  obtain ⟨-, -, -, -, -, -, e0, e1, -⟩ := idx_facts0 t
  funext ax; apply Fin.ext
  match ax with
  | ⟨0, _⟩ => show win10_2.index t (0 : Fin 2) * 2000 + 1 * p.val = r.val; omega
  | ⟨1, _⟩ => show win10_2.index t (1 : Fin 2) * 128 + 1 * k.val = k.val; omega

/-- The right weight's block is the whole matrix at every point. -/
theorem rd0_3 (c : Dev nD) (t : Fin cfg10.N) (k : Fin 128) (q : Fin 128) :
    (iblk10 V c 3 t : Vec Ideal S128x128 .f32) (ix2 k q) = wrArr0 V c (ix2 k q) := by
  show wrArr0 V c (((cfg10.win 3).blk t).view.emb (ix2 k q)) = _
  refine congrArg (wrArr0 V c) ?_
  obtain ⟨-, -, -, -, -, -, -, -, e0, e1, -⟩ := idx_facts0 t
  funext ax; apply Fin.ext
  match ax with
  | ⟨0, _⟩ => show win10_3.index t (0 : Fin 2) * 128 + 1 * k.val = k.val; omega
  | ⟨1, _⟩ => show win10_3.index t (1 : Fin 2) * 128 + 1 * q.val = q.val; omega

/-- The bias's block is the whole vector at every point. -/
theorem rd0_4 (c : Dev nD) (t : Fin cfg10.N) (q : Fin 128) :
    (iblk10 V c 4 t : Vec Ideal S128 .f32) (ix1 q) = bArr0 V c (ix1 q) := by
  show bArr0 V c (((cfg10.win 4).blk t).view.emb (ix1 q)) = _
  refine congrArg (bArr0 V c) ?_
  obtain ⟨-, -, -, -, -, -, -, -, -, -, e0, -⟩ := idx_facts0 t
  funext ax; apply Fin.ext
  match ax with
  | ⟨0, _⟩ => show win10_4.index t (0 : Fin 1) * 128 + 1 * q.val = q.val; omega

/-- A whole [100000,128] array read through the output's block at point t, at (p, q), is the array at (r, q). -/
theorem rd0_5 (G : S100000x128.Idx → EReal) (t : Fin cfg10.N) (p : Fin 2000) (q : Fin 128) (r : Fin 100000)
    (hr : r.val = win10_5.index t (0 : Fin 2) * 2000 + p.val) :
    (((cfg10.win 5).blk t).view.read (Elt Ideal) G : Vec Ideal S2000x128 .f32) (ix2 p q) = G (ix2 r q) := by
  show G (((cfg10.win 5).blk t).view.emb (ix2 p q)) = _
  refine congrArg G ?_
  obtain ⟨-, -, -, -, -, -, -, -, -, -, -, e0, e1⟩ := idx_facts0 t
  funext ax; apply Fin.ext
  match ax with
  | ⟨0, _⟩ => show win10_5.index t (0 : Fin 2) * 2000 + 1 * p.val = r.val; omega
  | ⟨1, _⟩ => show win10_5.index t (1 : Fin 2) * 128 + 1 * q.val = q.val; omega

/-! ## What a point writes back -/

/-- WHAT POINT t WRITES BACK is block t of the whole-array update. -/
theorem flushed0_eq (c : Dev nD) (t : Fin cfg10.N) :
    (dat10 (F := Ideal) V c).flushed 5 t = ((cfg10.win 5).blk t).view.read (Elt Ideal) (upd0 V c) := by
  show (cfg10.win 5).cut (grid10.coords t) ((dat10 (F := Ideal) V c).after 5 t) = _
  rw [after10_5]
  funext j
  obtain ⟨p, q, rfl⟩ : ∃ (p : Fin 2000) (q : Fin 128), j = ix2 p q := ⟨j 0, j 1, eq_ix2 j⟩
  have hlt : win10_5.index t (0 : Fin 2) * 2000 + p.val < 100000 := by
    have e := (idx_facts0 t).2.2.2.2.2.2.2.2.2.2.2.1
    have ht : t.val < 50 := Nat.lt_of_lt_of_eq t.isLt N_10
    omega
  refine (out10_apply (iblk10 V c 0 t) (iblk10 V c 1 t) (iblk10 V c 2 t) (iblk10 V c 3 t) (iblk10 V c 4 t) p q).trans ?_
  refine Eq.trans ?_ (rd0_5 (upd0 V c) t p q ⟨_, hlt⟩ rfl).symm
  show _ = max ((((∑ k : Fin 128, meansArr0 V c (ix3 (0 : Fin 2) ⟨_, hlt⟩ k) * wlsArr0 V c (ix3 (0 : Fin 2) k q))
      + ∑ k : Fin 128, meansArr0 V c (ix3 (1 : Fin 2) ⟨_, hlt⟩ k) * wlsArr0 V c (ix3 (1 : Fin 2) k q))
      + ∑ k : Fin 128, xdArr0 V c (ix2 ⟨_, hlt⟩ k) * wrArr0 V c (ix2 k q))
      + bArr0 V c (ix1 q)) 0
  simp only [rd0_0 V c t _ p _ ⟨_, hlt⟩ rfl, rd0_1 V c t, rd0_2 V c t p _ ⟨_, hlt⟩ rfl, rd0_3 V c t, rd0_4 V c t]

/-! ## The blocks written back tile the array -/

/-- An index of the array is in point t's block iff each coordinate is in the block's range on its axis. -/
theorem mem_blk0 (t : Fin cfg10.N) (i : S100000x128.Idx) :
    i ∈ ((cfg10.win 5).blk t).view.set ↔ ∀ a : Fin 2, win10_5.index t a * S2000x128.size a ≤ (i a).val ∧ (i a).val < win10_5.index t a * S2000x128.size a + S2000x128.size a := by
  show i ∈ ((View.whole main_v454).slice (win10_5.rect t)).set ↔ _
  rw [View.set_slice_whole, Rect.mem_set_unit]
  exact Iff.rfl

/-- Row r is in the block of point r / 2000, which writes back. -/
theorem cover0 (i : S100000x128.Idx) : ∃ t : Fin cfg10.N, (cfg10.win 5).flush t = true ∧ i ∈ ((cfg10.win 5).blk t).view.set := by
  have hi0 : (i 0).val < 100000 := (i 0).isLt
  have hi1 : (i 1).val < 128 := (i 1).isLt
  have hlt : (i 0).val / 2000 < cfg10.N := by rw [show cfg10.N = 50 from N_10]; omega
  refine ⟨⟨(i 0).val / 2000, hlt⟩, flush10_5 _, ?_⟩
  rw [mem_blk0]
  obtain ⟨-, -, -, -, -, -, -, -, -, -, -, e0, e1⟩ := idx_facts0 ⟨(i 0).val / 2000, hlt⟩
  have e0' : win10_5.index ⟨(i 0).val / 2000, hlt⟩ (0 : Fin 2) = (i 0).val / 2000 := e0
  intro a
  match a with
  | ⟨0, _⟩ => show win10_5.index ⟨(i 0).val / 2000, hlt⟩ (0 : Fin 2) * 2000 ≤ (i 0).val ∧ (i 0).val < win10_5.index ⟨(i 0).val / 2000, hlt⟩ (0 : Fin 2) * 2000 + 2000; omega
  | ⟨1, _⟩ => show win10_5.index ⟨(i 0).val / 2000, hlt⟩ (1 : Fin 2) * 128 ≤ (i 1).val ∧ (i 1).val < win10_5.index ⟨(i 0).val / 2000, hlt⟩ (1 : Fin 2) * 128 + 128; omega

/-! ## The array after the run -/

/-- THE OUTPUT ARRAY after the grid has run is the whole-array update of the arrays the region's windows read. -/
theorem arr (V : (c : Dev nD) → (b : Ref sig .tc) → Buf (Elt Ideal) ((c : Thread nD τ).loc b)) (c : Dev nD) :
    (dat10 (F := Ideal) V c).arrAt 5 cfg10.N
      = Cert.IdxSpec.sage2 100000 (V c main_v450) (V c main_v453) (V c main_v339) (V c main_v442) (V c main_v447) :=
  (dat10 (F := Ideal) V c).arrAt_eq_of_cover 5 (upd0 V c) (fun t _ => flushed0_eq V c t) cover0

end Cert.KernelIdeal.RegVal10

end
-- ==== Proof.Reg8Pay.lean ====
/-
  Region 1's arithmetic at one entry, on extended reals.

  The body stores one 2000 × 128 block. Its entry at row p and column q is
      max( Σ_k mean[0,p,k]·Wl[0,k,q] + Σ_k x[p,k]·Wr[k,q] + b[q], 0 ),
  where mean is the block of neighbour means (one relation, carried on a leading unit axis), Wl the stacked left weight,
  x the block of the node's own features, Wr the right weight and b the bias. The casts to the narrow format are the
  identity on exact values; each matrix product into a zero accumulator is the sum over its one contracted coordinate;
  dropping or adding a unit axis keeps the row-major position; the bias row is repeated down the rows.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal8

open Idealize.ShloMosaic Idealize.ShloMosaic.ValueIdx Cert.KernelIdeal Cert.KernelIdeal.Gen

/-! ## The matrix product's operand indices, axis by axis -/

/-- The left operand's row is the output's row. -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contracted coordinate. -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contracted coordinate. -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product at an entry -/

/-- A 2000 × 128 by 128 × 128 product into the zero accumulator, at entry (p, q): the sum over the 128 contracted
    coordinates of the products of the two operands' entries. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The stored block at an entry -/

/-- Entry (p, q) of the block the body stores: the two sums, the bias, the clamp at zero. -/
theorem pay_at (x0 : Vec Ideal S1x2000x128 .f32) (x1 : Vec Ideal S1x128x128 .f32) (x2 : Vec Ideal S2000x128 .f32)
    (x3 : Vec Ideal S128x128 .f32) (x4 : Vec Ideal S128 .f32) (p : Fin 2000) (q : Fin 128) :
    k8_pay1 (F := Ideal) x0 x1 x2 x3 x4 (ix2 p q)
      = max (((∑ k : Fin 128, x0 (ix3 (0 : Fin 1) p k) * x1 (ix3 (0 : Fin 1) k q))
          + ∑ k : Fin 128, x2 (ix2 p k) * x3 (ix2 k q))
          + x4 (ix1 q)) 0 := by
  unfold k8_pay1
  rw [maximumf_apply, broadcast_apply, addf_apply, addf_apply, matmul_at, matmul_at,
    broadcastTo_1b_ab_apply, shapeCast_a_1a_apply, shapeCast_self]
  simp only [truncf_apply, shapeCast_1ab_ab_apply, shapeCast_self]
  show max _ (Ideal.ofBits .f32 0x00000000#32) = _
  rw [Ideal.ofBits_zero_f32]

end Cert.KernelIdeal.RegVal8

end
-- ==== Proof.Reg8.lean ====
/-
  Region 1's value: what its output array holds after the grid has run, as one function of the arrays it reads, on
  extended reals.

  The region updates a node type with one incoming relation, 40000 rows in 20 blocks of 2000. Point t of the grid reads
  rows 2000·t … 2000·t + 1999 of the neighbour means and of the node's own features, the two weight matrices and the bias
  whole, and writes back rows 2000·t … 2000·t + 1999 of
      max( Σ_k mean[0,r,k]·Wl[0,k,q] + Σ_k x[r,k]·Wr[k,q] + b[q], 0 ).
  An entry of the written block depends only on its own row of the means and features, so each point writes exactly its
  block of that one whole-array function; the 20 blocks tile the rows (row r lies in block r / 2000), so the array ends
  holding the function everywhere.
-/
import proofs.«165177_j32074815766916_1_alg».proof.Proof.FIL8
import proofs.«165177_j32074815766916_1_alg».proof.Proof.IdxSpec
import proofs.«165177_j32074815766916_1_alg».proof.Proof.Reg8Pay
import Idealize.ShloMosaic.Lib.Pipeline.Value
import Idealize.ShloMosaic.Lib.ValueIdx

set_option maxRecDepth 16384

noncomputable section

namespace Cert.KernelIdeal.RegVal8

open Idealize.ShloMosaic Idealize.ShloMosaic.TcCoe Idealize.ShloMosaic.ValueIdx Cert.KernelIdeal Cert.KernelIdeal.Gen Cert.KernelIdeal.GenP
open Idealize.ShloMosaic.Pipeline (Dat)

/-! ## The arrays the region reads, by their literal types -/

variable (V : (c : Dev nD) → (b : Ref sig .tc) → Buf (Elt Ideal) ((c : Thread nD τ).loc b))

/-- The stacked neighbour means (one relation), 40000 rows. -/
noncomputable abbrev meansArr (c : Dev nD) : Vec Ideal S1x40000x128 .f32 := V c main_v346
/-- The stacked left weight. -/
noncomputable abbrev wlsArr (c : Dev nD) : Vec Ideal S1x128x128 .f32 := V c main_v347
/-- The node type's own features, 40000 rows. -/
noncomputable abbrev xdArr (c : Dev nD) : Vec Ideal S40000x128 .f32 := V c main_v226
/-- The right weight. -/
noncomputable abbrev wrArr (c : Dev nD) : Vec Ideal S128x128 .f32 := V c main_v343
/-- The bias. -/
noncomputable abbrev biasArr (c : Dev nD) : Vec Ideal S128 .f32 := V c main_v345

/-- What the region's output array ends holding: the one-relation update of all 40000 rows. -/
noncomputable abbrev updArr (c : Dev nD) : Vec Ideal S40000x128 .f32 :=
  Cert.IdxSpec.sage1 40000 (meansArr V c) (wlsArr V c) (xdArr V c) (wrArr V c) (biasArr V c)

/-- The update at row r, column q, with the coordinates named. -/
theorem updArr_at (c : Dev nD) (i : S40000x128.Idx) (r : Fin 40000) (q : Fin 128) (hi : i = ix2 r q) :
    updArr V c i
      = max (((∑ k : Fin 128, meansArr V c (ix3 (0 : Fin 1) r k) * wlsArr V c (ix3 (0 : Fin 1) k q))
          + ∑ k : Fin 128, xdArr V c (ix2 r k) * wrArr V c (ix2 k q))
          + biasArr V c (ix1 q)) 0 := by
  subst hi; rfl

/-! ## The index maps over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid's points: the means' and the features' blocks move down the rows with
    the output's block; the two weights and the bias are taken whole at every point; the output's block index is the
    point's number. -/
theorem idx_facts : ∀ t : Fin cfg8.N,
    win8_0.index t (0 : Fin 3) = 0 ∧ win8_0.index t (1 : Fin 3) = win8_5.index t (0 : Fin 2) ∧ win8_0.index t (2 : Fin 3) = 0
    ∧ win8_1.index t (0 : Fin 3) = 0 ∧ win8_1.index t (1 : Fin 3) = 0 ∧ win8_1.index t (2 : Fin 3) = 0
    ∧ win8_2.index t (0 : Fin 2) = win8_5.index t (0 : Fin 2) ∧ win8_2.index t (1 : Fin 2) = 0
    ∧ win8_3.index t (0 : Fin 2) = 0 ∧ win8_3.index t (1 : Fin 2) = 0
    ∧ win8_4.index t (0 : Fin 1) = 0
    ∧ win8_5.index t (0 : Fin 2) = t.val ∧ win8_5.index t (1 : Fin 2) = 0 :=
  (by decide +kernel : ∀ t : Fin grid8.N, _)

/-! ## Each input window's block, read off its array -/

/-- The means' block at point t is rows 2000·b … 2000·b + 1999 of the means, b the output's block index at t. -/
theorem means_blk (c : Dev nD) (t : Fin cfg8.N) (y : S1x2000x128.Idx) (i : S1x40000x128.Idx)
    (h0 : (i 0).val = (y 0).val) (h1 : (i 1).val = win8_5.index t (0 : Fin 2) * 2000 + (y 1).val) (h2 : (i 2).val = (y 2).val) :
    (iblk8 V c 0 t : Vec Ideal S1x2000x128 .f32) y = meansArr V c i := by
  obtain ⟨e0, e1, e2, -⟩ := idx_facts t
  unfold iblk8
  rw [View.read_apply]
  show V c main_v346 _ = V c main_v346 _
  congr 1
  funext a
  apply Fin.ext
  match a with
  | ⟨0, _⟩ => show win8_0.index t (0 : Fin 3) * 1 + 1 * (y 0).val = (i 0).val; rw [e0, h0]; omega
  | ⟨1, _⟩ => show win8_0.index t (1 : Fin 3) * 2000 + 1 * (y 1).val = (i 1).val; rw [e1, h1]; omega
  | ⟨2, _⟩ => show win8_0.index t (2 : Fin 3) * 128 + 1 * (y 2).val = (i 2).val; rw [e2, h2]; omega

/-- The features' block at point t is the same rows of the features. -/
theorem xd_blk (c : Dev nD) (t : Fin cfg8.N) (y : S2000x128.Idx) (i : S40000x128.Idx)
    (h0 : (i 0).val = win8_5.index t (0 : Fin 2) * 2000 + (y 0).val) (h1 : (i 1).val = (y 1).val) :
    (iblk8 V c 2 t : Vec Ideal S2000x128 .f32) y = xdArr V c i := by
  obtain ⟨-, -, -, -, -, -, e0, e1, -⟩ := idx_facts t
  unfold iblk8
  rw [View.read_apply]
  show V c main_v226 _ = V c main_v226 _
  congr 1
  funext a
  apply Fin.ext
  match a with
  | ⟨0, _⟩ => show win8_2.index t (0 : Fin 2) * 2000 + 1 * (y 0).val = (i 0).val; rw [e0, h0]; omega
  | ⟨1, _⟩ => show win8_2.index t (1 : Fin 2) * 128 + 1 * (y 1).val = (i 1).val; rw [e1, h1]; omega

/-- The left weight's window takes the whole array at every point. -/
theorem wls_blk (c : Dev nD) (t : Fin cfg8.N) : (iblk8 V c 1 t : Vec Ideal S1x128x128 .f32) = wlsArr V c := by
  obtain ⟨-, -, -, e0, e1, e2, -⟩ := idx_facts t
  funext y
  unfold iblk8
  rw [View.read_apply]
  show V c main_v347 _ = V c main_v347 _
  congr 1
  funext a
  apply Fin.ext
  match a with
  | ⟨0, _⟩ => show win8_1.index t (0 : Fin 3) * 1 + 1 * (y 0).val = (y 0).val; rw [e0]; omega
  | ⟨1, _⟩ => show win8_1.index t (1 : Fin 3) * 128 + 1 * (y 1).val = (y 1).val; rw [e1]; omega
  | ⟨2, _⟩ => show win8_1.index t (2 : Fin 3) * 128 + 1 * (y 2).val = (y 2).val; rw [e2]; omega

/-- The right weight's window takes the whole array at every point. -/
theorem wr_blk (c : Dev nD) (t : Fin cfg8.N) : (iblk8 V c 3 t : Vec Ideal S128x128 .f32) = wrArr V c := by
  obtain ⟨-, -, -, -, -, -, -, -, e0, e1, -⟩ := idx_facts t
  funext y
  unfold iblk8
  rw [View.read_apply]
  show V c main_v343 _ = V c main_v343 _
  congr 1
  funext a
  apply Fin.ext
  match a with
  | ⟨0, _⟩ => show win8_3.index t (0 : Fin 2) * 128 + 1 * (y 0).val = (y 0).val; rw [e0]; omega
  | ⟨1, _⟩ => show win8_3.index t (1 : Fin 2) * 128 + 1 * (y 1).val = (y 1).val; rw [e1]; omega

/-- The bias's window takes the whole array at every point. -/
theorem bias_blk (c : Dev nD) (t : Fin cfg8.N) : (iblk8 V c 4 t : Vec Ideal S128 .f32) = biasArr V c := by
  obtain ⟨-, -, -, -, -, -, -, -, -, -, e0, -⟩ := idx_facts t
  funext y
  unfold iblk8
  rw [View.read_apply]
  show V c main_v345 _ = V c main_v345 _
  congr 1
  funext a
  apply Fin.ext
  match a with
  | ⟨0, _⟩ => show win8_4.index t (0 : Fin 1) * 128 + 1 * (y 0).val = (y 0).val; rw [e0]; omega

/-! ## What one point writes back -/

/-- The body's stored block from the five input blocks, without the load and store rectangles (each is the whole
    staging buffer). -/
theorem out_eq (x0 : Vec Ideal S1x2000x128 .f32) (x1 : Vec Ideal S1x128x128 .f32) (x2 : Vec Ideal S2000x128 .f32)
    (x3 : Vec Ideal S128x128 .f32) (x4 : Vec Ideal S128 .f32) :
    out8_5 (F := Ideal) x0 x1 x2 x3 x4 = k8_pay1 (F := Ideal) x0 x1 x2 x3 x4 := by
  unfold out8_5
  rw [View.canon_unit_zero hz2]
  simp only [View.ld_unit_zero (S := S1x2000x128) hz3, View.ld_unit_zero (S := S1x128x128) hz3,
    View.ld_unit_zero (S := S2000x128) hz2, View.ld_unit_zero (S := S128x128) hz2, View.ld_unit_zero (S := S128) hz1]

/-- The output block's entry (p, q) at point t sits at row 2000·b + p, column q of the array, b the block index. -/
theorem out_emb (t : Fin cfg8.N) (p : Fin 2000) (q : Fin 128) (r : Fin 40000)
    (hr : r.val = win8_5.index t (0 : Fin 2) * 2000 + p.val) :
    ((cfg8.win 5).blk t).view.emb (ix2 p q) = (ix2 r q : S40000x128.Idx) := by
  obtain ⟨-, -, -, -, -, -, -, -, -, -, -, -, e1⟩ := idx_facts t
  funext a
  apply Fin.ext
  match a with
  | ⟨0, _⟩ => show win8_5.index t (0 : Fin 2) * 2000 + 1 * p.val = r.val; rw [hr]; omega
  | ⟨1, _⟩ => show win8_5.index t (1 : Fin 2) * 128 + 1 * q.val = q.val; rw [e1]; omega

/-- What point t writes back is block t of the update of all rows: entry (p, q) of the stored block is the update at
    row 2000·b + p, column q, b the output's block index at t — each sum termwise, the means' and the features' blocks
    read at those rows. -/
theorem flushed_eq (c : Dev nD) (t : Fin cfg8.N) :
    (dat8 (F := Ideal) V c).flushed 5 t = ((cfg8.win 5).blk t).view.read (Elt Ideal) (updArr V c) := by
  show (cfg8.win 5).cut (grid8.coords t) ((dat8 V c).after 5 t) = _
  rw [after8_5, out_eq, wls_blk, wr_blk, bias_blk]
  funext j
  obtain ⟨p, q, rfl⟩ : ∃ (p : Fin 2000) (q : Fin 128), j = ix2 p q := ⟨j 0, j 1, eq_ix2 j⟩
  obtain ⟨-, -, -, -, -, -, -, -, -, -, -, e0, -⟩ := idx_facts t
  have hN : cfg8.N = 20 := N_8
  have ht : t.val < 20 := hN ▸ t.isLt
  obtain ⟨r, hr⟩ : ∃ r : Fin 40000, r.val = win8_5.index t (0 : Fin 2) * 2000 + p.val :=
    ⟨⟨win8_5.index t (0 : Fin 2) * 2000 + p.val, by rw [e0]; have := p.isLt; omega⟩, rfl⟩
  rw [View.read_apply]
  show k8_pay1 (F := Ideal) (iblk8 V c 0 t) (wlsArr V c) (iblk8 V c 2 t) (wrArr V c) (biasArr V c) (ix2 p q)
    = updArr V c (((cfg8.win 5).blk t).view.emb (ix2 p q))
  rw [out_emb t p q r hr, updArr_at V c _ r q rfl]
  refine (pay_at _ _ _ _ _ p q).trans ?_
  refine congrArg₂ max (congrArg₂ (· + ·) (congrArg₂ (· + ·) (Finset.sum_congr rfl fun k _ => ?_) (Finset.sum_congr rfl fun k _ => ?_)) rfl) rfl
  · exact congrArg (· * _) (means_blk V c t (ix3 (0 : Fin 1) p k) (ix3 (0 : Fin 1) r k) rfl hr rfl)
  · exact congrArg (· * _) (xd_blk V c t (ix2 p k) (ix2 r k) hr rfl)

/-! ## The blocks cover the array -/

/-- An index of the array is in point t's block iff each coordinate is in the block's range on its axis. -/
theorem mem_blk (t : Fin cfg8.N) (i : S40000x128.Idx) :
    i ∈ ((cfg8.win 5).blk t).view.set ↔ ∀ a : Fin 2, win8_5.index t a * S2000x128.size a ≤ (i a).val ∧ (i a).val < win8_5.index t a * S2000x128.size a + S2000x128.size a := by
  show i ∈ ((View.whole main_v348).slice (win8_5.rect t)).set ↔ _
  rw [View.set_slice_whole, Rect.mem_set_unit]
  exact Iff.rfl

/-- Row r of the array is written by the point numbered r / 2000 (and every point writes its block back). -/
theorem cover (i : S40000x128.Idx) :
    ∃ t : Fin cfg8.N, (cfg8.win 5).flush t = true ∧ i ∈ ((cfg8.win 5).blk t).view.set := by
  have hi0 : (i 0).val < 40000 := (i 0).isLt
  have hi1 : (i 1).val < 128 := (i 1).isLt
  have hN : cfg8.N = 20 := N_8
  obtain ⟨t, ht⟩ : ∃ t : Fin cfg8.N, t.val = (i 0).val / 2000 := ⟨⟨(i 0).val / 2000, by rw [hN]; omega⟩, rfl⟩
  obtain ⟨-, -, -, -, -, -, -, -, -, -, -, e0, e1⟩ := idx_facts t
  refine ⟨t, flush8_5 t, ?_⟩
  rw [mem_blk]
  intro a
  match a with
  | ⟨0, _⟩ =>
    show win8_5.index t (0 : Fin 2) * 2000 ≤ (i 0).val ∧ (i 0).val < win8_5.index t (0 : Fin 2) * 2000 + 2000
    rw [e0, ht]; omega
  | ⟨1, _⟩ =>
    show win8_5.index t (1 : Fin 2) * 128 ≤ (i 1).val ∧ (i 1).val < win8_5.index t (1 : Fin 2) * 128 + 128
    rw [e1]; omega

/-! ## The array after the run -/

/-- THE REGION'S VALUE: after the grid has run, the output array holds the one-relation update of all 40000 rows — every
    point writes its block of it, and the blocks cover the array. -/
theorem arr (c : Dev nD) :
    (dat8 (F := Ideal) V c).arrAt 5 cfg8.N
      = Cert.IdxSpec.sage1 40000 (V c main_v346) (V c main_v347) (V c main_v226) (V c main_v343) (V c main_v345) :=
  (dat8 V c).arrAt_eq_of_cover 5 (updArr V c) (fun t _ => flushed_eq V c t) cover

end Cert.KernelIdeal.RegVal8

end
-- ==== Proof.Reg7Pay.lean ====
/-
  One row block of a two-relation dense update, read entry by entry on extended reals.

  The block's result at (p, q) is max(Σ_k a₀[0,p,k]·w₀[0,k,q] + Σ_k a₁[0,p,k]·w₁[0,k,q] + Σ_k x[p,k]·r[k,q] + b[q], 0):
  the leading unit axes of the two neighbour-mean slabs and of the two left-weight slabs are dropped, the narrowing
  format changes are the identity on extended reals, each matrix product into a zero accumulator is its plain sum over
  the 128 feature columns (the contraction index re-indexed by its one coordinate), the bias row is copied down the
  rows, and the clamp is against the zero word.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegVal7

open Idealize.ShloMosaic Idealize.ShloMosaic.ValueIdx Cert.KernelIdeal Cert.KernelIdeal.Gen
open scoped BigOperators

/-! ## The product's operand indices: rows × contraction, contraction × columns -/

/-- The left operand's row is the output's row. -/
theorem lhs_mm0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contraction's one coordinate. -/
theorem lhs_mm0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contraction's one coordinate. -/
theorem rhs_mm0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product into a zero accumulator, at an entry -/

/-- A [2000,128] × [128,128] product into the zero splat reads, at (p, q), Σ_k x[p,k]·w[k,q]. -/
theorem mm0_apply {φ₁ φ₂ : FTy} (x : FVec Ideal S2000x128 φ₁) (w : FVec Ideal S128x128 φ₂) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm0_0 _ _
      | ⟨1, _⟩ => exact (lhs_mm0_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm0_0 _ _).trans hk
      | ⟨1, _⟩ => exact rhs_mm0_1 _ _)
  rw [el, er]

/-! ## The payload at an entry -/

/-- The block the body stores, at (p, q): the three sums over the feature columns, plus the bias entry, clamped at zero. -/
theorem pay0_apply (v0 v3 : Vec Ideal S1x2000x128 .f32) (v6 v9 : Vec Ideal S1x128x128 .f32) (v12 : Vec Ideal S2000x128 .f32)
    (v14 : Vec Ideal S128x128 .f32) (v22 : Vec Ideal S128 .f32) (p : Fin 2000) (q : Fin 128) :
    k7_pay1 (F := Ideal) v0 v3 v6 v9 v12 v14 v22 (ix2 p q)
      = max ((((∑ k : Fin 128, v0 (ix3 (0 : Fin 1) p k) * v6 (ix3 (0 : Fin 1) k q))
          + ∑ k : Fin 128, v3 (ix3 (0 : Fin 1) p k) * v9 (ix3 (0 : Fin 1) k q))
          + ∑ k : Fin 128, v12 (ix2 p k) * v14 (ix2 k q))
          + v22 (ix1 q)) 0 := by
  unfold k7_pay1
  simp only [maximumf_apply, addf_apply, broadcast_apply, mm0_apply, truncf_apply, shapeCast_1ab_ab_apply, shapeCast_self,
    broadcastTo_1b_ab_apply, shapeCast_a_1a_apply]
  exact congrArg (max _) Ideal.ofBits_zero_f32

end Cert.KernelIdeal.RegVal7

end
-- ==== Proof.Reg7.lean ====
/-
  What one grid-tiled two-relation dense update leaves in its output array, as one function of the arrays it reads.

  The grid has 50 points; point t handles rows 2000·t … 2000·t + 1999. At point t the two neighbour-mean slabs and the
  node's own features are read through blocks of 2000 rows starting at row 2000·t, while the two stacked left weights,
  the right weight and the bias are read whole at every point. The body's stored block at (p, q) is therefore the whole-array
  update at (2000·t + p, q): the same three sums over the 128 feature columns, the same bias entry, the same clamp at
  zero. Every row r lies in the block of point r / 2000, so the blocks written back tile the array and the array ends
  holding the update everywhere.
-/
import proofs.«165177_j32074815766916_1_alg».proof.Proof.FIL7
import proofs.«165177_j32074815766916_1_alg».proof.Proof.IdxSpec
import proofs.«165177_j32074815766916_1_alg».proof.Proof.Reg7Pay
import Idealize.ShloMosaic.Lib.ValueIdx
import Idealize.ShloMosaic.Lib.Pipeline.Value

set_option maxRecDepth 16384

noncomputable section

namespace Cert.KernelIdeal.RegVal7

open Idealize.ShloMosaic Idealize.ShloMosaic.ValueIdx Idealize.ShloMosaic.TcCoe Cert.KernelIdeal Cert.KernelIdeal.Gen Cert.KernelIdeal.GenP
open Idealize.ShloMosaic.Pipeline (Dat)
open scoped BigOperators

variable (V : (c : Dev nD) → (b : Ref sig .tc) → Buf (Elt Ideal) ((c : Thread nD τ).loc b))

/-! ## The arrays the region reads, each at its literal shape -/

/-- The two neighbour-mean slabs, stacked: [2, 100000, 128]. -/
abbrev meansArr0 (c : Dev nD) : S2x100000x128.Idx → EReal := V c main_v335
/-- The two left weights, stacked: [2, 128, 128]. -/
abbrev wlsArr0 (c : Dev nD) : S2x128x128.Idx → EReal := V c main_v338
/-- The node type's own features: [100000, 128]. -/
abbrev xdArr0 (c : Dev nD) : S100000x128.Idx → EReal := V c main_v217
/-- The right weight: [128, 128]. -/
abbrev wrArr0 (c : Dev nD) : S128x128.Idx → EReal := V c main_v327
/-- The bias: [128]. -/
abbrev bArr0 (c : Dev nD) : S128.Idx → EReal := V c main_v332

/-- The whole-array update of those arrays. -/
abbrev upd0 (c : Dev nD) : S100000x128.Idx → EReal :=
  Cert.IdxSpec.sage2 100000 (meansArr0 V c) (wlsArr0 V c) (xdArr0 V c) (wrArr0 V c) (bArr0 V c)

/-! ## The body's loads: a slab of a stacked block, or a whole block -/

theorem zero2 : (![0, 0] : Fin 2 → Nat) = fun _ => 0 := funext fun a => by fin_cases a <;> rfl
theorem zero1 : (![0] : Fin 1 → Nat) = fun _ => 0 := funext fun a => by fin_cases a; rfl

/-- Slab 0 of the stacked means' block, at (a, p, k), is the block at (0, p, k). -/
theorem ld_means0_0 (x : Vec Ideal S2x2000x128 .f32) (a : Fin 1) (p : Fin 2000) (k : Fin 128) :
    View.ld x r7_0 (ix3 a p k) = x (ix3 (0 : Fin 2) p k) := by
  show x _ = x _
  congr 1
  funext ax; apply Fin.ext
  match ax with
  | ⟨0, _⟩ => show 0 + 1 * a.val = 0; omega
  | ⟨1, _⟩ => show 0 + 1 * p.val = p.val; omega
  | ⟨2, _⟩ => show 0 + 1 * k.val = k.val; omega

/-- Slab 1 of the stacked means' block, at (a, p, k), is the block at (1, p, k). -/
theorem ld_means0_1 (x : Vec Ideal S2x2000x128 .f32) (a : Fin 1) (p : Fin 2000) (k : Fin 128) :
    View.ld x r7_1 (ix3 a p k) = x (ix3 (1 : Fin 2) p k) := by
  show x _ = x _
  congr 1
  funext ax; apply Fin.ext
  match ax with
  | ⟨0, _⟩ => show 1 + 1 * a.val = 1; omega
  | ⟨1, _⟩ => show 0 + 1 * p.val = p.val; omega
  | ⟨2, _⟩ => show 0 + 1 * k.val = k.val; omega

/-- Slab 0 of the stacked left weights, at (a, k, q), is the stack at (0, k, q). -/
theorem ld_wls0_0 (x : Vec Ideal S2x128x128 .f32) (a : Fin 1) (k : Fin 128) (q : Fin 128) :
    View.ld x r7_2 (ix3 a k q) = x (ix3 (0 : Fin 2) k q) := by
  show x _ = x _
  congr 1
  funext ax; apply Fin.ext
  match ax with
  | ⟨0, _⟩ => show 0 + 1 * a.val = 0; omega
  | ⟨1, _⟩ => show 0 + 1 * k.val = k.val; omega
  | ⟨2, _⟩ => show 0 + 1 * q.val = q.val; omega

/-- Slab 1 of the stacked left weights, at (a, k, q), is the stack at (1, k, q). -/
theorem ld_wls0_1 (x : Vec Ideal S2x128x128 .f32) (a : Fin 1) (k : Fin 128) (q : Fin 128) :
    View.ld x r7_3 (ix3 a k q) = x (ix3 (1 : Fin 2) k q) := by
  show x _ = x _
  congr 1
  funext ax; apply Fin.ext
  match ax with
  | ⟨0, _⟩ => show 1 + 1 * a.val = 1; omega
  | ⟨1, _⟩ => show 0 + 1 * k.val = k.val; omega
  | ⟨2, _⟩ => show 0 + 1 * q.val = q.val; omega

/-! ## The body's stored block at an entry -/

/-- What the body leaves in the output buffer, at (p, q), from the five input blocks: the update's formula on the blocks. -/
theorem out7_apply (x0 : Vec Ideal S2x2000x128 .f32) (x1 : Vec Ideal S2x128x128 .f32) (x2 : Vec Ideal S2000x128 .f32)
    (x3 : Vec Ideal S128x128 .f32) (x4 : Vec Ideal S128 .f32) (p : Fin 2000) (q : Fin 128) :
    out7_5 x0 x1 x2 x3 x4 (ix2 p q)
      = max ((((∑ k : Fin 128, x0 (ix3 (0 : Fin 2) p k) * x1 (ix3 (0 : Fin 2) k q))
          + ∑ k : Fin 128, x0 (ix3 (1 : Fin 2) p k) * x1 (ix3 (1 : Fin 2) k q))
          + ∑ k : Fin 128, x2 (ix2 p k) * x3 (ix2 k q))
          + x4 (ix1 q)) 0 := by
  unfold out7_5
  rw [View.canon_unit_zero zero2]
  rw [pay0_apply]
  refine congrArg (fun z => max z 0) ?_
  refine congrArg₂ (· + ·) (congrArg₂ (· + ·) (congrArg₂ (· + ·) ?_ ?_) ?_) ?_
  · exact Finset.sum_congr rfl fun k _ => congrArg₂ (· * ·) (ld_means0_0 x0 0 p k) (ld_wls0_0 x1 0 k q)
  · exact Finset.sum_congr rfl fun k _ => congrArg₂ (· * ·) (ld_means0_1 x0 0 p k) (ld_wls0_1 x1 0 k q)
  · exact Finset.sum_congr rfl fun k _ => congrArg₂ (· * ·)
      (congrFun (View.ld_unit_zero (S := S2000x128) zero2 _ x2) (ix2 p k))
      (congrFun (View.ld_unit_zero (S := S128x128) zero2 _ x3) (ix2 k q))
  · exact congrFun (View.ld_unit_zero (S := S128) zero1 _ x4) (ix1 q)

/-! ## The index maps over the grid -/

/-- Decided over the 50 points: the means' and the features' blocks move with the output's along the rows, every other
    block index is zero, and the output's row-block index is the point's number. -/
theorem idx_facts0 : ∀ t : Fin cfg7.N,
    win7_0.index t (0 : Fin 3) = 0 ∧ win7_0.index t (1 : Fin 3) = win7_5.index t (0 : Fin 2) ∧ win7_0.index t (2 : Fin 3) = 0
    ∧ win7_1.index t (0 : Fin 3) = 0 ∧ win7_1.index t (1 : Fin 3) = 0 ∧ win7_1.index t (2 : Fin 3) = 0
    ∧ win7_2.index t (0 : Fin 2) = win7_5.index t (0 : Fin 2) ∧ win7_2.index t (1 : Fin 2) = 0
    ∧ win7_3.index t (0 : Fin 2) = 0 ∧ win7_3.index t (1 : Fin 2) = 0
    ∧ win7_4.index t (0 : Fin 1) = 0
    ∧ win7_5.index t (0 : Fin 2) = t.val ∧ win7_5.index t (1 : Fin 2) = 0 :=
  (by decide +kernel : ∀ t : Fin grid7.N, _)

/-! ## Each window's block read where the index maps say -/

/-- The means' block at point t, at (a, p, k), is the array at (a, r, k) for the row r the output's block puts p at. -/
theorem rd0_0 (c : Dev nD) (t : Fin cfg7.N) (a : Fin 2) (p : Fin 2000) (k : Fin 128) (r : Fin 100000)
    (hr : r.val = win7_5.index t (0 : Fin 2) * 2000 + p.val) :
    (iblk7 V c 0 t : Vec Ideal S2x2000x128 .f32) (ix3 a p k) = meansArr0 V c (ix3 a r k) := by
  show meansArr0 V c (((cfg7.win 0).blk t).view.emb (ix3 a p k)) = _
  refine congrArg (meansArr0 V c) ?_
  obtain ⟨e0, e1, e2, -⟩ := idx_facts0 t
  funext ax; apply Fin.ext
  match ax with
  | ⟨0, _⟩ => show win7_0.index t (0 : Fin 3) * 2 + 1 * a.val = a.val; omega
  | ⟨1, _⟩ => show win7_0.index t (1 : Fin 3) * 2000 + 1 * p.val = r.val; omega
  | ⟨2, _⟩ => show win7_0.index t (2 : Fin 3) * 128 + 1 * k.val = k.val; omega

/-- The left weights' block is the whole stack at every point. -/
theorem rd0_1 (c : Dev nD) (t : Fin cfg7.N) (a : Fin 2) (k : Fin 128) (q : Fin 128) :
    (iblk7 V c 1 t : Vec Ideal S2x128x128 .f32) (ix3 a k q) = wlsArr0 V c (ix3 a k q) := by
  show wlsArr0 V c (((cfg7.win 1).blk t).view.emb (ix3 a k q)) = _
  refine congrArg (wlsArr0 V c) ?_
  obtain ⟨-, -, -, e0, e1, e2, -⟩ := idx_facts0 t
  funext ax; apply Fin.ext
  match ax with
  | ⟨0, _⟩ => show win7_1.index t (0 : Fin 3) * 2 + 1 * a.val = a.val; omega
  | ⟨1, _⟩ => show win7_1.index t (1 : Fin 3) * 128 + 1 * k.val = k.val; omega
  | ⟨2, _⟩ => show win7_1.index t (2 : Fin 3) * 128 + 1 * q.val = q.val; omega

/-- The features' block at point t, at (p, k), is the array at (r, k). -/
theorem rd0_2 (c : Dev nD) (t : Fin cfg7.N) (p : Fin 2000) (k : Fin 128) (r : Fin 100000)
    (hr : r.val = win7_5.index t (0 : Fin 2) * 2000 + p.val) :
    (iblk7 V c 2 t : Vec Ideal S2000x128 .f32) (ix2 p k) = xdArr0 V c (ix2 r k) := by
  show xdArr0 V c (((cfg7.win 2).blk t).view.emb (ix2 p k)) = _
  refine congrArg (xdArr0 V c) ?_
  obtain ⟨-, -, -, -, -, -, e0, e1, -⟩ := idx_facts0 t
  funext ax; apply Fin.ext
  match ax with
  | ⟨0, _⟩ => show win7_2.index t (0 : Fin 2) * 2000 + 1 * p.val = r.val; omega
  | ⟨1, _⟩ => show win7_2.index t (1 : Fin 2) * 128 + 1 * k.val = k.val; omega

/-- The right weight's block is the whole matrix at every point. -/
theorem rd0_3 (c : Dev nD) (t : Fin cfg7.N) (k : Fin 128) (q : Fin 128) :
    (iblk7 V c 3 t : Vec Ideal S128x128 .f32) (ix2 k q) = wrArr0 V c (ix2 k q) := by
  show wrArr0 V c (((cfg7.win 3).blk t).view.emb (ix2 k q)) = _
  refine congrArg (wrArr0 V c) ?_
  obtain ⟨-, -, -, -, -, -, -, -, e0, e1, -⟩ := idx_facts0 t
  funext ax; apply Fin.ext
  match ax with
  | ⟨0, _⟩ => show win7_3.index t (0 : Fin 2) * 128 + 1 * k.val = k.val; omega
  | ⟨1, _⟩ => show win7_3.index t (1 : Fin 2) * 128 + 1 * q.val = q.val; omega

/-- The bias's block is the whole vector at every point. -/
theorem rd0_4 (c : Dev nD) (t : Fin cfg7.N) (q : Fin 128) :
    (iblk7 V c 4 t : Vec Ideal S128 .f32) (ix1 q) = bArr0 V c (ix1 q) := by
  show bArr0 V c (((cfg7.win 4).blk t).view.emb (ix1 q)) = _
  refine congrArg (bArr0 V c) ?_
  obtain ⟨-, -, -, -, -, -, -, -, -, -, e0, -⟩ := idx_facts0 t
  funext ax; apply Fin.ext
  match ax with
  | ⟨0, _⟩ => show win7_4.index t (0 : Fin 1) * 128 + 1 * q.val = q.val; omega

/-- A whole [100000,128] array read through the output's block at point t, at (p, q), is the array at (r, q). -/
theorem rd0_5 (G : S100000x128.Idx → EReal) (t : Fin cfg7.N) (p : Fin 2000) (q : Fin 128) (r : Fin 100000)
    (hr : r.val = win7_5.index t (0 : Fin 2) * 2000 + p.val) :
    (((cfg7.win 5).blk t).view.read (Elt Ideal) G : Vec Ideal S2000x128 .f32) (ix2 p q) = G (ix2 r q) := by
  show G (((cfg7.win 5).blk t).view.emb (ix2 p q)) = _
  refine congrArg G ?_
  obtain ⟨-, -, -, -, -, -, -, -, -, -, -, e0, e1⟩ := idx_facts0 t
  funext ax; apply Fin.ext
  match ax with
  | ⟨0, _⟩ => show win7_5.index t (0 : Fin 2) * 2000 + 1 * p.val = r.val; omega
  | ⟨1, _⟩ => show win7_5.index t (1 : Fin 2) * 128 + 1 * q.val = q.val; omega

/-! ## What a point writes back -/

/-- WHAT POINT t WRITES BACK is block t of the whole-array update. -/
theorem flushed0_eq (c : Dev nD) (t : Fin cfg7.N) :
    (dat7 (F := Ideal) V c).flushed 5 t = ((cfg7.win 5).blk t).view.read (Elt Ideal) (upd0 V c) := by
  show (cfg7.win 5).cut (grid7.coords t) ((dat7 (F := Ideal) V c).after 5 t) = _
  rw [after7_5]
  funext j
  obtain ⟨p, q, rfl⟩ : ∃ (p : Fin 2000) (q : Fin 128), j = ix2 p q := ⟨j 0, j 1, eq_ix2 j⟩
  have hlt : win7_5.index t (0 : Fin 2) * 2000 + p.val < 100000 := by
    have e := (idx_facts0 t).2.2.2.2.2.2.2.2.2.2.2.1
    have ht : t.val < 50 := Nat.lt_of_lt_of_eq t.isLt N_7
    omega
  refine (out7_apply (iblk7 V c 0 t) (iblk7 V c 1 t) (iblk7 V c 2 t) (iblk7 V c 3 t) (iblk7 V c 4 t) p q).trans ?_
  refine Eq.trans ?_ (rd0_5 (upd0 V c) t p q ⟨_, hlt⟩ rfl).symm
  show _ = max ((((∑ k : Fin 128, meansArr0 V c (ix3 (0 : Fin 2) ⟨_, hlt⟩ k) * wlsArr0 V c (ix3 (0 : Fin 2) k q))
      + ∑ k : Fin 128, meansArr0 V c (ix3 (1 : Fin 2) ⟨_, hlt⟩ k) * wlsArr0 V c (ix3 (1 : Fin 2) k q))
      + ∑ k : Fin 128, xdArr0 V c (ix2 ⟨_, hlt⟩ k) * wrArr0 V c (ix2 k q))
      + bArr0 V c (ix1 q)) 0
  simp only [rd0_0 V c t _ p _ ⟨_, hlt⟩ rfl, rd0_1 V c t, rd0_2 V c t p _ ⟨_, hlt⟩ rfl, rd0_3 V c t, rd0_4 V c t]

/-! ## The blocks written back tile the array -/

/-- An index of the array is in point t's block iff each coordinate is in the block's range on its axis. -/
theorem mem_blk0 (t : Fin cfg7.N) (i : S100000x128.Idx) :
    i ∈ ((cfg7.win 5).blk t).view.set ↔ ∀ a : Fin 2, win7_5.index t a * S2000x128.size a ≤ (i a).val ∧ (i a).val < win7_5.index t a * S2000x128.size a + S2000x128.size a := by
  show i ∈ ((View.whole main_v339).slice (win7_5.rect t)).set ↔ _
  rw [View.set_slice_whole, Rect.mem_set_unit]
  exact Iff.rfl

/-- Row r is in the block of point r / 2000, which writes back. -/
theorem cover0 (i : S100000x128.Idx) : ∃ t : Fin cfg7.N, (cfg7.win 5).flush t = true ∧ i ∈ ((cfg7.win 5).blk t).view.set := by
  have hi0 : (i 0).val < 100000 := (i 0).isLt
  have hi1 : (i 1).val < 128 := (i 1).isLt
  have hlt : (i 0).val / 2000 < cfg7.N := by rw [show cfg7.N = 50 from N_7]; omega
  refine ⟨⟨(i 0).val / 2000, hlt⟩, flush7_5 _, ?_⟩
  rw [mem_blk0]
  obtain ⟨-, -, -, -, -, -, -, -, -, -, -, e0, e1⟩ := idx_facts0 ⟨(i 0).val / 2000, hlt⟩
  have e0' : win7_5.index ⟨(i 0).val / 2000, hlt⟩ (0 : Fin 2) = (i 0).val / 2000 := e0
  intro a
  match a with
  | ⟨0, _⟩ => show win7_5.index ⟨(i 0).val / 2000, hlt⟩ (0 : Fin 2) * 2000 ≤ (i 0).val ∧ (i 0).val < win7_5.index ⟨(i 0).val / 2000, hlt⟩ (0 : Fin 2) * 2000 + 2000; omega
  | ⟨1, _⟩ => show win7_5.index ⟨(i 0).val / 2000, hlt⟩ (1 : Fin 2) * 128 ≤ (i 1).val ∧ (i 1).val < win7_5.index ⟨(i 0).val / 2000, hlt⟩ (1 : Fin 2) * 128 + 128; omega

/-! ## The array after the run -/

/-- THE OUTPUT ARRAY after the grid has run is the whole-array update of the arrays the region's windows read. -/
theorem arr (V : (c : Dev nD) → (b : Ref sig .tc) → Buf (Elt Ideal) ((c : Thread nD τ).loc b)) (c : Dev nD) :
    (dat7 (F := Ideal) V c).arrAt 5 cfg7.N
      = Cert.IdxSpec.sage2 100000 (V c main_v335) (V c main_v338) (V c main_v217) (V c main_v327) (V c main_v332) :=
  (dat7 (F := Ideal) V c).arrAt_eq_of_cover 5 (upd0 V c) (fun t _ => flushed0_eq V c t) cover0

end Cert.KernelIdeal.RegVal7

end
-- ==== Proof.Reg5Pay.lean ====
/-
  Region 1's arithmetic at one entry, on extended reals.

  The body stores one 2000 × 128 block. Its entry at row p and column q is
      max( Σ_k mean[0,p,k]·Wl[0,k,q] + Σ_k x[p,k]·Wr[k,q] + b[q], 0 ),
  where mean is the block of neighbour means (one relation, carried on a leading unit axis), Wl the stacked left weight,
  x the block of the node's own features, Wr the right weight and b the bias. The casts to the narrow format are the
  identity on exact values; each matrix product into a zero accumulator is the sum over its one contracted coordinate;
  dropping or adding a unit axis keeps the row-major position; the bias row is repeated down the rows.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal5

open Idealize.ShloMosaic Idealize.ShloMosaic.ValueIdx Cert.KernelIdeal Cert.KernelIdeal.Gen

/-! ## The matrix product's operand indices, axis by axis -/

/-- The left operand's row is the output's row. -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contracted coordinate. -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contracted coordinate. -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product at an entry -/

/-- A 2000 × 128 by 128 × 128 product into the zero accumulator, at entry (p, q): the sum over the 128 contracted
    coordinates of the products of the two operands' entries. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The stored block at an entry -/

/-- Entry (p, q) of the block the body stores: the two sums, the bias, the clamp at zero. -/
theorem pay_at (x0 : Vec Ideal S1x2000x128 .f32) (x1 : Vec Ideal S1x128x128 .f32) (x2 : Vec Ideal S2000x128 .f32)
    (x3 : Vec Ideal S128x128 .f32) (x4 : Vec Ideal S128 .f32) (p : Fin 2000) (q : Fin 128) :
    k5_pay1 (F := Ideal) x0 x1 x2 x3 x4 (ix2 p q)
      = max (((∑ k : Fin 128, x0 (ix3 (0 : Fin 1) p k) * x1 (ix3 (0 : Fin 1) k q))
          + ∑ k : Fin 128, x2 (ix2 p k) * x3 (ix2 k q))
          + x4 (ix1 q)) 0 := by
  unfold k5_pay1
  rw [maximumf_apply, broadcast_apply, addf_apply, addf_apply, matmul_at, matmul_at,
    broadcastTo_1b_ab_apply, shapeCast_a_1a_apply, shapeCast_self]
  simp only [truncf_apply, shapeCast_1ab_ab_apply, shapeCast_self]
  show max _ (Ideal.ofBits .f32 0x00000000#32) = _
  rw [Ideal.ofBits_zero_f32]

end Cert.KernelIdeal.RegVal5

end
-- ==== Proof.Reg5.lean ====
/-
  Region 1's value: what its output array holds after the grid has run, as one function of the arrays it reads, on
  extended reals.

  The region updates a node type with one incoming relation, 20000 rows in 10 blocks of 2000. Point t of the grid reads
  rows 2000·t … 2000·t + 1999 of the neighbour means and of the node's own features, the two weight matrices and the bias
  whole, and writes back rows 2000·t … 2000·t + 1999 of
      max( Σ_k mean[0,r,k]·Wl[0,k,q] + Σ_k x[r,k]·Wr[k,q] + b[q], 0 ).
  An entry of the written block depends only on its own row of the means and features, so each point writes exactly its
  block of that one whole-array function; the 10 blocks tile the rows (row r lies in block r / 2000), so the array ends
  holding the function everywhere.
-/
import proofs.«165177_j32074815766916_1_alg».proof.Proof.FIL5
import proofs.«165177_j32074815766916_1_alg».proof.Proof.IdxSpec
import proofs.«165177_j32074815766916_1_alg».proof.Proof.Reg5Pay
import Idealize.ShloMosaic.Lib.Pipeline.Value
import Idealize.ShloMosaic.Lib.ValueIdx

set_option maxRecDepth 16384

noncomputable section

namespace Cert.KernelIdeal.RegVal5

open Idealize.ShloMosaic Idealize.ShloMosaic.TcCoe Idealize.ShloMosaic.ValueIdx Cert.KernelIdeal Cert.KernelIdeal.Gen Cert.KernelIdeal.GenP
open Idealize.ShloMosaic.Pipeline (Dat)

/-! ## The arrays the region reads, by their literal types -/

variable (V : (c : Dev nD) → (b : Ref sig .tc) → Buf (Elt Ideal) ((c : Thread nD τ).loc b))

/-- The stacked neighbour means (one relation), 20000 rows. -/
noncomputable abbrev meansArr (c : Dev nD) : Vec Ideal S1x20000x128 .f32 := V c main_v233
/-- The stacked left weight. -/
noncomputable abbrev wlsArr (c : Dev nD) : Vec Ideal S1x128x128 .f32 := V c main_v234
/-- The node type's own features, 20000 rows. -/
noncomputable abbrev xdArr (c : Dev nD) : Vec Ideal S20000x128 .f32 := V c main_v120
/-- The right weight. -/
noncomputable abbrev wrArr (c : Dev nD) : Vec Ideal S128x128 .f32 := V c main_v230
/-- The bias. -/
noncomputable abbrev biasArr (c : Dev nD) : Vec Ideal S128 .f32 := V c main_v232

/-- What the region's output array ends holding: the one-relation update of all 20000 rows. -/
noncomputable abbrev updArr (c : Dev nD) : Vec Ideal S20000x128 .f32 :=
  Cert.IdxSpec.sage1 20000 (meansArr V c) (wlsArr V c) (xdArr V c) (wrArr V c) (biasArr V c)

/-- The update at row r, column q, with the coordinates named. -/
theorem updArr_at (c : Dev nD) (i : S20000x128.Idx) (r : Fin 20000) (q : Fin 128) (hi : i = ix2 r q) :
    updArr V c i
      = max (((∑ k : Fin 128, meansArr V c (ix3 (0 : Fin 1) r k) * wlsArr V c (ix3 (0 : Fin 1) k q))
          + ∑ k : Fin 128, xdArr V c (ix2 r k) * wrArr V c (ix2 k q))
          + biasArr V c (ix1 q)) 0 := by
  subst hi; rfl

/-! ## The index maps over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid's points: the means' and the features' blocks move down the rows with
    the output's block; the two weights and the bias are taken whole at every point; the output's block index is the
    point's number. -/
theorem idx_facts : ∀ t : Fin cfg5.N,
    win5_0.index t (0 : Fin 3) = 0 ∧ win5_0.index t (1 : Fin 3) = win5_5.index t (0 : Fin 2) ∧ win5_0.index t (2 : Fin 3) = 0
    ∧ win5_1.index t (0 : Fin 3) = 0 ∧ win5_1.index t (1 : Fin 3) = 0 ∧ win5_1.index t (2 : Fin 3) = 0
    ∧ win5_2.index t (0 : Fin 2) = win5_5.index t (0 : Fin 2) ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

/-! ## Each input window's block, read off its array -/

/-- The means' block at point t is rows 2000·b … 2000·b + 1999 of the means, b the output's block index at t. -/
theorem means_blk (c : Dev nD) (t : Fin cfg5.N) (y : S1x2000x128.Idx) (i : S1x20000x128.Idx)
    (h0 : (i 0).val = (y 0).val) (h1 : (i 1).val = win5_5.index t (0 : Fin 2) * 2000 + (y 1).val) (h2 : (i 2).val = (y 2).val) :
    (iblk5 V c 0 t : Vec Ideal S1x2000x128 .f32) y = meansArr V c i := by
  obtain ⟨e0, e1, e2, -⟩ := idx_facts t
  unfold iblk5
  rw [View.read_apply]
  show V c main_v233 _ = V c main_v233 _
  congr 1
  funext a
  apply Fin.ext
  match a with
  | ⟨0, _⟩ => show win5_0.index t (0 : Fin 3) * 1 + 1 * (y 0).val = (i 0).val; rw [e0, h0]; omega
  | ⟨1, _⟩ => show win5_0.index t (1 : Fin 3) * 2000 + 1 * (y 1).val = (i 1).val; rw [e1, h1]; omega
  | ⟨2, _⟩ => show win5_0.index t (2 : Fin 3) * 128 + 1 * (y 2).val = (i 2).val; rw [e2, h2]; omega

/-- The features' block at point t is the same rows of the features. -/
theorem xd_blk (c : Dev nD) (t : Fin cfg5.N) (y : S2000x128.Idx) (i : S20000x128.Idx)
    (h0 : (i 0).val = win5_5.index t (0 : Fin 2) * 2000 + (y 0).val) (h1 : (i 1).val = (y 1).val) :
    (iblk5 V c 2 t : Vec Ideal S2000x128 .f32) y = xdArr V c i := by
  obtain ⟨-, -, -, -, -, -, e0, e1, -⟩ := idx_facts t
  unfold iblk5
  rw [View.read_apply]
  show V c main_v120 _ = V c main_v120 _
  congr 1
  funext a
  apply Fin.ext
  match a with
  | ⟨0, _⟩ => show win5_2.index t (0 : Fin 2) * 2000 + 1 * (y 0).val = (i 0).val; rw [e0, h0]; omega
  | ⟨1, _⟩ => show win5_2.index t (1 : Fin 2) * 128 + 1 * (y 1).val = (i 1).val; rw [e1, h1]; omega

/-- The left weight's window takes the whole array at every point. -/
theorem wls_blk (c : Dev nD) (t : Fin cfg5.N) : (iblk5 V c 1 t : Vec Ideal S1x128x128 .f32) = wlsArr V c := by
  obtain ⟨-, -, -, e0, e1, e2, -⟩ := idx_facts t
  funext y
  unfold iblk5
  rw [View.read_apply]
  show V c main_v234 _ = V c main_v234 _
  congr 1
  funext a
  apply Fin.ext
  match a with
  | ⟨0, _⟩ => show win5_1.index t (0 : Fin 3) * 1 + 1 * (y 0).val = (y 0).val; rw [e0]; omega
  | ⟨1, _⟩ => show win5_1.index t (1 : Fin 3) * 128 + 1 * (y 1).val = (y 1).val; rw [e1]; omega
  | ⟨2, _⟩ => show win5_1.index t (2 : Fin 3) * 128 + 1 * (y 2).val = (y 2).val; rw [e2]; omega

/-- The right weight's window takes the whole array at every point. -/
theorem wr_blk (c : Dev nD) (t : Fin cfg5.N) : (iblk5 V c 3 t : Vec Ideal S128x128 .f32) = wrArr V c := by
  obtain ⟨-, -, -, -, -, -, -, -, e0, e1, -⟩ := idx_facts t
  funext y
  unfold iblk5
  rw [View.read_apply]
  show V c main_v230 _ = V c main_v230 _
  congr 1
  funext a
  apply Fin.ext
  match a with
  | ⟨0, _⟩ => show win5_3.index t (0 : Fin 2) * 128 + 1 * (y 0).val = (y 0).val; rw [e0]; omega
  | ⟨1, _⟩ => show win5_3.index t (1 : Fin 2) * 128 + 1 * (y 1).val = (y 1).val; rw [e1]; omega

/-- The bias's window takes the whole array at every point. -/
theorem bias_blk (c : Dev nD) (t : Fin cfg5.N) : (iblk5 V c 4 t : Vec Ideal S128 .f32) = biasArr V c := by
  obtain ⟨-, -, -, -, -, -, -, -, -, -, e0, -⟩ := idx_facts t
  funext y
  unfold iblk5
  rw [View.read_apply]
  show V c main_v232 _ = V c main_v232 _
  congr 1
  funext a
  apply Fin.ext
  match a with
  | ⟨0, _⟩ => show win5_4.index t (0 : Fin 1) * 128 + 1 * (y 0).val = (y 0).val; rw [e0]; omega

/-! ## What one point writes back -/

/-- The body's stored block from the five input blocks, without the load and store rectangles (each is the whole
    staging buffer). -/
theorem out_eq (x0 : Vec Ideal S1x2000x128 .f32) (x1 : Vec Ideal S1x128x128 .f32) (x2 : Vec Ideal S2000x128 .f32)
    (x3 : Vec Ideal S128x128 .f32) (x4 : Vec Ideal S128 .f32) :
    out5_5 (F := Ideal) x0 x1 x2 x3 x4 = k5_pay1 (F := Ideal) x0 x1 x2 x3 x4 := by
  unfold out5_5
  rw [View.canon_unit_zero hz2]
  simp only [View.ld_unit_zero (S := S1x2000x128) hz3, View.ld_unit_zero (S := S1x128x128) hz3,
    View.ld_unit_zero (S := S2000x128) hz2, View.ld_unit_zero (S := S128x128) hz2, View.ld_unit_zero (S := S128) hz1]

/-- The output block's entry (p, q) at point t sits at row 2000·b + p, column q of the array, b the block index. -/
theorem out_emb (t : Fin cfg5.N) (p : Fin 2000) (q : Fin 128) (r : Fin 20000)
    (hr : r.val = win5_5.index t (0 : Fin 2) * 2000 + p.val) :
    ((cfg5.win 5).blk t).view.emb (ix2 p q) = (ix2 r q : S20000x128.Idx) := by
  obtain ⟨-, -, -, -, -, -, -, -, -, -, -, -, e1⟩ := idx_facts t
  funext a
  apply Fin.ext
  match a with
  | ⟨0, _⟩ => show win5_5.index t (0 : Fin 2) * 2000 + 1 * p.val = r.val; rw [hr]; omega
  | ⟨1, _⟩ => show win5_5.index t (1 : Fin 2) * 128 + 1 * q.val = q.val; rw [e1]; omega

/-- What point t writes back is block t of the update of all rows: entry (p, q) of the stored block is the update at
    row 2000·b + p, column q, b the output's block index at t — each sum termwise, the means' and the features' blocks
    read at those rows. -/
theorem flushed_eq (c : Dev nD) (t : Fin cfg5.N) :
    (dat5 (F := Ideal) V c).flushed 5 t = ((cfg5.win 5).blk t).view.read (Elt Ideal) (updArr V c) := by
  show (cfg5.win 5).cut (grid5.coords t) ((dat5 V c).after 5 t) = _
  rw [after5_5, out_eq, wls_blk, wr_blk, bias_blk]
  funext j
  obtain ⟨p, q, rfl⟩ : ∃ (p : Fin 2000) (q : Fin 128), j = ix2 p q := ⟨j 0, j 1, eq_ix2 j⟩
  obtain ⟨-, -, -, -, -, -, -, -, -, -, -, e0, -⟩ := idx_facts t
  have hN : cfg5.N = 10 := N_5
  have ht : t.val < 10 := hN ▸ t.isLt
  obtain ⟨r, hr⟩ : ∃ r : Fin 20000, r.val = win5_5.index t (0 : Fin 2) * 2000 + p.val :=
    ⟨⟨win5_5.index t (0 : Fin 2) * 2000 + p.val, by rw [e0]; have := p.isLt; omega⟩, rfl⟩
  rw [View.read_apply]
  show k5_pay1 (F := Ideal) (iblk5 V c 0 t) (wlsArr V c) (iblk5 V c 2 t) (wrArr V c) (biasArr V c) (ix2 p q)
    = updArr V c (((cfg5.win 5).blk t).view.emb (ix2 p q))
  rw [out_emb t p q r hr, updArr_at V c _ r q rfl]
  refine (pay_at _ _ _ _ _ p q).trans ?_
  refine congrArg₂ max (congrArg₂ (· + ·) (congrArg₂ (· + ·) (Finset.sum_congr rfl fun k _ => ?_) (Finset.sum_congr rfl fun k _ => ?_)) rfl) rfl
  · exact congrArg (· * _) (means_blk V c t (ix3 (0 : Fin 1) p k) (ix3 (0 : Fin 1) r k) rfl hr rfl)
  · exact congrArg (· * _) (xd_blk V c t (ix2 p k) (ix2 r k) hr rfl)

/-! ## The blocks cover the array -/

/-- An index of the array is in point t's block iff each coordinate is in the block's range on its axis. -/
theorem mem_blk (t : Fin cfg5.N) (i : S20000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v235).slice (win5_5.rect t)).set ↔ _
  rw [View.set_slice_whole, Rect.mem_set_unit]
  exact Iff.rfl

/-- Row r of the array is written by the point numbered r / 2000 (and every point writes its block back). -/
theorem cover (i : S20000x128.Idx) :
    ∃ t : Fin cfg5.N, (cfg5.win 5).flush t = true ∧ i ∈ ((cfg5.win 5).blk t).view.set := by
  have hi0 : (i 0).val < 20000 := (i 0).isLt
  have hi1 : (i 1).val < 128 := (i 1).isLt
  have hN : cfg5.N = 10 := N_5
  obtain ⟨t, ht⟩ : ∃ t : Fin cfg5.N, t.val = (i 0).val / 2000 := ⟨⟨(i 0).val / 2000, by rw [hN]; omega⟩, rfl⟩
  obtain ⟨-, -, -, -, -, -, -, -, -, -, -, e0, e1⟩ := idx_facts t
  refine ⟨t, flush5_5 t, ?_⟩
  rw [mem_blk]
  intro a
  match a with
  | ⟨0, _⟩ =>
    show win5_5.index t (0 : Fin 2) * 2000 ≤ (i 0).val ∧ (i 0).val < win5_5.index t (0 : Fin 2) * 2000 + 2000
    rw [e0, ht]; omega
  | ⟨1, _⟩ =>
    show win5_5.index t (1 : Fin 2) * 128 ≤ (i 1).val ∧ (i 1).val < win5_5.index t (1 : Fin 2) * 128 + 128
    rw [e1]; omega

/-! ## The array after the run -/

/-- THE REGION'S VALUE: after the grid has run, the output array holds the one-relation update of all 20000 rows — every
    point writes its block of it, and the blocks cover the array. -/
theorem arr (c : Dev nD) :
    (dat5 (F := Ideal) V c).arrAt 5 cfg5.N
      = Cert.IdxSpec.sage1 20000 (V c main_v233) (V c main_v234) (V c main_v120) (V c main_v230) (V c main_v232) :=
  (dat5 V c).arrAt_eq_of_cover 5 (updArr V c) (fun t _ => flushed_eq V c t) cover

end Cert.KernelIdeal.RegVal5

end
-- ==== Proof.KW5.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg5
import proofs.«165177_j32074815766916_1_alg».proof.Proof.KW3
import proofs.«165177_j32074815766916_1_alg».proof.Proof.KW0
import proofs.«165177_j32074815766916_1_alg».proof.Proof.KW2
import proofs.«165177_j32074815766916_1_alg».proof.Proof.KStab3
import proofs.«165177_j32074815766916_1_alg».proof.Proof.KStab2
import proofs.«165177_j32074815766916_1_alg».proof.Proof.KStab4
import proofs.«165177_j32074815766916_1_alg».proof.Proof.KStab5
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem win5_0 : W11 m ρ c (Proc.devRef .tc main_v233) = pack1T (aggPT (K.mp1 (argsK m c)) (argsK m c).spt (argsK m c).dpt) := by
  have h0 := ((st_main_v196_10 m ρ c).trans (kv_main_v196 m ρ c))
  show StableHlo.after hostOps5 (W10 m ρ c) (Proc.devRef .tc main_v233) = _
  generalize W10 m ρ c = Wx at *
  unfold hostOps5
  after_results_simp
  simp only [h0]
  try rfl

theorem win5_1 : W11 m ρ c (Proc.devRef .tc main_v234) = pack1W (wmat 1 2 Facts₀.slices_S2x4x128x128_S1x1x128x128_1_2_0_0 (slab5 0 Facts₀.slices_S3x2x4x128x128_S1x2x4x128x128_0_0_0_0_0 (argsK m c).Wl)) := by
  have h0 := ((st_main_v1_10 m ρ c).trans (kv_main_v1 m ρ c))
  show StableHlo.after hostOps5 (W10 m ρ c) (Proc.devRef .tc main_v234) = _
  generalize W10 m ρ c = Wx at *
  unfold hostOps5
  after_results_simp
  simp only [h0]
  try rfl

theorem win5_2 : W11 m ρ c (Proc.devRef .tc main_v120) = K.mt1 (argsK m c) := ((st_main_v120_11 m ρ c).trans (kv_main_v120 m ρ c))

theorem win5_3 : W11 m ρ c (Proc.devRef .tc main_v230) = wmat 1 2 Facts₀.slices_S2x4x128x128_S1x1x128x128_1_2_0_0 (slab5 0 Facts₀.slices_S3x2x4x128x128_S1x2x4x128x128_0_0_0_0_0 (argsK m c).Wr) := by
  have h0 := ((st_main_v5_10 m ρ c).trans (kv_main_v5 m ρ c))
  show StableHlo.after hostOps5 (W10 m ρ c) (Proc.devRef .tc main_v230) = _
  generalize W10 m ρ c = Wx at *
  unfold hostOps5
  after_results_simp
  simp only [h0]
  try rfl

theorem win5_4 : W11 m ρ c (Proc.devRef .tc main_v232) = wvec 1 2 Facts₀.slices_S2x4x128_S1x1x128_1_2_0 (slab4 0 Facts₀.slices_S3x2x4x128_S1x2x4x128_0_0_0_0 (argsK m c).bl) := by
  have h0 := ((st_main_v3_10 m ρ c).trans (kv_main_v3 m ρ c))
  show StableHlo.after hostOps5 (W10 m ρ c) (Proc.devRef .tc main_v232) = _
  generalize W10 m ρ c = Wx at *
  unfold hostOps5
  after_results_simp
  simp only [h0]
  try rfl

theorem kv_main_v235 : W12 m ρ c (Proc.devRef .tc main_v235) = K.mt2 (argsK m c) := by
  refine (W12_arr m ρ c 5).trans ?_
  refine (Cert.KernelIdeal.RegVal5.arr (V11 m ρ) c).trans ?_
  show Cert.IdxSpec.sage1 20000 (W11 m ρ c (Proc.devRef .tc main_v233)) (W11 m ρ c (Proc.devRef .tc main_v234)) (W11 m ρ c (Proc.devRef .tc main_v120)) (W11 m ρ c (Proc.devRef .tc main_v230)) (W11 m ρ c (Proc.devRef .tc main_v232)) = _
  rw [win5_0 m ρ c, win5_1 m ρ c, win5_2 m ρ c, win5_3 m ρ c, win5_4 m ρ c]
  rfl

end Cert.KernelIdeal.KW

end
-- ==== Proof.KW7.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg7
import proofs.«165177_j32074815766916_1_alg».proof.Proof.KWArgs
import proofs.«165177_j32074815766916_1_alg».proof.Proof.KW4
import proofs.«165177_j32074815766916_1_alg».proof.Proof.KW5
import proofs.«165177_j32074815766916_1_alg».proof.Proof.KW3
import proofs.«165177_j32074815766916_1_alg».proof.Proof.KStab0
import proofs.«165177_j32074815766916_1_alg».proof.Proof.KStab5
import proofs.«165177_j32074815766916_1_alg».proof.Proof.KStab2
import proofs.«165177_j32074815766916_1_alg».proof.Proof.KStab3
import proofs.«165177_j32074815766916_1_alg».proof.Proof.KStab4
import proofs.«165177_j32074815766916_1_alg».proof.Proof.KStab1
import proofs.«165177_j32074815766916_1_alg».proof.Proof.KStab6
import proofs.«165177_j32074815766916_1_alg».proof.Proof.KStab7
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem kv_main_v238 : W14 m ρ c (Proc.devRef .tc main_v238) = slab5 1 Facts₀.slices_S3x2x4x128x128_S1x2x4x128x128_1_0_0_0_0 (argsK m c).Wl := by
  have h0 := ((st_main_arg3_13 m ρ c).trans (kv_main_arg3 m ρ c))
  show StableHlo.after hostOps7 (W13 m ρ c) (Proc.devRef .tc main_v238) = _
  generalize W13 m ρ c = Wx at *
  unfold hostOps7
  after_results_simp
  simp only [h0]
  try rfl

theorem kv_main_v240 : W14 m ρ c (Proc.devRef .tc main_v240) = slab4 1 Facts₀.slices_S3x2x4x128_S1x2x4x128_1_0_0_0 (argsK m c).bl := by
  have h0 := ((st_main_arg4_13 m ρ c).trans (kv_main_arg4 m ρ c))
  show StableHlo.after hostOps7 (W13 m ρ c) (Proc.devRef .tc main_v240) = _
  generalize W13 m ρ c = Wx at *
  unfold hostOps7
  after_results_simp
  simp only [h0]
  try rfl

theorem kv_main_v242 : W14 m ρ c (Proc.devRef .tc main_v242) = slab5 1 Facts₀.slices_S3x2x4x128x128_S1x2x4x128x128_1_0_0_0_0 (argsK m c).Wr := by
  have h0 := ((st_main_arg5_13 m ρ c).trans (kv_main_arg5 m ρ c))
  show StableHlo.after hostOps7 (W13 m ρ c) (Proc.devRef .tc main_v242) = _
  generalize W13 m ρ c = Wx at *
  unfold hostOps7
  after_results_simp
  simp only [h0]
  try rfl

theorem kv_main_v299 : W14 m ρ c (Proc.devRef .tc main_v299) = aggPA (K.mp2 (argsK m c)) (argsK m c).spa (argsK m c).dpa := by
  have h0 := ((st_main_arg15_13 m ρ c).trans (kv_main_arg15 m ρ c))
  have h1 := ((st_main_v217_13 m ρ c).trans (kv_main_v217 m ρ c))
  have h2 := ((st_main_arg14_13 m ρ c).trans (kv_main_arg14 m ρ c))
  show StableHlo.after hostOps7 (W13 m ρ c) (Proc.devRef .tc main_v299) = _
  generalize W13 m ρ c = Wx at *
  unfold hostOps7
  after_results_simp
  simp only [h0, h1, h2]
  try rfl

theorem kv_main_v318 : W14 m ρ c (Proc.devRef .tc main_v318) = aggPT (K.mp2 (argsK m c)) (argsK m c).spt (argsK m c).dpt := by
  have h0 := ((st_main_arg17_13 m ρ c).trans (kv_main_arg17 m ρ c))
  have h1 := ((st_main_v217_13 m ρ c).trans (kv_main_v217 m ρ c))
  have h2 := ((st_main_arg16_13 m ρ c).trans (kv_main_arg16 m ρ c))
  show StableHlo.after hostOps7 (W13 m ρ c) (Proc.devRef .tc main_v318) = _
  generalize W13 m ρ c = Wx at *
  unfold hostOps7
  after_results_simp
  simp only [h0, h1, h2]
  try rfl

theorem win7_0 : W14 m ρ c (Proc.devRef .tc main_v335) = pack2P (aggAP (K.ma2 (argsK m c)) (argsK m c).sap (argsK m c).dap) (aggTP (K.mt2 (argsK m c)) (argsK m c).stp (argsK m c).dtp) := by
  have h0 := ((st_main_arg13_13 m ρ c).trans (kv_main_arg13 m ρ c))
  have h1 := ((st_main_v226_13 m ρ c).trans (kv_main_v226 m ρ c))
  have h2 := ((st_main_arg12_13 m ρ c).trans (kv_main_arg12 m ρ c))
  have h3 := ((st_main_arg19_13 m ρ c).trans (kv_main_arg19 m ρ c))
  have h4 := ((st_main_v235_13 m ρ c).trans (kv_main_v235 m ρ c))
  have h5 := ((st_main_arg18_13 m ρ c).trans (kv_main_arg18 m ρ c))
  show StableHlo.after hostOps7 (W13 m ρ c) (Proc.devRef .tc main_v335) = _
  generalize W13 m ρ c = Wx at *
  unfold hostOps7
  after_results_simp
  refine pack2P_of (F := Ideal) ?_ ?_ _
  all_goals after_results_simp
  all_goals (simp only [h0, h1, h2, h3, h4, h5]; try rfl)

theorem win7_1 : W14 m ρ c (Proc.devRef .tc main_v338) = pack2W (wmat 0 0 Facts₀.slices_S2x4x128x128_S1x1x128x128_0_0_0_0 (slab5 1 Facts₀.slices_S3x2x4x128x128_S1x2x4x128x128_1_0_0_0_0 (argsK m c).Wl)) (wmat 0 3 Facts₀.slices_S2x4x128x128_S1x1x128x128_0_3_0_0 (slab5 1 Facts₀.slices_S3x2x4x128x128_S1x2x4x128x128_1_0_0_0_0 (argsK m c).Wl)) := by
  have h0 := ((st_main_arg3_13 m ρ c).trans (kv_main_arg3 m ρ c))
  show StableHlo.after hostOps7 (W13 m ρ c) (Proc.devRef .tc main_v338) = _
  generalize W13 m ρ c = Wx at *
  unfold hostOps7
  after_results_simp
  refine pack2W_of (F := Ideal) ?_ ?_ _
  all_goals after_results_simp
  all_goals (simp only [h0]; try rfl)

theorem win7_2 : W14 m ρ c (Proc.devRef .tc main_v217) = K.mp2 (argsK m c) := ((st_main_v217_14 m ρ c).trans (kv_main_v217 m ρ c))

theorem win7_3 : W14 m ρ c (Proc.devRef .tc main_v327) = addf (wmat 0 0 Facts₀.slices_S2x4x128x128_S1x1x128x128_0_0_0_0 (slab5 1 Facts₀.slices_S3x2x4x128x128_S1x2x4x128x128_1_0_0_0_0 (argsK m c).Wr)) (wmat 0 3 Facts₀.slices_S2x4x128x128_S1x1x128x128_0_3_0_0 (slab5 1 Facts₀.slices_S3x2x4x128x128_S1x2x4x128x128_1_0_0_0_0 (argsK m c).Wr)) := by
  have h0 := ((st_main_arg5_13 m ρ c).trans (kv_main_arg5 m ρ c))
  show StableHlo.after hostOps7 (W13 m ρ c) (Proc.devRef .tc main_v327) = _
  generalize W13 m ρ c = Wx at *
  unfold hostOps7
  after_results_simp
  simp only [h0]
  try rfl

theorem win7_4 : W14 m ρ c (Proc.devRef .tc main_v332) = addf (wvec 0 0 Facts₀.slices_S2x4x128_S1x1x128_0_0_0 (slab4 1 Facts₀.slices_S3x2x4x128_S1x2x4x128_1_0_0_0 (argsK m c).bl)) (wvec 0 3 Facts₀.slices_S2x4x128_S1x1x128_0_3_0 (slab4 1 Facts₀.slices_S3x2x4x128_S1x2x4x128_1_0_0_0 (argsK m c).bl)) := by
  have h0 := ((st_main_arg4_13 m ρ c).trans (kv_main_arg4 m ρ c))
  show StableHlo.after hostOps7 (W13 m ρ c) (Proc.devRef .tc main_v332) = _
  generalize W13 m ρ c = Wx at *
  unfold hostOps7
  after_results_simp
  simp only [h0]
  try rfl

theorem kv_main_v339 : W15 m ρ c (Proc.devRef .tc main_v339) = K.gp1 (argsK m c) := by
  refine (W15_arr m ρ c 5).trans ?_
  refine (Cert.KernelIdeal.RegVal7.arr (V14 m ρ) c).trans ?_
  show Cert.IdxSpec.sage2 100000 (W14 m ρ c (Proc.devRef .tc main_v335)) (W14 m ρ c (Proc.devRef .tc main_v338)) (W14 m ρ c (Proc.devRef .tc main_v217)) (W14 m ρ c (Proc.devRef .tc main_v327)) (W14 m ρ c (Proc.devRef .tc main_v332)) = _
  rw [win7_0 m ρ c, win7_1 m ρ c, win7_2 m ρ c, win7_3 m ρ c, win7_4 m ρ c]
  rfl

end Cert.KernelIdeal.KW

end
-- ==== Proof.KW8.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg8
import proofs.«165177_j32074815766916_1_alg».proof.Proof.KW7
import proofs.«165177_j32074815766916_1_alg».proof.Proof.KW4
import proofs.«165177_j32074815766916_1_alg».proof.Proof.KStab5
import proofs.«165177_j32074815766916_1_alg».proof.Proof.KStab6
import proofs.«165177_j32074815766916_1_alg».proof.Proof.KStab7
import proofs.«165177_j32074815766916_1_alg».proof.Proof.KStab0
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem win8_0 : W16 m ρ c (Proc.devRef .tc main_v346) = pack1A (aggPA (K.mp2 (argsK m c)) (argsK m c).spa (argsK m c).dpa) := by
  have h0 := ((st_main_v299_15 m ρ c).trans (kv_main_v299 m ρ c))
  show StableHlo.after hostOps8 (W15 m ρ c) (Proc.devRef .tc main_v346) = _
  generalize W15 m ρ c = Wx at *
  unfold hostOps8
  after_results_simp
  simp only [h0]
  try rfl

theorem win8_1 : W16 m ρ c (Proc.devRef .tc main_v347) = pack1W (wmat 0 1 Facts₀.slices_S2x4x128x128_S1x1x128x128_0_1_0_0 (slab5 1 Facts₀.slices_S3x2x4x128x128_S1x2x4x128x128_1_0_0_0_0 (argsK m c).Wl)) := by
  have h0 := ((st_main_v238_15 m ρ c).trans (kv_main_v238 m ρ c))
  show StableHlo.after hostOps8 (W15 m ρ c) (Proc.devRef .tc main_v347) = _
  generalize W15 m ρ c = Wx at *
  unfold hostOps8
  after_results_simp
  simp only [h0]
  try rfl

theorem win8_2 : W16 m ρ c (Proc.devRef .tc main_v226) = K.ma2 (argsK m c) := ((st_main_v226_16 m ρ c).trans (kv_main_v226 m ρ c))

theorem win8_3 : W16 m ρ c (Proc.devRef .tc main_v343) = wmat 0 1 Facts₀.slices_S2x4x128x128_S1x1x128x128_0_1_0_0 (slab5 1 Facts₀.slices_S3x2x4x128x128_S1x2x4x128x128_1_0_0_0_0 (argsK m c).Wr) := by
  have h0 := ((st_main_v242_15 m ρ c).trans (kv_main_v242 m ρ c))
  show StableHlo.after hostOps8 (W15 m ρ c) (Proc.devRef .tc main_v343) = _
  generalize W15 m ρ c = Wx at *
  unfold hostOps8
  after_results_simp
  simp only [h0]
  try rfl

theorem win8_4 : W16 m ρ c (Proc.devRef .tc main_v345) = wvec 0 1 Facts₀.slices_S2x4x128_S1x1x128_0_1_0 (slab4 1 Facts₀.slices_S3x2x4x128_S1x2x4x128_1_0_0_0 (argsK m c).bl) := by
  have h0 := ((st_main_v240_15 m ρ c).trans (kv_main_v240 m ρ c))
  show StableHlo.after hostOps8 (W15 m ρ c) (Proc.devRef .tc main_v345) = _
  generalize W15 m ρ c = Wx at *
  unfold hostOps8
  after_results_simp
  simp only [h0]
  try rfl

theorem kv_main_v348 : W17 m ρ c (Proc.devRef .tc main_v348) = K.ga1 (argsK m c) := by
  refine (W17_arr m ρ c 5).trans ?_
  refine (Cert.KernelIdeal.RegVal8.arr (V16 m ρ) c).trans ?_
  show Cert.IdxSpec.sage1 40000 (W16 m ρ c (Proc.devRef .tc main_v346)) (W16 m ρ c (Proc.devRef .tc main_v347)) (W16 m ρ c (Proc.devRef .tc main_v226)) (W16 m ρ c (Proc.devRef .tc main_v343)) (W16 m ρ c (Proc.devRef .tc main_v345)) = _
  rw [win8_0 m ρ c, win8_1 m ρ c, win8_2 m ρ c, win8_3 m ρ c, win8_4 m ρ c]
  rfl

end Cert.KernelIdeal.KW

end
-- ==== Proof.Reg9Pay.lean ====
/-
  Region 1's arithmetic at one entry, on extended reals.

  The body stores one 2000 × 128 block. Its entry at row p and column q is
      max( Σ_k mean[0,p,k]·Wl[0,k,q] + Σ_k x[p,k]·Wr[k,q] + b[q], 0 ),
  where mean is the block of neighbour means (one relation, carried on a leading unit axis), Wl the stacked left weight,
  x the block of the node's own features, Wr the right weight and b the bias. The casts to the narrow format are the
  identity on exact values; each matrix product into a zero accumulator is the sum over its one contracted coordinate;
  dropping or adding a unit axis keeps the row-major position; the bias row is repeated down the rows.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal9

open Idealize.ShloMosaic Idealize.ShloMosaic.ValueIdx Cert.KernelIdeal Cert.KernelIdeal.Gen

/-! ## The matrix product's operand indices, axis by axis -/

/-- The left operand's row is the output's row. -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contracted coordinate. -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contracted coordinate. -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product at an entry -/

/-- A 2000 × 128 by 128 × 128 product into the zero accumulator, at entry (p, q): the sum over the 128 contracted
    coordinates of the products of the two operands' entries. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The stored block at an entry -/

/-- Entry (p, q) of the block the body stores: the two sums, the bias, the clamp at zero. -/
theorem pay_at (x0 : Vec Ideal S1x2000x128 .f32) (x1 : Vec Ideal S1x128x128 .f32) (x2 : Vec Ideal S2000x128 .f32)
    (x3 : Vec Ideal S128x128 .f32) (x4 : Vec Ideal S128 .f32) (p : Fin 2000) (q : Fin 128) :
    k9_pay1 (F := Ideal) x0 x1 x2 x3 x4 (ix2 p q)
      = max (((∑ k : Fin 128, x0 (ix3 (0 : Fin 1) p k) * x1 (ix3 (0 : Fin 1) k q))
          + ∑ k : Fin 128, x2 (ix2 p k) * x3 (ix2 k q))
          + x4 (ix1 q)) 0 := by
  unfold k9_pay1
  rw [maximumf_apply, broadcast_apply, addf_apply, addf_apply, matmul_at, matmul_at,
    broadcastTo_1b_ab_apply, shapeCast_a_1a_apply, shapeCast_self]
  simp only [truncf_apply, shapeCast_1ab_ab_apply, shapeCast_self]
  show max _ (Ideal.ofBits .f32 0x00000000#32) = _
  rw [Ideal.ofBits_zero_f32]

end Cert.KernelIdeal.RegVal9

end
-- ==== Proof.Reg9.lean ====
/-
  Region 1's value: what its output array holds after the grid has run, as one function of the arrays it reads, on
  extended reals.

  The region updates a node type with one incoming relation, 20000 rows in 10 blocks of 2000. Point t of the grid reads
  rows 2000·t … 2000·t + 1999 of the neighbour means and of the node's own features, the two weight matrices and the bias
  whole, and writes back rows 2000·t … 2000·t + 1999 of
      max( Σ_k mean[0,r,k]·Wl[0,k,q] + Σ_k x[r,k]·Wr[k,q] + b[q], 0 ).
  An entry of the written block depends only on its own row of the means and features, so each point writes exactly its
  block of that one whole-array function; the 10 blocks tile the rows (row r lies in block r / 2000), so the array ends
  holding the function everywhere.
-/
import proofs.«165177_j32074815766916_1_alg».proof.Proof.FIL9
import proofs.«165177_j32074815766916_1_alg».proof.Proof.IdxSpec
import proofs.«165177_j32074815766916_1_alg».proof.Proof.Reg9Pay
import Idealize.ShloMosaic.Lib.Pipeline.Value
import Idealize.ShloMosaic.Lib.ValueIdx

set_option maxRecDepth 16384

noncomputable section

namespace Cert.KernelIdeal.RegVal9

open Idealize.ShloMosaic Idealize.ShloMosaic.TcCoe Idealize.ShloMosaic.ValueIdx Cert.KernelIdeal Cert.KernelIdeal.Gen Cert.KernelIdeal.GenP
open Idealize.ShloMosaic.Pipeline (Dat)

/-! ## The arrays the region reads, by their literal types -/

variable (V : (c : Dev nD) → (b : Ref sig .tc) → Buf (Elt Ideal) ((c : Thread nD τ).loc b))

/-- The stacked neighbour means (one relation), 20000 rows. -/
noncomputable abbrev meansArr (c : Dev nD) : Vec Ideal S1x20000x128 .f32 := V c main_v355
/-- The stacked left weight. -/
noncomputable abbrev wlsArr (c : Dev nD) : Vec Ideal S1x128x128 .f32 := V c main_v356
/-- The node type's own features, 20000 rows. -/
noncomputable abbrev xdArr (c : Dev nD) : Vec Ideal S20000x128 .f32 := V c main_v235
/-- The right weight. -/
noncomputable abbrev wrArr (c : Dev nD) : Vec Ideal S128x128 .f32 := V c main_v352
/-- The bias. -/
noncomputable abbrev biasArr (c : Dev nD) : Vec Ideal S128 .f32 := V c main_v354

/-- What the region's output array ends holding: the one-relation update of all 20000 rows. -/
noncomputable abbrev updArr (c : Dev nD) : Vec Ideal S20000x128 .f32 :=
  Cert.IdxSpec.sage1 20000 (meansArr V c) (wlsArr V c) (xdArr V c) (wrArr V c) (biasArr V c)

/-- The update at row r, column q, with the coordinates named. -/
theorem updArr_at (c : Dev nD) (i : S20000x128.Idx) (r : Fin 20000) (q : Fin 128) (hi : i = ix2 r q) :
    updArr V c i
      = max (((∑ k : Fin 128, meansArr V c (ix3 (0 : Fin 1) r k) * wlsArr V c (ix3 (0 : Fin 1) k q))
          + ∑ k : Fin 128, xdArr V c (ix2 r k) * wrArr V c (ix2 k q))
          + biasArr V c (ix1 q)) 0 := by
  subst hi; rfl

/-! ## The index maps over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid's points: the means' and the features' blocks move down the rows with
    the output's block; the two weights and the bias are taken whole at every point; the output's block index is the
    point's number. -/
theorem idx_facts : ∀ t : Fin cfg9.N,
    win9_0.index t (0 : Fin 3) = 0 ∧ win9_0.index t (1 : Fin 3) = win9_5.index t (0 : Fin 2) ∧ win9_0.index t (2 : Fin 3) = 0
    ∧ win9_1.index t (0 : Fin 3) = 0 ∧ win9_1.index t (1 : Fin 3) = 0 ∧ win9_1.index t (2 : Fin 3) = 0
    ∧ win9_2.index t (0 : Fin 2) = win9_5.index t (0 : Fin 2) ∧ win9_2.index t (1 : Fin 2) = 0
    ∧ win9_3.index t (0 : Fin 2) = 0 ∧ win9_3.index t (1 : Fin 2) = 0
    ∧ win9_4.index t (0 : Fin 1) = 0
    ∧ win9_5.index t (0 : Fin 2) = t.val ∧ win9_5.index t (1 : Fin 2) = 0 :=
  (by decide +kernel : ∀ t : Fin grid9.N, _)

/-! ## Each input window's block, read off its array -/

/-- The means' block at point t is rows 2000·b … 2000·b + 1999 of the means, b the output's block index at t. -/
theorem means_blk (c : Dev nD) (t : Fin cfg9.N) (y : S1x2000x128.Idx) (i : S1x20000x128.Idx)
    (h0 : (i 0).val = (y 0).val) (h1 : (i 1).val = win9_5.index t (0 : Fin 2) * 2000 + (y 1).val) (h2 : (i 2).val = (y 2).val) :
    (iblk9 V c 0 t : Vec Ideal S1x2000x128 .f32) y = meansArr V c i := by
  obtain ⟨e0, e1, e2, -⟩ := idx_facts t
  unfold iblk9
  rw [View.read_apply]
  show V c main_v355 _ = V c main_v355 _
  congr 1
  funext a
  apply Fin.ext
  match a with
  | ⟨0, _⟩ => show win9_0.index t (0 : Fin 3) * 1 + 1 * (y 0).val = (i 0).val; rw [e0, h0]; omega
  | ⟨1, _⟩ => show win9_0.index t (1 : Fin 3) * 2000 + 1 * (y 1).val = (i 1).val; rw [e1, h1]; omega
  | ⟨2, _⟩ => show win9_0.index t (2 : Fin 3) * 128 + 1 * (y 2).val = (i 2).val; rw [e2, h2]; omega

/-- The features' block at point t is the same rows of the features. -/
theorem xd_blk (c : Dev nD) (t : Fin cfg9.N) (y : S2000x128.Idx) (i : S20000x128.Idx)
    (h0 : (i 0).val = win9_5.index t (0 : Fin 2) * 2000 + (y 0).val) (h1 : (i 1).val = (y 1).val) :
    (iblk9 V c 2 t : Vec Ideal S2000x128 .f32) y = xdArr V c i := by
  obtain ⟨-, -, -, -, -, -, e0, e1, -⟩ := idx_facts t
  unfold iblk9
  rw [View.read_apply]
  show V c main_v235 _ = V c main_v235 _
  congr 1
  funext a
  apply Fin.ext
  match a with
  | ⟨0, _⟩ => show win9_2.index t (0 : Fin 2) * 2000 + 1 * (y 0).val = (i 0).val; rw [e0, h0]; omega
  | ⟨1, _⟩ => show win9_2.index t (1 : Fin 2) * 128 + 1 * (y 1).val = (i 1).val; rw [e1, h1]; omega

/-- The left weight's window takes the whole array at every point. -/
theorem wls_blk (c : Dev nD) (t : Fin cfg9.N) : (iblk9 V c 1 t : Vec Ideal S1x128x128 .f32) = wlsArr V c := by
  obtain ⟨-, -, -, e0, e1, e2, -⟩ := idx_facts t
  funext y
  unfold iblk9
  rw [View.read_apply]
  show V c main_v356 _ = V c main_v356 _
  congr 1
  funext a
  apply Fin.ext
  match a with
  | ⟨0, _⟩ => show win9_1.index t (0 : Fin 3) * 1 + 1 * (y 0).val = (y 0).val; rw [e0]; omega
  | ⟨1, _⟩ => show win9_1.index t (1 : Fin 3) * 128 + 1 * (y 1).val = (y 1).val; rw [e1]; omega
  | ⟨2, _⟩ => show win9_1.index t (2 : Fin 3) * 128 + 1 * (y 2).val = (y 2).val; rw [e2]; omega

/-- The right weight's window takes the whole array at every point. -/
theorem wr_blk (c : Dev nD) (t : Fin cfg9.N) : (iblk9 V c 3 t : Vec Ideal S128x128 .f32) = wrArr V c := by
  obtain ⟨-, -, -, -, -, -, -, -, e0, e1, -⟩ := idx_facts t
  funext y
  unfold iblk9
  rw [View.read_apply]
  show V c main_v352 _ = V c main_v352 _
  congr 1
  funext a
  apply Fin.ext
  match a with
  | ⟨0, _⟩ => show win9_3.index t (0 : Fin 2) * 128 + 1 * (y 0).val = (y 0).val; rw [e0]; omega
  | ⟨1, _⟩ => show win9_3.index t (1 : Fin 2) * 128 + 1 * (y 1).val = (y 1).val; rw [e1]; omega

/-- The bias's window takes the whole array at every point. -/
theorem bias_blk (c : Dev nD) (t : Fin cfg9.N) : (iblk9 V c 4 t : Vec Ideal S128 .f32) = biasArr V c := by
  obtain ⟨-, -, -, -, -, -, -, -, -, -, e0, -⟩ := idx_facts t
  funext y
  unfold iblk9
  rw [View.read_apply]
  show V c main_v354 _ = V c main_v354 _
  congr 1
  funext a
  apply Fin.ext
  match a with
  | ⟨0, _⟩ => show win9_4.index t (0 : Fin 1) * 128 + 1 * (y 0).val = (y 0).val; rw [e0]; omega

/-! ## What one point writes back -/

/-- The body's stored block from the five input blocks, without the load and store rectangles (each is the whole
    staging buffer). -/
theorem out_eq (x0 : Vec Ideal S1x2000x128 .f32) (x1 : Vec Ideal S1x128x128 .f32) (x2 : Vec Ideal S2000x128 .f32)
    (x3 : Vec Ideal S128x128 .f32) (x4 : Vec Ideal S128 .f32) :
    out9_5 (F := Ideal) x0 x1 x2 x3 x4 = k9_pay1 (F := Ideal) x0 x1 x2 x3 x4 := by
  unfold out9_5
  rw [View.canon_unit_zero hz2]
  simp only [View.ld_unit_zero (S := S1x2000x128) hz3, View.ld_unit_zero (S := S1x128x128) hz3,
    View.ld_unit_zero (S := S2000x128) hz2, View.ld_unit_zero (S := S128x128) hz2, View.ld_unit_zero (S := S128) hz1]

/-- The output block's entry (p, q) at point t sits at row 2000·b + p, column q of the array, b the block index. -/
theorem out_emb (t : Fin cfg9.N) (p : Fin 2000) (q : Fin 128) (r : Fin 20000)
    (hr : r.val = win9_5.index t (0 : Fin 2) * 2000 + p.val) :
    ((cfg9.win 5).blk t).view.emb (ix2 p q) = (ix2 r q : S20000x128.Idx) := by
  obtain ⟨-, -, -, -, -, -, -, -, -, -, -, -, e1⟩ := idx_facts t
  funext a
  apply Fin.ext
  match a with
  | ⟨0, _⟩ => show win9_5.index t (0 : Fin 2) * 2000 + 1 * p.val = r.val; rw [hr]; omega
  | ⟨1, _⟩ => show win9_5.index t (1 : Fin 2) * 128 + 1 * q.val = q.val; rw [e1]; omega

/-- What point t writes back is block t of the update of all rows: entry (p, q) of the stored block is the update at
    row 2000·b + p, column q, b the output's block index at t — each sum termwise, the means' and the features' blocks
    read at those rows. -/
theorem flushed_eq (c : Dev nD) (t : Fin cfg9.N) :
    (dat9 (F := Ideal) V c).flushed 5 t = ((cfg9.win 5).blk t).view.read (Elt Ideal) (updArr V c) := by
  show (cfg9.win 5).cut (grid9.coords t) ((dat9 V c).after 5 t) = _
  rw [after9_5, out_eq, wls_blk, wr_blk, bias_blk]
  funext j
  obtain ⟨p, q, rfl⟩ : ∃ (p : Fin 2000) (q : Fin 128), j = ix2 p q := ⟨j 0, j 1, eq_ix2 j⟩
  obtain ⟨-, -, -, -, -, -, -, -, -, -, -, e0, -⟩ := idx_facts t
  have hN : cfg9.N = 10 := N_9
  have ht : t.val < 10 := hN ▸ t.isLt
  obtain ⟨r, hr⟩ : ∃ r : Fin 20000, r.val = win9_5.index t (0 : Fin 2) * 2000 + p.val :=
    ⟨⟨win9_5.index t (0 : Fin 2) * 2000 + p.val, by rw [e0]; have := p.isLt; omega⟩, rfl⟩
  rw [View.read_apply]
  show k9_pay1 (F := Ideal) (iblk9 V c 0 t) (wlsArr V c) (iblk9 V c 2 t) (wrArr V c) (biasArr V c) (ix2 p q)
    = updArr V c (((cfg9.win 5).blk t).view.emb (ix2 p q))
  rw [out_emb t p q r hr, updArr_at V c _ r q rfl]
  refine (pay_at _ _ _ _ _ p q).trans ?_
  refine congrArg₂ max (congrArg₂ (· + ·) (congrArg₂ (· + ·) (Finset.sum_congr rfl fun k _ => ?_) (Finset.sum_congr rfl fun k _ => ?_)) rfl) rfl
  · exact congrArg (· * _) (means_blk V c t (ix3 (0 : Fin 1) p k) (ix3 (0 : Fin 1) r k) rfl hr rfl)
  · exact congrArg (· * _) (xd_blk V c t (ix2 p k) (ix2 r k) hr rfl)

/-! ## The blocks cover the array -/

/-- An index of the array is in point t's block iff each coordinate is in the block's range on its axis. -/
theorem mem_blk (t : Fin cfg9.N) (i : S20000x128.Idx) :
    i ∈ ((cfg9.win 5).blk t).view.set ↔ ∀ a : Fin 2, win9_5.index t a * S2000x128.size a ≤ (i a).val ∧ (i a).val < win9_5.index t a * S2000x128.size a + S2000x128.size a := by
  show i ∈ ((View.whole main_v357).slice (win9_5.rect t)).set ↔ _
  rw [View.set_slice_whole, Rect.mem_set_unit]
  exact Iff.rfl

/-- Row r of the array is written by the point numbered r / 2000 (and every point writes its block back). -/
theorem cover (i : S20000x128.Idx) :
    ∃ t : Fin cfg9.N, (cfg9.win 5).flush t = true ∧ i ∈ ((cfg9.win 5).blk t).view.set := by
  have hi0 : (i 0).val < 20000 := (i 0).isLt
  have hi1 : (i 1).val < 128 := (i 1).isLt
  have hN : cfg9.N = 10 := N_9
  obtain ⟨t, ht⟩ : ∃ t : Fin cfg9.N, t.val = (i 0).val / 2000 := ⟨⟨(i 0).val / 2000, by rw [hN]; omega⟩, rfl⟩
  obtain ⟨-, -, -, -, -, -, -, -, -, -, -, e0, e1⟩ := idx_facts t
  refine ⟨t, flush9_5 t, ?_⟩
  rw [mem_blk]
  intro a
  match a with
  | ⟨0, _⟩ =>
    show win9_5.index t (0 : Fin 2) * 2000 ≤ (i 0).val ∧ (i 0).val < win9_5.index t (0 : Fin 2) * 2000 + 2000
    rw [e0, ht]; omega
  | ⟨1, _⟩ =>
    show win9_5.index t (1 : Fin 2) * 128 ≤ (i 1).val ∧ (i 1).val < win9_5.index t (1 : Fin 2) * 128 + 128
    rw [e1]; omega

/-! ## The array after the run -/

/-- THE REGION'S VALUE: after the grid has run, the output array holds the one-relation update of all 20000 rows — every
    point writes its block of it, and the blocks cover the array. -/
theorem arr (c : Dev nD) :
    (dat9 (F := Ideal) V c).arrAt 5 cfg9.N
      = Cert.IdxSpec.sage1 20000 (V c main_v355) (V c main_v356) (V c main_v235) (V c main_v352) (V c main_v354) :=
  (dat9 V c).arrAt_eq_of_cover 5 (updArr V c) (fun t _ => flushed_eq V c t) cover

end Cert.KernelIdeal.RegVal9

end
-- ==== Proof.KW9.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg9
import proofs.«165177_j32074815766916_1_alg».proof.Proof.KW7
import proofs.«165177_j32074815766916_1_alg».proof.Proof.KW5
import proofs.«165177_j32074815766916_1_alg».proof.Proof.KStab1
import proofs.«165177_j32074815766916_1_alg».proof.Proof.KStab6
import proofs.«165177_j32074815766916_1_alg».proof.Proof.KStab0
import proofs.«165177_j32074815766916_1_alg».proof.Proof.KStab7
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem win9_0 : W18 m ρ c (Proc.devRef .tc main_v355) = pack1T (aggPT (K.mp2 (argsK m c)) (argsK m c).spt (argsK m c).dpt) := by
  have h0 := ((st_main_v318_17 m ρ c).trans (kv_main_v318 m ρ c))
  show StableHlo.after hostOps9 (W17 m ρ c) (Proc.devRef .tc main_v355) = _
  generalize W17 m ρ c = Wx at *
  unfold hostOps9
  after_results_simp
  simp only [h0]
  try rfl

theorem win9_1 : W18 m ρ c (Proc.devRef .tc main_v356) = pack1W (wmat 0 2 Facts₀.slices_S2x4x128x128_S1x1x128x128_0_2_0_0 (slab5 1 Facts₀.slices_S3x2x4x128x128_S1x2x4x128x128_1_0_0_0_0 (argsK m c).Wl)) := by
  have h0 := ((st_main_v238_17 m ρ c).trans (kv_main_v238 m ρ c))
  show StableHlo.after hostOps9 (W17 m ρ c) (Proc.devRef .tc main_v356) = _
  generalize W17 m ρ c = Wx at *
  unfold hostOps9
  after_results_simp
  simp only [h0]
  try rfl

theorem win9_2 : W18 m ρ c (Proc.devRef .tc main_v235) = K.mt2 (argsK m c) := ((st_main_v235_18 m ρ c).trans (kv_main_v235 m ρ c))

theorem win9_3 : W18 m ρ c (Proc.devRef .tc main_v352) = wmat 0 2 Facts₀.slices_S2x4x128x128_S1x1x128x128_0_2_0_0 (slab5 1 Facts₀.slices_S3x2x4x128x128_S1x2x4x128x128_1_0_0_0_0 (argsK m c).Wr) := by
  have h0 := ((st_main_v242_17 m ρ c).trans (kv_main_v242 m ρ c))
  show StableHlo.after hostOps9 (W17 m ρ c) (Proc.devRef .tc main_v352) = _
  generalize W17 m ρ c = Wx at *
  unfold hostOps9
  after_results_simp
  simp only [h0]
  try rfl

theorem win9_4 : W18 m ρ c (Proc.devRef .tc main_v354) = wvec 0 2 Facts₀.slices_S2x4x128_S1x1x128_0_2_0 (slab4 1 Facts₀.slices_S3x2x4x128_S1x2x4x128_1_0_0_0 (argsK m c).bl) := by
  have h0 := ((st_main_v240_17 m ρ c).trans (kv_main_v240 m ρ c))
  show StableHlo.after hostOps9 (W17 m ρ c) (Proc.devRef .tc main_v354) = _
  generalize W17 m ρ c = Wx at *
  unfold hostOps9
  after_results_simp
  simp only [h0]
  try rfl

theorem kv_main_v357 : W19 m ρ c (Proc.devRef .tc main_v357) = K.gt1 (argsK m c) := by
  refine (W19_arr m ρ c 5).trans ?_
  refine (Cert.KernelIdeal.RegVal9.arr (V18 m ρ) c).trans ?_
  show Cert.IdxSpec.sage1 20000 (W18 m ρ c (Proc.devRef .tc main_v355)) (W18 m ρ c (Proc.devRef .tc main_v356)) (W18 m ρ c (Proc.devRef .tc main_v235)) (W18 m ρ c (Proc.devRef .tc main_v352)) (W18 m ρ c (Proc.devRef .tc main_v354)) = _
  rw [win9_0 m ρ c, win9_1 m ρ c, win9_2 m ρ c, win9_3 m ρ c, win9_4 m ρ c]
  rfl

end Cert.KernelIdeal.KW

end
-- ==== Proof.KW10.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg10
import proofs.«165177_j32074815766916_1_alg».proof.Proof.KWArgs
import proofs.«165177_j32074815766916_1_alg».proof.Proof.KW8
import proofs.«165177_j32074815766916_1_alg».proof.Proof.KW9
import proofs.«165177_j32074815766916_1_alg».proof.Proof.KW7
import proofs.«165177_j32074815766916_1_alg».proof.Proof.KStab0
import proofs.«165177_j32074815766916_1_alg».proof.Proof.KStab2
import proofs.«165177_j32074815766916_1_alg».proof.Proof.KStab3
import proofs.«165177_j32074815766916_1_alg».proof.Proof.KStab4
import proofs.«165177_j32074815766916_1_alg».proof.Proof.KStab6
import proofs.«165177_j32074815766916_1_alg».proof.Proof.KStab7
import proofs.«165177_j32074815766916_1_alg».proof.Proof.KStab1
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem kv_main_v414 : W20 m ρ c (Proc.devRef .tc main_v414) = aggPA (K.gp1 (argsK m c)) (argsK m c).spa (argsK m c).dpa := by
  have h0 := ((st_main_arg15_19 m ρ c).trans (kv_main_arg15 m ρ c))
  have h1 := ((st_main_v339_19 m ρ c).trans (kv_main_v339 m ρ c))
  have h2 := ((st_main_arg14_19 m ρ c).trans (kv_main_arg14 m ρ c))
  show StableHlo.after hostOps10 (W19 m ρ c) (Proc.devRef .tc main_v414) = _
  generalize W19 m ρ c = Wx at *
  unfold hostOps10
  after_results_simp
  simp only [h0, h1, h2]
  try rfl

theorem kv_main_v433 : W20 m ρ c (Proc.devRef .tc main_v433) = aggPT (K.gp1 (argsK m c)) (argsK m c).spt (argsK m c).dpt := by
  have h0 := ((st_main_arg17_19 m ρ c).trans (kv_main_arg17 m ρ c))
  have h1 := ((st_main_v339_19 m ρ c).trans (kv_main_v339 m ρ c))
  have h2 := ((st_main_arg16_19 m ρ c).trans (kv_main_arg16 m ρ c))
  show StableHlo.after hostOps10 (W19 m ρ c) (Proc.devRef .tc main_v433) = _
  generalize W19 m ρ c = Wx at *
  unfold hostOps10
  after_results_simp
  simp only [h0, h1, h2]
  try rfl

theorem win10_0 : W20 m ρ c (Proc.devRef .tc main_v450) = pack2P (aggAP (K.ga1 (argsK m c)) (argsK m c).sap (argsK m c).dap) (aggTP (K.gt1 (argsK m c)) (argsK m c).stp (argsK m c).dtp) := by
  have h0 := ((st_main_arg13_19 m ρ c).trans (kv_main_arg13 m ρ c))
  have h1 := ((st_main_v348_19 m ρ c).trans (kv_main_v348 m ρ c))
  have h2 := ((st_main_arg12_19 m ρ c).trans (kv_main_arg12 m ρ c))
  have h3 := ((st_main_arg19_19 m ρ c).trans (kv_main_arg19 m ρ c))
  have h4 := (kv_main_v357 m ρ c)
  have h5 := ((st_main_arg18_19 m ρ c).trans (kv_main_arg18 m ρ c))
  show StableHlo.after hostOps10 (W19 m ρ c) (Proc.devRef .tc main_v450) = _
  generalize W19 m ρ c = Wx at *
  unfold hostOps10
  after_results_simp
  refine pack2P_of (F := Ideal) ?_ ?_ _
  all_goals after_results_simp
  all_goals (simp only [h0, h1, h2, h3, h4, h5]; try rfl)

theorem win10_1 : W20 m ρ c (Proc.devRef .tc main_v453) = pack2W (wmat 1 0 Facts₀.slices_S2x4x128x128_S1x1x128x128_1_0_0_0 (slab5 1 Facts₀.slices_S3x2x4x128x128_S1x2x4x128x128_1_0_0_0_0 (argsK m c).Wl)) (wmat 1 3 Facts₀.slices_S2x4x128x128_S1x1x128x128_1_3_0_0 (slab5 1 Facts₀.slices_S3x2x4x128x128_S1x2x4x128x128_1_0_0_0_0 (argsK m c).Wl)) := by
  have h0 := ((st_main_v238_19 m ρ c).trans (kv_main_v238 m ρ c))
  show StableHlo.after hostOps10 (W19 m ρ c) (Proc.devRef .tc main_v453) = _
  generalize W19 m ρ c = Wx at *
  unfold hostOps10
  after_results_simp
  refine pack2W_of (F := Ideal) ?_ ?_ _
  all_goals after_results_simp
  all_goals (simp only [h0]; try rfl)

theorem win10_2 : W20 m ρ c (Proc.devRef .tc main_v339) = K.gp1 (argsK m c) := ((st_main_v339_20 m ρ c).trans (kv_main_v339 m ρ c))

theorem win10_3 : W20 m ρ c (Proc.devRef .tc main_v442) = addf (wmat 1 0 Facts₀.slices_S2x4x128x128_S1x1x128x128_1_0_0_0 (slab5 1 Facts₀.slices_S3x2x4x128x128_S1x2x4x128x128_1_0_0_0_0 (argsK m c).Wr)) (wmat 1 3 Facts₀.slices_S2x4x128x128_S1x1x128x128_1_3_0_0 (slab5 1 Facts₀.slices_S3x2x4x128x128_S1x2x4x128x128_1_0_0_0_0 (argsK m c).Wr)) := by
  have h0 := ((st_main_v242_19 m ρ c).trans (kv_main_v242 m ρ c))
  show StableHlo.after hostOps10 (W19 m ρ c) (Proc.devRef .tc main_v442) = _
  generalize W19 m ρ c = Wx at *
  unfold hostOps10
  after_results_simp
  simp only [h0]
  try rfl

theorem win10_4 : W20 m ρ c (Proc.devRef .tc main_v447) = addf (wvec 1 0 Facts₀.slices_S2x4x128_S1x1x128_1_0_0 (slab4 1 Facts₀.slices_S3x2x4x128_S1x2x4x128_1_0_0_0 (argsK m c).bl)) (wvec 1 3 Facts₀.slices_S2x4x128_S1x1x128_1_3_0 (slab4 1 Facts₀.slices_S3x2x4x128_S1x2x4x128_1_0_0_0 (argsK m c).bl)) := by
  have h0 := ((st_main_v240_19 m ρ c).trans (kv_main_v240 m ρ c))
  show StableHlo.after hostOps10 (W19 m ρ c) (Proc.devRef .tc main_v447) = _
  generalize W19 m ρ c = Wx at *
  unfold hostOps10
  after_results_simp
  simp only [h0]
  try rfl

theorem kv_main_v454 : W21 m ρ c (Proc.devRef .tc main_v454) = K.gp2 (argsK m c) := by
  refine (W21_arr m ρ c 5).trans ?_
  refine (Cert.KernelIdeal.RegVal10.arr (V20 m ρ) c).trans ?_
  show Cert.IdxSpec.sage2 100000 (W20 m ρ c (Proc.devRef .tc main_v450)) (W20 m ρ c (Proc.devRef .tc main_v453)) (W20 m ρ c (Proc.devRef .tc main_v339)) (W20 m ρ c (Proc.devRef .tc main_v442)) (W20 m ρ c (Proc.devRef .tc main_v447)) = _
  rw [win10_0 m ρ c, win10_1 m ρ c, win10_2 m ρ c, win10_3 m ρ c, win10_4 m ρ c]
  rfl

end Cert.KernelIdeal.KW

end
-- ==== Proof.KW11.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg11
import proofs.«165177_j32074815766916_1_alg».proof.Proof.KW10
import proofs.«165177_j32074815766916_1_alg».proof.Proof.KW7
import proofs.«165177_j32074815766916_1_alg».proof.Proof.KW8
import proofs.«165177_j32074815766916_1_alg».proof.Proof.KStab4
import proofs.«165177_j32074815766916_1_alg».proof.Proof.KStab6
import proofs.«165177_j32074815766916_1_alg».proof.Proof.KStab2
import proofs.«165177_j32074815766916_1_alg».proof.Proof.KStab7
import proofs.«165177_j32074815766916_1_alg».proof.Proof.KStab0
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem win11_0 : W22 m ρ c (Proc.devRef .tc main_v461) = pack1A (aggPA (K.gp1 (argsK m c)) (argsK m c).spa (argsK m c).dpa) := by
  have h0 := ((st_main_v414_21 m ρ c).trans (kv_main_v414 m ρ c))
  show StableHlo.after hostOps11 (W21 m ρ c) (Proc.devRef .tc main_v461) = _
  generalize W21 m ρ c = Wx at *
  unfold hostOps11
  after_results_simp
  simp only [h0]
  try rfl

theorem win11_1 : W22 m ρ c (Proc.devRef .tc main_v462) = pack1W (wmat 1 1 Facts₀.slices_S2x4x128x128_S1x1x128x128_1_1_0_0 (slab5 1 Facts₀.slices_S3x2x4x128x128_S1x2x4x128x128_1_0_0_0_0 (argsK m c).Wl)) := by
  have h0 := ((st_main_v238_21 m ρ c).trans (kv_main_v238 m ρ c))
  show StableHlo.after hostOps11 (W21 m ρ c) (Proc.devRef .tc main_v462) = _
  generalize W21 m ρ c = Wx at *
  unfold hostOps11
  after_results_simp
  simp only [h0]
  try rfl

theorem win11_2 : W22 m ρ c (Proc.devRef .tc main_v348) = K.ga1 (argsK m c) := ((st_main_v348_22 m ρ c).trans (kv_main_v348 m ρ c))

theorem win11_3 : W22 m ρ c (Proc.devRef .tc main_v458) = wmat 1 1 Facts₀.slices_S2x4x128x128_S1x1x128x128_1_1_0_0 (slab5 1 Facts₀.slices_S3x2x4x128x128_S1x2x4x128x128_1_0_0_0_0 (argsK m c).Wr) := by
  have h0 := ((st_main_v242_21 m ρ c).trans (kv_main_v242 m ρ c))
  show StableHlo.after hostOps11 (W21 m ρ c) (Proc.devRef .tc main_v458) = _
  generalize W21 m ρ c = Wx at *
  unfold hostOps11
  after_results_simp
  simp only [h0]
  try rfl

theorem win11_4 : W22 m ρ c (Proc.devRef .tc main_v460) = wvec 1 1 Facts₀.slices_S2x4x128_S1x1x128_1_1_0 (slab4 1 Facts₀.slices_S3x2x4x128_S1x2x4x128_1_0_0_0 (argsK m c).bl) := by
  have h0 := ((st_main_v240_21 m ρ c).trans (kv_main_v240 m ρ c))
  show StableHlo.after hostOps11 (W21 m ρ c) (Proc.devRef .tc main_v460) = _
  generalize W21 m ρ c = Wx at *
  unfold hostOps11
  after_results_simp
  simp only [h0]
  try rfl

theorem kv_main_v463 : W23 m ρ c (Proc.devRef .tc main_v463) = K.ga2 (argsK m c) := by
  refine (W23_arr m ρ c 5).trans ?_
  refine (Cert.KernelIdeal.RegVal11.arr (V22 m ρ) c).trans ?_
  show Cert.IdxSpec.sage1 40000 (W22 m ρ c (Proc.devRef .tc main_v461)) (W22 m ρ c (Proc.devRef .tc main_v462)) (W22 m ρ c (Proc.devRef .tc main_v348)) (W22 m ρ c (Proc.devRef .tc main_v458)) (W22 m ρ c (Proc.devRef .tc main_v460)) = _
  rw [win11_0 m ρ c, win11_1 m ρ c, win11_2 m ρ c, win11_3 m ρ c, win11_4 m ρ c]
  rfl

end Cert.KernelIdeal.KW

end
-- ==== Proof.KW13.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg13
import proofs.«165177_j32074815766916_1_alg».proof.Proof.KW11
import proofs.«165177_j32074815766916_1_alg».proof.Proof.KWArgs
import proofs.«165177_j32074815766916_1_alg».proof.Proof.KStab7
import proofs.«165177_j32074815766916_1_alg».proof.Proof.KStab0
import proofs.«165177_j32074815766916_1_alg».proof.Proof.KStab1
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem win13_0 : W25 m ρ c (Proc.devRef .tc main_v463) = K.ga2 (argsK m c) := ((st_main_v463_25 m ρ c).trans (kv_main_v463 m ρ c))

theorem win13_1 : W25 m ρ c (Proc.devRef .tc main_arg8) = (argsK m c).ltW := ((st_main_arg8_25 m ρ c).trans (kv_main_arg8 m ρ c))

theorem win13_2 : W25 m ρ c (Proc.devRef .tc main_arg9) = (argsK m c).ltb := ((st_main_arg9_25 m ρ c).trans (kv_main_arg9 m ρ c))

theorem kv_main_v473 : W26 m ρ c (Proc.devRef .tc main_v473) = K.ll1 (argsK m c) := by
  refine (W26_arr m ρ c 3).trans ?_
  refine (Cert.KernelIdeal.RegVal13.arr (V25 m ρ) c).trans ?_
  show Cert.IdxSpec.lin 40000 (W25 m ρ c (Proc.devRef .tc main_v463)) (W25 m ρ c (Proc.devRef .tc main_arg8)) (W25 m ρ c (Proc.devRef .tc main_arg9)) = _
  rw [win13_0 m ρ c, win13_1 m ρ c, win13_2 m ρ c]
  rfl

end Cert.KernelIdeal.KW

end
-- ==== Proof.KW14.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg14
import proofs.«165177_j32074815766916_1_alg».proof.Proof.KWArgs
import proofs.«165177_j32074815766916_1_alg».proof.Proof.KW13
import proofs.«165177_j32074815766916_1_alg».proof.Proof.KStab0
import proofs.«165177_j32074815766916_1_alg».proof.Proof.KStab3
import proofs.«165177_j32074815766916_1_alg».proof.Proof.KStab2
import proofs.«165177_j32074815766916_1_alg».proof.Proof.KStab7
import proofs.«165177_j32074815766916_1_alg».proof.Proof.KStab4
import proofs.«165177_j32074815766916_1_alg».proof.Proof.KStab1
import proofs.«165177_j32074815766916_1_alg».proof.Proof.KStab6
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem kv_main_v477 : W27 m ρ c (Proc.devRef .tc main_v477) = temp (K.ll1 (argsK m c)) (argsK m c).l2W (argsK m c).l2b := by
  have h0 := (kv_main_v473 m ρ c)
  have h1 := ((st_main_arg10_26 m ρ c).trans (kv_main_arg10 m ρ c))
  have h2 := ((st_main_arg11_26 m ρ c).trans (kv_main_arg11 m ρ c))
  show StableHlo.after hostOps14 (W26 m ρ c) (Proc.devRef .tc main_v477) = _
  generalize W26 m ρ c = Wx at *
  unfold hostOps14
  after_results_simp
  simp only [h0, h1, h2]
  try rfl

theorem kv_main_v479 : W27 m ρ c (Proc.devRef .tc main_v479) = slab5 2 Facts₀.slices_S3x2x4x128x128_S1x2x4x128x128_2_0_0_0_0 (argsK m c).Wl := by
  have h0 := ((st_main_arg3_26 m ρ c).trans (kv_main_arg3 m ρ c))
  show StableHlo.after hostOps14 (W26 m ρ c) (Proc.devRef .tc main_v479) = _
  generalize W26 m ρ c = Wx at *
  unfold hostOps14
  after_results_simp
  simp only [h0]
  try rfl

theorem kv_main_v481 : W27 m ρ c (Proc.devRef .tc main_v481) = slab4 2 Facts₀.slices_S3x2x4x128_S1x2x4x128_2_0_0_0 (argsK m c).bl := by
  have h0 := ((st_main_arg4_26 m ρ c).trans (kv_main_arg4 m ρ c))
  show StableHlo.after hostOps14 (W26 m ρ c) (Proc.devRef .tc main_v481) = _
  generalize W26 m ρ c = Wx at *
  unfold hostOps14
  after_results_simp
  simp only [h0]
  try rfl

theorem kv_main_v483 : W27 m ρ c (Proc.devRef .tc main_v483) = slab5 2 Facts₀.slices_S3x2x4x128x128_S1x2x4x128x128_2_0_0_0_0 (argsK m c).Wr := by
  have h0 := ((st_main_arg5_26 m ρ c).trans (kv_main_arg5 m ρ c))
  show StableHlo.after hostOps14 (W26 m ρ c) (Proc.devRef .tc main_v483) = _
  generalize W26 m ρ c = Wx at *
  unfold hostOps14
  after_results_simp
  simp only [h0]
  try rfl

theorem kv_main_v540 : W27 m ρ c (Proc.devRef .tc main_v540) = aggPA ((argsK m c).xp) (argsK m c).spa (argsK m c).dpa := by
  have h0 := ((st_main_arg15_26 m ρ c).trans (kv_main_arg15 m ρ c))
  have h1 := ((st_main_arg1_26 m ρ c).trans (kv_main_arg1 m ρ c))
  have h2 := ((st_main_arg14_26 m ρ c).trans (kv_main_arg14 m ρ c))
  show StableHlo.after hostOps14 (W26 m ρ c) (Proc.devRef .tc main_v540) = _
  generalize W26 m ρ c = Wx at *
  unfold hostOps14
  after_results_simp
  simp only [h0, h1, h2]
  try rfl

theorem kv_main_v559 : W27 m ρ c (Proc.devRef .tc main_v559) = aggPT ((argsK m c).xp) (argsK m c).spt (argsK m c).dpt := by
  have h0 := ((st_main_arg17_26 m ρ c).trans (kv_main_arg17 m ρ c))
  have h1 := ((st_main_arg1_26 m ρ c).trans (kv_main_arg1 m ρ c))
  have h2 := ((st_main_arg16_26 m ρ c).trans (kv_main_arg16 m ρ c))
  show StableHlo.after hostOps14 (W26 m ρ c) (Proc.devRef .tc main_v559) = _
  generalize W26 m ρ c = Wx at *
  unfold hostOps14
  after_results_simp
  simp only [h0, h1, h2]
  try rfl

theorem win14_0 : W27 m ρ c (Proc.devRef .tc main_v576) = pack2P (aggAP ((argsK m c).xa) (argsK m c).sap (argsK m c).dap) (aggTP ((argsK m c).xt) (argsK m c).stp (argsK m c).dtp) := by
  have h0 := ((st_main_arg13_26 m ρ c).trans (kv_main_arg13 m ρ c))
  have h1 := ((st_main_arg0_26 m ρ c).trans (kv_main_arg0 m ρ c))
  have h2 := ((st_main_arg12_26 m ρ c).trans (kv_main_arg12 m ρ c))
  have h3 := ((st_main_arg19_26 m ρ c).trans (kv_main_arg19 m ρ c))
  have h4 := ((st_main_arg2_26 m ρ c).trans (kv_main_arg2 m ρ c))
  have h5 := ((st_main_arg18_26 m ρ c).trans (kv_main_arg18 m ρ c))
  show StableHlo.after hostOps14 (W26 m ρ c) (Proc.devRef .tc main_v576) = _
  generalize W26 m ρ c = Wx at *
  unfold hostOps14
  after_results_simp
  refine pack2P_of (F := Ideal) ?_ ?_ _
  all_goals after_results_simp
  all_goals (simp only [h0, h1, h2, h3, h4, h5]; try rfl)

theorem win14_1 : W27 m ρ c (Proc.devRef .tc main_v579) = pack2W (wmat 0 0 Facts₀.slices_S2x4x128x128_S1x1x128x128_0_0_0_0 (slab5 2 Facts₀.slices_S3x2x4x128x128_S1x2x4x128x128_2_0_0_0_0 (argsK m c).Wl)) (wmat 0 3 Facts₀.slices_S2x4x128x128_S1x1x128x128_0_3_0_0 (slab5 2 Facts₀.slices_S3x2x4x128x128_S1x2x4x128x128_2_0_0_0_0 (argsK m c).Wl)) := by
  have h0 := ((st_main_arg3_26 m ρ c).trans (kv_main_arg3 m ρ c))
  show StableHlo.after hostOps14 (W26 m ρ c) (Proc.devRef .tc main_v579) = _
  generalize W26 m ρ c = Wx at *
  unfold hostOps14
  after_results_simp
  refine pack2W_of (F := Ideal) ?_ ?_ _
  all_goals after_results_simp
  all_goals (simp only [h0]; try rfl)

theorem win14_2 : W27 m ρ c (Proc.devRef .tc main_arg1) = (argsK m c).xp := ((st_main_arg1_27 m ρ c).trans (kv_main_arg1 m ρ c))

theorem win14_3 : W27 m ρ c (Proc.devRef .tc main_v568) = addf (wmat 0 0 Facts₀.slices_S2x4x128x128_S1x1x128x128_0_0_0_0 (slab5 2 Facts₀.slices_S3x2x4x128x128_S1x2x4x128x128_2_0_0_0_0 (argsK m c).Wr)) (wmat 0 3 Facts₀.slices_S2x4x128x128_S1x1x128x128_0_3_0_0 (slab5 2 Facts₀.slices_S3x2x4x128x128_S1x2x4x128x128_2_0_0_0_0 (argsK m c).Wr)) := by
  have h0 := ((st_main_arg5_26 m ρ c).trans (kv_main_arg5 m ρ c))
  show StableHlo.after hostOps14 (W26 m ρ c) (Proc.devRef .tc main_v568) = _
  generalize W26 m ρ c = Wx at *
  unfold hostOps14
  after_results_simp
  simp only [h0]
  try rfl

theorem win14_4 : W27 m ρ c (Proc.devRef .tc main_v573) = addf (wvec 0 0 Facts₀.slices_S2x4x128_S1x1x128_0_0_0 (slab4 2 Facts₀.slices_S3x2x4x128_S1x2x4x128_2_0_0_0 (argsK m c).bl)) (wvec 0 3 Facts₀.slices_S2x4x128_S1x1x128_0_3_0 (slab4 2 Facts₀.slices_S3x2x4x128_S1x2x4x128_2_0_0_0 (argsK m c).bl)) := by
  have h0 := ((st_main_arg4_26 m ρ c).trans (kv_main_arg4 m ρ c))
  show StableHlo.after hostOps14 (W26 m ρ c) (Proc.devRef .tc main_v573) = _
  generalize W26 m ρ c = Wx at *
  unfold hostOps14
  after_results_simp
  simp only [h0]
  try rfl

theorem kv_main_v580 : W28 m ρ c (Proc.devRef .tc main_v580) = K.op1 (argsK m c) := by
  refine (W28_arr m ρ c 5).trans ?_
  refine (Cert.KernelIdeal.RegVal14.arr (V27 m ρ) c).trans ?_
  show Cert.IdxSpec.sage2 100000 (W27 m ρ c (Proc.devRef .tc main_v576)) (W27 m ρ c (Proc.devRef .tc main_v579)) (W27 m ρ c (Proc.devRef .tc main_arg1)) (W27 m ρ c (Proc.devRef .tc main_v568)) (W27 m ρ c (Proc.devRef .tc main_v573)) = _
  rw [win14_0 m ρ c, win14_1 m ρ c, win14_2 m ρ c, win14_3 m ρ c, win14_4 m ρ c]
  rfl

end Cert.KernelIdeal.KW

end
-- ==== Proof.Reg18Pay.lean ====
/-
  Region 1's arithmetic at one entry, on extended reals.

  The body stores one 2000 × 128 block. Its entry at row p and column q is
      max( Σ_k mean[0,p,k]·Wl[0,k,q] + Σ_k x[p,k]·Wr[k,q] + b[q], 0 ),
  where mean is the block of neighbour means (one relation, carried on a leading unit axis), Wl the stacked left weight,
  x the block of the node's own features, Wr the right weight and b the bias. The casts to the narrow format are the
  identity on exact values; each matrix product into a zero accumulator is the sum over its one contracted coordinate;
  dropping or adding a unit axis keeps the row-major position; the bias row is repeated down the rows.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal18

open Idealize.ShloMosaic Idealize.ShloMosaic.ValueIdx Cert.KernelIdeal Cert.KernelIdeal.Gen

/-! ## The matrix product's operand indices, axis by axis -/

/-- The left operand's row is the output's row. -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contracted coordinate. -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contracted coordinate. -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product at an entry -/

/-- A 2000 × 128 by 128 × 128 product into the zero accumulator, at entry (p, q): the sum over the 128 contracted
    coordinates of the products of the two operands' entries. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The stored block at an entry -/

/-- Entry (p, q) of the block the body stores: the two sums, the bias, the clamp at zero. -/
theorem pay_at (x0 : Vec Ideal S1x2000x128 .f32) (x1 : Vec Ideal S1x128x128 .f32) (x2 : Vec Ideal S2000x128 .f32)
    (x3 : Vec Ideal S128x128 .f32) (x4 : Vec Ideal S128 .f32) (p : Fin 2000) (q : Fin 128) :
    k18_pay1 (F := Ideal) x0 x1 x2 x3 x4 (ix2 p q)
      = max (((∑ k : Fin 128, x0 (ix3 (0 : Fin 1) p k) * x1 (ix3 (0 : Fin 1) k q))
          + ∑ k : Fin 128, x2 (ix2 p k) * x3 (ix2 k q))
          + x4 (ix1 q)) 0 := by
  unfold k18_pay1
  rw [maximumf_apply, broadcast_apply, addf_apply, addf_apply, matmul_at, matmul_at,
    broadcastTo_1b_ab_apply, shapeCast_a_1a_apply, shapeCast_self]
  simp only [truncf_apply, shapeCast_1ab_ab_apply, shapeCast_self]
  show max _ (Ideal.ofBits .f32 0x00000000#32) = _
  rw [Ideal.ofBits_zero_f32]

end Cert.KernelIdeal.RegVal18

end
-- ==== Proof.Reg18.lean ====
/-
  Region 1's value: what its output array holds after the grid has run, as one function of the arrays it reads, on
  extended reals.

  The region updates a node type with one incoming relation, 40000 rows in 20 blocks of 2000. Point t of the grid reads
  rows 2000·t … 2000·t + 1999 of the neighbour means and of the node's own features, the two weight matrices and the bias
  whole, and writes back rows 2000·t … 2000·t + 1999 of
      max( Σ_k mean[0,r,k]·Wl[0,k,q] + Σ_k x[r,k]·Wr[k,q] + b[q], 0 ).
  An entry of the written block depends only on its own row of the means and features, so each point writes exactly its
  block of that one whole-array function; the 20 blocks tile the rows (row r lies in block r / 2000), so the array ends
  holding the function everywhere.
-/
import proofs.«165177_j32074815766916_1_alg».proof.Proof.FIL18
import proofs.«165177_j32074815766916_1_alg».proof.Proof.IdxSpec
import proofs.«165177_j32074815766916_1_alg».proof.Proof.Reg18Pay
import Idealize.ShloMosaic.Lib.Pipeline.Value
import Idealize.ShloMosaic.Lib.ValueIdx

set_option maxRecDepth 16384

noncomputable section

namespace Cert.KernelIdeal.RegVal18

open Idealize.ShloMosaic Idealize.ShloMosaic.TcCoe Idealize.ShloMosaic.ValueIdx Cert.KernelIdeal Cert.KernelIdeal.Gen Cert.KernelIdeal.GenP
open Idealize.ShloMosaic.Pipeline (Dat)

/-! ## The arrays the region reads, by their literal types -/

variable (V : (c : Dev nD) → (b : Ref sig .tc) → Buf (Elt Ideal) ((c : Thread nD τ).loc b))

/-- The stacked neighbour means (one relation), 40000 rows. -/
noncomputable abbrev meansArr (c : Dev nD) : Vec Ideal S1x40000x128 .f32 := V c main_v702
/-- The stacked left weight. -/
noncomputable abbrev wlsArr (c : Dev nD) : Vec Ideal S1x128x128 .f32 := V c main_v703
/-- The node type's own features, 40000 rows. -/
noncomputable abbrev xdArr (c : Dev nD) : Vec Ideal S40000x128 .f32 := V c main_v589
/-- The right weight. -/
noncomputable abbrev wrArr (c : Dev nD) : Vec Ideal S128x128 .f32 := V c main_v699
/-- The bias. -/
noncomputable abbrev biasArr (c : Dev nD) : Vec Ideal S128 .f32 := V c main_v701

/-- What the region's output array ends holding: the one-relation update of all 40000 rows. -/
noncomputable abbrev updArr (c : Dev nD) : Vec Ideal S40000x128 .f32 :=
  Cert.IdxSpec.sage1 40000 (meansArr V c) (wlsArr V c) (xdArr V c) (wrArr V c) (biasArr V c)

/-- The update at row r, column q, with the coordinates named. -/
theorem updArr_at (c : Dev nD) (i : S40000x128.Idx) (r : Fin 40000) (q : Fin 128) (hi : i = ix2 r q) :
    updArr V c i
      = max (((∑ k : Fin 128, meansArr V c (ix3 (0 : Fin 1) r k) * wlsArr V c (ix3 (0 : Fin 1) k q))
          + ∑ k : Fin 128, xdArr V c (ix2 r k) * wrArr V c (ix2 k q))
          + biasArr V c (ix1 q)) 0 := by
  subst hi; rfl

/-! ## The index maps over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid's points: the means' and the features' blocks move down the rows with
    the output's block; the two weights and the bias are taken whole at every point; the output's block index is the
    point's number. -/
theorem idx_facts : ∀ t : Fin cfg18.N,
    win18_0.index t (0 : Fin 3) = 0 ∧ win18_0.index t (1 : Fin 3) = win18_5.index t (0 : Fin 2) ∧ win18_0.index t (2 : Fin 3) = 0
    ∧ win18_1.index t (0 : Fin 3) = 0 ∧ win18_1.index t (1 : Fin 3) = 0 ∧ win18_1.index t (2 : Fin 3) = 0
    ∧ win18_2.index t (0 : Fin 2) = win18_5.index t (0 : Fin 2) ∧ win18_2.index t (1 : Fin 2) = 0
    ∧ win18_3.index t (0 : Fin 2) = 0 ∧ win18_3.index t (1 : Fin 2) = 0
    ∧ win18_4.index t (0 : Fin 1) = 0
    ∧ win18_5.index t (0 : Fin 2) = t.val ∧ win18_5.index t (1 : Fin 2) = 0 :=
  (by decide +kernel : ∀ t : Fin grid18.N, _)

/-! ## Each input window's block, read off its array -/

/-- The means' block at point t is rows 2000·b … 2000·b + 1999 of the means, b the output's block index at t. -/
theorem means_blk (c : Dev nD) (t : Fin cfg18.N) (y : S1x2000x128.Idx) (i : S1x40000x128.Idx)
    (h0 : (i 0).val = (y 0).val) (h1 : (i 1).val = win18_5.index t (0 : Fin 2) * 2000 + (y 1).val) (h2 : (i 2).val = (y 2).val) :
    (iblk18 V c 0 t : Vec Ideal S1x2000x128 .f32) y = meansArr V c i := by
  obtain ⟨e0, e1, e2, -⟩ := idx_facts t
  unfold iblk18
  rw [View.read_apply]
  show V c main_v702 _ = V c main_v702 _
  congr 1
  funext a
  apply Fin.ext
  match a with
  | ⟨0, _⟩ => show win18_0.index t (0 : Fin 3) * 1 + 1 * (y 0).val = (i 0).val; rw [e0, h0]; omega
  | ⟨1, _⟩ => show win18_0.index t (1 : Fin 3) * 2000 + 1 * (y 1).val = (i 1).val; rw [e1, h1]; omega
  | ⟨2, _⟩ => show win18_0.index t (2 : Fin 3) * 128 + 1 * (y 2).val = (i 2).val; rw [e2, h2]; omega

/-- The features' block at point t is the same rows of the features. -/
theorem xd_blk (c : Dev nD) (t : Fin cfg18.N) (y : S2000x128.Idx) (i : S40000x128.Idx)
    (h0 : (i 0).val = win18_5.index t (0 : Fin 2) * 2000 + (y 0).val) (h1 : (i 1).val = (y 1).val) :
    (iblk18 V c 2 t : Vec Ideal S2000x128 .f32) y = xdArr V c i := by
  obtain ⟨-, -, -, -, -, -, e0, e1, -⟩ := idx_facts t
  unfold iblk18
  rw [View.read_apply]
  show V c main_v589 _ = V c main_v589 _
  congr 1
  funext a
  apply Fin.ext
  match a with
  | ⟨0, _⟩ => show win18_2.index t (0 : Fin 2) * 2000 + 1 * (y 0).val = (i 0).val; rw [e0, h0]; omega
  | ⟨1, _⟩ => show win18_2.index t (1 : Fin 2) * 128 + 1 * (y 1).val = (i 1).val; rw [e1, h1]; omega

/-- The left weight's window takes the whole array at every point. -/
theorem wls_blk (c : Dev nD) (t : Fin cfg18.N) : (iblk18 V c 1 t : Vec Ideal S1x128x128 .f32) = wlsArr V c := by
  obtain ⟨-, -, -, e0, e1, e2, -⟩ := idx_facts t
  funext y
  unfold iblk18
  rw [View.read_apply]
  show V c main_v703 _ = V c main_v703 _
  congr 1
  funext a
  apply Fin.ext
  match a with
  | ⟨0, _⟩ => show win18_1.index t (0 : Fin 3) * 1 + 1 * (y 0).val = (y 0).val; rw [e0]; omega
  | ⟨1, _⟩ => show win18_1.index t (1 : Fin 3) * 128 + 1 * (y 1).val = (y 1).val; rw [e1]; omega
  | ⟨2, _⟩ => show win18_1.index t (2 : Fin 3) * 128 + 1 * (y 2).val = (y 2).val; rw [e2]; omega

/-- The right weight's window takes the whole array at every point. -/
theorem wr_blk (c : Dev nD) (t : Fin cfg18.N) : (iblk18 V c 3 t : Vec Ideal S128x128 .f32) = wrArr V c := by
  obtain ⟨-, -, -, -, -, -, -, -, e0, e1, -⟩ := idx_facts t
  funext y
  unfold iblk18
  rw [View.read_apply]
  show V c main_v699 _ = V c main_v699 _
  congr 1
  funext a
  apply Fin.ext
  match a with
  | ⟨0, _⟩ => show win18_3.index t (0 : Fin 2) * 128 + 1 * (y 0).val = (y 0).val; rw [e0]; omega
  | ⟨1, _⟩ => show win18_3.index t (1 : Fin 2) * 128 + 1 * (y 1).val = (y 1).val; rw [e1]; omega

/-- The bias's window takes the whole array at every point. -/
theorem bias_blk (c : Dev nD) (t : Fin cfg18.N) : (iblk18 V c 4 t : Vec Ideal S128 .f32) = biasArr V c := by
  obtain ⟨-, -, -, -, -, -, -, -, -, -, e0, -⟩ := idx_facts t
  funext y
  unfold iblk18
  rw [View.read_apply]
  show V c main_v701 _ = V c main_v701 _
  congr 1
  funext a
  apply Fin.ext
  match a with
  | ⟨0, _⟩ => show win18_4.index t (0 : Fin 1) * 128 + 1 * (y 0).val = (y 0).val; rw [e0]; omega

/-! ## What one point writes back -/

/-- The body's stored block from the five input blocks, without the load and store rectangles (each is the whole
    staging buffer). -/
theorem out_eq (x0 : Vec Ideal S1x2000x128 .f32) (x1 : Vec Ideal S1x128x128 .f32) (x2 : Vec Ideal S2000x128 .f32)
    (x3 : Vec Ideal S128x128 .f32) (x4 : Vec Ideal S128 .f32) :
    out18_5 (F := Ideal) x0 x1 x2 x3 x4 = k18_pay1 (F := Ideal) x0 x1 x2 x3 x4 := by
  unfold out18_5
  rw [View.canon_unit_zero hz2]
  simp only [View.ld_unit_zero (S := S1x2000x128) hz3, View.ld_unit_zero (S := S1x128x128) hz3,
    View.ld_unit_zero (S := S2000x128) hz2, View.ld_unit_zero (S := S128x128) hz2, View.ld_unit_zero (S := S128) hz1]

/-- The output block's entry (p, q) at point t sits at row 2000·b + p, column q of the array, b the block index. -/
theorem out_emb (t : Fin cfg18.N) (p : Fin 2000) (q : Fin 128) (r : Fin 40000)
    (hr : r.val = win18_5.index t (0 : Fin 2) * 2000 + p.val) :
    ((cfg18.win 5).blk t).view.emb (ix2 p q) = (ix2 r q : S40000x128.Idx) := by
  obtain ⟨-, -, -, -, -, -, -, -, -, -, -, -, e1⟩ := idx_facts t
  funext a
  apply Fin.ext
  match a with
  | ⟨0, _⟩ => show win18_5.index t (0 : Fin 2) * 2000 + 1 * p.val = r.val; rw [hr]; omega
  | ⟨1, _⟩ => show win18_5.index t (1 : Fin 2) * 128 + 1 * q.val = q.val; rw [e1]; omega

/-- What point t writes back is block t of the update of all rows: entry (p, q) of the stored block is the update at
    row 2000·b + p, column q, b the output's block index at t — each sum termwise, the means' and the features' blocks
    read at those rows. -/
theorem flushed_eq (c : Dev nD) (t : Fin cfg18.N) :
    (dat18 (F := Ideal) V c).flushed 5 t = ((cfg18.win 5).blk t).view.read (Elt Ideal) (updArr V c) := by
  show (cfg18.win 5).cut (grid18.coords t) ((dat18 V c).after 5 t) = _
  rw [after18_5, out_eq, wls_blk, wr_blk, bias_blk]
  funext j
  obtain ⟨p, q, rfl⟩ : ∃ (p : Fin 2000) (q : Fin 128), j = ix2 p q := ⟨j 0, j 1, eq_ix2 j⟩
  obtain ⟨-, -, -, -, -, -, -, -, -, -, -, e0, -⟩ := idx_facts t
  have hN : cfg18.N = 20 := N_18
  have ht : t.val < 20 := hN ▸ t.isLt
  obtain ⟨r, hr⟩ : ∃ r : Fin 40000, r.val = win18_5.index t (0 : Fin 2) * 2000 + p.val :=
    ⟨⟨win18_5.index t (0 : Fin 2) * 2000 + p.val, by rw [e0]; have := p.isLt; omega⟩, rfl⟩
  rw [View.read_apply]
  show k18_pay1 (F := Ideal) (iblk18 V c 0 t) (wlsArr V c) (iblk18 V c 2 t) (wrArr V c) (biasArr V c) (ix2 p q)
    = updArr V c (((cfg18.win 5).blk t).view.emb (ix2 p q))
  rw [out_emb t p q r hr, updArr_at V c _ r q rfl]
  refine (pay_at _ _ _ _ _ p q).trans ?_
  refine congrArg₂ max (congrArg₂ (· + ·) (congrArg₂ (· + ·) (Finset.sum_congr rfl fun k _ => ?_) (Finset.sum_congr rfl fun k _ => ?_)) rfl) rfl
  · exact congrArg (· * _) (means_blk V c t (ix3 (0 : Fin 1) p k) (ix3 (0 : Fin 1) r k) rfl hr rfl)
  · exact congrArg (· * _) (xd_blk V c t (ix2 p k) (ix2 r k) hr rfl)

/-! ## The blocks cover the array -/

/-- An index of the array is in point t's block iff each coordinate is in the block's range on its axis. -/
theorem mem_blk (t : Fin cfg18.N) (i : S40000x128.Idx) :
    i ∈ ((cfg18.win 5).blk t).view.set ↔ ∀ a : Fin 2, win18_5.index t a * S2000x128.size a ≤ (i a).val ∧ (i a).val < win18_5.index t a * S2000x128.size a + S2000x128.size a := by
  show i ∈ ((View.whole main_v704).slice (win18_5.rect t)).set ↔ _
  rw [View.set_slice_whole, Rect.mem_set_unit]
  exact Iff.rfl

/-- Row r of the array is written by the point numbered r / 2000 (and every point writes its block back). -/
theorem cover (i : S40000x128.Idx) :
    ∃ t : Fin cfg18.N, (cfg18.win 5).flush t = true ∧ i ∈ ((cfg18.win 5).blk t).view.set := by
  have hi0 : (i 0).val < 40000 := (i 0).isLt
  have hi1 : (i 1).val < 128 := (i 1).isLt
  have hN : cfg18.N = 20 := N_18
  obtain ⟨t, ht⟩ : ∃ t : Fin cfg18.N, t.val = (i 0).val / 2000 := ⟨⟨(i 0).val / 2000, by rw [hN]; omega⟩, rfl⟩
  obtain ⟨-, -, -, -, -, -, -, -, -, -, -, e0, e1⟩ := idx_facts t
  refine ⟨t, flush18_5 t, ?_⟩
  rw [mem_blk]
  intro a
  match a with
  | ⟨0, _⟩ =>
    show win18_5.index t (0 : Fin 2) * 2000 ≤ (i 0).val ∧ (i 0).val < win18_5.index t (0 : Fin 2) * 2000 + 2000
    rw [e0, ht]; omega
  | ⟨1, _⟩ =>
    show win18_5.index t (1 : Fin 2) * 128 ≤ (i 1).val ∧ (i 1).val < win18_5.index t (1 : Fin 2) * 128 + 128
    rw [e1]; omega

/-! ## The array after the run -/

/-- THE REGION'S VALUE: after the grid has run, the output array holds the one-relation update of all 40000 rows — every
    point writes its block of it, and the blocks cover the array. -/
theorem arr (c : Dev nD) :
    (dat18 (F := Ideal) V c).arrAt 5 cfg18.N
      = Cert.IdxSpec.sage1 40000 (V c main_v702) (V c main_v703) (V c main_v589) (V c main_v699) (V c main_v701) :=
  (dat18 V c).arrAt_eq_of_cover 5 (updArr V c) (fun t _ => flushed_eq V c t) cover

end Cert.KernelIdeal.RegVal18

end
-- ==== Proof.Reg17Pay.lean ====
/-
  One row block of a two-relation dense update, read entry by entry on extended reals.

  The block's result at (p, q) is max(Σ_k a₀[0,p,k]·w₀[0,k,q] + Σ_k a₁[0,p,k]·w₁[0,k,q] + Σ_k x[p,k]·r[k,q] + b[q], 0):
  the leading unit axes of the two neighbour-mean slabs and of the two left-weight slabs are dropped, the narrowing
  format changes are the identity on extended reals, each matrix product into a zero accumulator is its plain sum over
  the 128 feature columns (the contraction index re-indexed by its one coordinate), the bias row is copied down the
  rows, and the clamp is against the zero word.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegVal17

open Idealize.ShloMosaic Idealize.ShloMosaic.ValueIdx Cert.KernelIdeal Cert.KernelIdeal.Gen
open scoped BigOperators

/-! ## The product's operand indices: rows × contraction, contraction × columns -/

/-- The left operand's row is the output's row. -/
theorem lhs_mm0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contraction's one coordinate. -/
theorem lhs_mm0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contraction's one coordinate. -/
theorem rhs_mm0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product into a zero accumulator, at an entry -/

/-- A [2000,128] × [128,128] product into the zero splat reads, at (p, q), Σ_k x[p,k]·w[k,q]. -/
theorem mm0_apply {φ₁ φ₂ : FTy} (x : FVec Ideal S2000x128 φ₁) (w : FVec Ideal S128x128 φ₂) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm0_0 _ _
      | ⟨1, _⟩ => exact (lhs_mm0_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm0_0 _ _).trans hk
      | ⟨1, _⟩ => exact rhs_mm0_1 _ _)
  rw [el, er]

/-! ## The payload at an entry -/

/-- The block the body stores, at (p, q): the three sums over the feature columns, plus the bias entry, clamped at zero. -/
theorem pay0_apply (v0 v3 : Vec Ideal S1x2000x128 .f32) (v6 v9 : Vec Ideal S1x128x128 .f32) (v12 : Vec Ideal S2000x128 .f32)
    (v14 : Vec Ideal S128x128 .f32) (v22 : Vec Ideal S128 .f32) (p : Fin 2000) (q : Fin 128) :
    k17_pay1 (F := Ideal) v0 v3 v6 v9 v12 v14 v22 (ix2 p q)
      = max ((((∑ k : Fin 128, v0 (ix3 (0 : Fin 1) p k) * v6 (ix3 (0 : Fin 1) k q))
          + ∑ k : Fin 128, v3 (ix3 (0 : Fin 1) p k) * v9 (ix3 (0 : Fin 1) k q))
          + ∑ k : Fin 128, v12 (ix2 p k) * v14 (ix2 k q))
          + v22 (ix1 q)) 0 := by
  unfold k17_pay1
  simp only [maximumf_apply, addf_apply, broadcast_apply, mm0_apply, truncf_apply, shapeCast_1ab_ab_apply, shapeCast_self,
    broadcastTo_1b_ab_apply, shapeCast_a_1a_apply]
  exact congrArg (max _) Ideal.ofBits_zero_f32

end Cert.KernelIdeal.RegVal17

end
-- ==== Proof.Reg17.lean ====
/-
  What one grid-tiled two-relation dense update leaves in its output array, as one function of the arrays it reads.

  The grid has 50 points; point t handles rows 2000·t … 2000·t + 1999. At point t the two neighbour-mean slabs and the
  node's own features are read through blocks of 2000 rows starting at row 2000·t, while the two stacked left weights,
  the right weight and the bias are read whole at every point. The body's stored block at (p, q) is therefore the whole-array
  update at (2000·t + p, q): the same three sums over the 128 feature columns, the same bias entry, the same clamp at
  zero. Every row r lies in the block of point r / 2000, so the blocks written back tile the array and the array ends
  holding the update everywhere.
-/
import proofs.«165177_j32074815766916_1_alg».proof.Proof.FIL17
import proofs.«165177_j32074815766916_1_alg».proof.Proof.IdxSpec
import proofs.«165177_j32074815766916_1_alg».proof.Proof.Reg17Pay
import Idealize.ShloMosaic.Lib.ValueIdx
import Idealize.ShloMosaic.Lib.Pipeline.Value

set_option maxRecDepth 16384

noncomputable section

namespace Cert.KernelIdeal.RegVal17

open Idealize.ShloMosaic Idealize.ShloMosaic.ValueIdx Idealize.ShloMosaic.TcCoe Cert.KernelIdeal Cert.KernelIdeal.Gen Cert.KernelIdeal.GenP
open Idealize.ShloMosaic.Pipeline (Dat)
open scoped BigOperators

variable (V : (c : Dev nD) → (b : Ref sig .tc) → Buf (Elt Ideal) ((c : Thread nD τ).loc b))

/-! ## The arrays the region reads, each at its literal shape -/

/-- The two neighbour-mean slabs, stacked: [2, 100000, 128]. -/
abbrev meansArr0 (c : Dev nD) : S2x100000x128.Idx → EReal := V c main_v691
/-- The two left weights, stacked: [2, 128, 128]. -/
abbrev wlsArr0 (c : Dev nD) : S2x128x128.Idx → EReal := V c main_v694
/-- The node type's own features: [100000, 128]. -/
abbrev xdArr0 (c : Dev nD) : S100000x128.Idx → EReal := V c main_v580
/-- The right weight: [128, 128]. -/
abbrev wrArr0 (c : Dev nD) : S128x128.Idx → EReal := V c main_v683
/-- The bias: [128]. -/
abbrev bArr0 (c : Dev nD) : S128.Idx → EReal := V c main_v688

/-- The whole-array update of those arrays. -/
abbrev upd0 (c : Dev nD) : S100000x128.Idx → EReal :=
  Cert.IdxSpec.sage2 100000 (meansArr0 V c) (wlsArr0 V c) (xdArr0 V c) (wrArr0 V c) (bArr0 V c)

/-! ## The body's loads: a slab of a stacked block, or a whole block -/

theorem zero2 : (![0, 0] : Fin 2 → Nat) = fun _ => 0 := funext fun a => by fin_cases a <;> rfl
theorem zero1 : (![0] : Fin 1 → Nat) = fun _ => 0 := funext fun a => by fin_cases a; rfl

/-- Slab 0 of the stacked means' block, at (a, p, k), is the block at (0, p, k). -/
theorem ld_means0_0 (x : Vec Ideal S2x2000x128 .f32) (a : Fin 1) (p : Fin 2000) (k : Fin 128) :
    View.ld x r17_0 (ix3 a p k) = x (ix3 (0 : Fin 2) p k) := by
  show x _ = x _
  congr 1
  funext ax; apply Fin.ext
  match ax with
  | ⟨0, _⟩ => show 0 + 1 * a.val = 0; omega
  | ⟨1, _⟩ => show 0 + 1 * p.val = p.val; omega
  | ⟨2, _⟩ => show 0 + 1 * k.val = k.val; omega

/-- Slab 1 of the stacked means' block, at (a, p, k), is the block at (1, p, k). -/
theorem ld_means0_1 (x : Vec Ideal S2x2000x128 .f32) (a : Fin 1) (p : Fin 2000) (k : Fin 128) :
    View.ld x r17_1 (ix3 a p k) = x (ix3 (1 : Fin 2) p k) := by
  show x _ = x _
  congr 1
  funext ax; apply Fin.ext
  match ax with
  | ⟨0, _⟩ => show 1 + 1 * a.val = 1; omega
  | ⟨1, _⟩ => show 0 + 1 * p.val = p.val; omega
  | ⟨2, _⟩ => show 0 + 1 * k.val = k.val; omega

/-- Slab 0 of the stacked left weights, at (a, k, q), is the stack at (0, k, q). -/
theorem ld_wls0_0 (x : Vec Ideal S2x128x128 .f32) (a : Fin 1) (k : Fin 128) (q : Fin 128) :
    View.ld x r17_2 (ix3 a k q) = x (ix3 (0 : Fin 2) k q) := by
  show x _ = x _
  congr 1
  funext ax; apply Fin.ext
  match ax with
  | ⟨0, _⟩ => show 0 + 1 * a.val = 0; omega
  | ⟨1, _⟩ => show 0 + 1 * k.val = k.val; omega
  | ⟨2, _⟩ => show 0 + 1 * q.val = q.val; omega

/-- Slab 1 of the stacked left weights, at (a, k, q), is the stack at (1, k, q). -/
theorem ld_wls0_1 (x : Vec Ideal S2x128x128 .f32) (a : Fin 1) (k : Fin 128) (q : Fin 128) :
    View.ld x r17_3 (ix3 a k q) = x (ix3 (1 : Fin 2) k q) := by
  show x _ = x _
  congr 1
  funext ax; apply Fin.ext
  match ax with
  | ⟨0, _⟩ => show 1 + 1 * a.val = 1; omega
  | ⟨1, _⟩ => show 0 + 1 * k.val = k.val; omega
  | ⟨2, _⟩ => show 0 + 1 * q.val = q.val; omega

/-! ## The body's stored block at an entry -/

/-- What the body leaves in the output buffer, at (p, q), from the five input blocks: the update's formula on the blocks. -/
theorem out17_apply (x0 : Vec Ideal S2x2000x128 .f32) (x1 : Vec Ideal S2x128x128 .f32) (x2 : Vec Ideal S2000x128 .f32)
    (x3 : Vec Ideal S128x128 .f32) (x4 : Vec Ideal S128 .f32) (p : Fin 2000) (q : Fin 128) :
    out17_5 x0 x1 x2 x3 x4 (ix2 p q)
      = max ((((∑ k : Fin 128, x0 (ix3 (0 : Fin 2) p k) * x1 (ix3 (0 : Fin 2) k q))
          + ∑ k : Fin 128, x0 (ix3 (1 : Fin 2) p k) * x1 (ix3 (1 : Fin 2) k q))
          + ∑ k : Fin 128, x2 (ix2 p k) * x3 (ix2 k q))
          + x4 (ix1 q)) 0 := by
  unfold out17_5
  rw [View.canon_unit_zero zero2]
  rw [pay0_apply]
  refine congrArg (fun z => max z 0) ?_
  refine congrArg₂ (· + ·) (congrArg₂ (· + ·) (congrArg₂ (· + ·) ?_ ?_) ?_) ?_
  · exact Finset.sum_congr rfl fun k _ => congrArg₂ (· * ·) (ld_means0_0 x0 0 p k) (ld_wls0_0 x1 0 k q)
  · exact Finset.sum_congr rfl fun k _ => congrArg₂ (· * ·) (ld_means0_1 x0 0 p k) (ld_wls0_1 x1 0 k q)
  · exact Finset.sum_congr rfl fun k _ => congrArg₂ (· * ·)
      (congrFun (View.ld_unit_zero (S := S2000x128) zero2 _ x2) (ix2 p k))
      (congrFun (View.ld_unit_zero (S := S128x128) zero2 _ x3) (ix2 k q))
  · exact congrFun (View.ld_unit_zero (S := S128) zero1 _ x4) (ix1 q)

/-! ## The index maps over the grid -/

/-- Decided over the 50 points: the means' and the features' blocks move with the output's along the rows, every other
    block index is zero, and the output's row-block index is the point's number. -/
theorem idx_facts0 : ∀ t : Fin cfg17.N,
    win17_0.index t (0 : Fin 3) = 0 ∧ win17_0.index t (1 : Fin 3) = win17_5.index t (0 : Fin 2) ∧ win17_0.index t (2 : Fin 3) = 0
    ∧ win17_1.index t (0 : Fin 3) = 0 ∧ win17_1.index t (1 : Fin 3) = 0 ∧ win17_1.index t (2 : Fin 3) = 0
    ∧ win17_2.index t (0 : Fin 2) = win17_5.index t (0 : Fin 2) ∧ win17_2.index t (1 : Fin 2) = 0
    ∧ win17_3.index t (0 : Fin 2) = 0 ∧ win17_3.index t (1 : Fin 2) = 0
    ∧ win17_4.index t (0 : Fin 1) = 0
    ∧ win17_5.index t (0 : Fin 2) = t.val ∧ win17_5.index t (1 : Fin 2) = 0 :=
  (by decide +kernel : ∀ t : Fin grid17.N, _)

/-! ## Each window's block read where the index maps say -/

/-- The means' block at point t, at (a, p, k), is the array at (a, r, k) for the row r the output's block puts p at. -/
theorem rd0_0 (c : Dev nD) (t : Fin cfg17.N) (a : Fin 2) (p : Fin 2000) (k : Fin 128) (r : Fin 100000)
    (hr : r.val = win17_5.index t (0 : Fin 2) * 2000 + p.val) :
    (iblk17 V c 0 t : Vec Ideal S2x2000x128 .f32) (ix3 a p k) = meansArr0 V c (ix3 a r k) := by
  show meansArr0 V c (((cfg17.win 0).blk t).view.emb (ix3 a p k)) = _
  refine congrArg (meansArr0 V c) ?_
  obtain ⟨e0, e1, e2, -⟩ := idx_facts0 t
  funext ax; apply Fin.ext
  match ax with
  | ⟨0, _⟩ => show win17_0.index t (0 : Fin 3) * 2 + 1 * a.val = a.val; omega
  | ⟨1, _⟩ => show win17_0.index t (1 : Fin 3) * 2000 + 1 * p.val = r.val; omega
  | ⟨2, _⟩ => show win17_0.index t (2 : Fin 3) * 128 + 1 * k.val = k.val; omega

/-- The left weights' block is the whole stack at every point. -/
theorem rd0_1 (c : Dev nD) (t : Fin cfg17.N) (a : Fin 2) (k : Fin 128) (q : Fin 128) :
    (iblk17 V c 1 t : Vec Ideal S2x128x128 .f32) (ix3 a k q) = wlsArr0 V c (ix3 a k q) := by
  show wlsArr0 V c (((cfg17.win 1).blk t).view.emb (ix3 a k q)) = _
  refine congrArg (wlsArr0 V c) ?_
  obtain ⟨-, -, -, e0, e1, e2, -⟩ := idx_facts0 t
  funext ax; apply Fin.ext
  match ax with
  | ⟨0, _⟩ => show win17_1.index t (0 : Fin 3) * 2 + 1 * a.val = a.val; omega
  | ⟨1, _⟩ => show win17_1.index t (1 : Fin 3) * 128 + 1 * k.val = k.val; omega
  | ⟨2, _⟩ => show win17_1.index t (2 : Fin 3) * 128 + 1 * q.val = q.val; omega

/-- The features' block at point t, at (p, k), is the array at (r, k). -/
theorem rd0_2 (c : Dev nD) (t : Fin cfg17.N) (p : Fin 2000) (k : Fin 128) (r : Fin 100000)
    (hr : r.val = win17_5.index t (0 : Fin 2) * 2000 + p.val) :
    (iblk17 V c 2 t : Vec Ideal S2000x128 .f32) (ix2 p k) = xdArr0 V c (ix2 r k) := by
  show xdArr0 V c (((cfg17.win 2).blk t).view.emb (ix2 p k)) = _
  refine congrArg (xdArr0 V c) ?_
  obtain ⟨-, -, -, -, -, -, e0, e1, -⟩ := idx_facts0 t
  funext ax; apply Fin.ext
  match ax with
  | ⟨0, _⟩ => show win17_2.index t (0 : Fin 2) * 2000 + 1 * p.val = r.val; omega
  | ⟨1, _⟩ => show win17_2.index t (1 : Fin 2) * 128 + 1 * k.val = k.val; omega

/-- The right weight's block is the whole matrix at every point. -/
theorem rd0_3 (c : Dev nD) (t : Fin cfg17.N) (k : Fin 128) (q : Fin 128) :
    (iblk17 V c 3 t : Vec Ideal S128x128 .f32) (ix2 k q) = wrArr0 V c (ix2 k q) := by
  show wrArr0 V c (((cfg17.win 3).blk t).view.emb (ix2 k q)) = _
  refine congrArg (wrArr0 V c) ?_
  obtain ⟨-, -, -, -, -, -, -, -, e0, e1, -⟩ := idx_facts0 t
  funext ax; apply Fin.ext
  match ax with
  | ⟨0, _⟩ => show win17_3.index t (0 : Fin 2) * 128 + 1 * k.val = k.val; omega
  | ⟨1, _⟩ => show win17_3.index t (1 : Fin 2) * 128 + 1 * q.val = q.val; omega

/-- The bias's block is the whole vector at every point. -/
theorem rd0_4 (c : Dev nD) (t : Fin cfg17.N) (q : Fin 128) :
    (iblk17 V c 4 t : Vec Ideal S128 .f32) (ix1 q) = bArr0 V c (ix1 q) := by
  show bArr0 V c (((cfg17.win 4).blk t).view.emb (ix1 q)) = _
  refine congrArg (bArr0 V c) ?_
  obtain ⟨-, -, -, -, -, -, -, -, -, -, e0, -⟩ := idx_facts0 t
  funext ax; apply Fin.ext
  match ax with
  | ⟨0, _⟩ => show win17_4.index t (0 : Fin 1) * 128 + 1 * q.val = q.val; omega

/-- A whole [100000,128] array read through the output's block at point t, at (p, q), is the array at (r, q). -/
theorem rd0_5 (G : S100000x128.Idx → EReal) (t : Fin cfg17.N) (p : Fin 2000) (q : Fin 128) (r : Fin 100000)
    (hr : r.val = win17_5.index t (0 : Fin 2) * 2000 + p.val) :
    (((cfg17.win 5).blk t).view.read (Elt Ideal) G : Vec Ideal S2000x128 .f32) (ix2 p q) = G (ix2 r q) := by
  show G (((cfg17.win 5).blk t).view.emb (ix2 p q)) = _
  refine congrArg G ?_
  obtain ⟨-, -, -, -, -, -, -, -, -, -, -, e0, e1⟩ := idx_facts0 t
  funext ax; apply Fin.ext
  match ax with
  | ⟨0, _⟩ => show win17_5.index t (0 : Fin 2) * 2000 + 1 * p.val = r.val; omega
  | ⟨1, _⟩ => show win17_5.index t (1 : Fin 2) * 128 + 1 * q.val = q.val; omega

/-! ## What a point writes back -/

/-- WHAT POINT t WRITES BACK is block t of the whole-array update. -/
theorem flushed0_eq (c : Dev nD) (t : Fin cfg17.N) :
    (dat17 (F := Ideal) V c).flushed 5 t = ((cfg17.win 5).blk t).view.read (Elt Ideal) (upd0 V c) := by
  show (cfg17.win 5).cut (grid17.coords t) ((dat17 (F := Ideal) V c).after 5 t) = _
  rw [after17_5]
  funext j
  obtain ⟨p, q, rfl⟩ : ∃ (p : Fin 2000) (q : Fin 128), j = ix2 p q := ⟨j 0, j 1, eq_ix2 j⟩
  have hlt : win17_5.index t (0 : Fin 2) * 2000 + p.val < 100000 := by
    have e := (idx_facts0 t).2.2.2.2.2.2.2.2.2.2.2.1
    have ht : t.val < 50 := Nat.lt_of_lt_of_eq t.isLt N_17
    omega
  refine (out17_apply (iblk17 V c 0 t) (iblk17 V c 1 t) (iblk17 V c 2 t) (iblk17 V c 3 t) (iblk17 V c 4 t) p q).trans ?_
  refine Eq.trans ?_ (rd0_5 (upd0 V c) t p q ⟨_, hlt⟩ rfl).symm
  show _ = max ((((∑ k : Fin 128, meansArr0 V c (ix3 (0 : Fin 2) ⟨_, hlt⟩ k) * wlsArr0 V c (ix3 (0 : Fin 2) k q))
      + ∑ k : Fin 128, meansArr0 V c (ix3 (1 : Fin 2) ⟨_, hlt⟩ k) * wlsArr0 V c (ix3 (1 : Fin 2) k q))
      + ∑ k : Fin 128, xdArr0 V c (ix2 ⟨_, hlt⟩ k) * wrArr0 V c (ix2 k q))
      + bArr0 V c (ix1 q)) 0
  simp only [rd0_0 V c t _ p _ ⟨_, hlt⟩ rfl, rd0_1 V c t, rd0_2 V c t p _ ⟨_, hlt⟩ rfl, rd0_3 V c t, rd0_4 V c t]

/-! ## The blocks written back tile the array -/

/-- An index of the array is in point t's block iff each coordinate is in the block's range on its axis. -/
theorem mem_blk0 (t : Fin cfg17.N) (i : S100000x128.Idx) :
    i ∈ ((cfg17.win 5).blk t).view.set ↔ ∀ a : Fin 2, win17_5.index t a * S2000x128.size a ≤ (i a).val ∧ (i a).val < win17_5.index t a * S2000x128.size a + S2000x128.size a := by
  show i ∈ ((View.whole main_v695).slice (win17_5.rect t)).set ↔ _
  rw [View.set_slice_whole, Rect.mem_set_unit]
  exact Iff.rfl

/-- Row r is in the block of point r / 2000, which writes back. -/
theorem cover0 (i : S100000x128.Idx) : ∃ t : Fin cfg17.N, (cfg17.win 5).flush t = true ∧ i ∈ ((cfg17.win 5).blk t).view.set := by
  have hi0 : (i 0).val < 100000 := (i 0).isLt
  have hi1 : (i 1).val < 128 := (i 1).isLt
  have hlt : (i 0).val / 2000 < cfg17.N := by rw [show cfg17.N = 50 from N_17]; omega
  refine ⟨⟨(i 0).val / 2000, hlt⟩, flush17_5 _, ?_⟩
  rw [mem_blk0]
  obtain ⟨-, -, -, -, -, -, -, -, -, -, -, e0, e1⟩ := idx_facts0 ⟨(i 0).val / 2000, hlt⟩
  have e0' : win17_5.index ⟨(i 0).val / 2000, hlt⟩ (0 : Fin 2) = (i 0).val / 2000 := e0
  intro a
  match a with
  | ⟨0, _⟩ => show win17_5.index ⟨(i 0).val / 2000, hlt⟩ (0 : Fin 2) * 2000 ≤ (i 0).val ∧ (i 0).val < win17_5.index ⟨(i 0).val / 2000, hlt⟩ (0 : Fin 2) * 2000 + 2000; omega
  | ⟨1, _⟩ => show win17_5.index ⟨(i 0).val / 2000, hlt⟩ (1 : Fin 2) * 128 ≤ (i 1).val ∧ (i 1).val < win17_5.index ⟨(i 0).val / 2000, hlt⟩ (1 : Fin 2) * 128 + 128; omega

/-! ## The array after the run -/

/-- THE OUTPUT ARRAY after the grid has run is the whole-array update of the arrays the region's windows read. -/
theorem arr (V : (c : Dev nD) → (b : Ref sig .tc) → Buf (Elt Ideal) ((c : Thread nD τ).loc b)) (c : Dev nD) :
    (dat17 (F := Ideal) V c).arrAt 5 cfg17.N
      = Cert.IdxSpec.sage2 100000 (V c main_v691) (V c main_v694) (V c main_v580) (V c main_v683) (V c main_v688) :=
  (dat17 (F := Ideal) V c).arrAt_eq_of_cover 5 (upd0 V c) (fun t _ => flushed0_eq V c t) cover0

end Cert.KernelIdeal.RegVal17

end
-- ==== Proof.Reg15Pay.lean ====
/-
  Region 1's arithmetic at one entry, on extended reals.

  The body stores one 2000 × 128 block. Its entry at row p and column q is
      max( Σ_k mean[0,p,k]·Wl[0,k,q] + Σ_k x[p,k]·Wr[k,q] + b[q], 0 ),
  where mean is the block of neighbour means (one relation, carried on a leading unit axis), Wl the stacked left weight,
  x the block of the node's own features, Wr the right weight and b the bias. The casts to the narrow format are the
  identity on exact values; each matrix product into a zero accumulator is the sum over its one contracted coordinate;
  dropping or adding a unit axis keeps the row-major position; the bias row is repeated down the rows.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal15

open Idealize.ShloMosaic Idealize.ShloMosaic.ValueIdx Cert.KernelIdeal Cert.KernelIdeal.Gen

/-! ## The matrix product's operand indices, axis by axis -/

/-- The left operand's row is the output's row. -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contracted coordinate. -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contracted coordinate. -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product at an entry -/

/-- A 2000 × 128 by 128 × 128 product into the zero accumulator, at entry (p, q): the sum over the 128 contracted
    coordinates of the products of the two operands' entries. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The stored block at an entry -/

/-- Entry (p, q) of the block the body stores: the two sums, the bias, the clamp at zero. -/
theorem pay_at (x0 : Vec Ideal S1x2000x128 .f32) (x1 : Vec Ideal S1x128x128 .f32) (x2 : Vec Ideal S2000x128 .f32)
    (x3 : Vec Ideal S128x128 .f32) (x4 : Vec Ideal S128 .f32) (p : Fin 2000) (q : Fin 128) :
    k15_pay1 (F := Ideal) x0 x1 x2 x3 x4 (ix2 p q)
      = max (((∑ k : Fin 128, x0 (ix3 (0 : Fin 1) p k) * x1 (ix3 (0 : Fin 1) k q))
          + ∑ k : Fin 128, x2 (ix2 p k) * x3 (ix2 k q))
          + x4 (ix1 q)) 0 := by
  unfold k15_pay1
  rw [maximumf_apply, broadcast_apply, addf_apply, addf_apply, matmul_at, matmul_at,
    broadcastTo_1b_ab_apply, shapeCast_a_1a_apply, shapeCast_self]
  simp only [truncf_apply, shapeCast_1ab_ab_apply, shapeCast_self]
  show max _ (Ideal.ofBits .f32 0x00000000#32) = _
  rw [Ideal.ofBits_zero_f32]

end Cert.KernelIdeal.RegVal15

end
-- ==== Proof.Reg15.lean ====
/-
  Region 1's value: what its output array holds after the grid has run, as one function of the arrays it reads, on
  extended reals.

  The region updates a node type with one incoming relation, 40000 rows in 20 blocks of 2000. Point t of the grid reads
  rows 2000·t … 2000·t + 1999 of the neighbour means and of the node's own features, the two weight matrices and the bias
  whole, and writes back rows 2000·t … 2000·t + 1999 of
      max( Σ_k mean[0,r,k]·Wl[0,k,q] + Σ_k x[r,k]·Wr[k,q] + b[q], 0 ).
  An entry of the written block depends only on its own row of the means and features, so each point writes exactly its
  block of that one whole-array function; the 20 blocks tile the rows (row r lies in block r / 2000), so the array ends
  holding the function everywhere.
-/
import proofs.«165177_j32074815766916_1_alg».proof.Proof.FIL15
import proofs.«165177_j32074815766916_1_alg».proof.Proof.IdxSpec
import proofs.«165177_j32074815766916_1_alg».proof.Proof.Reg15Pay
import Idealize.ShloMosaic.Lib.Pipeline.Value
import Idealize.ShloMosaic.Lib.ValueIdx

set_option maxRecDepth 16384

noncomputable section

namespace Cert.KernelIdeal.RegVal15

open Idealize.ShloMosaic Idealize.ShloMosaic.TcCoe Idealize.ShloMosaic.ValueIdx Cert.KernelIdeal Cert.KernelIdeal.Gen Cert.KernelIdeal.GenP
open Idealize.ShloMosaic.Pipeline (Dat)

/-! ## The arrays the region reads, by their literal types -/

variable (V : (c : Dev nD) → (b : Ref sig .tc) → Buf (Elt Ideal) ((c : Thread nD τ).loc b))

/-- The stacked neighbour means (one relation), 40000 rows. -/
noncomputable abbrev meansArr (c : Dev nD) : Vec Ideal S1x40000x128 .f32 := V c main_v587
/-- The stacked left weight. -/
noncomputable abbrev wlsArr (c : Dev nD) : Vec Ideal S1x128x128 .f32 := V c main_v588
/-- The node type's own features, 40000 rows. -/
noncomputable abbrev xdArr (c : Dev nD) : Vec Ideal S40000x128 .f32 := V c main_arg0
/-- The right weight. -/
noncomputable abbrev wrArr (c : Dev nD) : Vec Ideal S128x128 .f32 := V c main_v584
/-- The bias. -/
noncomputable abbrev biasArr (c : Dev nD) : Vec Ideal S128 .f32 := V c main_v586

/-- What the region's output array ends holding: the one-relation update of all 40000 rows. -/
noncomputable abbrev updArr (c : Dev nD) : Vec Ideal S40000x128 .f32 :=
  Cert.IdxSpec.sage1 40000 (meansArr V c) (wlsArr V c) (xdArr V c) (wrArr V c) (biasArr V c)

/-- The update at row r, column q, with the coordinates named. -/
theorem updArr_at (c : Dev nD) (i : S40000x128.Idx) (r : Fin 40000) (q : Fin 128) (hi : i = ix2 r q) :
    updArr V c i
      = max (((∑ k : Fin 128, meansArr V c (ix3 (0 : Fin 1) r k) * wlsArr V c (ix3 (0 : Fin 1) k q))
          + ∑ k : Fin 128, xdArr V c (ix2 r k) * wrArr V c (ix2 k q))
          + biasArr V c (ix1 q)) 0 := by
  subst hi; rfl

/-! ## The index maps over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid's points: the means' and the features' blocks move down the rows with
    the output's block; the two weights and the bias are taken whole at every point; the output's block index is the
    point's number. -/
theorem idx_facts : ∀ t : Fin cfg15.N,
    win15_0.index t (0 : Fin 3) = 0 ∧ win15_0.index t (1 : Fin 3) = win15_5.index t (0 : Fin 2) ∧ win15_0.index t (2 : Fin 3) = 0
    ∧ win15_1.index t (0 : Fin 3) = 0 ∧ win15_1.index t (1 : Fin 3) = 0 ∧ win15_1.index t (2 : Fin 3) = 0
    ∧ win15_2.index t (0 : Fin 2) = win15_5.index t (0 : Fin 2) ∧ win15_2.index t (1 : Fin 2) = 0
    ∧ win15_3.index t (0 : Fin 2) = 0 ∧ win15_3.index t (1 : Fin 2) = 0
    ∧ win15_4.index t (0 : Fin 1) = 0
    ∧ win15_5.index t (0 : Fin 2) = t.val ∧ win15_5.index t (1 : Fin 2) = 0 :=
  (by decide +kernel : ∀ t : Fin grid15.N, _)

/-! ## Each input window's block, read off its array -/

/-- The means' block at point t is rows 2000·b … 2000·b + 1999 of the means, b the output's block index at t. -/
theorem means_blk (c : Dev nD) (t : Fin cfg15.N) (y : S1x2000x128.Idx) (i : S1x40000x128.Idx)
    (h0 : (i 0).val = (y 0).val) (h1 : (i 1).val = win15_5.index t (0 : Fin 2) * 2000 + (y 1).val) (h2 : (i 2).val = (y 2).val) :
    (iblk15 V c 0 t : Vec Ideal S1x2000x128 .f32) y = meansArr V c i := by
  obtain ⟨e0, e1, e2, -⟩ := idx_facts t
  unfold iblk15
  rw [View.read_apply]
  show V c main_v587 _ = V c main_v587 _
  congr 1
  funext a
  apply Fin.ext
  match a with
  | ⟨0, _⟩ => show win15_0.index t (0 : Fin 3) * 1 + 1 * (y 0).val = (i 0).val; rw [e0, h0]; omega
  | ⟨1, _⟩ => show win15_0.index t (1 : Fin 3) * 2000 + 1 * (y 1).val = (i 1).val; rw [e1, h1]; omega
  | ⟨2, _⟩ => show win15_0.index t (2 : Fin 3) * 128 + 1 * (y 2).val = (i 2).val; rw [e2, h2]; omega

/-- The features' block at point t is the same rows of the features. -/
theorem xd_blk (c : Dev nD) (t : Fin cfg15.N) (y : S2000x128.Idx) (i : S40000x128.Idx)
    (h0 : (i 0).val = win15_5.index t (0 : Fin 2) * 2000 + (y 0).val) (h1 : (i 1).val = (y 1).val) :
    (iblk15 V c 2 t : Vec Ideal S2000x128 .f32) y = xdArr V c i := by
  obtain ⟨-, -, -, -, -, -, e0, e1, -⟩ := idx_facts t
  unfold iblk15
  rw [View.read_apply]
  show V c main_arg0 _ = V c main_arg0 _
  congr 1
  funext a
  apply Fin.ext
  match a with
  | ⟨0, _⟩ => show win15_2.index t (0 : Fin 2) * 2000 + 1 * (y 0).val = (i 0).val; rw [e0, h0]; omega
  | ⟨1, _⟩ => show win15_2.index t (1 : Fin 2) * 128 + 1 * (y 1).val = (i 1).val; rw [e1, h1]; omega

/-- The left weight's window takes the whole array at every point. -/
theorem wls_blk (c : Dev nD) (t : Fin cfg15.N) : (iblk15 V c 1 t : Vec Ideal S1x128x128 .f32) = wlsArr V c := by
  obtain ⟨-, -, -, e0, e1, e2, -⟩ := idx_facts t
  funext y
  unfold iblk15
  rw [View.read_apply]
  show V c main_v588 _ = V c main_v588 _
  congr 1
  funext a
  apply Fin.ext
  match a with
  | ⟨0, _⟩ => show win15_1.index t (0 : Fin 3) * 1 + 1 * (y 0).val = (y 0).val; rw [e0]; omega
  | ⟨1, _⟩ => show win15_1.index t (1 : Fin 3) * 128 + 1 * (y 1).val = (y 1).val; rw [e1]; omega
  | ⟨2, _⟩ => show win15_1.index t (2 : Fin 3) * 128 + 1 * (y 2).val = (y 2).val; rw [e2]; omega

/-- The right weight's window takes the whole array at every point. -/
theorem wr_blk (c : Dev nD) (t : Fin cfg15.N) : (iblk15 V c 3 t : Vec Ideal S128x128 .f32) = wrArr V c := by
  obtain ⟨-, -, -, -, -, -, -, -, e0, e1, -⟩ := idx_facts t
  funext y
  unfold iblk15
  rw [View.read_apply]
  show V c main_v584 _ = V c main_v584 _
  congr 1
  funext a
  apply Fin.ext
  match a with
  | ⟨0, _⟩ => show win15_3.index t (0 : Fin 2) * 128 + 1 * (y 0).val = (y 0).val; rw [e0]; omega
  | ⟨1, _⟩ => show win15_3.index t (1 : Fin 2) * 128 + 1 * (y 1).val = (y 1).val; rw [e1]; omega

/-- The bias's window takes the whole array at every point. -/
theorem bias_blk (c : Dev nD) (t : Fin cfg15.N) : (iblk15 V c 4 t : Vec Ideal S128 .f32) = biasArr V c := by
  obtain ⟨-, -, -, -, -, -, -, -, -, -, e0, -⟩ := idx_facts t
  funext y
  unfold iblk15
  rw [View.read_apply]
  show V c main_v586 _ = V c main_v586 _
  congr 1
  funext a
  apply Fin.ext
  match a with
  | ⟨0, _⟩ => show win15_4.index t (0 : Fin 1) * 128 + 1 * (y 0).val = (y 0).val; rw [e0]; omega

/-! ## What one point writes back -/

/-- The body's stored block from the five input blocks, without the load and store rectangles (each is the whole
    staging buffer). -/
theorem out_eq (x0 : Vec Ideal S1x2000x128 .f32) (x1 : Vec Ideal S1x128x128 .f32) (x2 : Vec Ideal S2000x128 .f32)
    (x3 : Vec Ideal S128x128 .f32) (x4 : Vec Ideal S128 .f32) :
    out15_5 (F := Ideal) x0 x1 x2 x3 x4 = k15_pay1 (F := Ideal) x0 x1 x2 x3 x4 := by
  unfold out15_5
  rw [View.canon_unit_zero hz2]
  simp only [View.ld_unit_zero (S := S1x2000x128) hz3, View.ld_unit_zero (S := S1x128x128) hz3,
    View.ld_unit_zero (S := S2000x128) hz2, View.ld_unit_zero (S := S128x128) hz2, View.ld_unit_zero (S := S128) hz1]

/-- The output block's entry (p, q) at point t sits at row 2000·b + p, column q of the array, b the block index. -/
theorem out_emb (t : Fin cfg15.N) (p : Fin 2000) (q : Fin 128) (r : Fin 40000)
    (hr : r.val = win15_5.index t (0 : Fin 2) * 2000 + p.val) :
    ((cfg15.win 5).blk t).view.emb (ix2 p q) = (ix2 r q : S40000x128.Idx) := by
  obtain ⟨-, -, -, -, -, -, -, -, -, -, -, -, e1⟩ := idx_facts t
  funext a
  apply Fin.ext
  match a with
  | ⟨0, _⟩ => show win15_5.index t (0 : Fin 2) * 2000 + 1 * p.val = r.val; rw [hr]; omega
  | ⟨1, _⟩ => show win15_5.index t (1 : Fin 2) * 128 + 1 * q.val = q.val; rw [e1]; omega

/-- What point t writes back is block t of the update of all rows: entry (p, q) of the stored block is the update at
    row 2000·b + p, column q, b the output's block index at t — each sum termwise, the means' and the features' blocks
    read at those rows. -/
theorem flushed_eq (c : Dev nD) (t : Fin cfg15.N) :
    (dat15 (F := Ideal) V c).flushed 5 t = ((cfg15.win 5).blk t).view.read (Elt Ideal) (updArr V c) := by
  show (cfg15.win 5).cut (grid15.coords t) ((dat15 V c).after 5 t) = _
  rw [after15_5, out_eq, wls_blk, wr_blk, bias_blk]
  funext j
  obtain ⟨p, q, rfl⟩ : ∃ (p : Fin 2000) (q : Fin 128), j = ix2 p q := ⟨j 0, j 1, eq_ix2 j⟩
  obtain ⟨-, -, -, -, -, -, -, -, -, -, -, e0, -⟩ := idx_facts t
  have hN : cfg15.N = 20 := N_15
  have ht : t.val < 20 := hN ▸ t.isLt
  obtain ⟨r, hr⟩ : ∃ r : Fin 40000, r.val = win15_5.index t (0 : Fin 2) * 2000 + p.val :=
    ⟨⟨win15_5.index t (0 : Fin 2) * 2000 + p.val, by rw [e0]; have := p.isLt; omega⟩, rfl⟩
  rw [View.read_apply]
  show k15_pay1 (F := Ideal) (iblk15 V c 0 t) (wlsArr V c) (iblk15 V c 2 t) (wrArr V c) (biasArr V c) (ix2 p q)
    = updArr V c (((cfg15.win 5).blk t).view.emb (ix2 p q))
  rw [out_emb t p q r hr, updArr_at V c _ r q rfl]
  refine (pay_at _ _ _ _ _ p q).trans ?_
  refine congrArg₂ max (congrArg₂ (· + ·) (congrArg₂ (· + ·) (Finset.sum_congr rfl fun k _ => ?_) (Finset.sum_congr rfl fun k _ => ?_)) rfl) rfl
  · exact congrArg (· * _) (means_blk V c t (ix3 (0 : Fin 1) p k) (ix3 (0 : Fin 1) r k) rfl hr rfl)
  · exact congrArg (· * _) (xd_blk V c t (ix2 p k) (ix2 r k) hr rfl)

/-! ## The blocks cover the array -/

/-- An index of the array is in point t's block iff each coordinate is in the block's range on its axis. -/
theorem mem_blk (t : Fin cfg15.N) (i : S40000x128.Idx) :
    i ∈ ((cfg15.win 5).blk t).view.set ↔ ∀ a : Fin 2, win15_5.index t a * S2000x128.size a ≤ (i a).val ∧ (i a).val < win15_5.index t a * S2000x128.size a + S2000x128.size a := by
  show i ∈ ((View.whole main_v589).slice (win15_5.rect t)).set ↔ _
  rw [View.set_slice_whole, Rect.mem_set_unit]
  exact Iff.rfl

/-- Row r of the array is written by the point numbered r / 2000 (and every point writes its block back). -/
theorem cover (i : S40000x128.Idx) :
    ∃ t : Fin cfg15.N, (cfg15.win 5).flush t = true ∧ i ∈ ((cfg15.win 5).blk t).view.set := by
  have hi0 : (i 0).val < 40000 := (i 0).isLt
  have hi1 : (i 1).val < 128 := (i 1).isLt
  have hN : cfg15.N = 20 := N_15
  obtain ⟨t, ht⟩ : ∃ t : Fin cfg15.N, t.val = (i 0).val / 2000 := ⟨⟨(i 0).val / 2000, by rw [hN]; omega⟩, rfl⟩
  obtain ⟨-, -, -, -, -, -, -, -, -, -, -, e0, e1⟩ := idx_facts t
  refine ⟨t, flush15_5 t, ?_⟩
  rw [mem_blk]
  intro a
  match a with
  | ⟨0, _⟩ =>
    show win15_5.index t (0 : Fin 2) * 2000 ≤ (i 0).val ∧ (i 0).val < win15_5.index t (0 : Fin 2) * 2000 + 2000
    rw [e0, ht]; omega
  | ⟨1, _⟩ =>
    show win15_5.index t (1 : Fin 2) * 128 ≤ (i 1).val ∧ (i 1).val < win15_5.index t (1 : Fin 2) * 128 + 128
    rw [e1]; omega

/-! ## The array after the run -/

/-- THE REGION'S VALUE: after the grid has run, the output array holds the one-relation update of all 40000 rows — every
    point writes its block of it, and the blocks cover the array. -/
theorem arr (c : Dev nD) :
    (dat15 (F := Ideal) V c).arrAt 5 cfg15.N
      = Cert.IdxSpec.sage1 40000 (V c main_v587) (V c main_v588) (V c main_arg0) (V c main_v584) (V c main_v586) :=
  (dat15 V c).arrAt_eq_of_cover 5 (updArr V c) (fun t _ => flushed_eq V c t) cover

end Cert.KernelIdeal.RegVal15

end
-- ==== Proof.KW15.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg15
import proofs.«165177_j32074815766916_1_alg».proof.Proof.KW14
import proofs.«165177_j32074815766916_1_alg».proof.Proof.KWArgs
import proofs.«165177_j32074815766916_1_alg».proof.Proof.KStab4
import proofs.«165177_j32074815766916_1_alg».proof.Proof.KStab5
import proofs.«165177_j32074815766916_1_alg».proof.Proof.KStab3
import proofs.«165177_j32074815766916_1_alg».proof.Proof.KStab6
import proofs.«165177_j32074815766916_1_alg».proof.Proof.KStab7
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem win15_0 : W29 m ρ c (Proc.devRef .tc main_v587) = pack1A (aggPA ((argsK m c).xp) (argsK m c).spa (argsK m c).dpa) := by
  have h0 := ((st_main_v540_28 m ρ c).trans (kv_main_v540 m ρ c))
  show StableHlo.after hostOps15 (W28 m ρ c) (Proc.devRef .tc main_v587) = _
  generalize W28 m ρ c = Wx at *
  unfold hostOps15
  after_results_simp
  simp only [h0]
  try rfl

theorem win15_1 : W29 m ρ c (Proc.devRef .tc main_v588) = pack1W (wmat 0 1 Facts₀.slices_S2x4x128x128_S1x1x128x128_0_1_0_0 (slab5 2 Facts₀.slices_S3x2x4x128x128_S1x2x4x128x128_2_0_0_0_0 (argsK m c).Wl)) := by
  have h0 := ((st_main_v479_28 m ρ c).trans (kv_main_v479 m ρ c))
  show StableHlo.after hostOps15 (W28 m ρ c) (Proc.devRef .tc main_v588) = _
  generalize W28 m ρ c = Wx at *
  unfold hostOps15
  after_results_simp
  simp only [h0]
  try rfl

theorem win15_2 : W29 m ρ c (Proc.devRef .tc main_arg0) = (argsK m c).xa := ((st_main_arg0_29 m ρ c).trans (kv_main_arg0 m ρ c))

theorem win15_3 : W29 m ρ c (Proc.devRef .tc main_v584) = wmat 0 1 Facts₀.slices_S2x4x128x128_S1x1x128x128_0_1_0_0 (slab5 2 Facts₀.slices_S3x2x4x128x128_S1x2x4x128x128_2_0_0_0_0 (argsK m c).Wr) := by
  have h0 := ((st_main_v483_28 m ρ c).trans (kv_main_v483 m ρ c))
  show StableHlo.after hostOps15 (W28 m ρ c) (Proc.devRef .tc main_v584) = _
  generalize W28 m ρ c = Wx at *
  unfold hostOps15
  after_results_simp
  simp only [h0]
  try rfl

theorem win15_4 : W29 m ρ c (Proc.devRef .tc main_v586) = wvec 0 1 Facts₀.slices_S2x4x128_S1x1x128_0_1_0 (slab4 2 Facts₀.slices_S3x2x4x128_S1x2x4x128_2_0_0_0 (argsK m c).bl) := by
  have h0 := ((st_main_v481_28 m ρ c).trans (kv_main_v481 m ρ c))
  show StableHlo.after hostOps15 (W28 m ρ c) (Proc.devRef .tc main_v586) = _
  generalize W28 m ρ c = Wx at *
  unfold hostOps15
  after_results_simp
  simp only [h0]
  try rfl

theorem kv_main_v589 : W30 m ρ c (Proc.devRef .tc main_v589) = K.oa1 (argsK m c) := by
  refine (W30_arr m ρ c 5).trans ?_
  refine (Cert.KernelIdeal.RegVal15.arr (V29 m ρ) c).trans ?_
  show Cert.IdxSpec.sage1 40000 (W29 m ρ c (Proc.devRef .tc main_v587)) (W29 m ρ c (Proc.devRef .tc main_v588)) (W29 m ρ c (Proc.devRef .tc main_arg0)) (W29 m ρ c (Proc.devRef .tc main_v584)) (W29 m ρ c (Proc.devRef .tc main_v586)) = _
  rw [win15_0 m ρ c, win15_1 m ρ c, win15_2 m ρ c, win15_3 m ρ c, win15_4 m ρ c]
  rfl

end Cert.KernelIdeal.KW

end
-- ==== Proof.Reg16Pay.lean ====
/-
  Region 1's arithmetic at one entry, on extended reals.

  The body stores one 2000 × 128 block. Its entry at row p and column q is
      max( Σ_k mean[0,p,k]·Wl[0,k,q] + Σ_k x[p,k]·Wr[k,q] + b[q], 0 ),
  where mean is the block of neighbour means (one relation, carried on a leading unit axis), Wl the stacked left weight,
  x the block of the node's own features, Wr the right weight and b the bias. The casts to the narrow format are the
  identity on exact values; each matrix product into a zero accumulator is the sum over its one contracted coordinate;
  dropping or adding a unit axis keeps the row-major position; the bias row is repeated down the rows.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal16

open Idealize.ShloMosaic Idealize.ShloMosaic.ValueIdx Cert.KernelIdeal Cert.KernelIdeal.Gen

/-! ## The matrix product's operand indices, axis by axis -/

/-- The left operand's row is the output's row. -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contracted coordinate. -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contracted coordinate. -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product at an entry -/

/-- A 2000 × 128 by 128 × 128 product into the zero accumulator, at entry (p, q): the sum over the 128 contracted
    coordinates of the products of the two operands' entries. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The stored block at an entry -/

/-- Entry (p, q) of the block the body stores: the two sums, the bias, the clamp at zero. -/
theorem pay_at (x0 : Vec Ideal S1x2000x128 .f32) (x1 : Vec Ideal S1x128x128 .f32) (x2 : Vec Ideal S2000x128 .f32)
    (x3 : Vec Ideal S128x128 .f32) (x4 : Vec Ideal S128 .f32) (p : Fin 2000) (q : Fin 128) :
    k16_pay1 (F := Ideal) x0 x1 x2 x3 x4 (ix2 p q)
      = max (((∑ k : Fin 128, x0 (ix3 (0 : Fin 1) p k) * x1 (ix3 (0 : Fin 1) k q))
          + ∑ k : Fin 128, x2 (ix2 p k) * x3 (ix2 k q))
          + x4 (ix1 q)) 0 := by
  unfold k16_pay1
  rw [maximumf_apply, broadcast_apply, addf_apply, addf_apply, matmul_at, matmul_at,
    broadcastTo_1b_ab_apply, shapeCast_a_1a_apply, shapeCast_self]
  simp only [truncf_apply, shapeCast_1ab_ab_apply, shapeCast_self]
  show max _ (Ideal.ofBits .f32 0x00000000#32) = _
  rw [Ideal.ofBits_zero_f32]

end Cert.KernelIdeal.RegVal16

end
-- ==== Proof.Reg16.lean ====
/-
  Region 1's value: what its output array holds after the grid has run, as one function of the arrays it reads, on
  extended reals.

  The region updates a node type with one incoming relation, 20000 rows in 10 blocks of 2000. Point t of the grid reads
  rows 2000·t … 2000·t + 1999 of the neighbour means and of the node's own features, the two weight matrices and the bias
  whole, and writes back rows 2000·t … 2000·t + 1999 of
      max( Σ_k mean[0,r,k]·Wl[0,k,q] + Σ_k x[r,k]·Wr[k,q] + b[q], 0 ).
  An entry of the written block depends only on its own row of the means and features, so each point writes exactly its
  block of that one whole-array function; the 10 blocks tile the rows (row r lies in block r / 2000), so the array ends
  holding the function everywhere.
-/
import proofs.«165177_j32074815766916_1_alg».proof.Proof.FIL16
import proofs.«165177_j32074815766916_1_alg».proof.Proof.IdxSpec
import proofs.«165177_j32074815766916_1_alg».proof.Proof.Reg16Pay
import Idealize.ShloMosaic.Lib.Pipeline.Value
import Idealize.ShloMosaic.Lib.ValueIdx

set_option maxRecDepth 16384

noncomputable section

namespace Cert.KernelIdeal.RegVal16

open Idealize.ShloMosaic Idealize.ShloMosaic.TcCoe Idealize.ShloMosaic.ValueIdx Cert.KernelIdeal Cert.KernelIdeal.Gen Cert.KernelIdeal.GenP
open Idealize.ShloMosaic.Pipeline (Dat)

/-! ## The arrays the region reads, by their literal types -/

variable (V : (c : Dev nD) → (b : Ref sig .tc) → Buf (Elt Ideal) ((c : Thread nD τ).loc b))

/-- The stacked neighbour means (one relation), 20000 rows. -/
noncomputable abbrev meansArr (c : Dev nD) : Vec Ideal S1x20000x128 .f32 := V c main_v596
/-- The stacked left weight. -/
noncomputable abbrev wlsArr (c : Dev nD) : Vec Ideal S1x128x128 .f32 := V c main_v597
/-- The node type's own features, 20000 rows. -/
noncomputable abbrev xdArr (c : Dev nD) : Vec Ideal S20000x128 .f32 := V c main_arg2
/-- The right weight. -/
noncomputable abbrev wrArr (c : Dev nD) : Vec Ideal S128x128 .f32 := V c main_v593
/-- The bias. -/
noncomputable abbrev biasArr (c : Dev nD) : Vec Ideal S128 .f32 := V c main_v595

/-- What the region's output array ends holding: the one-relation update of all 20000 rows. -/
noncomputable abbrev updArr (c : Dev nD) : Vec Ideal S20000x128 .f32 :=
  Cert.IdxSpec.sage1 20000 (meansArr V c) (wlsArr V c) (xdArr V c) (wrArr V c) (biasArr V c)

/-- The update at row r, column q, with the coordinates named. -/
theorem updArr_at (c : Dev nD) (i : S20000x128.Idx) (r : Fin 20000) (q : Fin 128) (hi : i = ix2 r q) :
    updArr V c i
      = max (((∑ k : Fin 128, meansArr V c (ix3 (0 : Fin 1) r k) * wlsArr V c (ix3 (0 : Fin 1) k q))
          + ∑ k : Fin 128, xdArr V c (ix2 r k) * wrArr V c (ix2 k q))
          + biasArr V c (ix1 q)) 0 := by
  subst hi; rfl

/-! ## The index maps over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid's points: the means' and the features' blocks move down the rows with
    the output's block; the two weights and the bias are taken whole at every point; the output's block index is the
    point's number. -/
theorem idx_facts : ∀ t : Fin cfg16.N,
    win16_0.index t (0 : Fin 3) = 0 ∧ win16_0.index t (1 : Fin 3) = win16_5.index t (0 : Fin 2) ∧ win16_0.index t (2 : Fin 3) = 0
    ∧ win16_1.index t (0 : Fin 3) = 0 ∧ win16_1.index t (1 : Fin 3) = 0 ∧ win16_1.index t (2 : Fin 3) = 0
    ∧ win16_2.index t (0 : Fin 2) = win16_5.index t (0 : Fin 2) ∧ win16_2.index t (1 : Fin 2) = 0
    ∧ win16_3.index t (0 : Fin 2) = 0 ∧ win16_3.index t (1 : Fin 2) = 0
    ∧ win16_4.index t (0 : Fin 1) = 0
    ∧ win16_5.index t (0 : Fin 2) = t.val ∧ win16_5.index t (1 : Fin 2) = 0 :=
  (by decide +kernel : ∀ t : Fin grid16.N, _)

/-! ## Each input window's block, read off its array -/

/-- The means' block at point t is rows 2000·b … 2000·b + 1999 of the means, b the output's block index at t. -/
theorem means_blk (c : Dev nD) (t : Fin cfg16.N) (y : S1x2000x128.Idx) (i : S1x20000x128.Idx)
    (h0 : (i 0).val = (y 0).val) (h1 : (i 1).val = win16_5.index t (0 : Fin 2) * 2000 + (y 1).val) (h2 : (i 2).val = (y 2).val) :
    (iblk16 V c 0 t : Vec Ideal S1x2000x128 .f32) y = meansArr V c i := by
  obtain ⟨e0, e1, e2, -⟩ := idx_facts t
  unfold iblk16
  rw [View.read_apply]
  show V c main_v596 _ = V c main_v596 _
  congr 1
  funext a
  apply Fin.ext
  match a with
  | ⟨0, _⟩ => show win16_0.index t (0 : Fin 3) * 1 + 1 * (y 0).val = (i 0).val; rw [e0, h0]; omega
  | ⟨1, _⟩ => show win16_0.index t (1 : Fin 3) * 2000 + 1 * (y 1).val = (i 1).val; rw [e1, h1]; omega
  | ⟨2, _⟩ => show win16_0.index t (2 : Fin 3) * 128 + 1 * (y 2).val = (i 2).val; rw [e2, h2]; omega

/-- The features' block at point t is the same rows of the features. -/
theorem xd_blk (c : Dev nD) (t : Fin cfg16.N) (y : S2000x128.Idx) (i : S20000x128.Idx)
    (h0 : (i 0).val = win16_5.index t (0 : Fin 2) * 2000 + (y 0).val) (h1 : (i 1).val = (y 1).val) :
    (iblk16 V c 2 t : Vec Ideal S2000x128 .f32) y = xdArr V c i := by
  obtain ⟨-, -, -, -, -, -, e0, e1, -⟩ := idx_facts t
  unfold iblk16
  rw [View.read_apply]
  show V c main_arg2 _ = V c main_arg2 _
  congr 1
  funext a
  apply Fin.ext
  match a with
  | ⟨0, _⟩ => show win16_2.index t (0 : Fin 2) * 2000 + 1 * (y 0).val = (i 0).val; rw [e0, h0]; omega
  | ⟨1, _⟩ => show win16_2.index t (1 : Fin 2) * 128 + 1 * (y 1).val = (i 1).val; rw [e1, h1]; omega

/-- The left weight's window takes the whole array at every point. -/
theorem wls_blk (c : Dev nD) (t : Fin cfg16.N) : (iblk16 V c 1 t : Vec Ideal S1x128x128 .f32) = wlsArr V c := by
  obtain ⟨-, -, -, e0, e1, e2, -⟩ := idx_facts t
  funext y
  unfold iblk16
  rw [View.read_apply]
  show V c main_v597 _ = V c main_v597 _
  congr 1
  funext a
  apply Fin.ext
  match a with
  | ⟨0, _⟩ => show win16_1.index t (0 : Fin 3) * 1 + 1 * (y 0).val = (y 0).val; rw [e0]; omega
  | ⟨1, _⟩ => show win16_1.index t (1 : Fin 3) * 128 + 1 * (y 1).val = (y 1).val; rw [e1]; omega
  | ⟨2, _⟩ => show win16_1.index t (2 : Fin 3) * 128 + 1 * (y 2).val = (y 2).val; rw [e2]; omega

/-- The right weight's window takes the whole array at every point. -/
theorem wr_blk (c : Dev nD) (t : Fin cfg16.N) : (iblk16 V c 3 t : Vec Ideal S128x128 .f32) = wrArr V c := by
  obtain ⟨-, -, -, -, -, -, -, -, e0, e1, -⟩ := idx_facts t
  funext y
  unfold iblk16
  rw [View.read_apply]
  show V c main_v593 _ = V c main_v593 _
  congr 1
  funext a
  apply Fin.ext
  match a with
  | ⟨0, _⟩ => show win16_3.index t (0 : Fin 2) * 128 + 1 * (y 0).val = (y 0).val; rw [e0]; omega
  | ⟨1, _⟩ => show win16_3.index t (1 : Fin 2) * 128 + 1 * (y 1).val = (y 1).val; rw [e1]; omega

/-- The bias's window takes the whole array at every point. -/
theorem bias_blk (c : Dev nD) (t : Fin cfg16.N) : (iblk16 V c 4 t : Vec Ideal S128 .f32) = biasArr V c := by
  obtain ⟨-, -, -, -, -, -, -, -, -, -, e0, -⟩ := idx_facts t
  funext y
  unfold iblk16
  rw [View.read_apply]
  show V c main_v595 _ = V c main_v595 _
  congr 1
  funext a
  apply Fin.ext
  match a with
  | ⟨0, _⟩ => show win16_4.index t (0 : Fin 1) * 128 + 1 * (y 0).val = (y 0).val; rw [e0]; omega

/-! ## What one point writes back -/

/-- The body's stored block from the five input blocks, without the load and store rectangles (each is the whole
    staging buffer). -/
theorem out_eq (x0 : Vec Ideal S1x2000x128 .f32) (x1 : Vec Ideal S1x128x128 .f32) (x2 : Vec Ideal S2000x128 .f32)
    (x3 : Vec Ideal S128x128 .f32) (x4 : Vec Ideal S128 .f32) :
    out16_5 (F := Ideal) x0 x1 x2 x3 x4 = k16_pay1 (F := Ideal) x0 x1 x2 x3 x4 := by
  unfold out16_5
  rw [View.canon_unit_zero hz2]
  simp only [View.ld_unit_zero (S := S1x2000x128) hz3, View.ld_unit_zero (S := S1x128x128) hz3,
    View.ld_unit_zero (S := S2000x128) hz2, View.ld_unit_zero (S := S128x128) hz2, View.ld_unit_zero (S := S128) hz1]

/-- The output block's entry (p, q) at point t sits at row 2000·b + p, column q of the array, b the block index. -/
theorem out_emb (t : Fin cfg16.N) (p : Fin 2000) (q : Fin 128) (r : Fin 20000)
    (hr : r.val = win16_5.index t (0 : Fin 2) * 2000 + p.val) :
    ((cfg16.win 5).blk t).view.emb (ix2 p q) = (ix2 r q : S20000x128.Idx) := by
  obtain ⟨-, -, -, -, -, -, -, -, -, -, -, -, e1⟩ := idx_facts t
  funext a
  apply Fin.ext
  match a with
  | ⟨0, _⟩ => show win16_5.index t (0 : Fin 2) * 2000 + 1 * p.val = r.val; rw [hr]; omega
  | ⟨1, _⟩ => show win16_5.index t (1 : Fin 2) * 128 + 1 * q.val = q.val; rw [e1]; omega

/-- What point t writes back is block t of the update of all rows: entry (p, q) of the stored block is the update at
    row 2000·b + p, column q, b the output's block index at t — each sum termwise, the means' and the features' blocks
    read at those rows. -/
theorem flushed_eq (c : Dev nD) (t : Fin cfg16.N) :
    (dat16 (F := Ideal) V c).flushed 5 t = ((cfg16.win 5).blk t).view.read (Elt Ideal) (updArr V c) := by
  show (cfg16.win 5).cut (grid16.coords t) ((dat16 V c).after 5 t) = _
  rw [after16_5, out_eq, wls_blk, wr_blk, bias_blk]
  funext j
  obtain ⟨p, q, rfl⟩ : ∃ (p : Fin 2000) (q : Fin 128), j = ix2 p q := ⟨j 0, j 1, eq_ix2 j⟩
  obtain ⟨-, -, -, -, -, -, -, -, -, -, -, e0, -⟩ := idx_facts t
  have hN : cfg16.N = 10 := N_16
  have ht : t.val < 10 := hN ▸ t.isLt
  obtain ⟨r, hr⟩ : ∃ r : Fin 20000, r.val = win16_5.index t (0 : Fin 2) * 2000 + p.val :=
    ⟨⟨win16_5.index t (0 : Fin 2) * 2000 + p.val, by rw [e0]; have := p.isLt; omega⟩, rfl⟩
  rw [View.read_apply]
  show k16_pay1 (F := Ideal) (iblk16 V c 0 t) (wlsArr V c) (iblk16 V c 2 t) (wrArr V c) (biasArr V c) (ix2 p q)
    = updArr V c (((cfg16.win 5).blk t).view.emb (ix2 p q))
  rw [out_emb t p q r hr, updArr_at V c _ r q rfl]
  refine (pay_at _ _ _ _ _ p q).trans ?_
  refine congrArg₂ max (congrArg₂ (· + ·) (congrArg₂ (· + ·) (Finset.sum_congr rfl fun k _ => ?_) (Finset.sum_congr rfl fun k _ => ?_)) rfl) rfl
  · exact congrArg (· * _) (means_blk V c t (ix3 (0 : Fin 1) p k) (ix3 (0 : Fin 1) r k) rfl hr rfl)
  · exact congrArg (· * _) (xd_blk V c t (ix2 p k) (ix2 r k) hr rfl)

/-! ## The blocks cover the array -/

/-- An index of the array is in point t's block iff each coordinate is in the block's range on its axis. -/
theorem mem_blk (t : Fin cfg16.N) (i : S20000x128.Idx) :
    i ∈ ((cfg16.win 5).blk t).view.set ↔ ∀ a : Fin 2, win16_5.index t a * S2000x128.size a ≤ (i a).val ∧ (i a).val < win16_5.index t a * S2000x128.size a + S2000x128.size a := by
  show i ∈ ((View.whole main_v598).slice (win16_5.rect t)).set ↔ _
  rw [View.set_slice_whole, Rect.mem_set_unit]
  exact Iff.rfl

/-- Row r of the array is written by the point numbered r / 2000 (and every point writes its block back). -/
theorem cover (i : S20000x128.Idx) :
    ∃ t : Fin cfg16.N, (cfg16.win 5).flush t = true ∧ i ∈ ((cfg16.win 5).blk t).view.set := by
  have hi0 : (i 0).val < 20000 := (i 0).isLt
  have hi1 : (i 1).val < 128 := (i 1).isLt
  have hN : cfg16.N = 10 := N_16
  obtain ⟨t, ht⟩ : ∃ t : Fin cfg16.N, t.val = (i 0).val / 2000 := ⟨⟨(i 0).val / 2000, by rw [hN]; omega⟩, rfl⟩
  obtain ⟨-, -, -, -, -, -, -, -, -, -, -, e0, e1⟩ := idx_facts t
  refine ⟨t, flush16_5 t, ?_⟩
  rw [mem_blk]
  intro a
  match a with
  | ⟨0, _⟩ =>
    show win16_5.index t (0 : Fin 2) * 2000 ≤ (i 0).val ∧ (i 0).val < win16_5.index t (0 : Fin 2) * 2000 + 2000
    rw [e0, ht]; omega
  | ⟨1, _⟩ =>
    show win16_5.index t (1 : Fin 2) * 128 ≤ (i 1).val ∧ (i 1).val < win16_5.index t (1 : Fin 2) * 128 + 128
    rw [e1]; omega

/-! ## The array after the run -/

/-- THE REGION'S VALUE: after the grid has run, the output array holds the one-relation update of all 20000 rows — every
    point writes its block of it, and the blocks cover the array. -/
theorem arr (c : Dev nD) :
    (dat16 (F := Ideal) V c).arrAt 5 cfg16.N
      = Cert.IdxSpec.sage1 20000 (V c main_v596) (V c main_v597) (V c main_arg2) (V c main_v593) (V c main_v595) :=
  (dat16 V c).arrAt_eq_of_cover 5 (updArr V c) (fun t _ => flushed_eq V c t) cover

end Cert.KernelIdeal.RegVal16

end
-- ==== Proof.KW16.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg16
import proofs.«165177_j32074815766916_1_alg».proof.Proof.KW14
import proofs.«165177_j32074815766916_1_alg».proof.Proof.KWArgs
import proofs.«165177_j32074815766916_1_alg».proof.Proof.KStab0
import proofs.«165177_j32074815766916_1_alg».proof.Proof.KStab5
import proofs.«165177_j32074815766916_1_alg».proof.Proof.KStab7
import proofs.«165177_j32074815766916_1_alg».proof.Proof.KStab6
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem win16_0 : W31 m ρ c (Proc.devRef .tc main_v596) = pack1T (aggPT ((argsK m c).xp) (argsK m c).spt (argsK m c).dpt) := by
  have h0 := ((st_main_v559_30 m ρ c).trans (kv_main_v559 m ρ c))
  show StableHlo.after hostOps16 (W30 m ρ c) (Proc.devRef .tc main_v596) = _
  generalize W30 m ρ c = Wx at *
  unfold hostOps16
  after_results_simp
  simp only [h0]
  try rfl

theorem win16_1 : W31 m ρ c (Proc.devRef .tc main_v597) = pack1W (wmat 0 2 Facts₀.slices_S2x4x128x128_S1x1x128x128_0_2_0_0 (slab5 2 Facts₀.slices_S3x2x4x128x128_S1x2x4x128x128_2_0_0_0_0 (argsK m c).Wl)) := by
  have h0 := ((st_main_v479_30 m ρ c).trans (kv_main_v479 m ρ c))
  show StableHlo.after hostOps16 (W30 m ρ c) (Proc.devRef .tc main_v597) = _
  generalize W30 m ρ c = Wx at *
  unfold hostOps16
  after_results_simp
  simp only [h0]
  try rfl

theorem win16_2 : W31 m ρ c (Proc.devRef .tc main_arg2) = (argsK m c).xt := ((st_main_arg2_31 m ρ c).trans (kv_main_arg2 m ρ c))

theorem win16_3 : W31 m ρ c (Proc.devRef .tc main_v593) = wmat 0 2 Facts₀.slices_S2x4x128x128_S1x1x128x128_0_2_0_0 (slab5 2 Facts₀.slices_S3x2x4x128x128_S1x2x4x128x128_2_0_0_0_0 (argsK m c).Wr) := by
  have h0 := ((st_main_v483_30 m ρ c).trans (kv_main_v483 m ρ c))
  show StableHlo.after hostOps16 (W30 m ρ c) (Proc.devRef .tc main_v593) = _
  generalize W30 m ρ c = Wx at *
  unfold hostOps16
  after_results_simp
  simp only [h0]
  try rfl

theorem win16_4 : W31 m ρ c (Proc.devRef .tc main_v595) = wvec 0 2 Facts₀.slices_S2x4x128_S1x1x128_0_2_0 (slab4 2 Facts₀.slices_S3x2x4x128_S1x2x4x128_2_0_0_0 (argsK m c).bl) := by
  have h0 := ((st_main_v481_30 m ρ c).trans (kv_main_v481 m ρ c))
  show StableHlo.after hostOps16 (W30 m ρ c) (Proc.devRef .tc main_v595) = _
  generalize W30 m ρ c = Wx at *
  unfold hostOps16
  after_results_simp
  simp only [h0]
  try rfl

theorem kv_main_v598 : W32 m ρ c (Proc.devRef .tc main_v598) = K.ot1 (argsK m c) := by
  refine (W32_arr m ρ c 5).trans ?_
  refine (Cert.KernelIdeal.RegVal16.arr (V31 m ρ) c).trans ?_
  show Cert.IdxSpec.sage1 20000 (W31 m ρ c (Proc.devRef .tc main_v596)) (W31 m ρ c (Proc.devRef .tc main_v597)) (W31 m ρ c (Proc.devRef .tc main_arg2)) (W31 m ρ c (Proc.devRef .tc main_v593)) (W31 m ρ c (Proc.devRef .tc main_v595)) = _
  rw [win16_0 m ρ c, win16_1 m ρ c, win16_2 m ρ c, win16_3 m ρ c, win16_4 m ρ c]
  rfl

end Cert.KernelIdeal.KW

end
-- ==== Proof.KW17.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg17
import proofs.«165177_j32074815766916_1_alg».proof.Proof.KWArgs
import proofs.«165177_j32074815766916_1_alg».proof.Proof.KW15
import proofs.«165177_j32074815766916_1_alg».proof.Proof.KW16
import proofs.«165177_j32074815766916_1_alg».proof.Proof.KW14
import proofs.«165177_j32074815766916_1_alg».proof.Proof.KStab0
import proofs.«165177_j32074815766916_1_alg».proof.Proof.KStab1
import proofs.«165177_j32074815766916_1_alg».proof.Proof.KStab2
import proofs.«165177_j32074815766916_1_alg».proof.Proof.KStab3
import proofs.«165177_j32074815766916_1_alg».proof.Proof.KStab4
import proofs.«165177_j32074815766916_1_alg».proof.Proof.KStab5
import proofs.«165177_j32074815766916_1_alg».proof.Proof.KStab6
import proofs.«165177_j32074815766916_1_alg».proof.Proof.KStab7
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem kv_main_v655 : W33 m ρ c (Proc.devRef .tc main_v655) = aggPA (K.op1 (argsK m c)) (argsK m c).spa (argsK m c).dpa := by
  have h0 := ((st_main_arg15_32 m ρ c).trans (kv_main_arg15 m ρ c))
  have h1 := ((st_main_v580_32 m ρ c).trans (kv_main_v580 m ρ c))
  have h2 := ((st_main_arg14_32 m ρ c).trans (kv_main_arg14 m ρ c))
  show StableHlo.after hostOps17 (W32 m ρ c) (Proc.devRef .tc main_v655) = _
  generalize W32 m ρ c = Wx at *
  unfold hostOps17
  after_results_simp
  simp only [h0, h1, h2]
  try rfl

theorem kv_main_v674 : W33 m ρ c (Proc.devRef .tc main_v674) = aggPT (K.op1 (argsK m c)) (argsK m c).spt (argsK m c).dpt := by
  have h0 := ((st_main_arg17_32 m ρ c).trans (kv_main_arg17 m ρ c))
  have h1 := ((st_main_v580_32 m ρ c).trans (kv_main_v580 m ρ c))
  have h2 := ((st_main_arg16_32 m ρ c).trans (kv_main_arg16 m ρ c))
  show StableHlo.after hostOps17 (W32 m ρ c) (Proc.devRef .tc main_v674) = _
  generalize W32 m ρ c = Wx at *
  unfold hostOps17
  after_results_simp
  simp only [h0, h1, h2]
  try rfl

theorem win17_0 : W33 m ρ c (Proc.devRef .tc main_v691) = pack2P (aggAP (K.oa1 (argsK m c)) (argsK m c).sap (argsK m c).dap) (aggTP (K.ot1 (argsK m c)) (argsK m c).stp (argsK m c).dtp) := by
  have h0 := ((st_main_arg13_32 m ρ c).trans (kv_main_arg13 m ρ c))
  have h1 := ((st_main_v589_32 m ρ c).trans (kv_main_v589 m ρ c))
  have h2 := ((st_main_arg12_32 m ρ c).trans (kv_main_arg12 m ρ c))
  have h3 := ((st_main_arg19_32 m ρ c).trans (kv_main_arg19 m ρ c))
  have h4 := (kv_main_v598 m ρ c)
  have h5 := ((st_main_arg18_32 m ρ c).trans (kv_main_arg18 m ρ c))
  show StableHlo.after hostOps17 (W32 m ρ c) (Proc.devRef .tc main_v691) = _
  generalize W32 m ρ c = Wx at *
  unfold hostOps17
  after_results_simp
  refine pack2P_of (F := Ideal) ?_ ?_ _
  all_goals after_results_simp
  all_goals (simp only [h0, h1, h2, h3, h4, h5]; try rfl)

theorem win17_1 : W33 m ρ c (Proc.devRef .tc main_v694) = pack2W (wmat 1 0 Facts₀.slices_S2x4x128x128_S1x1x128x128_1_0_0_0 (slab5 2 Facts₀.slices_S3x2x4x128x128_S1x2x4x128x128_2_0_0_0_0 (argsK m c).Wl)) (wmat 1 3 Facts₀.slices_S2x4x128x128_S1x1x128x128_1_3_0_0 (slab5 2 Facts₀.slices_S3x2x4x128x128_S1x2x4x128x128_2_0_0_0_0 (argsK m c).Wl)) := by
  have h0 := ((st_main_v479_32 m ρ c).trans (kv_main_v479 m ρ c))
  show StableHlo.after hostOps17 (W32 m ρ c) (Proc.devRef .tc main_v694) = _
  generalize W32 m ρ c = Wx at *
  unfold hostOps17
  after_results_simp
  refine pack2W_of (F := Ideal) ?_ ?_ _
  all_goals after_results_simp
  all_goals (simp only [h0]; try rfl)

theorem win17_2 : W33 m ρ c (Proc.devRef .tc main_v580) = K.op1 (argsK m c) := ((st_main_v580_33 m ρ c).trans (kv_main_v580 m ρ c))

theorem win17_3 : W33 m ρ c (Proc.devRef .tc main_v683) = addf (wmat 1 0 Facts₀.slices_S2x4x128x128_S1x1x128x128_1_0_0_0 (slab5 2 Facts₀.slices_S3x2x4x128x128_S1x2x4x128x128_2_0_0_0_0 (argsK m c).Wr)) (wmat 1 3 Facts₀.slices_S2x4x128x128_S1x1x128x128_1_3_0_0 (slab5 2 Facts₀.slices_S3x2x4x128x128_S1x2x4x128x128_2_0_0_0_0 (argsK m c).Wr)) := by
  have h0 := ((st_main_v483_32 m ρ c).trans (kv_main_v483 m ρ c))
  show StableHlo.after hostOps17 (W32 m ρ c) (Proc.devRef .tc main_v683) = _
  generalize W32 m ρ c = Wx at *
  unfold hostOps17
  after_results_simp
  simp only [h0]
  try rfl

theorem win17_4 : W33 m ρ c (Proc.devRef .tc main_v688) = addf (wvec 1 0 Facts₀.slices_S2x4x128_S1x1x128_1_0_0 (slab4 2 Facts₀.slices_S3x2x4x128_S1x2x4x128_2_0_0_0 (argsK m c).bl)) (wvec 1 3 Facts₀.slices_S2x4x128_S1x1x128_1_3_0 (slab4 2 Facts₀.slices_S3x2x4x128_S1x2x4x128_2_0_0_0 (argsK m c).bl)) := by
  have h0 := ((st_main_v481_32 m ρ c).trans (kv_main_v481 m ρ c))
  show StableHlo.after hostOps17 (W32 m ρ c) (Proc.devRef .tc main_v688) = _
  generalize W32 m ρ c = Wx at *
  unfold hostOps17
  after_results_simp
  simp only [h0]
  try rfl

theorem kv_main_v695 : W34 m ρ c (Proc.devRef .tc main_v695) = K.op2 (argsK m c) := by
  refine (W34_arr m ρ c 5).trans ?_
  refine (Cert.KernelIdeal.RegVal17.arr (V33 m ρ) c).trans ?_
  show Cert.IdxSpec.sage2 100000 (W33 m ρ c (Proc.devRef .tc main_v691)) (W33 m ρ c (Proc.devRef .tc main_v694)) (W33 m ρ c (Proc.devRef .tc main_v580)) (W33 m ρ c (Proc.devRef .tc main_v683)) (W33 m ρ c (Proc.devRef .tc main_v688)) = _
  rw [win17_0 m ρ c, win17_1 m ρ c, win17_2 m ρ c, win17_3 m ρ c, win17_4 m ρ c]
  rfl

end Cert.KernelIdeal.KW

end
-- ==== Proof.KW18.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg18
import proofs.«165177_j32074815766916_1_alg».proof.Proof.KW17
import proofs.«165177_j32074815766916_1_alg».proof.Proof.KW14
import proofs.«165177_j32074815766916_1_alg».proof.Proof.KW15
import proofs.«165177_j32074815766916_1_alg».proof.Proof.KStab3
import proofs.«165177_j32074815766916_1_alg».proof.Proof.KStab5
import proofs.«165177_j32074815766916_1_alg».proof.Proof.KStab1
import proofs.«165177_j32074815766916_1_alg».proof.Proof.KStab6
import proofs.«165177_j32074815766916_1_alg».proof.Proof.KStab7
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem win18_0 : W35 m ρ c (Proc.devRef .tc main_v702) = pack1A (aggPA (K.op1 (argsK m c)) (argsK m c).spa (argsK m c).dpa) := by
  have h0 := ((st_main_v655_34 m ρ c).trans (kv_main_v655 m ρ c))
  show StableHlo.after hostOps18 (W34 m ρ c) (Proc.devRef .tc main_v702) = _
  generalize W34 m ρ c = Wx at *
  unfold hostOps18
  after_results_simp
  simp only [h0]
  try rfl

theorem win18_1 : W35 m ρ c (Proc.devRef .tc main_v703) = pack1W (wmat 1 1 Facts₀.slices_S2x4x128x128_S1x1x128x128_1_1_0_0 (slab5 2 Facts₀.slices_S3x2x4x128x128_S1x2x4x128x128_2_0_0_0_0 (argsK m c).Wl)) := by
  have h0 := ((st_main_v479_34 m ρ c).trans (kv_main_v479 m ρ c))
  show StableHlo.after hostOps18 (W34 m ρ c) (Proc.devRef .tc main_v703) = _
  generalize W34 m ρ c = Wx at *
  unfold hostOps18
  after_results_simp
  simp only [h0]
  try rfl

theorem win18_2 : W35 m ρ c (Proc.devRef .tc main_v589) = K.oa1 (argsK m c) := ((st_main_v589_35 m ρ c).trans (kv_main_v589 m ρ c))

theorem win18_3 : W35 m ρ c (Proc.devRef .tc main_v699) = wmat 1 1 Facts₀.slices_S2x4x128x128_S1x1x128x128_1_1_0_0 (slab5 2 Facts₀.slices_S3x2x4x128x128_S1x2x4x128x128_2_0_0_0_0 (argsK m c).Wr) := by
  have h0 := ((st_main_v483_34 m ρ c).trans (kv_main_v483 m ρ c))
  show StableHlo.after hostOps18 (W34 m ρ c) (Proc.devRef .tc main_v699) = _
  generalize W34 m ρ c = Wx at *
  unfold hostOps18
  after_results_simp
  simp only [h0]
  try rfl

theorem win18_4 : W35 m ρ c (Proc.devRef .tc main_v701) = wvec 1 1 Facts₀.slices_S2x4x128_S1x1x128_1_1_0 (slab4 2 Facts₀.slices_S3x2x4x128_S1x2x4x128_2_0_0_0 (argsK m c).bl) := by
  have h0 := ((st_main_v481_34 m ρ c).trans (kv_main_v481 m ρ c))
  show StableHlo.after hostOps18 (W34 m ρ c) (Proc.devRef .tc main_v701) = _
  generalize W34 m ρ c = Wx at *
  unfold hostOps18
  after_results_simp
  simp only [h0]
  try rfl

theorem kv_main_v704 : W36 m ρ c (Proc.devRef .tc main_v704) = K.oa2 (argsK m c) := by
  refine (W36_arr m ρ c 5).trans ?_
  refine (Cert.KernelIdeal.RegVal18.arr (V35 m ρ) c).trans ?_
  show Cert.IdxSpec.sage1 40000 (W35 m ρ c (Proc.devRef .tc main_v702)) (W35 m ρ c (Proc.devRef .tc main_v703)) (W35 m ρ c (Proc.devRef .tc main_v589)) (W35 m ρ c (Proc.devRef .tc main_v699)) (W35 m ρ c (Proc.devRef .tc main_v701)) = _
  rw [win18_0 m ρ c, win18_1 m ρ c, win18_2 m ρ c, win18_3 m ρ c, win18_4 m ρ c]
  rfl

end Cert.KernelIdeal.KW

end
-- ==== Proof.Reg19Pay.lean ====
/-
  Region 1's arithmetic at one entry, on extended reals.

  The body stores one 2000 × 128 block. Its entry at row p and column q is
      max( Σ_k mean[0,p,k]·Wl[0,k,q] + Σ_k x[p,k]·Wr[k,q] + b[q], 0 ),
  where mean is the block of neighbour means (one relation, carried on a leading unit axis), Wl the stacked left weight,
  x the block of the node's own features, Wr the right weight and b the bias. The casts to the narrow format are the
  identity on exact values; each matrix product into a zero accumulator is the sum over its one contracted coordinate;
  dropping or adding a unit axis keeps the row-major position; the bias row is repeated down the rows.
-/
import proofs.«165177_j32074815766916_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegVal19

open Idealize.ShloMosaic Idealize.ShloMosaic.ValueIdx Cert.KernelIdeal Cert.KernelIdeal.Gen

/-! ## The matrix product's operand indices, axis by axis -/

/-- The left operand's row is the output's row. -/
theorem lhs_mm_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contracted coordinate. -/
theorem lhs_mm_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the contracted coordinate. -/
theorem rhs_mm_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand's column is the output's column. -/
theorem rhs_mm_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-! ## One matrix product at an entry -/

/-- A 2000 × 128 by 128 × 128 product into the zero accumulator, at entry (p, q): the sum over the 128 contracted
    coordinates of the products of the two operands' entries. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The stored block at an entry -/

/-- Entry (p, q) of the block the body stores: the two sums, the bias, the clamp at zero. -/
theorem pay_at (x0 : Vec Ideal S1x2000x128 .f32) (x1 : Vec Ideal S1x128x128 .f32) (x2 : Vec Ideal S2000x128 .f32)
    (x3 : Vec Ideal S128x128 .f32) (x4 : Vec Ideal S128 .f32) (p : Fin 2000) (q : Fin 128) :
    k19_pay1 (F := Ideal) x0 x1 x2 x3 x4 (ix2 p q)
      = max (((∑ k : Fin 128, x0 (ix3 (0 : Fin 1) p k) * x1 (ix3 (0 : Fin 1) k q))
          + ∑ k : Fin 128, x2 (ix2 p k) * x3 (ix2 k q))
          + x4 (ix1 q)) 0 := by
  unfold k19_pay1
  rw [maximumf_apply, broadcast_apply, addf_apply, addf_apply, matmul_at, matmul_at,
    broadcastTo_1b_ab_apply, shapeCast_a_1a_apply, shapeCast_self]
  simp only [truncf_apply, shapeCast_1ab_ab_apply, shapeCast_self]
  show max _ (Ideal.ofBits .f32 0x00000000#32) = _
  rw [Ideal.ofBits_zero_f32]

end Cert.KernelIdeal.RegVal19

end
-- ==== Proof.Reg19.lean ====
/-
  Region 1's value: what its output array holds after the grid has run, as one function of the arrays it reads, on
  extended reals.

  The region updates a node type with one incoming relation, 20000 rows in 10 blocks of 2000. Point t of the grid reads
  rows 2000·t … 2000·t + 1999 of the neighbour means and of the node's own features, the two weight matrices and the bias
  whole, and writes back rows 2000·t … 2000·t + 1999 of
      max( Σ_k mean[0,r,k]·Wl[0,k,q] + Σ_k x[r,k]·Wr[k,q] + b[q], 0 ).
  An entry of the written block depends only on its own row of the means and features, so each point writes exactly its
  block of that one whole-array function; the 10 blocks tile the rows (row r lies in block r / 2000), so the array ends
  holding the function everywhere.
-/
import proofs.«165177_j32074815766916_1_alg».proof.Proof.FIL19
import proofs.«165177_j32074815766916_1_alg».proof.Proof.IdxSpec
import proofs.«165177_j32074815766916_1_alg».proof.Proof.Reg19Pay
import Idealize.ShloMosaic.Lib.Pipeline.Value
import Idealize.ShloMosaic.Lib.ValueIdx

set_option maxRecDepth 16384

noncomputable section

namespace Cert.KernelIdeal.RegVal19

open Idealize.ShloMosaic Idealize.ShloMosaic.TcCoe Idealize.ShloMosaic.ValueIdx Cert.KernelIdeal Cert.KernelIdeal.Gen Cert.KernelIdeal.GenP
open Idealize.ShloMosaic.Pipeline (Dat)

/-! ## The arrays the region reads, by their literal types -/

variable (V : (c : Dev nD) → (b : Ref sig .tc) → Buf (Elt Ideal) ((c : Thread nD τ).loc b))

/-- The stacked neighbour means (one relation), 20000 rows. -/
noncomputable abbrev meansArr (c : Dev nD) : Vec Ideal S1x20000x128 .f32 := V c main_v711
/-- The stacked left weight. -/
noncomputable abbrev wlsArr (c : Dev nD) : Vec Ideal S1x128x128 .f32 := V c main_v712
/-- The node type's own features, 20000 rows. -/
noncomputable abbrev xdArr (c : Dev nD) : Vec Ideal S20000x128 .f32 := V c main_v598
/-- The right weight. -/
noncomputable abbrev wrArr (c : Dev nD) : Vec Ideal S128x128 .f32 := V c main_v708
/-- The bias. -/
noncomputable abbrev biasArr (c : Dev nD) : Vec Ideal S128 .f32 := V c main_v710

/-- What the region's output array ends holding: the one-relation update of all 20000 rows. -/
noncomputable abbrev updArr (c : Dev nD) : Vec Ideal S20000x128 .f32 :=
  Cert.IdxSpec.sage1 20000 (meansArr V c) (wlsArr V c) (xdArr V c) (wrArr V c) (biasArr V c)

/-- The update at row r, column q, with the coordinates named. -/
theorem updArr_at (c : Dev nD) (i : S20000x128.Idx) (r : Fin 20000) (q : Fin 128) (hi : i = ix2 r q) :
    updArr V c i
      = max (((∑ k : Fin 128, meansArr V c (ix3 (0 : Fin 1) r k) * wlsArr V c (ix3 (0 : Fin 1) k q))
          + ∑ k : Fin 128, xdArr V c (ix2 r k) * wrArr V c (ix2 k q))
          + biasArr V c (ix1 q)) 0 := by
  subst hi; rfl

/-! ## The index maps over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid's points: the means' and the features' blocks move down the rows with
    the output's block; the two weights and the bias are taken whole at every point; the output's block index is the
    point's number. -/
theorem idx_facts : ∀ t : Fin cfg19.N,
    win19_0.index t (0 : Fin 3) = 0 ∧ win19_0.index t (1 : Fin 3) = win19_5.index t (0 : Fin 2) ∧ win19_0.index t (2 : Fin 3) = 0
    ∧ win19_1.index t (0 : Fin 3) = 0 ∧ win19_1.index t (1 : Fin 3) = 0 ∧ win19_1.index t (2 : Fin 3) = 0
    ∧ win19_2.index t (0 : Fin 2) = win19_5.index t (0 : Fin 2) ∧ win19_2.index t (1 : Fin 2) = 0
    ∧ win19_3.index t (0 : Fin 2) = 0 ∧ win19_3.index t (1 : Fin 2) = 0
    ∧ win19_4.index t (0 : Fin 1) = 0
    ∧ win19_5.index t (0 : Fin 2) = t.val ∧ win19_5.index t (1 : Fin 2) = 0 :=
  (by decide +kernel : ∀ t : Fin grid19.N, _)

/-! ## Each input window's block, read off its array -/

/-- The means' block at point t is rows 2000·b … 2000·b + 1999 of the means, b the output's block index at t. -/
theorem means_blk (c : Dev nD) (t : Fin cfg19.N) (y : S1x2000x128.Idx) (i : S1x20000x128.Idx)
    (h0 : (i 0).val = (y 0).val) (h1 : (i 1).val = win19_5.index t (0 : Fin 2) * 2000 + (y 1).val) (h2 : (i 2).val = (y 2).val) :
    (iblk19 V c 0 t : Vec Ideal S1x2000x128 .f32) y = meansArr V c i := by
  obtain ⟨e0, e1, e2, -⟩ := idx_facts t
  unfold iblk19
  rw [View.read_apply]
  show V c main_v711 _ = V c main_v711 _
  congr 1
  funext a
  apply Fin.ext
  match a with
  | ⟨0, _⟩ => show win19_0.index t (0 : Fin 3) * 1 + 1 * (y 0).val = (i 0).val; rw [e0, h0]; omega
  | ⟨1, _⟩ => show win19_0.index t (1 : Fin 3) * 2000 + 1 * (y 1).val = (i 1).val; rw [e1, h1]; omega
  | ⟨2, _⟩ => show win19_0.index t (2 : Fin 3) * 128 + 1 * (y 2).val = (i 2).val; rw [e2, h2]; omega

/-- The features' block at point t is the same rows of the features. -/
theorem xd_blk (c : Dev nD) (t : Fin cfg19.N) (y : S2000x128.Idx) (i : S20000x128.Idx)
    (h0 : (i 0).val = win19_5.index t (0 : Fin 2) * 2000 + (y 0).val) (h1 : (i 1).val = (y 1).val) :
    (iblk19 V c 2 t : Vec Ideal S2000x128 .f32) y = xdArr V c i := by
  obtain ⟨-, -, -, -, -, -, e0, e1, -⟩ := idx_facts t
  unfold iblk19
  rw [View.read_apply]
  show V c main_v598 _ = V c main_v598 _
  congr 1
  funext a
  apply Fin.ext
  match a with
  | ⟨0, _⟩ => show win19_2.index t (0 : Fin 2) * 2000 + 1 * (y 0).val = (i 0).val; rw [e0, h0]; omega
  | ⟨1, _⟩ => show win19_2.index t (1 : Fin 2) * 128 + 1 * (y 1).val = (i 1).val; rw [e1, h1]; omega

/-- The left weight's window takes the whole array at every point. -/
theorem wls_blk (c : Dev nD) (t : Fin cfg19.N) : (iblk19 V c 1 t : Vec Ideal S1x128x128 .f32) = wlsArr V c := by
  obtain ⟨-, -, -, e0, e1, e2, -⟩ := idx_facts t
  funext y
  unfold iblk19
  rw [View.read_apply]
  show V c main_v712 _ = V c main_v712 _
  congr 1
  funext a
  apply Fin.ext
  match a with
  | ⟨0, _⟩ => show win19_1.index t (0 : Fin 3) * 1 + 1 * (y 0).val = (y 0).val; rw [e0]; omega
  | ⟨1, _⟩ => show win19_1.index t (1 : Fin 3) * 128 + 1 * (y 1).val = (y 1).val; rw [e1]; omega
  | ⟨2, _⟩ => show win19_1.index t (2 : Fin 3) * 128 + 1 * (y 2).val = (y 2).val; rw [e2]; omega

/-- The right weight's window takes the whole array at every point. -/
theorem wr_blk (c : Dev nD) (t : Fin cfg19.N) : (iblk19 V c 3 t : Vec Ideal S128x128 .f32) = wrArr V c := by
  obtain ⟨-, -, -, -, -, -, -, -, e0, e1, -⟩ := idx_facts t
  funext y
  unfold iblk19
  rw [View.read_apply]
  show V c main_v708 _ = V c main_v708 _
  congr 1
  funext a
  apply Fin.ext
  match a with
  | ⟨0, _⟩ => show win19_3.index t (0 : Fin 2) * 128 + 1 * (y 0).val = (y 0).val; rw [e0]; omega
  | ⟨1, _⟩ => show win19_3.index t (1 : Fin 2) * 128 + 1 * (y 1).val = (y 1).val; rw [e1]; omega

/-- The bias's window takes the whole array at every point. -/
theorem bias_blk (c : Dev nD) (t : Fin cfg19.N) : (iblk19 V c 4 t : Vec Ideal S128 .f32) = biasArr V c := by
  obtain ⟨-, -, -, -, -, -, -, -, -, -, e0, -⟩ := idx_facts t
  funext y
  unfold iblk19
  rw [View.read_apply]
  show V c main_v710 _ = V c main_v710 _
  congr 1
  funext a
  apply Fin.ext
  match a with
  | ⟨0, _⟩ => show win19_4.index t (0 : Fin 1) * 128 + 1 * (y 0).val = (y 0).val; rw [e0]; omega

/-! ## What one point writes back -/

/-- The body's stored block from the five input blocks, without the load and store rectangles (each is the whole
    staging buffer). -/
theorem out_eq (x0 : Vec Ideal S1x2000x128 .f32) (x1 : Vec Ideal S1x128x128 .f32) (x2 : Vec Ideal S2000x128 .f32)
    (x3 : Vec Ideal S128x128 .f32) (x4 : Vec Ideal S128 .f32) :
    out19_5 (F := Ideal) x0 x1 x2 x3 x4 = k19_pay1 (F := Ideal) x0 x1 x2 x3 x4 := by
  unfold out19_5
  rw [View.canon_unit_zero hz2]
  simp only [View.ld_unit_zero (S := S1x2000x128) hz3, View.ld_unit_zero (S := S1x128x128) hz3,
    View.ld_unit_zero (S := S2000x128) hz2, View.ld_unit_zero (S := S128x128) hz2, View.ld_unit_zero (S := S128) hz1]

/-- The output block's entry (p, q) at point t sits at row 2000·b + p, column q of the array, b the block index. -/
theorem out_emb (t : Fin cfg19.N) (p : Fin 2000) (q : Fin 128) (r : Fin 20000)
    (hr : r.val = win19_5.index t (0 : Fin 2) * 2000 + p.val) :
    ((cfg19.win 5).blk t).view.emb (ix2 p q) = (ix2 r q : S20000x128.Idx) := by
  obtain ⟨-, -, -, -, -, -, -, -, -, -, -, -, e1⟩ := idx_facts t
  funext a
  apply Fin.ext
  match a with
  | ⟨0, _⟩ => show win19_5.index t (0 : Fin 2) * 2000 + 1 * p.val = r.val; rw [hr]; omega
  | ⟨1, _⟩ => show win19_5.index t (1 : Fin 2) * 128 + 1 * q.val = q.val; rw [e1]; omega

/-- What point t writes back is block t of the update of all rows: entry (p, q) of the stored block is the update at
    row 2000·b + p, column q, b the output's block index at t — each sum termwise, the means' and the features' blocks
    read at those rows. -/
theorem flushed_eq (c : Dev nD) (t : Fin cfg19.N) :
    (dat19 (F := Ideal) V c).flushed 5 t = ((cfg19.win 5).blk t).view.read (Elt Ideal) (updArr V c) := by
  show (cfg19.win 5).cut (grid19.coords t) ((dat19 V c).after 5 t) = _
  rw [after19_5, out_eq, wls_blk, wr_blk, bias_blk]
  funext j
  obtain ⟨p, q, rfl⟩ : ∃ (p : Fin 2000) (q : Fin 128), j = ix2 p q := ⟨j 0, j 1, eq_ix2 j⟩
  obtain ⟨-, -, -, -, -, -, -, -, -, -, -, e0, -⟩ := idx_facts t
  have hN : cfg19.N = 10 := N_19
  have ht : t.val < 10 := hN ▸ t.isLt
  obtain ⟨r, hr⟩ : ∃ r : Fin 20000, r.val = win19_5.index t (0 : Fin 2) * 2000 + p.val :=
    ⟨⟨win19_5.index t (0 : Fin 2) * 2000 + p.val, by rw [e0]; have := p.isLt; omega⟩, rfl⟩
  rw [View.read_apply]
  show k19_pay1 (F := Ideal) (iblk19 V c 0 t) (wlsArr V c) (iblk19 V c 2 t) (wrArr V c) (biasArr V c) (ix2 p q)
    = updArr V c (((cfg19.win 5).blk t).view.emb (ix2 p q))
  rw [out_emb t p q r hr, updArr_at V c _ r q rfl]
  refine (pay_at _ _ _ _ _ p q).trans ?_
  refine congrArg₂ max (congrArg₂ (· + ·) (congrArg₂ (· + ·) (Finset.sum_congr rfl fun k _ => ?_) (Finset.sum_congr rfl fun k _ => ?_)) rfl) rfl
  · exact congrArg (· * _) (means_blk V c t (ix3 (0 : Fin 1) p k) (ix3 (0 : Fin 1) r k) rfl hr rfl)
  · exact congrArg (· * _) (xd_blk V c t (ix2 p k) (ix2 r k) hr rfl)

/-! ## The blocks cover the array -/

/-- An index of the array is in point t's block iff each coordinate is in the block's range on its axis. -/
theorem mem_blk (t : Fin cfg19.N) (i : S20000x128.Idx) :
    i ∈ ((cfg19.win 5).blk t).view.set ↔ ∀ a : Fin 2, win19_5.index t a * S2000x128.size a ≤ (i a).val ∧ (i a).val < win19_5.index t a * S2000x128.size a + S2000x128.size a := by
  show i ∈ ((View.whole main_v713).slice (win19_5.rect t)).set ↔ _
  rw [View.set_slice_whole, Rect.mem_set_unit]
  exact Iff.rfl

/-- Row r of the array is written by the point numbered r / 2000 (and every point writes its block back). -/
theorem cover (i : S20000x128.Idx) :
    ∃ t : Fin cfg19.N, (cfg19.win 5).flush t = true ∧ i ∈ ((cfg19.win 5).blk t).view.set := by
  have hi0 : (i 0).val < 20000 := (i 0).isLt
  have hi1 : (i 1).val < 128 := (i 1).isLt
  have hN : cfg19.N = 10 := N_19
  obtain ⟨t, ht⟩ : ∃ t : Fin cfg19.N, t.val = (i 0).val / 2000 := ⟨⟨(i 0).val / 2000, by rw [hN]; omega⟩, rfl⟩
  obtain ⟨-, -, -, -, -, -, -, -, -, -, -, e0, e1⟩ := idx_facts t
  refine ⟨t, flush19_5 t, ?_⟩
  rw [mem_blk]
  intro a
  match a with
  | ⟨0, _⟩ =>
    show win19_5.index t (0 : Fin 2) * 2000 ≤ (i 0).val ∧ (i 0).val < win19_5.index t (0 : Fin 2) * 2000 + 2000
    rw [e0, ht]; omega
  | ⟨1, _⟩ =>
    show win19_5.index t (1 : Fin 2) * 128 ≤ (i 1).val ∧ (i 1).val < win19_5.index t (1 : Fin 2) * 128 + 128
    rw [e1]; omega

/-! ## The array after the run -/

/-- THE REGION'S VALUE: after the grid has run, the output array holds the one-relation update of all 20000 rows — every
    point writes its block of it, and the blocks cover the array. -/
theorem arr (c : Dev nD) :
    (dat19 (F := Ideal) V c).arrAt 5 cfg19.N
      = Cert.IdxSpec.sage1 20000 (V c main_v711) (V c main_v712) (V c main_v598) (V c main_v708) (V c main_v710) :=
  (dat19 V c).arrAt_eq_of_cover 5 (updArr V c) (fun t _ => flushed_eq V c t) cover

end Cert.KernelIdeal.RegVal19

end
-- ==== Proof.KW19.lean ====
import proofs.«165177_j32074815766916_1_alg».proof.Proof.FIW
import proofs.«165177_j32074815766916_1_alg».proof.Proof.KArgs
import proofs.«165177_j32074815766916_1_alg».proof.Proof.KPack
import proofs.«165177_j32074815766916_1_alg».proof.Proof.Reg19
import proofs.«165177_j32074815766916_1_alg».proof.Proof.KW17
import proofs.«165177_j32074815766916_1_alg».proof.Proof.KW14
import proofs.«165177_j32074815766916_1_alg».proof.Proof.KW16
import proofs.«165177_j32074815766916_1_alg».proof.Proof.KStab4
import proofs.«165177_j32074815766916_1_alg».proof.Proof.KStab5
import proofs.«165177_j32074815766916_1_alg».proof.Proof.KStab6
import proofs.«165177_j32074815766916_1_alg».proof.Proof.KStab7
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem win19_0 : W37 m ρ c (Proc.devRef .tc main_v711) = pack1T (aggPT (K.op1 (argsK m c)) (argsK m c).spt (argsK m c).dpt) := by
  have h0 := ((st_main_v674_36 m ρ c).trans (kv_main_v674 m ρ c))
  show StableHlo.after hostOps19 (W36 m ρ c) (Proc.devRef .tc main_v711) = _
  generalize W36 m ρ c = Wx at *
  unfold hostOps19
  after_results_simp
  simp only [h0]
  try rfl

theorem win19_1 : W37 m ρ c (Proc.devRef .tc main_v712) = pack1W (wmat 1 2 Facts₀.slices_S2x4x128x128_S1x1x128x128_1_2_0_0 (slab5 2 Facts₀.slices_S3x2x4x128x128_S1x2x4x128x128_2_0_0_0_0 (argsK m c).Wl)) := by
  have h0 := ((st_main_v479_36 m ρ c).trans (kv_main_v479 m ρ c))
  show StableHlo.after hostOps19 (W36 m ρ c) (Proc.devRef .tc main_v712) = _
  generalize W36 m ρ c = Wx at *
  unfold hostOps19
  after_results_simp
  simp only [h0]
  try rfl

theorem win19_2 : W37 m ρ c (Proc.devRef .tc main_v598) = K.ot1 (argsK m c) := ((st_main_v598_37 m ρ c).trans (kv_main_v598 m ρ c))

theorem win19_3 : W37 m ρ c (Proc.devRef .tc main_v708) = wmat 1 2 Facts₀.slices_S2x4x128x128_S1x1x128x128_1_2_0_0 (slab5 2 Facts₀.slices_S3x2x4x128x128_S1x2x4x128x128_2_0_0_0_0 (argsK m c).Wr) := by
  have h0 := ((st_main_v483_36 m ρ c).trans (kv_main_v483 m ρ c))
  show StableHlo.after hostOps19 (W36 m ρ c) (Proc.devRef .tc main_v708) = _
  generalize W36 m ρ c = Wx at *
  unfold hostOps19
  after_results_simp
  simp only [h0]
  try rfl

theorem win19_4 : W37 m ρ c (Proc.devRef .tc main_v710) = wvec 1 2 Facts₀.slices_S2x4x128_S1x1x128_1_2_0 (slab4 2 Facts₀.slices_S3x2x4x128_S1x2x4x128_2_0_0_0 (argsK m c).bl) := by
  have h0 := ((st_main_v481_36 m ρ c).trans (kv_main_v481 m ρ c))
  show StableHlo.after hostOps19 (W36 m ρ c) (Proc.devRef .tc main_v710) = _
  generalize W36 m ρ c = Wx at *
  unfold hostOps19
  after_results_simp
  simp only [h0]
  try rfl

theorem kv_main_v713 : W38 m ρ c (Proc.devRef .tc main_v713) = K.ot2 (argsK m c) := by
  refine (W38_arr m ρ c 5).trans ?_
  refine (Cert.KernelIdeal.RegVal19.arr (V37 m ρ) c).trans ?_
  show Cert.IdxSpec.sage1 20000 (W37 m ρ c (Proc.devRef .tc main_v711)) (W37 m ρ c (Proc.devRef .tc main_v712)) (W37 m ρ c (Proc.devRef .tc main_v598)) (W37 m ρ c (Proc.devRef .tc main_v708)) (W37 m ρ c (Proc.devRef .tc main_v710)) = _
  rw [win19_0 m ρ c, win19_1 m ρ c, win19_2 m ρ c, win19_3 m ρ c, win19_4 m ρ c]
  rfl

end Cert.KernelIdeal.KW

end
-- ==== Proof.KWFin.lean ====
import proofs.«165177_j32074815766916_1_alg».proof.Proof.FIW
import proofs.«165177_j32074815766916_1_alg».proof.Proof.KArgs
import proofs.«165177_j32074815766916_1_alg».proof.Proof.KW6
import proofs.«165177_j32074815766916_1_alg».proof.Proof.KStab6
import proofs.«165177_j32074815766916_1_alg».proof.Proof.KW14
import proofs.«165177_j32074815766916_1_alg».proof.Proof.KStab7
import proofs.«165177_j32074815766916_1_alg».proof.Proof.KW18
import proofs.«165177_j32074815766916_1_alg».proof.Proof.KStab0
import proofs.«165177_j32074815766916_1_alg».proof.Proof.KW17
import proofs.«165177_j32074815766916_1_alg».proof.Proof.KStab1
import proofs.«165177_j32074815766916_1_alg».proof.Proof.KW19
import proofs.«165177_j32074815766916_1_alg».proof.Proof.KStab2
import Idealize.ShloMosaic.Lib.StableHlo.Run

set_option maxRecDepth 16384

noncomputable section

namespace Cert.KernelIdeal.KW

open Idealize.ShloMosaic Idealize.ShloMosaic.TcCoe Cert.KernelIdeal Cert.KernelIdeal.Gen Cert.KernelIdeal.GenP Cert.Spec

variable (m : (ℓ : Loc nD τ sig) → Buf (Elt Ideal) ℓ) (ρ : Dev nD → PrngReg) (c : Dev nD)

theorem kv_main_v715 : W39 m ρ c (Proc.devRef .tc main_v715) = K.out0 (argsK m c) := by
  have h0 := ((st_main_v236_38 m ρ c).trans (kv_main_v236 m ρ c))
  have h1 := ((st_main_v477_38 m ρ c).trans (kv_main_v477 m ρ c))
  show StableHlo.after hostOps20 (W38 m ρ c) (Proc.devRef .tc main_v715) = _
  generalize W38 m ρ c = Wx at *
  unfold hostOps20
  after_results_simp
  simp only [h0, h1]
  try rfl

/-- The four results at the end of the run, as the kernel program's network of the argument arrays. -/
theorem results : W39 m ρ c (Proc.devRef .tc main_v715) = K.out0 (argsK m c)
    ∧ W39 m ρ c (Proc.devRef .tc main_v704) = K.oa2 (argsK m c)
    ∧ W39 m ρ c (Proc.devRef .tc main_v695) = K.op2 (argsK m c)
    ∧ W39 m ρ c (Proc.devRef .tc main_v713) = K.ot2 (argsK m c) :=
  ⟨(kv_main_v715 m ρ c),
   ((st_main_v704_39 m ρ c).trans (kv_main_v704 m ρ c)),
   ((st_main_v695_39 m ρ c).trans (kv_main_v695 m ρ c)),
   ((st_main_v713_39 m ρ c).trans (kv_main_v713 m ρ c))⟩

end Cert.KernelIdeal.KW

end
-- ==== Proof.BridgeP.lean ====
/-
  The paper update is one function in both programs.

  Papers receive two relations (from authors and from terms). At entry (r, q) the reference adds the two relations'
  messages, each  Σ_k mean[r,k]·Wl[k,q] + b[q] + Σ_k x[r,k]·Wr[k,q],  and clamps at zero. The kernel program stacks the
  two means and the two left weights, adds the two right weights and the two biases FIRST, and evaluates
  max(Σ_k m₀[r,k]·Wl₀[k,q] + Σ_k m₁[r,k]·Wl₃[k,q] + Σ_k x[r,k]·(Wr₀[k,q] + Wr₃[k,q]) + (b₀[q] + b₃[q]), 0).
  The two agree because, for real x, Wr₀, Wr₃, the product distributes over the sum of the right weights term by term
  (on the extended reals it does not at the infinities, hence the three reality hypotheses), and the rest is
  commutativity and associativity of addition. The neighbour means play no part in the law and stay opaque.

  Also here: the reference's message, the clamp and an entrywise sum keep real arrays real.
-/
import proofs.«165177_j32074815766916_1_alg».proof.Proof.Spec
import Idealize.ShloMosaic.PureOps.Ideal.Laws
import Idealize.ShloMosaic.Lib.ValueIdx
import Idealize.ShloMosaic.Lib.Pipeline.Value
import Idealize.ShloMosaic.Lib.IdealHost

noncomputable section

namespace Cert.Spec

open Idealize.ShloMosaic Idealize.ShloMosaic.ValueIdx Cert.KernelIdeal

/-! ## Real numbers among the extended reals, and the law of the update -/

/-- The sum of two real numbers is a real number. -/
theorem real_add {x y : EReal} (hx : ∃ a : ℝ, x = (a : EReal)) (hy : ∃ b : ℝ, y = (b : EReal)) :
    ∃ c : ℝ, x + y = (c : EReal) := by
  obtain ⟨a, rfl⟩ := hx
  obtain ⟨b, rfl⟩ := hy
  exact ⟨a + b, (EReal.coe_add a b).symm⟩

/-- The product of two real numbers is a real number. -/
theorem real_mul {x y : EReal} (hx : ∃ a : ℝ, x = (a : EReal)) (hy : ∃ b : ℝ, y = (b : EReal)) :
    ∃ c : ℝ, x * y = (c : EReal) := by
  obtain ⟨a, rfl⟩ := hx
  obtain ⟨b, rfl⟩ := hy
  exact ⟨a * b, (EReal.coe_mul a b).symm⟩

/-- The larger of a real number and zero is a real number. -/
theorem real_max_zero {x : EReal} (hx : ∃ a : ℝ, x = (a : EReal)) : ∃ c : ℝ, max x 0 = (c : EReal) := by
  obtain ⟨a, rfl⟩ := hx
  rcases le_total (a : EReal) 0 with h | h
  · exact ⟨0, by rw [max_eq_right h, EReal.coe_zero]⟩
  · exact ⟨a, max_eq_left h⟩

/-- A finite sum of real numbers is a real number. -/
theorem real_sum {ι : Type} (s : Finset ι) (f : ι → EReal) (h : ∀ k, ∃ r : ℝ, f k = (r : EReal)) :
    ∃ r : ℝ, s.sum f = (r : EReal) := by
  classical
  refine Finset.induction_on s ⟨0, by simp⟩ ?_
  intro a s ha ih
  rw [Finset.sum_insert ha]
  exact real_add (h a) ih

/-- Over real entries a product distributes over a sum, term by term and hence under a finite sum. -/
theorem sum_mul_add {ι : Type} [Fintype ι] (x u v : ι → EReal)
    (hx : ∀ k, ∃ r : ℝ, x k = (r : EReal)) (hu : ∀ k, ∃ r : ℝ, u k = (r : EReal)) (hv : ∀ k, ∃ r : ℝ, v k = (r : EReal)) :
    ∑ k, x k * (u k + v k) = ∑ k, x k * u k + ∑ k, x k * v k := by
  rw [← Finset.sum_add_distrib]
  refine Finset.sum_congr rfl fun k _ => ?_
  obtain ⟨a, ha⟩ := hx k
  obtain ⟨b, hb⟩ := hu k
  obtain ⟨c, hc⟩ := hv k
  rw [ha, hb, hc, ← EReal.coe_add, ← EReal.coe_mul, ← EReal.coe_mul, ← EReal.coe_mul, ← EReal.coe_add, mul_add]

/-- The law of the paper update: adding the two right weights before the product, and the two biases before the sum,
    gives the sum of the two relations' messages. Only the node's own features and the two right weights need be real. -/
theorem update_law {ι : Type} [Fintype ι] (A0 A1 c0 c3 : EReal) (x u v : ι → EReal)
    (hx : ∀ k, ∃ r : ℝ, x k = (r : EReal)) (hu : ∀ k, ∃ r : ℝ, u k = (r : EReal)) (hv : ∀ k, ∃ r : ℝ, v k = (r : EReal)) :
    ((A0 + A1) + ∑ k, x k * (u k + v k)) + (c0 + c3)
      = ((A0 + c0) + ∑ k, x k * u k) + ((A1 + c3) + ∑ k, x k * v k) := by
  rw [sum_mul_add x u v hx hu hv]
  abel

/-! ## The reference's 128-column product read at an entry -/

theorem lhs_dotP_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem lhs_dotP_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_dotP_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_dotP_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- Entry (r, q) of a 100000×128 array times a 128×128 matrix is the sum over the 128 columns. -/
theorem dotP_apply (x : X100) (W : Mat) (r : Fin 100000) (q : Fin 128) :
    Host.dotGeneral Cert.ReferenceIdeal.dot_S100000x128_S128x128_S100000x128_1_0_0_1_n_n none x W (ix2 r q) = ∑ k : Fin 128, x (ix2 r k) * W (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact lhs_dotP_0 _ _
    | ⟨1, _⟩ => exact (lhs_dotP_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (rhs_dotP_0 _ _).trans hk
    | ⟨1, _⟩ => exact rhs_dotP_1 _ _)
  rw [el, er]

/-! ## The stacked arrays read at an entry -/

/-- An array under a new leading axis of extent one reads the array. -/
theorem lead1P_apply (a : X100) (h : S100000x128.BroadcastsInDim S1x100000x128 (![1, 2] : Fin 2 → Fin S1x100000x128.rank))
    (r : Fin 100000) (k : Fin 128) :
    broadcastInDim S1x100000x128 ![1, 2] h a (ix3 (0 : Fin 1) r k) = a (ix2 r k) :=
  broadcastInDim_apply _ h a (ix3 (0 : Fin 1) r k) (ix2 r k) (fun c => by
    match c with
    | ⟨0, _⟩ => rfl
    | ⟨1, _⟩ => rfl)

theorem lead1W_apply (a : Mat) (h : S128x128.BroadcastsInDim S1x128x128 (![1, 2] : Fin 2 → Fin S1x128x128.rank))
    (k q : Fin 128) :
    broadcastInDim S1x128x128 ![1, 2] h a (ix3 (0 : Fin 1) k q) = a (ix2 k q) :=
  broadcastInDim_apply _ h a (ix3 (0 : Fin 1) k q) (ix2 k q) (fun c => by
    match c with
    | ⟨0, _⟩ => rfl
    | ⟨1, _⟩ => rfl)

/-- Two stacked paper-sized arrays: member 0 is the first … -/
theorem pack2P_apply0 (a b : X100) (r : Fin 100000) (k : Fin 128) :
    pack2P a b (ix3 (0 : Fin 2) r k) = a (ix2 r k) := by
  unfold pack2P
  refine (concatenate_pair_apply_left (t := S2x100000x128) (s₁ := S1x100000x128) (s₂ := S1x100000x128) 0 _ _ _
    (ix3 (0 : Fin 2) r k) rfl (ix3 (0 : Fin 1) r k) (fun c => by
      match c with
      | ⟨0, _⟩ => rfl
      | ⟨1, _⟩ => rfl
      | ⟨2, _⟩ => rfl)).trans ?_
  exact lead1P_apply a _ r k

/-- … and member 1 the second. -/
theorem pack2P_apply1 (a b : X100) (r : Fin 100000) (k : Fin 128) :
    pack2P a b (ix3 (1 : Fin 2) r k) = b (ix2 r k) := by
  unfold pack2P
  refine (concatenate_pair_apply_right (t := S2x100000x128) (s₁ := S1x100000x128) (s₂ := S1x100000x128) 0 _ _ _
    (ix3 (1 : Fin 2) r k) rfl rfl (ix3 (0 : Fin 1) r k) (fun c hc => by
      match c with
      | ⟨0, _⟩ => exact absurd rfl hc
      | ⟨1, _⟩ => rfl
      | ⟨2, _⟩ => rfl) rfl).trans ?_
  exact lead1P_apply b _ r k

theorem pack2W_apply0 (a b : Mat) (k q : Fin 128) :
    pack2W a b (ix3 (0 : Fin 2) k q) = a (ix2 k q) := by
  unfold pack2W
  refine (concatenate_pair_apply_left (t := S2x128x128) (s₁ := S1x128x128) (s₂ := S1x128x128) 0 _ _ _
    (ix3 (0 : Fin 2) k q) rfl (ix3 (0 : Fin 1) k q) (fun c => by
      match c with
      | ⟨0, _⟩ => rfl
      | ⟨1, _⟩ => rfl
      | ⟨2, _⟩ => rfl)).trans ?_
  exact lead1W_apply a _ k q

theorem pack2W_apply1 (a b : Mat) (k q : Fin 128) :
    pack2W a b (ix3 (1 : Fin 2) k q) = b (ix2 k q) := by
  unfold pack2W
  refine (concatenate_pair_apply_right (t := S2x128x128) (s₁ := S1x128x128) (s₂ := S1x128x128) 0 _ _ _
    (ix3 (1 : Fin 2) k q) rfl rfl (ix3 (0 : Fin 1) k q) (fun c hc => by
      match c with
      | ⟨0, _⟩ => exact absurd rfl hc
      | ⟨1, _⟩ => rfl
      | ⟨2, _⟩ => rfl) rfl).trans ?_
  exact lead1W_apply b _ k q

/-! ## The bias row laid along every row, read at an entry -/

theorem biasRowP_apply (bl : Row) (h1 : S128.BroadcastsInDim S1x128 (![1] : Fin 1 → Fin S1x128.rank))
    (h2 : S1x128.BroadcastsInDim S100000x128 (![0, 1] : Fin 2 → Fin S100000x128.rank)) (r : Fin 100000) (q : Fin 128) :
    broadcastInDim S100000x128 ![0, 1] h2 (broadcastInDim S1x128 ![1] h1 bl) (ix2 r q) = bl (ix1 q) :=
  (broadcastInDim_apply _ h2 _ (ix2 r q) (ix2 (0 : Fin 1) q) (fun a => by
    match a with
    | ⟨0, _⟩ => rfl
    | ⟨1, _⟩ => rfl)).trans
  (broadcastInDim_apply _ h1 bl (ix2 (0 : Fin 1) q) (ix1 q) (fun a => by
    match a with
    | ⟨0, _⟩ => rfl))

/-! ## The two programs' paper update at an entry -/

/-- The fused update at entry (r, q): sums over the 128 columns of the entries of the two means, the two left weights,
    the node's own features against the SUM of the two right weights, plus the sum of the two biases, clamped at zero. -/
theorem fusedP_apply (m0 m1 xp : X100) (Wl0 Wl3 Wr0 Wr3 : Mat) (b0 b3 : Row) (r : Fin 100000) (q : Fin 128) :
    Cert.IdxSpec.sage2 100000 (pack2P m0 m1) (pack2W Wl0 Wl3) xp (addf Wr0 Wr3) (addf b0 b3) (ix2 r q)
      = max ((((∑ k : Fin 128, m0 (ix2 r k) * Wl0 (ix2 k q)) + ∑ k : Fin 128, m1 (ix2 r k) * Wl3 (ix2 k q))
          + ∑ k : Fin 128, xp (ix2 r k) * (Wr0 (ix2 k q) + Wr3 (ix2 k q))) + (b0 (ix1 q) + b3 (ix1 q))) 0 := by
  show max ((((∑ k : Fin 128, pack2P m0 m1 (ix3 (0 : Fin 2) r k) * pack2W Wl0 Wl3 (ix3 (0 : Fin 2) k q))
      + ∑ k : Fin 128, pack2P m0 m1 (ix3 (1 : Fin 2) r k) * pack2W Wl0 Wl3 (ix3 (1 : Fin 2) k q))
      + ∑ k : Fin 128, xp (ix2 r k) * (Wr0 (ix2 k q) + Wr3 (ix2 k q))) + (b0 (ix1 q) + b3 (ix1 q))) 0 = _
  simp only [pack2P_apply0, pack2P_apply1, pack2W_apply0, pack2W_apply1]

/-- One relation's message at entry (r, q), the reference's way. -/
theorem sageR100000_apply (mean xd : X100) (Wl Wr : Mat) (bl : Row) (r : Fin 100000) (q : Fin 128) :
    sageR100000 mean xd Wl Wr bl (ix2 r q)
      = ((∑ k : Fin 128, mean (ix2 r k) * Wl (ix2 k q)) + bl (ix1 q)) + ∑ k : Fin 128, xd (ix2 r k) * Wr (ix2 k q) := by
  unfold sageR100000
  rw [addf_apply, addf_apply, dotP_apply, dotP_apply, biasRowP_apply]

/-- The clamp at entry (r, q). -/
theorem relu100000_apply (x : X100) (j : S100000x128.Idx) : relu100000 x j = max (x j) 0 := by
  unfold relu100000
  rw [maximumf_apply, broadcastInDim_scalar_apply, constant_apply, Ideal.ofBits_zero_f32]

/-! ## The two programs' paper update is one function -/

theorem updateP_eq (m0 m1 xp : X100) (Wl0 Wl3 Wr0 Wr3 : Mat) (b0 b3 : Row)
    (hxp : IsReal xp) (hWr0 : IsReal Wr0) (hWr3 : IsReal Wr3) :
    Cert.IdxSpec.sage2 100000 (pack2P m0 m1) (pack2W Wl0 Wl3) xp (addf Wr0 Wr3) (addf b0 b3)
      = relu100000 (addf (sageR100000 m0 xp Wl0 Wr0 b0) (sageR100000 m1 xp Wl3 Wr3 b3)) := by
  funext j
  obtain ⟨r, q, rfl⟩ : ∃ (r : Fin 100000) (q : Fin 128), j = ix2 r q := ⟨j 0, j 1, eq_ix2 j⟩
  rw [fusedP_apply, relu100000_apply, addf_apply, sageR100000_apply, sageR100000_apply]
  exact congrArg (fun t => max t 0)
    (update_law _ _ _ _ (fun k => xp (ix2 r k)) (fun k => Wr0 (ix2 k q)) (fun k => Wr3 (ix2 k q))
      (fun _ => hxp _) (fun _ => hWr0 _) (fun _ => hWr3 _))

theorem layerP_eq (xa : X40) (xp : X100) (xt : X20) (Wl0 Wl3 Wr0 Wr3 : Mat) (b0 b3 : Row) (sap dap : E5) (stp dtp : E8)
    (hxp : IsReal xp) (hWr0 : IsReal Wr0) (hWr3 : IsReal Wr3) :
    layerK_p xa xp xt Wl0 Wl3 Wr0 Wr3 b0 b3 sap dap stp dtp = layerR_p xa xp xt Wl0 Wl3 Wr0 Wr3 b0 b3 sap dap stp dtp :=
  updateP_eq (aggAP xa sap dap) (aggTP xt stp dtp) xp Wl0 Wl3 Wr0 Wr3 b0 b3 hxp hWr0 hWr3

/-! ## Real arrays stay real -/

theorem addf_real {s : Shape} {x y : FVec Ideal s .f32} (hx : IsReal x) (hy : IsReal y) : IsReal (addf x y) :=
  fun i => real_add (hx i) (hy i)

theorem relu100000_real {x : X100} (h : IsReal x) : IsReal (relu100000 x) := fun i => by
  rw [relu100000_apply]
  exact real_max_zero (h i)

theorem sageR100000_real {mean xd : X100} {Wl Wr : Mat} {bl : Row} (hm : IsReal mean) (hx : IsReal xd) (hWl : IsReal Wl)
    (hWr : IsReal Wr) (hb : IsReal bl) : IsReal (sageR100000 mean xd Wl Wr bl) := fun j => by
  obtain ⟨r, q, rfl⟩ : ∃ (r : Fin 100000) (q : Fin 128), j = ix2 r q := ⟨j 0, j 1, eq_ix2 j⟩
  rw [sageR100000_apply]
  exact real_add (real_add (real_sum _ _ fun _ => real_mul (hm _) (hWl _)) (hb _))
    (real_sum _ _ fun _ => real_mul (hx _) (hWr _))

end Cert.Spec

end
-- ==== Proof.BridgeAT.lean ====
/-
  Authors, terms and the read-out heads: the two programs' updates are one function.

  Entry (r, q) of an author's or a term's update is, in both programs, the clamp at zero of three terms added: the
  neighbour mean's row against the left weight's column, the node's own row against the right weight's column, and
  the bias. The fused form adds the bias last, the reference's adds it second: one use of commutativity and
  associativity of + on the extended reals, which hold at the infinities too. A read-out head is the same sum of
  products plus the bias in both. Sums, products and the clamp of real numbers are real.
-/
import proofs.«165177_j32074815766916_1_alg».proof.Proof.Spec
import Idealize.ShloMosaic.Lib.ValueIdx
import Idealize.ShloMosaic.Lib.Pipeline.Value
import Idealize.ShloMosaic.Lib.StackMember
import Idealize.ShloMosaic.PureOps.Ideal.Laws

noncomputable section

namespace Cert.Spec

open Idealize.ShloMosaic Idealize.ShloMosaic.ValueIdx Idealize.ShloMosaic.StackMember Cert.KernelIdeal Cert.KernelIdeal.Facts₀

/-! # The entries of each side, and the real numbers among the extended reals -/

namespace AT

/-! ## Real numbers among the extended reals -/

theorem real_add {a b : EReal} (ha : ∃ r : ℝ, a = (r : EReal)) (hb : ∃ r : ℝ, b = (r : EReal)) : ∃ r : ℝ, a + b = (r : EReal) := by
  obtain ⟨x, rfl⟩ := ha; obtain ⟨y, rfl⟩ := hb
  exact ⟨x + y, (EReal.coe_add x y).symm⟩

theorem real_mul {a b : EReal} (ha : ∃ r : ℝ, a = (r : EReal)) (hb : ∃ r : ℝ, b = (r : EReal)) : ∃ r : ℝ, a * b = (r : EReal) := by
  obtain ⟨x, rfl⟩ := ha; obtain ⟨y, rfl⟩ := hb
  exact ⟨x * y, (EReal.coe_mul x y).symm⟩

theorem real_max_zero {a : EReal} (ha : ∃ r : ℝ, a = (r : EReal)) : ∃ r : ℝ, max a 0 = (r : EReal) := by
  obtain ⟨x, rfl⟩ := ha
  rcases le_total (x : EReal) 0 with h | h
  · exact ⟨0, by rw [max_eq_right h, EReal.coe_zero]⟩
  · exact ⟨x, max_eq_left h⟩

theorem real_sum {ι : Type} [Fintype ι] (f : ι → EReal) (h : ∀ i, ∃ r : ℝ, f i = (r : EReal)) : ∃ r : ℝ, ∑ i, f i = (r : EReal) := by
  classical
  have key : ∀ s : Finset ι, ∃ r : ℝ, ∑ i ∈ s, f i = (r : EReal) := by
    intro s
    induction s using Finset.induction_on with
    | empty => exact ⟨0, by rw [Finset.sum_empty, EReal.coe_zero]⟩
    | insert i s hi ih =>
      rw [Finset.sum_insert hi]
      exact real_add (h i) ih
  exact key Finset.univ

/-! ## The weight matrix under a leading axis of extent one -/

theorem pack1W_apply (W : Mat) (k q : Fin 128) : pack1W W (ix3 (0 : Fin 1) k q) = W (ix2 k q) := by
  unfold pack1W
  refine broadcastInDim_apply _ _ _ (ix3 (0 : Fin 1) k q) (ix2 k q) ?_
  intro a; match a with
  | ⟨0, _⟩ => rfl
  | ⟨1, _⟩ => rfl

/-! ### 40000 rows -/

/-- The reference's product of a 40000×128 array with a 128×128 matrix, at an entry: the sum over the 128 columns. -/
theorem dot40000_apply (A : X40) (W : Mat) (p : Fin 40000) (q : Fin 128) :
    Host.dotGeneral (F := Ideal) Cert.ReferenceIdeal.dot_S40000x128_S128x128_S40000x128_1_0_0_1_n_n none A W (ix2 p q)
      = ∑ k : Fin 128, A (ix2 p k) * W (ix2 k q) :=
  dotGeneral_plain_apply (m := 40000) (n := 128) (k := 128) none A W p q

/-- The bias row spread over 40000 rows, at an entry: the row's entry in that column. -/
theorem bias40000_apply (b : Row) (p : Fin 40000) (q : Fin 128) :
    broadcastInDim S40000x128 ![0, 1] Cert.ReferenceIdeal.Facts₀.bcast_S1x128_S40000x128_0_1
      (broadcastInDim S1x128 ![1] Cert.ReferenceIdeal.Facts₀.bcast_S128_S1x128_1 b) (ix2 p q) = b (ix1 q) := by
  refine (broadcastInDim_apply _ _ _ (ix2 p q) (ix2 (0 : Fin 1) q) ?_).trans ?_
  · intro a; match a with
    | ⟨0, _⟩ => rfl
    | ⟨1, _⟩ => rfl
  · refine broadcastInDim_apply _ _ _ (ix2 (0 : Fin 1) q) (ix1 q) ?_
    intro a; match a with
    | ⟨0, _⟩ => rfl

/-- The clamp over 40000 rows, at an entry: the maximum with zero. -/
theorem relu40000_apply (x : X40) (p : Fin 40000) (q : Fin 128) :
    relu40000 x (ix2 p q) = max (x (ix2 p q)) 0 := by
  unfold relu40000
  rw [maximumf_apply]
  congr 1
  refine (broadcastInDim_apply _ _ _ (ix2 p q) ix0 (fun a => a.elim0)).trans ?_
  rw [constant_apply, Ideal.ofBits_zero_f32]

/-- One relation's message into 40000 rows, the reference's way, at an entry. -/
theorem sageR40000_apply (mean xd : X40) (Wl Wr : Mat) (bl : Row) (p : Fin 40000) (q : Fin 128) :
    sageR40000 mean xd Wl Wr bl (ix2 p q)
      = ((∑ k : Fin 128, mean (ix2 p k) * Wl (ix2 k q)) + bl (ix1 q)) + ∑ k : Fin 128, xd (ix2 p k) * Wr (ix2 k q) := by
  unfold sageR40000
  rw [addf_apply, addf_apply, dot40000_apply, dot40000_apply, bias40000_apply]

/-- The neighbour mean under a leading axis of extent one, at an entry: the mean's entry. -/
theorem pack1A_apply (m : X40) (p : Fin 40000) (k : Fin 128) :
    pack1A m (ix3 (0 : Fin 1) p k) = m (ix2 p k) := by
  unfold pack1A
  refine broadcastInDim_apply _ _ _ (ix3 (0 : Fin 1) p k) (ix2 p k) ?_
  intro a; match a with
  | ⟨0, _⟩ => rfl
  | ⟨1, _⟩ => rfl

/-- The fused update over 40000 rows on one packed mean is the reference's message clamped: the two differ by the
    place of the bias in a sum of three terms. -/
theorem sage1_40000_eq (m xd : X40) (Wl Wr : Mat) (b : Row) :
    Cert.IdxSpec.sage1 40000 (pack1A m) (pack1W Wl) xd Wr b = relu40000 (sageR40000 m xd Wl Wr b) := by
  funext j
  obtain ⟨p, q, rfl⟩ : ∃ (p : Fin 40000) (q : Fin 128), j = ix2 p q := ⟨j 0, j 1, eq_ix2 j⟩
  rw [relu40000_apply, sageR40000_apply]
  show max (((∑ k : Fin 128, pack1A m (ix3 (0 : Fin 1) p k) * pack1W Wl (ix3 (0 : Fin 1) k q))
      + ∑ k : Fin 128, xd (ix2 p k) * Wr (ix2 k q)) + b (ix1 q)) 0 = _
  simp only [pack1A_apply, pack1W_apply]
  rw [add_right_comm]

/-! ### 20000 rows -/

/-- The reference's product of a 20000×128 array with a 128×128 matrix, at an entry: the sum over the 128 columns. -/
theorem dot20000_apply (A : X20) (W : Mat) (p : Fin 20000) (q : Fin 128) :
    Host.dotGeneral (F := Ideal) Cert.ReferenceIdeal.dot_S20000x128_S128x128_S20000x128_1_0_0_1_n_n none A W (ix2 p q)
      = ∑ k : Fin 128, A (ix2 p k) * W (ix2 k q) :=
  dotGeneral_plain_apply (m := 20000) (n := 128) (k := 128) none A W p q

/-- The bias row spread over 20000 rows, at an entry: the row's entry in that column. -/
theorem bias20000_apply (b : Row) (p : Fin 20000) (q : Fin 128) :
    broadcastInDim S20000x128 ![0, 1] Cert.ReferenceIdeal.Facts₀.bcast_S1x128_S20000x128_0_1
      (broadcastInDim S1x128 ![1] Cert.ReferenceIdeal.Facts₀.bcast_S128_S1x128_1 b) (ix2 p q) = b (ix1 q) := by
  refine (broadcastInDim_apply _ _ _ (ix2 p q) (ix2 (0 : Fin 1) q) ?_).trans ?_
  · intro a; match a with
    | ⟨0, _⟩ => rfl
    | ⟨1, _⟩ => rfl
  · refine broadcastInDim_apply _ _ _ (ix2 (0 : Fin 1) q) (ix1 q) ?_
    intro a; match a with
    | ⟨0, _⟩ => rfl

/-- The clamp over 20000 rows, at an entry: the maximum with zero. -/
theorem relu20000_apply (x : X20) (p : Fin 20000) (q : Fin 128) :
    relu20000 x (ix2 p q) = max (x (ix2 p q)) 0 := by
  unfold relu20000
  rw [maximumf_apply]
  congr 1
  refine (broadcastInDim_apply _ _ _ (ix2 p q) ix0 (fun a => a.elim0)).trans ?_
  rw [constant_apply, Ideal.ofBits_zero_f32]

/-- One relation's message into 20000 rows, the reference's way, at an entry. -/
theorem sageR20000_apply (mean xd : X20) (Wl Wr : Mat) (bl : Row) (p : Fin 20000) (q : Fin 128) :
    sageR20000 mean xd Wl Wr bl (ix2 p q)
      = ((∑ k : Fin 128, mean (ix2 p k) * Wl (ix2 k q)) + bl (ix1 q)) + ∑ k : Fin 128, xd (ix2 p k) * Wr (ix2 k q) := by
  unfold sageR20000
  rw [addf_apply, addf_apply, dot20000_apply, dot20000_apply, bias20000_apply]

/-- The neighbour mean under a leading axis of extent one, at an entry: the mean's entry. -/
theorem pack1T_apply (m : X20) (p : Fin 20000) (k : Fin 128) :
    pack1T m (ix3 (0 : Fin 1) p k) = m (ix2 p k) := by
  unfold pack1T
  refine broadcastInDim_apply _ _ _ (ix3 (0 : Fin 1) p k) (ix2 p k) ?_
  intro a; match a with
  | ⟨0, _⟩ => rfl
  | ⟨1, _⟩ => rfl

/-- The fused update over 20000 rows on one packed mean is the reference's message clamped: the two differ by the
    place of the bias in a sum of three terms. -/
theorem sage1_20000_eq (m xd : X20) (Wl Wr : Mat) (b : Row) :
    Cert.IdxSpec.sage1 20000 (pack1T m) (pack1W Wl) xd Wr b = relu20000 (sageR20000 m xd Wl Wr b) := by
  funext j
  obtain ⟨p, q, rfl⟩ : ∃ (p : Fin 20000) (q : Fin 128), j = ix2 p q := ⟨j 0, j 1, eq_ix2 j⟩
  rw [relu20000_apply, sageR20000_apply]
  show max (((∑ k : Fin 128, pack1T m (ix3 (0 : Fin 1) p k) * pack1W Wl (ix3 (0 : Fin 1) k q))
      + ∑ k : Fin 128, xd (ix2 p k) * Wr (ix2 k q)) + b (ix1 q)) 0 = _
  simp only [pack1T_apply, pack1W_apply]
  rw [add_right_comm]

/-! ## The read-out heads -/

/-- The reference's product of a 40000×128 array with the 128×64 weight, at an entry. -/
theorem dotHead_apply (A : X40) (W : FVec Ideal S128x64 .f32) (p : Fin 40000) (q : Fin 64) :
    Host.dotGeneral (F := Ideal) Cert.ReferenceIdeal.dot_S40000x128_S128x64_S40000x64_1_0_0_1_n_n none A W (ix2 p q)
      = ∑ k : Fin 128, A (ix2 p k) * W (ix2 k q) :=
  dotGeneral_plain_apply (m := 40000) (n := 64) (k := 128) none A W p q

/-- The head's bias row spread over 40000 rows, at an entry. -/
theorem biasHead_apply (b : FVec Ideal S64 .f32) (p : Fin 40000) (q : Fin 64) :
    broadcastInDim S40000x64 ![0, 1] Cert.ReferenceIdeal.Facts₀.bcast_S1x64_S40000x64_0_1
      (broadcastInDim S1x64 ![1] Cert.ReferenceIdeal.Facts₀.bcast_S64_S1x64_1 b) (ix2 p q) = b (ix1 q) := by
  refine (broadcastInDim_apply _ _ _ (ix2 p q) (ix2 (0 : Fin 1) q) ?_).trans ?_
  · intro a; match a with
    | ⟨0, _⟩ => rfl
    | ⟨1, _⟩ => rfl
  · refine broadcastInDim_apply _ _ _ (ix2 (0 : Fin 1) q) (ix1 q) ?_
    intro a; match a with
    | ⟨0, _⟩ => rfl

/-- A head the reference's way, at an entry. -/
theorem headR_apply (x : X40) (W : FVec Ideal S128x64 .f32) (b : FVec Ideal S64 .f32) (p : Fin 40000) (q : Fin 64) :
    headR x W b (ix2 p q) = (∑ k : Fin 128, x (ix2 p k) * W (ix2 k q)) + b (ix1 q) := by
  unfold headR
  rw [addf_apply, dotHead_apply, biasHead_apply]

end AT

/-! # The statements -/

theorem layerA_eq (xa : X40) (xp : X100) (Wl1 Wr1 : Mat) (b1 : Row) (spa dpa : E5) :
    layerK_a xa xp Wl1 Wr1 b1 spa dpa = layerR_a xa xp Wl1 Wr1 b1 spa dpa := by
  unfold layerK_a layerR_a
  generalize aggPA xp spa dpa = m
  exact AT.sage1_40000_eq m xa Wl1 Wr1 b1

theorem layerT_eq (xp : X100) (xt : X20) (Wl2 Wr2 : Mat) (b2 : Row) (spt dpt : E8) :
    layerK_t xp xt Wl2 Wr2 b2 spt dpt = layerR_t xp xt Wl2 Wr2 b2 spt dpt := by
  unfold layerK_t layerR_t
  generalize aggPT xp spt dpt = m
  exact AT.sage1_20000_eq m xt Wl2 Wr2 b2

theorem head_eq (x : X40) (W : FVec Ideal S128x64 .f32) (b : FVec Ideal S64 .f32) : headK x W b = headR x W b := by
  funext j
  obtain ⟨p, q, rfl⟩ : ∃ (p : Fin 40000) (q : Fin 64), j = ix2 p q := ⟨j 0, j 1, eq_ix2 j⟩
  rw [AT.headR_apply]
  rfl

/-- A message of real arrays into 40000 rows is real. -/
theorem sageR40000_real {mean xd : X40} {Wl Wr : Mat} {bl : Row} (hm : IsReal mean) (hx : IsReal xd) (hWl : IsReal Wl)
    (hWr : IsReal Wr) (hb : IsReal bl) : IsReal (sageR40000 mean xd Wl Wr bl) := by
  intro j
  obtain ⟨p, q, rfl⟩ : ∃ (p : Fin 40000) (q : Fin 128), j = ix2 p q := ⟨j 0, j 1, eq_ix2 j⟩
  rw [AT.sageR40000_apply]
  exact AT.real_add (AT.real_add (AT.real_sum _ fun k => AT.real_mul (hm _) (hWl _)) (hb _))
    (AT.real_sum _ fun k => AT.real_mul (hx _) (hWr _))

/-- The clamp of a real array of 40000 rows is real. -/
theorem relu40000_real {x : X40} (h : IsReal x) : IsReal (relu40000 x) := by
  intro j
  obtain ⟨p, q, rfl⟩ : ∃ (p : Fin 40000) (q : Fin 128), j = ix2 p q := ⟨j 0, j 1, eq_ix2 j⟩
  rw [AT.relu40000_apply]
  exact AT.real_max_zero (h _)

/-- A message of real arrays into 20000 rows is real. -/
theorem sageR20000_real {mean xd : X20} {Wl Wr : Mat} {bl : Row} (hm : IsReal mean) (hx : IsReal xd) (hWl : IsReal Wl)
    (hWr : IsReal Wr) (hb : IsReal bl) : IsReal (sageR20000 mean xd Wl Wr bl) := by
  intro j
  obtain ⟨p, q, rfl⟩ : ∃ (p : Fin 20000) (q : Fin 128), j = ix2 p q := ⟨j 0, j 1, eq_ix2 j⟩
  rw [AT.sageR20000_apply]
  exact AT.real_add (AT.real_add (AT.real_sum _ fun k => AT.real_mul (hm _) (hWl _)) (hb _))
    (AT.real_sum _ fun k => AT.real_mul (hx _) (hWr _))

/-- The clamp of a real array of 20000 rows is real. -/
theorem relu20000_real {x : X20} (h : IsReal x) : IsReal (relu20000 x) := by
  intro j
  obtain ⟨p, q, rfl⟩ : ∃ (p : Fin 20000) (q : Fin 128), j = ix2 p q := ⟨j 0, j 1, eq_ix2 j⟩
  rw [AT.relu20000_apply]
  exact AT.real_max_zero (h _)

/-- A head of real arrays is real. -/
theorem headR_real {x : X40} {W : FVec Ideal S128x64 .f32} {b : FVec Ideal S64 .f32} (hx : IsReal x) (hW : IsReal W)
    (hb : IsReal b) : IsReal (headR x W b) := by
  intro j
  obtain ⟨p, q, rfl⟩ : ∃ (p : Fin 40000) (q : Fin 64), j = ix2 p q := ⟨j 0, j 1, eq_ix2 j⟩
  rw [AT.headR_apply]
  exact AT.real_add (AT.real_sum _ fun k => AT.real_mul (hx _) (hW _)) (hb _)

end Cert.Spec

end
-- ==== Proof.AggReal.lean ====
/-
  Every value of the mean aggregation, and every selected weight, is a real number when the argument arrays are.

  A gathered row is a row of the source; the accumulating scatter is, at each destination entry, the operand's entry plus
  a finite sum of update entries; the in-degree is such a sum of ones, so its maximum with one is a real number at least
  one; the quotient of a real by a nonzero real is real. Slices, reshapes and broadcasts only re-index.
-/
import proofs.«165177_j32074815766916_1_alg».proof.Proof.Spec
import Idealize.ShloMosaic.PureOps.Ideal.Laws
import Idealize.ShloMosaic.PureOps.Contract
import Mathlib.Data.EReal.Operations
import Mathlib.Algebra.BigOperators.Group.Finset.Basic

noncomputable section

namespace Cert.Spec

open Idealize.ShloMosaic Idealize.ShloMosaic.ValueIdx Cert.KernelIdeal Cert.KernelIdeal.Facts₀

namespace AggReal

/-- Every entry is a real number at least one. -/
def GeOne {s : Shape} (y : s.Idx → EReal) : Prop := ∀ i, ∃ r : ℝ, 1 ≤ r ∧ y i = (r : EReal)

/-- A finite sum of reals is real. -/
theorem sum_real {ι : Type} (t : Finset ι) (f : ι → EReal) (hf : ∀ j, ∃ r : ℝ, f j = (r : EReal)) :
    ∃ r : ℝ, ∑ j ∈ t, f j = (r : EReal) := by
  classical
  induction t using Finset.induction_on with
  | empty => exact ⟨0, by rw [Finset.sum_empty, EReal.coe_zero]⟩
  | insert a t ha ih =>
    obtain ⟨r, hr⟩ := ih
    obtain ⟨q, hq⟩ := hf a
    exact ⟨q + r, by rw [Finset.sum_insert ha, hr, hq, EReal.coe_add]⟩

/-- The zero splat is real. -/
theorem zero_real (s : Shape) : IsReal (constant (F := Ideal) s .f32 0x00000000#32) := fun _ =>
  ⟨0, by show Ideal.ofBits .f32 0x00000000#32 = _; rw [Ideal.ofBits_zero_f32, EReal.coe_zero]⟩

/-- The pattern of 1.0 is the real number one. -/
theorem ofBits_one : Ideal.ofBits .f32 0x3F800000#32 = ((1 : ℝ) : EReal) := by
  rw [EReal.coe_one]; exact IdealRules.sign_bit.ideal_onePat .f32

/-- The one splat is real. -/
theorem one_real (s : Shape) : IsReal (constant (F := Ideal) s .f32 0x3F800000#32) := fun _ => ⟨1, ofBits_one⟩

/-- A broadcast reads operand entries. -/
theorem bcast_real {s t : Shape} {dims : Fin s.rank → Fin t.rank} {h : s.BroadcastsInDim t dims} {x : s.Idx → EReal}
    (hx : IsReal x) : IsReal (broadcastInDim t dims h x) := fun _ => hx _

/-- A broadcast of reals at least one has entries at least one. -/
theorem bcast_geOne {s t : Shape} {dims : Fin s.rank → Fin t.rank} {h : s.BroadcastsInDim t dims} {x : s.Idx → EReal}
    (hx : GeOne x) : GeOne (broadcastInDim t dims h x) := fun _ => hx _

/-- A reshape reads operand entries. -/
theorem cast_real {s t : Shape} {h : s.ShapeCasts t} {x : s.Idx → EReal} (hx : IsReal x) : IsReal (shapeCast t x h) :=
  fun _ => hx _

/-- A slice reads operand entries. -/
theorem slice_real {s t : Shape} {off : Fin s.rank → Nat} {h : s.Slices off t} {x : s.Idx → EReal} (hx : IsReal x) :
    IsReal (extractStridedSlice t off x h) := fun _ => hx _

/-- A gather reads operand entries. -/
theorem gather_real {s si t : Shape} {w : Nat} (d : GatherDims s si t) {x : s.Idx → EReal} (hx : IsReal x) (idx : IVec si w) :
    IsReal (Host.gather d x idx) := fun _ => hx _

/-- The accumulating scatter is, at each entry, the operand's entry plus a finite sum of update entries. -/
theorem scatterAdd_real {s si u : Shape} {w : Nat} (d : ScatterDims s si u) {x : FVec Ideal s .f32} (hx : IsReal x)
    (idx : IVec si w) {upd : FVec Ideal u .f32} (hu : IsReal upd) : IsReal (Host.scatterAdd (F := Ideal) d x idx upd) := fun i => by
  obtain ⟨a, ha⟩ := hx i
  obtain ⟨b, hb⟩ := sum_real (Finset.univ.filter (fun j => d.resultIdx? j idx = some i)) upd hu
  refine ⟨a + b, ?_⟩
  show x i + ∑ j ∈ Finset.univ.filter (fun j => d.resultIdx? j idx = some i), upd j = _
  rw [ha, hb, EReal.coe_add]

/-- The maximum of a real with one is a real at least one. -/
theorem max_one_geOne {s : Shape} {x : FVec Ideal s .f32} (hx : IsReal x) :
    GeOne (maximumf x (constant (F := Ideal) s .f32 0x3F800000#32)) := fun i => by
  obtain ⟨a, ha⟩ := hx i
  show ∃ r : ℝ, 1 ≤ r ∧ max (x i) (Ideal.ofBits .f32 0x3F800000#32) = (r : EReal)
  rw [ha, ofBits_one]
  by_cases h : a ≤ 1
  · exact ⟨1, le_refl _, max_eq_right (EReal.coe_le_coe_iff.mpr h)⟩
  · exact ⟨a, le_of_not_ge h, max_eq_left (EReal.coe_le_coe_iff.mpr (le_of_not_ge h))⟩

/-- The quotient of a real by a real at least one is real. -/
theorem div_real {s : Shape} {x y : FVec Ideal s .f32} (hx : IsReal x) (hy : GeOne y) : IsReal (Host.divf x y) := fun i => by
  obtain ⟨a, ha⟩ := hx i
  obtain ⟨b, hb1, hb⟩ := hy i
  refine ⟨a * (1 / b), ?_⟩
  show Ideal.div (x i) (y i) = _
  rw [ha, hb, Ideal.div_coe (by linarith : b ≠ 0), EReal.coe_mul]

end AggReal

open AggReal

/-! ## The four mean aggregations -/

/-- Authors' rows averaged into papers: the scattered sum of gathered rows, over the in-degree clamped below at one. -/
theorem aggAP_real {x : X40} (hx : IsReal x) (src dst : E5) : IsReal (aggAP (F := Ideal) x src dst) := by
  unfold aggAP
  exact div_real (scatterAdd_real _ (bcast_real (zero_real _)) _ (gather_real _ hx _))
    (bcast_geOne (bcast_geOne (max_one_geOne (scatterAdd_real _ (bcast_real (zero_real _)) _ (bcast_real (one_real _))))))

/-- Terms' rows averaged into papers. -/
theorem aggTP_real {x : X20} (hx : IsReal x) (src dst : E8) : IsReal (aggTP (F := Ideal) x src dst) := by
  unfold aggTP
  exact div_real (scatterAdd_real _ (bcast_real (zero_real _)) _ (gather_real _ hx _))
    (bcast_geOne (bcast_geOne (max_one_geOne (scatterAdd_real _ (bcast_real (zero_real _)) _ (bcast_real (one_real _))))))

/-- Papers' rows averaged into authors. -/
theorem aggPA_real {x : X100} (hx : IsReal x) (src dst : E5) : IsReal (aggPA (F := Ideal) x src dst) := by
  unfold aggPA
  exact div_real (scatterAdd_real _ (bcast_real (zero_real _)) _ (gather_real _ hx _))
    (bcast_geOne (bcast_geOne (max_one_geOne (scatterAdd_real _ (bcast_real (zero_real _)) _ (bcast_real (one_real _))))))

/-- Papers' rows averaged into terms. -/
theorem aggPT_real {x : X100} (hx : IsReal x) (src dst : E8) : IsReal (aggPT (F := Ideal) x src dst) := by
  unfold aggPT
  exact div_real (scatterAdd_real _ (bcast_real (zero_real _)) _ (gather_real _ hx _))
    (bcast_geOne (bcast_geOne (max_one_geOne (scatterAdd_real _ (bcast_real (zero_real _)) _ (bcast_real (one_real _))))))

/-! ## The selected weights: a slice then a reshape of a real array -/

theorem slab5_real {W : FVec Ideal S3x2x4x128x128 .f32} (hW : IsReal W) (s h) : IsReal (slab5 (F := Ideal) s h W) :=
  cast_real (slice_real hW)

theorem slab4_real {B : FVec Ideal S3x2x4x128 .f32} (hB : IsReal B) (s h) : IsReal (slab4 (F := Ideal) s h B) :=
  cast_real (slice_real hB)

theorem wmat_real {S : FVec Ideal S2x4x128x128 .f32} (hS : IsReal S) (l r h) : IsReal (wmat (F := Ideal) l r h S) :=
  cast_real (slice_real hS)

theorem wvec_real {S : FVec Ideal S2x4x128 .f32} (hS : IsReal S) (l r h) : IsReal (wvec (F := Ideal) l r h S) :=
  cast_real (slice_real hS)

end Cert.Spec

end
-- ==== Proof.NetEq.lean ====
/-
  The two programs' networks agree on real argument arrays, value by value, by induction along the layers.

  Each value of the kernel program's network is the matching value of the reference's: a first layer reads the argument
  arrays, a later one the previous layer's values, which agree by the earlier steps; the author and term updates and the
  read-out heads agree by regrouping a sum, the paper update by distributing the node's own features over the SUM of
  the two right weights, which is sound because those features and the two weights are real. That the features stay
  real is carried along: a layer of real inputs and real weights gives real outputs (means of reals over a positive
  count, finite sums of products, a clamp).
-/
import proofs.«165177_j32074815766916_1_alg».proof.Proof.Spec
import proofs.«165177_j32074815766916_1_alg».proof.Proof.BridgeP
import proofs.«165177_j32074815766916_1_alg».proof.Proof.BridgeAT
import proofs.«165177_j32074815766916_1_alg».proof.Proof.AggReal

noncomputable section

namespace Cert.Spec

open Idealize.ShloMosaic Cert.KernelIdeal

/-- The twelve float argument arrays hold real numbers only. -/
structure ArgsReal (A : Args) : Prop where
  xa : IsReal A.xa
  xp : IsReal A.xp
  xt : IsReal A.xt
  Wl : IsReal A.Wl
  bl : IsReal A.bl
  Wr : IsReal A.Wr
  lmW : IsReal A.lmW
  lmb : IsReal A.lmb
  ltW : IsReal A.ltW
  ltb : IsReal A.ltb
  l2W : IsReal A.l2W
  l2b : IsReal A.l2b

variable {A : Args} (h : ArgsReal A)
include h

theorem ma1_real : IsReal (R.ma1 A) := by
  unfold R.ma1 layerR_a
  exact relu40000_real (sageR40000_real (aggPA_real h.xp _ _) h.xa (wmat_real (slab5_real h.Wl 0 _) 0 1 _) (wmat_real (slab5_real h.Wr 0 _) 0 1 _) (wvec_real (slab4_real h.bl 0 _) 0 1 _))

theorem mp1_real : IsReal (R.mp1 A) := by
  unfold R.mp1 layerR_p
  exact relu100000_real (addf_real (sageR100000_real (aggAP_real h.xa _ _) h.xp (wmat_real (slab5_real h.Wl 0 _) 0 0 _) (wmat_real (slab5_real h.Wr 0 _) 0 0 _) (wvec_real (slab4_real h.bl 0 _) 0 0 _)) (sageR100000_real (aggTP_real h.xt _ _) h.xp (wmat_real (slab5_real h.Wl 0 _) 0 3 _) (wmat_real (slab5_real h.Wr 0 _) 0 3 _) (wvec_real (slab4_real h.bl 0 _) 0 3 _)))

theorem mt1_real : IsReal (R.mt1 A) := by
  unfold R.mt1 layerR_t
  exact relu20000_real (sageR20000_real (aggPT_real h.xp _ _) h.xt (wmat_real (slab5_real h.Wl 0 _) 0 2 _) (wmat_real (slab5_real h.Wr 0 _) 0 2 _) (wvec_real (slab4_real h.bl 0 _) 0 2 _))

theorem ma1_eq : K.ma1 A = R.ma1 A := by
  unfold K.ma1 R.ma1
  exact layerA_eq _ _ _ _ _ _ _

theorem mp1_eq : K.mp1 A = R.mp1 A := by
  unfold K.mp1 R.mp1
  exact layerP_eq _ _ _ _ _ _ _ _ _ _ _ _ _ h.xp (wmat_real (slab5_real h.Wr 0 _) 0 0 _) (wmat_real (slab5_real h.Wr 0 _) 0 3 _)

theorem mt1_eq : K.mt1 A = R.mt1 A := by
  unfold K.mt1 R.mt1
  exact layerT_eq _ _ _ _ _ _ _

theorem ma2_real : IsReal (R.ma2 A) := by
  unfold R.ma2 layerR_a
  exact relu40000_real (sageR40000_real (aggPA_real (mp1_real h) _ _) (ma1_real h) (wmat_real (slab5_real h.Wl 0 _) 1 1 _) (wmat_real (slab5_real h.Wr 0 _) 1 1 _) (wvec_real (slab4_real h.bl 0 _) 1 1 _))

theorem mp2_real : IsReal (R.mp2 A) := by
  unfold R.mp2 layerR_p
  exact relu100000_real (addf_real (sageR100000_real (aggAP_real (ma1_real h) _ _) (mp1_real h) (wmat_real (slab5_real h.Wl 0 _) 1 0 _) (wmat_real (slab5_real h.Wr 0 _) 1 0 _) (wvec_real (slab4_real h.bl 0 _) 1 0 _)) (sageR100000_real (aggTP_real (mt1_real h) _ _) (mp1_real h) (wmat_real (slab5_real h.Wl 0 _) 1 3 _) (wmat_real (slab5_real h.Wr 0 _) 1 3 _) (wvec_real (slab4_real h.bl 0 _) 1 3 _)))

theorem mt2_real : IsReal (R.mt2 A) := by
  unfold R.mt2 layerR_t
  exact relu20000_real (sageR20000_real (aggPT_real (mp1_real h) _ _) (mt1_real h) (wmat_real (slab5_real h.Wl 0 _) 1 2 _) (wmat_real (slab5_real h.Wr 0 _) 1 2 _) (wvec_real (slab4_real h.bl 0 _) 1 2 _))

theorem ma2_eq : K.ma2 A = R.ma2 A := by
  unfold K.ma2 R.ma2
  rw [ma1_eq h, mp1_eq h]
  exact layerA_eq _ _ _ _ _ _ _

theorem mp2_eq : K.mp2 A = R.mp2 A := by
  unfold K.mp2 R.mp2
  rw [ma1_eq h, mp1_eq h, mt1_eq h]
  exact layerP_eq _ _ _ _ _ _ _ _ _ _ _ _ _ (mp1_real h) (wmat_real (slab5_real h.Wr 0 _) 1 0 _) (wmat_real (slab5_real h.Wr 0 _) 1 3 _)

theorem mt2_eq : K.mt2 A = R.mt2 A := by
  unfold K.mt2 R.mt2
  rw [mp1_eq h, mt1_eq h]
  exact layerT_eq _ _ _ _ _ _ _

theorem ga1_real : IsReal (R.ga1 A) := by
  unfold R.ga1 layerR_a
  exact relu40000_real (sageR40000_real (aggPA_real (mp2_real h) _ _) (ma2_real h) (wmat_real (slab5_real h.Wl 1 _) 0 1 _) (wmat_real (slab5_real h.Wr 1 _) 0 1 _) (wvec_real (slab4_real h.bl 1 _) 0 1 _))

theorem gp1_real : IsReal (R.gp1 A) := by
  unfold R.gp1 layerR_p
  exact relu100000_real (addf_real (sageR100000_real (aggAP_real (ma2_real h) _ _) (mp2_real h) (wmat_real (slab5_real h.Wl 1 _) 0 0 _) (wmat_real (slab5_real h.Wr 1 _) 0 0 _) (wvec_real (slab4_real h.bl 1 _) 0 0 _)) (sageR100000_real (aggTP_real (mt2_real h) _ _) (mp2_real h) (wmat_real (slab5_real h.Wl 1 _) 0 3 _) (wmat_real (slab5_real h.Wr 1 _) 0 3 _) (wvec_real (slab4_real h.bl 1 _) 0 3 _)))

theorem gt1_real : IsReal (R.gt1 A) := by
  unfold R.gt1 layerR_t
  exact relu20000_real (sageR20000_real (aggPT_real (mp2_real h) _ _) (mt2_real h) (wmat_real (slab5_real h.Wl 1 _) 0 2 _) (wmat_real (slab5_real h.Wr 1 _) 0 2 _) (wvec_real (slab4_real h.bl 1 _) 0 2 _))

theorem ga1_eq : K.ga1 A = R.ga1 A := by
  unfold K.ga1 R.ga1
  rw [ma2_eq h, mp2_eq h]
  exact layerA_eq _ _ _ _ _ _ _

theorem gp1_eq : K.gp1 A = R.gp1 A := by
  unfold K.gp1 R.gp1
  rw [ma2_eq h, mp2_eq h, mt2_eq h]
  exact layerP_eq _ _ _ _ _ _ _ _ _ _ _ _ _ (mp2_real h) (wmat_real (slab5_real h.Wr 1 _) 0 0 _) (wmat_real (slab5_real h.Wr 1 _) 0 3 _)

theorem gt1_eq : K.gt1 A = R.gt1 A := by
  unfold K.gt1 R.gt1
  rw [mp2_eq h, mt2_eq h]
  exact layerT_eq _ _ _ _ _ _ _

theorem ga2_real : IsReal (R.ga2 A) := by
  unfold R.ga2 layerR_a
  exact relu40000_real (sageR40000_real (aggPA_real (gp1_real h) _ _) (ga1_real h) (wmat_real (slab5_real h.Wl 1 _) 1 1 _) (wmat_real (slab5_real h.Wr 1 _) 1 1 _) (wvec_real (slab4_real h.bl 1 _) 1 1 _))

theorem gp2_real : IsReal (R.gp2 A) := by
  unfold R.gp2 layerR_p
  exact relu100000_real (addf_real (sageR100000_real (aggAP_real (ga1_real h) _ _) (gp1_real h) (wmat_real (slab5_real h.Wl 1 _) 1 0 _) (wmat_real (slab5_real h.Wr 1 _) 1 0 _) (wvec_real (slab4_real h.bl 1 _) 1 0 _)) (sageR100000_real (aggTP_real (gt1_real h) _ _) (gp1_real h) (wmat_real (slab5_real h.Wl 1 _) 1 3 _) (wmat_real (slab5_real h.Wr 1 _) 1 3 _) (wvec_real (slab4_real h.bl 1 _) 1 3 _)))

theorem gt2_real : IsReal (R.gt2 A) := by
  unfold R.gt2 layerR_t
  exact relu20000_real (sageR20000_real (aggPT_real (gp1_real h) _ _) (gt1_real h) (wmat_real (slab5_real h.Wl 1 _) 1 2 _) (wmat_real (slab5_real h.Wr 1 _) 1 2 _) (wvec_real (slab4_real h.bl 1 _) 1 2 _))

theorem ga2_eq : K.ga2 A = R.ga2 A := by
  unfold K.ga2 R.ga2
  rw [ga1_eq h, gp1_eq h]
  exact layerA_eq _ _ _ _ _ _ _

theorem gp2_eq : K.gp2 A = R.gp2 A := by
  unfold K.gp2 R.gp2
  rw [ga1_eq h, gp1_eq h, gt1_eq h]
  exact layerP_eq _ _ _ _ _ _ _ _ _ _ _ _ _ (gp1_real h) (wmat_real (slab5_real h.Wr 1 _) 1 0 _) (wmat_real (slab5_real h.Wr 1 _) 1 3 _)

theorem gt2_eq : K.gt2 A = R.gt2 A := by
  unfold K.gt2 R.gt2
  rw [gp1_eq h, gt1_eq h]
  exact layerT_eq _ _ _ _ _ _ _

theorem oa1_real : IsReal (R.oa1 A) := by
  unfold R.oa1 layerR_a
  exact relu40000_real (sageR40000_real (aggPA_real h.xp _ _) h.xa (wmat_real (slab5_real h.Wl 2 _) 0 1 _) (wmat_real (slab5_real h.Wr 2 _) 0 1 _) (wvec_real (slab4_real h.bl 2 _) 0 1 _))

theorem op1_real : IsReal (R.op1 A) := by
  unfold R.op1 layerR_p
  exact relu100000_real (addf_real (sageR100000_real (aggAP_real h.xa _ _) h.xp (wmat_real (slab5_real h.Wl 2 _) 0 0 _) (wmat_real (slab5_real h.Wr 2 _) 0 0 _) (wvec_real (slab4_real h.bl 2 _) 0 0 _)) (sageR100000_real (aggTP_real h.xt _ _) h.xp (wmat_real (slab5_real h.Wl 2 _) 0 3 _) (wmat_real (slab5_real h.Wr 2 _) 0 3 _) (wvec_real (slab4_real h.bl 2 _) 0 3 _)))

theorem ot1_real : IsReal (R.ot1 A) := by
  unfold R.ot1 layerR_t
  exact relu20000_real (sageR20000_real (aggPT_real h.xp _ _) h.xt (wmat_real (slab5_real h.Wl 2 _) 0 2 _) (wmat_real (slab5_real h.Wr 2 _) 0 2 _) (wvec_real (slab4_real h.bl 2 _) 0 2 _))

theorem oa1_eq : K.oa1 A = R.oa1 A := by
  unfold K.oa1 R.oa1
  exact layerA_eq _ _ _ _ _ _ _

theorem op1_eq : K.op1 A = R.op1 A := by
  unfold K.op1 R.op1
  exact layerP_eq _ _ _ _ _ _ _ _ _ _ _ _ _ h.xp (wmat_real (slab5_real h.Wr 2 _) 0 0 _) (wmat_real (slab5_real h.Wr 2 _) 0 3 _)

theorem ot1_eq : K.ot1 A = R.ot1 A := by
  unfold K.ot1 R.ot1
  exact layerT_eq _ _ _ _ _ _ _

theorem oa2_real : IsReal (R.oa2 A) := by
  unfold R.oa2 layerR_a
  exact relu40000_real (sageR40000_real (aggPA_real (op1_real h) _ _) (oa1_real h) (wmat_real (slab5_real h.Wl 2 _) 1 1 _) (wmat_real (slab5_real h.Wr 2 _) 1 1 _) (wvec_real (slab4_real h.bl 2 _) 1 1 _))

theorem op2_real : IsReal (R.op2 A) := by
  unfold R.op2 layerR_p
  exact relu100000_real (addf_real (sageR100000_real (aggAP_real (oa1_real h) _ _) (op1_real h) (wmat_real (slab5_real h.Wl 2 _) 1 0 _) (wmat_real (slab5_real h.Wr 2 _) 1 0 _) (wvec_real (slab4_real h.bl 2 _) 1 0 _)) (sageR100000_real (aggTP_real (ot1_real h) _ _) (op1_real h) (wmat_real (slab5_real h.Wl 2 _) 1 3 _) (wmat_real (slab5_real h.Wr 2 _) 1 3 _) (wvec_real (slab4_real h.bl 2 _) 1 3 _)))

theorem ot2_real : IsReal (R.ot2 A) := by
  unfold R.ot2 layerR_t
  exact relu20000_real (sageR20000_real (aggPT_real (op1_real h) _ _) (ot1_real h) (wmat_real (slab5_real h.Wl 2 _) 1 2 _) (wmat_real (slab5_real h.Wr 2 _) 1 2 _) (wvec_real (slab4_real h.bl 2 _) 1 2 _))

theorem oa2_eq : K.oa2 A = R.oa2 A := by
  unfold K.oa2 R.oa2
  rw [oa1_eq h, op1_eq h]
  exact layerA_eq _ _ _ _ _ _ _

theorem op2_eq : K.op2 A = R.op2 A := by
  unfold K.op2 R.op2
  rw [oa1_eq h, op1_eq h, ot1_eq h]
  exact layerP_eq _ _ _ _ _ _ _ _ _ _ _ _ _ (op1_real h) (wmat_real (slab5_real h.Wr 2 _) 1 0 _) (wmat_real (slab5_real h.Wr 2 _) 1 3 _)

theorem ot2_eq : K.ot2 A = R.ot2 A := by
  unfold K.ot2 R.ot2
  rw [op1_eq h, ot1_eq h]
  exact layerT_eq _ _ _ _ _ _ _

theorem logits_eq : K.logits A = R.logits A := by
  unfold K.logits R.logits
  rw [ma2_eq h]
  exact head_eq _ _ _

theorem ll1_eq : K.ll1 A = R.ll1 A := by
  unfold K.ll1 R.ll1
  rw [ga2_eq h]
  exact head_eq _ _ _

/-- The first result agrees. -/
theorem out0_eq : K.out0 A = R.out0 A := by
  unfold K.out0 R.out0
  rw [logits_eq h, ll1_eq h]

end Cert.Spec

end
-- ==== Proof.ArgsReal.lean ====
/-
  From the programs' precondition to the reality of the twelve float argument arrays.

  The precondition is the conjunction, over the twelve float arrays, of "every entry's absolute value is below the
  positive infinity". An extended real whose absolute value max(x, -x) is below the positive infinity is neither infinity,
  so it is a real number.
-/
import proofs.«165177_j32074815766916_1_alg».proof.Proof.Gen.Pre_finite_inputs
import proofs.«165177_j32074815766916_1_alg».proof.Defs
import proofs.«165177_j32074815766916_1_alg».proof.Proof.Spec
import Idealize.ShloMosaic.Lib.ReduceAll
import Idealize.ShloMosaic.Lib.ValueIdx
import Idealize.ShloMosaic.PureOps.Ideal.Laws

noncomputable section

namespace Cert.Spec.ArgsReal

open Idealize.ShloMosaic Idealize.SL.Sem Cert.Pre_finite_inputs

/-- The shape with no axis has one index. -/
instance : Subsingleton S_.Idx := ⟨fun a b => funext fun d => d.elim0⟩

/-- The pattern of the positive infinity. -/
theorem ofBits_inf : Ideal.ofBits .f32 0x7F800000#32 = ⊤ := by simp [Ideal.ofBits, Ideal.ieee]

/-- A one-bit word made from a truth value is one exactly when the value is true. -/
theorem ofBool_eq_one {b : Bool} : BitVec.ofBool b = 1#1 ↔ b = true := by cases b <;> decide

/-- An extended real whose absolute value is below the positive infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- When the conjunction over all entries of "the absolute value is below the positive infinity" is one, every entry
    is real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ValueIdx.ix0 = 1#1) : IsReal x := fun i => by
  have h1 := Host.reduce_andi_all _ _ hr hu ValueIdx.ix0 e i
  have h2 : Ideal.cmp .olt (max (x i) (-(x i))) (Ideal.ofBits .f32 0x7F800000#32) = 1#1 := h1
  rw [ofBits_inf] at h2
  have h3 : max (x i) (-(x i)) < ⊤ := by
    simpa only [Ideal.cmp, ofBool_eq_one, decide_eq_true_eq] using h2
  exact real_of_abs_lt_top _ h3

/-- The printed precondition, read back: when it is one, each of the twelve float arrays has only real entries. -/
theorem fn_real (a0 : FVec Ideal S40000x128 .f32) (a1 : FVec Ideal S100000x128 .f32) (a2 : FVec Ideal S20000x128 .f32) (a3 : FVec Ideal S3x2x4x128x128 .f32) (a4 : FVec Ideal S3x2x4x128 .f32) (a5 : FVec Ideal S3x2x4x128x128 .f32) (a6 : FVec Ideal S128x64 .f32) (a7 : FVec Ideal S64 .f32) (a8 : FVec Ideal S128x64 .f32) (a9 : FVec Ideal S64 .f32) (a10 : FVec Ideal S64x1 .f32) (a11 : FVec Ideal S1 .f32)
    (a12 : IVec S500000 32) (a13 : IVec S500000 32) (a14 : IVec S500000 32) (a15 : IVec S500000 32) (a16 : IVec S800000 32) (a17 : IVec S800000 32) (a18 : IVec S800000 32) (a19 : IVec S800000 32)
    (h : fn (F := Ideal) a0 a1 a2 a3 a4 a5 a6 a7 a8 a9 a10 a11 a12 a13 a14 a15 a16 a17 a18 a19 ValueIdx.ix0 = 1#1) :
    IsReal a0 ∧ IsReal a1 ∧ IsReal a2 ∧ IsReal a3 ∧ IsReal a4 ∧ IsReal a5 ∧ IsReal a6 ∧ IsReal a7 ∧ IsReal a8 ∧ IsReal a9 ∧ IsReal a10 ∧ IsReal a11 := by
  dsimp only [fn, fn_part1, fn_part2, fn_part3] at h
  simp only [andi, IntOp.andi_eq_one] at h
  obtain ⟨⟨⟨⟨⟨⟨⟨⟨⟨⟨⟨h0, h1⟩, h2⟩, h3⟩, h4⟩, h5⟩, h6⟩, h7⟩, h8⟩, h9⟩, h10⟩, h11⟩ := h
  exact ⟨real_of_all _ _ _ _ h0, real_of_all _ _ _ _ h1, real_of_all _ _ _ _ h2, real_of_all _ _ _ _ h3, real_of_all _ _ _ _ h4,
    real_of_all _ _ _ _ h5, real_of_all _ _ _ _ h6, real_of_all _ _ _ _ h7, real_of_all _ _ _ _ h8, real_of_all _ _ _ _ h9,
    real_of_all _ _ _ _ h10, real_of_all _ _ _ _ h11⟩

/-- Under the precondition, on every device, the twelve float argument arrays are real. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (s := S40000x128) (m ((c.tc : Thread Cert.KernelIdeal.nD Cert.KernelIdeal.τ).loc Cert.KernelIdeal.main_arg0))
    ∧ IsReal (s := S100000x128) (m ((c.tc : Thread Cert.KernelIdeal.nD Cert.KernelIdeal.τ).loc Cert.KernelIdeal.main_arg1))
    ∧ IsReal (s := S20000x128) (m ((c.tc : Thread Cert.KernelIdeal.nD Cert.KernelIdeal.τ).loc Cert.KernelIdeal.main_arg2))
    ∧ IsReal (s := S3x2x4x128x128) (m ((c.tc : Thread Cert.KernelIdeal.nD Cert.KernelIdeal.τ).loc Cert.KernelIdeal.main_arg3))
    ∧ IsReal (s := S3x2x4x128) (m ((c.tc : Thread Cert.KernelIdeal.nD Cert.KernelIdeal.τ).loc Cert.KernelIdeal.main_arg4))
    ∧ IsReal (s := S3x2x4x128x128) (m ((c.tc : Thread Cert.KernelIdeal.nD Cert.KernelIdeal.τ).loc Cert.KernelIdeal.main_arg5))
    ∧ IsReal (s := S128x64) (m ((c.tc : Thread Cert.KernelIdeal.nD Cert.KernelIdeal.τ).loc Cert.KernelIdeal.main_arg6))
    ∧ IsReal (s := S64) (m ((c.tc : Thread Cert.KernelIdeal.nD Cert.KernelIdeal.τ).loc Cert.KernelIdeal.main_arg7))
    ∧ IsReal (s := S128x64) (m ((c.tc : Thread Cert.KernelIdeal.nD Cert.KernelIdeal.τ).loc Cert.KernelIdeal.main_arg8))
    ∧ IsReal (s := S64) (m ((c.tc : Thread Cert.KernelIdeal.nD Cert.KernelIdeal.τ).loc Cert.KernelIdeal.main_arg9))
    ∧ IsReal (s := S64x1) (m ((c.tc : Thread Cert.KernelIdeal.nD Cert.KernelIdeal.τ).loc Cert.KernelIdeal.main_arg10))
    ∧ IsReal (s := S1) (m ((c.tc : Thread Cert.KernelIdeal.nD Cert.KernelIdeal.τ).loc Cert.KernelIdeal.main_arg11)) :=
  fn_real _ _ _ _ _ _ _ _ _ _ _ _ _ _ _ _ _ _ _ _ (congrFun (hpre c) ValueIdx.ix0)

/-- Argument 0, the float array of shape [40000, 128], is real under the precondition. -/
theorem arg0_real (m : (ℓ : Loc Cert.KernelIdeal.nD Cert.KernelIdeal.τ Cert.KernelIdeal.sig) → Buf (Elt Ideal) ℓ) (hpre : Cert.Pre_KernelIdeal m) (c : Dev Cert.KernelIdeal.nD) : Cert.Spec.IsReal (m ((c.tc : Thread Cert.KernelIdeal.nD Cert.KernelIdeal.τ).loc Cert.KernelIdeal.main_arg0)) :=
  (args_real m hpre c).1

/-- Argument 1, the float array of shape [100000, 128], is real under the precondition. -/
theorem arg1_real (m : (ℓ : Loc Cert.KernelIdeal.nD Cert.KernelIdeal.τ Cert.KernelIdeal.sig) → Buf (Elt Ideal) ℓ) (hpre : Cert.Pre_KernelIdeal m) (c : Dev Cert.KernelIdeal.nD) : Cert.Spec.IsReal (m ((c.tc : Thread Cert.KernelIdeal.nD Cert.KernelIdeal.τ).loc Cert.KernelIdeal.main_arg1)) :=
  (args_real m hpre c).2.1

/-- Argument 2, the float array of shape [20000, 128], is real under the precondition. -/
theorem arg2_real (m : (ℓ : Loc Cert.KernelIdeal.nD Cert.KernelIdeal.τ Cert.KernelIdeal.sig) → Buf (Elt Ideal) ℓ) (hpre : Cert.Pre_KernelIdeal m) (c : Dev Cert.KernelIdeal.nD) : Cert.Spec.IsReal (m ((c.tc : Thread Cert.KernelIdeal.nD Cert.KernelIdeal.τ).loc Cert.KernelIdeal.main_arg2)) :=
  (args_real m hpre c).2.2.1

/-- Argument 3, the float array of shape [3, 2, 4, 128, 128], is real under the precondition. -/
theorem arg3_real (m : (ℓ : Loc Cert.KernelIdeal.nD Cert.KernelIdeal.τ Cert.KernelIdeal.sig) → Buf (Elt Ideal) ℓ) (hpre : Cert.Pre_KernelIdeal m) (c : Dev Cert.KernelIdeal.nD) : Cert.Spec.IsReal (m ((c.tc : Thread Cert.KernelIdeal.nD Cert.KernelIdeal.τ).loc Cert.KernelIdeal.main_arg3)) :=
  (args_real m hpre c).2.2.2.1

/-- Argument 4, the float array of shape [3, 2, 4, 128], is real under the precondition. -/
theorem arg4_real (m : (ℓ : Loc Cert.KernelIdeal.nD Cert.KernelIdeal.τ Cert.KernelIdeal.sig) → Buf (Elt Ideal) ℓ) (hpre : Cert.Pre_KernelIdeal m) (c : Dev Cert.KernelIdeal.nD) : Cert.Spec.IsReal (m ((c.tc : Thread Cert.KernelIdeal.nD Cert.KernelIdeal.τ).loc Cert.KernelIdeal.main_arg4)) :=
  (args_real m hpre c).2.2.2.2.1

/-- Argument 5, the float array of shape [3, 2, 4, 128, 128], is real under the precondition. -/
theorem arg5_real (m : (ℓ : Loc Cert.KernelIdeal.nD Cert.KernelIdeal.τ Cert.KernelIdeal.sig) → Buf (Elt Ideal) ℓ) (hpre : Cert.Pre_KernelIdeal m) (c : Dev Cert.KernelIdeal.nD) : Cert.Spec.IsReal (m ((c.tc : Thread Cert.KernelIdeal.nD Cert.KernelIdeal.τ).loc Cert.KernelIdeal.main_arg5)) :=
  (args_real m hpre c).2.2.2.2.2.1

/-- Argument 6, the float array of shape [128, 64], is real under the precondition. -/
theorem arg6_real (m : (ℓ : Loc Cert.KernelIdeal.nD Cert.KernelIdeal.τ Cert.KernelIdeal.sig) → Buf (Elt Ideal) ℓ) (hpre : Cert.Pre_KernelIdeal m) (c : Dev Cert.KernelIdeal.nD) : Cert.Spec.IsReal (m ((c.tc : Thread Cert.KernelIdeal.nD Cert.KernelIdeal.τ).loc Cert.KernelIdeal.main_arg6)) :=
  (args_real m hpre c).2.2.2.2.2.2.1

/-- Argument 7, the float array of shape [64], is real under the precondition. -/
theorem arg7_real (m : (ℓ : Loc Cert.KernelIdeal.nD Cert.KernelIdeal.τ Cert.KernelIdeal.sig) → Buf (Elt Ideal) ℓ) (hpre : Cert.Pre_KernelIdeal m) (c : Dev Cert.KernelIdeal.nD) : Cert.Spec.IsReal (m ((c.tc : Thread Cert.KernelIdeal.nD Cert.KernelIdeal.τ).loc Cert.KernelIdeal.main_arg7)) :=
  (args_real m hpre c).2.2.2.2.2.2.2.1

/-- Argument 8, the float array of shape [128, 64], is real under the precondition. -/
theorem arg8_real (m : (ℓ : Loc Cert.KernelIdeal.nD Cert.KernelIdeal.τ Cert.KernelIdeal.sig) → Buf (Elt Ideal) ℓ) (hpre : Cert.Pre_KernelIdeal m) (c : Dev Cert.KernelIdeal.nD) : Cert.Spec.IsReal (m ((c.tc : Thread Cert.KernelIdeal.nD Cert.KernelIdeal.τ).loc Cert.KernelIdeal.main_arg8)) :=
  (args_real m hpre c).2.2.2.2.2.2.2.2.1

/-- Argument 9, the float array of shape [64], is real under the precondition. -/
theorem arg9_real (m : (ℓ : Loc Cert.KernelIdeal.nD Cert.KernelIdeal.τ Cert.KernelIdeal.sig) → Buf (Elt Ideal) ℓ) (hpre : Cert.Pre_KernelIdeal m) (c : Dev Cert.KernelIdeal.nD) : Cert.Spec.IsReal (m ((c.tc : Thread Cert.KernelIdeal.nD Cert.KernelIdeal.τ).loc Cert.KernelIdeal.main_arg9)) :=
  (args_real m hpre c).2.2.2.2.2.2.2.2.2.1

/-- Argument 10, the float array of shape [64, 1], is real under the precondition. -/
theorem arg10_real (m : (ℓ : Loc Cert.KernelIdeal.nD Cert.KernelIdeal.τ Cert.KernelIdeal.sig) → Buf (Elt Ideal) ℓ) (hpre : Cert.Pre_KernelIdeal m) (c : Dev Cert.KernelIdeal.nD) : Cert.Spec.IsReal (m ((c.tc : Thread Cert.KernelIdeal.nD Cert.KernelIdeal.τ).loc Cert.KernelIdeal.main_arg10)) :=
  (args_real m hpre c).2.2.2.2.2.2.2.2.2.2.1

/-- Argument 11, the float array of shape [1], is real under the precondition. -/
theorem arg11_real (m : (ℓ : Loc Cert.KernelIdeal.nD Cert.KernelIdeal.τ Cert.KernelIdeal.sig) → Buf (Elt Ideal) ℓ) (hpre : Cert.Pre_KernelIdeal m) (c : Dev Cert.KernelIdeal.nD) : Cert.Spec.IsReal (m ((c.tc : Thread Cert.KernelIdeal.nD Cert.KernelIdeal.τ).loc Cert.KernelIdeal.main_arg11)) :=
  (args_real m hpre c).2.2.2.2.2.2.2.2.2.2.2

end Cert.Spec.ArgsReal

end
-- ==== Proof.lean ====
/-
  The certificate of the heterogeneous message-passing network: the Pallas program and its jnp reference compute the
  same four results on extended reals.

  Frames. The two kernel programs' frames are their generated frame certificates (each cut into modules that build side by side); the reference has no kernel, and
  its frame is its run with the results dropped. The ideal pass rewrote nothing, so the idealized kernel
  program is the kernel program's own text read at exact arithmetic.

  Values. The kernel program's run leaves in each result buffer what the fold of its host stretches and its twenty
  regions' write-backs leaves there (`GenP.run_values`); read back stretch by stretch and region by region, that is
  the kernel program's network of the argument arrays (`KW.results`): every region's output array is its fused
  dense update of the arrays its windows read, entry by entry. The reference's run leaves the reference's network
  of its argument arrays (`ValueP.run`). On real argument arrays the two networks agree value by value
  (`Cert.Spec.out0_eq` and its companions): the aggregation, the weight selection and the final division are the
  same operations, the author and term updates and the read-out heads differ by the grouping of a sum, and the
  paper update by distributing a row of real features over the sum of two real weight matrices. The
  precondition makes every float argument array real.
-/
import proofs.«165177_j32074815766916_1_alg».proof.Defs
import proofs.«165177_j32074815766916_1_alg».proof.Proof.Gen.Kernel
import proofs.«165177_j32074815766916_1_alg».proof.Proof.Gen.Kernel.Skeleton
import proofs.«165177_j32074815766916_1_alg».proof.Proof.Gen.Kernel.Launch
import proofs.«165177_j32074815766916_1_alg».proof.Proof.Gen.Kernel.Points
import proofs.«165177_j32074815766916_1_alg».proof.Proof.FKF
import proofs.«165177_j32074815766916_1_alg».proof.Proof.Gen.KernelIdeal
import proofs.«165177_j32074815766916_1_alg».proof.Proof.Gen.KernelIdeal.Skeleton
import proofs.«165177_j32074815766916_1_alg».proof.Proof.Gen.KernelIdeal.Launch
import proofs.«165177_j32074815766916_1_alg».proof.Proof.Gen.KernelIdeal.Points
import proofs.«165177_j32074815766916_1_alg».proof.Proof.FIF
import proofs.«165177_j32074815766916_1_alg».proof.Proof.Gen.ReferenceIdeal
import proofs.«165177_j32074815766916_1_alg».proof.Proof.Gen.Pre_finite_inputs
import proofs.«165177_j32074815766916_1_alg».proof.Proof.KRun
import proofs.«165177_j32074815766916_1_alg».proof.Proof.KWFin
import proofs.«165177_j32074815766916_1_alg».proof.Proof.RRRun
import proofs.«165177_j32074815766916_1_alg».proof.Proof.NetEq
import proofs.«165177_j32074815766916_1_alg».proof.Proof.ArgsReal
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2.2.2.2) (Cert.ReferenceIdeal.ValueP.run m ρ)

/-- The precondition makes the twelve float argument arrays real. -/
theorem argsReal (m : (ℓ : Loc Cert.KernelIdeal.nD Cert.KernelIdeal.τ Cert.KernelIdeal.sig) → Buf (Elt Ideal) ℓ)
    (hpre : Cert.Pre_KernelIdeal m) (c : Dev Cert.KernelIdeal.nD) : Cert.Spec.ArgsReal (Cert.Spec.argsK m c) :=
  ⟨Cert.Spec.ArgsReal.arg0_real m hpre c, Cert.Spec.ArgsReal.arg1_real m hpre c, Cert.Spec.ArgsReal.arg2_real m hpre c,
   Cert.Spec.ArgsReal.arg3_real m hpre c, Cert.Spec.ArgsReal.arg4_real m hpre c, Cert.Spec.ArgsReal.arg5_real m hpre c,
   Cert.Spec.ArgsReal.arg6_real m hpre c, Cert.Spec.ArgsReal.arg7_real m hpre c, Cert.Spec.ArgsReal.arg8_real m hpre c,
   Cert.Spec.ArgsReal.arg9_real m hpre c, Cert.Spec.ArgsReal.arg10_real m hpre c, Cert.Spec.ArgsReal.arg11_real m hpre c⟩

/-- Two bundles of argument arrays with the same twenty components are one bundle. -/
theorem args_ext {A B : Cert.Spec.Args} (h0 : A.xa = B.xa) (h1 : A.xp = B.xp) (h2 : A.xt = B.xt) (h3 : A.Wl = B.Wl)
    (h4 : A.bl = B.bl) (h5 : A.Wr = B.Wr) (h6 : A.lmW = B.lmW) (h7 : A.lmb = B.lmb) (h8 : A.ltW = B.ltW)
    (h9 : A.ltb = B.ltb) (h10 : A.l2W = B.l2W) (h11 : A.l2b = B.l2b) (h12 : A.sap = B.sap) (h13 : A.dap = B.dap)
    (h14 : A.spa = B.spa) (h15 : A.dpa = B.dpa) (h16 : A.spt = B.spt) (h17 : A.dpt = B.dpt) (h18 : A.stp = B.stp)
    (h19 : A.dtp = B.dtp) : A = B := by
  cases A
  cases B
  simp_all

theorem preserves : Cert.preserves_Kernel_KernelIdeal := trivial

set_option backward.isDefEq.respectTransparency.types false in
/-- From memories that agree on the twenty argument arrays, of which the precondition holds: the kernel program ends with
    its network of its argument arrays in the four result buffers, the reference with its network of its own; the two
    bundles of arguments are one bundle, its float arrays are real, and on real arrays the two networks are one function,
    value by value. Both leave the arguments as launched. -/
theorem algebraic : Cert.algebraic_KernelIdeal_ReferenceIdeal := by
  intro m ρ m' ρ' hpre hagree
  refine ⟨_, _, _, _, Cert.KernelIdeal.GenP.run_values (F := Ideal) m ρ, ?_⟩
  refine (θ_run Cert.ReferenceIdeal.defs _ _).mono (fun _ h c => ?_) (Cert.ReferenceIdeal.ValueP.run m' ρ')
  have hargs : Cert.Spec.argsR m' c = Cert.Spec.argsK m c := by
    obtain ⟨h0, h1, h2, h3, h4, h5, h6, h7, h8, h9, h10, h11, h12, h13, h14, h15, h16, h17, h18, h19⟩ := hagree c
    exact args_ext h0 h1 h2 h3 h4 h5 h6 h7 h8 h9 h10 h11 h12 h13 h14 h15 h16 h17 h18 h19
  have hreal : Cert.Spec.ArgsReal (Cert.Spec.argsK m c) := argsReal m hpre c
  have hk := Cert.KernelIdeal.KW.results m ρ c
  exact ⟨(h c).1.trans ((congrArg Cert.Spec.R.out0 hargs).trans ((Cert.Spec.out0_eq hreal).symm.trans hk.1.symm)),
    (h c).2.1.trans ((congrArg Cert.Spec.R.oa2 hargs).trans ((Cert.Spec.oa2_eq hreal).symm.trans hk.2.1.symm)),
    (h c).2.2.1.trans ((congrArg Cert.Spec.R.op2 hargs).trans ((Cert.Spec.op2_eq hreal).symm.trans hk.2.2.1.symm)),
    (h c).2.2.2.1.trans ((congrArg Cert.Spec.R.ot2 hargs).trans ((Cert.Spec.ot2_eq hreal).symm.trans hk.2.2.2.symm)),
    (h c).2.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
